-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .f32) (main_arg1 : FVec F S4x4096x8x128 .f32) (main_arg2 : FVec F S4x4096x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x4096x8x128 .f32 := Host.absf main_arg2
  let main_cst_2 : FVec F S_ .f32 := constant S_ .f32 0x7F800000#32
  let main_v10 : FVec F S4x4096x8x128 .f32 := broadcastInDim S4x4096x8x128 ![] bcast_S_S4x4096x8x128 main_cst_2
  let main_v11 : IVec S4x4096x8x128 1 := cmpf .olt main_v9 main_v10
  let main_c_3 : IVec S_ 1 := constantI S_ 1 1#1
  let main_v12 : IVec S_ 1 := (fun x v => Host.reduce IntOp.andi x v reducesTo_S4x4096x8x128_S_d0_1_2_3 h_S_) main_v11 main_c_3
  let main_v13 : IVec S_ 1 := andi main_v8 main_v12
  main_v13
-- ==== Pre_finite_inputs_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .f32) (main_arg1 : FVec F S4x8192x8x128 .f32) (main_arg2 : FVec F S4x8192x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  let main_v9 : FVec F S4x8192x8x128 .f32 := Host.absf main_arg2
  let main_cst_2 : FVec F S_ .f32 := constant S_ .f32 0x7F800000#32
  let main_v10 : FVec F S4x8192x8x128 .f32 := broadcastInDim S4x8192x8x128 ![] bcast_S_S4x8192x8x128 main_cst_2
  let main_v11 : IVec S4x8192x8x128 1 := cmpf .olt main_v9 main_v10
  let main_c_3 : IVec S_ 1 := constantI S_ 1 1#1
  let main_v12 : IVec S_ 1 := (fun x v => Host.reduce IntOp.andi x v reducesTo_S4x8192x8x128_S_d0_1_2_3 h_S_) main_v11 main_c_3
  let main_v13 : IVec S_ 1 := andi main_v8 main_v12
  main_v13
-- ==== Kernel.lean ====
abbrev S4x32x8x128 : Shape := ⟨4, ![4, 32, 8, 128]⟩
abbrev S4x4096x8x128 : Shape := ⟨4, ![4, 4096, 8, 128]⟩
abbrev S4x4096x1x128 : Shape := ⟨4, ![4, 4096, 1, 128]⟩
abbrev S4x32x128 : Shape := ⟨3, ![4, 32, 128]⟩
abbrev S4x32x1 : Shape := ⟨3, ![4, 32, 1]⟩
abbrev S8 : Shape := ⟨1, ![8]⟩
abbrev S4x2 : Shape := ⟨2, ![4, 2]⟩
abbrev S4x7 : Shape := ⟨2, ![4, 7]⟩
abbrev S1 : Shape := ⟨1, ![1]⟩
abbrev S_ : Shape := ⟨0, ![]⟩
abbrev S1x4096x1x128 : Shape := ⟨4, ![1, 4096, 1, 128]⟩
abbrev S4096x1x128 : Shape := ⟨3, ![4096, 1, 128]⟩
abbrev S1x32x1x128 : Shape := ⟨4, ![1, 32, 1, 128]⟩
abbrev S32x1x128 : Shape := ⟨3, ![32, 1, 128]⟩
abbrev S32x128 : Shape := ⟨2, ![32, 128]⟩
abbrev S4096x128 : Shape := ⟨2, ![4096, 128]⟩
abbrev S32x4096 : Shape := ⟨2, ![32, 4096]⟩
abbrev S32 : Shape := ⟨1, ![32]⟩
abbrev S32x1 : Shape := ⟨2, ![32, 1]⟩
abbrev S1x32x1 : Shape := ⟨3, ![1, 32, 1]⟩
abbrev S1x32x128 : Shape := ⟨3, ![1, 32, 128]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S4x32x8x128, .f32⟩
  | .local _ .vmem, ⟨1, _⟩ => ⟨S4x32x8x128, .f32⟩
  | .local _ .vmem, ⟨2, _⟩ => ⟨S4x4096x1x128, .f32⟩
  | .local _ .vmem, ⟨3, _⟩ => ⟨S4x4096x1x128, .f32⟩
  | .local _ .vmem, ⟨4, _⟩ => ⟨S4x32x128, .f32⟩
  | .local _ .vmem, ⟨5, _⟩ => ⟨S4x32x1, .f32⟩
  | .local _ .vmem, ⟨6, _⟩ => ⟨S4x32x128, .f32⟩
  | .local _ .vmem, ⟨7, _⟩ => ⟨S4x32x1, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 4 → Nat :=
  let c0_i32_16 : BitVec 32 := 0#32
  let c0_i32_22 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_23 : BitVec 32 := 0#32
  ![0, 0, v10.toNat, 0]
def k0_off2 (d0 : Dev nD) : Fin 4 → Nat :=
  let c1_i32_32 : BitVec 32 := 1#32
  let c0_i32_38 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_39 : BitVec 32 := 0#32
  ![1, 0, v10.toNat, 0]
def k0_off3 (d0 : Dev nD) : Fin 4 → Nat :=
  let c2_i32_48 : BitVec 32 := 2#32
  let c0_i32_54 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_55 : BitVec 32 := 0#32
  ![2, 0, v10.toNat, 0]
def k0_off4 (d0 : Dev nD) : Fin 4 → Nat :=
  let c3_i32_63 : BitVec 32 := 3#32
  let c0_i32_68 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_69 : BitVec 32 := 0#32
  ![3, 0, v10.toNat, 0]
def k0_dev1 (d0 : Dev nD) : Nat :=
  let c0_i32_79 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_78 : BitVec 32 := 8#32
  let v75 : BitVec 32 := Scalar.muli v11 c8_i32_78
  let v76 : BitVec 32 := Scalar.addi c0_i32_79 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v77 : BitVec 32 := Scalar.muli v5 c4_i32_80
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v79 : BitVec 32 := Scalar.muli v8 c1_i32_81
  let v80 : BitVec 32 := Scalar.addi v78 v79
  v80.toNat
def k0_dev2 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v81 : BitVec 32 := Scalar.muli v2 c8_i32_83
  let v82 : BitVec 32 := Scalar.addi c0_i32_84 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v12 : BitVec 32 := Scalar.xori v5 c0_i32
  let c4_i32_85 : BitVec 32 := 4#32
  let v83 : BitVec 32 := Scalar.muli v12 c4_i32_85
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.xori v8 c1_i32_4
  let c1_i32_86 : BitVec 32 := 1#32
  let v85 : BitVec 32 := Scalar.muli v13 c1_i32_86
  let v86 : BitVec 32 := Scalar.addi v84 v85
  v86.toNat
def k0_dev3 (d0 : Dev nD) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v87 : BitVec 32 := Scalar.muli v2 c8_i32_88
  let v88 : BitVec 32 := Scalar.addi c0_i32_89 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_5 : BitVec 32 := 0#32
  let v14 : BitVec 32 := Scalar.xori v5 c0_i32_5
  let c4_i32_90 : BitVec 32 := 4#32
  let v89 : BitVec 32 := Scalar.muli v14 c4_i32_90
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_91 : BitVec 32 := 1#32
  let v91 : BitVec 32 := Scalar.muli v15 c1_i32_91
  let v92 : BitVec 32 := Scalar.addi v90 v91
  v92.toNat
def k0_dev4 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v93 : BitVec 32 := Scalar.muli v2 c8_i32_93
  let v94 : BitVec 32 := Scalar.addi c0_i32_94 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_7 : BitVec 32 := 0#32
  let v16 : BitVec 32 := Scalar.xori v5 c0_i32_7
  let c4_i32_95 : BitVec 32 := 4#32
  let v95 : BitVec 32 := Scalar.muli v16 c4_i32_95
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v17 : BitVec 32 := Scalar.xori v8 c3_i32
  let c1_i32_96 : BitVec 32 := 1#32
  let v97 : BitVec 32 := Scalar.muli v17 c1_i32_96
  let v98 : BitVec 32 := Scalar.addi v96 v97
  v98.toNat
def k0_dev5 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v99 : BitVec 32 := Scalar.muli v2 c8_i32_98
  let v100 : BitVec 32 := Scalar.addi c0_i32_99 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v18 : BitVec 32 := Scalar.xori v5 c1_i32_8
  let c4_i32_100 : BitVec 32 := 4#32
  let v101 : BitVec 32 := Scalar.muli v18 c4_i32_100
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_9 : BitVec 32 := 0#32
  let v19 : BitVec 32 := Scalar.xori v8 c0_i32_9
  let c1_i32_101 : BitVec 32 := 1#32
  let v103 : BitVec 32 := Scalar.muli v19 c1_i32_101
  let v104 : BitVec 32 := Scalar.addi v102 v103
  v104.toNat
def k0_dev6 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v105 : BitVec 32 := Scalar.muli v2 c8_i32_103
  let v106 : BitVec 32 := Scalar.addi c0_i32_104 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_10 : BitVec 32 := 1#32
  let v20 : BitVec 32 := Scalar.xori v5 c1_i32_10
  let c4_i32_105 : BitVec 32 := 4#32
  let v107 : BitVec 32 := Scalar.muli v20 c4_i32_105
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.xori v8 c1_i32_11
  let c1_i32_106 : BitVec 32 := 1#32
  let v109 : BitVec 32 := Scalar.muli v21 c1_i32_106
  let v110 : BitVec 32 := Scalar.addi v108 v109
  v110.toNat
def k0_dev7 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v111 : BitVec 32 := Scalar.muli v2 c8_i32_108
  let v112 : BitVec 32 := Scalar.addi c0_i32_109 v111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_12 : BitVec 32 := 1#32
  let v22 : BitVec 32 := Scalar.xori v5 c1_i32_12
  let c4_i32_110 : BitVec 32 := 4#32
  let v113 : BitVec 32 := Scalar.muli v22 c4_i32_110
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v23 : BitVec 32 := Scalar.xori v8 c2_i32_13
  let c1_i32_111 : BitVec 32 := 1#32
  let v115 : BitVec 32 := Scalar.muli v23 c1_i32_111
  let v116 : BitVec 32 := Scalar.addi v114 v115
  v116.toNat
def k0_dev8 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v117 : BitVec 32 := Scalar.muli v2 c8_i32_113
  let v118 : BitVec 32 := Scalar.addi c0_i32_114 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_14 : BitVec 32 := 1#32
  let v24 : BitVec 32 := Scalar.xori v5 c1_i32_14
  let c4_i32_115 : BitVec 32 := 4#32
  let v119 : BitVec 32 := Scalar.muli v24 c4_i32_115
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v25 : BitVec 32 := Scalar.xori v8 c3_i32_15
  let c1_i32_116 : BitVec 32 := 1#32
  let v121 : BitVec 32 := Scalar.muli v25 c1_i32_116
  let v122 : BitVec 32 := Scalar.addi v120 v121
  v122.toNat
def k0_off5 (d0 : Dev nD) : Fin 4 → Nat :=
  let c0 : Index := 0#32
  let c0_118 : Index := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v123 : Index := Scalar.indexCast v10
  let c0_119 : Index := 0#32
  ![0, 0, v123.toNat, 0]
def k0_dev9 (d0 : Dev nD) : Nat :=
  let c0_i32_160 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_159 : BitVec 32 := 8#32
  let v156 : BitVec 32 := Scalar.muli v11 c8_i32_159
  let v157 : BitVec 32 := Scalar.addi c0_i32_160 v156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_161 : BitVec 32 := 4#32
  let v158 : BitVec 32 := Scalar.muli v5 c4_i32_161
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v160 : BitVec 32 := Scalar.muli v8 c1_i32_162
  let v161 : BitVec 32 := Scalar.addi v159 v160
  v161.toNat
def k0_dev10 (d0 : Dev nD) : Nat :=
  let c0_i32_174 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_173 : BitVec 32 := 8#32
  let v170 : BitVec 32 := Scalar.muli v11 c8_i32_173
  let v171 : BitVec 32 := Scalar.addi c0_i32_174 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v172 : BitVec 32 := Scalar.muli v5 c4_i32_175
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v174 : BitVec 32 := Scalar.muli v8 c1_i32_176
  let v175 : BitVec 32 := Scalar.addi v173 v174
  v175.toNat
def k0_off6 (d0 : Dev nD) : Fin 4 → Nat :=
  let c1 : Index := 1#32
  let c0_181 : Index := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v184 : Index := Scalar.indexCast v10
  let c0_182 : Index := 0#32
  ![1, 0, v184.toNat, 0]
def k0_dev11 (d0 : Dev nD) : Nat :=
  let c0_i32_224 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_223 : BitVec 32 := 8#32
  let v217 : BitVec 32 := Scalar.muli v11 c8_i32_223
  let v218 : BitVec 32 := Scalar.addi c0_i32_224 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_225 : BitVec 32 := 4#32
  let v219 : BitVec 32 := Scalar.muli v5 c4_i32_225
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v221 : BitVec 32 := Scalar.muli v8 c1_i32_226
  let v222 : BitVec 32 := Scalar.addi v220 v221
  v222.toNat
def k0_dev12 (d0 : Dev nD) : Nat :=
  let c0_i32_238 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_237 : BitVec 32 := 8#32
  let v231 : BitVec 32 := Scalar.muli v11 c8_i32_237
  let v232 : BitVec 32 := Scalar.addi c0_i32_238 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v233 : BitVec 32 := Scalar.muli v5 c4_i32_239
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v235 : BitVec 32 := Scalar.muli v8 c1_i32_240
  let v236 : BitVec 32 := Scalar.addi v234 v235
  v236.toNat
def k0_off7 (d0 : Dev nD) : Fin 4 → Nat :=
  let c0_i32_318 : BitVec 32 := 0#32
  let c0_i32_319 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_320 : BitVec 32 := 0#32
  ![0, 0, v10.toNat, 0]
def k0_dev13 (d0 : Dev nD) : Nat :=
  let c0_i32_315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_314 : BitVec 32 := 8#32
  let v298 : BitVec 32 := Scalar.muli v2 c8_i32_314
  let v299 : BitVec 32 := Scalar.addi c0_i32_315 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v12 : BitVec 32 := Scalar.xori v5 c0_i32
  let c4_i32_316 : BitVec 32 := 4#32
  let v300 : BitVec 32 := Scalar.muli v12 c4_i32_316
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.xori v8 c1_i32_4
  let c1_i32_317 : BitVec 32 := 1#32
  let v302 : BitVec 32 := Scalar.muli v13 c1_i32_317
  let v303 : BitVec 32 := Scalar.addi v301 v302
  v303.toNat
def k0_dev14 (d0 : Dev nD) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v310 : BitVec 32 := Scalar.muli v2 c8_i32_328
  let v311 : BitVec 32 := Scalar.addi c0_i32_329 v310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_5 : BitVec 32 := 0#32
  let v14 : BitVec 32 := Scalar.xori v5 c0_i32_5
  let c4_i32_330 : BitVec 32 := 4#32
  let v312 : BitVec 32 := Scalar.muli v14 c4_i32_330
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_331 : BitVec 32 := 1#32
  let v314 : BitVec 32 := Scalar.muli v15 c1_i32_331
  let v315 : BitVec 32 := Scalar.addi v313 v314
  v315.toNat
def k0_dev15 (d0 : Dev nD) : Nat :=
  let c0_i32_343 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_342 : BitVec 32 := 8#32
  let v322 : BitVec 32 := Scalar.muli v2 c8_i32_342
  let v323 : BitVec 32 := Scalar.addi c0_i32_343 v322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_7 : BitVec 32 := 0#32
  let v16 : BitVec 32 := Scalar.xori v5 c0_i32_7
  let c4_i32_344 : BitVec 32 := 4#32
  let v324 : BitVec 32 := Scalar.muli v16 c4_i32_344
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v17 : BitVec 32 := Scalar.xori v8 c3_i32
  let c1_i32_345 : BitVec 32 := 1#32
  let v326 : BitVec 32 := Scalar.muli v17 c1_i32_345
  let v327 : BitVec 32 := Scalar.addi v325 v326
  v327.toNat
def k0_dev16 (d0 : Dev nD) : Nat :=
  let c0_i32_357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_356 : BitVec 32 := 8#32
  let v334 : BitVec 32 := Scalar.muli v2 c8_i32_356
  let v335 : BitVec 32 := Scalar.addi c0_i32_357 v334
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v18 : BitVec 32 := Scalar.xori v5 c1_i32_8
  let c4_i32_358 : BitVec 32 := 4#32
  let v336 : BitVec 32 := Scalar.muli v18 c4_i32_358
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_9 : BitVec 32 := 0#32
  let v19 : BitVec 32 := Scalar.xori v8 c0_i32_9
  let c1_i32_359 : BitVec 32 := 1#32
  let v338 : BitVec 32 := Scalar.muli v19 c1_i32_359
  let v339 : BitVec 32 := Scalar.addi v337 v338
  v339.toNat
def k0_dev17 (d0 : Dev nD) : Nat :=
  let c0_i32_371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_370 : BitVec 32 := 8#32
  let v346 : BitVec 32 := Scalar.muli v2 c8_i32_370
  let v347 : BitVec 32 := Scalar.addi c0_i32_371 v346
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_10 : BitVec 32 := 1#32
  let v20 : BitVec 32 := Scalar.xori v5 c1_i32_10
  let c4_i32_372 : BitVec 32 := 4#32
  let v348 : BitVec 32 := Scalar.muli v20 c4_i32_372
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.xori v8 c1_i32_11
  let c1_i32_373 : BitVec 32 := 1#32
  let v350 : BitVec 32 := Scalar.muli v21 c1_i32_373
  let v351 : BitVec 32 := Scalar.addi v349 v350
  v351.toNat
def k0_dev18 (d0 : Dev nD) : Nat :=
  let c0_i32_385 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_384 : BitVec 32 := 8#32
  let v358 : BitVec 32 := Scalar.muli v2 c8_i32_384
  let v359 : BitVec 32 := Scalar.addi c0_i32_385 v358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_12 : BitVec 32 := 1#32
  let v22 : BitVec 32 := Scalar.xori v5 c1_i32_12
  let c4_i32_386 : BitVec 32 := 4#32
  let v360 : BitVec 32 := Scalar.muli v22 c4_i32_386
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v23 : BitVec 32 := Scalar.xori v8 c2_i32_13
  let c1_i32_387 : BitVec 32 := 1#32
  let v362 : BitVec 32 := Scalar.muli v23 c1_i32_387
  let v363 : BitVec 32 := Scalar.addi v361 v362
  v363.toNat
def k0_dev19 (d0 : Dev nD) : Nat :=
  let c0_i32_399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_398 : BitVec 32 := 8#32
  let v370 : BitVec 32 := Scalar.muli v2 c8_i32_398
  let v371 : BitVec 32 := Scalar.addi c0_i32_399 v370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_14 : BitVec 32 := 1#32
  let v24 : BitVec 32 := Scalar.xori v5 c1_i32_14
  let c4_i32_400 : BitVec 32 := 4#32
  let v372 : BitVec 32 := Scalar.muli v24 c4_i32_400
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v25 : BitVec 32 := Scalar.xori v8 c3_i32_15
  let c1_i32_401 : BitVec 32 := 1#32
  let v374 : BitVec 32 := Scalar.muli v25 c1_i32_401
  let v375 : BitVec 32 := Scalar.addi v373 v374
  v375.toNat
def k0_off8 (d0 : Dev nD) : Fin 4 → Nat :=
  let c2 : Index := 2#32
  let c0_408 : Index := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v382 : Index := Scalar.indexCast v10
  let c0_409 : Index := 0#32
  ![2, 0, v382.toNat, 0]
def k0_dev20 (d0 : Dev nD) : Nat :=
  let c0_i32_451 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_450 : BitVec 32 := 8#32
  let v415 : BitVec 32 := Scalar.muli v11 c8_i32_450
  let v416 : BitVec 32 := Scalar.addi c0_i32_451 v415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_452 : BitVec 32 := 4#32
  let v417 : BitVec 32 := Scalar.muli v5 c4_i32_452
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v419 : BitVec 32 := Scalar.muli v8 c1_i32_453
  let v420 : BitVec 32 := Scalar.addi v418 v419
  v420.toNat
def k0_dev21 (d0 : Dev nD) : Nat :=
  let c0_i32_465 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_464 : BitVec 32 := 8#32
  let v429 : BitVec 32 := Scalar.muli v11 c8_i32_464
  let v430 : BitVec 32 := Scalar.addi c0_i32_465 v429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_466 : BitVec 32 := 4#32
  let v431 : BitVec 32 := Scalar.muli v5 c4_i32_466
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v433 : BitVec 32 := Scalar.muli v8 c1_i32_467
  let v434 : BitVec 32 := Scalar.addi v432 v433
  v434.toNat
def k0_off9 (d0 : Dev nD) : Fin 4 → Nat :=
  let c1_i32_545 : BitVec 32 := 1#32
  let c0_i32_546 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_547 : BitVec 32 := 0#32
  ![1, 0, v10.toNat, 0]
def k0_dev22 (d0 : Dev nD) : Nat :=
  let c0_i32_542 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_541 : BitVec 32 := 8#32
  let v496 : BitVec 32 := Scalar.muli v2 c8_i32_541
  let v497 : BitVec 32 := Scalar.addi c0_i32_542 v496
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v12 : BitVec 32 := Scalar.xori v5 c0_i32
  let c4_i32_543 : BitVec 32 := 4#32
  let v498 : BitVec 32 := Scalar.muli v12 c4_i32_543
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.xori v8 c1_i32_4
  let c1_i32_544 : BitVec 32 := 1#32
  let v500 : BitVec 32 := Scalar.muli v13 c1_i32_544
  let v501 : BitVec 32 := Scalar.addi v499 v500
  v501.toNat
def k0_dev23 (d0 : Dev nD) : Nat :=
  let c0_i32_556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_555 : BitVec 32 := 8#32
  let v508 : BitVec 32 := Scalar.muli v2 c8_i32_555
  let v509 : BitVec 32 := Scalar.addi c0_i32_556 v508
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_5 : BitVec 32 := 0#32
  let v14 : BitVec 32 := Scalar.xori v5 c0_i32_5
  let c4_i32_557 : BitVec 32 := 4#32
  let v510 : BitVec 32 := Scalar.muli v14 c4_i32_557
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_558 : BitVec 32 := 1#32
  let v512 : BitVec 32 := Scalar.muli v15 c1_i32_558
  let v513 : BitVec 32 := Scalar.addi v511 v512
  v513.toNat
def k0_dev24 (d0 : Dev nD) : Nat :=
  let c0_i32_570 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_569 : BitVec 32 := 8#32
  let v520 : BitVec 32 := Scalar.muli v2 c8_i32_569
  let v521 : BitVec 32 := Scalar.addi c0_i32_570 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_7 : BitVec 32 := 0#32
  let v16 : BitVec 32 := Scalar.xori v5 c0_i32_7
  let c4_i32_571 : BitVec 32 := 4#32
  let v522 : BitVec 32 := Scalar.muli v16 c4_i32_571
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v17 : BitVec 32 := Scalar.xori v8 c3_i32
  let c1_i32_572 : BitVec 32 := 1#32
  let v524 : BitVec 32 := Scalar.muli v17 c1_i32_572
  let v525 : BitVec 32 := Scalar.addi v523 v524
  v525.toNat
def k0_dev25 (d0 : Dev nD) : Nat :=
  let c0_i32_584 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_583 : BitVec 32 := 8#32
  let v532 : BitVec 32 := Scalar.muli v2 c8_i32_583
  let v533 : BitVec 32 := Scalar.addi c0_i32_584 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v18 : BitVec 32 := Scalar.xori v5 c1_i32_8
  let c4_i32_585 : BitVec 32 := 4#32
  let v534 : BitVec 32 := Scalar.muli v18 c4_i32_585
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_9 : BitVec 32 := 0#32
  let v19 : BitVec 32 := Scalar.xori v8 c0_i32_9
  let c1_i32_586 : BitVec 32 := 1#32
  let v536 : BitVec 32 := Scalar.muli v19 c1_i32_586
  let v537 : BitVec 32 := Scalar.addi v535 v536
  v537.toNat
def k0_dev26 (d0 : Dev nD) : Nat :=
  let c0_i32_598 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_597 : BitVec 32 := 8#32
  let v544 : BitVec 32 := Scalar.muli v2 c8_i32_597
  let v545 : BitVec 32 := Scalar.addi c0_i32_598 v544
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_10 : BitVec 32 := 1#32
  let v20 : BitVec 32 := Scalar.xori v5 c1_i32_10
  let c4_i32_599 : BitVec 32 := 4#32
  let v546 : BitVec 32 := Scalar.muli v20 c4_i32_599
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.xori v8 c1_i32_11
  let c1_i32_600 : BitVec 32 := 1#32
  let v548 : BitVec 32 := Scalar.muli v21 c1_i32_600
  let v549 : BitVec 32 := Scalar.addi v547 v548
  v549.toNat
def k0_dev27 (d0 : Dev nD) : Nat :=
  let c0_i32_612 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_611 : BitVec 32 := 8#32
  let v556 : BitVec 32 := Scalar.muli v2 c8_i32_611
  let v557 : BitVec 32 := Scalar.addi c0_i32_612 v556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_12 : BitVec 32 := 1#32
  let v22 : BitVec 32 := Scalar.xori v5 c1_i32_12
  let c4_i32_613 : BitVec 32 := 4#32
  let v558 : BitVec 32 := Scalar.muli v22 c4_i32_613
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v23 : BitVec 32 := Scalar.xori v8 c2_i32_13
  let c1_i32_614 : BitVec 32 := 1#32
  let v560 : BitVec 32 := Scalar.muli v23 c1_i32_614
  let v561 : BitVec 32 := Scalar.addi v559 v560
  v561.toNat
def k0_dev28 (d0 : Dev nD) : Nat :=
  let c0_i32_626 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_625 : BitVec 32 := 8#32
  let v568 : BitVec 32 := Scalar.muli v2 c8_i32_625
  let v569 : BitVec 32 := Scalar.addi c0_i32_626 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_14 : BitVec 32 := 1#32
  let v24 : BitVec 32 := Scalar.xori v5 c1_i32_14
  let c4_i32_627 : BitVec 32 := 4#32
  let v570 : BitVec 32 := Scalar.muli v24 c4_i32_627
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v25 : BitVec 32 := Scalar.xori v8 c3_i32_15
  let c1_i32_628 : BitVec 32 := 1#32
  let v572 : BitVec 32 := Scalar.muli v25 c1_i32_628
  let v573 : BitVec 32 := Scalar.addi v571 v572
  v573.toNat
def k0_off10 (d0 : Dev nD) : Fin 4 → Nat :=
  let c3 : Index := 3#32
  let c0_635 : Index := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v580 : Index := Scalar.indexCast v10
  let c0_636 : Index := 0#32
  ![3, 0, v580.toNat, 0]
def k0_dev29 (d0 : Dev nD) : Nat :=
  let c0_i32_678 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_677 : BitVec 32 := 8#32
  let v613 : BitVec 32 := Scalar.muli v11 c8_i32_677
  let v614 : BitVec 32 := Scalar.addi c0_i32_678 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_679 : BitVec 32 := 4#32
  let v615 : BitVec 32 := Scalar.muli v5 c4_i32_679
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v617 : BitVec 32 := Scalar.muli v8 c1_i32_680
  let v618 : BitVec 32 := Scalar.addi v616 v617
  v618.toNat
def k0_dev30 (d0 : Dev nD) : Nat :=
  let c0_i32_692 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_691 : BitVec 32 := 8#32
  let v627 : BitVec 32 := Scalar.muli v11 c8_i32_691
  let v628 : BitVec 32 := Scalar.addi c0_i32_692 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_693 : BitVec 32 := 4#32
  let v629 : BitVec 32 := Scalar.muli v5 c4_i32_693
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v631 : BitVec 32 := Scalar.muli v8 c1_i32_694
  let v632 : BitVec 32 := Scalar.addi v630 v631
  v632.toNat
def k0_off11 (d0 : Dev nD) : Fin 4 → Nat :=
  let c2_i32_772 : BitVec 32 := 2#32
  let c0_i32_773 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_774 : BitVec 32 := 0#32
  ![2, 0, v10.toNat, 0]
def k0_dev31 (d0 : Dev nD) : Nat :=
  let c0_i32_769 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_768 : BitVec 32 := 8#32
  let v694 : BitVec 32 := Scalar.muli v2 c8_i32_768
  let v695 : BitVec 32 := Scalar.addi c0_i32_769 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v12 : BitVec 32 := Scalar.xori v5 c0_i32
  let c4_i32_770 : BitVec 32 := 4#32
  let v696 : BitVec 32 := Scalar.muli v12 c4_i32_770
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.xori v8 c1_i32_4
  let c1_i32_771 : BitVec 32 := 1#32
  let v698 : BitVec 32 := Scalar.muli v13 c1_i32_771
  let v699 : BitVec 32 := Scalar.addi v697 v698
  v699.toNat
def k0_dev32 (d0 : Dev nD) : Nat :=
  let c0_i32_783 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_782 : BitVec 32 := 8#32
  let v706 : BitVec 32 := Scalar.muli v2 c8_i32_782
  let v707 : BitVec 32 := Scalar.addi c0_i32_783 v706
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_5 : BitVec 32 := 0#32
  let v14 : BitVec 32 := Scalar.xori v5 c0_i32_5
  let c4_i32_784 : BitVec 32 := 4#32
  let v708 : BitVec 32 := Scalar.muli v14 c4_i32_784
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_785 : BitVec 32 := 1#32
  let v710 : BitVec 32 := Scalar.muli v15 c1_i32_785
  let v711 : BitVec 32 := Scalar.addi v709 v710
  v711.toNat
def k0_dev33 (d0 : Dev nD) : Nat :=
  let c0_i32_797 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_796 : BitVec 32 := 8#32
  let v718 : BitVec 32 := Scalar.muli v2 c8_i32_796
  let v719 : BitVec 32 := Scalar.addi c0_i32_797 v718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_7 : BitVec 32 := 0#32
  let v16 : BitVec 32 := Scalar.xori v5 c0_i32_7
  let c4_i32_798 : BitVec 32 := 4#32
  let v720 : BitVec 32 := Scalar.muli v16 c4_i32_798
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v17 : BitVec 32 := Scalar.xori v8 c3_i32
  let c1_i32_799 : BitVec 32 := 1#32
  let v722 : BitVec 32 := Scalar.muli v17 c1_i32_799
  let v723 : BitVec 32 := Scalar.addi v721 v722
  v723.toNat
def k0_dev34 (d0 : Dev nD) : Nat :=
  let c0_i32_811 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_810 : BitVec 32 := 8#32
  let v730 : BitVec 32 := Scalar.muli v2 c8_i32_810
  let v731 : BitVec 32 := Scalar.addi c0_i32_811 v730
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v18 : BitVec 32 := Scalar.xori v5 c1_i32_8
  let c4_i32_812 : BitVec 32 := 4#32
  let v732 : BitVec 32 := Scalar.muli v18 c4_i32_812
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_9 : BitVec 32 := 0#32
  let v19 : BitVec 32 := Scalar.xori v8 c0_i32_9
  let c1_i32_813 : BitVec 32 := 1#32
  let v734 : BitVec 32 := Scalar.muli v19 c1_i32_813
  let v735 : BitVec 32 := Scalar.addi v733 v734
  v735.toNat
def k0_dev35 (d0 : Dev nD) : Nat :=
  let c0_i32_825 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_824 : BitVec 32 := 8#32
  let v742 : BitVec 32 := Scalar.muli v2 c8_i32_824
  let v743 : BitVec 32 := Scalar.addi c0_i32_825 v742
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_10 : BitVec 32 := 1#32
  let v20 : BitVec 32 := Scalar.xori v5 c1_i32_10
  let c4_i32_826 : BitVec 32 := 4#32
  let v744 : BitVec 32 := Scalar.muli v20 c4_i32_826
  let v745 : BitVec 32 := Scalar.addi v743 v744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.xori v8 c1_i32_11
  let c1_i32_827 : BitVec 32 := 1#32
  let v746 : BitVec 32 := Scalar.muli v21 c1_i32_827
  let v747 : BitVec 32 := Scalar.addi v745 v746
  v747.toNat
def k0_dev36 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v754 : BitVec 32 := Scalar.muli v2 c8_i32_838
  let v755 : BitVec 32 := Scalar.addi c0_i32_839 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_12 : BitVec 32 := 1#32
  let v22 : BitVec 32 := Scalar.xori v5 c1_i32_12
  let c4_i32_840 : BitVec 32 := 4#32
  let v756 : BitVec 32 := Scalar.muli v22 c4_i32_840
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v23 : BitVec 32 := Scalar.xori v8 c2_i32_13
  let c1_i32_841 : BitVec 32 := 1#32
  let v758 : BitVec 32 := Scalar.muli v23 c1_i32_841
  let v759 : BitVec 32 := Scalar.addi v757 v758
  v759.toNat
def k0_dev37 (d0 : Dev nD) : Nat :=
  let c0_i32_853 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_852 : BitVec 32 := 8#32
  let v766 : BitVec 32 := Scalar.muli v2 c8_i32_852
  let v767 : BitVec 32 := Scalar.addi c0_i32_853 v766
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_14 : BitVec 32 := 1#32
  let v24 : BitVec 32 := Scalar.xori v5 c1_i32_14
  let c4_i32_854 : BitVec 32 := 4#32
  let v768 : BitVec 32 := Scalar.muli v24 c4_i32_854
  let v769 : BitVec 32 := Scalar.addi v767 v768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v25 : BitVec 32 := Scalar.xori v8 c3_i32_15
  let c1_i32_855 : BitVec 32 := 1#32
  let v770 : BitVec 32 := Scalar.muli v25 c1_i32_855
  let v771 : BitVec 32 := Scalar.addi v769 v770
  v771.toNat
def k0_off12 (d0 : Dev nD) : Fin 4 → Nat :=
  let c3_i32_935 : BitVec 32 := 3#32
  let c0_i32_936 : BitVec 32 := 0#32
  let c4_i32_2 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_937 : BitVec 32 := 0#32
  ![3, 0, v10.toNat, 0]
def k0_dev38 (d0 : Dev nD) : Nat :=
  let c0_i32_932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_931 : BitVec 32 := 8#32
  let v831 : BitVec 32 := Scalar.muli v2 c8_i32_931
  let v832 : BitVec 32 := Scalar.addi c0_i32_932 v831
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v12 : BitVec 32 := Scalar.xori v5 c0_i32
  let c4_i32_933 : BitVec 32 := 4#32
  let v833 : BitVec 32 := Scalar.muli v12 c4_i32_933
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.xori v8 c1_i32_4
  let c1_i32_934 : BitVec 32 := 1#32
  let v835 : BitVec 32 := Scalar.muli v13 c1_i32_934
  let v836 : BitVec 32 := Scalar.addi v834 v835
  v836.toNat
def k0_dev39 (d0 : Dev nD) : Nat :=
  let c0_i32_946 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_945 : BitVec 32 := 8#32
  let v843 : BitVec 32 := Scalar.muli v2 c8_i32_945
  let v844 : BitVec 32 := Scalar.addi c0_i32_946 v843
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_5 : BitVec 32 := 0#32
  let v14 : BitVec 32 := Scalar.xori v5 c0_i32_5
  let c4_i32_947 : BitVec 32 := 4#32
  let v845 : BitVec 32 := Scalar.muli v14 c4_i32_947
  let v846 : BitVec 32 := Scalar.addi v844 v845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_948 : BitVec 32 := 1#32
  let v847 : BitVec 32 := Scalar.muli v15 c1_i32_948
  let v848 : BitVec 32 := Scalar.addi v846 v847
  v848.toNat
def k0_dev40 (d0 : Dev nD) : Nat :=
  let c0_i32_960 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_959 : BitVec 32 := 8#32
  let v855 : BitVec 32 := Scalar.muli v2 c8_i32_959
  let v856 : BitVec 32 := Scalar.addi c0_i32_960 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_7 : BitVec 32 := 0#32
  let v16 : BitVec 32 := Scalar.xori v5 c0_i32_7
  let c4_i32_961 : BitVec 32 := 4#32
  let v857 : BitVec 32 := Scalar.muli v16 c4_i32_961
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v17 : BitVec 32 := Scalar.xori v8 c3_i32
  let c1_i32_962 : BitVec 32 := 1#32
  let v859 : BitVec 32 := Scalar.muli v17 c1_i32_962
  let v860 : BitVec 32 := Scalar.addi v858 v859
  v860.toNat
def k0_dev41 (d0 : Dev nD) : Nat :=
  let c0_i32_974 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_973 : BitVec 32 := 8#32
  let v867 : BitVec 32 := Scalar.muli v2 c8_i32_973
  let v868 : BitVec 32 := Scalar.addi c0_i32_974 v867
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v18 : BitVec 32 := Scalar.xori v5 c1_i32_8
  let c4_i32_975 : BitVec 32 := 4#32
  let v869 : BitVec 32 := Scalar.muli v18 c4_i32_975
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_9 : BitVec 32 := 0#32
  let v19 : BitVec 32 := Scalar.xori v8 c0_i32_9
  let c1_i32_976 : BitVec 32 := 1#32
  let v871 : BitVec 32 := Scalar.muli v19 c1_i32_976
  let v872 : BitVec 32 := Scalar.addi v870 v871
  v872.toNat
def k0_dev42 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v879 : BitVec 32 := Scalar.muli v2 c8_i32_987
  let v880 : BitVec 32 := Scalar.addi c0_i32_988 v879
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_10 : BitVec 32 := 1#32
  let v20 : BitVec 32 := Scalar.xori v5 c1_i32_10
  let c4_i32_989 : BitVec 32 := 4#32
  let v881 : BitVec 32 := Scalar.muli v20 c4_i32_989
  let v882 : BitVec 32 := Scalar.addi v880 v881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.xori v8 c1_i32_11
  let c1_i32_990 : BitVec 32 := 1#32
  let v883 : BitVec 32 := Scalar.muli v21 c1_i32_990
  let v884 : BitVec 32 := Scalar.addi v882 v883
  v884.toNat
def k0_dev43 (d0 : Dev nD) : Nat :=
  let c0_i32_1002 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1001 : BitVec 32 := 8#32
  let v891 : BitVec 32 := Scalar.muli v2 c8_i32_1001
  let v892 : BitVec 32 := Scalar.addi c0_i32_1002 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_12 : BitVec 32 := 1#32
  let v22 : BitVec 32 := Scalar.xori v5 c1_i32_12
  let c4_i32_1003 : BitVec 32 := 4#32
  let v893 : BitVec 32 := Scalar.muli v22 c4_i32_1003
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v23 : BitVec 32 := Scalar.xori v8 c2_i32_13
  let c1_i32_1004 : BitVec 32 := 1#32
  let v895 : BitVec 32 := Scalar.muli v23 c1_i32_1004
  let v896 : BitVec 32 := Scalar.addi v894 v895
  v896.toNat
def k0_dev44 (d0 : Dev nD) : Nat :=
  let c0_i32_1016 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1015 : BitVec 32 := 8#32
  let v903 : BitVec 32 := Scalar.muli v2 c8_i32_1015
  let v904 : BitVec 32 := Scalar.addi c0_i32_1016 v903
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_14 : BitVec 32 := 1#32
  let v24 : BitVec 32 := Scalar.xori v5 c1_i32_14
  let c4_i32_1017 : BitVec 32 := 4#32
  let v905 : BitVec 32 := Scalar.muli v24 c4_i32_1017
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v25 : BitVec 32 := Scalar.xori v8 c3_i32_15
  let c1_i32_1018 : BitVec 32 := 1#32
  let v907 : BitVec 32 := Scalar.muli v25 c1_i32_1018
  let v908 : BitVec 32 := Scalar.addi v906 v907
  v908.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S8_S1_0 : ∀ a, (![0] : Fin 1 → Nat) a + S1.size a ≤ S8.size a
  squeezes_S1_S_ : S1.Squeezes S_
  inb_S4x4096x1x128_S1x4096x1x128_0_0_0_0 : ∀ a, (![0, 0, 0, 0] : Fin 4 → Nat) a + S1x4096x1x128.size a ≤ S4x4096x1x128.size a
  squeezes_S1x4096x1x128_S4096x1x128 : S1x4096x1x128.Squeezes S4096x1x128
  inb_S8_S1_1 : ∀ a, (![1] : Fin 1 → Nat) a + S1.size a ≤ S8.size a
  inb_S8_S1_2 : ∀ a, (![2] : Fin 1 → Nat) a + S1.size a ≤ S8.size a
  inb_S4x4096x1x128_S1x4096x1x128_1_0_0_0 : ∀ a, (![1, 0, 0, 0] : Fin 4 → Nat) a + S1x4096x1x128.size a ≤ S4x4096x1x128.size a
  inb_S8_S1_3 : ∀ a, (![3] : Fin 1 → Nat) a + S1.size a ≤ S8.size a
  inb_S8_S1_4 : ∀ a, (![4] : Fin 1 → Nat) a + S1.size a ≤ S8.size a
  inb_S4x4096x1x128_S1x4096x1x128_2_0_0_0 : ∀ a, (![2, 0, 0, 0] : Fin 4 → Nat) a + S1x4096x1x128.size a ≤ S4x4096x1x128.size a
  inb_S8_S1_5 : ∀ a, (![5] : Fin 1 → Nat) a + S1.size a ≤ S8.size a
  inb_S8_S1_6 : ∀ a, (![6] : Fin 1 → Nat) a + S1.size a ≤ S8.size a
  inb_S4x4096x1x128_S1x4096x1x128_3_0_0_0 : ∀ a, (![3, 0, 0, 0] : Fin 4 → Nat) a + S1x4096x1x128.size a ≤ S4x4096x1x128.size a
  inb_S8_S1_7 : ∀ a, (![7] : Fin 1 → Nat) a + S1.size a ≤ S8.size a
  hamt_1 : (1#32 : BitVec 32).msb = false
  hamt_8 : (8#32 : BitVec 32).msb = false
  h_S1x32x1x128 : 0 < S1x32x1x128.numel
  shapeCasts_S1x32x1x128_S32x1x128 : S1x32x1x128.ShapeCasts S32x1x128
  shapeCasts_S32x1x128_S32x128 : S32x1x128.ShapeCasts S32x128
  h_S1x4096x1x128 : 0 < S1x4096x1x128.numel
  shapeCasts_S1x4096x1x128_S4096x128 : S1x4096x1x128.ShapeCasts S4096x128
  reduces_S32x4096_S32 : S32x4096.Reduces [1] S32
  shapeCasts_S32_S32x1 : S32.ShapeCasts S32x1
  inb_S4x32x1_S1x32x1_0_0_0 : ∀ a, (![0, 0, 0] : Fin 3 → Nat) a + S1x32x1.size a ≤ S4x32x1.size a
  h_S1x32x1 : 0 < S1x32x1.numel
  shapeCasts_S1x32x1_S32x1 : S1x32x1.ShapeCasts S32x1
  shapeCasts_S32x1_S1x32x1 : S32x1.ShapeCasts S1x32x1
  inb_S4x32x128_S1x32x128_0_0_0 : ∀ a, (![0, 0, 0] : Fin 3 → Nat) a + S1x32x128.size a ≤ S4x32x128.size a
  h_S1x32x128 : 0 < S1x32x128.numel
  shapeCasts_S1x32x128_S32x128 : S1x32x128.ShapeCasts S32x128
  shapeCasts_S32x128_S1x32x128 : S32x128.ShapeCasts S1x32x128
  inb_S4x2_S1x1_0_0 : ∀ a, (![0, 0] : Fin 2 → Nat) a + S1x1.size a ≤ S4x2.size a
  squeezes_S1x1_S_ : S1x1.Squeezes S_
  squeezes_S1x32x128_S32x128 : S1x32x128.Squeezes S32x128
  inb_S4x2_S1x1_0_1 : ∀ a, (![0, 1] : Fin 2 → Nat) a + S1x1.size a ≤ S4x2.size a
  squeezes_S1x32x1_S32x1 : S1x32x1.Squeezes S32x1
  inb_S4x32x1_S1x32x1_1_0_0 : ∀ a, (![1, 0, 0] : Fin 3 → Nat) a + S1x32x1.size a ≤ S4x32x1.size a
  inb_S4x32x128_S1x32x128_1_0_0 : ∀ a, (![1, 0, 0] : Fin 3 → Nat) a + S1x32x128.size a ≤ S4x32x128.size a
  inb_S4x2_S1x1_1_0 : ∀ a, (![1, 0] : Fin 2 → Nat) a + S1x1.size a ≤ S4x2.size a
  inb_S4x2_S1x1_1_1 : ∀ a, (![1, 1] : Fin 2 → Nat) a + S1x1.size a ≤ S4x2.size a
  broadcasts_S32x1_S32x128 : S32x1.Broadcasts S32x128
  shapeCasts_S32x128_S32x1x128 : S32x128.ShapeCasts S32x1x128
  shapeCasts_S32x1x128_S1x32x1x128 : S32x1x128.ShapeCasts S1x32x1x128
  inb_S4x7_S1x1_0_0 : ∀ a, (![0, 0] : Fin 2 → Nat) a + S1x1.size a ≤ S4x7.size a
  inb_S4x7_S1x1_0_1 : ∀ a, (![0, 1] : Fin 2 → Nat) a + S1x1.size a ≤ S4x7.size a
  inb_S4x7_S1x1_0_2 : ∀ a, (![0, 2] : Fin 2 → Nat) a + S1x1.size a ≤ S4x7.size a
  inb_S4x7_S1x1_0_3 : ∀ a, (![0, 3] : Fin 2 → Nat) a + S1x1.size a ≤ S4x7.size a
  inb_S4x7_S1x1_0_4 : ∀ a, (![0, 4] : Fin 2 → Nat) a + S1x1.size a ≤ S4x7.size a
  inb_S4x7_S1x1_0_5 : ∀ a, (![0, 5] : Fin 2 → Nat) a + S1x1.size a ≤ S4x7.size a
  inb_S4x7_S1x1_0_6 : ∀ a, (![0, 6] : Fin 2 → Nat) a + S1x1.size a ≤ S4x7.size a
  inb_S4x32x1_S1x32x1_2_0_0 : ∀ a, (![2, 0, 0] : Fin 3 → Nat) a + S1x32x1.size a ≤ S4x32x1.size a
  inb_S4x32x128_S1x32x128_2_0_0 : ∀ a, (![2, 0, 0] : Fin 3 → Nat) a + S1x32x128.size a ≤ S4x32x128.size a
  inb_S4x2_S1x1_2_0 : ∀ a, (![2, 0] : Fin 2 → Nat) a + S1x1.size a ≤ S4x2.size a
  inb_S4x2_S1x1_2_1 : ∀ a, (![2, 1] : Fin 2 → Nat) a + S1x1.size a ≤ S4x2.size a
  inb_S4x7_S1x1_1_0 : ∀ a, (![1, 0] : Fin 2 → Nat) a + S1x1.size a ≤ S4x7.size a
  inb_S4x7_S1x1_1_1 : ∀ a, (![1, 1] : Fin 2 → Nat) a + S1x1.size a ≤ S4x7.size a
  inb_S4x7_S1x1_1_2 : ∀ a, (![1, 2] : Fin 2 → Nat) a + S1x1.size a ≤ S4x7.size a
  inb_S4x7_S1x1_1_3 : ∀ a, (![1, 3] : Fin 2 → Nat) a + S1x1.size a ≤ S4x7.size a
  inb_S4x7_S1x1_1_4 : ∀ a, (![1, 4] : Fin 2 → Nat) a + S1x1.size a ≤ S4x7.size a
  inb_S4x7_S1x1_1_5 : ∀ a, (![1, 5] : Fin 2 → Nat) a + S1x1.size a ≤ S4x7.size a
  inb_S4x7_S1x1_1_6 : ∀ a, (![1, 6] : Fin 2 → Nat) a + S1x1.size a ≤ S4x7.size a
  inb_S4x32x1_S1x32x1_3_0_0 : ∀ a, (![3, 0, 0] : Fin 3 → Nat) a + S1x32x1.size a ≤ S4x32x1.size a
  inb_S4x32x128_S1x32x128_3_0_0 : ∀ a, (![3, 0, 0] : Fin 3 → Nat) a + S1x32x128.size a ≤ S4x32x128.size a
  inb_S4x2_S1x1_3_0 : ∀ a, (![3, 0] : Fin 2 → Nat) a + S1x1.size a ≤ S4x2.size a
  inb_S4x2_S1x1_3_1 : ∀ a, (![3, 1] : Fin 2 → Nat) a + S1x1.size a ≤ S4x2.size a
  inb_S4x7_S1x1_2_0 : ∀ a, (![2, 0] : Fin 2 → Nat) a + S1x1.size a ≤ S4x7.size a
  inb_S4x7_S1x1_2_1 : ∀ a, (![2, 1] : Fin 2 → Nat) a + S1x1.size a ≤ S4x7.size a
  inb_S4x7_S1x1_2_2 : ∀ a, (![2, 2] : Fin 2 → Nat) a + S1x1.size a ≤ S4x7.size a
  inb_S4x7_S1x1_2_3 : ∀ a, (![2, 3] : Fin 2 → Nat) a + S1x1.size a ≤ S4x7.size a
  inb_S4x7_S1x1_2_4 : ∀ a, (![2, 4] : Fin 2 → Nat) a + S1x1.size a ≤ S4x7.size a
  inb_S4x7_S1x1_2_5 : ∀ a, (![2, 5] : Fin 2 → Nat) a + S1x1.size a ≤ S4x7.size a
  inb_S4x7_S1x1_2_6 : ∀ a, (![2, 6] : Fin 2 → Nat) a + S1x1.size a ≤ S4x7.size a
  inb_S4x7_S1x1_3_0 : ∀ a, (![3, 0] : Fin 2 → Nat) a + S1x1.size a ≤ S4x7.size a
  inb_S4x7_S1x1_3_1 : ∀ a, (![3, 1] : Fin 2 → Nat) a + S1x1.size a ≤ S4x7.size a
  inb_S4x7_S1x1_3_2 : ∀ a, (![3, 2] : Fin 2 → Nat) a + S1x1.size a ≤ S4x7.size a
  inb_S4x7_S1x1_3_3 : ∀ a, (![3, 3] : Fin 2 → Nat) a + S1x1.size a ≤ S4x7.size a
  inb_S4x7_S1x1_3_4 : ∀ a, (![3, 4] : Fin 2 → Nat) a + S1x1.size a ≤ S4x7.size a
  inb_S4x7_S1x1_3_5 : ∀ a, (![3, 5] : Fin 2 → Nat) a + S1x1.size a ≤ S4x7.size a
  inb_S4x7_S1x1_3_6 : ∀ a, (![3, 6] : Fin 2 → Nat) a + S1x1.size a ≤ S4x7.size a
  dot_S32x128_S4096x128_S32x4096_1_1_0_0_n_n_wf : DotDims.WF S32x128 S4096x128 S32x4096 [1] [1] [0] [0] [] []
  dot_S32x4096_S4096x128_S32x128_1_0_0_1_n_n_wf : DotDims.WF S32x4096 S4096x128 S32x128 [1] [0] [0] [1] [] []
  hcc0_scratch6 : 2 + S8.numel ≤ 82
  hcc0_scratch7 : 10 + S4x2.numel ≤ 82
  hcc0_scratch8 : 18 + S4x2.numel ≤ 82
  hcc0_scratch9 : 26 + S4x7.numel ≤ 82
  hcc0_scratch10 : 54 + S4x7.numel ≤ 82
  k0_off1_inb : ∀ d0 : Dev nD, ∀ a, (k0_off1 d0) a + S1x4096x1x128.size a ≤ S4x4096x8x128.size a
  k0_off2_inb : ∀ d0 : Dev nD, ∀ a, (k0_off2 d0) a + S1x4096x1x128.size a ≤ S4x4096x8x128.size a
  k0_off3_inb : ∀ d0 : Dev nD, ∀ a, (k0_off3 d0) a + S1x4096x1x128.size a ≤ S4x4096x8x128.size a
  k0_off4_inb : ∀ d0 : Dev nD, ∀ a, (k0_off4 d0) a + S1x4096x1x128.size a ≤ S4x4096x8x128.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off5_inb : ∀ d0 : Dev nD, ∀ a, (k0_off5 d0) a + S1x32x1x128.size a ≤ S4x32x8x128.size a
  k0_dev9_lt : ∀ d0 : Dev nD, (k0_dev9 d0) < nD
  k0_dev10_lt : ∀ d0 : Dev nD, (k0_dev10 d0) < nD
  k0_off6_inb : ∀ d0 : Dev nD, ∀ a, (k0_off6 d0) a + S1x32x1x128.size a ≤ S4x32x8x128.size a
  k0_dev11_lt : ∀ d0 : Dev nD, (k0_dev11 d0) < nD
  k0_dev12_lt : ∀ d0 : Dev nD, (k0_dev12 d0) < nD
  k0_off7_inb : ∀ d0 : Dev nD, ∀ a, (k0_off7 d0) a + S1x32x1x128.size a ≤ S4x32x8x128.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off8_inb : ∀ d0 : Dev nD, ∀ a, (k0_off8 d0) a + S1x32x1x128.size a ≤ S4x32x8x128.size a
  k0_dev20_lt : ∀ d0 : Dev nD, (k0_dev20 d0) < nD
  k0_dev21_lt : ∀ d0 : Dev nD, (k0_dev21 d0) < nD
  k0_off9_inb : ∀ d0 : Dev nD, ∀ a, (k0_off9 d0) a + S1x32x1x128.size a ≤ S4x32x8x128.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off10_inb : ∀ d0 : Dev nD, ∀ a, (k0_off10 d0) a + S1x32x1x128.size a ≤ S4x32x8x128.size a
  k0_dev29_lt : ∀ d0 : Dev nD, (k0_dev29 d0) < nD
  k0_dev30_lt : ∀ d0 : Dev nD, (k0_dev30 d0) < nD
  k0_off11_inb : ∀ d0 : Dev nD, ∀ a, (k0_off11 d0) a + S1x32x1x128.size a ≤ S4x32x8x128.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_off12_inb : ∀ d0 : Dev nD, ∀ a, (k0_off12 d0) a + S1x32x1x128.size a ≤ S4x32x8x128.size a
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  hstage0_0 : ∀ j, (stage0_0 j).IsWhole
  hstage0_1 : ∀ j, (stage0_1 j).IsWhole

variable [Facts₀]

abbrev cc0_scratch6 : DmaSems sig S8 := SemArray.consecutive 2 S8 hcc0_scratch6
abbrev cc0_scratch7 : DmaSems sig S4x2 := SemArray.consecutive 10 S4x2 hcc0_scratch7
abbrev cc0_scratch8 : DmaSems sig S4x2 := SemArray.consecutive 18 S4x2 hcc0_scratch8
abbrev cc0_scratch9 : DmaSems sig S4x7 := SemArray.consecutive 26 S4x7 hcc0_scratch9
abbrev cc0_scratch10 : DmaSems sig S4x7 := SemArray.consecutive 54 S4x7 hcc0_scratch10
def dot_S32x128_S4096x128_S32x4096_1_1_0_0_n_n : DotDims S32x128 S4096x128 S32x4096 where
  lhsContracting := [1]
  rhsContracting := [1]
  lhsNonContracting := [0]
  rhsNonContracting := [0]
  lhsBatch := []
  rhsBatch := []
  wf := dot_S32x128_S4096x128_S32x4096_1_1_0_0_n_n_wf
def dot_S32x4096_S4096x128_S32x128_1_0_0_1_n_n : DotDims S32x4096 S4096x128 S32x128 where
  lhsContracting := [1]
  rhsContracting := [0]
  lhsNonContracting := [0]
  rhsNonContracting := [1]
  lhsBatch := []
  rhsBatch := []
  wf := dot_S32x4096_S4096x128_S32x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4x8x32x8192 : S_.BroadcastsInDim S4x8x32x8192 (![] : Fin 0 → Fin S4x8x32x8192.rank)
  reducesTo_S4x8x32x8192_S4x8x32_d3 : S4x8x32x8192.ReducesTo [3] S4x8x32
  h_S_ : 0 < S_.numel
  bcast_S4x8x32_S4x8x32x1_0_1_2 : S4x8x32.BroadcastsInDim S4x8x32x1 (![0, 1, 2] : Fin 3 → Fin S4x8x32x1.rank)
  bcast_S4x8x32x1_S4x8x32x8192_0_1_2_3 : S4x8x32x1.BroadcastsInDim S4x8x32x8192 (![0, 1, 2, 3] : Fin 4 → Fin S4x8x32x8192.rank)
  transposes_S4x8x128x32_S4x32x8x128_0_3_1_2 : S4x8x128x32.Transposes [0, 3, 1, 2] S4x32x8x128
  dot_S4x32x8x128_S4x8192x8x128_S4x8x32x8192_3_3_1_1_02_02_wf : DotDims.WF S4x32x8x128 S4x8192x8x128 S4x8x32x8192 [3] [3] [1] [1] [0, 2] [0, 2]
  dot_S4x8192x8x128_S4x8x32x8192_S4x8x128x32_1_3_3_2_02_01_wf : DotDims.WF S4x8192x8x128 S4x8x32x8192 S4x8x128x32 [1] [3] [3] [2] [0, 2] [0, 1]

variable [Facts₀]

def dot_S4x32x8x128_S4x8192x8x128_S4x8x32x8192_3_3_1_1_02_02 : DotDims S4x32x8x128 S4x8192x8x128 S4x8x32x8192 where
  lhsContracting := [3]
  rhsContracting := [3]
  lhsNonContracting := [1]
  rhsNonContracting := [1]
  lhsBatch := [0, 2]
  rhsBatch := [0, 2]
  wf := dot_S4x32x8x128_S4x8192x8x128_S4x8x32x8192_3_3_1_1_02_02_wf
def dot_S4x8192x8x128_S4x8x32x8192_S4x8x128x32_1_3_3_2_02_01 : DotDims S4x8192x8x128 S4x8x32x8192 S4x8x128x32 where
  lhsContracting := [1]
  rhsContracting := [3]
  lhsNonContracting := [3]
  rhsNonContracting := [2]
  lhsBatch := [0, 2]
  rhsBatch := [0, 1]
  wf := dot_S4x8192x8x128_S4x8x32x8192_S4x8x128x32_1_3_3_2_02_01_wf

class Facts : Prop extends Facts₀ where

variable [Facts]
-- ==== Proof.Proto.lean ====
/-
  The cross-device protocol of the kernel, as definitions: the sixteen devices' peers, the semaphores each
  device owns, the views through which each copy reads and writes, and the levels at which a device may wait.

  Device d = 8x + 4y + z works on head d % 8 with its half x of the keys and values.  Its eight peers are
  d xor 8 (the same head, the other half) and d xor 1 … d xor 7 (the same half, the other seven heads).
  Semaphores of a device, by number: 2+j the eight local copies (key block b at 2b, value block at 2b+1);
  10+2b+i and 18+2b+i the send and receive side of the exchange of batch b with d xor 8 (i = 0 the weighted
  sum, i = 1 the row sums); 26+7b+i and 54+7b+i the send and receive side of the copy of batch b's merged
  block to and from d xor (i+1); and the runtime's barrier semaphore.
-/
import proofs.«900786_g7700000000000787_dist_flashdec_v7x_xyz2x2x4_x_b4_sq32_skv4096_h8_d128_f32_1_alg».proof.Proof.Gen.KernelIdeal.Skeleton
import proofs.«900786_g7700000000000787_dist_flashdec_v7x_xyz2x2x4_x_b4_sq32_skv4096_h8_d128_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names Fin 8) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers and heads -/

/-- The xor mask of peer j: peer 0 is the other half of the same head, peers 1…7 the other heads. -/
def msk : Fin 8 → ℕ := ![8, 1, 2, 3, 4, 5, 6, 7]

/-- Peer j of device c. -/
def pr (j : Fin 8) (c : Dev nD) : Dev nD := ⟨(c.val ^^^ msk j) % 16, Nat.mod_lt _ (by decide)⟩

/-- The head a device works on, as a number. -/
abbrev hdN (c : Dev nD) : ℕ := 4 * ((c.val / 4) % 2) + (c.val % 4)

theorem pr_pr (j : Fin 8) (c : Dev nD) : pr j (pr j c) = c := by revert j c; decide
theorem pr_ne (j : Fin 8) (c : Dev nD) : pr j c ≠ c := by revert j c; decide
theorem pr_inj_j (c : Dev nD) : Function.Injective (fun j => pr j c) := by revert c; decide
theorem hdN_lt (c : Dev nD) : hdN c < 8 := by revert c; decide
/-- The other half works on the same head; -/
theorem hdN_pr0 (c : Dev nD) : hdN (pr 0 c) = hdN c := by revert c; decide
/-- the other peers on the other heads. -/
theorem hdN_pr_succ (i : Fin 7) (c : Dev nD) : hdN (pr i.succ c) = hdN c ^^^ (i.val + 1) := by revert i c; decide
theorem hdN_pr_succ_ne (i : Fin 7) (c : Dev nD) : hdN (pr i.succ c) ≠ hdN c := by revert i c; decide

def prEquiv (j : Fin 8) : Dev nD ≃ Dev nD := ⟨pr j, pr j, pr_pr j, pr_pr j⟩

/-! ## Semaphores and cells -/

/-- The runtime's barrier semaphore of collective id 0. -/
abbrev barS : Sem sig := (SemArray.scalar (sig.barrier 0 rfl) : Sems sig S_).sem

/-- The kernel's own DMA semaphore number n + 2 (numbers 0 and 1 are the staging buffers'). -/
abbrev dS (n : Fin 80) : DmaSem sig := ⟨n.val + 2, by have := n.isLt; show n.val + 2 < 82; omega⟩

abbrev locN (b : ℕ) (v : ℕ) : ℕ := 2 * b + v            -- local copy of batch b: keys v = 0, values v = 1
abbrev xsN (b : ℕ) (i : ℕ) : ℕ := 8 + 2 * b + i          -- exchange, send side
abbrev xrN (b : ℕ) (i : ℕ) : ℕ := 16 + 2 * b + i         -- exchange, receive side
abbrev asN (b : ℕ) (i : ℕ) : ℕ := 24 + 7 * b + i         -- gather, send side
abbrev arN (b : ℕ) (i : ℕ) : ℕ := 52 + 7 * b + i         -- gather, receive side

abbrev barCell (c : Dev nD) : GSem nD τ sig := ((c : Thread nD τ), .reg barS)
abbrev dCell (c : Dev nD) (n : Fin 80) : GSem nD τ sig := ((c : Thread nD τ), .dma (dS n))

/-- The kernel's own (scoped) semaphores, as the launch theorem indexes them. -/
abbrev osem : Fin 80 → SemLoc sig := fun n => .dma (dS n)

/-- A device's cells: none the barrier, some n its own DMA semaphore n. -/
abbrev csem : Option (Fin 80) → SemLoc sig := fun | none => .reg barS | some n => .dma (dS n)
abbrev kcell (ck : Dev nD × Option (Fin 80)) : GSem nD τ sig := ((ck.1 : Thread nD τ), csem ck.2)

/-! ## Who pays: every DMA cell has one duty, 0; the barrier cell of c has duty j paid by peer j -/

/-- The xor mask from a device to the device whose cell number n it pays: itself for the local copies and the
    send sides (its own engine pays them), the other half for the exchange's receive side, peer i+1 for the
    gather's receive side of peer slot i. -/
def tgtMsk (n : Fin 80) : ℕ :=
  if n.val < 16 then 0 else if n.val < 24 then 8 else if n.val < 52 then 0 else (n.val - 52) % 7 + 1

/-- The device whose cell number n device c pays. -/
def tgt (n : Fin 80) (c : Dev nD) : Dev nD := ⟨(c.val ^^^ tgtMsk n) % 16, Nat.mod_lt _ (by decide)⟩

theorem tgt_tgt (n : Fin 80) (c : Dev nD) : tgt n (tgt n c) = c := by revert n c; decide
def tgtEquiv (n : Fin 80) : Dev nD ≃ Dev nD := ⟨tgt n, tgt n, tgt_tgt n, tgt_tgt n⟩

theorem tgt_own (n : Fin 80) (h : n.val < 16 ∨ (24 ≤ n.val ∧ n.val < 52)) (c : Dev nD) : tgt n c = c := by
  revert n c; decide
theorem xrN_lt (b : Fin 4) (i : Fin 2) : xrN b.val i.val < 80 := by have := b.isLt; have := i.isLt; show 16 + 2 * b.val + i.val < 80; omega
theorem arN_lt (b : Fin 4) (i : Fin 7) : arN b.val i.val < 80 := by have := b.isLt; have := i.isLt; show 52 + 7 * b.val + i.val < 80; omega
theorem xsN_lt (b : Fin 4) (i : Fin 2) : xsN b.val i.val < 80 := by have := b.isLt; have := i.isLt; show 8 + 2 * b.val + i.val < 80; omega
theorem asN_lt (b : Fin 4) (i : Fin 7) : asN b.val i.val < 80 := by have := b.isLt; have := i.isLt; show 24 + 7 * b.val + i.val < 80; omega
theorem locN_lt (b : Fin 4) (v : Fin 2) : locN b.val v.val < 80 := by have := b.isLt; have := v.isLt; show 2 * b.val + v.val < 80; omega
theorem tgt_xr (b : Fin 4) (i : Fin 2) (c : Dev nD) : tgt ⟨xrN b.val i.val, xrN_lt b i⟩ c = pr 0 c := by revert b i c; decide
theorem tgt_ar (b : Fin 4) (i : Fin 7) (c : Dev nD) : tgt ⟨arN b.val i.val, arN_lt b i⟩ c = pr i.succ c := by revert b i c; decide

/-! ## The views of the copies, spelt as the program spells them -/

theorem inbK (b : ℕ) (hb : b < 4) : ∀ a, (![b, 0, 0, 0] : Fin 4 → Nat) a + S1x4096x1x128.size a ≤ S4x4096x1x128.size a :=
  (by decide : ∀ b : Fin 4, ∀ a, (![b.val, 0, 0, 0] : Fin 4 → Nat) a + S1x4096x1x128.size a ≤ S4x4096x1x128.size a) ⟨b, hb⟩
theorem inbO (b : ℕ) (hb : b < 4) : ∀ a, (![b, 0, 0] : Fin 3 → Nat) a + S1x32x128.size a ≤ S4x32x128.size a :=
  (by decide : ∀ b : Fin 4, ∀ a, (![b.val, 0, 0] : Fin 3 → Nat) a + S1x32x128.size a ≤ S4x32x128.size a) ⟨b, hb⟩
theorem inbL (b : ℕ) (hb : b < 4) : ∀ a, (![b, 0, 0] : Fin 3 → Nat) a + S1x32x1.size a ≤ S4x32x1.size a :=
  (by decide : ∀ b : Fin 4, ∀ a, (![b.val, 0, 0] : Fin 3 → Nat) a + S1x32x1.size a ≤ S4x32x1.size a) ⟨b, hb⟩
theorem inbH (b : ℕ) (hb : b < 4) (h : ℕ) (hh : h < 8) : ∀ a, (![b, 0, h, 0] : Fin 4 → Nat) a + S1x32x1x128.size a ≤ S4x32x8x128.size a :=
  (by decide : ∀ b : Fin 4, ∀ h : Fin 8, ∀ a, (![b.val, 0, h.val, 0] : Fin 4 → Nat) a + S1x32x1x128.size a ≤ S4x32x8x128.size a) ⟨b, hb⟩ ⟨h, hh⟩
theorem inbA (b : ℕ) (hb : b < 4) (h : ℕ) (hh : h < 8) : ∀ a, (![b, 0, h, 0] : Fin 4 → Nat) a + S1x4096x1x128.size a ≤ S4x4096x8x128.size a :=
  (by decide : ∀ b : Fin 4, ∀ h : Fin 8, ∀ a, (![b.val, 0, h.val, 0] : Fin 4 → Nat) a + S1x4096x1x128.size a ≤ S4x4096x8x128.size a) ⟨b, hb⟩ ⟨h, hh⟩

/-- Batch b of a 4 x 4096 x 1 x 128 scratch buffer (the keys' at r = cc0_scratch0, the values' at cc0_scratch1). -/
abbrev kvDst (b : ℕ) (hb : b < 4) (M : Memref sig .tc .vmem S4x4096x1x128 .f32) : Memref sig .tc .vmem S4096x1x128 .f32 :=
  (M.slice (Rect.unit (s := S4x4096x1x128) ![b, 0, 0, 0] S1x4096x1x128.size (inbK b hb)) (fun _ => rfl)).squeeze S4096x1x128 squeezes_S1x4096x1x128_S4096x1x128

/-- Batch b, head h of a device's block of the keys or values in HBM. -/
abbrev kvSrc (b : ℕ) (hb : b < 4) (h : ℕ) (hh : h < 8) (M : Memref sig .tc .hbm S4x4096x8x128 .f32) : Memref sig .tc .hbm S4096x1x128 .f32 :=
  (M.slice (Rect.unit (s := S4x4096x8x128) ![b, 0, h, 0] S1x4096x1x128.size (inbA b hb h hh)) (fun _ => rfl)).squeeze S4096x1x128 squeezes_S1x4096x1x128_S4096x1x128

/-- Batch b of a 4 x 32 x 128 scratch buffer (the weighted sums: own cc0_scratch2, the peer's landing cc0_scratch4). -/
abbrev oSl (b : ℕ) (hb : b < 4) (M : Memref sig .tc .vmem S4x32x128 .f32) : Memref sig .tc .vmem S32x128 .f32 :=
  (M.slice (Rect.unit (s := S4x32x128) ![b, 0, 0] S1x32x128.size (inbO b hb)) (fun _ => rfl)).squeeze S32x128 squeezes_S1x32x128_S32x128

/-- Batch b of a 4 x 32 x 1 scratch buffer (the row sums: own cc0_scratch3, the peer's landing cc0_scratch5). -/
abbrev lSl (b : ℕ) (hb : b < 4) (M : Memref sig .tc .vmem S4x32x1 .f32) : Memref sig .tc .vmem S32x1 .f32 :=
  (M.slice (Rect.unit (s := S4x32x1) ![b, 0, 0] S1x32x1.size (inbL b hb)) (fun _ => rfl)).squeeze S32x1 squeezes_S1x32x1_S32x1

/-- Batch b, head h of the result's staging buffer. -/
abbrev hSl (b : ℕ) (hb : b < 4) (h : ℕ) (hh : h < 8) (M : Memref sig .tc .vmem S4x32x8x128 .f32) : Memref sig .tc .vmem S1x32x1x128 .f32 :=
  M.slice (Rect.unit (s := S4x32x8x128) ![b, 0, h, 0] S1x32x1x128.size (inbH b hb h hh)) (fun _ => rfl)

/-! ## Levels: the barrier below the exchange's receive cells in batch order, below the gather's receive cells -/

def L (g : GSem nD τ sig) : Finset Unit := if g.1.2 = .tc then {()} else ∅

/-- The level of a cell: 0 the send sides, the local copies and the staging semaphores; 1 the barrier;
    2 + b the exchange's receive side of batch b; 6 the gather's receive side. -/
def lvS : SemLoc sig → ℕ
  | .reg _ => 1
  | .dma n => if 18 ≤ n.val ∧ n.val < 26 then 2 + (n.val - 18) / 2 else if 54 ≤ n.val then 6 else 0

def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Flash

end
-- ==== Proof.KTerms.lean ====
import proofs.«900786_g7700000000000787_dist_flashdec_v7x_xyz2x2x4_x_b4_sq32_skv4096_h8_d128_f32_1_alg».proof.Proof.Gen.KernelIdeal.Skeleton

/-! The arithmetic of one attention block, as functions of the loaded vectors.

For a query block `qb` (32 rows of 128 lanes), a key block `kb` and a value block `vb` (4096 rows
of 128 lanes each):

* `qs qb` is the query block times the scale constant;
* `pmat qb kb` is the 32 x 4096 matrix `exp ((qs qb) · kbᵀ)` (no maximum is subtracted);
* `lpart qb kb` is the column of its row sums, `l = Σ_k p`;
* `opart qb kb vb` is the unnormalised output `o = p · vb`;
* `merge o o' l l'` joins the partial results of the two halves of the key axis,
  `(o + o') / (l + l')`.

Every value the program stores for one of the four batches is one of these, by unfolding. -/

set_option synthInstance.maxSize 4096

noncomputable section

namespace Cert.KernelIdeal.Flash

open Idealize.ShloMosaic Idealize.SL.Sem
open Cert.KernelIdeal Cert.KernelIdeal.Gen

variable {F : FTy → Type} [FloatOps F]

/-- The query block as a 32 x 128 matrix, times the scale constant. -/
def qs (qb : Vec F S1x32x1x128 .f32) : FVec F S32x128 .f32 :=
  mulf
    (shapeCast S32x128 (shapeCast S32x1x128 qb shapeCasts_S1x32x1x128_S32x1x128)
      shapeCasts_S32x1x128_S32x128)
    (broadcast S32x128 (Scalar.ofBits .f32 0x3DB504F3#32))

/-- The unnormalised weights `exp ((qs qb) · kbᵀ)`, a 32 x 4096 matrix. -/
def pmat (qb : Vec F S1x32x1x128 .f32) (kb : Vec F S1x4096x1x128 .f32) : FVec F S32x4096 .f32 :=
  exp (matmul dot_S32x128_S4096x128_S32x4096_1_1_0_0_n_n none (qs qb)
    (shapeCast S4096x128 kb shapeCasts_S1x4096x1x128_S4096x128)
    (constant S32x4096 .f32 0x00000000#32))

/-- The row sums of the weights, as a column with a leading unit axis. -/
def lpart (qb : Vec F S1x32x1x128 .f32) (kb : Vec F S1x4096x1x128 .f32) : FVec F S1x32x1 .f32 :=
  shapeCast S1x32x1
    (shapeCast S32x1
      (multiReduction .add [1] S32 (pmat qb kb) 0x00000000#32 reduces_S32x4096_S32 (.inl rfl) rfl)
      shapeCasts_S32_S32x1)
    shapeCasts_S32x1_S1x32x1

/-- The weights times the value block, with a leading unit axis. -/
def opart (qb : Vec F S1x32x1x128 .f32) (kb vb : Vec F S1x4096x1x128 .f32) :
    FVec F S1x32x128 .f32 :=
  shapeCast S1x32x128
    (matmul dot_S32x4096_S4096x128_S32x128_1_0_0_1_n_n none (pmat qb kb)
      (shapeCast S4096x128 vb shapeCasts_S1x4096x1x128_S4096x128)
      (constant S32x128 .f32 0x00000000#32))
    shapeCasts_S32x128_S1x32x128

/-- The two halves joined: `(o + o') / (l + l')`, the denominator broadcast along the lanes. -/
def merge (o o' : Vec F S1x32x128 .f32) (l l' : Vec F S1x32x1 .f32) : FVec F S1x32x1x128 .f32 :=
  shapeCast S1x32x1x128
    (shapeCast S32x1x128
      (divf
        (addf (shapeCast S32x128 o shapeCasts_S1x32x128_S32x128)
          (shapeCast S32x128 o' shapeCasts_S1x32x128_S32x128))
        (broadcastTo S32x128
          (addf (shapeCast S32x1 l shapeCasts_S1x32x1_S32x1)
            (shapeCast S32x1 l' shapeCasts_S1x32x1_S32x1))
          broadcasts_S32x1_S32x128))
      shapeCasts_S32x128_S32x1x128)
    shapeCasts_S32x1x128_S1x32x1x128

/-! ## The stored values are these functions -/

theorem pay1_eq (qb : Vec F S1x32x1x128 .f32) : k0_pay1 qb = qs qb := rfl
theorem pay6_eq (qb : Vec F S1x32x1x128 .f32) : k0_pay6 qb = qs qb := rfl
theorem pay17_eq (qb : Vec F S1x32x1x128 .f32) : k0_pay17 qb = qs qb := rfl

theorem pay3_eq (qb : Vec F S1x32x1x128 .f32) (kb : Vec F S1x4096x1x128 .f32) :
    k0_pay3 (k0_pay1 qb) (k0_pay2 kb) = pmat qb kb := rfl
theorem pay7_eq (qb : Vec F S1x32x1x128 .f32) (kb : Vec F S1x4096x1x128 .f32) :
    k0_pay7 (k0_pay6 qb) kb = pmat qb kb := rfl
theorem pay11_eq (qb : Vec F S1x32x1x128 .f32) (kb : Vec F S1x4096x1x128 .f32) :
    k0_pay11 qb kb = pmat qb kb := rfl
theorem pay19_eq (qb : Vec F S1x32x1x128 .f32) (kb : Vec F S1x4096x1x128 .f32) :
    k0_pay19 (k0_pay17 qb) (k0_pay18 kb) = pmat qb kb := rfl

theorem pay4_eq (qb : Vec F S1x32x1x128 .f32) (kb : Vec F S1x4096x1x128 .f32) :
    k0_pay4 (k0_pay1 qb) (k0_pay2 kb) = lpart qb kb := rfl
theorem pay5_eq (qb : Vec F S1x32x1x128 .f32) (kb vb : Vec F S1x4096x1x128 .f32) :
    k0_pay5 (k0_pay1 qb) (k0_pay2 kb) vb = opart qb kb vb := rfl

theorem pay8_eq (qb : Vec F S1x32x1x128 .f32) (kb : Vec F S1x4096x1x128 .f32) :
    k0_pay8 (k0_pay6 qb) kb = lpart qb kb := rfl
theorem pay9_eq (qb : Vec F S1x32x1x128 .f32) (kb vb : Vec F S1x4096x1x128 .f32) :
    k0_pay9 (k0_pay6 qb) kb vb = opart qb kb vb := rfl

theorem pay13_eq (qb : Vec F S1x32x1x128 .f32) (kb : Vec F S1x4096x1x128 .f32) :
    k0_pay13 (k0_pay11 qb kb) = lpart qb kb := rfl
theorem pay14_eq (qb : Vec F S1x32x1x128 .f32) (kb vb : Vec F S1x4096x1x128 .f32) :
    k0_pay14 (k0_pay11 qb kb) (k0_pay12 vb) = opart qb kb vb := rfl

theorem pay20_eq (qb : Vec F S1x32x1x128 .f32) (kb : Vec F S1x4096x1x128 .f32) :
    k0_pay20 (k0_pay17 qb) (k0_pay18 kb) = lpart qb kb := rfl
theorem pay21_eq (qb : Vec F S1x32x1x128 .f32) (kb vb : Vec F S1x4096x1x128 .f32) :
    k0_pay21 (k0_pay17 qb) (k0_pay18 kb) vb = opart qb kb vb := rfl

theorem pay10_eq (o o' : Vec F S1x32x128 .f32) (l l' : Vec F S1x32x1 .f32) :
    k0_pay10 o o' l l' = merge o o' l l' := rfl
theorem pay16_eq (o o' : Vec F S1x32x128 .f32) (l l' : Vec F S1x32x1 .f32) :
    k0_pay16 (k0_pay15 o o') l l' = merge o o' l l' := rfl
theorem pay22_eq (o o' : Vec F S1x32x128 .f32) (l l' : Vec F S1x32x1 .f32) :
    k0_pay22 o o' l l' = merge o o' l l' := rfl
theorem pay23_eq (o o' : Vec F S1x32x128 .f32) (l l' : Vec F S1x32x1 .f32) :
    k0_pay23 o o' l l' = merge o o' l l' := rfl

/--
info: 'Cert.KernelIdeal.Flash.pay10_eq' depends on axioms: [propext, Classical.choice, Quot.sound]
-/
#guard_msgs in #print axioms pay10_eq
/--
info: 'Cert.KernelIdeal.Flash.pay5_eq' depends on axioms: [propext, Classical.choice, Quot.sound]
-/
#guard_msgs in #print axioms pay5_eq

end Cert.KernelIdeal.Flash

end
-- ==== Proof.Sched.lean ====
import proofs.«900786_g7700000000000787_dist_flashdec_v7x_xyz2x2x4_x_b4_sq32_skv4096_h8_d128_f32_1_alg».proof.Proof.Proto
import proofs.«900786_g7700000000000787_dist_flashdec_v7x_xyz2x2x4_x_b4_sq32_skv4096_h8_d128_f32_1_alg».proof.Proof.KTerms
import Idealize.ShloMosaic.Lib.Transfers
import Idealize.ShloMosaic.Lib.ValueIdx

/-! The protocol's schedule: what every buffer holds at each stage, and what each signal and copy
hands over.

For device `c` (head `hdN c`, its half of the keys and values), batch `b`:
* `Qst m c` is the staged query array; `kC`, `vC` the key and value rows of head `hdN c` once
  the local copies have landed; `qB`, `kB`, `vB` the blocks the body loads from them;
* `oB`, `lB` are the device's partial output and partial denominator, `oC`, `lC` the buffers
  holding them batch by batch;
* `mB m c b` is the merge of the device's partial results with those of the other half
  (`pr 0 c`); `outC m c` the result buffer at the end: its row `(b, ·, h, ·)` is the merged block of
  the device of `c`'s half that works on head `h`.
The schedule `Rd m` has one round: a barrier cell has eight duties of one unit (one per peer), each
of the eighty DMA cells one duty of its view's credit. -/

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The buffers -/

abbrev qM : Memref sig .tc .vmem S4x32x8x128 .f32 := Memref.whole cc0_stg0_0
abbrev rM : Memref sig .tc .vmem S4x32x8x128 .f32 := Memref.whole cc0_stg1_0
abbrev kM : Memref sig .tc .vmem S4x4096x1x128 .f32 := Memref.whole cc0_scratch0
abbrev vM : Memref sig .tc .vmem S4x4096x1x128 .f32 := Memref.whole cc0_scratch1
abbrev oM : Memref sig .tc .vmem S4x32x128 .f32 := Memref.whole cc0_scratch2
abbrev lM : Memref sig .tc .vmem S4x32x1 .f32 := Memref.whole cc0_scratch3
abbrev oM' : Memref sig .tc .vmem S4x32x128 .f32 := Memref.whole cc0_scratch4
abbrev lM' : Memref sig .tc .vmem S4x32x1 .f32 := Memref.whole cc0_scratch5
abbrev aK : Memref sig .tc .hbm S4x4096x8x128 .f32 := Memref.whole main_arg1
abbrev aV : Memref sig .tc .hbm S4x4096x8x128 .f32 := Memref.whole main_arg2

/-! ## The rectangles the body loads and stores through -/

abbrev rH (b : Fin 4) (h : ℕ) (hh : h < 8) : Rect S4x32x8x128 :=
  Rect.unit (s := S4x32x8x128) ![b.val, 0, h, 0] S1x32x1x128.size (inbH b.val b.isLt h hh)
abbrev rK (b : Fin 4) : Rect S4x4096x1x128 :=
  Rect.unit (s := S4x4096x1x128) ![b.val, 0, 0, 0] S1x4096x1x128.size (inbK b.val b.isLt)
abbrev rO (b : Fin 4) : Rect S4x32x128 :=
  Rect.unit (s := S4x32x128) ![b.val, 0, 0] S1x32x128.size (inbO b.val b.isLt)
abbrev rL (b : Fin 4) : Rect S4x32x1 :=
  Rect.unit (s := S4x32x1) ![b.val, 0, 0] S1x32x1.size (inbL b.val b.isLt)

/-! ## Contents -/

/-- The staged query array of device `c`. -/
def Qst (c : Dev nD) : (cc0_stg0_0 : Ref sig .tc).ty.Contents (Elt F) :=
  (win0_0.blk (0 : Fin 1)).view.read (Elt F) (m ((c : Thread nD τ).loc main_arg0))

/-- The key rows of head `hdN c`, batch by batch, once the local copies have landed. -/
def kC (c : Dev nD) : (cc0_scratch0 : Ref sig .tc).ty.Contents (Elt F) := fun i =>
  m ((c : Thread nD τ).loc main_arg1) (ix4 (i 0) (i 1) (⟨hdN c, hdN_lt c⟩ : Fin 8) (i 3))

/-- The value rows of head `hdN c`. -/
def vC (c : Dev nD) : (cc0_scratch1 : Ref sig .tc).ty.Contents (Elt F) := fun i =>
  m ((c : Thread nD τ).loc main_arg2) (ix4 (i 0) (i 1) (⟨hdN c, hdN_lt c⟩ : Fin 8) (i 3))

/-- The query block of batch `b`, head `hdN c`, as the body loads it. -/
def qB (c : Dev nD) (b : Fin 4) : Vec F S1x32x1x128 .f32 :=
  (qM : Memref sig .tc .vmem S4x32x8x128 .f32).view.readAt (Elt F) (rH b (hdN c) (hdN_lt c)).toLoadRect (Qst m c)
/-- The key block of batch `b`. -/
def kB (c : Dev nD) (b : Fin 4) : Vec F S1x4096x1x128 .f32 :=
  (kM : Memref sig .tc .vmem S4x4096x1x128 .f32).view.readAt (Elt F) (rK b).toLoadRect (kC m c)
/-- The value block of batch `b`. -/
def vB (c : Dev nD) (b : Fin 4) : Vec F S1x4096x1x128 .f32 :=
  (vM : Memref sig .tc .vmem S4x4096x1x128 .f32).view.readAt (Elt F) (rK b).toLoadRect (vC m c)

/-- The device's partial output and partial denominator of batch `b`. -/
def oB (c : Dev nD) (b : Fin 4) : Vec F S1x32x128 .f32 := opart (qB m c b) (kB m c b) (vB m c b)
def lB (c : Dev nD) (b : Fin 4) : Vec F S1x32x1 .f32 := lpart (qB m c b) (kB m c b)

/-- The buffers holding them: row `b` is batch `b`'s. -/
def oC (c : Dev nD) : (cc0_scratch2 : Ref sig .tc).ty.Contents (Elt F) := fun i =>
  oB m c (i 0) (ix3 (0 : Fin 1) (i 1) (i 2))
def lC (c : Dev nD) : (cc0_scratch3 : Ref sig .tc).ty.Contents (Elt F) := fun i =>
  lB m c (i 0) (ix3 (0 : Fin 1) (i 1) (i 2))

/-- The merged block of batch `b`: the device's partial results with the other half's. -/
def mB (c : Dev nD) (b : Fin 4) : Vec F S1x32x1x128 .f32 :=
  merge (oB m c b) (oB m (pr 0 c) b) (lB m c b) (lB m (pr 0 c) b)

/-- The device of `c`'s half that works on head `h`. -/
def hdDev (c : Dev nD) (h : Fin 8) : Dev nD := ⟨8 * (c.val / 8) + h.val, by have hc : c.val < 16 := c.isLt; have := h.isLt; show 8 * (c.val / 8) + h.val < 16; omega⟩

/-- The result buffer at the end: row `(b, ·, h, ·)` is the merged block of the device of `c`'s half
    that works on head `h`. -/
def outC (c : Dev nD) : (cc0_stg1_0 : Ref sig .tc).ty.Contents (Elt F) := fun i =>
  mB m (hdDev c (i 2)) (i 0) (ix4 (0 : Fin 1) (i 1) (0 : Fin 1) (i 3))

/-! ## The cells by number -/

/-- The number of each DMA cell of a device, by its role. -/
abbrev nLoc (b : Fin 4) (v : Fin 2) : Fin 80 := ⟨locN b.val v.val, by have := b.isLt; have := v.isLt; show 2 * b.val + v.val < 80; omega⟩
abbrev nXs (b : Fin 4) (i : Fin 2) : Fin 80 := ⟨xsN b.val i.val, by have := b.isLt; have := i.isLt; show 8 + 2 * b.val + i.val < 80; omega⟩
abbrev nXr (b : Fin 4) (i : Fin 2) : Fin 80 := ⟨xrN b.val i.val, by have := b.isLt; have := i.isLt; show 16 + 2 * b.val + i.val < 80; omega⟩
abbrev nGs (b : Fin 4) (i : Fin 7) : Fin 80 := ⟨asN b.val i.val, by have := b.isLt; have := i.isLt; show 24 + 7 * b.val + i.val < 80; omega⟩
abbrev nGr (b : Fin 4) (i : Fin 7) : Fin 80 := ⟨arN b.val i.val, by have := b.isLt; have := i.isLt; show 52 + 7 * b.val + i.val < 80; omega⟩

/-- A DMA cell's role. -/
inductive Role where
  | loc (b : Fin 4) (v : Fin 2)
  | xs (b : Fin 4) (i : Fin 2)
  | xr (b : Fin 4) (i : Fin 2)
  | gs (b : Fin 4) (i : Fin 7)
  | gr (b : Fin 4) (i : Fin 7)
  deriving DecidableEq

def Role.num : Role → Fin 80
  | .loc b v => nLoc b v
  | .xs b i => nXs b i
  | .xr b i => nXr b i
  | .gs b i => nGs b i
  | .gr b i => nGr b i

/-- The role of DMA cell number `n`. -/
def roleOf (n : Fin 80) : Role :=
  if h₁ : n.val < 8 then .loc ⟨n.val / 2, by omega⟩ ⟨n.val % 2, by omega⟩
  else if h₂ : n.val < 16 then .xs ⟨(n.val - 8) / 2, by omega⟩ ⟨(n.val - 8) % 2, by omega⟩
  else if h₃ : n.val < 24 then .xr ⟨(n.val - 16) / 2, by omega⟩ ⟨(n.val - 16) % 2, by omega⟩
  else if h₄ : n.val < 52 then .gs ⟨(n.val - 24) / 7, by omega⟩ ⟨(n.val - 24) % 7, by omega⟩
  else .gr ⟨(n.val - 52) / 7, by have := n.isLt; omega⟩ ⟨(n.val - 52) % 7, by omega⟩

theorem roleOf_num (k : Role) : roleOf k.num = k := by
  cases k with
  | loc b v => revert b v; decide
  | xs b i => revert b i; decide
  | xr b i => revert b i; decide
  | gs b i => revert b i; decide
  | gr b i => revert b i; decide

/-- The DMA semaphore's number, if it is one of the kernel's own eighty. -/
def dnum : SemLoc sig → Option (Fin 80)
  | .reg _ => none
  | .dma s => if h : 2 ≤ s.val ∧ s.val < 82 then some ⟨s.val - 2, by omega⟩ else none

theorem dnum_dS (n : Fin 80) : dnum (.dma (dS n)) = some n := by
  have := n.isLt
  show (if h : 2 ≤ n.val + 2 ∧ n.val + 2 < 82 then some (⟨n.val + 2 - 2, _⟩ : Fin 80) else none) = some n
  rw [dif_pos ⟨by omega, by omega⟩]
  exact congrArg some (Fin.ext (by show n.val + 2 - 2 = n.val; omega))

/-! ## The credits -/

abbrev NK : ℕ := (kvDst 0 (by decide) kM).view.dmaCredit
abbrev NV : ℕ := (kvDst 0 (by decide) vM).view.dmaCredit
abbrev NO : ℕ := (oSl 0 (by decide) oM').view.dmaCredit
abbrev NL : ℕ := (lSl 0 (by decide) lM').view.dmaCredit
abbrev NH : ℕ := (hSl 0 (by decide) 0 (by decide) rM).view.dmaCredit

theorem NK_pos : 0 < NK := View.dmaCredit_pos _ (by decide)
theorem NV_pos : 0 < NV := View.dmaCredit_pos _ (by decide)
theorem NO_pos : 0 < NO := View.dmaCredit_pos _ (by decide)
theorem NL_pos : 0 < NL := View.dmaCredit_pos _ (by decide)
theorem NH_pos : 0 < NH := View.dmaCredit_pos _ (by decide)

/-- What a transfer completing on a DMA cell credits it, by the cell's role. -/
def roleAmt : Role → ℕ
  | .loc _ v => if v = 0 then NK else NV
  | .xs _ i => if i = 0 then NO else NL
  | .xr _ i => if i = 0 then NO else NL
  | .gs _ _ => NH
  | .gr _ _ => NH

theorem roleAmt_pos (k : Role) : 0 < roleAmt k := by
  cases k <;> dsimp only [roleAmt] <;> (try split) <;> first | exact NK_pos | exact NV_pos | exact NO_pos | exact NL_pos | exact NH_pos

/-! ## The shares of a merged block read by seven copies at once -/

/-- The share of its merged block a device lends to the copy towards peer `i + 1`. -/
abbrev gsShare (i : Fin 7) : PosShare TreeShare := Transfers.shareTok fullShare 7 i

/-! ## What each duty hands over -/

/-- Region points-to of a memref's elements on a device. -/
abbrev slPts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- Duty `j` of device `c`'s barrier cell, paid by peer `pr j c`: from the other half (`j = 0`) its two
    landing buffers; from another head's device its four rows of the result buffer that `c` will write. -/
def barPay (c : Dev nD) (j : Fin 8) : sProp 𝕄 :=
  if j = 0 then iprop((∃ f, slPts (pr 0 c) oM' fullShare f) ∗ (∃ f, slPts (pr 0 c) lM' fullShare f))
  else bigSep (Finset.univ : Finset (Fin 4)) (fun b => iprop(∃ f, slPts (pr j c) (hSl b.val b.isLt (hdN c) (hdN_lt c) rM) fullShare f))

/-- What a DMA cell's one duty hands its device, by role. -/
def rolePay (c : Dev nD) : Role → sProp 𝕄
  | .loc b v =>
    if v = 0 then iprop(slPts c (kvDst b.val b.isLt kM) fullShare (kC m c)
        ∗ slPts c (kvSrc b.val b.isLt (hdN c) (hdN_lt c) aK) fullShare (m ((c : Thread nD τ).loc main_arg1)))
    else iprop(slPts c (kvDst b.val b.isLt vM) fullShare (vC m c)
        ∗ slPts c (kvSrc b.val b.isLt (hdN c) (hdN_lt c) aV) fullShare (m ((c : Thread nD τ).loc main_arg2)))
  | .xs b i =>
    if i = 0 then slPts c (oSl b.val b.isLt oM) fullShare (oC m c)
    else slPts c (lSl b.val b.isLt lM) fullShare (lC m c)
  | .xr b i =>
    if i = 0 then slPts c (oSl b.val b.isLt oM') fullShare (oC m (pr 0 c))
    else slPts c (lSl b.val b.isLt lM') fullShare (lC m (pr 0 c))
  | .gs b i => slPts c (hSl b.val b.isLt (hdN c) (hdN_lt c) rM) (gsShare i) (outC m c)
  | .gr b i => slPts c (hSl b.val b.isLt (hdN (pr i.succ c)) (hdN_lt _) rM) fullShare (outC m c)

abbrev IsBar (g : GSem nD τ sig) : Prop := g.1.2 = .tc ∧ g.2 = .reg barS
abbrev IsDma (g : GSem nD τ sig) : Prop := g.1.2 = .tc ∧ (dnum g.2).isSome

/-- One round, round 0: a barrier cell has eight duties of one unit, one per peer; each of a device's
    eighty DMA cells one duty, of the credit of the view whose transfer completes there. -/
def Rd : Rounds.Schedule (GSem nD τ sig) (Fin 8) 𝕄 where
  duties g r := if r = 0 ∧ IsBar g then Finset.univ else if r = 0 ∧ IsDma g then {0} else ∅
  amount g _ _ := (dnum g.2).elim 1 (fun n => roleAmt (roleOf n))
  payload g _ d :=
    if g.2 = .reg barS then barPay g.1.1 d
    else (dnum g.2).elim iprop(emp) (fun n => rolePay m g.1.1 (roleOf n))
  amount_pos g _ _ _ := by
    cases dnum g.2 with
    | some n => exact roleAmt_pos _
    | none => exact Nat.one_pos

set_option synthInstance.maxHeartbeats 400000 in
instance Rd_payload_storable (g : GSem nD τ sig) (r : ℕ) (d : Fin 8) :
    BI.Storable (upEmb : UEmb _ 𝕄) ((Rd (F := F) m).payload g r d) := by
  show BI.Storable upEmb (if g.2 = .reg barS then barPay g.1.1 d
    else (dnum g.2).elim iprop(emp) (fun n => rolePay m g.1.1 (roleOf n)))
  split
  · unfold barPay; split <;> infer_instance
  · cases dnum g.2 with
    | none => show BI.Storable upEmb iprop(emp); infer_instance
    | some n =>
      show BI.Storable upEmb (rolePay m g.1.1 (roleOf n))
      cases roleOf n <;> dsimp only [rolePay] <;> (try split) <;> infer_instance

/-! ## The tables, cell by cell -/

section Tables
variable (c : Dev nD)

theorem dma_ne_bar (s : DmaSem sig) : (SemLoc.dma s : SemLoc sig) ≠ .reg barS := fun h => by cases h
theorem not_bar_dCell (n : Fin 80) : ¬ IsBar (dCell c n) := fun h => dma_ne_bar _ h.2
theorem isDma_dCell (n : Fin 80) : IsDma (dCell c n) := ⟨rfl, by show (dnum (.dma (dS n))).isSome = true; rw [dnum_dS]; rfl⟩

theorem duties_bar : (Rd (F := F) m).duties (barCell c) 0 = Finset.univ := by dsimp only [Rd]; exact if_pos ⟨rfl, rfl, rfl⟩
theorem duties_dma (n : Fin 80) : (Rd (F := F) m).duties (dCell c n) 0 = {0} := by
  dsimp only [Rd]; rw [if_neg (fun h => not_bar_dCell c n h.2)]; exact if_pos ⟨rfl, isDma_dCell c n⟩
theorem duties_later (g : GSem nD τ sig) : ∀ r, 1 ≤ r → (Rd (F := F) m).duties g r = ∅ :=
  fun r hr => by dsimp only [Rd]; rw [if_neg fun h => by omega, if_neg fun h => by omega]
theorem mem_duties_bar (j : Fin 8) : j ∈ (Rd (F := F) m).duties (barCell c) 0 := by rw [duties_bar]; exact Finset.mem_univ j
theorem mem_duties_dma (n : Fin 80) : (0 : Fin 8) ∈ (Rd (F := F) m).duties (dCell c n) 0 := by rw [duties_dma]; exact Finset.mem_singleton_self _

theorem amount_bar (d : Fin 8) : (Rd (F := F) m).amount (barCell c) 0 d = 1 := rfl
theorem amount_dma (k : Role) (d : Fin 8) : (Rd (F := F) m).amount (dCell c k.num) 0 d = roleAmt k := by
  show (dnum (.dma (dS k.num))).elim 1 (fun n => roleAmt (roleOf n)) = roleAmt k
  rw [dnum_dS, Option.elim_some, roleOf_num]

theorem expect_bar : (Rd (F := F) m).expect (barCell c) 0 = 8 := by
  unfold Schedule.expect Schedule.amountOf
  rw [duties_bar, Finset.sum_congr rfl fun d _ => amount_bar m c d, Finset.sum_const, Finset.card_univ, Fintype.card_fin, smul_eq_mul]
theorem expect_dma (k : Role) : (Rd (F := F) m).expect (dCell c k.num) 0 = roleAmt k := by
  unfold Schedule.expect Schedule.amountOf; rw [duties_dma, Finset.sum_singleton, amount_dma]

theorem payload_bar (j : Fin 8) : (Rd (F := F) m).payload (barCell c) 0 j = barPay c j := by dsimp only [Rd]; rw [if_pos rfl]
theorem payload_dma (k : Role) (d : Fin 8) : (Rd (F := F) m).payload (dCell c k.num) 0 d = rolePay m c k := by
  show (if (SemLoc.dma (dS k.num) : SemLoc sig) = .reg barS then barPay c d
    else (dnum (.dma (dS k.num))).elim iprop(emp) (fun n => rolePay m c (roleOf n))) = rolePay m c k
  rw [if_neg (dma_ne_bar _), dnum_dS, Option.elim_some, roleOf_num]

end Tables

end Cert.KernelIdeal.Flash

end
-- ==== Proof.Ghost.lean ====
/-
  The ghost state of the launch, for any schedule of the cells' rounds.

  Every device owns 81 cells: its barrier semaphore and its eighty DMA semaphores.  At launch each cell stands at
  round 0 with nothing taken and nothing consumed, and 88 duty tokens of round 0 are minted per device: the eight
  duties of its barrier cell and the one duty of each of its DMA cells.  A token goes to the device that PAYS the
  duty: duty j of a barrier cell to peer j of its owner, the duty of DMA cell n to the device whose target for n
  the owner is.  Both maps are involutions of the mesh, so dealing the tokens is a reindexing of the devices.

  What each device ends with is: the persistent records (every cell's invariant at the name it was allocated
  at, and that round 0 of every cell is reached), its 81 positions, and the 88 tokens it pays with.
-/
import proofs.«900786_g7700000000000787_dist_flashdec_v7x_xyz2x2x4_x_b4_sq32_skv4096_h8_d128_f32_1_alg».proof.Proof.Proto
import Idealize.ShloMosaic.Lib.Pipeline.Launch
import Idealize.ShloMosaic.Lib.Pipeline.Kit
import Idealize.ShloMosaic.Lib.Rounds
import Idealize.ShloMosaic.Lib.Tactic
import Mathlib.Data.Fintype.Option
import Mathlib.Logic.Equiv.Option

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Iterated separating conjunctions: an optional index, and one member taken out -/

section BigSep

variable {M : Type} [URA M]

/-- Over an optional index: the member at none, and the members at some. -/
theorem bigSep_univ_option {α : Type} [Fintype α] (Φ : Option α → sProp M) :
    bigSep Finset.univ Φ = iprop(Φ none ∗ bigSep Finset.univ fun a : α => Φ (some a)) := by
  rw [bigSep_univ_equiv (Equiv.optionEquivSumPUnit.{0, 0} α).symm Φ, bigSep_univ_sum,
    bigSep_univ_of_subsingleton PUnit.unit]
  show BI.sep (bigSep Finset.univ fun a : α => Φ (some a)) (Φ none) = BI.sep (Φ none) (bigSep Finset.univ fun a : α => Φ (some a))
  exact equiv_iff.mp ⟨BI.sep_comm, BI.sep_comm⟩

/-- One member of a set first, the others after it. -/
theorem bigSep_take {I : Type} [DecidableEq I] {S : Finset I} {i : I} (hi : i ∈ S) (Φ : I → sProp M) :
    bigSep S Φ = iprop(Φ i ∗ bigSep (S.erase i) Φ) := bigSep_erase hi

/-- The same, as the two entailments a proof in progress applies. -/
theorem bigSep_take_out {I : Type} [DecidableEq I] {S : Finset I} {i : I} (hi : i ∈ S) (Φ : I → sProp M) :
    bigSep S Φ ⊢ iprop(Φ i ∗ bigSep (S.erase i) Φ) := Entails.of_eq (bigSep_take hi Φ)
theorem bigSep_put_back {I : Type} [DecidableEq I] {S : Finset I} {i : I} (hi : i ∈ S) (Φ : I → sProp M) :
    iprop(Φ i ∗ bigSep (S.erase i) Φ) ⊢ bigSep S Φ := Entails.of_eq (bigSep_take hi Φ).symm

/-- One member of a whole finite type first. -/
theorem bigSep_univ_take {I : Type} [Fintype I] [DecidableEq I] (i : I) (Φ : I → sProp M) :
    bigSep Finset.univ Φ = iprop(Φ i ∗ bigSep (Finset.univ.erase i) Φ) := bigSep_erase (Finset.mem_univ i)

/-- A member changed, the others kept: the old member out, and the whole back for the new one. -/
theorem bigSep_swap {I : Type} [DecidableEq I] {S : Finset I} {i : I} (hi : i ∈ S) (Φ : I → sProp M) (P : sProp M) :
    bigSep S Φ ⊢ iprop(Φ i ∗ (P -∗ bigSep S fun j => if j = i then P else Φ j)) := by
  have e : (bigSep S fun j => if j = i then P else Φ j) = iprop(P ∗ bigSep (S.erase i) Φ) := by
    rw [bigSep_take hi, if_pos rfl]
    exact congrArg (BI.sep P) (bigSep_congr fun j hj => if_neg (Finset.ne_of_mem_erase hj))
  rw [bigSep_take hi Φ, e]
  iintro ⟨H, Hr⟩
  isplitl [H]; · iexact H
  iintro HP
  isplitl [HP] <;> iassumption

end BigSep

/-! ## The cells and the minted tokens -/

theorem dS_injective : Function.Injective dS := fun a b h => by
  have h' : a.val + 2 = b.val + 2 := congrArg (fun x : DmaSem sig => x.val) h
  exact Fin.ext (by omega)

theorem csem_injective : Function.Injective csem := by
  intro k k' h
  cases k with
  | none => cases k' with
    | none => rfl
    | some b => cases h
  | some a => cases k' with
    | none => cases h
    | some b => exact congrArg some (dS_injective (SemLoc.dma.inj h))

theorem kcell_injective : Function.Injective (kcell : Dev nD × Option (Fin 80) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_none (c : Dev nD) : kcell (c, none) = barCell c := rfl
theorem kcell_some (c : Dev nD) (n : Fin 80) : kcell (c, some n) = dCell c n := rfl

/-- All the cells of the launch. -/
def allCells : Finset (GSem nD τ sig) := Finset.univ.map ⟨kcell, kcell_injective⟩

/-- A device's own cells' duty tokens as minted: the eight duties of its barrier cell, the one duty of each DMA cell. -/
abbrev tokOf (cj : Dev nD × (Fin 8 ⊕ Fin 80)) : GSem nD τ sig × ℕ × Fin 8 := match cj.2 with
  | .inl j => (barCell cj.1, 0, j)
  | .inr n => (dCell cj.1 n, 0, 0)

theorem tokOf_injective : Function.Injective (tokOf : Dev nD × (Fin 8 ⊕ Fin 80) → GSem nD τ sig × ℕ × Fin 8) := by
  rintro ⟨c, j⟩ ⟨c', j'⟩ h
  have h1 : c = c' := by
    have := congrArg (fun x : GSem nD τ sig × ℕ × Fin 8 => x.1.1.1) h
    cases j <;> cases j' <;> exact this
  subst h1
  have h2 := congrArg (fun x : GSem nD τ sig × ℕ × Fin 8 => x.1.2) h
  have h3 := congrArg (fun x : GSem nD τ sig × ℕ × Fin 8 => x.2.2) h
  cases j with
  | inl a => cases j' with
    | inl b => have : a = b := h3; rw [this]
    | inr b => cases h2
  | inr a => cases j' with
    | inl b => cases h2
    | inr b => have : a = b := dS_injective (SemLoc.dma.inj h2); rw [this]

/-- All the minted tokens. -/
def allToks : Finset (GSem nD τ sig × ℕ × Fin 8) := Finset.univ.map ⟨tokOf, tokOf_injective⟩

/-- The launch element: the pipeline library's, and the protocol's. -/
def u₀ : UU :=
  (initOf (Pipeline.cells cfgs cellOf_inj) (Pipeline.launchToks cfgs cellOf_inj), initOf allCells allToks)

/-! ## What the launch deals a device, and what the device's body starts from -/

variable (Rd : Rounds.Schedule (GSem nD τ sig) (Fin 8) (MT nD τ sig Unit (Elt F) ℕ UU ℕ))

/-- The duty tokens of device c's own cells. -/
def toks (c : Dev nD) : sProp 𝕄 :=
  iprop((bigSep Finset.univ fun j : Fin 8 => dutyTok ER (barCell c) 0 j)
    ∗ bigSep Finset.univ fun n : Fin 80 => dutyTok ER (dCell c n) 0 (0 : Fin 8))

/-- What the launch element deals device c: the round states of its cells at counter zero, its positions with
    the marks that round 0 is reached, and its own cells' tokens. -/
def G (c : Dev nD) : sProp 𝕄 :=
  iprop((bigSep Finset.univ fun k : Option (Fin 80) => roundState ER Rd (kcell (c, k)) 0)
    ∗ (bigSep Finset.univ fun k : Option (Fin 80) => iprop(atPos ER (kcell (c, k)) 0 ∅ 0 ∗ reached ER (kcell (c, k)) 0))
    ∗ toks c)

/-- The persistent records: every cell's invariant, at the name K gives it, and that round 0 of every cell is reached. -/
def records (K : Dev nD × Option (Fin 80) → ℕ) : sProp 𝕄 :=
  iprop((bigSep Finset.univ fun ck : Dev nD × Option (Fin 80) => cellInv ER Rd (K ck) (kcell ck))
    ∗ bigSep Finset.univ fun ck : Dev nD × Option (Fin 80) => reached ER (kcell ck) 0)

instance records_persistent (K : Dev nD × Option (Fin 80) → ℕ) : BI.Persistent (records Rd K) := by
  unfold records; infer_instance

/-- The tokens device c pays with: duty j of the barrier cell of its peer j, and the duty of cell n of its target for n. -/
def payToks (c : Dev nD) : sProp 𝕄 :=
  iprop((bigSep Finset.univ fun j : Fin 8 => dutyTok ER (barCell (pr j c)) 0 j)
    ∗ bigSep Finset.univ fun n : Fin 80 => dutyTok ER (dCell (tgt n c) n) 0 (0 : Fin 8))

/-- What stays with device c: its positions, and the tokens of the duties it pays. -/
def linear (c : Dev nD) : sProp 𝕄 :=
  iprop((bigSep Finset.univ fun k : Option (Fin 80) => atPos ER (kcell (c, k)) 0 ∅ 0) ∗ payToks c)

/-- The ghost state device c's body starts from, at the names K. -/
def ghost (K : Dev nD × Option (Fin 80) → ℕ) (c : Dev nD) : sProp 𝕄 := iprop(records Rd K ∗ linear c)

/-- The same at some names: what the global step of the launch hands device c. -/
def G' (c : Dev nD) : sProp 𝕄 := iprop(∃ K, ghost Rd K c)

/-! ## Funding: the protocol's launch element becomes every device's share -/

omit [FloatOps F] in
/-- Over all the cells: device by device, cell by cell. -/
theorem bigSep_allCells (Φ : GSem nD τ sig → sProp 𝕄) :
    bigSep allCells Φ = bigSep Finset.univ fun c : Dev nD => bigSep Finset.univ fun k : Option (Fin 80) => Φ (kcell (c, k)) := by
  unfold allCells; rw [bigSep_map, bigSep_univ_prod]; rfl

omit [FloatOps F] in
/-- Over all the minted tokens: device by device, its own cells' tokens. -/
theorem bigSep_allToks :
    bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

omit [FloatOps F] in
theorem fund : BI.own (ER (initOf allCells allToks)) ⊢ (|==> bigSep Finset.univ (G Rd) : sProp 𝕄) := by
  iintro HX
  imod (Rounds.fund ER Rd allCells allToks) $$ HX with ⟨Hst, Hr, Hat, Htok⟩
  imodintro
  ihave Hst' := (Entails.of_eq (bigSep_allCells fun g => roundState ER Rd g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq bigSep_allToks) $$ Htok
  unfold G; simp only [bigSep_sep']
  isplitl [Hst']; · iexact Hst'
  isplitl [Hat' Hr']
  · isplitl [Hat'] <;> iassumption
  iexact Htok'

omit [FloatOps F] in
/-- The launch element split between the pipeline library and the protocol, and the protocol's half funded (`hu₀`). -/
theorem launch_u₀ : (ownU u₀ : sProp 𝕄)
    ⊢ |={Set.univ}=> iprop(BI.own (EP (initOf (Pipeline.cells cfgs cellOf_inj) (Pipeline.launchToks cfgs cellOf_inj)))
        ∗ bigSep Finset.univ (G Rd)) := by
  unfold u₀
  iintro Hu
  ihave H := (ownU_pair _ _) $$ Hu
  icases H with ⟨HP, HX⟩
  imod (fund Rd) $$ HX with HG
  imodintro
  isplitl [HP] <;> iassumption

/-! ## The semaphores at zero: the eighty own ones and the barrier semaphore, the one unscoped semaphore -/

theorem ownSemFacts : Pipeline.OwnSemFacts cfg0.spec osem := by decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 80) => semVal (kcell (c, k)) 0 : sProp 𝕄) := by
  rw [unscopedSems0_eq, bigSep_univ_option]
  unfold Pipeline.ownSems0
  iintro ⟨HS, HB⟩
  isplitl [HB]; · iexact HB
  iexact HS

/-! ## The global step: every cell's invariant allocated, the tokens dealt to their payers -/

section Alloc

variable [hRd : ∀ g r d, BI.Storable (upEmb : UEmb _ (MT nD τ sig Unit (Elt F) ℕ UU ℕ)) (Rd.payload g r d)]

omit [FloatOps F] in
/-- Device c's cells' invariants, from its semaphores at zero and its round states at zero. -/
theorem core_alloc (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : Option (Fin 80) => iprop(∃ κ : ℕ, cellInv ER Rd κ (kcell (c, k))))
          ∗ (bigSep Finset.univ fun k : Option (Fin 80) => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 80) => semVal (kcell (c, k)) 0) ∗ bigSep Finset.univ fun k : Option (Fin 80) => roundState ER Rd (kcell (c, k)) 0)
      ⊢ (|={Set.univ}=> bigSep Finset.univ fun k : Option (Fin 80) => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Alloc

omit [FloatOps F] in
theorem inv_at (K : Dev nD × Option (Fin 80) → ℕ) (ck : Dev nD × Option (Fin 80)) : records Rd K ⊢ cellInv ER Rd (K ck) (kcell ck) := by
  unfold records
  exact sep_elim_left.trans (bigSep_elim (Finset.mem_univ ck))

omit [FloatOps F] in
theorem reached_at (K : Dev nD × Option (Fin 80) → ℕ) (ck : Dev nD × Option (Fin 80)) : records Rd K ⊢ reached ER (kcell ck) 0 := by
  unfold records
  exact sep_elim_right.trans (bigSep_elim (Finset.mem_univ ck))

omit [FloatOps F] in
/-- The tokens dealt to their payers.  Duty j of a barrier cell goes to peer j of its owner, the duty of DMA
    cell n to the target for n of its owner; both maps are their own inverses, so each family is the minted one
    with the devices reindexed. -/
theorem toks_around_eq : (bigSep Finset.univ fun c : Dev nD => (toks c : sProp 𝕄)) = bigSep Finset.univ fun c : Dev nD => payToks c := by
  unfold toks payToks
  rw [bigSep_sep', bigSep_sep']
  congr 1
  · rw [bigSep_univ_comm, bigSep_univ_comm (fun (c : Dev nD) (j : Fin 8) => (dutyTok ER (barCell (pr j c)) 0 j : sProp 𝕄))]
    exact bigSep_congr fun j _ => bigSep_univ_equiv (prEquiv j) (fun c : Dev nD => (dutyTok ER (barCell c) 0 j : sProp 𝕄))
  · rw [bigSep_univ_comm, bigSep_univ_comm (fun (c : Dev nD) (n : Fin 80) => (dutyTok ER (dCell (tgt n c) n) 0 (0 : Fin 8) : sProp 𝕄))]
    exact bigSep_congr fun n _ => bigSep_univ_equiv (tgtEquiv n) (fun c : Dev nD => (dutyTok ER (dCell c n) 0 (0 : Fin 8) : sProp 𝕄))

omit [FloatOps F] in
theorem toks_around : (bigSep Finset.univ fun c : Dev nD => (toks c : sProp 𝕄)) ⊢ bigSep Finset.univ fun c : Dev nD => payToks c :=
  Entails.of_eq toks_around_eq

omit [FloatOps F] in
theorem ghost_intro (K : Dev nD × Option (Fin 80) → ℕ) (c : Dev nD) : iprop(records Rd K ∗ linear c) ⊢ G' Rd c := by
  unfold G' ghost
  iintro H
  iexists K
  iexact H

omit [FloatOps F] in
/-- The devices' shares after allocation, regrouped: the records gathered into one persistent whole at the names
    chosen, and every device left with its positions and the tokens it pays with. -/
theorem regroup :
    (bigSep Finset.univ fun c : Dev nD => iprop((bigSep Finset.univ fun k : Option (Fin 80) => iprop(∃ κ : ℕ, cellInv ER Rd κ (kcell (c, k))))
          ∗ (bigSep Finset.univ fun k : Option (Fin 80) => iprop(atPos ER (kcell (c, k)) 0 ∅ 0 ∗ reached ER (kcell (c, k)) 0)) ∗ toks c) : sProp 𝕄)
      ⊢ bigSep Finset.univ (G' Rd) := by
  rw [bigSep_sep', bigSep_sep', ← bigSep_univ_prod (fun ck : Dev nD × Option (Fin 80) => iprop(∃ κ : ℕ, cellInv ER Rd κ (kcell ck))),
    bigSep_congr (s := Finset.univ) (fun (c : Dev nD) _ => bigSep_sep' Finset.univ (fun k : Option (Fin 80) => (atPos ER (kcell (c, k)) 0 ∅ 0 : sProp 𝕄)) (fun k => reached ER (kcell (c, k)) 0)),
    bigSep_sep', ← bigSep_univ_prod (fun ck : Dev nD × Option (Fin 80) => (reached ER (kcell ck) 0 : sProp 𝕄))]
  iintro ⟨HI, ⟨Hat, #HR⟩, Htok⟩
  ihave HK := (BI.bigSep_exists_pi Finset.univ (fun (ck : Dev nD × Option (Fin 80)) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply ((Entails.of_eq (bigSep_sep' Finset.univ (fun c : Dev nD => bigSep Finset.univ fun k : Option (Fin 80) => (atPos ER (kcell (c, k)) 0 ∅ 0 : sProp 𝕄)) payToks).symm).trans
      (bigSep_mono fun c _ => show _ ⊢ linear c from Entails.of_eq (by unfold linear; rfl)))
    isplitl [Hat]; · iexact Hat
    iexact Htk

section Glob

variable [hRd : ∀ g r d, BI.Storable (upEmb : UEmb _ (MT nD τ sig Unit (Elt F) ℕ UU ℕ)) (Rd.payload g r d)]

omit [FloatOps F] in
/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

end Glob

/-! ## Taking the ghost state apart: the records at one cell, and one position or one token out of the rest -/

omit [FloatOps F] in
theorem ghost_records (K : Dev nD × Option (Fin 80) → ℕ) (c : Dev nD) : ghost Rd K c ⊢ records Rd K := by
  unfold ghost; exact sep_elim_left
omit [FloatOps F] in
theorem ghost_split (K : Dev nD × Option (Fin 80) → ℕ) (c : Dev nD) : ghost Rd K c ⊢ iprop(records Rd K ∗ linear c) := by
  unfold ghost; exact .rfl

omit [FloatOps F] in
theorem inv_bar (K : Dev nD × Option (Fin 80) → ℕ) (c : Dev nD) : records Rd K ⊢ cellInv ER Rd (K (c, none)) (barCell c) :=
  inv_at Rd K (c, none)
omit [FloatOps F] in
theorem inv_d (K : Dev nD × Option (Fin 80) → ℕ) (c : Dev nD) (n : Fin 80) : records Rd K ⊢ cellInv ER Rd (K (c, some n)) (dCell c n) :=
  inv_at Rd K (c, some n)
omit [FloatOps F] in
theorem reached_bar (K : Dev nD × Option (Fin 80) → ℕ) (c : Dev nD) : records Rd K ⊢ reached ER (barCell c) 0 :=
  reached_at Rd K (c, none)
omit [FloatOps F] in
theorem reached_d (K : Dev nD × Option (Fin 80) → ℕ) (c : Dev nD) (n : Fin 80) : records Rd K ⊢ reached ER (dCell c n) 0 :=
  reached_at Rd K (c, some n)

/-- Device c's positions at round 0, over the cells S. -/
def posAt (c : Dev nD) (S : Finset (Option (Fin 80))) : sProp 𝕄 := bigSep S fun k => atPos ER (kcell (c, k)) 0 ∅ 0
/-- The barrier tokens device c pays with, over the duties S. -/
def barToksAt (c : Dev nD) (S : Finset (Fin 8)) : sProp 𝕄 := bigSep S fun j => dutyTok ER (barCell (pr j c)) 0 j
/-- The DMA tokens device c pays with, over the cell numbers S. -/
def dToksAt (c : Dev nD) (S : Finset (Fin 80)) : sProp 𝕄 := bigSep S fun n => dutyTok ER (dCell (tgt n c) n) 0 (0 : Fin 8)

omit [FloatOps F] in
theorem linear_eq (c : Dev nD) : (linear c : sProp 𝕄) = iprop(posAt c Finset.univ ∗ barToksAt c Finset.univ ∗ dToksAt c Finset.univ) := rfl

omit [FloatOps F] in
theorem pos_take (c : Dev nD) {S : Finset (Option (Fin 80))} {k : Option (Fin 80)} (hk : k ∈ S) :
    (posAt c S : sProp 𝕄) = iprop(atPos ER (kcell (c, k)) 0 ∅ 0 ∗ posAt c (S.erase k)) := bigSep_erase hk
omit [FloatOps F] in
theorem pos_take_bar (c : Dev nD) {S : Finset (Option (Fin 80))} (hk : none ∈ S) :
    (posAt c S : sProp 𝕄) = iprop(atPos ER (barCell c) 0 ∅ 0 ∗ posAt c (S.erase none)) := bigSep_erase hk
omit [FloatOps F] in
theorem pos_take_d (c : Dev nD) {S : Finset (Option (Fin 80))} {n : Fin 80} (hk : some n ∈ S) :
    (posAt c S : sProp 𝕄) = iprop(atPos ER (dCell c n) 0 ∅ 0 ∗ posAt c (S.erase (some n))) := bigSep_erase hk
omit [FloatOps F] in
theorem pos_split (c : Dev nD) {S T : Finset (Option (Fin 80))} (h : T ⊆ S) :
    (posAt c S : sProp 𝕄) = iprop(posAt c T ∗ posAt c (S \ T)) := bigSep_sdiff_split h

omit [FloatOps F] in
theorem tok_bar_take (c : Dev nD) {S : Finset (Fin 8)} {j : Fin 8} (hj : j ∈ S) :
    (barToksAt c S : sProp 𝕄) = iprop(dutyTok ER (barCell (pr j c)) 0 j ∗ barToksAt c (S.erase j)) := bigSep_erase hj
omit [FloatOps F] in
theorem tok_bar_split (c : Dev nD) {S T : Finset (Fin 8)} (h : T ⊆ S) :
    (barToksAt c S : sProp 𝕄) = iprop(barToksAt c T ∗ barToksAt c (S \ T)) := bigSep_sdiff_split h

omit [FloatOps F] in
theorem tok_d_take (c : Dev nD) {S : Finset (Fin 80)} {n : Fin 80} (hn : n ∈ S) :
    (dToksAt c S : sProp 𝕄) = iprop(dutyTok ER (dCell (tgt n c) n) 0 (0 : Fin 8) ∗ dToksAt c (S.erase n)) := bigSep_erase hn
omit [FloatOps F] in
/-- The token of one of the device's own cells (a local copy's or a send side's): the target is the device itself. -/
theorem tok_d_take_own (c : Dev nD) {S : Finset (Fin 80)} {n : Fin 80} (hn : n ∈ S) (h : n.val < 16 ∨ (24 ≤ n.val ∧ n.val < 52)) :
    (dToksAt c S : sProp 𝕄) = iprop(dutyTok ER (dCell c n) 0 (0 : Fin 8) ∗ dToksAt c (S.erase n)) := by
  rw [tok_d_take c hn, tgt_own n h c]
omit [FloatOps F] in
theorem tok_d_split (c : Dev nD) {S T : Finset (Fin 80)} (h : T ⊆ S) :
    (dToksAt c S : sProp 𝕄) = iprop(dToksAt c T ∗ dToksAt c (S \ T)) := bigSep_sdiff_split h

omit [FloatOps F] in
/-- The eight barrier tokens as a chain. -/
theorem barToks_chain (c : Dev nD) : (barToksAt c Finset.univ : sProp 𝕄)
    = iprop(dutyTok ER (barCell (pr 0 c)) 0 0 ∗ dutyTok ER (barCell (pr 1 c)) 0 1 ∗ dutyTok ER (barCell (pr 2 c)) 0 2 ∗ dutyTok ER (barCell (pr 3 c)) 0 3
        ∗ dutyTok ER (barCell (pr 4 c)) 0 4 ∗ dutyTok ER (barCell (pr 5 c)) 0 5 ∗ dutyTok ER (barCell (pr 6 c)) 0 6 ∗ dutyTok ER (barCell (pr 7 c)) 0 7) :=
  bigSep_univ_eq_bigSepL [0, 1, 2, 3, 4, 5, 6, 7] (by decide) (by decide) _

section Axioms

variable [hRd : ∀ g r d, BI.Storable (upEmb : UEmb _ (MT nD τ sig Unit (Elt F) ℕ UU ℕ)) (Rd.payload g r d)]

/-- info: 'Cert.KernelIdeal.Flash.launch_u₀' depends on axioms: [propext, Classical.choice, Quot.sound] -/
#guard_msgs in #print axioms launch_u₀

/-- info: 'Cert.KernelIdeal.Flash.glob' depends on axioms: [propext, Classical.choice, Quot.sound] -/
#guard_msgs in #print axioms glob

end Axioms

end Cert.KernelIdeal.Flash

end
-- ==== Proof.Atoms.lean ====
/-
  The resources a device's body holds, one name each: its positions on its own cells, the tokens of the duties
  it pays, its credits, its closed semaphores, and its buffers cut along the views of the copies — each buffer
  region either at some contents or at the contents the protocol says it holds by then.
-/
import proofs.«900786_g7700000000000787_dist_flashdec_v7x_xyz2x2x4_x_b4_sq32_skv4096_h8_d128_f32_1_alg».proof.Proof.Sched
import proofs.«900786_g7700000000000787_dist_flashdec_v7x_xyz2x2x4_x_b4_sq32_skv4096_h8_d128_f32_1_alg».proof.Proof.Ghost

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Ghost state -/

/-- Every cell's invariant at the names K, and that round 0 of every cell is reached. -/
abbrev Rec (K : Dev nD × Option (Fin 80) → ℕ) : sProp 𝕄 := records (Rd m) K
/-- The levels. -/
abbrev Lev : sProp 𝕄 := levAts L lv

abbrev posB (c : Dev nD) : sProp 𝕄 := atPos ER (barCell c) 0 ∅ 0
abbrev posD (c : Dev nD) (n : Fin 80) : sProp 𝕄 := atPos ER (dCell c n) 0 ∅ 0
/-- The token of the barrier duty device c pays: duty j of peer j's cell. -/
abbrev tokB (c : Dev nD) (j : Fin 8) : sProp 𝕄 := dutyTok ER (barCell (pr j c)) 0 j
/-- The token of the one duty of the DMA cell number n that device c pays. -/
abbrev tokD (c : Dev nD) (n : Fin 80) : sProp 𝕄 := dutyTok ER (dCell (tgt n c) n) 0 (0 : Fin 8)
abbrev crB (c : Dev nD) : sProp 𝕄 := cred (tallyAt (barCell c) () 8)
abbrev crD (c : Dev nD) (n : Fin 80) : sProp 𝕄 := cred (tallyAt (dCell c n) () (roleAmt (roleOf n)))
abbrev svD (c : Dev nD) (n : Fin 80) : sProp 𝕄 := semVal (dCell c n) 0

/-! ## Buffers, cut along the copies' views -/

/-- A view's elements on a device at some contents. -/
abbrev slE {sp : Space} {s : Shape} {e : EltTy} (c : Dev nD) (M : Memref sig .tc sp s e) : sProp 𝕄 :=
  iprop(∃ f, slPts (F := F) c M fullShare f)

abbrev kSrcA (c : Dev nD) (b : Fin 4) : sProp 𝕄 :=
  slPts c (kvSrc b.val b.isLt (hdN c) (hdN_lt c) aK) fullShare (m ((c : Thread nD τ).loc main_arg1))
abbrev vSrcA (c : Dev nD) (b : Fin 4) : sProp 𝕄 :=
  slPts c (kvSrc b.val b.isLt (hdN c) (hdN_lt c) aV) fullShare (m ((c : Thread nD τ).loc main_arg2))
abbrev kDstE (c : Dev nD) (b : Fin 4) : sProp 𝕄 := slE (F := F) c (kvDst b.val b.isLt kM)
abbrev vDstE (c : Dev nD) (b : Fin 4) : sProp 𝕄 := slE (F := F) c (kvDst b.val b.isLt vM)
abbrev kDstA (c : Dev nD) (b : Fin 4) : sProp 𝕄 := slPts c (kvDst b.val b.isLt kM) fullShare (kC m c)
abbrev vDstA (c : Dev nD) (b : Fin 4) : sProp 𝕄 := slPts c (kvDst b.val b.isLt vM) fullShare (vC m c)
abbrev oE (c : Dev nD) (b : Fin 4) : sProp 𝕄 := slE (F := F) c (oSl b.val b.isLt oM)
abbrev lE (c : Dev nD) (b : Fin 4) : sProp 𝕄 := slE (F := F) c (lSl b.val b.isLt lM)
abbrev oA (c : Dev nD) (b : Fin 4) : sProp 𝕄 := slPts c (oSl b.val b.isLt oM) fullShare (oC m c)
abbrev lA (c : Dev nD) (b : Fin 4) : sProp 𝕄 := slPts c (lSl b.val b.isLt lM) fullShare (lC m c)
abbrev poE (c : Dev nD) (b : Fin 4) : sProp 𝕄 := slE (F := F) c (oSl b.val b.isLt oM')
abbrev plE (c : Dev nD) (b : Fin 4) : sProp 𝕄 := slE (F := F) c (lSl b.val b.isLt lM')
abbrev poA (c : Dev nD) (b : Fin 4) : sProp 𝕄 := slPts c (oSl b.val b.isLt oM') fullShare (oC m (pr 0 c))
abbrev plA (c : Dev nD) (b : Fin 4) : sProp 𝕄 := slPts c (lSl b.val b.isLt lM') fullShare (lC m (pr 0 c))
abbrev hE (c : Dev nD) (b : Fin 4) (h : ℕ) (hh : h < 8) : sProp 𝕄 := slE (F := F) c (hSl b.val b.isLt h hh rM)
abbrev hA (c : Dev nD) (b : Fin 4) (h : ℕ) (hh : h < 8) (q : PosShare TreeShare) : sProp 𝕄 :=
  slPts c (hSl b.val b.isLt h hh rM) q (outC m c)
/-- The staged query array. -/
abbrev Qstg (c : Dev nD) : sProp 𝕄 := slPts c qM fullShare (Qst m c)
/-- A whole buffer at some contents. -/
abbrev wholeE (c : Dev nD) (r : Ref sig .tc) : sProp 𝕄 :=
  iprop(∃ f : Buf (Elt F) (((c : Dev nD) : Thread nD τ).loc r), (((c : Thread nD τ).loc r) ↦{fullShare} f))

/-- What device c hands peer j with its barrier signal: to the other half its two landing buffers, to
    another head's device the four rows of its result buffer that device will write. -/
def give (c : Dev nD) (j : Fin 8) : sProp 𝕄 := barPay (F := F) (pr j c) j

/-- What the eight signals device c waits for hand it. -/
def got (c : Dev nD) : sProp 𝕄 := bigSep (Finset.univ : Finset (Fin 8)) (fun j => barPay (F := F) c j)

end Cert.KernelIdeal.Flash

end
-- ==== Proof.Levels.lean ====
/-
  What a device owes its peers at launch, in the order it pays, and why none of its waits can deadlock.

  Every device pays, in program order: one unit to the barrier cell of each of its eight peers; then, batch
  by batch, the exchange of its weighted sums and row sums into the two receive cells of the other half of
  its head, and (one batch behind) the seven copies of a merged block into a receive cell of each other head:
    steps 0 … 7    the barrier signals to peers 0 … 7;
    steps 8, 9     exchange of batch 0;   10, 11  of batch 1;   19, 20  of batch 2;   28, 29  of batch 3;
    steps 12 … 18  copies of batch 0's merged block to peers 1 … 7;  21 … 27 of batch 1;  30 … 36 of batch 2;
                   37 … 43 of batch 3.
  What is still owed after the first n steps is the sum of the later steps' dues, so each step peels one summand.

  A device may wait on a cell only if the cell's level is below the level of every cell it still owes. The
  levels: 0 its own local-copy, send-side and staging cells; 1 the barrier; 2 + b the exchange's receive cells
  of batch b; 6 the merged blocks' receive cells. Along the program the dues' levels only matter from the
  current step on, and from step n on every due has level at least 1; from step 8 on at least 2; from the step
  at which batch b's exchange is awaited on (12, 21, 30, 37 for b = 0, 1, 2, 3) above 2 + b; at the end nothing.

  The launch hands each device, for each of its own cells, a credit token for everything anyone owes the cell:
  eight units on its barrier cell (one from each peer, the peer map being an involution), the block's credit
  on each exchange receive cell (from the other half) and on each merged-block receive cell (from the head it names).
-/
import proofs.«900786_g7700000000000787_dist_flashdec_v7x_xyz2x2x4_x_b4_sq32_skv4096_h8_d128_f32_1_alg».proof.Proof.Proto

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The amounts: a landing's credit is its destination view's -/

/-- A batch of weighted sums landing in the other half's buffer; -/
abbrev No : ℕ := (oSl 0 (by decide) (Memref.whole cc0_scratch4 : Memref sig .tc .vmem S4x32x128 .f32)).view.dmaCredit
/-- a batch of row sums landing there; -/
abbrev Nl : ℕ := (lSl 0 (by decide) (Memref.whole cc0_scratch5 : Memref sig .tc .vmem S4x32x1 .f32)).view.dmaCredit
/-- a merged block landing in another head's result buffer. -/
abbrev Ng : ℕ := (hSl 0 (by decide) 0 (by decide) (Memref.whole cc0_stg1_0 : Memref sig .tc .vmem S4x32x8x128 .f32)).view.dmaCredit

/-- The credit does not depend on which batch (or head) the slice is of. -/
theorem No_eq (b : ℕ) (hb : b < 4) : (oSl b hb (Memref.whole cc0_scratch4 : Memref sig .tc .vmem S4x32x128 .f32)).view.dmaCredit = No := rfl
theorem Nl_eq (b : ℕ) (hb : b < 4) : (lSl b hb (Memref.whole cc0_scratch5 : Memref sig .tc .vmem S4x32x1 .f32)).view.dmaCredit = Nl := rfl
theorem Ng_eq (b : ℕ) (hb : b < 4) (h : ℕ) (hh : h < 8) :
    (hSl b hb h hh (Memref.whole cc0_stg1_0 : Memref sig .tc .vmem S4x32x8x128 .f32)).view.dmaCredit = Ng := rfl

theorem No_pos : 0 < No := View.dmaCredit_pos _ (by decide)
theorem Nl_pos : 0 < Nl := View.dmaCredit_pos _ (by decide)
theorem Ng_pos : 0 < Ng := View.dmaCredit_pos _ (by decide)

/-! ## The paying steps, in program order -/

/-- Step k: the peer paid, which of the peer's cells (none: its barrier cell), and how much. -/
def step : ℕ → Fin 8 × Option (Fin 80) × ℕ
  | 0 => (0, none, 1)
  | 1 => (1, none, 1)
  | 2 => (2, none, 1)
  | 3 => (3, none, 1)
  | 4 => (4, none, 1)
  | 5 => (5, none, 1)
  | 6 => (6, none, 1)
  | 7 => (7, none, 1)
  | 8 => (0, some ⟨xrN 0 0, by decide⟩, No)
  | 9 => (0, some ⟨xrN 0 1, by decide⟩, Nl)
  | 10 => (0, some ⟨xrN 1 0, by decide⟩, No)
  | 11 => (0, some ⟨xrN 1 1, by decide⟩, Nl)
  | 12 => (1, some ⟨arN 0 0, by decide⟩, Ng)
  | 13 => (2, some ⟨arN 0 1, by decide⟩, Ng)
  | 14 => (3, some ⟨arN 0 2, by decide⟩, Ng)
  | 15 => (4, some ⟨arN 0 3, by decide⟩, Ng)
  | 16 => (5, some ⟨arN 0 4, by decide⟩, Ng)
  | 17 => (6, some ⟨arN 0 5, by decide⟩, Ng)
  | 18 => (7, some ⟨arN 0 6, by decide⟩, Ng)
  | 19 => (0, some ⟨xrN 2 0, by decide⟩, No)
  | 20 => (0, some ⟨xrN 2 1, by decide⟩, Nl)
  | 21 => (1, some ⟨arN 1 0, by decide⟩, Ng)
  | 22 => (2, some ⟨arN 1 1, by decide⟩, Ng)
  | 23 => (3, some ⟨arN 1 2, by decide⟩, Ng)
  | 24 => (4, some ⟨arN 1 3, by decide⟩, Ng)
  | 25 => (5, some ⟨arN 1 4, by decide⟩, Ng)
  | 26 => (6, some ⟨arN 1 5, by decide⟩, Ng)
  | 27 => (7, some ⟨arN 1 6, by decide⟩, Ng)
  | 28 => (0, some ⟨xrN 3 0, by decide⟩, No)
  | 29 => (0, some ⟨xrN 3 1, by decide⟩, Nl)
  | 30 => (1, some ⟨arN 2 0, by decide⟩, Ng)
  | 31 => (2, some ⟨arN 2 1, by decide⟩, Ng)
  | 32 => (3, some ⟨arN 2 2, by decide⟩, Ng)
  | 33 => (4, some ⟨arN 2 3, by decide⟩, Ng)
  | 34 => (5, some ⟨arN 2 4, by decide⟩, Ng)
  | 35 => (6, some ⟨arN 2 5, by decide⟩, Ng)
  | 36 => (7, some ⟨arN 2 6, by decide⟩, Ng)
  | 37 => (1, some ⟨arN 3 0, by decide⟩, Ng)
  | 38 => (2, some ⟨arN 3 1, by decide⟩, Ng)
  | 39 => (3, some ⟨arN 3 2, by decide⟩, Ng)
  | 40 => (4, some ⟨arN 3 3, by decide⟩, Ng)
  | 41 => (5, some ⟨arN 3 4, by decide⟩, Ng)
  | 42 => (6, some ⟨arN 3 5, by decide⟩, Ng)
  | 43 => (7, some ⟨arN 3 6, by decide⟩, Ng)
  | _ => (0, none, 0)

/-- What step k pays, as a tally. -/
def payAt (c : Dev nD) (k : ℕ) : CellTallies nD τ sig Unit := tallyAt (kcell (pr (step k).1 c, (step k).2.1)) () (step k).2.2

/-- What device c still owes after its first n paying steps. -/
def owedFrom (c : Dev nD) (n : ℕ) : CellTallies nD τ sig Unit := ∑ k ∈ Finset.Ico n 44, payAt c k

/-- What it owes at launch. -/
def O₀ (c : Dev nD) : CellTallies nD τ sig Unit := owedFrom c 0

theorem owedFrom_peel (c : Dev nD) (n : ℕ) (hn : n < 44) : owedFrom c n = owedFrom c (n + 1) + payAt c n := by
  unfold owedFrom
  rw [show n + 1 = n.succ from rfl, Nat.Ico_succ_left_eq_erase_Ico, add_comm]
  exact (Finset.add_sum_erase _ _ (Finset.mem_Ico.mpr ⟨le_rfl, hn⟩)).symm

theorem owedFrom_end (c : Dev nD) : owedFrom c 44 = 0 := by
  unfold owedFrom; rw [Finset.Ico_self, Finset.sum_empty]

/-! Each step's peel, spelt out. -/
theorem owed_0 (c : Dev nD) : owedFrom c 0 = owedFrom c 1 + tallyAt (barCell (pr 0 c)) () 1 := owedFrom_peel c 0 (by decide)
theorem owed_1 (c : Dev nD) : owedFrom c 1 = owedFrom c 2 + tallyAt (barCell (pr 1 c)) () 1 := owedFrom_peel c 1 (by decide)
theorem owed_2 (c : Dev nD) : owedFrom c 2 = owedFrom c 3 + tallyAt (barCell (pr 2 c)) () 1 := owedFrom_peel c 2 (by decide)
theorem owed_3 (c : Dev nD) : owedFrom c 3 = owedFrom c 4 + tallyAt (barCell (pr 3 c)) () 1 := owedFrom_peel c 3 (by decide)
theorem owed_4 (c : Dev nD) : owedFrom c 4 = owedFrom c 5 + tallyAt (barCell (pr 4 c)) () 1 := owedFrom_peel c 4 (by decide)
theorem owed_5 (c : Dev nD) : owedFrom c 5 = owedFrom c 6 + tallyAt (barCell (pr 5 c)) () 1 := owedFrom_peel c 5 (by decide)
theorem owed_6 (c : Dev nD) : owedFrom c 6 = owedFrom c 7 + tallyAt (barCell (pr 6 c)) () 1 := owedFrom_peel c 6 (by decide)
theorem owed_7 (c : Dev nD) : owedFrom c 7 = owedFrom c 8 + tallyAt (barCell (pr 7 c)) () 1 := owedFrom_peel c 7 (by decide)
theorem owed_8 (c : Dev nD) : owedFrom c 8 = owedFrom c 9 + tallyAt (dCell (pr 0 c) ⟨xrN 0 0, by decide⟩) () No := owedFrom_peel c 8 (by decide)
theorem owed_9 (c : Dev nD) : owedFrom c 9 = owedFrom c 10 + tallyAt (dCell (pr 0 c) ⟨xrN 0 1, by decide⟩) () Nl := owedFrom_peel c 9 (by decide)
theorem owed_10 (c : Dev nD) : owedFrom c 10 = owedFrom c 11 + tallyAt (dCell (pr 0 c) ⟨xrN 1 0, by decide⟩) () No := owedFrom_peel c 10 (by decide)
theorem owed_11 (c : Dev nD) : owedFrom c 11 = owedFrom c 12 + tallyAt (dCell (pr 0 c) ⟨xrN 1 1, by decide⟩) () Nl := owedFrom_peel c 11 (by decide)
theorem owed_12 (c : Dev nD) : owedFrom c 12 = owedFrom c 13 + tallyAt (dCell (pr 1 c) ⟨arN 0 0, by decide⟩) () Ng := owedFrom_peel c 12 (by decide)
theorem owed_13 (c : Dev nD) : owedFrom c 13 = owedFrom c 14 + tallyAt (dCell (pr 2 c) ⟨arN 0 1, by decide⟩) () Ng := owedFrom_peel c 13 (by decide)
theorem owed_14 (c : Dev nD) : owedFrom c 14 = owedFrom c 15 + tallyAt (dCell (pr 3 c) ⟨arN 0 2, by decide⟩) () Ng := owedFrom_peel c 14 (by decide)
theorem owed_15 (c : Dev nD) : owedFrom c 15 = owedFrom c 16 + tallyAt (dCell (pr 4 c) ⟨arN 0 3, by decide⟩) () Ng := owedFrom_peel c 15 (by decide)
theorem owed_16 (c : Dev nD) : owedFrom c 16 = owedFrom c 17 + tallyAt (dCell (pr 5 c) ⟨arN 0 4, by decide⟩) () Ng := owedFrom_peel c 16 (by decide)
theorem owed_17 (c : Dev nD) : owedFrom c 17 = owedFrom c 18 + tallyAt (dCell (pr 6 c) ⟨arN 0 5, by decide⟩) () Ng := owedFrom_peel c 17 (by decide)
theorem owed_18 (c : Dev nD) : owedFrom c 18 = owedFrom c 19 + tallyAt (dCell (pr 7 c) ⟨arN 0 6, by decide⟩) () Ng := owedFrom_peel c 18 (by decide)
theorem owed_19 (c : Dev nD) : owedFrom c 19 = owedFrom c 20 + tallyAt (dCell (pr 0 c) ⟨xrN 2 0, by decide⟩) () No := owedFrom_peel c 19 (by decide)
theorem owed_20 (c : Dev nD) : owedFrom c 20 = owedFrom c 21 + tallyAt (dCell (pr 0 c) ⟨xrN 2 1, by decide⟩) () Nl := owedFrom_peel c 20 (by decide)
theorem owed_21 (c : Dev nD) : owedFrom c 21 = owedFrom c 22 + tallyAt (dCell (pr 1 c) ⟨arN 1 0, by decide⟩) () Ng := owedFrom_peel c 21 (by decide)
theorem owed_22 (c : Dev nD) : owedFrom c 22 = owedFrom c 23 + tallyAt (dCell (pr 2 c) ⟨arN 1 1, by decide⟩) () Ng := owedFrom_peel c 22 (by decide)
theorem owed_23 (c : Dev nD) : owedFrom c 23 = owedFrom c 24 + tallyAt (dCell (pr 3 c) ⟨arN 1 2, by decide⟩) () Ng := owedFrom_peel c 23 (by decide)
theorem owed_24 (c : Dev nD) : owedFrom c 24 = owedFrom c 25 + tallyAt (dCell (pr 4 c) ⟨arN 1 3, by decide⟩) () Ng := owedFrom_peel c 24 (by decide)
theorem owed_25 (c : Dev nD) : owedFrom c 25 = owedFrom c 26 + tallyAt (dCell (pr 5 c) ⟨arN 1 4, by decide⟩) () Ng := owedFrom_peel c 25 (by decide)
theorem owed_26 (c : Dev nD) : owedFrom c 26 = owedFrom c 27 + tallyAt (dCell (pr 6 c) ⟨arN 1 5, by decide⟩) () Ng := owedFrom_peel c 26 (by decide)
theorem owed_27 (c : Dev nD) : owedFrom c 27 = owedFrom c 28 + tallyAt (dCell (pr 7 c) ⟨arN 1 6, by decide⟩) () Ng := owedFrom_peel c 27 (by decide)
theorem owed_28 (c : Dev nD) : owedFrom c 28 = owedFrom c 29 + tallyAt (dCell (pr 0 c) ⟨xrN 3 0, by decide⟩) () No := owedFrom_peel c 28 (by decide)
theorem owed_29 (c : Dev nD) : owedFrom c 29 = owedFrom c 30 + tallyAt (dCell (pr 0 c) ⟨xrN 3 1, by decide⟩) () Nl := owedFrom_peel c 29 (by decide)
theorem owed_30 (c : Dev nD) : owedFrom c 30 = owedFrom c 31 + tallyAt (dCell (pr 1 c) ⟨arN 2 0, by decide⟩) () Ng := owedFrom_peel c 30 (by decide)
theorem owed_31 (c : Dev nD) : owedFrom c 31 = owedFrom c 32 + tallyAt (dCell (pr 2 c) ⟨arN 2 1, by decide⟩) () Ng := owedFrom_peel c 31 (by decide)
theorem owed_32 (c : Dev nD) : owedFrom c 32 = owedFrom c 33 + tallyAt (dCell (pr 3 c) ⟨arN 2 2, by decide⟩) () Ng := owedFrom_peel c 32 (by decide)
theorem owed_33 (c : Dev nD) : owedFrom c 33 = owedFrom c 34 + tallyAt (dCell (pr 4 c) ⟨arN 2 3, by decide⟩) () Ng := owedFrom_peel c 33 (by decide)
theorem owed_34 (c : Dev nD) : owedFrom c 34 = owedFrom c 35 + tallyAt (dCell (pr 5 c) ⟨arN 2 4, by decide⟩) () Ng := owedFrom_peel c 34 (by decide)
theorem owed_35 (c : Dev nD) : owedFrom c 35 = owedFrom c 36 + tallyAt (dCell (pr 6 c) ⟨arN 2 5, by decide⟩) () Ng := owedFrom_peel c 35 (by decide)
theorem owed_36 (c : Dev nD) : owedFrom c 36 = owedFrom c 37 + tallyAt (dCell (pr 7 c) ⟨arN 2 6, by decide⟩) () Ng := owedFrom_peel c 36 (by decide)
theorem owed_37 (c : Dev nD) : owedFrom c 37 = owedFrom c 38 + tallyAt (dCell (pr 1 c) ⟨arN 3 0, by decide⟩) () Ng := owedFrom_peel c 37 (by decide)
theorem owed_38 (c : Dev nD) : owedFrom c 38 = owedFrom c 39 + tallyAt (dCell (pr 2 c) ⟨arN 3 1, by decide⟩) () Ng := owedFrom_peel c 38 (by decide)
theorem owed_39 (c : Dev nD) : owedFrom c 39 = owedFrom c 40 + tallyAt (dCell (pr 3 c) ⟨arN 3 2, by decide⟩) () Ng := owedFrom_peel c 39 (by decide)
theorem owed_40 (c : Dev nD) : owedFrom c 40 = owedFrom c 41 + tallyAt (dCell (pr 4 c) ⟨arN 3 3, by decide⟩) () Ng := owedFrom_peel c 40 (by decide)
theorem owed_41 (c : Dev nD) : owedFrom c 41 = owedFrom c 42 + tallyAt (dCell (pr 5 c) ⟨arN 3 4, by decide⟩) () Ng := owedFrom_peel c 41 (by decide)
theorem owed_42 (c : Dev nD) : owedFrom c 42 = owedFrom c 43 + tallyAt (dCell (pr 6 c) ⟨arN 3 5, by decide⟩) () Ng := owedFrom_peel c 42 (by decide)
theorem owed_43 (c : Dev nD) : owedFrom c 43 = owedFrom c 44 + tallyAt (dCell (pr 7 c) ⟨arN 3 6, by decide⟩) () Ng := owedFrom_peel c 43 (by decide)

/-- A positive due is some later step's. -/
theorem owed_pos {c : Dev nD} {n : ℕ} {g : GSem nD τ sig} {u : Unit} (h : 0 < owedFrom c n g u) :
    ∃ k, n ≤ k ∧ k < 44 ∧ g = kcell (pr (step k).1 c, (step k).2.1) := by
  unfold owedFrom at h
  obtain ⟨k, hk, hpos⟩ := Pipeline.sum_pos_exists h
  rw [Finset.mem_Ico] at hk
  exact ⟨k, hk.1, hk.2, (Pipeline.tallyAt_pos hpos).1⟩

/-! ## The waits -/

/-- The level of the cell step k pays. -/
abbrev stepLv (k : ℕ) : ℕ := lvS (csem (step k).2.1)

omit [FloatOps F] in
/-- A wait on a cell of the device's own whose level is below every due from step n on is allowed while
    owing what is owed from step n on. -/
theorem mayWait_from (c : Dev nD) (sm : SemLoc sig) (n : ℕ) (h : ∀ k : Fin 44, n ≤ k.val → lvS sm < stepLv k.val) :
    (levAts L lv : sProp 𝕄) ⊢ MayWait (c : Thread nD τ) sm () (owedFrom c n) :=
  Pipeline.mayWait_of_levAts (L := L) (lev := lv) (by rw [L_tc]; exact Finset.mem_singleton_self _) fun g i hg => by
    obtain ⟨k, hnk, hk, rfl⟩ := owed_pos hg
    exact ⟨by rw [L_tc]; exact Finset.mem_singleton_self _, h ⟨k, hk⟩ hnk⟩

theorem stepLv_pos : ∀ k : Fin 44, 0 < stepLv k.val := by decide
theorem stepLv_gt_one : ∀ k : Fin 44, 8 ≤ k.val → 1 < stepLv k.val := by decide

omit [FloatOps F] in
/-- (a) Any cell of level 0 — a staging, local-copy or send-side cell — at any point of the program. -/
theorem mayWait_lv0 (c : Dev nD) (q : DmaSem sig) (hq : lvS (.dma q) = 0) (n : ℕ) :
    (levAts L lv : sProp 𝕄) ⊢ MayWait (c : Thread nD τ) (.dma q) () (owedFrom c n) :=
  mayWait_from c (.dma q) n fun k _ => by rw [hq]; exact stepLv_pos k

omit [FloatOps F] in
/-- (b) The barrier wait, after the eight signals. -/
theorem mayWait_bar (c : Dev nD) : (levAts L lv : sProp 𝕄) ⊢ MayWait (c : Thread nD τ) (.reg barS) () (owedFrom c 8) :=
  mayWait_from c (.reg barS) 8 fun k hk => stepLv_gt_one k hk

/-- The step count at which batch b's exchange is awaited: after the exchange of the next batch (or, for the
    last, after the copies of the batch before it). -/
def nX : Fin 4 → ℕ := ![12, 21, 30, 37]

theorem stepLv_gt_xr : ∀ (b : Fin 4) (i : Fin 2) (k : Fin 44), nX b ≤ k.val → lvS (.dma (dS ⟨xrN b.val i.val, xrN_lt b i⟩)) < stepLv k.val := by decide

omit [FloatOps F] in
/-- (c) The wait on the exchange's receive cell of batch b, at the point the program awaits it. -/
theorem mayWait_xr (c : Dev nD) (b : Fin 4) (i : Fin 2) :
    (levAts L lv : sProp 𝕄) ⊢ MayWait (c : Thread nD τ) (.dma (dS ⟨xrN b.val i.val, xrN_lt b i⟩)) () (owedFrom c (nX b)) :=
  mayWait_from c _ (nX b) fun k hk => stepLv_gt_xr b i k hk

omit [FloatOps F] in
/-- (d) Owing nothing, any wait. -/
theorem mayWait_end (c : Dev nD) (sm : SemLoc sig) : (levAts L lv : sProp 𝕄) ⊢ MayWait (c : Thread nD τ) sm () (owedFrom c 44) := by
  rw [owedFrom_end, MayWait_zero]; iintro -; iempintro

/-! ## The launch credit

The same dues grouped by kind rather than by time: the eight barrier units; the exchange's, batch by batch;
the merged blocks', batch by batch and head by head. -/

/-- The barrier unit owed to peer j; -/
def tBar (j : Fin 8) (c : Dev nD) : CellTallies nD τ sig Unit := tallyAt (barCell (pr j c)) () 1
/-- the credit of a landing of the exchange, by what lands: weighted sums (0), row sums (1); -/
def Nx : Fin 2 → ℕ := ![No, Nl]
/-- the exchange's due to the other half, batch b, part i; -/
def tX (b : Fin 4) (i : Fin 2) (c : Dev nD) : CellTallies nD τ sig Unit := tallyAt (dCell (pr 0 c) ⟨xrN b.val i.val, xrN_lt b i⟩) () (Nx i)
/-- the merged block of batch b owed to the i-th other head. -/
def tG (b : Fin 4) (i : Fin 7) (c : Dev nD) : CellTallies nD τ sig Unit := tallyAt (dCell (pr i.succ c) ⟨arN b.val i.val, arN_lt b i⟩) () Ng

def Obar (c : Dev nD) : CellTallies nD τ sig Unit := ∑ j : Fin 8, tBar j c
def Oex (c : Dev nD) : CellTallies nD τ sig Unit := ∑ b : Fin 4, ∑ i : Fin 2, tX b i c
def Oag (c : Dev nD) : CellTallies nD τ sig Unit := ∑ b : Fin 4, ∑ i : Fin 7, tG b i c

/-- The dues in program order, each as its group's member. -/
theorem O₀_flat (c : Dev nD) : O₀ c = tBar 0 c + tBar 1 c + tBar 2 c + tBar 3 c + tBar 4 c + tBar 5 c + tBar 6 c + tBar 7 c + tX 0 0 c + tX 0 1 c + tX 1 0 c + tX 1 1 c + tG 0 0 c + tG 0 1 c + tG 0 2 c + tG 0 3 c + tG 0 4 c + tG 0 5 c + tG 0 6 c + tX 2 0 c + tX 2 1 c + tG 1 0 c + tG 1 1 c + tG 1 2 c + tG 1 3 c + tG 1 4 c + tG 1 5 c + tG 1 6 c + tX 3 0 c + tX 3 1 c + tG 2 0 c + tG 2 1 c + tG 2 2 c + tG 2 3 c + tG 2 4 c + tG 2 5 c + tG 2 6 c + tG 3 0 c + tG 3 1 c + tG 3 2 c + tG 3 3 c + tG 3 4 c + tG 3 5 c + tG 3 6 c := by
  unfold O₀ owedFrom
  rw [Nat.Ico_zero_eq_range]
  simp only [Finset.sum_range_succ, Finset.sum_range_zero, zero_add]
  rfl

/-- Time order and kind order sum to the same dues. -/
theorem O₀_eq (c : Dev nD) : O₀ c = Obar c + (Oex c + Oag c) := by
  rw [O₀_flat]
  unfold Obar Oex Oag
  simp only [Fin.sum_univ_eight, Fin.sum_univ_four, Fin.sum_univ_two, Fin.sum_univ_seven]
  ac_rfl

theorem bar8 (g : GSem nD τ sig) : (∑ _j : Fin 8, tallyAt g () 1 : CellTallies nD τ sig Unit) = tallyAt g () 8 := by
  simp only [Fin.sum_univ_eight, tallyAt_add]

/-- What the launch deals device c: eight units on its barrier cell, each exchange landing's credit on its
    receive cell, each merged block's credit on its receive cell. -/
theorem creds (c : Dev nD) :
    (Pipeline.launchCred O₀ c : sProp 𝕄) ⊢ iprop(cred (tallyAt (barCell c) () 8)
      ∗ (bigSep Finset.univ fun b : Fin 4 => bigSep Finset.univ fun i : Fin 2 => cred (tallyAt (dCell c ⟨xrN b.val i.val, xrN_lt b i⟩) () (Nx i)))
      ∗ (bigSep Finset.univ fun b : Fin 4 => bigSep Finset.univ fun i : Fin 7 => cred (tallyAt (dCell c ⟨arN b.val i.val, arN_lt b i⟩) () Ng))) := by
  rw [show (O₀ : Dev nD → CellTallies nD τ sig Unit) = fun d => Obar d + (Oex d + Oag d) from funext O₀_eq,
    Pipeline.launchCred_add, Pipeline.launchCred_add]
  refine sep_mono ?_ (sep_mono ?_ ?_)
  · -- the barrier: one unit from each peer
    unfold Obar
    rw [Pipeline.launchCred_sum, ← bar8, Pipeline.cred_finsetSum]
    exact bigSep_mono fun j _ => Pipeline.launchCred_tallyAt (.reg barS) (pr j) (pr j) (pr_pr j) (pr_pr j) () 1 c
  · unfold Oex
    rw [Pipeline.launchCred_sum]
    refine bigSep_mono fun b _ => ?_
    rw [Pipeline.launchCred_sum]
    exact bigSep_mono fun i _ => Pipeline.launchCred_tallyAt (.dma (dS ⟨xrN b.val i.val, xrN_lt b i⟩)) (pr 0) (pr 0) (pr_pr 0) (pr_pr 0) () (Nx i) c
  · unfold Oag
    rw [Pipeline.launchCred_sum]
    refine bigSep_mono fun b _ => ?_
    rw [Pipeline.launchCred_sum]
    exact bigSep_mono fun i _ => Pipeline.launchCred_tallyAt (.dma (dS ⟨arN b.val i.val, arN_lt b i⟩)) (pr i.succ) (pr i.succ) (pr_pr i.succ) (pr_pr i.succ) () Ng c

/-- info: 'Cert.KernelIdeal.Flash.creds' depends on axioms: [propext, Classical.choice, Quot.sound] -/
#guard_msgs in #print axioms creds

/-- info: 'Cert.KernelIdeal.Flash.mayWait_xr' depends on axioms: [propext, Classical.choice, Quot.sound] -/
#guard_msgs in #print axioms mayWait_xr

end Cert.KernelIdeal.Flash

end
-- ==== Proof.BodyDefs.lean ====
/-
  Each device's proof data for the launch: what its two staging buffers hold after the body (the staged query
  array as it was; the result buffer at the merged blocks of all eight heads), the invariant before and after
  the one grid point, and what the device owes; and the body's pre- and postcondition in the form the launch
  theorem hands them over.
-/
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.Levels
import proofs.«900786_g7700000000000787_dist_flashdec_v7x_xyz2x2x4_x_b4_sq32_skv4096_h8_d128_f32_1_alg».proof.Proof.Gen.KernelIdeal.Frame

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The keys' and values' blocks in HBM, as launched: the body reads them and hands them back. -/
def kvPts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2)))

/-- The credit the launch deals a device: eight units on its barrier, the landings of the exchange and of the gather. -/
def credsAt (c : Dev nD) : sProp 𝕄 :=
  iprop(cred (tallyAt (barCell c) () 8)
    ∗ (bigSep Finset.univ fun b : Fin 4 => bigSep Finset.univ fun i : Fin 2 => cred (tallyAt (dCell c ⟨xrN b.val i.val, xrN_lt b i⟩) () (Nx i)))
    ∗ (bigSep Finset.univ fun b : Fin 4 => bigSep Finset.univ fun i : Fin 7 => cred (tallyAt (dCell c ⟨arN b.val i.val, arN_lt b i⟩) () Ng)))

/-- What a device's body starts from, besides its scratch buffers. -/
def start (c : Dev nD) : sProp 𝕄 :=
  iprop((∃ K, ghost (Rd m) K c) ∗ credsAt c ∗ levAts L lv ∗ kvPts m c)

def Φ₀ (c : Dev nD) : sProp 𝕄 := iprop(start m c ∗ Pipeline.scopedRest cfg0.spec c)
/-- After the point: the HBM blocks as they were, the kernel's eighty semaphores at zero, the scratch buffers at something. -/
def Φ₁ (c : Dev nD) : sProp 𝕄 :=
  iprop(kvPts m c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => Qst m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Option (Fin 80) → ℕ) (c : Dev nD) : sProp 𝕄 :=
  iprop((ghost (Rd m) K c ∗ credsAt c ∗ levAts L lv ∗ kvPts m c ∗ Pipeline.scopedRest cfg0.spec c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (Qst m c) ∗ stg c cc0_stg1_0 (outC m c))

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m 0 c).share w = fullShare := by unfold Dat.share; split <;> rfl

end Cert.KernelIdeal.Flash

end
-- ==== Proof.Chains.lean ====
/-
  Iterated separating conjunctions over the small index types of the protocol, written out as right-nested
  chains in index order: four batches, eight duties, seven other heads by four batches, eighty cell numbers.
-/
import Idealize.ShloMosaic.Lib.Pipeline.Kit
import Mathlib.Data.Fintype.Prod

namespace Cert.KernelIdeal.Flash

open Idealize.SL Idealize.SL.RA Idealize.SL.BI
open scoped Idealize.SL.BI
open Idealize.SL.BI.BIBase

variable {M : Type} [URA M]

theorem bigSep_fin4 (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem bigSep_fin7 (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem bigSep_fin8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Seven by four, the first index the slower. -/
theorem bigSep_fin7x4 (Φ : Fin 7 → Fin 4 → sProp M) :
    (bigSep Finset.univ fun i : Fin 7 => bigSep Finset.univ fun b : Fin 4 => Φ i b)
      = iprop(Φ 0 0 ∗ Φ 0 1 ∗ Φ 0 2 ∗ Φ 0 3 ∗ Φ 1 0 ∗ Φ 1 1 ∗ Φ 1 2 ∗ Φ 1 3 ∗ Φ 2 0 ∗ Φ 2 1 ∗ Φ 2 2 ∗ Φ 2 3 ∗ Φ 3 0 ∗ Φ 3 1 ∗ Φ 3 2 ∗ Φ 3 3 ∗ Φ 4 0 ∗ Φ 4 1 ∗ Φ 4 2 ∗ Φ 4 3 ∗ Φ 5 0 ∗ Φ 5 1 ∗ Φ 5 2 ∗ Φ 5 3 ∗ Φ 6 0 ∗ Φ 6 1 ∗ Φ 6 2 ∗ Φ 6 3) := by
  rw [← bigSep_univ_prod (fun ib : Fin 7 × Fin 4 => Φ ib.1 ib.2)]
  exact bigSep_univ_eq_bigSepL [((0 : Fin 7), (0 : Fin 4)), ((0 : Fin 7), (1 : Fin 4)), ((0 : Fin 7), (2 : Fin 4)), ((0 : Fin 7), (3 : Fin 4)), ((1 : Fin 7), (0 : Fin 4)), ((1 : Fin 7), (1 : Fin 4)), ((1 : Fin 7), (2 : Fin 4)), ((1 : Fin 7), (3 : Fin 4)), ((2 : Fin 7), (0 : Fin 4)), ((2 : Fin 7), (1 : Fin 4)), ((2 : Fin 7), (2 : Fin 4)), ((2 : Fin 7), (3 : Fin 4)), ((3 : Fin 7), (0 : Fin 4)), ((3 : Fin 7), (1 : Fin 4)), ((3 : Fin 7), (2 : Fin 4)), ((3 : Fin 7), (3 : Fin 4)), ((4 : Fin 7), (0 : Fin 4)), ((4 : Fin 7), (1 : Fin 4)), ((4 : Fin 7), (2 : Fin 4)), ((4 : Fin 7), (3 : Fin 4)), ((5 : Fin 7), (0 : Fin 4)), ((5 : Fin 7), (1 : Fin 4)), ((5 : Fin 7), (2 : Fin 4)), ((5 : Fin 7), (3 : Fin 4)), ((6 : Fin 7), (0 : Fin 4)), ((6 : Fin 7), (1 : Fin 4)), ((6 : Fin 7), (2 : Fin 4)), ((6 : Fin 7), (3 : Fin 4))]
    (by decide) (by decide) (fun ib : Fin 7 × Fin 4 => Φ ib.1 ib.2)

/-- Four by two, the first index the slower. -/
theorem bigSep_fin4x2 (Φ : Fin 4 → Fin 2 → sProp M) :
    (bigSep Finset.univ fun b : Fin 4 => bigSep Finset.univ fun i : Fin 2 => Φ b i)
      = iprop(Φ 0 0 ∗ Φ 0 1 ∗ Φ 1 0 ∗ Φ 1 1 ∗ Φ 2 0 ∗ Φ 2 1 ∗ Φ 3 0 ∗ Φ 3 1) := by
  rw [← bigSep_univ_prod (fun bi : Fin 4 × Fin 2 => Φ bi.1 bi.2)]
  exact bigSep_univ_eq_bigSepL [((0 : Fin 4), (0 : Fin 2)), ((0 : Fin 4), (1 : Fin 2)), ((1 : Fin 4), (0 : Fin 2)), ((1 : Fin 4), (1 : Fin 2)), ((2 : Fin 4), (0 : Fin 2)), ((2 : Fin 4), (1 : Fin 2)), ((3 : Fin 4), (0 : Fin 2)), ((3 : Fin 4), (1 : Fin 2))]
    (by decide) (by decide) (fun bi : Fin 4 × Fin 2 => Φ bi.1 bi.2)

/-- Four by seven, the first index the slower. -/
theorem bigSep_fin4x7 (Φ : Fin 4 → Fin 7 → sProp M) :
    (bigSep Finset.univ fun b : Fin 4 => bigSep Finset.univ fun i : Fin 7 => Φ b i)
      = iprop(Φ 0 0 ∗ Φ 0 1 ∗ Φ 0 2 ∗ Φ 0 3 ∗ Φ 0 4 ∗ Φ 0 5 ∗ Φ 0 6 ∗ Φ 1 0 ∗ Φ 1 1 ∗ Φ 1 2 ∗ Φ 1 3 ∗ Φ 1 4 ∗ Φ 1 5 ∗ Φ 1 6 ∗ Φ 2 0 ∗ Φ 2 1 ∗ Φ 2 2 ∗ Φ 2 3 ∗ Φ 2 4 ∗ Φ 2 5 ∗ Φ 2 6 ∗ Φ 3 0 ∗ Φ 3 1 ∗ Φ 3 2 ∗ Φ 3 3 ∗ Φ 3 4 ∗ Φ 3 5 ∗ Φ 3 6) := by
  rw [← bigSep_univ_prod (fun bi : Fin 4 × Fin 7 => Φ bi.1 bi.2)]
  exact bigSep_univ_eq_bigSepL [((0 : Fin 4), (0 : Fin 7)), ((0 : Fin 4), (1 : Fin 7)), ((0 : Fin 4), (2 : Fin 7)), ((0 : Fin 4), (3 : Fin 7)), ((0 : Fin 4), (4 : Fin 7)), ((0 : Fin 4), (5 : Fin 7)), ((0 : Fin 4), (6 : Fin 7)), ((1 : Fin 4), (0 : Fin 7)), ((1 : Fin 4), (1 : Fin 7)), ((1 : Fin 4), (2 : Fin 7)), ((1 : Fin 4), (3 : Fin 7)), ((1 : Fin 4), (4 : Fin 7)), ((1 : Fin 4), (5 : Fin 7)), ((1 : Fin 4), (6 : Fin 7)), ((2 : Fin 4), (0 : Fin 7)), ((2 : Fin 4), (1 : Fin 7)), ((2 : Fin 4), (2 : Fin 7)), ((2 : Fin 4), (3 : Fin 7)), ((2 : Fin 4), (4 : Fin 7)), ((2 : Fin 4), (5 : Fin 7)), ((2 : Fin 4), (6 : Fin 7)), ((3 : Fin 4), (0 : Fin 7)), ((3 : Fin 4), (1 : Fin 7)), ((3 : Fin 4), (2 : Fin 7)), ((3 : Fin 4), (3 : Fin 7)), ((3 : Fin 4), (4 : Fin 7)), ((3 : Fin 4), (5 : Fin 7)), ((3 : Fin 4), (6 : Fin 7))]
    (by decide) (by decide) (fun bi : Fin 4 × Fin 7 => Φ bi.1 bi.2)

set_option maxRecDepth 4000 in
theorem bigSep_fin80 (Φ : Fin 80 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79) :=
  bigSep_univ_eq_bigSepL [(0 : Fin 80), 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79] (by decide) (by decide) Φ

/-- info: 'Cert.KernelIdeal.Flash.bigSep_fin80' depends on axioms: [propext, Classical.choice, Quot.sound] -/
#guard_msgs in #print axioms bigSep_fin80

end Cert.KernelIdeal.Flash
-- ==== Proof.GlueGhost.lean ====
/-
  The launch's holdings of a device, taken apart into the body's own resources one by one, and the eighty closed
  semaphores put back together at the end: the ghost state as the records, the 81 positions and the 88 tokens;
  the launch credit as the barrier's eight units and the 36 landings' credits; the semaphores at zero.
-/
import proofs.«900786_g7700000000000787_dist_flashdec_v7x_xyz2x2x4_x_b4_sq32_skv4096_h8_d128_f32_1_alg».proof.Proof.BodyDefs
import proofs.«900786_g7700000000000787_dist_flashdec_v7x_xyz2x2x4_x_b4_sq32_skv4096_h8_d128_f32_1_alg».proof.Proof.Chains

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The ghost state -/

set_option maxRecDepth 8000 in
/-- The records; the barrier position and the eighty DMA positions; the eight barrier tokens; the eighty DMA tokens. -/
theorem ghost_unpack : (ghost (Rd m) K c : sProp 𝕄)
    ⊢ iprop(Rec m K ∗ posB c
        ∗ (posD c 0 ∗ posD c 1 ∗ posD c 2 ∗ posD c 3 ∗ posD c 4 ∗ posD c 5 ∗ posD c 6 ∗ posD c 7 ∗ posD c 8 ∗ posD c 9 ∗ posD c 10 ∗ posD c 11 ∗ posD c 12 ∗ posD c 13 ∗ posD c 14 ∗ posD c 15 ∗ posD c 16 ∗ posD c 17 ∗ posD c 18 ∗ posD c 19 ∗ posD c 20 ∗ posD c 21 ∗ posD c 22 ∗ posD c 23 ∗ posD c 24 ∗ posD c 25 ∗ posD c 26 ∗ posD c 27 ∗ posD c 28 ∗ posD c 29 ∗ posD c 30 ∗ posD c 31 ∗ posD c 32 ∗ posD c 33 ∗ posD c 34 ∗ posD c 35 ∗ posD c 36 ∗ posD c 37 ∗ posD c 38 ∗ posD c 39 ∗ posD c 40 ∗ posD c 41 ∗ posD c 42 ∗ posD c 43 ∗ posD c 44 ∗ posD c 45 ∗ posD c 46 ∗ posD c 47 ∗ posD c 48 ∗ posD c 49 ∗ posD c 50 ∗ posD c 51 ∗ posD c 52 ∗ posD c 53 ∗ posD c 54 ∗ posD c 55 ∗ posD c 56 ∗ posD c 57 ∗ posD c 58 ∗ posD c 59 ∗ posD c 60 ∗ posD c 61 ∗ posD c 62 ∗ posD c 63 ∗ posD c 64 ∗ posD c 65 ∗ posD c 66 ∗ posD c 67 ∗ posD c 68 ∗ posD c 69 ∗ posD c 70 ∗ posD c 71 ∗ posD c 72 ∗ posD c 73 ∗ posD c 74 ∗ posD c 75 ∗ posD c 76 ∗ posD c 77 ∗ posD c 78 ∗ posD c 79)
        ∗ (tokB c 0 ∗ tokB c 1 ∗ tokB c 2 ∗ tokB c 3 ∗ tokB c 4 ∗ tokB c 5 ∗ tokB c 6 ∗ tokB c 7)
        ∗ (tokD c 0 ∗ tokD c 1 ∗ tokD c 2 ∗ tokD c 3 ∗ tokD c 4 ∗ tokD c 5 ∗ tokD c 6 ∗ tokD c 7 ∗ tokD c 8 ∗ tokD c 9 ∗ tokD c 10 ∗ tokD c 11 ∗ tokD c 12 ∗ tokD c 13 ∗ tokD c 14 ∗ tokD c 15 ∗ tokD c 16 ∗ tokD c 17 ∗ tokD c 18 ∗ tokD c 19 ∗ tokD c 20 ∗ tokD c 21 ∗ tokD c 22 ∗ tokD c 23 ∗ tokD c 24 ∗ tokD c 25 ∗ tokD c 26 ∗ tokD c 27 ∗ tokD c 28 ∗ tokD c 29 ∗ tokD c 30 ∗ tokD c 31 ∗ tokD c 32 ∗ tokD c 33 ∗ tokD c 34 ∗ tokD c 35 ∗ tokD c 36 ∗ tokD c 37 ∗ tokD c 38 ∗ tokD c 39 ∗ tokD c 40 ∗ tokD c 41 ∗ tokD c 42 ∗ tokD c 43 ∗ tokD c 44 ∗ tokD c 45 ∗ tokD c 46 ∗ tokD c 47 ∗ tokD c 48 ∗ tokD c 49 ∗ tokD c 50 ∗ tokD c 51 ∗ tokD c 52 ∗ tokD c 53 ∗ tokD c 54 ∗ tokD c 55 ∗ tokD c 56 ∗ tokD c 57 ∗ tokD c 58 ∗ tokD c 59 ∗ tokD c 60 ∗ tokD c 61 ∗ tokD c 62 ∗ tokD c 63 ∗ tokD c 64 ∗ tokD c 65 ∗ tokD c 66 ∗ tokD c 67 ∗ tokD c 68 ∗ tokD c 69 ∗ tokD c 70 ∗ tokD c 71 ∗ tokD c 72 ∗ tokD c 73 ∗ tokD c 74 ∗ tokD c 75 ∗ tokD c 76 ∗ tokD c 77 ∗ tokD c 78 ∗ tokD c 79)) := by
  unfold ghost linear payToks
  rw [bigSep_univ_option, bigSep_fin80, bigSep_fin8, bigSep_fin80]
  iintro ⟨HR, ⟨HpB, HpD⟩, HtB, HtD⟩
  isplitl [HR]; · iexact HR
  isplitl [HpB]; · iexact HpB
  isplitl [HpD]; · iexact HpD
  isplitl [HtB]; · iexact HtB
  iexact HtD

/-! ## The launch credit -/

/-- The credit of an exchange landing is what the schedule says the receive cell's duty amounts to; -/
theorem amt_xr (b : Fin 4) (i : Fin 2) : roleAmt (roleOf (nXr b i)) = Nx i := by
  rw [show nXr b i = (Role.xr b i).num from rfl, roleOf_num]
  fin_cases i <;> rfl
/-- and so is a merged block's. -/
theorem amt_gr (b : Fin 4) (i : Fin 7) : roleAmt (roleOf (nGr b i)) = Ng := by
  rw [show nGr b i = (Role.gr b i).num from rfl, roleOf_num]
  rfl

omit [FloatOps F] in
theorem credsAt_eq : (credsAt (F := F) c : sProp 𝕄)
    = iprop(crB c ∗ (bigSep Finset.univ fun b : Fin 4 => bigSep Finset.univ fun i : Fin 2 => crD (F := F) c (nXr b i))
        ∗ (bigSep Finset.univ fun b : Fin 4 => bigSep Finset.univ fun i : Fin 7 => crD (F := F) c (nGr b i))) := by
  unfold credsAt
  rw [bigSep_congr (s := Finset.univ) (fun (b : Fin 4) _ => bigSep_congr (s := Finset.univ) fun (i : Fin 2) _ =>
        show (cred (tallyAt (dCell c ⟨xrN b.val i.val, xrN_lt b i⟩) () (Nx i)) : sProp 𝕄) = crD (F := F) c (nXr b i) from by rw [← amt_xr b i]),
    bigSep_congr (s := Finset.univ) (fun (b : Fin 4) _ => bigSep_congr (s := Finset.univ) fun (i : Fin 7) _ =>
        show (cred (tallyAt (dCell c ⟨arN b.val i.val, arN_lt b i⟩) () Ng) : sProp 𝕄) = crD (F := F) c (nGr b i) from by rw [← amt_gr b i])]

omit [FloatOps F] in
/-- The barrier's eight units; the exchange's eight receive cells; the merged blocks' twenty-eight receive cells. -/
theorem creds_unpack : (credsAt (F := F) c : sProp 𝕄)
    ⊢ iprop(crB c
        ∗ (crD (F := F) c 16 ∗ crD (F := F) c 17 ∗ crD (F := F) c 18 ∗ crD (F := F) c 19 ∗ crD (F := F) c 20 ∗ crD (F := F) c 21 ∗ crD (F := F) c 22 ∗ crD (F := F) c 23)
        ∗ (crD (F := F) c 52 ∗ crD (F := F) c 53 ∗ crD (F := F) c 54 ∗ crD (F := F) c 55 ∗ crD (F := F) c 56 ∗ crD (F := F) c 57 ∗ crD (F := F) c 58 ∗ crD (F := F) c 59 ∗ crD (F := F) c 60 ∗ crD (F := F) c 61 ∗ crD (F := F) c 62 ∗ crD (F := F) c 63 ∗ crD (F := F) c 64 ∗ crD (F := F) c 65 ∗ crD (F := F) c 66 ∗ crD (F := F) c 67 ∗ crD (F := F) c 68 ∗ crD (F := F) c 69 ∗ crD (F := F) c 70 ∗ crD (F := F) c 71 ∗ crD (F := F) c 72 ∗ crD (F := F) c 73 ∗ crD (F := F) c 74 ∗ crD (F := F) c 75 ∗ crD (F := F) c 76 ∗ crD (F := F) c 77 ∗ crD (F := F) c 78 ∗ crD (F := F) c 79)) := by
  rw [credsAt_eq, bigSep_fin4x2 (fun b i => crD (F := F) c (nXr b i)), bigSep_fin4x7 (fun b i => crD (F := F) c (nGr b i))]
  exact .rfl

/-! ## The semaphores at zero, handed back -/

set_option maxRecDepth 8000 in
omit [FloatOps F] in
theorem sems_pack : iprop(svD (F := F) c 0 ∗ svD (F := F) c 1 ∗ svD (F := F) c 2 ∗ svD (F := F) c 3 ∗ svD (F := F) c 4 ∗ svD (F := F) c 5 ∗ svD (F := F) c 6 ∗ svD (F := F) c 7 ∗ svD (F := F) c 8 ∗ svD (F := F) c 9 ∗ svD (F := F) c 10 ∗ svD (F := F) c 11 ∗ svD (F := F) c 12 ∗ svD (F := F) c 13 ∗ svD (F := F) c 14 ∗ svD (F := F) c 15 ∗ svD (F := F) c 16 ∗ svD (F := F) c 17 ∗ svD (F := F) c 18 ∗ svD (F := F) c 19 ∗ svD (F := F) c 20 ∗ svD (F := F) c 21 ∗ svD (F := F) c 22 ∗ svD (F := F) c 23 ∗ svD (F := F) c 24 ∗ svD (F := F) c 25 ∗ svD (F := F) c 26 ∗ svD (F := F) c 27 ∗ svD (F := F) c 28 ∗ svD (F := F) c 29 ∗ svD (F := F) c 30 ∗ svD (F := F) c 31 ∗ svD (F := F) c 32 ∗ svD (F := F) c 33 ∗ svD (F := F) c 34 ∗ svD (F := F) c 35 ∗ svD (F := F) c 36 ∗ svD (F := F) c 37 ∗ svD (F := F) c 38 ∗ svD (F := F) c 39 ∗ svD (F := F) c 40 ∗ svD (F := F) c 41 ∗ svD (F := F) c 42 ∗ svD (F := F) c 43 ∗ svD (F := F) c 44 ∗ svD (F := F) c 45 ∗ svD (F := F) c 46 ∗ svD (F := F) c 47 ∗ svD (F := F) c 48 ∗ svD (F := F) c 49 ∗ svD (F := F) c 50 ∗ svD (F := F) c 51 ∗ svD (F := F) c 52 ∗ svD (F := F) c 53 ∗ svD (F := F) c 54 ∗ svD (F := F) c 55 ∗ svD (F := F) c 56 ∗ svD (F := F) c 57 ∗ svD (F := F) c 58 ∗ svD (F := F) c 59 ∗ svD (F := F) c 60 ∗ svD (F := F) c 61 ∗ svD (F := F) c 62 ∗ svD (F := F) c 63 ∗ svD (F := F) c 64 ∗ svD (F := F) c 65 ∗ svD (F := F) c 66 ∗ svD (F := F) c 67 ∗ svD (F := F) c 68 ∗ svD (F := F) c 69 ∗ svD (F := F) c 70 ∗ svD (F := F) c 71 ∗ svD (F := F) c 72 ∗ svD (F := F) c 73 ∗ svD (F := F) c 74 ∗ svD (F := F) c 75 ∗ svD (F := F) c 76 ∗ svD (F := F) c 77 ∗ svD (F := F) c 78 ∗ svD (F := F) c 79)
    ⊢ (Pipeline.ownSems0 (Ix := Unit) (Name := ℕ) (U := UU) (Lvl := ℕ) (Val := Elt F) (τ := τ) osem c : sProp 𝕄) := by
  unfold Pipeline.ownSems0
  rw [bigSep_fin80]

/-- info: 'Cert.KernelIdeal.Flash.ghost_unpack' depends on axioms: [propext, Classical.choice, Quot.sound] -/
#guard_msgs in #print axioms ghost_unpack

/-- info: 'Cert.KernelIdeal.Flash.creds_unpack' depends on axioms: [propext, Classical.choice, Quot.sound] -/
#guard_msgs in #print axioms creds_unpack

/-- info: 'Cert.KernelIdeal.Flash.sems_pack' depends on axioms: [propext, Classical.choice, Quot.sound] -/
#guard_msgs in #print axioms sems_pack

end Cert.KernelIdeal.Flash

end
-- ==== Proof.Regions.lean ====
/-
  The six scratch buffers of a device, cut batch by batch.

  Each of the six scratch buffers has the four batches on its first axis, and every copy of the kernel
  reads or writes the slice of one batch: the rectangle with the one index b on the first axis and whole
  on the others. The four rectangles are pairwise disjoint (they differ on the first axis) and cover the
  buffer (an element lies in the rectangle of its own first coordinate). So a buffer held whole at the
  full share, at any contents, is the separating conjunction of its four batch slices held at the full
  share at the same contents.
-/
import proofs.«900786_g7700000000000787_dist_flashdec_v7x_xyz2x2x4_x_b4_sq32_skv4096_h8_d128_f32_1_alg».proof.Proof.Proto
import Idealize.ShloMosaic.Lib.Ring

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of batch b's slice of the keys' scratch buffer. -/
def scratch0_set (c : Dev nD) (b : Fin 4) : Finset (Idx ((Memref.whole cc0_scratch0).view.loc (c : Thread nD τ))) :=
  (kvDst b.val b.isLt (Memref.whole cc0_scratch0)).view.set

/-- They are the rectangle of the one batch index b, whole on the other axes. -/
theorem scratch0_set_eq (c : Dev nD) (b : Fin 4) :
    scratch0_set c b = (Rect.unit (s := S4x4096x1x128) ![b.val, 0, 0, 0] S1x4096x1x128.size (inbK b.val b.isLt)).set := by
  unfold scratch0_set
  simp only [Memref.view_squeeze, Memref.view_slice, Memref.view_whole, View.set_reshape, View.set_slice_whole]

theorem scratch0_set_disjoint (c : Dev nD) (b b' : Fin 4) (hbb : b ≠ b') : Disjoint (scratch0_set c b) (scratch0_set c b') := by
  rw [scratch0_set_eq, scratch0_set_eq]
  refine Rect.unit_disjoint (0 : Fin 4) ?_
  have : b.val ≠ b'.val := fun h => hbb (Fin.ext h)
  show b.val + 1 ≤ b'.val ∨ b'.val + 1 ≤ b.val
  omega

theorem scratch0_set_cover (c : Dev nD) : Finset.univ.biUnion (scratch0_set c) = Finset.univ := by
  refine Finset.eq_univ_iff_forall.mpr fun i => ?_
  refine Finset.mem_biUnion.mpr ⟨⟨(i 0).val, (i 0).isLt⟩, Finset.mem_univ _, ?_⟩
  rw [scratch0_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩
  | ⟨3, _⟩ => exact ⟨Nat.zero_le _, Nat.lt_of_lt_of_le (i _).isLt (Nat.le_add_left _ _)⟩

/-- The keys' scratch buffer, held whole, is held batch by batch. -/
theorem scratch0_batches (c : Dev nD) (f : Buf (Elt F) ((Memref.whole cc0_scratch0).view.loc (c : Thread nD τ))) :
    ((Memref.whole cc0_scratch0).view.loc (c : Thread nD τ) ↦{fullShare} f : sProp 𝕄)
      = bigSep Finset.univ fun b : Fin 4 =>
          ((kvDst b.val b.isLt (Memref.whole cc0_scratch0)).view.loc (c : Thread nD τ)
            ↦[(kvDst b.val b.isLt (Memref.whole cc0_scratch0)).view.set]{fullShare} f : sProp 𝕄) :=
  Ring.pointsTo_blocks (scratch0_set c) (scratch0_set_disjoint c) (scratch0_set_cover c) f

/-- The elements of batch b's slice of the values' scratch buffer. -/
def scratch1_set (c : Dev nD) (b : Fin 4) : Finset (Idx ((Memref.whole cc0_scratch1).view.loc (c : Thread nD τ))) :=
  (kvDst b.val b.isLt (Memref.whole cc0_scratch1)).view.set

/-- They are the rectangle of the one batch index b, whole on the other axes. -/
theorem scratch1_set_eq (c : Dev nD) (b : Fin 4) :
    scratch1_set c b = (Rect.unit (s := S4x4096x1x128) ![b.val, 0, 0, 0] S1x4096x1x128.size (inbK b.val b.isLt)).set := by
  unfold scratch1_set
  simp only [Memref.view_squeeze, Memref.view_slice, Memref.view_whole, View.set_reshape, View.set_slice_whole]

theorem scratch1_set_disjoint (c : Dev nD) (b b' : Fin 4) (hbb : b ≠ b') : Disjoint (scratch1_set c b) (scratch1_set c b') := by
  rw [scratch1_set_eq, scratch1_set_eq]
  refine Rect.unit_disjoint (0 : Fin 4) ?_
  have : b.val ≠ b'.val := fun h => hbb (Fin.ext h)
  show b.val + 1 ≤ b'.val ∨ b'.val + 1 ≤ b.val
  omega

theorem scratch1_set_cover (c : Dev nD) : Finset.univ.biUnion (scratch1_set c) = Finset.univ := by
  refine Finset.eq_univ_iff_forall.mpr fun i => ?_
  refine Finset.mem_biUnion.mpr ⟨⟨(i 0).val, (i 0).isLt⟩, Finset.mem_univ _, ?_⟩
  rw [scratch1_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩
  | ⟨3, _⟩ => exact ⟨Nat.zero_le _, Nat.lt_of_lt_of_le (i _).isLt (Nat.le_add_left _ _)⟩

/-- The values' scratch buffer, held whole, is held batch by batch. -/
theorem scratch1_batches (c : Dev nD) (f : Buf (Elt F) ((Memref.whole cc0_scratch1).view.loc (c : Thread nD τ))) :
    ((Memref.whole cc0_scratch1).view.loc (c : Thread nD τ) ↦{fullShare} f : sProp 𝕄)
      = bigSep Finset.univ fun b : Fin 4 =>
          ((kvDst b.val b.isLt (Memref.whole cc0_scratch1)).view.loc (c : Thread nD τ)
            ↦[(kvDst b.val b.isLt (Memref.whole cc0_scratch1)).view.set]{fullShare} f : sProp 𝕄) :=
  Ring.pointsTo_blocks (scratch1_set c) (scratch1_set_disjoint c) (scratch1_set_cover c) f

/-- The elements of batch b's slice of the buffer of the device's own weighted sums. -/
def scratch2_set (c : Dev nD) (b : Fin 4) : Finset (Idx ((Memref.whole cc0_scratch2).view.loc (c : Thread nD τ))) :=
  (oSl b.val b.isLt (Memref.whole cc0_scratch2)).view.set

/-- They are the rectangle of the one batch index b, whole on the other axes. -/
theorem scratch2_set_eq (c : Dev nD) (b : Fin 4) :
    scratch2_set c b = (Rect.unit (s := S4x32x128) ![b.val, 0, 0] S1x32x128.size (inbO b.val b.isLt)).set := by
  unfold scratch2_set
  simp only [Memref.view_squeeze, Memref.view_slice, Memref.view_whole, View.set_reshape, View.set_slice_whole]

theorem scratch2_set_disjoint (c : Dev nD) (b b' : Fin 4) (hbb : b ≠ b') : Disjoint (scratch2_set c b) (scratch2_set c b') := by
  rw [scratch2_set_eq, scratch2_set_eq]
  refine Rect.unit_disjoint (0 : Fin 3) ?_
  have : b.val ≠ b'.val := fun h => hbb (Fin.ext h)
  show b.val + 1 ≤ b'.val ∨ b'.val + 1 ≤ b.val
  omega

theorem scratch2_set_cover (c : Dev nD) : Finset.univ.biUnion (scratch2_set c) = Finset.univ := by
  refine Finset.eq_univ_iff_forall.mpr fun i => ?_
  refine Finset.mem_biUnion.mpr ⟨⟨(i 0).val, (i 0).isLt⟩, Finset.mem_univ _, ?_⟩
  rw [scratch2_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The buffer of the device's own weighted sums, held whole, is held batch by batch. -/
theorem scratch2_batches (c : Dev nD) (f : Buf (Elt F) ((Memref.whole cc0_scratch2).view.loc (c : Thread nD τ))) :
    ((Memref.whole cc0_scratch2).view.loc (c : Thread nD τ) ↦{fullShare} f : sProp 𝕄)
      = bigSep Finset.univ fun b : Fin 4 =>
          ((oSl b.val b.isLt (Memref.whole cc0_scratch2)).view.loc (c : Thread nD τ)
            ↦[(oSl b.val b.isLt (Memref.whole cc0_scratch2)).view.set]{fullShare} f : sProp 𝕄) :=
  Ring.pointsTo_blocks (scratch2_set c) (scratch2_set_disjoint c) (scratch2_set_cover c) f

/-- The elements of batch b's slice of the landing buffer of the other half's weighted sums. -/
def scratch4_set (c : Dev nD) (b : Fin 4) : Finset (Idx ((Memref.whole cc0_scratch4).view.loc (c : Thread nD τ))) :=
  (oSl b.val b.isLt (Memref.whole cc0_scratch4)).view.set

/-- They are the rectangle of the one batch index b, whole on the other axes. -/
theorem scratch4_set_eq (c : Dev nD) (b : Fin 4) :
    scratch4_set c b = (Rect.unit (s := S4x32x128) ![b.val, 0, 0] S1x32x128.size (inbO b.val b.isLt)).set := by
  unfold scratch4_set
  simp only [Memref.view_squeeze, Memref.view_slice, Memref.view_whole, View.set_reshape, View.set_slice_whole]

theorem scratch4_set_disjoint (c : Dev nD) (b b' : Fin 4) (hbb : b ≠ b') : Disjoint (scratch4_set c b) (scratch4_set c b') := by
  rw [scratch4_set_eq, scratch4_set_eq]
  refine Rect.unit_disjoint (0 : Fin 3) ?_
  have : b.val ≠ b'.val := fun h => hbb (Fin.ext h)
  show b.val + 1 ≤ b'.val ∨ b'.val + 1 ≤ b.val
  omega

theorem scratch4_set_cover (c : Dev nD) : Finset.univ.biUnion (scratch4_set c) = Finset.univ := by
  refine Finset.eq_univ_iff_forall.mpr fun i => ?_
  refine Finset.mem_biUnion.mpr ⟨⟨(i 0).val, (i 0).isLt⟩, Finset.mem_univ _, ?_⟩
  rw [scratch4_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The landing buffer of the other half's weighted sums, held whole, is held batch by batch. -/
theorem scratch4_batches (c : Dev nD) (f : Buf (Elt F) ((Memref.whole cc0_scratch4).view.loc (c : Thread nD τ))) :
    ((Memref.whole cc0_scratch4).view.loc (c : Thread nD τ) ↦{fullShare} f : sProp 𝕄)
      = bigSep Finset.univ fun b : Fin 4 =>
          ((oSl b.val b.isLt (Memref.whole cc0_scratch4)).view.loc (c : Thread nD τ)
            ↦[(oSl b.val b.isLt (Memref.whole cc0_scratch4)).view.set]{fullShare} f : sProp 𝕄) :=
  Ring.pointsTo_blocks (scratch4_set c) (scratch4_set_disjoint c) (scratch4_set_cover c) f

/-- The elements of batch b's slice of the buffer of the device's own row sums. -/
def scratch3_set (c : Dev nD) (b : Fin 4) : Finset (Idx ((Memref.whole cc0_scratch3).view.loc (c : Thread nD τ))) :=
  (lSl b.val b.isLt (Memref.whole cc0_scratch3)).view.set

/-- They are the rectangle of the one batch index b, whole on the other axes. -/
theorem scratch3_set_eq (c : Dev nD) (b : Fin 4) :
    scratch3_set c b = (Rect.unit (s := S4x32x1) ![b.val, 0, 0] S1x32x1.size (inbL b.val b.isLt)).set := by
  unfold scratch3_set
  simp only [Memref.view_squeeze, Memref.view_slice, Memref.view_whole, View.set_reshape, View.set_slice_whole]

theorem scratch3_set_disjoint (c : Dev nD) (b b' : Fin 4) (hbb : b ≠ b') : Disjoint (scratch3_set c b) (scratch3_set c b') := by
  rw [scratch3_set_eq, scratch3_set_eq]
  refine Rect.unit_disjoint (0 : Fin 3) ?_
  have : b.val ≠ b'.val := fun h => hbb (Fin.ext h)
  show b.val + 1 ≤ b'.val ∨ b'.val + 1 ≤ b.val
  omega

theorem scratch3_set_cover (c : Dev nD) : Finset.univ.biUnion (scratch3_set c) = Finset.univ := by
  refine Finset.eq_univ_iff_forall.mpr fun i => ?_
  refine Finset.mem_biUnion.mpr ⟨⟨(i 0).val, (i 0).isLt⟩, Finset.mem_univ _, ?_⟩
  rw [scratch3_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The buffer of the device's own row sums, held whole, is held batch by batch. -/
theorem scratch3_batches (c : Dev nD) (f : Buf (Elt F) ((Memref.whole cc0_scratch3).view.loc (c : Thread nD τ))) :
    ((Memref.whole cc0_scratch3).view.loc (c : Thread nD τ) ↦{fullShare} f : sProp 𝕄)
      = bigSep Finset.univ fun b : Fin 4 =>
          ((lSl b.val b.isLt (Memref.whole cc0_scratch3)).view.loc (c : Thread nD τ)
            ↦[(lSl b.val b.isLt (Memref.whole cc0_scratch3)).view.set]{fullShare} f : sProp 𝕄) :=
  Ring.pointsTo_blocks (scratch3_set c) (scratch3_set_disjoint c) (scratch3_set_cover c) f

/-- The elements of batch b's slice of the landing buffer of the other half's row sums. -/
def scratch5_set (c : Dev nD) (b : Fin 4) : Finset (Idx ((Memref.whole cc0_scratch5).view.loc (c : Thread nD τ))) :=
  (lSl b.val b.isLt (Memref.whole cc0_scratch5)).view.set

/-- They are the rectangle of the one batch index b, whole on the other axes. -/
theorem scratch5_set_eq (c : Dev nD) (b : Fin 4) :
    scratch5_set c b = (Rect.unit (s := S4x32x1) ![b.val, 0, 0] S1x32x1.size (inbL b.val b.isLt)).set := by
  unfold scratch5_set
  simp only [Memref.view_squeeze, Memref.view_slice, Memref.view_whole, View.set_reshape, View.set_slice_whole]

theorem scratch5_set_disjoint (c : Dev nD) (b b' : Fin 4) (hbb : b ≠ b') : Disjoint (scratch5_set c b) (scratch5_set c b') := by
  rw [scratch5_set_eq, scratch5_set_eq]
  refine Rect.unit_disjoint (0 : Fin 3) ?_
  have : b.val ≠ b'.val := fun h => hbb (Fin.ext h)
  show b.val + 1 ≤ b'.val ∨ b'.val + 1 ≤ b.val
  omega

theorem scratch5_set_cover (c : Dev nD) : Finset.univ.biUnion (scratch5_set c) = Finset.univ := by
  refine Finset.eq_univ_iff_forall.mpr fun i => ?_
  refine Finset.mem_biUnion.mpr ⟨⟨(i 0).val, (i 0).isLt⟩, Finset.mem_univ _, ?_⟩
  rw [scratch5_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The landing buffer of the other half's row sums, held whole, is held batch by batch. -/
theorem scratch5_batches (c : Dev nD) (f : Buf (Elt F) ((Memref.whole cc0_scratch5).view.loc (c : Thread nD τ))) :
    ((Memref.whole cc0_scratch5).view.loc (c : Thread nD τ) ↦{fullShare} f : sProp 𝕄)
      = bigSep Finset.univ fun b : Fin 4 =>
          ((lSl b.val b.isLt (Memref.whole cc0_scratch5)).view.loc (c : Thread nD τ)
            ↦[(lSl b.val b.isLt (Memref.whole cc0_scratch5)).view.set]{fullShare} f : sProp 𝕄) :=
  Ring.pointsTo_blocks (scratch5_set c) (scratch5_set_disjoint c) (scratch5_set_cover c) f

/--
info: 'Cert.KernelIdeal.Flash.scratch0_batches' depends on axioms: [propext, Classical.choice, Quot.sound]
-/
#guard_msgs in #print axioms scratch0_batches

end Cert.KernelIdeal.Flash

end
-- ==== Proof.Regions2.lean ====
/-
  The result's staging buffer cut row by row, a device's blocks of the keys and of the values cut into the
  rows its copies read and the rest, and the independence of a region points-to from contents off the region.

  The result's staging buffer [4, 32, 8, 128] is tiled by the thirty-two rectangles with one batch index on
  axis 0 and one head index on axis 2: two of them differ on one of those axes, and an element lies in the
  rectangle of its own batch and head. A device's block [4, 4096, 8, 128] of the keys (of the values) is read
  only through the four rectangles of its own head, one per batch; they are pairwise disjoint, and the
  buffer is those four and the complement of their union.
-/
import proofs.«900786_g7700000000000787_dist_flashdec_v7x_xyz2x2x4_x_b4_sq32_skv4096_h8_d128_f32_1_alg».proof.Proof.Proto
import Idealize.ShloMosaic.Lib.Ring

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of the slice at batch b and head h of the result's staging buffer. -/
def stg1_set (c : Dev nD) (p : Fin 4 × Fin 8) : Finset (Idx ((Memref.whole cc0_stg1_0).view.loc (c : Thread nD τ))) :=
  (hSl p.1.val p.1.isLt p.2.val p.2.isLt (Memref.whole cc0_stg1_0)).view.set

/-- They are the rectangle of the one batch index and the one head index, whole on the two other axes. -/
theorem stg1_set_eq (c : Dev nD) (p : Fin 4 × Fin 8) :
    stg1_set c p = (Rect.unit (s := S4x32x8x128) ![p.1.val, 0, p.2.val, 0] S1x32x1x128.size
      (inbH p.1.val p.1.isLt p.2.val p.2.isLt)).set := by
  unfold stg1_set
  simp only [Memref.view_slice, Memref.view_whole, View.set_slice_whole]

theorem stg1_set_disjoint (c : Dev nD) (p p' : Fin 4 × Fin 8) (hpp : p ≠ p') : Disjoint (stg1_set c p) (stg1_set c p') := by
  rw [stg1_set_eq, stg1_set_eq]
  by_cases hb : p.1 = p'.1
  · have hh : p.2 ≠ p'.2 := fun e => hpp (Prod.ext hb e)
    refine Rect.unit_disjoint (2 : Fin 4) ?_
    have : p.2.val ≠ p'.2.val := fun e => hh (Fin.ext e)
    show p.2.val + 1 ≤ p'.2.val ∨ p'.2.val + 1 ≤ p.2.val
    omega
  · refine Rect.unit_disjoint (0 : Fin 4) ?_
    have : p.1.val ≠ p'.1.val := fun e => hb (Fin.ext e)
    show p.1.val + 1 ≤ p'.1.val ∨ p'.1.val + 1 ≤ p.1.val
    omega

theorem stg1_set_cover (c : Dev nD) : Finset.univ.biUnion (stg1_set c) = Finset.univ := by
  refine Finset.eq_univ_iff_forall.mpr fun i => ?_
  refine Finset.mem_biUnion.mpr ⟨(⟨(i 0).val, (i 0).isLt⟩, ⟨(i 2).val, (i 2).isLt⟩), Finset.mem_univ _, ?_⟩
  rw [stg1_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.le_refl _, Nat.lt_succ_self _⟩
  | ⟨3, _⟩ => exact ⟨Nat.zero_le _, Nat.lt_of_lt_of_le (i _).isLt (Nat.le_add_left _ _)⟩

/-- The result's staging buffer, held whole, is held row by row: one slice for each batch and head. -/
theorem stg1_tiles (c : Dev nD) (f : Buf (Elt F) ((Memref.whole cc0_stg1_0).view.loc (c : Thread nD τ))) :
    ((Memref.whole cc0_stg1_0).view.loc (c : Thread nD τ) ↦{fullShare} f : sProp 𝕄)
      = bigSep Finset.univ fun b : Fin 4 => bigSep Finset.univ fun h : Fin 8 =>
          ((hSl b.val b.isLt h.val h.isLt (Memref.whole cc0_stg1_0)).view.loc (c : Thread nD τ)
            ↦[(hSl b.val b.isLt h.val h.isLt (Memref.whole cc0_stg1_0)).view.set]{fullShare} f : sProp 𝕄) := by
  rw [Ring.pointsTo_blocks (stg1_set c) (stg1_set_disjoint c) (stg1_set_cover c) f, bigSep_univ_prod]
  rfl

/-- The elements of batch b's source slice — the rows of the device's own head — of the device's block of the keys. -/
def arg1_set (c : Dev nD) (b : Fin 4) : Finset (Idx ((Memref.whole main_arg1).view.loc (c : Thread nD τ))) :=
  (kvSrc b.val b.isLt (hdN c) (hdN_lt c) (Memref.whole main_arg1)).view.set

theorem arg1_set_eq (c : Dev nD) (b : Fin 4) :
    arg1_set c b = (Rect.unit (s := S4x4096x8x128) ![b.val, 0, hdN c, 0] S1x4096x1x128.size
      (inbA b.val b.isLt (hdN c) (hdN_lt c))).set := by
  unfold arg1_set
  simp only [Memref.view_squeeze, Memref.view_slice, Memref.view_whole, View.set_reshape, View.set_slice_whole]

theorem arg1_set_disjoint (c : Dev nD) (b b' : Fin 4) (hbb : b ≠ b') : Disjoint (arg1_set c b) (arg1_set c b') := by
  rw [arg1_set_eq, arg1_set_eq]
  refine Rect.unit_disjoint (0 : Fin 4) ?_
  have : b.val ≠ b'.val := fun h => hbb (Fin.ext h)
  show b.val + 1 ≤ b'.val ∨ b'.val + 1 ≤ b.val
  omega

/-- The elements of the device's block of the keys that no copy of the device reads: the rows of the other seven heads. -/
def arg1_rest (c : Dev nD) : Finset (Idx ((Memref.whole main_arg1).view.loc (c : Thread nD τ))) :=
  Finset.univ \ Finset.univ.biUnion (arg1_set c)

/-- The device's block of the keys, held whole, is the four source slices of its head's rows and the rest. -/
theorem arg1_batches_rest (c : Dev nD) (f : Buf (Elt F) ((Memref.whole main_arg1).view.loc (c : Thread nD τ))) :
    ((Memref.whole main_arg1).view.loc (c : Thread nD τ) ↦{fullShare} f : sProp 𝕄)
      = iprop((bigSep Finset.univ fun b : Fin 4 =>
          ((kvSrc b.val b.isLt (hdN c) (hdN_lt c) (Memref.whole main_arg1)).view.loc (c : Thread nD τ)
            ↦[(kvSrc b.val b.isLt (hdN c) (hdN_lt c) (Memref.whole main_arg1)).view.set]{fullShare} f : sProp 𝕄))
        ∗ ((Memref.whole main_arg1).view.loc (c : Thread nD τ) ↦[arg1_rest c]{fullShare} f)) := by
  have h : ((Memref.whole main_arg1).view.loc (c : Thread nD τ) ↦{fullShare} f : sProp 𝕄)
      ⊣⊢ iprop(((Memref.whole main_arg1).view.loc (c : Thread nD τ) ↦[Finset.univ.biUnion (arg1_set c)]{fullShare} f)
        ∗ ((Memref.whole main_arg1).view.loc (c : Thread nD τ) ↦[arg1_rest c]{fullShare} f)) :=
    pointsTo_split_subset (Finset.subset_univ _)
  rw [Entails.antisymm h.1 h.2,
    pointsTo_biUnion Finset.univ (arg1_set c) (fun b _ b' _ hbb => arg1_set_disjoint c b b' hbb)]
  rfl

/-- The elements of batch b's source slice — the rows of the device's own head — of the device's block of the values. -/
def arg2_set (c : Dev nD) (b : Fin 4) : Finset (Idx ((Memref.whole main_arg2).view.loc (c : Thread nD τ))) :=
  (kvSrc b.val b.isLt (hdN c) (hdN_lt c) (Memref.whole main_arg2)).view.set

theorem arg2_set_eq (c : Dev nD) (b : Fin 4) :
    arg2_set c b = (Rect.unit (s := S4x4096x8x128) ![b.val, 0, hdN c, 0] S1x4096x1x128.size
      (inbA b.val b.isLt (hdN c) (hdN_lt c))).set := by
  unfold arg2_set
  simp only [Memref.view_squeeze, Memref.view_slice, Memref.view_whole, View.set_reshape, View.set_slice_whole]

theorem arg2_set_disjoint (c : Dev nD) (b b' : Fin 4) (hbb : b ≠ b') : Disjoint (arg2_set c b) (arg2_set c b') := by
  rw [arg2_set_eq, arg2_set_eq]
  refine Rect.unit_disjoint (0 : Fin 4) ?_
  have : b.val ≠ b'.val := fun h => hbb (Fin.ext h)
  show b.val + 1 ≤ b'.val ∨ b'.val + 1 ≤ b.val
  omega

/-- The elements of the device's block of the values that no copy of the device reads: the rows of the other seven heads. -/
def arg2_rest (c : Dev nD) : Finset (Idx ((Memref.whole main_arg2).view.loc (c : Thread nD τ))) :=
  Finset.univ \ Finset.univ.biUnion (arg2_set c)

/-- The device's block of the values, held whole, is the four source slices of its head's rows and the rest. -/
theorem arg2_batches_rest (c : Dev nD) (f : Buf (Elt F) ((Memref.whole main_arg2).view.loc (c : Thread nD τ))) :
    ((Memref.whole main_arg2).view.loc (c : Thread nD τ) ↦{fullShare} f : sProp 𝕄)
      = iprop((bigSep Finset.univ fun b : Fin 4 =>
          ((kvSrc b.val b.isLt (hdN c) (hdN_lt c) (Memref.whole main_arg2)).view.loc (c : Thread nD τ)
            ↦[(kvSrc b.val b.isLt (hdN c) (hdN_lt c) (Memref.whole main_arg2)).view.set]{fullShare} f : sProp 𝕄))
        ∗ ((Memref.whole main_arg2).view.loc (c : Thread nD τ) ↦[arg2_rest c]{fullShare} f)) := by
  have h : ((Memref.whole main_arg2).view.loc (c : Thread nD τ) ↦{fullShare} f : sProp 𝕄)
      ⊣⊢ iprop(((Memref.whole main_arg2).view.loc (c : Thread nD τ) ↦[Finset.univ.biUnion (arg2_set c)]{fullShare} f)
        ∗ ((Memref.whole main_arg2).view.loc (c : Thread nD τ) ↦[arg2_rest c]{fullShare} f)) :=
    pointsTo_split_subset (Finset.subset_univ _)
  rw [Entails.antisymm h.1 h.2,
    pointsTo_biUnion Finset.univ (arg2_set c) (fun b _ b' _ hbb => arg2_set_disjoint c b b' hbb)]
  rfl

/-- A region points-to depends only on the contents on the region. -/
theorem region_congr (ℓ : Loc nD τ sig) (S : Finset (Idx ℓ)) (q : PosShare TreeShare) (f f' : Buf (Elt F) ℓ)
    (h : ∀ i ∈ S, f i = f' i) : (ℓ ↦[S]{q} f : sProp 𝕄) = (ℓ ↦[S]{q} f' : sProp 𝕄) :=
  pointsTo_congr h

/--
info: 'Cert.KernelIdeal.Flash.stg1_tiles' depends on axioms: [propext, Classical.choice, Quot.sound]
-/
#guard_msgs in #print axioms stg1_tiles

/--
info: 'Cert.KernelIdeal.Flash.arg1_batches_rest' depends on axioms: [propext, Classical.choice, Quot.sound]
-/
#guard_msgs in #print axioms arg1_batches_rest

end Cert.KernelIdeal.Flash

end
-- ==== Proof.Shares.lean ====
/-
  Eight shares of a buffer.

  A positive tree share is the composite of its two halves. Halving the full share three times gives
  eight shares that compose to the full share; a points-to on a region at the full share is the
  separating conjunction of the points-to's on the same region, with the same contents, at the eight
  shares. Eight readers may then each hold one share of a buffer and read it at the same time, and the
  eight shares together give back the right to write.
-/
import proofs.«900786_g7700000000000787_dist_flashdec_v7x_xyz2x2x4_x_b4_sq32_skv4096_h8_d128_f32_1_alg».proof.Proof.Proto

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight eighths of the full share: the leaves of its three-level halving, left to right. -/
def shr : Fin 8 → PosShare TreeShare :=
  ![fullShare.left.left.left, fullShare.left.left.right, fullShare.left.right.left, fullShare.left.right.right,
    fullShare.right.left.left, fullShare.right.left.right, fullShare.right.right.left, fullShare.right.right.right]

/-- A points-to at a share is the two points-to's at its halves. -/
theorem pointsTo_halves (ℓ : Loc nD τ sig) (S : Finset (Idx ℓ)) (q : PosShare TreeShare) (f : Buf (Elt F) ℓ) :
    (ℓ ↦[S]{q} f : sProp 𝕄) = iprop((ℓ ↦[S]{q.left} f) ∗ (ℓ ↦[S]{q.right} f)) :=
  Entails.antisymm (Region.is_share (PosShare.mem_left_op_right q)).1 (Region.is_share (PosShare.mem_left_op_right q)).2

/-- The separating conjunction is associative, as an equation. -/
theorem sep_assoc_eq (P Q R : sProp 𝕄) : iprop((P ∗ Q) ∗ R) = iprop(P ∗ (Q ∗ R)) :=
  Entails.antisymm BI.sep_assoc BI.sep_assoc'

/-- A points-to at the full share is the eight points-to's at the eight shares. -/
theorem pointsTo_shr (ℓ : Loc nD τ sig) (S : Finset (Idx ℓ)) (f : Buf (Elt F) ℓ) :
    (ℓ ↦[S]{fullShare} f : sProp 𝕄) = bigSep Finset.univ fun i : Fin 8 => (ℓ ↦[S]{shr i} f : sProp 𝕄) := by
  rw [bigSep_univ_eq_bigSepL [(0 : Fin 8), 1, 2, 3, 4, 5, 6, 7] (by decide) (by decide)]
  simp only [bigSepL_cons_cons, bigSepL_singleton]
  conv_lhs =>
    rw [pointsTo_halves ℓ S fullShare f, pointsTo_halves ℓ S fullShare.left f, pointsTo_halves ℓ S fullShare.right f,
      pointsTo_halves ℓ S fullShare.left.left f, pointsTo_halves ℓ S fullShare.left.right f,
      pointsTo_halves ℓ S fullShare.right.left f, pointsTo_halves ℓ S fullShare.right.right f]
  simp only [sep_assoc_eq]
  rfl

/--
info: 'Cert.KernelIdeal.Flash.pointsTo_shr' depends on axioms: [propext, Classical.choice, Quot.sound]
-/
#guard_msgs in #print axioms pointsTo_shr

end Cert.KernelIdeal.Flash

end
-- ==== Proof.RegionsRows.lean ====
/-
  The result buffer of a device, row by row, the rows named by who writes them.

  The result's staging buffer is tiled by its thirty-two rows, one for each batch and head. Device c writes
  the four rows of its own head itself and receives the rows of head hdN (pr j c) from peer j, j = 1 … 7;
  own head and the seven peers' heads are the eight heads, each once. So the eight rows of a batch can be
  renumbered by who writes them, and the buffer held whole at the full share is the four own rows and the
  twenty-eight received rows — batch by batch, or peer by peer.
-/
import proofs.«900786_g7700000000000787_dist_flashdec_v7x_xyz2x2x4_x_b4_sq32_skv4096_h8_d128_f32_1_alg».proof.Proof.Regions
import proofs.«900786_g7700000000000787_dist_flashdec_v7x_xyz2x2x4_x_b4_sq32_skv4096_h8_d128_f32_1_alg».proof.Proof.Regions2
import proofs.«900786_g7700000000000787_dist_flashdec_v7x_xyz2x2x4_x_b4_sq32_skv4096_h8_d128_f32_1_alg».proof.Proof.Shares
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.Chains

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The result buffer, row by row, the rows named by who writes them

Device c writes the row of its own head itself and receives the row of head hdN (pr j c) from peer j, for
j = 1 … 7; these eight heads are the eight heads. -/

/-- The head of the row of the result buffer that device c writes itself (j = 0) or receives from peer j. -/
def hdJ (c : Dev nD) (j : Fin 8) : ℕ := Fin.cases (hdN c) (fun i : Fin 7 => hdN (pr i.succ c)) j

theorem hdJ_lt (c : Dev nD) (j : Fin 8) : hdJ c j < 8 := by
  induction j using Fin.cases with
  | zero => exact hdN_lt c
  | succ i => exact hdN_lt (pr i.succ c)

/-- Own head and the seven peers' heads are the eight heads, each once. -/
theorem hdJ_bijective : ∀ c : Dev nD, Function.Bijective (fun j : Fin 8 => (⟨hdJ c j, hdJ_lt c j⟩ : Fin 8)) := by
  decide

/-- The heads, renumbered by who writes the row. -/
def hdEquiv (c : Dev nD) : Fin 8 ≃ Fin 8 := Equiv.ofBijective _ (hdJ_bijective c)

/-- The eight rows of batch b, renumbered: own row first, then the rows of peers 1 … 7. -/
theorem rM_row_eq (c : Dev nD) (f : Buf (Elt F) ((c : Thread nD τ).loc cc0_stg1_0)) (b : Fin 4) :
    (bigSep Finset.univ fun h : Fin 8 =>
        ((hSl b.val b.isLt h.val h.isLt (Memref.whole cc0_stg1_0)).view.loc (c : Thread nD τ)
          ↦[(hSl b.val b.isLt h.val h.isLt (Memref.whole cc0_stg1_0)).view.set]{fullShare} f : sProp 𝕄))
      = iprop(slPts c (hSl b.val b.isLt (hdN c) (hdN_lt c) rM) fullShare f
          ∗ slPts c (hSl b.val b.isLt (hdN (pr (1 : Fin 8) c)) (hdN_lt _) rM) fullShare f
          ∗ slPts c (hSl b.val b.isLt (hdN (pr (2 : Fin 8) c)) (hdN_lt _) rM) fullShare f
          ∗ slPts c (hSl b.val b.isLt (hdN (pr (3 : Fin 8) c)) (hdN_lt _) rM) fullShare f
          ∗ slPts c (hSl b.val b.isLt (hdN (pr (4 : Fin 8) c)) (hdN_lt _) rM) fullShare f
          ∗ slPts c (hSl b.val b.isLt (hdN (pr (5 : Fin 8) c)) (hdN_lt _) rM) fullShare f
          ∗ slPts c (hSl b.val b.isLt (hdN (pr (6 : Fin 8) c)) (hdN_lt _) rM) fullShare f
          ∗ slPts c (hSl b.val b.isLt (hdN (pr (7 : Fin 8) c)) (hdN_lt _) rM) fullShare f) := by
  rw [bigSep_univ_equiv (hdEquiv c), bigSep_fin8]
  rfl

/-! ## The own rows apart from the peers' rows -/

/-- A separating conjunction over eight indices: the first, and the seven successors. -/
private theorem rows_fin8_succ (Φ : Fin 8 → sProp 𝕄) :
    bigSep Finset.univ Φ = iprop(Φ 0 ∗ bigSep Finset.univ fun i : Fin 7 => Φ i.succ) := by
  rw [bigSep_fin8 Φ, bigSep_fin7 (fun i : Fin 7 => Φ i.succ)]
  rfl

/-- The result buffer held whole at contents f is the device's four own rows and, batch by batch, the seven
    rows it receives from its peers 1 … 7. -/
theorem rM_own_peers (c : Dev nD) (f : Buf (Elt F) ((c : Thread nD τ).loc cc0_stg1_0)) :
    (((c : Thread nD τ).loc cc0_stg1_0) ↦{fullShare} f : sProp 𝕄)
      = iprop((bigSep Finset.univ fun b : Fin 4 => slPts c (hSl b.val b.isLt (hdN c) (hdN_lt c) rM) fullShare f)
          ∗ (bigSep Finset.univ fun b : Fin 4 => bigSep Finset.univ fun i : Fin 7 =>
              slPts c (hSl b.val b.isLt (hdN (pr i.succ c)) (hdN_lt _) rM) fullShare f)) := by
  refine (stg1_tiles c f).trans (Eq.trans ?_ (bigSep_sep Finset.univ _ _))
  refine bigSep_congr fun b _ => ?_
  rw [bigSep_univ_equiv (hdEquiv c), rows_fin8_succ]
  rfl

/-- The same with the peers' rows peer by peer, and for each peer batch by batch. -/
theorem rM_own_peers_imajor (c : Dev nD) (f : Buf (Elt F) ((c : Thread nD τ).loc cc0_stg1_0)) :
    (((c : Thread nD τ).loc cc0_stg1_0) ↦{fullShare} f : sProp 𝕄)
      = iprop((bigSep Finset.univ fun b : Fin 4 => slPts c (hSl b.val b.isLt (hdN c) (hdN_lt c) rM) fullShare f)
          ∗ (bigSep Finset.univ fun i : Fin 7 => bigSep Finset.univ fun b : Fin 4 =>
              slPts c (hSl b.val b.isLt (hdN (pr i.succ c)) (hdN_lt _) rM) fullShare f)) := by
  rw [rM_own_peers c f, bigSep_univ_comm]

/--
info: 'Cert.KernelIdeal.Flash.rM_own_peers_imajor' depends on axioms: [propext, Classical.choice, Quot.sound]
-/
#guard_msgs in #print axioms rM_own_peers_imajor

end Cert.KernelIdeal.Flash

end
-- ==== Proof.SchedTables.lean ====
import proofs.«900786_g7700000000000787_dist_flashdec_v7x_xyz2x2x4_x_b4_sq32_skv4096_h8_d128_f32_1_alg».proof.Proof.Sched
import Idealize.ShloMosaic.Lib.Tactic

/-! The schedule's tables role by role: for each kind of cell of a device — the barrier, the local
copies of the keys and values, the send and receive sides of the exchange with the other half, the
send and receive sides of the gather of the merged blocks — its duties, amounts, expected units,
payloads, and the payloads of a whole round. -/

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## The barrier cell -/

theorem barPay_zero : barPay (F := F) c 0 = iprop((∃ f, slPts (pr 0 c) oM' fullShare f) ∗ (∃ f, slPts (pr 0 c) lM' fullShare f)) := by
  unfold barPay; exact if_pos rfl
theorem barPay_succ (i : Fin 7) : barPay (F := F) c i.succ
    = bigSep (Finset.univ : Finset (Fin 4)) (fun b => iprop(∃ f, slPts (pr i.succ c) (hSl b.val b.isLt (hdN c) (hdN_lt c) rM) fullShare f)) := by
  unfold barPay; exact if_neg (Fin.succ_ne_zero i)

theorem payload_bar_zero : (Rd m).payload (barCell c) 0 0
    = iprop((∃ f, slPts (pr 0 c) oM' fullShare f) ∗ (∃ f, slPts (pr 0 c) lM' fullShare f)) := by
  rw [payload_bar, barPay_zero]
theorem payload_bar_succ (i : Fin 7) : (Rd m).payload (barCell c) 0 i.succ
    = bigSep (Finset.univ : Finset (Fin 4)) (fun b => iprop(∃ f, slPts (pr i.succ c) (hSl b.val b.isLt (hdN c) (hdN_lt c) rM) fullShare f)) := by
  rw [payload_bar, barPay_succ]

/-- The payloads of the barrier cell's whole round: one per peer. -/
theorem rest_bar : bigSep ((Rd m).duties (barCell c) 0 \ ∅) (fun d => (Rd m).payload (barCell c) 0 d)
    = bigSep (Finset.univ : Finset (Fin 8)) (fun j => barPay (F := F) c j) := by
  rw [Finset.sdiff_empty, duties_bar]
  exact congrArg (bigSep Finset.univ) (funext fun j => payload_bar m c j)

/-! ## The DMA cells, by role -/

/-- The payloads of a DMA cell's whole round: its one duty's. -/
theorem rest_dma (k : Role) : bigSep ((Rd m).duties (dCell c k.num) 0 \ ∅) (fun d => (Rd m).payload (dCell c k.num) 0 d) = rolePay m c k := by
  rw [Finset.sdiff_empty, duties_dma, bigSep_singleton, payload_dma]

section Loc
variable (b : Fin 4) (d : Fin 8)

theorem amount_loc_k : (Rd m).amount (dCell c (nLoc b 0)) 0 d = NK := amount_dma m c (.loc b 0) d
theorem amount_loc_v : (Rd m).amount (dCell c (nLoc b 1)) 0 d = NV := amount_dma m c (.loc b 1) d
theorem expect_loc_k : (Rd m).expect (dCell c (nLoc b 0)) 0 = NK := expect_dma m c (.loc b 0)
theorem expect_loc_v : (Rd m).expect (dCell c (nLoc b 1)) 0 = NV := expect_dma m c (.loc b 1)
theorem payload_loc_k : (Rd m).payload (dCell c (nLoc b 0)) 0 d
    = iprop(slPts c (kvDst b.val b.isLt kM) fullShare (kC m c)
        ∗ slPts c (kvSrc b.val b.isLt (hdN c) (hdN_lt c) aK) fullShare (m ((c : Thread nD τ).loc main_arg1))) :=
  payload_dma m c (.loc b 0) d
theorem payload_loc_v : (Rd m).payload (dCell c (nLoc b 1)) 0 d
    = iprop(slPts c (kvDst b.val b.isLt vM) fullShare (vC m c)
        ∗ slPts c (kvSrc b.val b.isLt (hdN c) (hdN_lt c) aV) fullShare (m ((c : Thread nD τ).loc main_arg2))) :=
  payload_dma m c (.loc b 1) d
theorem rest_loc_k : bigSep ((Rd m).duties (dCell c (nLoc b 0)) 0 \ ∅) (fun d => (Rd m).payload (dCell c (nLoc b 0)) 0 d)
    = iprop(slPts c (kvDst b.val b.isLt kM) fullShare (kC m c)
        ∗ slPts c (kvSrc b.val b.isLt (hdN c) (hdN_lt c) aK) fullShare (m ((c : Thread nD τ).loc main_arg1))) :=
  rest_dma m c (.loc b 0)
theorem rest_loc_v : bigSep ((Rd m).duties (dCell c (nLoc b 1)) 0 \ ∅) (fun d => (Rd m).payload (dCell c (nLoc b 1)) 0 d)
    = iprop(slPts c (kvDst b.val b.isLt vM) fullShare (vC m c)
        ∗ slPts c (kvSrc b.val b.isLt (hdN c) (hdN_lt c) aV) fullShare (m ((c : Thread nD τ).loc main_arg2))) :=
  rest_dma m c (.loc b 1)

end Loc

section Exchange
variable (b : Fin 4) (d : Fin 8)

theorem amount_xs_o : (Rd m).amount (dCell c (nXs b 0)) 0 d = NO := amount_dma m c (.xs b 0) d
theorem amount_xs_l : (Rd m).amount (dCell c (nXs b 1)) 0 d = NL := amount_dma m c (.xs b 1) d
theorem amount_xr_o : (Rd m).amount (dCell c (nXr b 0)) 0 d = NO := amount_dma m c (.xr b 0) d
theorem amount_xr_l : (Rd m).amount (dCell c (nXr b 1)) 0 d = NL := amount_dma m c (.xr b 1) d
theorem expect_xs_o : (Rd m).expect (dCell c (nXs b 0)) 0 = NO := expect_dma m c (.xs b 0)
theorem expect_xs_l : (Rd m).expect (dCell c (nXs b 1)) 0 = NL := expect_dma m c (.xs b 1)
theorem expect_xr_o : (Rd m).expect (dCell c (nXr b 0)) 0 = NO := expect_dma m c (.xr b 0)
theorem expect_xr_l : (Rd m).expect (dCell c (nXr b 1)) 0 = NL := expect_dma m c (.xr b 1)
theorem payload_xs_o : (Rd m).payload (dCell c (nXs b 0)) 0 d = slPts c (oSl b.val b.isLt oM) fullShare (oC m c) :=
  payload_dma m c (.xs b 0) d
theorem payload_xs_l : (Rd m).payload (dCell c (nXs b 1)) 0 d = slPts c (lSl b.val b.isLt lM) fullShare (lC m c) :=
  payload_dma m c (.xs b 1) d
theorem payload_xr_o : (Rd m).payload (dCell c (nXr b 0)) 0 d = slPts c (oSl b.val b.isLt oM') fullShare (oC m (pr 0 c)) :=
  payload_dma m c (.xr b 0) d
theorem payload_xr_l : (Rd m).payload (dCell c (nXr b 1)) 0 d = slPts c (lSl b.val b.isLt lM') fullShare (lC m (pr 0 c)) :=
  payload_dma m c (.xr b 1) d
theorem rest_xs_o : bigSep ((Rd m).duties (dCell c (nXs b 0)) 0 \ ∅) (fun d => (Rd m).payload (dCell c (nXs b 0)) 0 d)
    = slPts c (oSl b.val b.isLt oM) fullShare (oC m c) := rest_dma m c (.xs b 0)
theorem rest_xs_l : bigSep ((Rd m).duties (dCell c (nXs b 1)) 0 \ ∅) (fun d => (Rd m).payload (dCell c (nXs b 1)) 0 d)
    = slPts c (lSl b.val b.isLt lM) fullShare (lC m c) := rest_dma m c (.xs b 1)
theorem rest_xr_o : bigSep ((Rd m).duties (dCell c (nXr b 0)) 0 \ ∅) (fun d => (Rd m).payload (dCell c (nXr b 0)) 0 d)
    = slPts c (oSl b.val b.isLt oM') fullShare (oC m (pr 0 c)) := rest_dma m c (.xr b 0)
theorem rest_xr_l : bigSep ((Rd m).duties (dCell c (nXr b 1)) 0 \ ∅) (fun d => (Rd m).payload (dCell c (nXr b 1)) 0 d)
    = slPts c (lSl b.val b.isLt lM') fullShare (lC m (pr 0 c)) := rest_dma m c (.xr b 1)

end Exchange

section Gather
variable (b : Fin 4) (i : Fin 7) (d : Fin 8)

theorem amount_gs : (Rd m).amount (dCell c (nGs b i)) 0 d = NH := amount_dma m c (.gs b i) d
theorem amount_gr : (Rd m).amount (dCell c (nGr b i)) 0 d = NH := amount_dma m c (.gr b i) d
theorem expect_gs : (Rd m).expect (dCell c (nGs b i)) 0 = NH := expect_dma m c (.gs b i)
theorem expect_gr : (Rd m).expect (dCell c (nGr b i)) 0 = NH := expect_dma m c (.gr b i)
theorem payload_gs : (Rd m).payload (dCell c (nGs b i)) 0 d
    = slPts c (hSl b.val b.isLt (hdN c) (hdN_lt c) rM) (gsShare i) (outC m c) := payload_dma m c (.gs b i) d
theorem payload_gr : (Rd m).payload (dCell c (nGr b i)) 0 d
    = slPts c (hSl b.val b.isLt (hdN (pr i.succ c)) (hdN_lt _) rM) fullShare (outC m c) := payload_dma m c (.gr b i) d
theorem rest_gs : bigSep ((Rd m).duties (dCell c (nGs b i)) 0 \ ∅) (fun d => (Rd m).payload (dCell c (nGs b i)) 0 d)
    = slPts c (hSl b.val b.isLt (hdN c) (hdN_lt c) rM) (gsShare i) (outC m c) := rest_dma m c (.gs b i)
theorem rest_gr : bigSep ((Rd m).duties (dCell c (nGr b i)) 0 \ ∅) (fun d => (Rd m).payload (dCell c (nGr b i)) 0 d)
    = slPts c (hSl b.val b.isLt (hdN (pr i.succ c)) (hdN_lt _) rM) fullShare (outC m c) := rest_dma m c (.gr b i)

end Gather

/-! ## The credits are the views' -/

theorem NK_eq (b : ℕ) (hb : b < 4) (sm : DmaSem sig) : (kvDst b hb kM).view.amount (.dma sm) = NK := rfl
theorem NV_eq (b : ℕ) (hb : b < 4) (sm : DmaSem sig) : (kvDst b hb vM).view.amount (.dma sm) = NV := rfl
theorem NO_eq (b : ℕ) (hb : b < 4) (sm : DmaSem sig) : (oSl b hb oM').view.amount (.dma sm) = NO := rfl
theorem NL_eq (b : ℕ) (hb : b < 4) (sm : DmaSem sig) : (lSl b hb lM').view.amount (.dma sm) = NL := rfl
theorem NH_eq (b : ℕ) (hb : b < 4) (h : ℕ) (hh : h < 8) (sm : DmaSem sig) : (hSl b hb h hh rM).view.amount (.dma sm) = NH := rfl

attribute [sl_rounds] duties_bar duties_dma amount_bar amount_dma expect_bar expect_dma payload_bar payload_dma
  payload_bar_zero payload_bar_succ
  amount_loc_k amount_loc_v expect_loc_k expect_loc_v payload_loc_k payload_loc_v
  amount_xs_o amount_xs_l amount_xr_o amount_xr_l expect_xs_o expect_xs_l expect_xr_o expect_xr_l
  payload_xs_o payload_xs_l payload_xr_o payload_xr_l
  amount_gs amount_gr expect_gs expect_gr payload_gs payload_gr

/--
info: 'Cert.KernelIdeal.Flash.rest_dma' depends on axioms: [propext, Classical.choice, Quot.sound]
-/
#guard_msgs in #print axioms rest_dma

end Cert.KernelIdeal.Flash

end
-- ==== Proof.SchedRestate.lean ====
import proofs.«900786_g7700000000000787_dist_flashdec_v7x_xyz2x2x4_x_b4_sq32_skv4096_h8_d128_f32_1_alg».proof.Proof.Sched
import Idealize.ShloMosaic.Lib.Pipeline.Value
import Idealize.ShloMosaic.Lib.ValueLayout

/-! What the copies leave behind, restated against the canonical contents.

A view reads its buffer's contents at coordinates: batch `b` of a scratch buffer at `(b, …)`, row
`(b, ·, h, ·)` of a device's block of the keys or values at `(b, k, h, t)`. Two contents that read
the same through a view agree on the view's elements, and a region points-to only speaks of the
contents there. So the destination of a copy, rewritten by what the source view reads, is the
destination at the canonical contents: the local copies land `kC` and `vC`, the exchange lands the
sender's `oC` and `lC`, the gather lands the sender's row of `outC`, which every device of one
half agrees on. -/

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Contents that read the same through a view agree under it -/

section Generic
variable {Val : EltTy → Type} {sg : RefSig} {κ : Kind} {sp : Space} {S : Shape} {e : EltTy}

theorem agree_of_read (v : View sg κ sp S e) {f g : v.ty.Contents Val} (h : ∀ x, v.read Val f x = v.read Val g x) :
    ∀ i ∈ v.set, f i = g i := by
  intro i hi
  obtain ⟨y, rfl⟩ := View.exists_emb_of_mem_set v hi
  have := h y
  rw [View.read_apply, View.read_apply] at this
  exact (cast_inj _).mp this

theorem write_agree (v : View sg κ sp S e) (fd g : v.ty.Contents Val) (w : S.Idx → Val e) (h : ∀ x, w x = v.read Val g x) :
    ∀ i ∈ v.set, v.write Val fd w Finset.univ i = g i :=
  agree_of_read v fun x => by rw [View.read_write_of_mem fd w (Finset.mem_univ x), h x]

end Generic

/-! ## The views read the contents at coordinates -/

theorem read_kDst (c : Dev nD) (b : Fin 4) (k : Fin 4096) (u : Fin 1) (t : Fin 128) :
    (kvDst b.val b.isLt kM).view.read (Elt F) (kC m c) (ix3 k u t)
      = m ((c : Thread nD τ).loc main_arg1) (ix4 b k (⟨hdN c, hdN_lt c⟩ : Fin 8) t) := by
  show shapeCast S4096x1x128 ((kM : Memref sig .tc .vmem S4x4096x1x128 .f32).view.readAt (Elt F) (rK b).toLoadRect (kC m c)) (by decide : S1x4096x1x128.ShapeCasts S4096x1x128) (ix3 k u t) = _
  rw [shapeCast_1abc_abc_apply]
  show kC m c ((rK b).toLoadRect.idx (ix4 (0 : Fin 1) k u t)) = _
  unfold kC
  refine congrArg (m ((c : Thread nD τ).loc main_arg1)) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

theorem read_vDst (c : Dev nD) (b : Fin 4) (k : Fin 4096) (u : Fin 1) (t : Fin 128) :
    (kvDst b.val b.isLt vM).view.read (Elt F) (vC m c) (ix3 k u t)
      = m ((c : Thread nD τ).loc main_arg2) (ix4 b k (⟨hdN c, hdN_lt c⟩ : Fin 8) t) := by
  show shapeCast S4096x1x128 ((vM : Memref sig .tc .vmem S4x4096x1x128 .f32).view.readAt (Elt F) (rK b).toLoadRect (vC m c)) (by decide : S1x4096x1x128.ShapeCasts S4096x1x128) (ix3 k u t) = _
  rw [shapeCast_1abc_abc_apply]
  show vC m c ((rK b).toLoadRect.idx (ix4 (0 : Fin 1) k u t)) = _
  unfold vC
  refine congrArg (m ((c : Thread nD τ).loc main_arg2)) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

/-- A device's block of the keys read through the view of batch `b`, head `h`. -/
theorem read_kSrc (b : Fin 4) (h : ℕ) (hh : h < 8) (f : (main_arg1 : Ref sig .tc).ty.Contents (Elt F))
    (k : Fin 4096) (u : Fin 1) (t : Fin 128) :
    (kvSrc b.val b.isLt h hh aK).view.read (Elt F) f (ix3 k u t) = f (ix4 b k (⟨h, hh⟩ : Fin 8) t) := by
  show shapeCast S4096x1x128 ((aK : Memref sig .tc .hbm S4x4096x8x128 .f32).view.readAt (Elt F)
    (Rect.unit (s := S4x4096x8x128) ![b.val, 0, h, 0] S1x4096x1x128.size (inbA b.val b.isLt h hh)).toLoadRect f) (by decide : S1x4096x1x128.ShapeCasts S4096x1x128) (ix3 k u t) = _
  rw [shapeCast_1abc_abc_apply]
  show f ((Rect.unit (s := S4x4096x8x128) ![b.val, 0, h, 0] S1x4096x1x128.size (inbA b.val b.isLt h hh)).toLoadRect.idx (ix4 (0 : Fin 1) k u t)) = _
  refine congrArg f (funext fun a => Fin.ext ?_)
  have hu : u.val = 0 := by have := u.isLt; omega
  match a with
  | ⟨0, _⟩ => show b.val + 1 * 0 = b.val; omega
  | ⟨1, _⟩ => show 0 + 1 * k.val = k.val; omega
  | ⟨2, _⟩ => show h + 1 * u.val = h; omega
  | ⟨3, _⟩ => show 0 + 1 * t.val = t.val; omega

theorem read_vSrc (b : Fin 4) (h : ℕ) (hh : h < 8) (f : (main_arg2 : Ref sig .tc).ty.Contents (Elt F))
    (k : Fin 4096) (u : Fin 1) (t : Fin 128) :
    (kvSrc b.val b.isLt h hh aV).view.read (Elt F) f (ix3 k u t) = f (ix4 b k (⟨h, hh⟩ : Fin 8) t) := by
  show shapeCast S4096x1x128 ((aV : Memref sig .tc .hbm S4x4096x8x128 .f32).view.readAt (Elt F)
    (Rect.unit (s := S4x4096x8x128) ![b.val, 0, h, 0] S1x4096x1x128.size (inbA b.val b.isLt h hh)).toLoadRect f) (by decide : S1x4096x1x128.ShapeCasts S4096x1x128) (ix3 k u t) = _
  rw [shapeCast_1abc_abc_apply]
  show f ((Rect.unit (s := S4x4096x8x128) ![b.val, 0, h, 0] S1x4096x1x128.size (inbA b.val b.isLt h hh)).toLoadRect.idx (ix4 (0 : Fin 1) k u t)) = _
  refine congrArg f (funext fun a => Fin.ext ?_)
  have hu : u.val = 0 := by have := u.isLt; omega
  match a with
  | ⟨0, _⟩ => show b.val + 1 * 0 = b.val; omega
  | ⟨1, _⟩ => show 0 + 1 * k.val = k.val; omega
  | ⟨2, _⟩ => show h + 1 * u.val = h; omega
  | ⟨3, _⟩ => show 0 + 1 * t.val = t.val; omega

/-! ## What the local copies land -/

/-- The keys of batch `b` copied from the device's block land as the canonical contents say. -/
theorem landed_k_pt (c : Dev nD) (b : Fin 4) (fd : (cc0_scratch0 : Ref sig .tc).ty.Contents (Elt F)) :
    ∀ i ∈ (kvDst b.val b.isLt kM).view.set,
      (kvDst b.val b.isLt kM).view.write (Elt F) fd
        ((kvSrc b.val b.isLt (hdN c) (hdN_lt c) aK).view.read (Elt F) (m ((c : Thread nD τ).loc main_arg1))) Finset.univ i = kC m c i :=
  by
  refine write_agree (kvDst b.val b.isLt kM).view fd (kC m c) _ fun x => ?_
  obtain ⟨k, u, t, rfl⟩ : ∃ (k : Fin 4096) (u : Fin 1) (t : Fin 128), x = ix3 k u t := ⟨x 0, x 1, x 2, eq_ix3 x⟩
  rw [read_kDst, read_kSrc]

theorem landed_v_pt (c : Dev nD) (b : Fin 4) (fd : (cc0_scratch1 : Ref sig .tc).ty.Contents (Elt F)) :
    ∀ i ∈ (kvDst b.val b.isLt vM).view.set,
      (kvDst b.val b.isLt vM).view.write (Elt F) fd
        ((kvSrc b.val b.isLt (hdN c) (hdN_lt c) aV).view.read (Elt F) (m ((c : Thread nD τ).loc main_arg2))) Finset.univ i = vC m c i :=
  by
  refine write_agree (kvDst b.val b.isLt vM).view fd (vC m c) _ fun x => ?_
  obtain ⟨k, u, t, rfl⟩ : ∃ (k : Fin 4096) (u : Fin 1) (t : Fin 128), x = ix3 k u t := ⟨x 0, x 1, x 2, eq_ix3 x⟩
  rw [read_vDst, read_vSrc]

theorem landed_k (c : Dev nD) (b : Fin 4) (fd : (cc0_scratch0 : Ref sig .tc).ty.Contents (Elt F)) :
    slPts c (kvDst b.val b.isLt kM) fullShare ((kvDst b.val b.isLt kM).view.write (Elt F) fd
        ((kvSrc b.val b.isLt (hdN c) (hdN_lt c) aK).view.read (Elt F) (m ((c : Thread nD τ).loc main_arg1))) Finset.univ)
      = slPts c (kvDst b.val b.isLt kM) fullShare (kC m c) :=
  pointsTo_congr (landed_k_pt m c b fd)

theorem landed_v (c : Dev nD) (b : Fin 4) (fd : (cc0_scratch1 : Ref sig .tc).ty.Contents (Elt F)) :
    slPts c (kvDst b.val b.isLt vM) fullShare ((kvDst b.val b.isLt vM).view.write (Elt F) fd
        ((kvSrc b.val b.isLt (hdN c) (hdN_lt c) aV).view.read (Elt F) (m ((c : Thread nD τ).loc main_arg2))) Finset.univ)
      = slPts c (kvDst b.val b.isLt vM) fullShare (vC m c) :=
  pointsTo_congr (landed_v_pt m c b fd)

/-! ## The exchange: partial outputs and partial denominators -/

theorem read_oSl (b : Fin 4) (g : (cc0_scratch2 : Ref sig .tc).ty.Contents (Elt F)) (q : Fin 32) (d : Fin 128) :
    (oSl b.val b.isLt oM).view.read (Elt F) g (ix2 q d) = g (ix3 b q d) := by
  show shapeCast S32x128 ((oM : Memref sig .tc .vmem S4x32x128 .f32).view.readAt (Elt F) (rO b).toLoadRect g) (by decide : S1x32x128.ShapeCasts S32x128) (ix2 q d) = _
  rw [shapeCast_1ab_ab_apply]
  show g ((rO b).toLoadRect.idx (ix3 (0 : Fin 1) q d)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * d.val = d.val; omega

theorem read_oSl' (b : Fin 4) (g : (cc0_scratch4 : Ref sig .tc).ty.Contents (Elt F)) (q : Fin 32) (d : Fin 128) :
    (oSl b.val b.isLt oM').view.read (Elt F) g (ix2 q d) = g (ix3 b q d) := by
  show shapeCast S32x128 ((oM' : Memref sig .tc .vmem S4x32x128 .f32).view.readAt (Elt F) (rO b).toLoadRect g) (by decide : S1x32x128.ShapeCasts S32x128) (ix2 q d) = _
  rw [shapeCast_1ab_ab_apply]
  show g ((rO b).toLoadRect.idx (ix3 (0 : Fin 1) q d)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * d.val = d.val; omega

theorem read_lSl (b : Fin 4) (g : (cc0_scratch3 : Ref sig .tc).ty.Contents (Elt F)) (q : Fin 32) (w : Fin 1) :
    (lSl b.val b.isLt lM).view.read (Elt F) g (ix2 q w) = g (ix3 b q w) := by
  show shapeCast S32x1 ((lM : Memref sig .tc .vmem S4x32x1 .f32).view.readAt (Elt F) (rL b).toLoadRect g) (by decide : S1x32x1.ShapeCasts S32x1) (ix2 q w) = _
  rw [shapeCast_1ab_ab_apply]
  show g ((rL b).toLoadRect.idx (ix3 (0 : Fin 1) q w)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * w.val = w.val; omega

theorem read_lSl' (b : Fin 4) (g : (cc0_scratch5 : Ref sig .tc).ty.Contents (Elt F)) (q : Fin 32) (w : Fin 1) :
    (lSl b.val b.isLt lM').view.read (Elt F) g (ix2 q w) = g (ix3 b q w) := by
  show shapeCast S32x1 ((lM' : Memref sig .tc .vmem S4x32x1 .f32).view.readAt (Elt F) (rL b).toLoadRect g) (by decide : S1x32x1.ShapeCasts S32x1) (ix2 q w) = _
  rw [shapeCast_1ab_ab_apply]
  show g ((rL b).toLoadRect.idx (ix3 (0 : Fin 1) q w)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * w.val = w.val; omega

/-- Batch `b` of a 4 x 32 x 128 buffer, copied into batch `b` of the landing buffer, lands as it was. -/
theorem landed_o_pt (b : Fin 4) (g : (cc0_scratch2 : Ref sig .tc).ty.Contents (Elt F)) (fd : (cc0_scratch4 : Ref sig .tc).ty.Contents (Elt F)) :
    ∀ i ∈ (oSl b.val b.isLt oM').view.set,
      (oSl b.val b.isLt oM').view.write (Elt F) fd ((oSl b.val b.isLt oM).view.read (Elt F) g) Finset.univ i = g i := by
  refine write_agree (oSl b.val b.isLt oM').view fd g _ fun x => ?_
  obtain ⟨q, d, rfl⟩ : ∃ (q : Fin 32) (d : Fin 128), x = ix2 q d := ⟨x 0, x 1, eq_ix2 x⟩
  rw [read_oSl, read_oSl']

theorem landed_l_pt (b : Fin 4) (g : (cc0_scratch3 : Ref sig .tc).ty.Contents (Elt F)) (fd : (cc0_scratch5 : Ref sig .tc).ty.Contents (Elt F)) :
    ∀ i ∈ (lSl b.val b.isLt lM').view.set,
      (lSl b.val b.isLt lM').view.write (Elt F) fd ((lSl b.val b.isLt lM).view.read (Elt F) g) Finset.univ i = g i := by
  refine write_agree (lSl b.val b.isLt lM').view fd g _ fun x => ?_
  obtain ⟨q, w, rfl⟩ : ∃ (q : Fin 32) (w : Fin 1), x = ix2 q w := ⟨x 0, x 1, eq_ix2 x⟩
  rw [read_lSl, read_lSl']

/-- On device `x`, batch `b` of the landing buffer after the copy of device `c`'s partial output. -/
theorem landed_o (c x : Dev nD) (b : Fin 4) (fd : (cc0_scratch4 : Ref sig .tc).ty.Contents (Elt F)) :
    slPts x (oSl b.val b.isLt oM') fullShare ((oSl b.val b.isLt oM').view.write (Elt F) fd ((oSl b.val b.isLt oM).view.read (Elt F) (oC m c)) Finset.univ)
      = slPts x (oSl b.val b.isLt oM') fullShare (oC m c) :=
  pointsTo_congr (landed_o_pt b (oC m c) fd)

theorem landed_l (c x : Dev nD) (b : Fin 4) (fd : (cc0_scratch5 : Ref sig .tc).ty.Contents (Elt F)) :
    slPts x (lSl b.val b.isLt lM') fullShare ((lSl b.val b.isLt lM').view.write (Elt F) fd ((lSl b.val b.isLt lM).view.read (Elt F) (lC m c)) Finset.univ)
      = slPts x (lSl b.val b.isLt lM') fullShare (lC m c) :=
  pointsTo_congr (landed_l_pt b (lC m c) fd)

/-! ## The gather: a merged row copied to the same row of a peer's result buffer -/

theorem hdDev_pr_succ (i : Fin 7) (c : Dev nD) (h : Fin 8) : hdDev (pr i.succ c) h = hdDev c h := by revert i c h; decide
theorem hdDev_self (c : Dev nD) : hdDev c (⟨hdN c, hdN_lt c⟩ : Fin 8) = c := by revert c; decide

/-- The devices of one half agree on what the result buffer holds at the end. -/
theorem outC_pr_succ (i : Fin 7) (c : Dev nD) : outC m (pr i.succ c) = outC m c := by
  funext j
  exact congrArg (fun d => mB m d (j 0) (ix4 (0 : Fin 1) (j 1) (0 : Fin 1) (j 3))) (hdDev_pr_succ i c (j 2))

/-- On device `p`, row `(b, h)` of the result buffer after the copy of the same row of device `c`'s. -/
theorem landed_h (c p : Dev nD) (b : Fin 4) (h : ℕ) (hh : h < 8) (fd : (cc0_stg1_0 : Ref sig .tc).ty.Contents (Elt F)) :
    slPts p (hSl b.val b.isLt h hh rM) fullShare ((hSl b.val b.isLt h hh rM).view.write (Elt F) fd ((hSl b.val b.isLt h hh rM).view.read (Elt F) (outC m c)) Finset.univ)
      = slPts p (hSl b.val b.isLt h hh rM) fullShare (outC m c) :=
  pointsTo_congr (write_agree (hSl b.val b.isLt h hh rM).view fd (outC m c) _ fun _ => rfl)

/-! ## The views' element sets: a squeezed row is the row -/

theorem set_kvDst (b : Fin 4) (M : Memref sig .tc .vmem S4x4096x1x128 .f32) :
    (kvDst b.val b.isLt M).view.set = (M.access (rK b)).set := View.set_reshape _ _
theorem set_oSl (b : Fin 4) (M : Memref sig .tc .vmem S4x32x128 .f32) :
    (oSl b.val b.isLt M).view.set = (M.access (rO b)).set := View.set_reshape _ _
theorem set_lSl (b : Fin 4) (M : Memref sig .tc .vmem S4x32x1 .f32) :
    (lSl b.val b.isLt M).view.set = (M.access (rL b)).set := View.set_reshape _ _
theorem set_hSl (b : Fin 4) (h : ℕ) (hh : h < 8) (M : Memref sig .tc .vmem S4x32x8x128 .f32) :
    (hSl b.val b.isLt h hh M).view.set = (M.access (rH b h hh)).set := rfl

/--
info: 'Cert.KernelIdeal.Flash.landed_k' depends on axioms: [propext, Classical.choice, Quot.sound]
-/
#guard_msgs in #print axioms landed_k
/--
info: 'Cert.KernelIdeal.Flash.landed_o' depends on axioms: [propext, Classical.choice, Quot.sound]
-/
#guard_msgs in #print axioms landed_o
/--
info: 'Cert.KernelIdeal.Flash.landed_h' depends on axioms: [propext, Classical.choice, Quot.sound]
-/
#guard_msgs in #print axioms landed_h

end Cert.KernelIdeal.Flash

end
-- ==== Proof.StepsGather.lean ====
/-
  The gather of the merged blocks, step by step.

  Device c merges batch b's partial results into row (b, ·, hdN c, ·) of its result buffer; the row then holds what
  the result buffer holds at the end, since the device of c's half that works on head hdN c is c itself. Seven
  copies then read the row at once, one to each other head's device of the same half, each under its own share of
  the row; the copy to the head i + 1 away lands in row (b, ·, hdN c, ·) of that device's result buffer, which the
  device handed over at the barrier, and what it leaves there is what that device's own result buffer holds at the
  end, the two devices being of one half.
-/
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.SchedTables
import proofs.«900786_g7700000000000787_dist_flashdec_v7x_xyz2x2x4_x_b4_sq32_skv4096_h8_d128_f32_1_alg».proof.Proof.SchedRestate
import proofs.«900786_g7700000000000787_dist_flashdec_v7x_xyz2x2x4_x_b4_sq32_skv4096_h8_d128_f32_1_alg».proof.Proof.Levels
import Idealize.ShloMosaic.Lib.Rounds
import Idealize.ShloMosaic.Lib.Transfers

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The device's own row of the result buffer -/

/-- Row (b, ·, hdN c, ·) of device c's result buffer is its own merged block of batch b. -/
theorem outC_row (b : Fin 4) (x : S1x32x1x128.Idx) :
    outC m c ((rH b (hdN c) (hdN_lt c)).emb x) = mB m c b x := by
  have x0 : (x 0).val < 1 := (x 0).isLt
  have x2 : (x 2).val < 1 := (x 2).isLt
  have h0 : (show Fin 4 from (rH b (hdN c) (hdN_lt c)).emb x 0) = b := Fin.ext (by
    show b.val + 1 * (x 0).val = b.val
    omega)
  have h2 : (show Fin 8 from (rH b (hdN c) (hdN_lt c)).emb x 2) = (⟨hdN c, hdN_lt c⟩ : Fin 8) := Fin.ext (by
    show hdN c + 1 * (x 2).val = hdN c
    omega)
  have hx : ix4 (0 : Fin 1) (show Fin 32 from (rH b (hdN c) (hdN_lt c)).emb x 1) (0 : Fin 1) (show Fin 128 from (rH b (hdN c) (hdN_lt c)).emb x 3) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 = (x 2).val; omega)
    | ⟨3, _⟩ => exact Fin.ext (by show 0 + 1 * (x 3).val = (x 3).val; omega)
  have key : ∀ (d : Dev nD) (b' : Fin 4) (y : S1x32x1x128.Idx), d = c → b' = b → y = x → mB m d b' y = mB m c b x := by
    rintro _ _ _ rfl rfl rfl; rfl
  exact key _ _ _ ((congrArg (hdDev c) h2).trans (hdDev_self c)) h0 hx

/-! ## The copy of the merged block to another head's device -/

/-- The send side of the gather is the device's own cell; -/
theorem tgt_gs (b : Fin 4) (i : Fin 7) (c : Dev nD) : tgt (nGs b i) c = c :=
  tgt_own (nGs b i) (Or.inr ⟨by show 24 ≤ 24 + 7 * b.val + i.val; omega,
    by have := b.isLt; have := i.isLt; show 24 + 7 * b.val + i.val < 52; omega⟩) c
/-- the receive side the cell of the head it is sent to. -/
theorem tgt_gr (b : Fin 4) (i : Fin 7) (c : Dev nD) : tgt (nGr b i) c = pr i.succ c := tgt_ar b i c

/-- The send cell's credit is the row's. -/
theorem amt_gs (b : Fin 4) (i : Fin 7) : roleAmt (roleOf (nGs b i)) = NH := by
  rw [show nGs b i = (Role.gs b i).num from rfl, roleOf_num]; rfl

/-- What the receive cell of peer slot i hands device p, the row spelt at a given head number. -/
theorem rolePay_gr (b : Fin 4) (i : Fin 7) (p : Dev nD) (h : ℕ) (hh : h < 8) (e : hdN (pr i.succ p) = h) :
    rolePay m p (.gr b i) = slPts p (hSl b.val b.isLt h hh rM) fullShare (outC m p) := by
  subst e; rfl

/-- What the landing leaves in the row of the other head's device is what its receive cell hands that device:
    the two devices are of one half, and the row is sent from the head the receive cell names. -/
theorem landed_gr (b : Fin 4) (i : Fin 7) (fd : (cc0_stg1_0 : Ref sig .tc).ty.Contents (Elt F)) :
    slPts (pr i.succ c) (hSl b.val b.isLt (hdN c) (hdN_lt c) rM) fullShare
        ((hSl b.val b.isLt (hdN c) (hdN_lt c) rM).view.write (Elt F) fd ((hSl b.val b.isLt (hdN c) (hdN_lt c) rM).view.read (Elt F) (outC m c)) Finset.univ)
      = rolePay m (pr i.succ c) (.gr b i) := by
  rw [rolePay_gr m b i (pr i.succ c) (hdN c) (hdN_lt c) (by rw [pr_pr]), outC_pr_succ]
  exact landed_h m c (pr i.succ c) b (hdN c) (hdN_lt c) fd

/-- The copy of batch b's merged block to the device of head i + 1 away: the device lends the copy one share of its own
    row, hands over the other device's row, which it got at the barrier, and is paid its send cell's credit. -/
theorem step_agsend (b : Fin 4) (i : Fin 7) (n : ℕ) (hn : n < 44) (hs : step n = (i.succ, some (nGr b i), Ng))
    {W : Waits sig Unit}
    {hsc : (hSl b.val b.isLt (hdN c) (hdN_lt c) rM).view.ref.isScScratch = false}
    {hsrc : (hSl b.val b.isLt (hdN c) (hdN_lt c) rM).view.WordExact} {hdst : (hSl b.val b.isLt (hdN c) (hdN_lt c) rM).view.WordExact}
    {hsem : DmaTarget.Typed (nD := nD) .vmem (.dma (dS (nGr b i)))
      (.remote ((pr i.succ c : Dev nD) : Thread nD τ) (hSl b.val b.isLt (hdN c) (hdN_lt c) rM) (.dma (dS (nGs b i))) hsc)}
    {α : Type} {Q : α → sProp 𝕄} {k : PUnit → Prog (TpuEff nD τ sig (Elt F) Λ₀ .tc) α} :
    iprop(Rec m K ∗ hA m c b (hdN c) (hdN_lt c) (gsShare i) ∗ hE (F := F) (pr i.succ c) b (hdN c) (hdN_lt c)
        ∗ owes (c : Thread nD τ) (owedFrom c n) W ∗ tokD (F := F) c (nGs b i) ∗ tokD (F := F) c (nGr b i))
      ⊢ iprop(((crD (F := F) c (nGs b i) ∗ owes (c : Thread nD τ) (owedFrom c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hSl b.val b.isLt (hdN c) (hdN_lt c) rM)
                (.remote ((pr i.succ c : Dev nD) : Thread nD τ) (hSl b.val b.isLt (hdN c) (hdN_lt c) rM) (.dma (dS (nGs b i))) hsc)
                (.dma (dS (nGr b i))) hsrc hdst hsem) k) Q) := by
  have hO : owedFrom c n = owedFrom c (n + 1) + tallyAt (dCell (pr i.succ c) (nGr b i)) () NH := by
    rw [owedFrom_peel c n hn]; unfold payAt; rw [hs]
  unfold tokD crD
  rw [tgt_gs, tgt_gr, amt_gs]
  iintro ⟨#HR, Hsrc, ⟨%fd, Hdst⟩, HO, Ht1, Ht2⟩ Hk
  iapply (Rounds.wp_send_pointsTo 𝒱₀ ER (Rd m) (c : Thread nD τ) none (c' := ((pr i.succ c : Dev nD) : Thread nD τ))
      (src := hSl b.val b.isLt (hdN c) (hdN_lt c) rM) (dst := hSl b.val b.isLt (hdN c) (hdN_lt c) rM)
      (q := gsShare i) (fs := outC m c) (fd := fd)
      (κ₁ := K (c, some (nGs b i))) (κ₂ := K (pr i.succ c, some (nGr b i))) (r₁ := 0) (r₂ := 0) (d₁ := 0) (d₂ := 0)
      (mem_duties_dma m c (nGs b i)) (mem_duties_dma m (pr i.succ c) (nGr b i)) () () NH rfl
      (amount_gs m c b i 0) (amount_gr m (pr i.succ c) b i 0) (owedFrom c (n + 1)) hO (W := W)
      (Entails.of_eq (payload_gs m c b i 0).symm)
      (Entails.of_eq ((landed_gr m c b i fd).trans (payload_dma m (pr i.succ c) (.gr b i) 0).symm))) $$ [Hsrc Hdst HO Ht1 Ht2]
  · isplitr; · iapply (inv_d (Rd m) K c (nGs b i)); iexact HR
    isplitr; · iapply (inv_d (Rd m) K (pr i.succ c) (nGr b i)); iexact HR
    isplitl [Hsrc]; · iexact Hsrc
    isplitl [Hdst]; · iexact Hdst
    isplitl [HO]; · iexact HO
    isplitl [Ht1]; · iexact Ht1
    isplitr; · iapply (reached_d (Rd m) K c (nGs b i)); iexact HR
    isplitl [Ht2]; · iexact Ht2
    iapply (reached_d (Rd m) K (pr i.succ c) (nGr b i)); iexact HR
  iexact Hk

/-! ## The same copy, its row spelt at an offset vector equal to (b, 0, hdN c, 0) and its target at a device equal to the peer -/

/-- `step_agsend` with the source and the destination written as slices of the result buffer at an offset vector
    that equals (b, 0, hdN c, 0), each slice with its own evidence, and the target a device that equals the peer. -/
theorem step_agsend_off (b : Fin 4) (i : Fin 7) (n : ℕ) (hn : n < 44) (hs : step n = (i.succ, some (nGr b i), Ng))
    (off : Fin 4 → ℕ) (hoff : off = ![b.val, 0, hdN c, 0]) (d : Dev nD) (hd : d = pr i.succ c)
    {hinb₁ hinb₂ : ∀ a, off a + S1x32x1x128.size a ≤ S4x32x8x128.size a}
    {h2₁ : ∀ a, (Rect.unit (s := S4x32x8x128) off S1x32x1x128.size hinb₁).stride a = 1}
    {h2₂ : ∀ a, (Rect.unit (s := S4x32x8x128) off S1x32x1x128.size hinb₂).stride a = 1}
    {W : Waits sig Unit}
    {hsc : ((Memref.whole cc0_stg1_0 : Memref sig .tc .vmem S4x32x8x128 .f32).slice (Rect.unit (s := S4x32x8x128) off S1x32x1x128.size hinb₂) h2₂).view.ref.isScScratch = false}
    {hsrc : ((Memref.whole cc0_stg1_0 : Memref sig .tc .vmem S4x32x8x128 .f32).slice (Rect.unit (s := S4x32x8x128) off S1x32x1x128.size hinb₁) h2₁).view.WordExact}
    {hdst : ((Memref.whole cc0_stg1_0 : Memref sig .tc .vmem S4x32x8x128 .f32).slice (Rect.unit (s := S4x32x8x128) off S1x32x1x128.size hinb₂) h2₂).view.WordExact}
    {hsem : DmaTarget.Typed (nD := nD) .vmem (.dma (dS (nGr b i)))
      (.remote (Dev.tc d : Thread nD τ)
        ((Memref.whole cc0_stg1_0 : Memref sig .tc .vmem S4x32x8x128 .f32).slice (Rect.unit (s := S4x32x8x128) off S1x32x1x128.size hinb₂) h2₂)
        (.dma (dS (nGs b i))) hsc)}
    {α : Type} {Q : α → sProp 𝕄} {k : PUnit → Prog (TpuEff nD τ sig (Elt F) Λ₀ .tc) α} :
    iprop(Rec m K ∗ hA m c b (hdN c) (hdN_lt c) (gsShare i) ∗ hE (F := F) (pr i.succ c) b (hdN c) (hdN_lt c)
        ∗ owes (c : Thread nD τ) (owedFrom c n) W ∗ tokD (F := F) c (nGs b i) ∗ tokD (F := F) c (nGr b i))
      ⊢ iprop(((crD (F := F) c (nGs b i) ∗ owes (c : Thread nD τ) (owedFrom c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma
                ((Memref.whole cc0_stg1_0 : Memref sig .tc .vmem S4x32x8x128 .f32).slice (Rect.unit (s := S4x32x8x128) off S1x32x1x128.size hinb₁) h2₁)
                (.remote (Dev.tc d : Thread nD τ)
                  ((Memref.whole cc0_stg1_0 : Memref sig .tc .vmem S4x32x8x128 .f32).slice (Rect.unit (s := S4x32x8x128) off S1x32x1x128.size hinb₂) h2₂)
                  (.dma (dS (nGs b i))) hsc)
                (.dma (dS (nGr b i))) hsrc hdst hsem) k) Q) := by
  subst hoff hd
  exact step_agsend m K c b i n hn hs

/-! ## The device's own row lent to the seven copies at once -/

/-- The whole row is the share that stays with the device and the seven shares the copies read under. -/
theorem hA_shares (b : Fin 4) (h : ℕ) (hh : h < 8) :
    hA m c b h hh fullShare
      ⊣⊢ iprop(hA m c b h hh (Transfers.shareDrop fullShare 7) ∗ bigSep Finset.univ fun i : Fin 7 => hA m c b h hh (gsShare i)) :=
  Transfers.pointsTo_toks fullShare 7

private theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The same with the seven shares written out in the order of the copies. -/
theorem hA_shares_split (b : Fin 4) (h : ℕ) (hh : h < 8) :
    hA m c b h hh fullShare
      ⊢ iprop(hA m c b h hh (Transfers.shareDrop fullShare 7) ∗ hA m c b h hh (gsShare 0) ∗ hA m c b h hh (gsShare 1)
          ∗ hA m c b h hh (gsShare 2) ∗ hA m c b h hh (gsShare 3) ∗ hA m c b h hh (gsShare 4) ∗ hA m c b h hh (gsShare 5)
          ∗ hA m c b h hh (gsShare 6)) :=
  (hA_shares m c b h hh).1.trans (sep_mono_right (Entails.of_eq (bigSep_seven fun i : Fin 7 => hA m c b h hh (gsShare i))))

/-- The share that stayed and the seven shares come back: the whole row again. -/
theorem hA_shares_join (b : Fin 4) (h : ℕ) (hh : h < 8) :
    iprop(hA m c b h hh (Transfers.shareDrop fullShare 7) ∗ hA m c b h hh (gsShare 0) ∗ hA m c b h hh (gsShare 1)
          ∗ hA m c b h hh (gsShare 2) ∗ hA m c b h hh (gsShare 3) ∗ hA m c b h hh (gsShare 4) ∗ hA m c b h hh (gsShare 5)
          ∗ hA m c b h hh (gsShare 6))
      ⊢ hA m c b h hh fullShare :=
  (sep_mono_right (Entails.of_eq (bigSep_seven fun i : Fin 7 => hA m c b h hh (gsShare i)).symm)).trans (hA_shares m c b h hh).2

/-- info: 'Cert.KernelIdeal.Flash.step_agsend' depends on axioms: [propext, Classical.choice, Quot.sound] -/
#guard_msgs in #print axioms step_agsend

/-- info: 'Cert.KernelIdeal.Flash.outC_row' depends on axioms: [propext, Classical.choice, Quot.sound] -/
#guard_msgs in #print axioms outC_row

/-- info: 'Cert.KernelIdeal.Flash.hA_shares_join' depends on axioms: [propext, Classical.choice, Quot.sound] -/
#guard_msgs in #print axioms hA_shares_join

/-- info: 'Cert.KernelIdeal.Flash.step_agsend_off' depends on axioms: [propext, Classical.choice, Quot.sound] -/
#guard_msgs in #print axioms step_agsend_off

end Cert.KernelIdeal.Flash

end
-- ==== Proof.BodyGlue.lean ====
/-
  The two ends of a device's body.  At entry, what the launch hands the device — its ghost state, its credit, its
  dues, the staged query array, the result buffer, the six scratch buffers, its blocks of the keys and values — is
  taken apart into the resources the body's steps name one by one: positions, tokens and credits cell by cell, each
  buffer cut along the copies' views (the scratch buffers batch by batch, the result buffer row by row — the
  device's own head's four rows and the four rows of each of the seven other heads —, the keys' and values' blocks
  into the four rows the local copies read and a rest that is kept aside).  At the return the same pieces, now at
  the contents the protocol leaves in them, are put back together into the buffers whole.
-/
import proofs.«900786_g7700000000000787_dist_flashdec_v7x_xyz2x2x4_x_b4_sq32_skv4096_h8_d128_f32_1_alg».proof.Proof.GlueGhost
import proofs.«900786_g7700000000000787_dist_flashdec_v7x_xyz2x2x4_x_b4_sq32_skv4096_h8_d128_f32_1_alg».proof.Proof.Regions
import proofs.«900786_g7700000000000787_dist_flashdec_v7x_xyz2x2x4_x_b4_sq32_skv4096_h8_d128_f32_1_alg».proof.Proof.Regions2
import proofs.«900786_g7700000000000787_dist_flashdec_v7x_xyz2x2x4_x_b4_sq32_skv4096_h8_d128_f32_1_alg».proof.Proof.RegionsRows
import proofs.«900786_g7700000000000787_dist_flashdec_v7x_xyz2x2x4_x_b4_sq32_skv4096_h8_d128_f32_1_alg».proof.Proof.StepsGather

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The body's resources at entry and at the return, in the order its steps name them -/

/-- At entry, with the recorded waits W. -/
def initChain (W : Waits sig Unit) : sProp 𝕄 :=
  iprop(Rec m K
    ∗ Lev (F := F)
    ∗ owes (c : Thread nD τ) (owedFrom c 0) W
    ∗ posB c
    ∗ posD c (0 : Fin 80)
    ∗ posD c (1 : Fin 80)
    ∗ posD c (2 : Fin 80)
    ∗ posD c (3 : Fin 80)
    ∗ posD c (4 : Fin 80)
    ∗ posD c (5 : Fin 80)
    ∗ posD c (6 : Fin 80)
    ∗ posD c (7 : Fin 80)
    ∗ posD c (8 : Fin 80)
    ∗ posD c (9 : Fin 80)
    ∗ posD c (10 : Fin 80)
    ∗ posD c (11 : Fin 80)
    ∗ posD c (12 : Fin 80)
    ∗ posD c (13 : Fin 80)
    ∗ posD c (14 : Fin 80)
    ∗ posD c (15 : Fin 80)
    ∗ posD c (16 : Fin 80)
    ∗ posD c (17 : Fin 80)
    ∗ posD c (18 : Fin 80)
    ∗ posD c (19 : Fin 80)
    ∗ posD c (20 : Fin 80)
    ∗ posD c (21 : Fin 80)
    ∗ posD c (22 : Fin 80)
    ∗ posD c (23 : Fin 80)
    ∗ posD c (24 : Fin 80)
    ∗ posD c (25 : Fin 80)
    ∗ posD c (26 : Fin 80)
    ∗ posD c (27 : Fin 80)
    ∗ posD c (28 : Fin 80)
    ∗ posD c (29 : Fin 80)
    ∗ posD c (30 : Fin 80)
    ∗ posD c (31 : Fin 80)
    ∗ posD c (32 : Fin 80)
    ∗ posD c (33 : Fin 80)
    ∗ posD c (34 : Fin 80)
    ∗ posD c (35 : Fin 80)
    ∗ posD c (36 : Fin 80)
    ∗ posD c (37 : Fin 80)
    ∗ posD c (38 : Fin 80)
    ∗ posD c (39 : Fin 80)
    ∗ posD c (40 : Fin 80)
    ∗ posD c (41 : Fin 80)
    ∗ posD c (42 : Fin 80)
    ∗ posD c (43 : Fin 80)
    ∗ posD c (44 : Fin 80)
    ∗ posD c (45 : Fin 80)
    ∗ posD c (46 : Fin 80)
    ∗ posD c (47 : Fin 80)
    ∗ posD c (48 : Fin 80)
    ∗ posD c (49 : Fin 80)
    ∗ posD c (50 : Fin 80)
    ∗ posD c (51 : Fin 80)
    ∗ posD c (52 : Fin 80)
    ∗ posD c (53 : Fin 80)
    ∗ posD c (54 : Fin 80)
    ∗ posD c (55 : Fin 80)
    ∗ posD c (56 : Fin 80)
    ∗ posD c (57 : Fin 80)
    ∗ posD c (58 : Fin 80)
    ∗ posD c (59 : Fin 80)
    ∗ posD c (60 : Fin 80)
    ∗ posD c (61 : Fin 80)
    ∗ posD c (62 : Fin 80)
    ∗ posD c (63 : Fin 80)
    ∗ posD c (64 : Fin 80)
    ∗ posD c (65 : Fin 80)
    ∗ posD c (66 : Fin 80)
    ∗ posD c (67 : Fin 80)
    ∗ posD c (68 : Fin 80)
    ∗ posD c (69 : Fin 80)
    ∗ posD c (70 : Fin 80)
    ∗ posD c (71 : Fin 80)
    ∗ posD c (72 : Fin 80)
    ∗ posD c (73 : Fin 80)
    ∗ posD c (74 : Fin 80)
    ∗ posD c (75 : Fin 80)
    ∗ posD c (76 : Fin 80)
    ∗ posD c (77 : Fin 80)
    ∗ posD c (78 : Fin 80)
    ∗ posD c (79 : Fin 80)
    ∗ tokB c (0 : Fin 8)
    ∗ tokB c (1 : Fin 8)
    ∗ tokB c (2 : Fin 8)
    ∗ tokB c (3 : Fin 8)
    ∗ tokB c (4 : Fin 8)
    ∗ tokB c (5 : Fin 8)
    ∗ tokB c (6 : Fin 8)
    ∗ tokB c (7 : Fin 8)
    ∗ tokD c (0 : Fin 80)
    ∗ tokD c (1 : Fin 80)
    ∗ tokD c (2 : Fin 80)
    ∗ tokD c (3 : Fin 80)
    ∗ tokD c (4 : Fin 80)
    ∗ tokD c (5 : Fin 80)
    ∗ tokD c (6 : Fin 80)
    ∗ tokD c (7 : Fin 80)
    ∗ tokD c (8 : Fin 80)
    ∗ tokD c (9 : Fin 80)
    ∗ tokD c (10 : Fin 80)
    ∗ tokD c (11 : Fin 80)
    ∗ tokD c (12 : Fin 80)
    ∗ tokD c (13 : Fin 80)
    ∗ tokD c (14 : Fin 80)
    ∗ tokD c (15 : Fin 80)
    ∗ tokD c (16 : Fin 80)
    ∗ tokD c (17 : Fin 80)
    ∗ tokD c (18 : Fin 80)
    ∗ tokD c (19 : Fin 80)
    ∗ tokD c (20 : Fin 80)
    ∗ tokD c (21 : Fin 80)
    ∗ tokD c (22 : Fin 80)
    ∗ tokD c (23 : Fin 80)
    ∗ tokD c (24 : Fin 80)
    ∗ tokD c (25 : Fin 80)
    ∗ tokD c (26 : Fin 80)
    ∗ tokD c (27 : Fin 80)
    ∗ tokD c (28 : Fin 80)
    ∗ tokD c (29 : Fin 80)
    ∗ tokD c (30 : Fin 80)
    ∗ tokD c (31 : Fin 80)
    ∗ tokD c (32 : Fin 80)
    ∗ tokD c (33 : Fin 80)
    ∗ tokD c (34 : Fin 80)
    ∗ tokD c (35 : Fin 80)
    ∗ tokD c (36 : Fin 80)
    ∗ tokD c (37 : Fin 80)
    ∗ tokD c (38 : Fin 80)
    ∗ tokD c (39 : Fin 80)
    ∗ tokD c (40 : Fin 80)
    ∗ tokD c (41 : Fin 80)
    ∗ tokD c (42 : Fin 80)
    ∗ tokD c (43 : Fin 80)
    ∗ tokD c (44 : Fin 80)
    ∗ tokD c (45 : Fin 80)
    ∗ tokD c (46 : Fin 80)
    ∗ tokD c (47 : Fin 80)
    ∗ tokD c (48 : Fin 80)
    ∗ tokD c (49 : Fin 80)
    ∗ tokD c (50 : Fin 80)
    ∗ tokD c (51 : Fin 80)
    ∗ tokD c (52 : Fin 80)
    ∗ tokD c (53 : Fin 80)
    ∗ tokD c (54 : Fin 80)
    ∗ tokD c (55 : Fin 80)
    ∗ tokD c (56 : Fin 80)
    ∗ tokD c (57 : Fin 80)
    ∗ tokD c (58 : Fin 80)
    ∗ tokD c (59 : Fin 80)
    ∗ tokD c (60 : Fin 80)
    ∗ tokD c (61 : Fin 80)
    ∗ tokD c (62 : Fin 80)
    ∗ tokD c (63 : Fin 80)
    ∗ tokD c (64 : Fin 80)
    ∗ tokD c (65 : Fin 80)
    ∗ tokD c (66 : Fin 80)
    ∗ tokD c (67 : Fin 80)
    ∗ tokD c (68 : Fin 80)
    ∗ tokD c (69 : Fin 80)
    ∗ tokD c (70 : Fin 80)
    ∗ tokD c (71 : Fin 80)
    ∗ tokD c (72 : Fin 80)
    ∗ tokD c (73 : Fin 80)
    ∗ tokD c (74 : Fin 80)
    ∗ tokD c (75 : Fin 80)
    ∗ tokD c (76 : Fin 80)
    ∗ tokD c (77 : Fin 80)
    ∗ tokD c (78 : Fin 80)
    ∗ tokD c (79 : Fin 80)
    ∗ crB c
    ∗ crD c (16 : Fin 80)
    ∗ crD c (17 : Fin 80)
    ∗ crD c (18 : Fin 80)
    ∗ crD c (19 : Fin 80)
    ∗ crD c (20 : Fin 80)
    ∗ crD c (21 : Fin 80)
    ∗ crD c (22 : Fin 80)
    ∗ crD c (23 : Fin 80)
    ∗ crD c (52 : Fin 80)
    ∗ crD c (53 : Fin 80)
    ∗ crD c (54 : Fin 80)
    ∗ crD c (55 : Fin 80)
    ∗ crD c (56 : Fin 80)
    ∗ crD c (57 : Fin 80)
    ∗ crD c (58 : Fin 80)
    ∗ crD c (59 : Fin 80)
    ∗ crD c (60 : Fin 80)
    ∗ crD c (61 : Fin 80)
    ∗ crD c (62 : Fin 80)
    ∗ crD c (63 : Fin 80)
    ∗ crD c (64 : Fin 80)
    ∗ crD c (65 : Fin 80)
    ∗ crD c (66 : Fin 80)
    ∗ crD c (67 : Fin 80)
    ∗ crD c (68 : Fin 80)
    ∗ crD c (69 : Fin 80)
    ∗ crD c (70 : Fin 80)
    ∗ crD c (71 : Fin 80)
    ∗ crD c (72 : Fin 80)
    ∗ crD c (73 : Fin 80)
    ∗ crD c (74 : Fin 80)
    ∗ crD c (75 : Fin 80)
    ∗ crD c (76 : Fin 80)
    ∗ crD c (77 : Fin 80)
    ∗ crD c (78 : Fin 80)
    ∗ crD c (79 : Fin 80)
    ∗ Qstg m c
    ∗ kSrcA m c (0 : Fin 4)
    ∗ kSrcA m c (1 : Fin 4)
    ∗ kSrcA m c (2 : Fin 4)
    ∗ kSrcA m c (3 : Fin 4)
    ∗ vSrcA m c (0 : Fin 4)
    ∗ vSrcA m c (1 : Fin 4)
    ∗ vSrcA m c (2 : Fin 4)
    ∗ vSrcA m c (3 : Fin 4)
    ∗ kDstE (F := F) c (0 : Fin 4)
    ∗ kDstE (F := F) c (1 : Fin 4)
    ∗ kDstE (F := F) c (2 : Fin 4)
    ∗ kDstE (F := F) c (3 : Fin 4)
    ∗ vDstE (F := F) c (0 : Fin 4)
    ∗ vDstE (F := F) c (1 : Fin 4)
    ∗ vDstE (F := F) c (2 : Fin 4)
    ∗ vDstE (F := F) c (3 : Fin 4)
    ∗ oE (F := F) c (0 : Fin 4)
    ∗ oE (F := F) c (1 : Fin 4)
    ∗ oE (F := F) c (2 : Fin 4)
    ∗ oE (F := F) c (3 : Fin 4)
    ∗ lE (F := F) c (0 : Fin 4)
    ∗ lE (F := F) c (1 : Fin 4)
    ∗ lE (F := F) c (2 : Fin 4)
    ∗ lE (F := F) c (3 : Fin 4)
    ∗ wholeE (F := F) c cc0_scratch4
    ∗ wholeE (F := F) c cc0_scratch5
    ∗ hE (F := F) c (0 : Fin 4) (hdN c) (hdN_lt c)
    ∗ hE (F := F) c (1 : Fin 4) (hdN c) (hdN_lt c)
    ∗ hE (F := F) c (2 : Fin 4) (hdN c) (hdN_lt c)
    ∗ hE (F := F) c (3 : Fin 4) (hdN c) (hdN_lt c)
    ∗ hE (F := F) c (0 : Fin 4) (hdN (pr (0 : Fin 7).succ c)) (hdN_lt _)
    ∗ hE (F := F) c (1 : Fin 4) (hdN (pr (0 : Fin 7).succ c)) (hdN_lt _)
    ∗ hE (F := F) c (2 : Fin 4) (hdN (pr (0 : Fin 7).succ c)) (hdN_lt _)
    ∗ hE (F := F) c (3 : Fin 4) (hdN (pr (0 : Fin 7).succ c)) (hdN_lt _)
    ∗ hE (F := F) c (0 : Fin 4) (hdN (pr (1 : Fin 7).succ c)) (hdN_lt _)
    ∗ hE (F := F) c (1 : Fin 4) (hdN (pr (1 : Fin 7).succ c)) (hdN_lt _)
    ∗ hE (F := F) c (2 : Fin 4) (hdN (pr (1 : Fin 7).succ c)) (hdN_lt _)
    ∗ hE (F := F) c (3 : Fin 4) (hdN (pr (1 : Fin 7).succ c)) (hdN_lt _)
    ∗ hE (F := F) c (0 : Fin 4) (hdN (pr (2 : Fin 7).succ c)) (hdN_lt _)
    ∗ hE (F := F) c (1 : Fin 4) (hdN (pr (2 : Fin 7).succ c)) (hdN_lt _)
    ∗ hE (F := F) c (2 : Fin 4) (hdN (pr (2 : Fin 7).succ c)) (hdN_lt _)
    ∗ hE (F := F) c (3 : Fin 4) (hdN (pr (2 : Fin 7).succ c)) (hdN_lt _)
    ∗ hE (F := F) c (0 : Fin 4) (hdN (pr (3 : Fin 7).succ c)) (hdN_lt _)
    ∗ hE (F := F) c (1 : Fin 4) (hdN (pr (3 : Fin 7).succ c)) (hdN_lt _)
    ∗ hE (F := F) c (2 : Fin 4) (hdN (pr (3 : Fin 7).succ c)) (hdN_lt _)
    ∗ hE (F := F) c (3 : Fin 4) (hdN (pr (3 : Fin 7).succ c)) (hdN_lt _)
    ∗ hE (F := F) c (0 : Fin 4) (hdN (pr (4 : Fin 7).succ c)) (hdN_lt _)
    ∗ hE (F := F) c (1 : Fin 4) (hdN (pr (4 : Fin 7).succ c)) (hdN_lt _)
    ∗ hE (F := F) c (2 : Fin 4) (hdN (pr (4 : Fin 7).succ c)) (hdN_lt _)
    ∗ hE (F := F) c (3 : Fin 4) (hdN (pr (4 : Fin 7).succ c)) (hdN_lt _)
    ∗ hE (F := F) c (0 : Fin 4) (hdN (pr (5 : Fin 7).succ c)) (hdN_lt _)
    ∗ hE (F := F) c (1 : Fin 4) (hdN (pr (5 : Fin 7).succ c)) (hdN_lt _)
    ∗ hE (F := F) c (2 : Fin 4) (hdN (pr (5 : Fin 7).succ c)) (hdN_lt _)
    ∗ hE (F := F) c (3 : Fin 4) (hdN (pr (5 : Fin 7).succ c)) (hdN_lt _)
    ∗ hE (F := F) c (0 : Fin 4) (hdN (pr (6 : Fin 7).succ c)) (hdN_lt _)
    ∗ hE (F := F) c (1 : Fin 4) (hdN (pr (6 : Fin 7).succ c)) (hdN_lt _)
    ∗ hE (F := F) c (2 : Fin 4) (hdN (pr (6 : Fin 7).succ c)) (hdN_lt _)
    ∗ hE (F := F) c (3 : Fin 4) (hdN (pr (6 : Fin 7).succ c)) (hdN_lt _))

/-- At the return. -/
def finalChain : sProp 𝕄 :=
  iprop((∃ W', owes (c : Thread nD τ) (owedFrom c 44) W')
    ∗ svD c (0 : Fin 80)
    ∗ svD c (1 : Fin 80)
    ∗ svD c (2 : Fin 80)
    ∗ svD c (3 : Fin 80)
    ∗ svD c (4 : Fin 80)
    ∗ svD c (5 : Fin 80)
    ∗ svD c (6 : Fin 80)
    ∗ svD c (7 : Fin 80)
    ∗ svD c (8 : Fin 80)
    ∗ svD c (9 : Fin 80)
    ∗ svD c (10 : Fin 80)
    ∗ svD c (11 : Fin 80)
    ∗ svD c (12 : Fin 80)
    ∗ svD c (13 : Fin 80)
    ∗ svD c (14 : Fin 80)
    ∗ svD c (15 : Fin 80)
    ∗ svD c (16 : Fin 80)
    ∗ svD c (17 : Fin 80)
    ∗ svD c (18 : Fin 80)
    ∗ svD c (19 : Fin 80)
    ∗ svD c (20 : Fin 80)
    ∗ svD c (21 : Fin 80)
    ∗ svD c (22 : Fin 80)
    ∗ svD c (23 : Fin 80)
    ∗ svD c (24 : Fin 80)
    ∗ svD c (25 : Fin 80)
    ∗ svD c (26 : Fin 80)
    ∗ svD c (27 : Fin 80)
    ∗ svD c (28 : Fin 80)
    ∗ svD c (29 : Fin 80)
    ∗ svD c (30 : Fin 80)
    ∗ svD c (31 : Fin 80)
    ∗ svD c (32 : Fin 80)
    ∗ svD c (33 : Fin 80)
    ∗ svD c (34 : Fin 80)
    ∗ svD c (35 : Fin 80)
    ∗ svD c (36 : Fin 80)
    ∗ svD c (37 : Fin 80)
    ∗ svD c (38 : Fin 80)
    ∗ svD c (39 : Fin 80)
    ∗ svD c (40 : Fin 80)
    ∗ svD c (41 : Fin 80)
    ∗ svD c (42 : Fin 80)
    ∗ svD c (43 : Fin 80)
    ∗ svD c (44 : Fin 80)
    ∗ svD c (45 : Fin 80)
    ∗ svD c (46 : Fin 80)
    ∗ svD c (47 : Fin 80)
    ∗ svD c (48 : Fin 80)
    ∗ svD c (49 : Fin 80)
    ∗ svD c (50 : Fin 80)
    ∗ svD c (51 : Fin 80)
    ∗ svD c (52 : Fin 80)
    ∗ svD c (53 : Fin 80)
    ∗ svD c (54 : Fin 80)
    ∗ svD c (55 : Fin 80)
    ∗ svD c (56 : Fin 80)
    ∗ svD c (57 : Fin 80)
    ∗ svD c (58 : Fin 80)
    ∗ svD c (59 : Fin 80)
    ∗ svD c (60 : Fin 80)
    ∗ svD c (61 : Fin 80)
    ∗ svD c (62 : Fin 80)
    ∗ svD c (63 : Fin 80)
    ∗ svD c (64 : Fin 80)
    ∗ svD c (65 : Fin 80)
    ∗ svD c (66 : Fin 80)
    ∗ svD c (67 : Fin 80)
    ∗ svD c (68 : Fin 80)
    ∗ svD c (69 : Fin 80)
    ∗ svD c (70 : Fin 80)
    ∗ svD c (71 : Fin 80)
    ∗ svD c (72 : Fin 80)
    ∗ svD c (73 : Fin 80)
    ∗ svD c (74 : Fin 80)
    ∗ svD c (75 : Fin 80)
    ∗ svD c (76 : Fin 80)
    ∗ svD c (77 : Fin 80)
    ∗ svD c (78 : Fin 80)
    ∗ svD c (79 : Fin 80)
    ∗ Qstg m c
    ∗ kSrcA m c (0 : Fin 4)
    ∗ kSrcA m c (1 : Fin 4)
    ∗ kSrcA m c (2 : Fin 4)
    ∗ kSrcA m c (3 : Fin 4)
    ∗ vSrcA m c (0 : Fin 4)
    ∗ vSrcA m c (1 : Fin 4)
    ∗ vSrcA m c (2 : Fin 4)
    ∗ vSrcA m c (3 : Fin 4)
    ∗ kDstA m c (0 : Fin 4)
    ∗ kDstA m c (1 : Fin 4)
    ∗ kDstA m c (2 : Fin 4)
    ∗ kDstA m c (3 : Fin 4)
    ∗ vDstA m c (0 : Fin 4)
    ∗ vDstA m c (1 : Fin 4)
    ∗ vDstA m c (2 : Fin 4)
    ∗ vDstA m c (3 : Fin 4)
    ∗ oA m c (0 : Fin 4)
    ∗ oA m c (1 : Fin 4)
    ∗ oA m c (2 : Fin 4)
    ∗ oA m c (3 : Fin 4)
    ∗ lA m c (0 : Fin 4)
    ∗ lA m c (1 : Fin 4)
    ∗ lA m c (2 : Fin 4)
    ∗ lA m c (3 : Fin 4)
    ∗ poA m c (0 : Fin 4)
    ∗ poA m c (1 : Fin 4)
    ∗ poA m c (2 : Fin 4)
    ∗ poA m c (3 : Fin 4)
    ∗ plA m c (0 : Fin 4)
    ∗ plA m c (1 : Fin 4)
    ∗ plA m c (2 : Fin 4)
    ∗ plA m c (3 : Fin 4)
    ∗ hA m c (0 : Fin 4) (hdN c) (hdN_lt c) (Transfers.shareDrop fullShare 7)
    ∗ hA m c (1 : Fin 4) (hdN c) (hdN_lt c) (Transfers.shareDrop fullShare 7)
    ∗ hA m c (2 : Fin 4) (hdN c) (hdN_lt c) (Transfers.shareDrop fullShare 7)
    ∗ hA m c (3 : Fin 4) (hdN c) (hdN_lt c) (Transfers.shareDrop fullShare 7)
    ∗ hA m c (0 : Fin 4) (hdN c) (hdN_lt c) (gsShare (0 : Fin 7))
    ∗ hA m c (0 : Fin 4) (hdN c) (hdN_lt c) (gsShare (1 : Fin 7))
    ∗ hA m c (0 : Fin 4) (hdN c) (hdN_lt c) (gsShare (2 : Fin 7))
    ∗ hA m c (0 : Fin 4) (hdN c) (hdN_lt c) (gsShare (3 : Fin 7))
    ∗ hA m c (0 : Fin 4) (hdN c) (hdN_lt c) (gsShare (4 : Fin 7))
    ∗ hA m c (0 : Fin 4) (hdN c) (hdN_lt c) (gsShare (5 : Fin 7))
    ∗ hA m c (0 : Fin 4) (hdN c) (hdN_lt c) (gsShare (6 : Fin 7))
    ∗ hA m c (1 : Fin 4) (hdN c) (hdN_lt c) (gsShare (0 : Fin 7))
    ∗ hA m c (1 : Fin 4) (hdN c) (hdN_lt c) (gsShare (1 : Fin 7))
    ∗ hA m c (1 : Fin 4) (hdN c) (hdN_lt c) (gsShare (2 : Fin 7))
    ∗ hA m c (1 : Fin 4) (hdN c) (hdN_lt c) (gsShare (3 : Fin 7))
    ∗ hA m c (1 : Fin 4) (hdN c) (hdN_lt c) (gsShare (4 : Fin 7))
    ∗ hA m c (1 : Fin 4) (hdN c) (hdN_lt c) (gsShare (5 : Fin 7))
    ∗ hA m c (1 : Fin 4) (hdN c) (hdN_lt c) (gsShare (6 : Fin 7))
    ∗ hA m c (2 : Fin 4) (hdN c) (hdN_lt c) (gsShare (0 : Fin 7))
    ∗ hA m c (2 : Fin 4) (hdN c) (hdN_lt c) (gsShare (1 : Fin 7))
    ∗ hA m c (2 : Fin 4) (hdN c) (hdN_lt c) (gsShare (2 : Fin 7))
    ∗ hA m c (2 : Fin 4) (hdN c) (hdN_lt c) (gsShare (3 : Fin 7))
    ∗ hA m c (2 : Fin 4) (hdN c) (hdN_lt c) (gsShare (4 : Fin 7))
    ∗ hA m c (2 : Fin 4) (hdN c) (hdN_lt c) (gsShare (5 : Fin 7))
    ∗ hA m c (2 : Fin 4) (hdN c) (hdN_lt c) (gsShare (6 : Fin 7))
    ∗ hA m c (3 : Fin 4) (hdN c) (hdN_lt c) (gsShare (0 : Fin 7))
    ∗ hA m c (3 : Fin 4) (hdN c) (hdN_lt c) (gsShare (1 : Fin 7))
    ∗ hA m c (3 : Fin 4) (hdN c) (hdN_lt c) (gsShare (2 : Fin 7))
    ∗ hA m c (3 : Fin 4) (hdN c) (hdN_lt c) (gsShare (3 : Fin 7))
    ∗ hA m c (3 : Fin 4) (hdN c) (hdN_lt c) (gsShare (4 : Fin 7))
    ∗ hA m c (3 : Fin 4) (hdN c) (hdN_lt c) (gsShare (5 : Fin 7))
    ∗ hA m c (3 : Fin 4) (hdN c) (hdN_lt c) (gsShare (6 : Fin 7))
    ∗ hA m c (0 : Fin 4) (hdN (pr (0 : Fin 7).succ c)) (hdN_lt _) fullShare
    ∗ hA m c (0 : Fin 4) (hdN (pr (1 : Fin 7).succ c)) (hdN_lt _) fullShare
    ∗ hA m c (0 : Fin 4) (hdN (pr (2 : Fin 7).succ c)) (hdN_lt _) fullShare
    ∗ hA m c (0 : Fin 4) (hdN (pr (3 : Fin 7).succ c)) (hdN_lt _) fullShare
    ∗ hA m c (0 : Fin 4) (hdN (pr (4 : Fin 7).succ c)) (hdN_lt _) fullShare
    ∗ hA m c (0 : Fin 4) (hdN (pr (5 : Fin 7).succ c)) (hdN_lt _) fullShare
    ∗ hA m c (0 : Fin 4) (hdN (pr (6 : Fin 7).succ c)) (hdN_lt _) fullShare
    ∗ hA m c (1 : Fin 4) (hdN (pr (0 : Fin 7).succ c)) (hdN_lt _) fullShare
    ∗ hA m c (1 : Fin 4) (hdN (pr (1 : Fin 7).succ c)) (hdN_lt _) fullShare
    ∗ hA m c (1 : Fin 4) (hdN (pr (2 : Fin 7).succ c)) (hdN_lt _) fullShare
    ∗ hA m c (1 : Fin 4) (hdN (pr (3 : Fin 7).succ c)) (hdN_lt _) fullShare
    ∗ hA m c (1 : Fin 4) (hdN (pr (4 : Fin 7).succ c)) (hdN_lt _) fullShare
    ∗ hA m c (1 : Fin 4) (hdN (pr (5 : Fin 7).succ c)) (hdN_lt _) fullShare
    ∗ hA m c (1 : Fin 4) (hdN (pr (6 : Fin 7).succ c)) (hdN_lt _) fullShare
    ∗ hA m c (2 : Fin 4) (hdN (pr (0 : Fin 7).succ c)) (hdN_lt _) fullShare
    ∗ hA m c (2 : Fin 4) (hdN (pr (1 : Fin 7).succ c)) (hdN_lt _) fullShare
    ∗ hA m c (2 : Fin 4) (hdN (pr (2 : Fin 7).succ c)) (hdN_lt _) fullShare
    ∗ hA m c (2 : Fin 4) (hdN (pr (3 : Fin 7).succ c)) (hdN_lt _) fullShare
    ∗ hA m c (2 : Fin 4) (hdN (pr (4 : Fin 7).succ c)) (hdN_lt _) fullShare
    ∗ hA m c (2 : Fin 4) (hdN (pr (5 : Fin 7).succ c)) (hdN_lt _) fullShare
    ∗ hA m c (2 : Fin 4) (hdN (pr (6 : Fin 7).succ c)) (hdN_lt _) fullShare
    ∗ hA m c (3 : Fin 4) (hdN (pr (0 : Fin 7).succ c)) (hdN_lt _) fullShare
    ∗ hA m c (3 : Fin 4) (hdN (pr (1 : Fin 7).succ c)) (hdN_lt _) fullShare
    ∗ hA m c (3 : Fin 4) (hdN (pr (2 : Fin 7).succ c)) (hdN_lt _) fullShare
    ∗ hA m c (3 : Fin 4) (hdN (pr (3 : Fin 7).succ c)) (hdN_lt _) fullShare
    ∗ hA m c (3 : Fin 4) (hdN (pr (4 : Fin 7).succ c)) (hdN_lt _) fullShare
    ∗ hA m c (3 : Fin 4) (hdN (pr (5 : Fin 7).succ c)) (hdN_lt _) fullShare
    ∗ hA m c (3 : Fin 4) (hdN (pr (6 : Fin 7).succ c)) (hdN_lt _) fullShare)

/-- The rows of the device's block of the keys that no copy reads (the other seven heads'), as launched; -/
def kRest : sProp 𝕄 :=
  (Memref.whole main_arg1).view.loc (c : Thread nD τ) ↦[arg1_rest c]{fullShare} m ((c : Thread nD τ).loc main_arg1)
/-- and of its block of the values. -/
def vRest : sProp 𝕄 :=
  (Memref.whole main_arg2).view.loc (c : Thread nD τ) ↦[arg2_rest c]{fullShare} m ((c : Thread nD τ).loc main_arg2)

/-! ## The buffers cut, and put back -/

theorem bg_scr0_in (f : Buf (Elt F) (((c : Dev nD) : Thread nD τ).loc cc0_scratch0)) :
    ((((c : Thread nD τ).loc cc0_scratch0) ↦{fullShare} f) : sProp 𝕄)
      ⊢ iprop(kDstE (F := F) c 0 ∗ kDstE (F := F) c 1 ∗ kDstE (F := F) c 2 ∗ kDstE (F := F) c 3) := by
  refine (Entails.of_eq ((scratch0_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr1_in (f : Buf (Elt F) (((c : Dev nD) : Thread nD τ).loc cc0_scratch1)) :
    ((((c : Thread nD τ).loc cc0_scratch1) ↦{fullShare} f) : sProp 𝕄)
      ⊢ iprop(vDstE (F := F) c 0 ∗ vDstE (F := F) c 1 ∗ vDstE (F := F) c 2 ∗ vDstE (F := F) c 3) := by
  refine (Entails.of_eq ((scratch1_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr2_in (f : Buf (Elt F) (((c : Dev nD) : Thread nD τ).loc cc0_scratch2)) :
    ((((c : Thread nD τ).loc cc0_scratch2) ↦{fullShare} f) : sProp 𝕄)
      ⊢ iprop(oE (F := F) c 0 ∗ oE (F := F) c 1 ∗ oE (F := F) c 2 ∗ oE (F := F) c 3) := by
  refine (Entails.of_eq ((scratch2_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr3_in (f : Buf (Elt F) (((c : Dev nD) : Thread nD τ).loc cc0_scratch3)) :
    ((((c : Thread nD τ).loc cc0_scratch3) ↦{fullShare} f) : sProp 𝕄)
      ⊢ iprop(lE (F := F) c 0 ∗ lE (F := F) c 1 ∗ lE (F := F) c 2 ∗ lE (F := F) c 3) := by
  refine (Entails.of_eq ((scratch3_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr0_out :
    iprop(kDstA m c 0 ∗ kDstA m c 1 ∗ kDstA m c 2 ∗ kDstA m c 3)
      ⊢ (iprop(∃ f : Buf (Elt F) (((c : Dev nD) : Thread nD τ).loc cc0_scratch0), (((c : Thread nD τ).loc cc0_scratch0) ↦{fullShare} f)) : sProp 𝕄) := by
  refine (Entails.of_eq ((scratch0_batches c (kC m c)).trans (bigSep_fin4 _)).symm).trans ?_
  iintro H; iexists (kC m c); iexact H

theorem bg_scr1_out :
    iprop(vDstA m c 0 ∗ vDstA m c 1 ∗ vDstA m c 2 ∗ vDstA m c 3)
      ⊢ (iprop(∃ f : Buf (Elt F) (((c : Dev nD) : Thread nD τ).loc cc0_scratch1), (((c : Thread nD τ).loc cc0_scratch1) ↦{fullShare} f)) : sProp 𝕄) := by
  refine (Entails.of_eq ((scratch1_batches c (vC m c)).trans (bigSep_fin4 _)).symm).trans ?_
  iintro H; iexists (vC m c); iexact H

theorem bg_scr2_out :
    iprop(oA m c 0 ∗ oA m c 1 ∗ oA m c 2 ∗ oA m c 3)
      ⊢ (iprop(∃ f : Buf (Elt F) (((c : Dev nD) : Thread nD τ).loc cc0_scratch2), (((c : Thread nD τ).loc cc0_scratch2) ↦{fullShare} f)) : sProp 𝕄) := by
  refine (Entails.of_eq ((scratch2_batches c (oC m c)).trans (bigSep_fin4 _)).symm).trans ?_
  iintro H; iexists (oC m c); iexact H

theorem bg_scr3_out :
    iprop(lA m c 0 ∗ lA m c 1 ∗ lA m c 2 ∗ lA m c 3)
      ⊢ (iprop(∃ f : Buf (Elt F) (((c : Dev nD) : Thread nD τ).loc cc0_scratch3), (((c : Thread nD τ).loc cc0_scratch3) ↦{fullShare} f)) : sProp 𝕄) := by
  refine (Entails.of_eq ((scratch3_batches c (lC m c)).trans (bigSep_fin4 _)).symm).trans ?_
  iintro H; iexists (lC m c); iexact H

theorem bg_scr4_out :
    iprop(poA m c 0 ∗ poA m c 1 ∗ poA m c 2 ∗ poA m c 3)
      ⊢ (iprop(∃ f : Buf (Elt F) (((c : Dev nD) : Thread nD τ).loc cc0_scratch4), (((c : Thread nD τ).loc cc0_scratch4) ↦{fullShare} f)) : sProp 𝕄) := by
  refine (Entails.of_eq ((scratch4_batches c (oC m (pr 0 c))).trans (bigSep_fin4 _)).symm).trans ?_
  iintro H; iexists (oC m (pr 0 c)); iexact H

theorem bg_scr5_out :
    iprop(plA m c 0 ∗ plA m c 1 ∗ plA m c 2 ∗ plA m c 3)
      ⊢ (iprop(∃ f : Buf (Elt F) (((c : Dev nD) : Thread nD τ).loc cc0_scratch5), (((c : Thread nD τ).loc cc0_scratch5) ↦{fullShare} f)) : sProp 𝕄) := by
  refine (Entails.of_eq ((scratch5_batches c (lC m (pr 0 c))).trans (bigSep_fin4 _)).symm).trans ?_
  iintro H; iexists (lC m (pr 0 c)); iexact H

/-- The keys' block: the four rows of the device's head, and the rest. -/
theorem bg_aK_eq : ((((c : Thread nD τ).loc main_arg1) ↦{fullShare} m ((c : Thread nD τ).loc main_arg1)) : sProp 𝕄)
    = iprop((kSrcA m c 0 ∗ kSrcA m c 1 ∗ kSrcA m c 2 ∗ kSrcA m c 3) ∗ kRest m c) := by
  unfold kRest
  rw [← bigSep_fin4 (fun b : Fin 4 => kSrcA m c b)]
  exact arg1_batches_rest c (m ((c : Thread nD τ).loc main_arg1))
theorem bg_aV_eq : ((((c : Thread nD τ).loc main_arg2) ↦{fullShare} m ((c : Thread nD τ).loc main_arg2)) : sProp 𝕄)
    = iprop((vSrcA m c 0 ∗ vSrcA m c 1 ∗ vSrcA m c 2 ∗ vSrcA m c 3) ∗ vRest m c) := by
  unfold vRest
  rw [← bigSep_fin4 (fun b : Fin 4 => vSrcA m c b)]
  exact arg2_batches_rest c (m ((c : Thread nD τ).loc main_arg2))

/-- The staged query array is its buffer whole. -/
theorem Qstg_eq : (Qstg m c : sProp 𝕄) = (((c : Thread nD τ).loc cc0_stg0_0) ↦{fullShare} Qst m c) := by
  show ((qM : Memref sig .tc .vmem S4x32x8x128 .f32).view.loc (c : Thread nD τ) ↦[(qM : Memref sig .tc .vmem S4x32x8x128 .f32).view.set]{fullShare} Qst m c) = _
  simp only [Memref.view_whole, View.set_whole]

/-- The result buffer at some contents, row by row: the device's own head's four, then each other head's four. -/
theorem bg_rows_in (f : Buf (Elt F) (((c : Dev nD) : Thread nD τ).loc cc0_stg1_0)) :
    ((((c : Thread nD τ).loc cc0_stg1_0) ↦{fullShare} f) : sProp 𝕄)
      ⊢ iprop(hE (F := F) c 0 (hdN c) (hdN_lt c) ∗ hE (F := F) c 1 (hdN c) (hdN_lt c) ∗ hE (F := F) c 2 (hdN c) (hdN_lt c) ∗ hE (F := F) c 3 (hdN c) (hdN_lt c)
          ∗ hE (F := F) c 0 (hdN (pr (0 : Fin 7).succ c)) (hdN_lt _)
          ∗ hE (F := F) c 1 (hdN (pr (0 : Fin 7).succ c)) (hdN_lt _)
          ∗ hE (F := F) c 2 (hdN (pr (0 : Fin 7).succ c)) (hdN_lt _)
          ∗ hE (F := F) c 3 (hdN (pr (0 : Fin 7).succ c)) (hdN_lt _)
          ∗ hE (F := F) c 0 (hdN (pr (1 : Fin 7).succ c)) (hdN_lt _)
          ∗ hE (F := F) c 1 (hdN (pr (1 : Fin 7).succ c)) (hdN_lt _)
          ∗ hE (F := F) c 2 (hdN (pr (1 : Fin 7).succ c)) (hdN_lt _)
          ∗ hE (F := F) c 3 (hdN (pr (1 : Fin 7).succ c)) (hdN_lt _)
          ∗ hE (F := F) c 0 (hdN (pr (2 : Fin 7).succ c)) (hdN_lt _)
          ∗ hE (F := F) c 1 (hdN (pr (2 : Fin 7).succ c)) (hdN_lt _)
          ∗ hE (F := F) c 2 (hdN (pr (2 : Fin 7).succ c)) (hdN_lt _)
          ∗ hE (F := F) c 3 (hdN (pr (2 : Fin 7).succ c)) (hdN_lt _)
          ∗ hE (F := F) c 0 (hdN (pr (3 : Fin 7).succ c)) (hdN_lt _)
          ∗ hE (F := F) c 1 (hdN (pr (3 : Fin 7).succ c)) (hdN_lt _)
          ∗ hE (F := F) c 2 (hdN (pr (3 : Fin 7).succ c)) (hdN_lt _)
          ∗ hE (F := F) c 3 (hdN (pr (3 : Fin 7).succ c)) (hdN_lt _)
          ∗ hE (F := F) c 0 (hdN (pr (4 : Fin 7).succ c)) (hdN_lt _)
          ∗ hE (F := F) c 1 (hdN (pr (4 : Fin 7).succ c)) (hdN_lt _)
          ∗ hE (F := F) c 2 (hdN (pr (4 : Fin 7).succ c)) (hdN_lt _)
          ∗ hE (F := F) c 3 (hdN (pr (4 : Fin 7).succ c)) (hdN_lt _)
          ∗ hE (F := F) c 0 (hdN (pr (5 : Fin 7).succ c)) (hdN_lt _)
          ∗ hE (F := F) c 1 (hdN (pr (5 : Fin 7).succ c)) (hdN_lt _)
          ∗ hE (F := F) c 2 (hdN (pr (5 : Fin 7).succ c)) (hdN_lt _)
          ∗ hE (F := F) c 3 (hdN (pr (5 : Fin 7).succ c)) (hdN_lt _)
          ∗ hE (F := F) c 0 (hdN (pr (6 : Fin 7).succ c)) (hdN_lt _)
          ∗ hE (F := F) c 1 (hdN (pr (6 : Fin 7).succ c)) (hdN_lt _)
          ∗ hE (F := F) c 2 (hdN (pr (6 : Fin 7).succ c)) (hdN_lt _)
          ∗ hE (F := F) c 3 (hdN (pr (6 : Fin 7).succ c)) (hdN_lt _)) := by
  rw [rM_own_peers_imajor c f, bigSep_fin4, bigSep_fin7x4 (fun (i : Fin 7) (b : Fin 4) => slPts c (hSl b.val b.isLt (hdN (pr i.succ c)) (hdN_lt _) rM) fullShare f)]
  iintro ⟨⟨HO0, HO1, HO2, HO3⟩, HP0, HP1, HP2, HP3, HP4, HP5, HP6, HP7, HP8, HP9, HP10, HP11, HP12, HP13, HP14, HP15, HP16, HP17, HP18, HP19, HP20, HP21, HP22, HP23, HP24, HP25, HP26, HP27⟩
  isplitl [HO0]; · iexists f; iexact HO0
  isplitl [HO1]; · iexists f; iexact HO1
  isplitl [HO2]; · iexists f; iexact HO2
  isplitl [HO3]; · iexists f; iexact HO3
  isplitl [HP0]; · iexists f; iexact HP0
  isplitl [HP1]; · iexists f; iexact HP1
  isplitl [HP2]; · iexists f; iexact HP2
  isplitl [HP3]; · iexists f; iexact HP3
  isplitl [HP4]; · iexists f; iexact HP4
  isplitl [HP5]; · iexists f; iexact HP5
  isplitl [HP6]; · iexists f; iexact HP6
  isplitl [HP7]; · iexists f; iexact HP7
  isplitl [HP8]; · iexists f; iexact HP8
  isplitl [HP9]; · iexists f; iexact HP9
  isplitl [HP10]; · iexists f; iexact HP10
  isplitl [HP11]; · iexists f; iexact HP11
  isplitl [HP12]; · iexists f; iexact HP12
  isplitl [HP13]; · iexists f; iexact HP13
  isplitl [HP14]; · iexists f; iexact HP14
  isplitl [HP15]; · iexists f; iexact HP15
  isplitl [HP16]; · iexists f; iexact HP16
  isplitl [HP17]; · iexists f; iexact HP17
  isplitl [HP18]; · iexists f; iexact HP18
  isplitl [HP19]; · iexists f; iexact HP19
  isplitl [HP20]; · iexists f; iexact HP20
  isplitl [HP21]; · iexists f; iexact HP21
  isplitl [HP22]; · iexists f; iexact HP22
  isplitl [HP23]; · iexists f; iexact HP23
  isplitl [HP24]; · iexists f; iexact HP24
  isplitl [HP25]; · iexists f; iexact HP25
  isplitl [HP26]; · iexists f; iexact HP26
  iexists f; iexact HP27

/-- The result rows at the merged blocks, put back: the result buffer whole. -/
theorem bg_rows_out :
    iprop((hA m c 0 (hdN c) (hdN_lt c) fullShare ∗ hA m c 1 (hdN c) (hdN_lt c) fullShare ∗ hA m c 2 (hdN c) (hdN_lt c) fullShare ∗ hA m c 3 (hdN c) (hdN_lt c) fullShare)
        ∗ hA m c 0 (hdN (pr (0 : Fin 7).succ c)) (hdN_lt _) fullShare
        ∗ hA m c 0 (hdN (pr (1 : Fin 7).succ c)) (hdN_lt _) fullShare
        ∗ hA m c 0 (hdN (pr (2 : Fin 7).succ c)) (hdN_lt _) fullShare
        ∗ hA m c 0 (hdN (pr (3 : Fin 7).succ c)) (hdN_lt _) fullShare
        ∗ hA m c 0 (hdN (pr (4 : Fin 7).succ c)) (hdN_lt _) fullShare
        ∗ hA m c 0 (hdN (pr (5 : Fin 7).succ c)) (hdN_lt _) fullShare
        ∗ hA m c 0 (hdN (pr (6 : Fin 7).succ c)) (hdN_lt _) fullShare
        ∗ hA m c 1 (hdN (pr (0 : Fin 7).succ c)) (hdN_lt _) fullShare
        ∗ hA m c 1 (hdN (pr (1 : Fin 7).succ c)) (hdN_lt _) fullShare
        ∗ hA m c 1 (hdN (pr (2 : Fin 7).succ c)) (hdN_lt _) fullShare
        ∗ hA m c 1 (hdN (pr (3 : Fin 7).succ c)) (hdN_lt _) fullShare
        ∗ hA m c 1 (hdN (pr (4 : Fin 7).succ c)) (hdN_lt _) fullShare
        ∗ hA m c 1 (hdN (pr (5 : Fin 7).succ c)) (hdN_lt _) fullShare
        ∗ hA m c 1 (hdN (pr (6 : Fin 7).succ c)) (hdN_lt _) fullShare
        ∗ hA m c 2 (hdN (pr (0 : Fin 7).succ c)) (hdN_lt _) fullShare
        ∗ hA m c 2 (hdN (pr (1 : Fin 7).succ c)) (hdN_lt _) fullShare
        ∗ hA m c 2 (hdN (pr (2 : Fin 7).succ c)) (hdN_lt _) fullShare
        ∗ hA m c 2 (hdN (pr (3 : Fin 7).succ c)) (hdN_lt _) fullShare
        ∗ hA m c 2 (hdN (pr (4 : Fin 7).succ c)) (hdN_lt _) fullShare
        ∗ hA m c 2 (hdN (pr (5 : Fin 7).succ c)) (hdN_lt _) fullShare
        ∗ hA m c 2 (hdN (pr (6 : Fin 7).succ c)) (hdN_lt _) fullShare
        ∗ hA m c 3 (hdN (pr (0 : Fin 7).succ c)) (hdN_lt _) fullShare
        ∗ hA m c 3 (hdN (pr (1 : Fin 7).succ c)) (hdN_lt _) fullShare
        ∗ hA m c 3 (hdN (pr (2 : Fin 7).succ c)) (hdN_lt _) fullShare
        ∗ hA m c 3 (hdN (pr (3 : Fin 7).succ c)) (hdN_lt _) fullShare
        ∗ hA m c 3 (hdN (pr (4 : Fin 7).succ c)) (hdN_lt _) fullShare
        ∗ hA m c 3 (hdN (pr (5 : Fin 7).succ c)) (hdN_lt _) fullShare
        ∗ hA m c 3 (hdN (pr (6 : Fin 7).succ c)) (hdN_lt _) fullShare)
      ⊢ ((((c : Thread nD τ).loc cc0_stg1_0) ↦{fullShare} outC m c) : sProp 𝕄) := by
  rw [rM_own_peers c (outC m c), bigSep_fin4, bigSep_fin4x7 (fun (b : Fin 4) (i : Fin 7) => slPts c (hSl b.val b.isLt (hdN (pr i.succ c)) (hdN_lt _) rM) fullShare (outC m c))]

/-! ## At entry -/

set_option maxHeartbeats 4000000 in
set_option maxRecDepth 8000 in
/-- What the launch hands the device is the body's resources at entry, for some recorded waits, with the unread
    rows of the keys' and values' blocks kept aside. -/
theorem body_in : bodyPre m K c ⊢ iprop(∃ W : Waits sig Unit, initChain m K c W ∗ kRest m c ∗ vRest m c) := by
  unfold bodyPre kvPts
  iintro ⟨⟨Hg, Hcr, #HL, ⟨Hk1, Hk2⟩, Hscr⟩, Ho, ⟨%d0, %g0, %hg0, Hx⟩, ⟨%d1, %g1, %hg1, Hy⟩⟩
  have hx : g0 = Qst m c := by rw [hg0]; unfold Dat.before; rw [if_pos (fetch_0 t₀)]; rfl
  subst hx
  unfold Dat.owesAt Pipeline.owesWithin
  icases Ho with ⟨%W, %hW, HO⟩
  iexists W
  ihave Hg' := (ghost_unpack m K c) $$ Hg
  icases Hg' with ⟨#HR, HpB, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, Hp70, Hp71, Hp72, Hp73, Hp74, Hp75, Hp76, Hp77, Hp78, Hp79⟩, ⟨HtB0, HtB1, HtB2, HtB3, HtB4, HtB5, HtB6, HtB7⟩, HtD0, HtD1, HtD2, HtD3, HtD4, HtD5, HtD6, HtD7, HtD8, HtD9, HtD10, HtD11, HtD12, HtD13, HtD14, HtD15, HtD16, HtD17, HtD18, HtD19, HtD20, HtD21, HtD22, HtD23, HtD24, HtD25, HtD26, HtD27, HtD28, HtD29, HtD30, HtD31, HtD32, HtD33, HtD34, HtD35, HtD36, HtD37, HtD38, HtD39, HtD40, HtD41, HtD42, HtD43, HtD44, HtD45, HtD46, HtD47, HtD48, HtD49, HtD50, HtD51, HtD52, HtD53, HtD54, HtD55, HtD56, HtD57, HtD58, HtD59, HtD60, HtD61, HtD62, HtD63, HtD64, HtD65, HtD66, HtD67, HtD68, HtD69, HtD70, HtD71, HtD72, HtD73, HtD74, HtD75, HtD76, HtD77, HtD78, HtD79⟩
  ihave Hcr' := (creds_unpack (F := F) c) $$ Hcr
  icases Hcr' with ⟨HcB, ⟨Hc16, Hc17, Hc18, Hc19, Hc20, Hc21, Hc22, Hc23⟩, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79⟩
  ihave HQ := (Entails.of_eq (Qstg_eq m c).symm) $$ Hx
  ihave Hk1' := (Entails.of_eq (bg_aK_eq m c)) $$ Hk1
  icases Hk1' with ⟨⟨HkS0, HkS1, HkS2, HkS3⟩, Hr1⟩
  ihave Hk2' := (Entails.of_eq (bg_aV_eq m c)) $$ Hk2
  icases Hk2' with ⟨⟨HvS0, HvS1, HvS2, HvS3⟩, Hr2⟩
  ihave Hs := (Entails.of_eq (scopedRest0_eq (Ix := Unit) (Val := Elt F) (Name := ℕ) (U := UU) (Lvl := ℕ) c)) $$ Hscr
  icases Hs with ⟨⟨%f0, Hs0⟩, ⟨%f1, Hs1⟩, ⟨%f2, Hs2⟩, ⟨%f3, Hs3⟩, Hw4, Hw5⟩
  ihave Hs0' := (bg_scr0_in (F := F) c f0) $$ Hs0
  icases Hs0' with ⟨HkD0, HkD1, HkD2, HkD3⟩
  ihave Hs1' := (bg_scr1_in (F := F) c f1) $$ Hs1
  icases Hs1' with ⟨HvD0, HvD1, HvD2, HvD3⟩
  ihave Hs2' := (bg_scr2_in (F := F) c f2) $$ Hs2
  icases Hs2' with ⟨Ho0, Ho1, Ho2, Ho3⟩
  ihave Hs3' := (bg_scr3_in (F := F) c f3) $$ Hs3
  icases Hs3' with ⟨Hl0, Hl1, Hl2, Hl3⟩
  ihave Hy' := (bg_rows_in (F := F) c g1) $$ Hy
  icases Hy' with ⟨HhO0, HhO1, HhO2, HhO3, HhP0, HhP1, HhP2, HhP3, HhP4, HhP5, HhP6, HhP7, HhP8, HhP9, HhP10, HhP11, HhP12, HhP13, HhP14, HhP15, HhP16, HhP17, HhP18, HhP19, HhP20, HhP21, HhP22, HhP23, HhP24, HhP25, HhP26, HhP27⟩
  isplitr [Hr1 Hr2]
  · unfold initChain
    rw [show (dats m 0 c).owed t₀.castSucc = owedFrom c 0 from rfl]
    isplitr; · iexact HR
    isplitr; · iexact HL
    isplitl [HO]; · iexact HO
    isplitl [HpB]; · iexact HpB
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    isplitl [Hp18]; · iexact Hp18
    isplitl [Hp19]; · iexact Hp19
    isplitl [Hp20]; · iexact Hp20
    isplitl [Hp21]; · iexact Hp21
    isplitl [Hp22]; · iexact Hp22
    isplitl [Hp23]; · iexact Hp23
    isplitl [Hp24]; · iexact Hp24
    isplitl [Hp25]; · iexact Hp25
    isplitl [Hp26]; · iexact Hp26
    isplitl [Hp27]; · iexact Hp27
    isplitl [Hp28]; · iexact Hp28
    isplitl [Hp29]; · iexact Hp29
    isplitl [Hp30]; · iexact Hp30
    isplitl [Hp31]; · iexact Hp31
    isplitl [Hp32]; · iexact Hp32
    isplitl [Hp33]; · iexact Hp33
    isplitl [Hp34]; · iexact Hp34
    isplitl [Hp35]; · iexact Hp35
    isplitl [Hp36]; · iexact Hp36
    isplitl [Hp37]; · iexact Hp37
    isplitl [Hp38]; · iexact Hp38
    isplitl [Hp39]; · iexact Hp39
    isplitl [Hp40]; · iexact Hp40
    isplitl [Hp41]; · iexact Hp41
    isplitl [Hp42]; · iexact Hp42
    isplitl [Hp43]; · iexact Hp43
    isplitl [Hp44]; · iexact Hp44
    isplitl [Hp45]; · iexact Hp45
    isplitl [Hp46]; · iexact Hp46
    isplitl [Hp47]; · iexact Hp47
    isplitl [Hp48]; · iexact Hp48
    isplitl [Hp49]; · iexact Hp49
    isplitl [Hp50]; · iexact Hp50
    isplitl [Hp51]; · iexact Hp51
    isplitl [Hp52]; · iexact Hp52
    isplitl [Hp53]; · iexact Hp53
    isplitl [Hp54]; · iexact Hp54
    isplitl [Hp55]; · iexact Hp55
    isplitl [Hp56]; · iexact Hp56
    isplitl [Hp57]; · iexact Hp57
    isplitl [Hp58]; · iexact Hp58
    isplitl [Hp59]; · iexact Hp59
    isplitl [Hp60]; · iexact Hp60
    isplitl [Hp61]; · iexact Hp61
    isplitl [Hp62]; · iexact Hp62
    isplitl [Hp63]; · iexact Hp63
    isplitl [Hp64]; · iexact Hp64
    isplitl [Hp65]; · iexact Hp65
    isplitl [Hp66]; · iexact Hp66
    isplitl [Hp67]; · iexact Hp67
    isplitl [Hp68]; · iexact Hp68
    isplitl [Hp69]; · iexact Hp69
    isplitl [Hp70]; · iexact Hp70
    isplitl [Hp71]; · iexact Hp71
    isplitl [Hp72]; · iexact Hp72
    isplitl [Hp73]; · iexact Hp73
    isplitl [Hp74]; · iexact Hp74
    isplitl [Hp75]; · iexact Hp75
    isplitl [Hp76]; · iexact Hp76
    isplitl [Hp77]; · iexact Hp77
    isplitl [Hp78]; · iexact Hp78
    isplitl [Hp79]; · iexact Hp79
    isplitl [HtB0]; · iexact HtB0
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [HtD0]; · iexact HtD0
    isplitl [HtD1]; · iexact HtD1
    isplitl [HtD2]; · iexact HtD2
    isplitl [HtD3]; · iexact HtD3
    isplitl [HtD4]; · iexact HtD4
    isplitl [HtD5]; · iexact HtD5
    isplitl [HtD6]; · iexact HtD6
    isplitl [HtD7]; · iexact HtD7
    isplitl [HtD8]; · iexact HtD8
    isplitl [HtD9]; · iexact HtD9
    isplitl [HtD10]; · iexact HtD10
    isplitl [HtD11]; · iexact HtD11
    isplitl [HtD12]; · iexact HtD12
    isplitl [HtD13]; · iexact HtD13
    isplitl [HtD14]; · iexact HtD14
    isplitl [HtD15]; · iexact HtD15
    isplitl [HtD16]; · iexact HtD16
    isplitl [HtD17]; · iexact HtD17
    isplitl [HtD18]; · iexact HtD18
    isplitl [HtD19]; · iexact HtD19
    isplitl [HtD20]; · iexact HtD20
    isplitl [HtD21]; · iexact HtD21
    isplitl [HtD22]; · iexact HtD22
    isplitl [HtD23]; · iexact HtD23
    isplitl [HtD24]; · iexact HtD24
    isplitl [HtD25]; · iexact HtD25
    isplitl [HtD26]; · iexact HtD26
    isplitl [HtD27]; · iexact HtD27
    isplitl [HtD28]; · iexact HtD28
    isplitl [HtD29]; · iexact HtD29
    isplitl [HtD30]; · iexact HtD30
    isplitl [HtD31]; · iexact HtD31
    isplitl [HtD32]; · iexact HtD32
    isplitl [HtD33]; · iexact HtD33
    isplitl [HtD34]; · iexact HtD34
    isplitl [HtD35]; · iexact HtD35
    isplitl [HtD36]; · iexact HtD36
    isplitl [HtD37]; · iexact HtD37
    isplitl [HtD38]; · iexact HtD38
    isplitl [HtD39]; · iexact HtD39
    isplitl [HtD40]; · iexact HtD40
    isplitl [HtD41]; · iexact HtD41
    isplitl [HtD42]; · iexact HtD42
    isplitl [HtD43]; · iexact HtD43
    isplitl [HtD44]; · iexact HtD44
    isplitl [HtD45]; · iexact HtD45
    isplitl [HtD46]; · iexact HtD46
    isplitl [HtD47]; · iexact HtD47
    isplitl [HtD48]; · iexact HtD48
    isplitl [HtD49]; · iexact HtD49
    isplitl [HtD50]; · iexact HtD50
    isplitl [HtD51]; · iexact HtD51
    isplitl [HtD52]; · iexact HtD52
    isplitl [HtD53]; · iexact HtD53
    isplitl [HtD54]; · iexact HtD54
    isplitl [HtD55]; · iexact HtD55
    isplitl [HtD56]; · iexact HtD56
    isplitl [HtD57]; · iexact HtD57
    isplitl [HtD58]; · iexact HtD58
    isplitl [HtD59]; · iexact HtD59
    isplitl [HtD60]; · iexact HtD60
    isplitl [HtD61]; · iexact HtD61
    isplitl [HtD62]; · iexact HtD62
    isplitl [HtD63]; · iexact HtD63
    isplitl [HtD64]; · iexact HtD64
    isplitl [HtD65]; · iexact HtD65
    isplitl [HtD66]; · iexact HtD66
    isplitl [HtD67]; · iexact HtD67
    isplitl [HtD68]; · iexact HtD68
    isplitl [HtD69]; · iexact HtD69
    isplitl [HtD70]; · iexact HtD70
    isplitl [HtD71]; · iexact HtD71
    isplitl [HtD72]; · iexact HtD72
    isplitl [HtD73]; · iexact HtD73
    isplitl [HtD74]; · iexact HtD74
    isplitl [HtD75]; · iexact HtD75
    isplitl [HtD76]; · iexact HtD76
    isplitl [HtD77]; · iexact HtD77
    isplitl [HtD78]; · iexact HtD78
    isplitl [HtD79]; · iexact HtD79
    isplitl [HcB]; · iexact HcB
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc52]; · iexact Hc52
    isplitl [Hc53]; · iexact Hc53
    isplitl [Hc54]; · iexact Hc54
    isplitl [Hc55]; · iexact Hc55
    isplitl [Hc56]; · iexact Hc56
    isplitl [Hc57]; · iexact Hc57
    isplitl [Hc58]; · iexact Hc58
    isplitl [Hc59]; · iexact Hc59
    isplitl [Hc60]; · iexact Hc60
    isplitl [Hc61]; · iexact Hc61
    isplitl [Hc62]; · iexact Hc62
    isplitl [Hc63]; · iexact Hc63
    isplitl [Hc64]; · iexact Hc64
    isplitl [Hc65]; · iexact Hc65
    isplitl [Hc66]; · iexact Hc66
    isplitl [Hc67]; · iexact Hc67
    isplitl [Hc68]; · iexact Hc68
    isplitl [Hc69]; · iexact Hc69
    isplitl [Hc70]; · iexact Hc70
    isplitl [Hc71]; · iexact Hc71
    isplitl [Hc72]; · iexact Hc72
    isplitl [Hc73]; · iexact Hc73
    isplitl [Hc74]; · iexact Hc74
    isplitl [Hc75]; · iexact Hc75
    isplitl [Hc76]; · iexact Hc76
    isplitl [Hc77]; · iexact Hc77
    isplitl [Hc78]; · iexact Hc78
    isplitl [Hc79]; · iexact Hc79
    isplitl [HQ]; · iexact HQ
    isplitl [HkS0]; · iexact HkS0
    isplitl [HkS1]; · iexact HkS1
    isplitl [HkS2]; · iexact HkS2
    isplitl [HkS3]; · iexact HkS3
    isplitl [HvS0]; · iexact HvS0
    isplitl [HvS1]; · iexact HvS1
    isplitl [HvS2]; · iexact HvS2
    isplitl [HvS3]; · iexact HvS3
    isplitl [HkD0]; · iexact HkD0
    isplitl [HkD1]; · iexact HkD1
    isplitl [HkD2]; · iexact HkD2
    isplitl [HkD3]; · iexact HkD3
    isplitl [HvD0]; · iexact HvD0
    isplitl [HvD1]; · iexact HvD1
    isplitl [HvD2]; · iexact HvD2
    isplitl [HvD3]; · iexact HvD3
    isplitl [Ho0]; · iexact Ho0
    isplitl [Ho1]; · iexact Ho1
    isplitl [Ho2]; · iexact Ho2
    isplitl [Ho3]; · iexact Ho3
    isplitl [Hl0]; · iexact Hl0
    isplitl [Hl1]; · iexact Hl1
    isplitl [Hl2]; · iexact Hl2
    isplitl [Hl3]; · iexact Hl3
    isplitl [Hw4]; · iexact Hw4
    isplitl [Hw5]; · iexact Hw5
    isplitl [HhO0]; · iexact HhO0
    isplitl [HhO1]; · iexact HhO1
    isplitl [HhO2]; · iexact HhO2
    isplitl [HhO3]; · iexact HhO3
    isplitl [HhP0]; · iexact HhP0
    isplitl [HhP1]; · iexact HhP1
    isplitl [HhP2]; · iexact HhP2
    isplitl [HhP3]; · iexact HhP3
    isplitl [HhP4]; · iexact HhP4
    isplitl [HhP5]; · iexact HhP5
    isplitl [HhP6]; · iexact HhP6
    isplitl [HhP7]; · iexact HhP7
    isplitl [HhP8]; · iexact HhP8
    isplitl [HhP9]; · iexact HhP9
    isplitl [HhP10]; · iexact HhP10
    isplitl [HhP11]; · iexact HhP11
    isplitl [HhP12]; · iexact HhP12
    isplitl [HhP13]; · iexact HhP13
    isplitl [HhP14]; · iexact HhP14
    isplitl [HhP15]; · iexact HhP15
    isplitl [HhP16]; · iexact HhP16
    isplitl [HhP17]; · iexact HhP17
    isplitl [HhP18]; · iexact HhP18
    isplitl [HhP19]; · iexact HhP19
    isplitl [HhP20]; · iexact HhP20
    isplitl [HhP21]; · iexact HhP21
    isplitl [HhP22]; · iexact HhP22
    isplitl [HhP23]; · iexact HhP23
    isplitl [HhP24]; · iexact HhP24
    isplitl [HhP25]; · iexact HhP25
    isplitl [HhP26]; · iexact HhP26
    iexact HhP27
  · isplitl [Hr1]; · iexact Hr1
    iexact Hr2

/-! ## At the return -/

set_option maxHeartbeats 4000000 in
set_option maxRecDepth 8000 in
/-- The body's resources at the return, with the rows kept aside, are what the launch asks back. -/
theorem body_out : iprop(finalChain m c ∗ kRest m c ∗ vRest m c) ⊢ bodyPost m c := by
  unfold finalChain
  iintro ⟨⟨⟨%W', HOw⟩, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, HQ, HkS0, HkS1, HkS2, HkS3, HvS0, HvS1, HvS2, HvS3, HkD0, HkD1, HkD2, HkD3, HvD0, HvD1, HvD2, HvD3, Ho0, Ho1, Ho2, Ho3, Hl0, Hl1, Hl2, Hl3, Hpo0, Hpo1, Hpo2, Hpo3, Hpl0, Hpl1, Hpl2, Hpl3, HhD0, HhD1, HhD2, HhD3, HhG0_0, HhG0_1, HhG0_2, HhG0_3, HhG0_4, HhG0_5, HhG0_6, HhG1_0, HhG1_1, HhG1_2, HhG1_3, HhG1_4, HhG1_5, HhG1_6, HhG2_0, HhG2_1, HhG2_2, HhG2_3, HhG2_4, HhG2_5, HhG2_6, HhG3_0, HhG3_1, HhG3_2, HhG3_3, HhG3_4, HhG3_5, HhG3_6, HhP0_0, HhP0_1, HhP0_2, HhP0_3, HhP0_4, HhP0_5, HhP0_6, HhP1_0, HhP1_1, HhP1_2, HhP1_3, HhP1_4, HhP1_5, HhP1_6, HhP2_0, HhP2_1, HhP2_2, HhP2_3, HhP2_4, HhP2_5, HhP2_6, HhP3_0, HhP3_1, HhP3_2, HhP3_3, HhP3_4, HhP3_5, HhP3_6⟩, Hr1, Hr2⟩
  -- each of the device's own result rows whole again, from the share it kept and the seven it lent
  ihave HhF0 := (hA_shares_join m c 0 (hdN c) (hdN_lt c)) $$ [HhD0 HhG0_0 HhG0_1 HhG0_2 HhG0_3 HhG0_4 HhG0_5 HhG0_6]
  · isplitl [HhD0]; · iexact HhD0
    isplitl [HhG0_0]; · iexact HhG0_0
    isplitl [HhG0_1]; · iexact HhG0_1
    isplitl [HhG0_2]; · iexact HhG0_2
    isplitl [HhG0_3]; · iexact HhG0_3
    isplitl [HhG0_4]; · iexact HhG0_4
    isplitl [HhG0_5]; · iexact HhG0_5
    iexact HhG0_6
  ihave HhF1 := (hA_shares_join m c 1 (hdN c) (hdN_lt c)) $$ [HhD1 HhG1_0 HhG1_1 HhG1_2 HhG1_3 HhG1_4 HhG1_5 HhG1_6]
  · isplitl [HhD1]; · iexact HhD1
    isplitl [HhG1_0]; · iexact HhG1_0
    isplitl [HhG1_1]; · iexact HhG1_1
    isplitl [HhG1_2]; · iexact HhG1_2
    isplitl [HhG1_3]; · iexact HhG1_3
    isplitl [HhG1_4]; · iexact HhG1_4
    isplitl [HhG1_5]; · iexact HhG1_5
    iexact HhG1_6
  ihave HhF2 := (hA_shares_join m c 2 (hdN c) (hdN_lt c)) $$ [HhD2 HhG2_0 HhG2_1 HhG2_2 HhG2_3 HhG2_4 HhG2_5 HhG2_6]
  · isplitl [HhD2]; · iexact HhD2
    isplitl [HhG2_0]; · iexact HhG2_0
    isplitl [HhG2_1]; · iexact HhG2_1
    isplitl [HhG2_2]; · iexact HhG2_2
    isplitl [HhG2_3]; · iexact HhG2_3
    isplitl [HhG2_4]; · iexact HhG2_4
    isplitl [HhG2_5]; · iexact HhG2_5
    iexact HhG2_6
  ihave HhF3 := (hA_shares_join m c 3 (hdN c) (hdN_lt c)) $$ [HhD3 HhG3_0 HhG3_1 HhG3_2 HhG3_3 HhG3_4 HhG3_5 HhG3_6]
  · isplitl [HhD3]; · iexact HhD3
    isplitl [HhG3_0]; · iexact HhG3_0
    isplitl [HhG3_1]; · iexact HhG3_1
    isplitl [HhG3_2]; · iexact HhG3_2
    isplitl [HhG3_3]; · iexact HhG3_3
    isplitl [HhG3_4]; · iexact HhG3_4
    isplitl [HhG3_5]; · iexact HhG3_5
    iexact HhG3_6
  unfold bodyPost Φ₁ kvPts Dat.owesAt Pipeline.owesWithin
  rw [show (dats m 0 c).owed t₀.succ = 0 from rfl]
  isplitl [HkS0 HkS1 HkS2 HkS3 Hr1 HvS0 HvS1 HvS2 HvS3 Hr2 Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 HkD0 HkD1 HkD2 HkD3 HvD0 HvD1 HvD2 HvD3 Ho0 Ho1 Ho2 Ho3 Hl0 Hl1 Hl2 Hl3 Hpo0 Hpo1 Hpo2 Hpo3 Hpl0 Hpl1 Hpl2 Hpl3]
  · isplitl [HkS0 HkS1 HkS2 HkS3 Hr1 HvS0 HvS1 HvS2 HvS3 Hr2]
    · isplitl [HkS0 HkS1 HkS2 HkS3 Hr1]
      · iapply (Entails.of_eq (bg_aK_eq m c).symm)
        isplitl [HkS0 HkS1 HkS2 HkS3]
        · isplitl [HkS0]; · iexact HkS0
          isplitl [HkS1]; · iexact HkS1
          isplitl [HkS2]; · iexact HkS2
          iexact HkS3
        · iexact Hr1
      · iapply (Entails.of_eq (bg_aV_eq m c).symm)
        isplitl [HvS0 HvS1 HvS2 HvS3]
        · isplitl [HvS0]; · iexact HvS0
          isplitl [HvS1]; · iexact HvS1
          isplitl [HvS2]; · iexact HvS2
          iexact HvS3
        · iexact Hr2
    isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79]
    · iapply (sems_pack (F := F) c)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      isplitl [Hs21]; · iexact Hs21
      isplitl [Hs22]; · iexact Hs22
      isplitl [Hs23]; · iexact Hs23
      isplitl [Hs24]; · iexact Hs24
      isplitl [Hs25]; · iexact Hs25
      isplitl [Hs26]; · iexact Hs26
      isplitl [Hs27]; · iexact Hs27
      isplitl [Hs28]; · iexact Hs28
      isplitl [Hs29]; · iexact Hs29
      isplitl [Hs30]; · iexact Hs30
      isplitl [Hs31]; · iexact Hs31
      isplitl [Hs32]; · iexact Hs32
      isplitl [Hs33]; · iexact Hs33
      isplitl [Hs34]; · iexact Hs34
      isplitl [Hs35]; · iexact Hs35
      isplitl [Hs36]; · iexact Hs36
      isplitl [Hs37]; · iexact Hs37
      isplitl [Hs38]; · iexact Hs38
      isplitl [Hs39]; · iexact Hs39
      isplitl [Hs40]; · iexact Hs40
      isplitl [Hs41]; · iexact Hs41
      isplitl [Hs42]; · iexact Hs42
      isplitl [Hs43]; · iexact Hs43
      isplitl [Hs44]; · iexact Hs44
      isplitl [Hs45]; · iexact Hs45
      isplitl [Hs46]; · iexact Hs46
      isplitl [Hs47]; · iexact Hs47
      isplitl [Hs48]; · iexact Hs48
      isplitl [Hs49]; · iexact Hs49
      isplitl [Hs50]; · iexact Hs50
      isplitl [Hs51]; · iexact Hs51
      isplitl [Hs52]; · iexact Hs52
      isplitl [Hs53]; · iexact Hs53
      isplitl [Hs54]; · iexact Hs54
      isplitl [Hs55]; · iexact Hs55
      isplitl [Hs56]; · iexact Hs56
      isplitl [Hs57]; · iexact Hs57
      isplitl [Hs58]; · iexact Hs58
      isplitl [Hs59]; · iexact Hs59
      isplitl [Hs60]; · iexact Hs60
      isplitl [Hs61]; · iexact Hs61
      isplitl [Hs62]; · iexact Hs62
      isplitl [Hs63]; · iexact Hs63
      isplitl [Hs64]; · iexact Hs64
      isplitl [Hs65]; · iexact Hs65
      isplitl [Hs66]; · iexact Hs66
      isplitl [Hs67]; · iexact Hs67
      isplitl [Hs68]; · iexact Hs68
      isplitl [Hs69]; · iexact Hs69
      isplitl [Hs70]; · iexact Hs70
      isplitl [Hs71]; · iexact Hs71
      isplitl [Hs72]; · iexact Hs72
      isplitl [Hs73]; · iexact Hs73
      isplitl [Hs74]; · iexact Hs74
      isplitl [Hs75]; · iexact Hs75
      isplitl [Hs76]; · iexact Hs76
      isplitl [Hs77]; · iexact Hs77
      isplitl [Hs78]; · iexact Hs78
      iexact Hs79
    · iapply (Entails.of_eq (scopedRest0_eq (Ix := Unit) (Val := Elt F) (Name := ℕ) (U := UU) (Lvl := ℕ) c).symm)
      isplitl [HkD0 HkD1 HkD2 HkD3]
      · iapply (bg_scr0_out m c)
        isplitl [HkD0]; · iexact HkD0
        isplitl [HkD1]; · iexact HkD1
        isplitl [HkD2]; · iexact HkD2
        iexact HkD3
      isplitl [HvD0 HvD1 HvD2 HvD3]
      · iapply (bg_scr1_out m c)
        isplitl [HvD0]; · iexact HvD0
        isplitl [HvD1]; · iexact HvD1
        isplitl [HvD2]; · iexact HvD2
        iexact HvD3
      isplitl [Ho0 Ho1 Ho2 Ho3]
      · iapply (bg_scr2_out m c)
        isplitl [Ho0]; · iexact Ho0
        isplitl [Ho1]; · iexact Ho1
        isplitl [Ho2]; · iexact Ho2
        iexact Ho3
      isplitl [Hl0 Hl1 Hl2 Hl3]
      · iapply (bg_scr3_out m c)
        isplitl [Hl0]; · iexact Hl0
        isplitl [Hl1]; · iexact Hl1
        isplitl [Hl2]; · iexact Hl2
        iexact Hl3
      isplitl [Hpo0 Hpo1 Hpo2 Hpo3]
      · iapply (bg_scr4_out m c)
        isplitl [Hpo0]; · iexact Hpo0
        isplitl [Hpo1]; · iexact Hpo1
        isplitl [Hpo2]; · iexact Hpo2
        iexact Hpo3
      iapply (bg_scr5_out m c)
      isplitl [Hpl0]; · iexact Hpl0
      isplitl [Hpl1]; · iexact Hpl1
      isplitl [Hpl2]; · iexact Hpl2
      iexact Hpl3
  isplitl [HOw]
  · iexists W'
    isplitr; · ipureintro; exact fun _ _ => Or.inl trivial
    rw [show owedFrom c 44 = (0 : CellTallies nD τ sig Unit) from owedFrom_end c]
    iexact HOw
  isplitl [HQ]
  · iexists (Qst m c); isplitr; · (ipureintro; rfl)
    iapply (Entails.of_eq (Qstg_eq m c)); iexact HQ
  iexists (outC m c); isplitr; · (ipureintro; rfl)
  iapply (bg_rows_out m c)
  isplitl [HhF0 HhF1 HhF2 HhF3]
  · isplitl [HhF0]; · iexact HhF0
    isplitl [HhF1]; · iexact HhF1
    isplitl [HhF2]; · iexact HhF2
    iexact HhF3
  isplitl [HhP0_0]; · iexact HhP0_0
  isplitl [HhP0_1]; · iexact HhP0_1
  isplitl [HhP0_2]; · iexact HhP0_2
  isplitl [HhP0_3]; · iexact HhP0_3
  isplitl [HhP0_4]; · iexact HhP0_4
  isplitl [HhP0_5]; · iexact HhP0_5
  isplitl [HhP0_6]; · iexact HhP0_6
  isplitl [HhP1_0]; · iexact HhP1_0
  isplitl [HhP1_1]; · iexact HhP1_1
  isplitl [HhP1_2]; · iexact HhP1_2
  isplitl [HhP1_3]; · iexact HhP1_3
  isplitl [HhP1_4]; · iexact HhP1_4
  isplitl [HhP1_5]; · iexact HhP1_5
  isplitl [HhP1_6]; · iexact HhP1_6
  isplitl [HhP2_0]; · iexact HhP2_0
  isplitl [HhP2_1]; · iexact HhP2_1
  isplitl [HhP2_2]; · iexact HhP2_2
  isplitl [HhP2_3]; · iexact HhP2_3
  isplitl [HhP2_4]; · iexact HhP2_4
  isplitl [HhP2_5]; · iexact HhP2_5
  isplitl [HhP2_6]; · iexact HhP2_6
  isplitl [HhP3_0]; · iexact HhP3_0
  isplitl [HhP3_1]; · iexact HhP3_1
  isplitl [HhP3_2]; · iexact HhP3_2
  isplitl [HhP3_3]; · iexact HhP3_3
  isplitl [HhP3_4]; · iexact HhP3_4
  isplitl [HhP3_5]; · iexact HhP3_5
  iexact HhP3_6

/-- info: 'Cert.KernelIdeal.Flash.body_in' depends on axioms: [propext, Classical.choice, Quot.sound] -/
#guard_msgs in #print axioms body_in

/-- info: 'Cert.KernelIdeal.Flash.body_out' depends on axioms: [propext, Classical.choice, Quot.sound] -/
#guard_msgs in #print axioms body_out

end Cert.KernelIdeal.Flash

end
-- ==== Proof.Topo.lean ====
/-
  The devices a device addresses, and the slices it works on, in closed form.

  Device d = 8x + 4y + z addresses its peers by arithmetic on its own coordinates: the other half of its
  head is (1 − x, y, z), that is d xor 8, and the seven other heads of its half are (x, y xor dy, z xor dz)
  for (dy, dz) ≠ (0, 0) in the order (0,1), (0,2), (0,3), (1,0), …, (1,3), that is d xor 1, …, d xor 7.
  The program spells each addressed device as its own chain of word operations; over the sixteen devices
  each chain is decided to be one of these eight peers:
    chains 1 … 8      the eight barrier signals, to peers 0, 1, …, 7;
    chains 9, 10      the exchange of batch 0 (weighted sums, then row sums), to peer 0;  11, 12 of batch 1;
                      20, 21 of batch 2;  29, 30 of batch 3;
    chains 13 … 19    the seven copies of batch 0's merged block, to peers 1, …, 7;  22 … 28 of batch 1;
                      31 … 37 of batch 2;  38 … 44 of batch 3.
  Every slice offset is (b, 0, head, 0) with head = 4y + z the device's own head:
    offsets 1 … 4     the key and value source slices of batches 0 … 3;
    offsets 5, 6, 8, 10   the query rows and the result's own block of batches 0, 1, 2, 3;
    offsets 7, 9, 11, 12  the result block sent to (and awaited from) the other heads, batches 0, 1, 2, 3.
  Last, the semaphore a slice of one of the five semaphore arrays names, as its number in the pool.
-/
import proofs.«900786_g7700000000000787_dist_flashdec_v7x_xyz2x2x4_x_b4_sq32_skv4096_h8_d128_f32_1_alg».proof.Proof.Proto

noncomputable section

namespace Cert.KernelIdeal.Flash

open Cert.KernelIdeal Cert.KernelIdeal.Gen
open Idealize.ShloMosaic Idealize.ShloMosaic.TcCoe

/-! ## The addressed devices -/

@[sl_canon] theorem dev1_eq (c : Dev nD) : (⟨k0_dev1 c, k0_dev1_lt c⟩ : Dev nD) = pr 0 c :=
  Fin.ext ((by decide +kernel : ∀ c : Dev nD, k0_dev1 c = (pr 0 c).val) c)
@[sl_canon] theorem dev2_eq (c : Dev nD) : (⟨k0_dev2 c, k0_dev2_lt c⟩ : Dev nD) = pr 1 c :=
  Fin.ext ((by decide +kernel : ∀ c : Dev nD, k0_dev2 c = (pr 1 c).val) c)
@[sl_canon] theorem dev3_eq (c : Dev nD) : (⟨k0_dev3 c, k0_dev3_lt c⟩ : Dev nD) = pr 2 c :=
  Fin.ext ((by decide +kernel : ∀ c : Dev nD, k0_dev3 c = (pr 2 c).val) c)
@[sl_canon] theorem dev4_eq (c : Dev nD) : (⟨k0_dev4 c, k0_dev4_lt c⟩ : Dev nD) = pr 3 c :=
  Fin.ext ((by decide +kernel : ∀ c : Dev nD, k0_dev4 c = (pr 3 c).val) c)
@[sl_canon] theorem dev5_eq (c : Dev nD) : (⟨k0_dev5 c, k0_dev5_lt c⟩ : Dev nD) = pr 4 c :=
  Fin.ext ((by decide +kernel : ∀ c : Dev nD, k0_dev5 c = (pr 4 c).val) c)
@[sl_canon] theorem dev6_eq (c : Dev nD) : (⟨k0_dev6 c, k0_dev6_lt c⟩ : Dev nD) = pr 5 c :=
  Fin.ext ((by decide +kernel : ∀ c : Dev nD, k0_dev6 c = (pr 5 c).val) c)
@[sl_canon] theorem dev7_eq (c : Dev nD) : (⟨k0_dev7 c, k0_dev7_lt c⟩ : Dev nD) = pr 6 c :=
  Fin.ext ((by decide +kernel : ∀ c : Dev nD, k0_dev7 c = (pr 6 c).val) c)
@[sl_canon] theorem dev8_eq (c : Dev nD) : (⟨k0_dev8 c, k0_dev8_lt c⟩ : Dev nD) = pr 7 c :=
  Fin.ext ((by decide +kernel : ∀ c : Dev nD, k0_dev8 c = (pr 7 c).val) c)
@[sl_canon] theorem dev9_eq (c : Dev nD) : (⟨k0_dev9 c, k0_dev9_lt c⟩ : Dev nD) = pr 0 c :=
  Fin.ext ((by decide +kernel : ∀ c : Dev nD, k0_dev9 c = (pr 0 c).val) c)
@[sl_canon] theorem dev10_eq (c : Dev nD) : (⟨k0_dev10 c, k0_dev10_lt c⟩ : Dev nD) = pr 0 c :=
  Fin.ext ((by decide +kernel : ∀ c : Dev nD, k0_dev10 c = (pr 0 c).val) c)
@[sl_canon] theorem dev11_eq (c : Dev nD) : (⟨k0_dev11 c, k0_dev11_lt c⟩ : Dev nD) = pr 0 c :=
  Fin.ext ((by decide +kernel : ∀ c : Dev nD, k0_dev11 c = (pr 0 c).val) c)
@[sl_canon] theorem dev12_eq (c : Dev nD) : (⟨k0_dev12 c, k0_dev12_lt c⟩ : Dev nD) = pr 0 c :=
  Fin.ext ((by decide +kernel : ∀ c : Dev nD, k0_dev12 c = (pr 0 c).val) c)
@[sl_canon] theorem dev13_eq (c : Dev nD) : (⟨k0_dev13 c, k0_dev13_lt c⟩ : Dev nD) = pr 1 c :=
  Fin.ext ((by decide +kernel : ∀ c : Dev nD, k0_dev13 c = (pr 1 c).val) c)
@[sl_canon] theorem dev14_eq (c : Dev nD) : (⟨k0_dev14 c, k0_dev14_lt c⟩ : Dev nD) = pr 2 c :=
  Fin.ext ((by decide +kernel : ∀ c : Dev nD, k0_dev14 c = (pr 2 c).val) c)
@[sl_canon] theorem dev15_eq (c : Dev nD) : (⟨k0_dev15 c, k0_dev15_lt c⟩ : Dev nD) = pr 3 c :=
  Fin.ext ((by decide +kernel : ∀ c : Dev nD, k0_dev15 c = (pr 3 c).val) c)
@[sl_canon] theorem dev16_eq (c : Dev nD) : (⟨k0_dev16 c, k0_dev16_lt c⟩ : Dev nD) = pr 4 c :=
  Fin.ext ((by decide +kernel : ∀ c : Dev nD, k0_dev16 c = (pr 4 c).val) c)
@[sl_canon] theorem dev17_eq (c : Dev nD) : (⟨k0_dev17 c, k0_dev17_lt c⟩ : Dev nD) = pr 5 c :=
  Fin.ext ((by decide +kernel : ∀ c : Dev nD, k0_dev17 c = (pr 5 c).val) c)
@[sl_canon] theorem dev18_eq (c : Dev nD) : (⟨k0_dev18 c, k0_dev18_lt c⟩ : Dev nD) = pr 6 c :=
  Fin.ext ((by decide +kernel : ∀ c : Dev nD, k0_dev18 c = (pr 6 c).val) c)
@[sl_canon] theorem dev19_eq (c : Dev nD) : (⟨k0_dev19 c, k0_dev19_lt c⟩ : Dev nD) = pr 7 c :=
  Fin.ext ((by decide +kernel : ∀ c : Dev nD, k0_dev19 c = (pr 7 c).val) c)
@[sl_canon] theorem dev20_eq (c : Dev nD) : (⟨k0_dev20 c, k0_dev20_lt c⟩ : Dev nD) = pr 0 c :=
  Fin.ext ((by decide +kernel : ∀ c : Dev nD, k0_dev20 c = (pr 0 c).val) c)
@[sl_canon] theorem dev21_eq (c : Dev nD) : (⟨k0_dev21 c, k0_dev21_lt c⟩ : Dev nD) = pr 0 c :=
  Fin.ext ((by decide +kernel : ∀ c : Dev nD, k0_dev21 c = (pr 0 c).val) c)
@[sl_canon] theorem dev22_eq (c : Dev nD) : (⟨k0_dev22 c, k0_dev22_lt c⟩ : Dev nD) = pr 1 c :=
  Fin.ext ((by decide +kernel : ∀ c : Dev nD, k0_dev22 c = (pr 1 c).val) c)
@[sl_canon] theorem dev23_eq (c : Dev nD) : (⟨k0_dev23 c, k0_dev23_lt c⟩ : Dev nD) = pr 2 c :=
  Fin.ext ((by decide +kernel : ∀ c : Dev nD, k0_dev23 c = (pr 2 c).val) c)
@[sl_canon] theorem dev24_eq (c : Dev nD) : (⟨k0_dev24 c, k0_dev24_lt c⟩ : Dev nD) = pr 3 c :=
  Fin.ext ((by decide +kernel : ∀ c : Dev nD, k0_dev24 c = (pr 3 c).val) c)
@[sl_canon] theorem dev25_eq (c : Dev nD) : (⟨k0_dev25 c, k0_dev25_lt c⟩ : Dev nD) = pr 4 c :=
  Fin.ext ((by decide +kernel : ∀ c : Dev nD, k0_dev25 c = (pr 4 c).val) c)
@[sl_canon] theorem dev26_eq (c : Dev nD) : (⟨k0_dev26 c, k0_dev26_lt c⟩ : Dev nD) = pr 5 c :=
  Fin.ext ((by decide +kernel : ∀ c : Dev nD, k0_dev26 c = (pr 5 c).val) c)
@[sl_canon] theorem dev27_eq (c : Dev nD) : (⟨k0_dev27 c, k0_dev27_lt c⟩ : Dev nD) = pr 6 c :=
  Fin.ext ((by decide +kernel : ∀ c : Dev nD, k0_dev27 c = (pr 6 c).val) c)
@[sl_canon] theorem dev28_eq (c : Dev nD) : (⟨k0_dev28 c, k0_dev28_lt c⟩ : Dev nD) = pr 7 c :=
  Fin.ext ((by decide +kernel : ∀ c : Dev nD, k0_dev28 c = (pr 7 c).val) c)
@[sl_canon] theorem dev29_eq (c : Dev nD) : (⟨k0_dev29 c, k0_dev29_lt c⟩ : Dev nD) = pr 0 c :=
  Fin.ext ((by decide +kernel : ∀ c : Dev nD, k0_dev29 c = (pr 0 c).val) c)
@[sl_canon] theorem dev30_eq (c : Dev nD) : (⟨k0_dev30 c, k0_dev30_lt c⟩ : Dev nD) = pr 0 c :=
  Fin.ext ((by decide +kernel : ∀ c : Dev nD, k0_dev30 c = (pr 0 c).val) c)
@[sl_canon] theorem dev31_eq (c : Dev nD) : (⟨k0_dev31 c, k0_dev31_lt c⟩ : Dev nD) = pr 1 c :=
  Fin.ext ((by decide +kernel : ∀ c : Dev nD, k0_dev31 c = (pr 1 c).val) c)
@[sl_canon] theorem dev32_eq (c : Dev nD) : (⟨k0_dev32 c, k0_dev32_lt c⟩ : Dev nD) = pr 2 c :=
  Fin.ext ((by decide +kernel : ∀ c : Dev nD, k0_dev32 c = (pr 2 c).val) c)
@[sl_canon] theorem dev33_eq (c : Dev nD) : (⟨k0_dev33 c, k0_dev33_lt c⟩ : Dev nD) = pr 3 c :=
  Fin.ext ((by decide +kernel : ∀ c : Dev nD, k0_dev33 c = (pr 3 c).val) c)
@[sl_canon] theorem dev34_eq (c : Dev nD) : (⟨k0_dev34 c, k0_dev34_lt c⟩ : Dev nD) = pr 4 c :=
  Fin.ext ((by decide +kernel : ∀ c : Dev nD, k0_dev34 c = (pr 4 c).val) c)
@[sl_canon] theorem dev35_eq (c : Dev nD) : (⟨k0_dev35 c, k0_dev35_lt c⟩ : Dev nD) = pr 5 c :=
  Fin.ext ((by decide +kernel : ∀ c : Dev nD, k0_dev35 c = (pr 5 c).val) c)
@[sl_canon] theorem dev36_eq (c : Dev nD) : (⟨k0_dev36 c, k0_dev36_lt c⟩ : Dev nD) = pr 6 c :=
  Fin.ext ((by decide +kernel : ∀ c : Dev nD, k0_dev36 c = (pr 6 c).val) c)
@[sl_canon] theorem dev37_eq (c : Dev nD) : (⟨k0_dev37 c, k0_dev37_lt c⟩ : Dev nD) = pr 7 c :=
  Fin.ext ((by decide +kernel : ∀ c : Dev nD, k0_dev37 c = (pr 7 c).val) c)
@[sl_canon] theorem dev38_eq (c : Dev nD) : (⟨k0_dev38 c, k0_dev38_lt c⟩ : Dev nD) = pr 1 c :=
  Fin.ext ((by decide +kernel : ∀ c : Dev nD, k0_dev38 c = (pr 1 c).val) c)
@[sl_canon] theorem dev39_eq (c : Dev nD) : (⟨k0_dev39 c, k0_dev39_lt c⟩ : Dev nD) = pr 2 c :=
  Fin.ext ((by decide +kernel : ∀ c : Dev nD, k0_dev39 c = (pr 2 c).val) c)
@[sl_canon] theorem dev40_eq (c : Dev nD) : (⟨k0_dev40 c, k0_dev40_lt c⟩ : Dev nD) = pr 3 c :=
  Fin.ext ((by decide +kernel : ∀ c : Dev nD, k0_dev40 c = (pr 3 c).val) c)
@[sl_canon] theorem dev41_eq (c : Dev nD) : (⟨k0_dev41 c, k0_dev41_lt c⟩ : Dev nD) = pr 4 c :=
  Fin.ext ((by decide +kernel : ∀ c : Dev nD, k0_dev41 c = (pr 4 c).val) c)
@[sl_canon] theorem dev42_eq (c : Dev nD) : (⟨k0_dev42 c, k0_dev42_lt c⟩ : Dev nD) = pr 5 c :=
  Fin.ext ((by decide +kernel : ∀ c : Dev nD, k0_dev42 c = (pr 5 c).val) c)
@[sl_canon] theorem dev43_eq (c : Dev nD) : (⟨k0_dev43 c, k0_dev43_lt c⟩ : Dev nD) = pr 6 c :=
  Fin.ext ((by decide +kernel : ∀ c : Dev nD, k0_dev43 c = (pr 6 c).val) c)
@[sl_canon] theorem dev44_eq (c : Dev nD) : (⟨k0_dev44 c, k0_dev44_lt c⟩ : Dev nD) = pr 7 c :=
  Fin.ext ((by decide +kernel : ∀ c : Dev nD, k0_dev44 c = (pr 7 c).val) c)

/-- Rewrites every addressed device to its peer. -/
macro "simp_devs" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq])
macro "simp_devs" "at" h:ident : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq] at $h:ident)

/-! ## The slice offsets -/

theorem off1_eq (c : Dev nD) : k0_off1 c = ![0, 0, hdN c, 0] := k0_off1_eq c
theorem off2_eq (c : Dev nD) : k0_off2 c = ![1, 0, hdN c, 0] := k0_off2_eq c
theorem off3_eq (c : Dev nD) : k0_off3 c = ![2, 0, hdN c, 0] := k0_off3_eq c
theorem off4_eq (c : Dev nD) : k0_off4 c = ![3, 0, hdN c, 0] := k0_off4_eq c
theorem off5_eq (c : Dev nD) : k0_off5 c = ![0, 0, hdN c, 0] := k0_off5_eq c
theorem off6_eq (c : Dev nD) : k0_off6 c = ![1, 0, hdN c, 0] := k0_off6_eq c
theorem off7_eq (c : Dev nD) : k0_off7 c = ![0, 0, hdN c, 0] := k0_off7_eq c
theorem off8_eq (c : Dev nD) : k0_off8 c = ![2, 0, hdN c, 0] := k0_off8_eq c
theorem off9_eq (c : Dev nD) : k0_off9 c = ![1, 0, hdN c, 0] := k0_off9_eq c
theorem off10_eq (c : Dev nD) : k0_off10 c = ![3, 0, hdN c, 0] := k0_off10_eq c
theorem off11_eq (c : Dev nD) : k0_off11 c = ![2, 0, hdN c, 0] := k0_off11_eq c
theorem off12_eq (c : Dev nD) : k0_off12 c = ![3, 0, hdN c, 0] := k0_off12_eq c

/-- Rewrites every slice offset to (batch, 0, head, 0). -/
macro "simp_offs" : tactic => `(tactic| simp only [off1_eq, off2_eq, off3_eq, off4_eq, off5_eq, off6_eq, off7_eq, off8_eq, off9_eq, off10_eq, off11_eq, off12_eq])
macro "simp_offs" "at" h:ident : tactic => `(tactic| simp only [off1_eq, off2_eq, off3_eq, off4_eq, off5_eq, off6_eq, off7_eq, off8_eq, off9_eq, off10_eq, off11_eq, off12_eq] at $h:ident)

/-! ## The semaphores of the five arrays, by number

The arrays lie one after another in the pool (after the two staging semaphores): the eight local copies'
from 2, the exchange's send and receive sides from 10 and 18 (row b, column i at 2b + i), the copies of the
merged blocks' send and receive sides from 26 and 54 (row b, column i at 7b + i). -/

theorem locJ_lt (j : Fin 8) : j.val < 80 := lt_of_lt_of_le j.isLt (by decide)
theorem sem_loc_fin : ∀ (j : Fin 8) (h : ∀ a, (![j.val] : Fin 1 → Nat) a + S1.size a ≤ S8.size a) (hs : S1.Squeezes S_),
    ((SemArray.slice cc0_scratch6 (Rect.unit (s := S8) ![j.val] S1.size h)).squeeze S_ hs).sem = dS ⟨j.val, locJ_lt j⟩ := by decide
theorem sem_loc (j : ℕ) (hj : j < 8) (h : ∀ a, (![j] : Fin 1 → Nat) a + S1.size a ≤ S8.size a) (hs : S1.Squeezes S_) :
    ((SemArray.slice cc0_scratch6 (Rect.unit (s := S8) ![j] S1.size h)).squeeze S_ hs).sem = dS ⟨j, lt_of_lt_of_le hj (by decide)⟩ :=
  sem_loc_fin ⟨j, hj⟩ h hs

theorem sem_xs_fin : ∀ (b : Fin 4) (i : Fin 2) (h : ∀ a, (![b.val, i.val] : Fin 2 → Nat) a + S1x1.size a ≤ S4x2.size a) (hs : S1x1.Squeezes S_),
    ((SemArray.slice cc0_scratch7 (Rect.unit (s := S4x2) ![b.val, i.val] S1x1.size h)).squeeze S_ hs).sem = dS ⟨xsN b.val i.val, xsN_lt b i⟩ := by decide
theorem sem_xs (b i : ℕ) (hb : b < 4) (hi : i < 2) (h : ∀ a, (![b, i] : Fin 2 → Nat) a + S1x1.size a ≤ S4x2.size a) (hs : S1x1.Squeezes S_) :
    ((SemArray.slice cc0_scratch7 (Rect.unit (s := S4x2) ![b, i] S1x1.size h)).squeeze S_ hs).sem = dS ⟨xsN b i, xsN_lt ⟨b, hb⟩ ⟨i, hi⟩⟩ :=
  sem_xs_fin ⟨b, hb⟩ ⟨i, hi⟩ h hs

theorem sem_xr_fin : ∀ (b : Fin 4) (i : Fin 2) (h : ∀ a, (![b.val, i.val] : Fin 2 → Nat) a + S1x1.size a ≤ S4x2.size a) (hs : S1x1.Squeezes S_),
    ((SemArray.slice cc0_scratch8 (Rect.unit (s := S4x2) ![b.val, i.val] S1x1.size h)).squeeze S_ hs).sem = dS ⟨xrN b.val i.val, xrN_lt b i⟩ := by decide
theorem sem_xr (b i : ℕ) (hb : b < 4) (hi : i < 2) (h : ∀ a, (![b, i] : Fin 2 → Nat) a + S1x1.size a ≤ S4x2.size a) (hs : S1x1.Squeezes S_) :
    ((SemArray.slice cc0_scratch8 (Rect.unit (s := S4x2) ![b, i] S1x1.size h)).squeeze S_ hs).sem = dS ⟨xrN b i, xrN_lt ⟨b, hb⟩ ⟨i, hi⟩⟩ :=
  sem_xr_fin ⟨b, hb⟩ ⟨i, hi⟩ h hs

theorem sem_as_fin : ∀ (b : Fin 4) (i : Fin 7) (h : ∀ a, (![b.val, i.val] : Fin 2 → Nat) a + S1x1.size a ≤ S4x7.size a) (hs : S1x1.Squeezes S_),
    ((SemArray.slice cc0_scratch9 (Rect.unit (s := S4x7) ![b.val, i.val] S1x1.size h)).squeeze S_ hs).sem = dS ⟨asN b.val i.val, asN_lt b i⟩ := by decide
theorem sem_as (b i : ℕ) (hb : b < 4) (hi : i < 7) (h : ∀ a, (![b, i] : Fin 2 → Nat) a + S1x1.size a ≤ S4x7.size a) (hs : S1x1.Squeezes S_) :
    ((SemArray.slice cc0_scratch9 (Rect.unit (s := S4x7) ![b, i] S1x1.size h)).squeeze S_ hs).sem = dS ⟨asN b i, asN_lt ⟨b, hb⟩ ⟨i, hi⟩⟩ :=
  sem_as_fin ⟨b, hb⟩ ⟨i, hi⟩ h hs

theorem sem_ar_fin : ∀ (b : Fin 4) (i : Fin 7) (h : ∀ a, (![b.val, i.val] : Fin 2 → Nat) a + S1x1.size a ≤ S4x7.size a) (hs : S1x1.Squeezes S_),
    ((SemArray.slice cc0_scratch10 (Rect.unit (s := S4x7) ![b.val, i.val] S1x1.size h)).squeeze S_ hs).sem = dS ⟨arN b.val i.val, arN_lt b i⟩ := by decide
theorem sem_ar (b i : ℕ) (hb : b < 4) (hi : i < 7) (h : ∀ a, (![b, i] : Fin 2 → Nat) a + S1x1.size a ≤ S4x7.size a) (hs : S1x1.Squeezes S_) :
    ((SemArray.slice cc0_scratch10 (Rect.unit (s := S4x7) ![b, i] S1x1.size h)).squeeze S_ hs).sem = dS ⟨arN b i, arN_lt ⟨b, hb⟩ ⟨i, hi⟩⟩ :=
  sem_ar_fin ⟨b, hb⟩ ⟨i, hi⟩ h hs

/-- info: 'Cert.KernelIdeal.Flash.dev44_eq' depends on axioms: [propext, Quot.sound] -/
#guard_msgs in #print axioms dev44_eq

/-- info: 'Cert.KernelIdeal.Flash.sem_ar' depends on axioms: [propext, Classical.choice, Quot.sound] -/
#guard_msgs in #print axioms sem_ar

end Cert.KernelIdeal.Flash

end
-- ==== Proof.RegionsChain.lean ====
/-
  The cuts of a device's buffers written out as chains.

  Each of the six scratch buffers held whole, at named contents, is its four batch slices held at the same
  contents, written as one right-nested chain in batch order, with both directions as entailments and the
  form at unnamed contents (whole at some contents gives each slice at some contents). A device's block of
  the keys (of the values) is the four source slices of its head's rows, then the rest.
-/
import proofs.«900786_g7700000000000787_dist_flashdec_v7x_xyz2x2x4_x_b4_sq32_skv4096_h8_d128_f32_1_alg».proof.Proof.Regions
import proofs.«900786_g7700000000000787_dist_flashdec_v7x_xyz2x2x4_x_b4_sq32_skv4096_h8_d128_f32_1_alg».proof.Proof.Regions2
import proofs.«900786_g7700000000000787_dist_flashdec_v7x_xyz2x2x4_x_b4_sq32_skv4096_h8_d128_f32_1_alg».proof.Proof.Shares
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.Chains

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The keys' scratch buffer held whole at contents f is its four batch slices held at f, one after the other. -/
theorem kM_eq (c : Dev nD) (f : Buf (Elt F) ((c : Thread nD τ).loc cc0_scratch0)) :
    (((c : Thread nD τ).loc cc0_scratch0) ↦{fullShare} f : sProp 𝕄)
      = iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f) :=
  (scratch0_batches c f).trans (bigSep_fin4 _)

theorem kM_split (c : Dev nD) (f : Buf (Elt F) ((c : Thread nD τ).loc cc0_scratch0)) :
    (((c : Thread nD τ).loc cc0_scratch0) ↦{fullShare} f : sProp 𝕄)
      ⊢ iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f) :=
  Entails.of_eq (kM_eq c f)

theorem kM_join (c : Dev nD) (f : Buf (Elt F) ((c : Thread nD τ).loc cc0_scratch0)) :
    iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f)
      ⊢ (((c : Thread nD τ).loc cc0_scratch0) ↦{fullShare} f : sProp 𝕄) :=
  Entails.of_eq (kM_eq c f).symm

/-- At some contents: the buffer held whole gives its four batch slices, each at some contents. -/
theorem kM_splitE (c : Dev nD) :
    wholeE (F := F) c cc0_scratch0 ⊢ iprop(kDstE (F := F) c 0 ∗ kDstE (F := F) c 1 ∗ kDstE (F := F) c 2 ∗ kDstE (F := F) c 3) :=
  BIClass.exists_elim fun f => (kM_split c f).trans
    (BIClass.sep_mono (BIClass.exists_intro f) (BIClass.sep_mono (BIClass.exists_intro f) (BIClass.sep_mono (BIClass.exists_intro f) (BIClass.exists_intro f))))

/-- The values' scratch buffer held whole at contents f is its four batch slices held at f, one after the other. -/
theorem vM_eq (c : Dev nD) (f : Buf (Elt F) ((c : Thread nD τ).loc cc0_scratch1)) :
    (((c : Thread nD τ).loc cc0_scratch1) ↦{fullShare} f : sProp 𝕄)
      = iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f) :=
  (scratch1_batches c f).trans (bigSep_fin4 _)

theorem vM_split (c : Dev nD) (f : Buf (Elt F) ((c : Thread nD τ).loc cc0_scratch1)) :
    (((c : Thread nD τ).loc cc0_scratch1) ↦{fullShare} f : sProp 𝕄)
      ⊢ iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f) :=
  Entails.of_eq (vM_eq c f)

theorem vM_join (c : Dev nD) (f : Buf (Elt F) ((c : Thread nD τ).loc cc0_scratch1)) :
    iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f)
      ⊢ (((c : Thread nD τ).loc cc0_scratch1) ↦{fullShare} f : sProp 𝕄) :=
  Entails.of_eq (vM_eq c f).symm

/-- At some contents: the buffer held whole gives its four batch slices, each at some contents. -/
theorem vM_splitE (c : Dev nD) :
    wholeE (F := F) c cc0_scratch1 ⊢ iprop(vDstE (F := F) c 0 ∗ vDstE (F := F) c 1 ∗ vDstE (F := F) c 2 ∗ vDstE (F := F) c 3) :=
  BIClass.exists_elim fun f => (vM_split c f).trans
    (BIClass.sep_mono (BIClass.exists_intro f) (BIClass.sep_mono (BIClass.exists_intro f) (BIClass.sep_mono (BIClass.exists_intro f) (BIClass.exists_intro f))))

/-- The buffer of the device's own weighted sums held whole at contents f is its four batch slices held at f, one after the other. -/
theorem oM_eq (c : Dev nD) (f : Buf (Elt F) ((c : Thread nD τ).loc cc0_scratch2)) :
    (((c : Thread nD τ).loc cc0_scratch2) ↦{fullShare} f : sProp 𝕄)
      = iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f) :=
  (scratch2_batches c f).trans (bigSep_fin4 _)

theorem oM_split (c : Dev nD) (f : Buf (Elt F) ((c : Thread nD τ).loc cc0_scratch2)) :
    (((c : Thread nD τ).loc cc0_scratch2) ↦{fullShare} f : sProp 𝕄)
      ⊢ iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f) :=
  Entails.of_eq (oM_eq c f)

theorem oM_join (c : Dev nD) (f : Buf (Elt F) ((c : Thread nD τ).loc cc0_scratch2)) :
    iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f)
      ⊢ (((c : Thread nD τ).loc cc0_scratch2) ↦{fullShare} f : sProp 𝕄) :=
  Entails.of_eq (oM_eq c f).symm

/-- At some contents: the buffer held whole gives its four batch slices, each at some contents. -/
theorem oM_splitE (c : Dev nD) :
    wholeE (F := F) c cc0_scratch2 ⊢ iprop(oE (F := F) c 0 ∗ oE (F := F) c 1 ∗ oE (F := F) c 2 ∗ oE (F := F) c 3) :=
  BIClass.exists_elim fun f => (oM_split c f).trans
    (BIClass.sep_mono (BIClass.exists_intro f) (BIClass.sep_mono (BIClass.exists_intro f) (BIClass.sep_mono (BIClass.exists_intro f) (BIClass.exists_intro f))))

/-- The buffer of the device's own row sums held whole at contents f is its four batch slices held at f, one after the other. -/
theorem lM_eq (c : Dev nD) (f : Buf (Elt F) ((c : Thread nD τ).loc cc0_scratch3)) :
    (((c : Thread nD τ).loc cc0_scratch3) ↦{fullShare} f : sProp 𝕄)
      = iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f) :=
  (scratch3_batches c f).trans (bigSep_fin4 _)

theorem lM_split (c : Dev nD) (f : Buf (Elt F) ((c : Thread nD τ).loc cc0_scratch3)) :
    (((c : Thread nD τ).loc cc0_scratch3) ↦{fullShare} f : sProp 𝕄)
      ⊢ iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f) :=
  Entails.of_eq (lM_eq c f)

theorem lM_join (c : Dev nD) (f : Buf (Elt F) ((c : Thread nD τ).loc cc0_scratch3)) :
    iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f)
      ⊢ (((c : Thread nD τ).loc cc0_scratch3) ↦{fullShare} f : sProp 𝕄) :=
  Entails.of_eq (lM_eq c f).symm

/-- At some contents: the buffer held whole gives its four batch slices, each at some contents. -/
theorem lM_splitE (c : Dev nD) :
    wholeE (F := F) c cc0_scratch3 ⊢ iprop(lE (F := F) c 0 ∗ lE (F := F) c 1 ∗ lE (F := F) c 2 ∗ lE (F := F) c 3) :=
  BIClass.exists_elim fun f => (lM_split c f).trans
    (BIClass.sep_mono (BIClass.exists_intro f) (BIClass.sep_mono (BIClass.exists_intro f) (BIClass.sep_mono (BIClass.exists_intro f) (BIClass.exists_intro f))))

/-- The landing buffer of the other half's weighted sums held whole at contents f is its four batch slices held at f, one after the other. -/
theorem oM'_eq (c : Dev nD) (f : Buf (Elt F) ((c : Thread nD τ).loc cc0_scratch4)) :
    (((c : Thread nD τ).loc cc0_scratch4) ↦{fullShare} f : sProp 𝕄)
      = iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f) :=
  (scratch4_batches c f).trans (bigSep_fin4 _)

theorem oM'_split (c : Dev nD) (f : Buf (Elt F) ((c : Thread nD τ).loc cc0_scratch4)) :
    (((c : Thread nD τ).loc cc0_scratch4) ↦{fullShare} f : sProp 𝕄)
      ⊢ iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f) :=
  Entails.of_eq (oM'_eq c f)

theorem oM'_join (c : Dev nD) (f : Buf (Elt F) ((c : Thread nD τ).loc cc0_scratch4)) :
    iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f)
      ⊢ (((c : Thread nD τ).loc cc0_scratch4) ↦{fullShare} f : sProp 𝕄) :=
  Entails.of_eq (oM'_eq c f).symm

/-- At some contents: the buffer held whole gives its four batch slices, each at some contents. -/
theorem oM'_splitE (c : Dev nD) :
    wholeE (F := F) c cc0_scratch4 ⊢ iprop(poE (F := F) c 0 ∗ poE (F := F) c 1 ∗ poE (F := F) c 2 ∗ poE (F := F) c 3) :=
  BIClass.exists_elim fun f => (oM'_split c f).trans
    (BIClass.sep_mono (BIClass.exists_intro f) (BIClass.sep_mono (BIClass.exists_intro f) (BIClass.sep_mono (BIClass.exists_intro f) (BIClass.exists_intro f))))

/-- The landing buffer of the other half's row sums held whole at contents f is its four batch slices held at f, one after the other. -/
theorem lM'_eq (c : Dev nD) (f : Buf (Elt F) ((c : Thread nD τ).loc cc0_scratch5)) :
    (((c : Thread nD τ).loc cc0_scratch5) ↦{fullShare} f : sProp 𝕄)
      = iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f) :=
  (scratch5_batches c f).trans (bigSep_fin4 _)

theorem lM'_split (c : Dev nD) (f : Buf (Elt F) ((c : Thread nD τ).loc cc0_scratch5)) :
    (((c : Thread nD τ).loc cc0_scratch5) ↦{fullShare} f : sProp 𝕄)
      ⊢ iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f) :=
  Entails.of_eq (lM'_eq c f)

theorem lM'_join (c : Dev nD) (f : Buf (Elt F) ((c : Thread nD τ).loc cc0_scratch5)) :
    iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f)
      ⊢ (((c : Thread nD τ).loc cc0_scratch5) ↦{fullShare} f : sProp 𝕄) :=
  Entails.of_eq (lM'_eq c f).symm

/-- At some contents: the buffer held whole gives its four batch slices, each at some contents. -/
theorem lM'_splitE (c : Dev nD) :
    wholeE (F := F) c cc0_scratch5 ⊢ iprop(plE (F := F) c 0 ∗ plE (F := F) c 1 ∗ plE (F := F) c 2 ∗ plE (F := F) c 3) :=
  BIClass.exists_elim fun f => (lM'_split c f).trans
    (BIClass.sep_mono (BIClass.exists_intro f) (BIClass.sep_mono (BIClass.exists_intro f) (BIClass.sep_mono (BIClass.exists_intro f) (BIClass.exists_intro f))))

/-- The device's block of the keys held whole at contents f is the four source slices of the device's head held at f, and the rest. -/
theorem aK_eq (c : Dev nD) (f : Buf (Elt F) ((c : Thread nD τ).loc main_arg1)) :
    (((c : Thread nD τ).loc main_arg1) ↦{fullShare} f : sProp 𝕄)
      = iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f)) := by
  rw [show (((c : Thread nD τ).loc main_arg1) ↦{fullShare} f : sProp 𝕄) = _ from arg1_batches_rest c f, bigSep_fin4]
  simp only [sep_assoc_eq]

theorem aK_split (c : Dev nD) (f : Buf (Elt F) ((c : Thread nD τ).loc main_arg1)) :
    (((c : Thread nD τ).loc main_arg1) ↦{fullShare} f : sProp 𝕄)
      ⊢ iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f)) :=
  Entails.of_eq (aK_eq c f)

theorem aK_join (c : Dev nD) (f : Buf (Elt F) ((c : Thread nD τ).loc main_arg1)) :
    iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f))
      ⊢ (((c : Thread nD τ).loc main_arg1) ↦{fullShare} f : sProp 𝕄) :=
  Entails.of_eq (aK_eq c f).symm

/-- The device's block of the values held whole at contents f is the four source slices of the device's head held at f, and the rest. -/
theorem aV_eq (c : Dev nD) (f : Buf (Elt F) ((c : Thread nD τ).loc main_arg2)) :
    (((c : Thread nD τ).loc main_arg2) ↦{fullShare} f : sProp 𝕄)
      = iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f)) := by
  rw [show (((c : Thread nD τ).loc main_arg2) ↦{fullShare} f : sProp 𝕄) = _ from arg2_batches_rest c f, bigSep_fin4]
  simp only [sep_assoc_eq]

theorem aV_split (c : Dev nD) (f : Buf (Elt F) ((c : Thread nD τ).loc main_arg2)) :
    (((c : Thread nD τ).loc main_arg2) ↦{fullShare} f : sProp 𝕄)
      ⊢ iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f)) :=
  Entails.of_eq (aV_eq c f)

theorem aV_join (c : Dev nD) (f : Buf (Elt F) ((c : Thread nD τ).loc main_arg2)) :
    iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f))
      ⊢ (((c : Thread nD τ).loc main_arg2) ↦{fullShare} f : sProp 𝕄) :=
  Entails.of_eq (aV_eq c f).symm

/--
info: 'Cert.KernelIdeal.Flash.kM_splitE' depends on axioms: [propext, Classical.choice, Quot.sound]
-/
#guard_msgs in #print axioms kM_splitE

/--
info: 'Cert.KernelIdeal.Flash.aK_eq' depends on axioms: [propext, Classical.choice, Quot.sound]
-/
#guard_msgs in #print axioms aK_eq

end Cert.KernelIdeal.Flash

end
-- ==== Proof.StepsWait.lean ====
/-
  Waiting on one of a device's own copy cells, and closing the cell.

  Each of a device's eighty copy cells has one round with one duty: the copy that completes on it, worth
  the credit of the copy's destination view. The device holds the credit token for that amount from launch
  (for a receive cell) or from the enqueue (for a local copy or a send side). The wait consumes the whole
  round, so the device comes back with the duty's payload — the buffer region the copy filled or released,
  at the contents the protocol says — and, no later round having a duty, it closes the cell and gets its
  counter back at zero. A wait is allowed only at a level below everything the device still owes: the
  local-copy and send-side cells have level 0 and may be waited at any time; the exchange's receive cells
  of batch b are waited once everything still owed lies above level 2 + b; the merged blocks' cells when
  nothing is owed any more.
-/
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.SchedTables
import proofs.«900786_g7700000000000787_dist_flashdec_v7x_xyz2x2x4_x_b4_sq32_skv4096_h8_d128_f32_1_alg».proof.Proof.Levels

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Every cell number is its role's number. -/
theorem num_roleOf : ∀ n : Fin 80, (roleOf n).num = n := by decide

/-- The wait on the own copy cell of role `r` for the credit of the destination view named by the wait
    (which must be the role's amount), while owing `O` with evidence that the cell lies below all of it;
    then the cell's closing. The device gets back its dues unchanged (one more wait recorded), the cell's
    counter at zero, and the role's payload. -/
theorem step_wait_role (m : (ℓ : Loc nD τ sig) → Buf (Elt F) ℓ) (K : Dev nD × Option (Fin 80) → ℕ) (c : Dev nD) (r : Role)
    {O : CellTallies nD τ sig Unit} {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = roleAmt r) {α : Type} {Q : α → sProp 𝕄} {k : PUnit → Prog (TpuEff nD τ sig (Elt F) Λ₀ .tc) α} :
    iprop(Rec m K ∗ MayWait (c : Thread nD τ) (.dma (dS r.num)) () O ∗ crD c r.num ∗ posD c r.num ∗ owes (c : Thread nD τ) O W)
      ⊢ iprop((((∃ W', owes (c : Thread nD τ) O W') ∗ svD c r.num ∗ rolePay m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS r.num) src dst hsrc hdst) k) Q) := by
  iintro ⟨#HR, #HM, Hc, Hat, HO⟩ Hk
  ihave HI := (inv_d (Rd m) K c r.num) $$ HR
  iapply (Rounds.wp_wait_rest_token 𝒱₀ ER (Rd m) (c : Thread nD τ) none (κ := K (c, some r.num))
      (wpE_waitDma2_eq 𝒱₀ (c : Thread nD τ) none Set.univ) (Set.mem_univ _) () (O := O) (W := W) (R := 0) (m := 0) (T := ∅)
      (by rw [Nat.zero_add, hamt]; exact (expect_dma m c r).symm)) $$ [Hc HO Hat]
  · isplitr; · iexact HI
    isplitl [Hc]; · rw [hamt]; unfold crD; rw [roleOf_num]; iexact Hc
    isplitl [HO]; · iexact HO
    isplitr; · iexact HM
    iexact Hat
  iintro ⟨HO, Hat, -, Hpay⟩
  ihave Hp := (Entails.of_eq (rest_dma m c r)) $$ Hpay
  imod (Rounds.cell_close ER (Rd m) (Set.mem_univ (K (c, some r.num))) (fun h => h) (R := 0 + 1) (duties_later m (dCell c r.num))) $$ [Hat] with Hz
  · isplitr; · iexact HI
    iexact Hat
  iapply Hk
  isplitl [HO]; · iexists (insert (SemLoc.dma (dS r.num), ()) W); iexact HO
  isplitl [Hz]; · iexact Hz
  iexact Hp

/-- The same for the cell of number `n`, whatever its role. -/
theorem step_wait (m : (ℓ : Loc nD τ sig) → Buf (Elt F) ℓ) (K : Dev nD × Option (Fin 80) → ℕ) (c : Dev nD) (n : Fin 80)
    {O : CellTallies nD τ sig Unit} {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = roleAmt (roleOf n)) {α : Type} {Q : α → sProp 𝕄} {k : PUnit → Prog (TpuEff nD τ sig (Elt F) Λ₀ .tc) α} :
    iprop(Rec m K ∗ MayWait (c : Thread nD τ) (.dma (dS n)) () O ∗ crD c n ∗ posD c n ∗ owes (c : Thread nD τ) O W)
      ⊢ iprop((((∃ W', owes (c : Thread nD τ) O W') ∗ svD c n ∗ rolePay m c (roleOf n)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS n) src dst hsrc hdst) k) Q) := by
  have h := step_wait_role m K c (roleOf n) (O := O) (W := W) (src := src) (dst := dst) (hsrc := hsrc) (hdst := hdst) hamt (Q := Q) (k := k)
  rw [num_roleOf] at h
  exact h

/-! ## By role, with the payload spelt out and the evidence taken from the levels -/

theorem lv_loc (b : Fin 4) (v : Fin 2) : lvS (.dma (dS (nLoc b v)) : SemLoc sig) = 0 := by revert b v; decide
theorem lv_xs (b : Fin 4) (i : Fin 2) : lvS (.dma (dS (nXs b i)) : SemLoc sig) = 0 := by revert b i; decide
theorem lv_gs (b : Fin 4) (i : Fin 7) : lvS (.dma (dS (nGs b i)) : SemLoc sig) = 0 := by revert b i; decide

/-- The key rows of batch b have landed: the scratch rows at the keys of the device's head, and the source slice back. -/
theorem step_wait_locK (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NK) {α : Type} {Q : α → sProp 𝕄} {k : PUnit → Prog (TpuEff nD τ sig (Elt F) Λ₀ .tc) α} :
    iprop(Rec m K ∗ Lev (F := F) ∗ crD c (nLoc b 0) ∗ posD c (nLoc b 0) ∗ owes (c : Thread nD τ) (owedFrom c n) W)
      ⊢ iprop((((∃ W', owes (c : Thread nD τ) (owedFrom c n) W') ∗ svD c (nLoc b 0) ∗ kDstA m c b ∗ kSrcA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nLoc b 0)) src dst hsrc hdst) k) Q) := by
  iintro ⟨#HR, #HL, Hc, Hat, HO⟩
  ihave HM := (mayWait_lv0 (F := F) c (dS (nLoc b 0)) (lv_loc b 0) n) $$ HL
  iapply (step_wait_role m K c (.loc b 0) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The value rows of batch b have landed. -/
theorem step_wait_locV (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NV) {α : Type} {Q : α → sProp 𝕄} {k : PUnit → Prog (TpuEff nD τ sig (Elt F) Λ₀ .tc) α} :
    iprop(Rec m K ∗ Lev (F := F) ∗ crD c (nLoc b 1) ∗ posD c (nLoc b 1) ∗ owes (c : Thread nD τ) (owedFrom c n) W)
      ⊢ iprop((((∃ W', owes (c : Thread nD τ) (owedFrom c n) W') ∗ svD c (nLoc b 1) ∗ vDstA m c b ∗ vSrcA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nLoc b 1)) src dst hsrc hdst) k) Q) := by
  iintro ⟨#HR, #HL, Hc, Hat, HO⟩
  ihave HM := (mayWait_lv0 (F := F) c (dS (nLoc b 1)) (lv_loc b 1) n) $$ HL
  iapply (step_wait_role m K c (.loc b 1) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The weighted sums of batch b have been read out by the copy to the other half: the buffer is the device's again. -/
theorem step_wait_xsO (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NO) {α : Type} {Q : α → sProp 𝕄} {k : PUnit → Prog (TpuEff nD τ sig (Elt F) Λ₀ .tc) α} :
    iprop(Rec m K ∗ Lev (F := F) ∗ crD c (nXs b 0) ∗ posD c (nXs b 0) ∗ owes (c : Thread nD τ) (owedFrom c n) W)
      ⊢ iprop((((∃ W', owes (c : Thread nD τ) (owedFrom c n) W') ∗ svD c (nXs b 0) ∗ oA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXs b 0)) src dst hsrc hdst) k) Q) := by
  iintro ⟨#HR, #HL, Hc, Hat, HO⟩
  ihave HM := (mayWait_lv0 (F := F) c (dS (nXs b 0)) (lv_xs b 0) n) $$ HL
  iapply (step_wait_role m K c (.xs b 0) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The row sums of batch b have been read out. -/
theorem step_wait_xsL (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NL) {α : Type} {Q : α → sProp 𝕄} {k : PUnit → Prog (TpuEff nD τ sig (Elt F) Λ₀ .tc) α} :
    iprop(Rec m K ∗ Lev (F := F) ∗ crD c (nXs b 1) ∗ posD c (nXs b 1) ∗ owes (c : Thread nD τ) (owedFrom c n) W)
      ⊢ iprop((((∃ W', owes (c : Thread nD τ) (owedFrom c n) W') ∗ svD c (nXs b 1) ∗ lA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXs b 1)) src dst hsrc hdst) k) Q) := by
  iintro ⟨#HR, #HL, Hc, Hat, HO⟩
  ihave HM := (mayWait_lv0 (F := F) c (dS (nXs b 1)) (lv_xs b 1) n) $$ HL
  iapply (step_wait_role m K c (.xs b 1) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The other half's weighted sums of batch b have landed; waited at the point of the program where everything still owed lies above this cell. -/
theorem step_wait_xrO (m : (ℓ : Loc nD τ sig) → Buf (Elt F) ℓ) (K : Dev nD × Option (Fin 80) → ℕ) (c : Dev nD) (b : Fin 4)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NO) {α : Type} {Q : α → sProp 𝕄} {k : PUnit → Prog (TpuEff nD τ sig (Elt F) Λ₀ .tc) α} :
    iprop(Rec m K ∗ Lev (F := F) ∗ crD c (nXr b 0) ∗ posD c (nXr b 0) ∗ owes (c : Thread nD τ) (owedFrom c (nX b)) W)
      ⊢ iprop((((∃ W', owes (c : Thread nD τ) (owedFrom c (nX b)) W') ∗ svD c (nXr b 0) ∗ poA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXr b 0)) src dst hsrc hdst) k) Q) := by
  iintro ⟨#HR, #HL, Hc, Hat, HO⟩
  ihave HM := (mayWait_xr (F := F) c b 0) $$ HL
  iapply (step_wait_role m K c (.xr b 0) (O := owedFrom c (nX b)) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The other half's row sums of batch b have landed. -/
theorem step_wait_xrL (m : (ℓ : Loc nD τ sig) → Buf (Elt F) ℓ) (K : Dev nD × Option (Fin 80) → ℕ) (c : Dev nD) (b : Fin 4)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NL) {α : Type} {Q : α → sProp 𝕄} {k : PUnit → Prog (TpuEff nD τ sig (Elt F) Λ₀ .tc) α} :
    iprop(Rec m K ∗ Lev (F := F) ∗ crD c (nXr b 1) ∗ posD c (nXr b 1) ∗ owes (c : Thread nD τ) (owedFrom c (nX b)) W)
      ⊢ iprop((((∃ W', owes (c : Thread nD τ) (owedFrom c (nX b)) W') ∗ svD c (nXr b 1) ∗ plA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXr b 1)) src dst hsrc hdst) k) Q) := by
  iintro ⟨#HR, #HL, Hc, Hat, HO⟩
  ihave HM := (mayWait_xr (F := F) c b 1) $$ HL
  iapply (step_wait_role m K c (.xr b 1) (O := owedFrom c (nX b)) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The copy of batch b's merged block to the i-th other head has read it out: its share of the block is the device's again. Waited at the end, nothing owed. -/
theorem step_wait_as (m : (ℓ : Loc nD τ sig) → Buf (Elt F) ℓ) (K : Dev nD × Option (Fin 80) → ℕ) (c : Dev nD) (b : Fin 4) (i : Fin 7)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NH) {α : Type} {Q : α → sProp 𝕄} {k : PUnit → Prog (TpuEff nD τ sig (Elt F) Λ₀ .tc) α} :
    iprop(Rec m K ∗ Lev (F := F) ∗ crD c (nGs b i) ∗ posD c (nGs b i) ∗ owes (c : Thread nD τ) (owedFrom c 44) W)
      ⊢ iprop((((∃ W', owes (c : Thread nD τ) (owedFrom c 44) W') ∗ svD c (nGs b i) ∗ hA m c b (hdN c) (hdN_lt c) (gsShare i)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nGs b i)) src dst hsrc hdst) k) Q) := by
  iintro ⟨#HR, #HL, Hc, Hat, HO⟩
  ihave HM := (mayWait_end (F := F) c (.dma (dS (nGs b i)))) $$ HL
  iapply (step_wait_role m K c (.gs b i) (O := owedFrom c 44) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The i-th other head's merged block of batch b has landed in the device's result buffer. Waited at the end, nothing owed. -/
theorem step_wait_ar (m : (ℓ : Loc nD τ sig) → Buf (Elt F) ℓ) (K : Dev nD × Option (Fin 80) → ℕ) (c : Dev nD) (b : Fin 4) (i : Fin 7)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NH) {α : Type} {Q : α → sProp 𝕄} {k : PUnit → Prog (TpuEff nD τ sig (Elt F) Λ₀ .tc) α} :
    iprop(Rec m K ∗ Lev (F := F) ∗ crD c (nGr b i) ∗ posD c (nGr b i) ∗ owes (c : Thread nD τ) (owedFrom c 44) W)
      ⊢ iprop((((∃ W', owes (c : Thread nD τ) (owedFrom c 44) W') ∗ svD c (nGr b i) ∗ hA m c b (hdN (pr i.succ c)) (hdN_lt _) fullShare) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nGr b i)) src dst hsrc hdst) k) Q) := by
  iintro ⟨#HR, #HL, Hc, Hat, HO⟩
  ihave HM := (mayWait_end (F := F) c (.dma (dS (nGr b i)))) $$ HL
  iapply (step_wait_role m K c (.gr b i) (O := owedFrom c 44) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- info: 'Cert.KernelIdeal.Flash.step_wait_role' depends on axioms: [propext, Classical.choice, Quot.sound] -/
#guard_msgs in #print axioms step_wait_role

end Cert.KernelIdeal.Flash

end
-- ==== Proof.StepsBar.lean ====
/-
  The entry handshake on the barrier semaphore, as two steps of a device's body.

  A device signals the barrier cell of each of its eight peers with one unit, paying duty j of peer j's cell:
  with the signal it hands the peer what the schedule says that duty carries — to the other half of its head
  its two landing buffers, to another head's device the four rows of its result buffer that device will
  write — and what it owes shrinks by that unit.  Then it waits for eight units on its own barrier cell: the
  whole of round 0, so the eight payloads its peers handed in come back together.
-/
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.Levels
import Mathlib.Logic.Equiv.Fin.Basic

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The dues: the first eight paying steps are the barrier units -/

theorem step_bar : ∀ j : Fin 8, step j.val = (j, none, 1) := by decide

/-- Paying step j, for j below 8, is one unit on peer j's barrier cell. -/
theorem owed_bar (j : Fin 8) : owedFrom c j.val = owedFrom c (j.val + 1) + tallyAt (barCell (pr j c)) () 1 := by
  rw [owedFrom_peel c j.val (by have := j.isLt; omega)]
  unfold payAt
  rw [step_bar j]

/-! ## The signal -/

/-- The signal to peer j: its barrier cell's duty j, paid with the token, the payload and one unit of the dues. -/
theorem step_sig (j : Fin 8) {W : Waits sig Unit} {α : Type} {Q : α → sProp 𝕄}
    {k : PUnit → Prog (TpuEff nD τ sig (Elt F) Λ₀ .tc) α} :
    iprop(Rec m K ∗ owes (c : Thread nD τ) (owedFrom c j.val) W ∗ tokB c j ∗ give c j)
      ⊢ iprop((owes (c : Thread nD τ) (owedFrom c (j.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((pr j c : Dev nD) : Thread nD τ) barS 1) k) Q) := by
  iintro ⟨#HR, HO, Htok, Hgive⟩
  iapply (Rounds.wp_signal 𝒱₀ ER (Rd m) (c : Thread nD τ) none (dst := ((pr j c : Dev nD) : Thread nD τ)) (sem := barS)
      (κ := K (pr j c, none)) (r := 0) (d := j) (mem_duties_bar m (pr j c) j) (amount_bar m (pr j c) j) ()
      (owedFrom c (j.val + 1)) (owed_bar c j))
  isplitr; · iapply (inv_bar (Rd m) K (pr j c)); iexact HR
  isplitl [HO]; · iexact HO
  isplitl [Htok]; · iexact Htok
  isplitl [Hgive]
  · rw [payload_bar]; unfold give; iexact Hgive
  · iapply (reached_bar (Rd m) K (pr j c)); iexact HR

/-- The same with the addressed device named by a variable equal to peer j: the form a program takes whose target is
    computed from the device's own position. -/
theorem step_sig_dev (j : Fin 8) (d : Dev nD) (hd : d = pr j c) {W : Waits sig Unit} {α : Type} {Q : α → sProp 𝕄}
    {k : PUnit → Prog (TpuEff nD τ sig (Elt F) Λ₀ .tc) α} :
    iprop(Rec m K ∗ owes (c : Thread nD τ) (owedFrom c j.val) W ∗ tokB c j ∗ give c j)
      ⊢ iprop((owes (c : Thread nD τ) (owedFrom c (j.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((d : Dev nD) : Thread nD τ) barS 1) k) Q) := by
  subst hd; exact step_sig m K c j

/-! ## The wait -/

/-- The payloads of the whole of round 0 of the device's barrier cell are what its eight peers hand it. -/
theorem rest_bar_got : (bigSep ((Rd (F := F) m).duties (barCell c) 0 \ ∅) fun d => (Rd (F := F) m).payload (barCell c) 0 d) = got c := by
  rw [duties_bar, Finset.sdiff_empty]; unfold got
  exact bigSep_congr fun j _ => payload_bar m c j

/-- The wait for the eight units: the rest of round 0 of the device's barrier cell, all of it. -/
theorem step_barwait {W : Waits sig Unit} {α : Type} {Q : α → sProp 𝕄}
    {k : PUnit → Prog (TpuEff nD τ sig (Elt F) Λ₀ .tc) α} :
    iprop(Rec m K ∗ Lev ∗ crB c ∗ posB c ∗ owes (c : Thread nD τ) (owedFrom c 8) W)
      ⊢ iprop((iprop((∃ W', owes (c : Thread nD τ) (owedFrom c 8) W') ∗ got c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 8) k) Q) := by
  iintro ⟨#HR, #Hlev, Hcr, Hpos, HO⟩ Hk
  iapply (Rounds.wp_wait_rest_token 𝒱₀ ER (Rd m) (c : Thread nD τ) none (κ := K (c, none)) (sm := .reg barS) (k' := 8)
      (wpE_semWait_eq 𝒱₀ (c : Thread nD τ) none Set.univ) (Set.mem_univ _) () (O := owedFrom c 8) (W := W) (R := 0) (m := 0) (T := ∅)
      (by rw [expect_bar])) $$ [Hcr HO Hpos]
  · isplitr; · iapply (inv_bar (Rd m) K c); iexact HR
    isplitl [Hcr]; · iexact Hcr
    isplitl [HO]; · iexact HO
    isplitr; · iapply (mayWait_bar c); iexact Hlev
    iexact Hpos
  iintro ⟨HO, -, -, Hpay⟩
  iapply Hk
  isplitl [HO]; · iexists _; iexact HO
  iapply (Entails.of_eq (rest_bar_got m c))
  iexact Hpay

/-! ## What is handed over, in the body's own terms -/

section Glue

/-- Over the eight duties: duty 0, and the seven others. -/
theorem bigSep_fin8_succ {M : Type} [URA M] (Φ : Fin 8 → sProp M) :
    bigSep Finset.univ Φ = iprop(Φ 0 ∗ bigSep Finset.univ fun i : Fin 7 => Φ i.succ) := by
  rw [bigSep_univ_equiv (finSuccEquiv 7).symm Φ, bigSep_univ_option]
  simp only [finSuccEquiv_symm_none, finSuccEquiv_symm_some]

omit [FloatOps F] in
/-- All the elements of a whole buffer at some contents are the buffer at some contents. -/
theorem slE_oM' (d : Dev nD) : (slE (F := F) d oM' : sProp 𝕄) = wholeE d cc0_scratch4 := by
  show iprop(∃ f, (oM' : Memref sig .tc .vmem S4x32x128 .f32).view.loc (d : Thread nD τ) ↦[(oM' : Memref sig .tc .vmem S4x32x128 .f32).view.set]{fullShare} f) = _
  simp only [Memref.view_whole, View.set_whole]
omit [FloatOps F] in
theorem slE_lM' (d : Dev nD) : (slE (F := F) d lM' : sProp 𝕄) = wholeE d cc0_scratch5 := by
  show iprop(∃ f, (lM' : Memref sig .tc .vmem S4x32x1 .f32).view.loc (d : Thread nD τ) ↦[(lM' : Memref sig .tc .vmem S4x32x1 .f32).view.set]{fullShare} f) = _
  simp only [Memref.view_whole, View.set_whole]

omit [FloatOps F] in
/-- To the other half of its head a device hands its two landing buffers, whole, at whatever they hold. -/
theorem give_zero : (give (F := F) c 0 : sProp 𝕄) = iprop(wholeE c cc0_scratch4 ∗ wholeE c cc0_scratch5) := by
  unfold give barPay
  rw [if_pos rfl, pr_pr, ← slE_oM', ← slE_lM']

omit [FloatOps F] in
/-- To the device of its half working on another head: the four rows of its result buffer that device will write. -/
theorem give_succ (i : Fin 7) : (give (F := F) c i.succ : sProp 𝕄)
    = bigSep Finset.univ fun b : Fin 4 => hE (F := F) c b (hdN (pr i.succ c)) (hdN_lt _) := by
  unfold give barPay
  rw [if_neg (Fin.succ_ne_zero i), pr_pr]

omit [FloatOps F] in
/-- What comes back with the eight units: the other half's landing buffers, and from each other head's device the
    four rows of its result buffer this device will write. -/
theorem got_eq : (got (F := F) c : sProp 𝕄)
    = iprop((wholeE (pr 0 c) cc0_scratch4 ∗ wholeE (pr 0 c) cc0_scratch5)
        ∗ bigSep Finset.univ fun i : Fin 7 => bigSep Finset.univ fun b : Fin 4 => hE (F := F) (pr i.succ c) b (hdN c) (hdN_lt c)) := by
  have h0 : (barPay (F := F) c 0 : sProp 𝕄) = iprop(wholeE (pr 0 c) cc0_scratch4 ∗ wholeE (pr 0 c) cc0_scratch5) := by
    unfold barPay; rw [if_pos rfl, ← slE_oM', ← slE_lM']
  have hs : (bigSep Finset.univ fun i : Fin 7 => (barPay (F := F) c i.succ : sProp 𝕄))
      = bigSep Finset.univ fun i : Fin 7 => bigSep Finset.univ fun b : Fin 4 => hE (F := F) (pr i.succ c) b (hdN c) (hdN_lt c) :=
    bigSep_congr fun i _ => by unfold barPay; rw [if_neg (Fin.succ_ne_zero i)]
  unfold got
  rw [bigSep_fin8_succ, h0, hs]

end Glue

/-- info: 'Cert.KernelIdeal.Flash.step_sig' depends on axioms: [propext, Classical.choice, Quot.sound] -/
#guard_msgs in #print axioms step_sig

/-- info: 'Cert.KernelIdeal.Flash.step_barwait' depends on axioms: [propext, Classical.choice, Quot.sound] -/
#guard_msgs in #print axioms step_barwait

end Cert.KernelIdeal.Flash

end
-- ==== Proof.StepsGlue.lean ====
/-
  What the barrier handshake hands over, written as right-nested chains of the body's own resources: what a
  device gives each peer with its signal, and what the eight units it waits for bring back.
-/
import proofs.«900786_g7700000000000787_dist_flashdec_v7x_xyz2x2x4_x_b4_sq32_skv4096_h8_d128_f32_1_alg».proof.Proof.StepsBar
import proofs.«900786_g7700000000000787_dist_flashdec_v7x_xyz2x2x4_x_b4_sq32_skv4096_h8_d128_f32_1_alg».proof.Proof.Chains

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (c : Dev nD)

omit [FloatOps F] in
/-- To the other half of its head: the device's two landing buffers. -/
theorem give_zero_intro : iprop(wholeE (F := F) c cc0_scratch4 ∗ wholeE (F := F) c cc0_scratch5) ⊢ (give (F := F) c 0 : sProp 𝕄) :=
  Entails.of_eq (give_zero c).symm

omit [FloatOps F] in
/-- To the device working on another head: the four rows of the result buffer that device will write, batch by batch. -/
theorem give_succ_intro (i : Fin 7) :
    iprop(hE (F := F) c 0 (hdN (pr i.succ c)) (hdN_lt _) ∗ hE (F := F) c 1 (hdN (pr i.succ c)) (hdN_lt _) ∗ hE (F := F) c 2 (hdN (pr i.succ c)) (hdN_lt _) ∗ hE (F := F) c 3 (hdN (pr i.succ c)) (hdN_lt _))
      ⊢ (give (F := F) c i.succ : sProp 𝕄) := by
  rw [give_succ, bigSep_fin4]

omit [FloatOps F] in
/-- What the eight units bring back: the other half's two landing buffers, then from each of the seven other heads'
    devices, in order, the four rows of its result buffer this device will write. -/
theorem got_elim : (got (F := F) c : sProp 𝕄)
    ⊢ iprop(wholeE (F := F) (pr 0 c) cc0_scratch4 ∗ wholeE (F := F) (pr 0 c) cc0_scratch5
        ∗ hE (F := F) (pr (0 : Fin 7).succ c) 0 (hdN c) (hdN_lt c)
        ∗ hE (F := F) (pr (0 : Fin 7).succ c) 1 (hdN c) (hdN_lt c)
        ∗ hE (F := F) (pr (0 : Fin 7).succ c) 2 (hdN c) (hdN_lt c)
        ∗ hE (F := F) (pr (0 : Fin 7).succ c) 3 (hdN c) (hdN_lt c)
        ∗ hE (F := F) (pr (1 : Fin 7).succ c) 0 (hdN c) (hdN_lt c)
        ∗ hE (F := F) (pr (1 : Fin 7).succ c) 1 (hdN c) (hdN_lt c)
        ∗ hE (F := F) (pr (1 : Fin 7).succ c) 2 (hdN c) (hdN_lt c)
        ∗ hE (F := F) (pr (1 : Fin 7).succ c) 3 (hdN c) (hdN_lt c)
        ∗ hE (F := F) (pr (2 : Fin 7).succ c) 0 (hdN c) (hdN_lt c)
        ∗ hE (F := F) (pr (2 : Fin 7).succ c) 1 (hdN c) (hdN_lt c)
        ∗ hE (F := F) (pr (2 : Fin 7).succ c) 2 (hdN c) (hdN_lt c)
        ∗ hE (F := F) (pr (2 : Fin 7).succ c) 3 (hdN c) (hdN_lt c)
        ∗ hE (F := F) (pr (3 : Fin 7).succ c) 0 (hdN c) (hdN_lt c)
        ∗ hE (F := F) (pr (3 : Fin 7).succ c) 1 (hdN c) (hdN_lt c)
        ∗ hE (F := F) (pr (3 : Fin 7).succ c) 2 (hdN c) (hdN_lt c)
        ∗ hE (F := F) (pr (3 : Fin 7).succ c) 3 (hdN c) (hdN_lt c)
        ∗ hE (F := F) (pr (4 : Fin 7).succ c) 0 (hdN c) (hdN_lt c)
        ∗ hE (F := F) (pr (4 : Fin 7).succ c) 1 (hdN c) (hdN_lt c)
        ∗ hE (F := F) (pr (4 : Fin 7).succ c) 2 (hdN c) (hdN_lt c)
        ∗ hE (F := F) (pr (4 : Fin 7).succ c) 3 (hdN c) (hdN_lt c)
        ∗ hE (F := F) (pr (5 : Fin 7).succ c) 0 (hdN c) (hdN_lt c)
        ∗ hE (F := F) (pr (5 : Fin 7).succ c) 1 (hdN c) (hdN_lt c)
        ∗ hE (F := F) (pr (5 : Fin 7).succ c) 2 (hdN c) (hdN_lt c)
        ∗ hE (F := F) (pr (5 : Fin 7).succ c) 3 (hdN c) (hdN_lt c)
        ∗ hE (F := F) (pr (6 : Fin 7).succ c) 0 (hdN c) (hdN_lt c)
        ∗ hE (F := F) (pr (6 : Fin 7).succ c) 1 (hdN c) (hdN_lt c)
        ∗ hE (F := F) (pr (6 : Fin 7).succ c) 2 (hdN c) (hdN_lt c)
        ∗ hE (F := F) (pr (6 : Fin 7).succ c) 3 (hdN c) (hdN_lt c)) := by
  rw [got_eq, bigSep_fin7x4 (fun (i : Fin 7) (b : Fin 4) => hE (F := F) (pr i.succ c) b (hdN c) (hdN_lt c))]
  exact sep_assoc.1

/-- info: 'Cert.KernelIdeal.Flash.got_elim' depends on axioms: [propext, Classical.choice, Quot.sound] -/
#guard_msgs in #print axioms got_elim

end Cert.KernelIdeal.Flash

end
-- ==== Proof.StepsCopy.lean ====
/-
  The copies of the body, one step each: the eight local copies of a device's key and value rows into its
  scratch buffers, and the exchange's two copies of a batch's weighted sums and row sums into the landing
  buffers of the other half of the head.

  A local copy completes on one of the device's own cells, whose one duty the device itself pays: the copy hands
  in the source rows and the destination rows at whatever they hold, and the duty's payload is the destination
  rows holding the source rows' head (the restating equation of the landed contents) with the source rows back.
  The device gets the cell's credit.

  A copy of the exchange pays two duties: the one of the device's own send cell, whose payload is the source
  rows back, and the one of the receive cell of the other half, whose payload is the other half's landing rows
  holding this device's partial results; the other half of the other half being the device itself, that is the
  payload the schedule names there. The receive cell's credit is one summand of what the device owes, and the
  step peels it.
-/
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.Levels
import proofs.«900786_g7700000000000787_dist_flashdec_v7x_xyz2x2x4_x_b4_sq32_skv4096_h8_d128_f32_1_alg».proof.Proof.SchedTables
import proofs.«900786_g7700000000000787_dist_flashdec_v7x_xyz2x2x4_x_b4_sq32_skv4096_h8_d128_f32_1_alg».proof.Proof.SchedRestate
import proofs.«900786_g7700000000000787_dist_flashdec_v7x_xyz2x2x4_x_b4_sq32_skv4096_h8_d128_f32_1_alg».proof.Proof.Topo

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The amounts and the payers of the cells the copies complete on -/

theorem amt_locK (b : Fin 4) : roleAmt (roleOf (nLoc b 0)) = NK := by
  rw [show nLoc b 0 = (Role.loc b 0).num from rfl, roleOf_num]; rfl
theorem amt_locV (b : Fin 4) : roleAmt (roleOf (nLoc b 1)) = NV := by
  rw [show nLoc b 1 = (Role.loc b 1).num from rfl, roleOf_num]; rfl
theorem amt_xsO (b : Fin 4) : roleAmt (roleOf (nXs b 0)) = NO := by
  rw [show nXs b 0 = (Role.xs b 0).num from rfl, roleOf_num]; rfl
theorem amt_xsL (b : Fin 4) : roleAmt (roleOf (nXs b 1)) = NL := by
  rw [show nXs b 1 = (Role.xs b 1).num from rfl, roleOf_num]; rfl

theorem tgt_loc (c : Dev nD) (b : Fin 4) (v : Fin 2) : tgt (nLoc b v) c = c :=
  tgt_own _ (Or.inl (by revert b v; decide)) c
theorem tgt_xs (c : Dev nD) (b : Fin 4) (i : Fin 2) : tgt (nXs b i) c = c :=
  tgt_own _ (Or.inl (by revert b i; decide)) c
theorem tgt_nXr (c : Dev nD) (b : Fin 4) (i : Fin 2) : tgt (nXr b i) c = pr 0 c := tgt_xr b i c

/-! ## The local copies -/

theorem step_locK (K : Dev nD × Option (Fin 80) → ℕ) (c : Dev nD) (b : Fin 4)
    {α : Type} {Q : α → sProp 𝕄} {k : PUnit → Prog (TpuEff nD τ sig (Elt F) Λ₀ .tc) α}
    {hsrc : (kvSrc b.val b.isLt (hdN c) (hdN_lt c) aK).view.WordExact} {hdst : (kvDst b.val b.isLt kM).view.WordExact}
    {hsem : DmaTarget.Typed .hbm (.dma (dS (nLoc b 0))) (.here (kvDst b.val b.isLt kM) : DmaTarget nD τ sig Proc.tc .vmem S4096x1x128 .f32)} :
    iprop(Rec m K ∗ kSrcA m c b ∗ kDstE c b ∗ tokD c (nLoc b 0))
      ⊢ iprop((crD c (nLoc b 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kvSrc b.val b.isLt (hdN c) (hdN_lt c) aK) (.here (kvDst b.val b.isLt kM)) (.dma (dS (nLoc b 0))) hsrc hdst hsem) k) Q) := by
  unfold tokD crD kSrcA kDstE slE
  rw [tgt_loc, amt_locK]
  iintro ⟨#HR, Hsrc, ⟨%f, Hdst⟩, Htok⟩
  iapply (Rounds.wp_copy_pointsTo 𝒱₀ ER (Rd m) (c : Thread nD τ) none
      (src := kvSrc b.val b.isLt (hdN c) (hdN_lt c) aK) (dst := kvDst b.val b.isLt kM) (q := fullShare)
      (fs := m ((c : Thread nD τ).loc main_arg1)) (fd := f) (r := 0) (d := 0) (κ := K (c, some (nLoc b 0)))
      (mem_duties_dma m c (nLoc b 0)) () NK (NK_eq b.val b.isLt _) (amount_loc_k m c b 0)
      (by rw [payload_loc_k]; exact sep_mono_left (Entails.of_eq (landed_k m c b f)))) $$ [Hsrc Hdst Htok]
  isplitr; · iapply (inv_d (Rd m) K c (nLoc b 0)); iexact HR
  isplitl [Hsrc]; · iexact Hsrc
  isplitl [Hdst]; · iexact Hdst
  isplitl [Htok]; · iexact Htok
  iapply (reached_d (Rd m) K c (nLoc b 0)); iexact HR

theorem step_locV (K : Dev nD × Option (Fin 80) → ℕ) (c : Dev nD) (b : Fin 4)
    {α : Type} {Q : α → sProp 𝕄} {k : PUnit → Prog (TpuEff nD τ sig (Elt F) Λ₀ .tc) α}
    {hsrc : (kvSrc b.val b.isLt (hdN c) (hdN_lt c) aV).view.WordExact} {hdst : (kvDst b.val b.isLt vM).view.WordExact}
    {hsem : DmaTarget.Typed .hbm (.dma (dS (nLoc b 1))) (.here (kvDst b.val b.isLt vM) : DmaTarget nD τ sig Proc.tc .vmem S4096x1x128 .f32)} :
    iprop(Rec m K ∗ vSrcA m c b ∗ vDstE c b ∗ tokD c (nLoc b 1))
      ⊢ iprop((crD c (nLoc b 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kvSrc b.val b.isLt (hdN c) (hdN_lt c) aV) (.here (kvDst b.val b.isLt vM)) (.dma (dS (nLoc b 1))) hsrc hdst hsem) k) Q) := by
  unfold tokD crD vSrcA vDstE slE
  rw [tgt_loc, amt_locV]
  iintro ⟨#HR, Hsrc, ⟨%f, Hdst⟩, Htok⟩
  iapply (Rounds.wp_copy_pointsTo 𝒱₀ ER (Rd m) (c : Thread nD τ) none
      (src := kvSrc b.val b.isLt (hdN c) (hdN_lt c) aV) (dst := kvDst b.val b.isLt vM) (q := fullShare)
      (fs := m ((c : Thread nD τ).loc main_arg2)) (fd := f) (r := 0) (d := 0) (κ := K (c, some (nLoc b 1)))
      (mem_duties_dma m c (nLoc b 1)) () NV (NV_eq b.val b.isLt _) (amount_loc_v m c b 0)
      (by rw [payload_loc_v]; exact sep_mono_left (Entails.of_eq (landed_v m c b f)))) $$ [Hsrc Hdst Htok]
  isplitr; · iapply (inv_d (Rd m) K c (nLoc b 1)); iexact HR
  isplitl [Hsrc]; · iexact Hsrc
  isplitl [Hdst]; · iexact Hdst
  isplitl [Htok]; · iexact Htok
  iapply (reached_d (Rd m) K c (nLoc b 1)); iexact HR

/-! ## The exchange's two copies to the other half -/

theorem step_xsendO' (K : Dev nD × Option (Fin 80) → ℕ) (c : Dev nD) (b : Fin 4)
    (O₀ O : CellTallies nD τ sig Unit) (hO : O₀ = O + tallyAt (dCell (pr 0 c) (nXr b 0)) () NO)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc (pr 0 c) : Thread nD τ) (oSl b.val b.isLt oM') (.dma (dS (nXs b 0))) hsc)} :
    iprop(Rec m K ∗ oA m c b ∗ poE (pr 0 c) b ∗ owes (c : Thread nD τ) O₀ W ∗ tokD c (nXs b 0) ∗ tokD c (nXr b 0))
      ⊢ iprop(((crD c (nXs b 0) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc (pr 0 c) : Thread nD τ) (oSl b.val b.isLt oM') (.dma (dS (nXs b 0))) hsc)
                (.dma (dS (nXr b 0))) hsrc hdst hsem) k) Q) := by
  unfold tokD crD oA poE slE
  rw [tgt_xs, tgt_nXr, amt_xsO]
  iintro ⟨#HR, Hsrc, ⟨%f, Hdst⟩, HO, Htok₁, Htok₂⟩
  iapply (Rounds.wp_send_pointsTo 𝒱₀ ER (Rd m) (c : Thread nD τ) none (c' := (Dev.tc (pr 0 c) : Thread nD τ))
      (src := oSl b.val b.isLt oM) (dst := oSl b.val b.isLt oM') (q := fullShare) (fs := oC m c) (fd := f)
      (κ₁ := K (c, some (nXs b 0))) (κ₂ := K (pr 0 c, some (nXr b 0))) (r₁ := 0) (r₂ := 0) (d₁ := 0) (d₂ := 0)
      (mem_duties_dma m c (nXs b 0)) (mem_duties_dma m (pr 0 c) (nXr b 0))
      () () NO (NO_eq b.val b.isLt _) (amount_xs_o m c b 0) (amount_xr_o m (pr 0 c) b 0) O hO (W := W)
      (Entails.of_eq (payload_xs_o m c b 0).symm)
      (by rw [payload_xr_o, pr_pr]; exact Entails.of_eq (landed_o m c (pr 0 c) b f))) $$ [Hsrc Hdst HO Htok₁ Htok₂]
  isplitr; · iapply (inv_d (Rd m) K c (nXs b 0)); iexact HR
  isplitr; · iapply (inv_d (Rd m) K (pr 0 c) (nXr b 0)); iexact HR
  isplitl [Hsrc]; · iexact Hsrc
  isplitl [Hdst]; · iexact Hdst
  isplitl [HO]; · iexact HO
  isplitl [Htok₁]; · iexact Htok₁
  isplitr; · iapply (reached_d (Rd m) K c (nXs b 0)); iexact HR
  isplitl [Htok₂]; · iexact Htok₂
  iapply (reached_d (Rd m) K (pr 0 c) (nXr b 0)); iexact HR

theorem step_xsendL' (K : Dev nD × Option (Fin 80) → ℕ) (c : Dev nD) (b : Fin 4)
    (O₀ O : CellTallies nD τ sig Unit) (hO : O₀ = O + tallyAt (dCell (pr 0 c) (nXr b 1)) () NL)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc (pr 0 c) : Thread nD τ) (lSl b.val b.isLt lM') (.dma (dS (nXs b 1))) hsc)} :
    iprop(Rec m K ∗ lA m c b ∗ plE (pr 0 c) b ∗ owes (c : Thread nD τ) O₀ W ∗ tokD c (nXs b 1) ∗ tokD c (nXr b 1))
      ⊢ iprop(((crD c (nXs b 1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc (pr 0 c) : Thread nD τ) (lSl b.val b.isLt lM') (.dma (dS (nXs b 1))) hsc)
                (.dma (dS (nXr b 1))) hsrc hdst hsem) k) Q) := by
  unfold tokD crD lA plE slE
  rw [tgt_xs, tgt_nXr, amt_xsL]
  iintro ⟨#HR, Hsrc, ⟨%f, Hdst⟩, HO, Htok₁, Htok₂⟩
  iapply (Rounds.wp_send_pointsTo 𝒱₀ ER (Rd m) (c : Thread nD τ) none (c' := (Dev.tc (pr 0 c) : Thread nD τ))
      (src := lSl b.val b.isLt lM) (dst := lSl b.val b.isLt lM') (q := fullShare) (fs := lC m c) (fd := f)
      (κ₁ := K (c, some (nXs b 1))) (κ₂ := K (pr 0 c, some (nXr b 1))) (r₁ := 0) (r₂ := 0) (d₁ := 0) (d₂ := 0)
      (mem_duties_dma m c (nXs b 1)) (mem_duties_dma m (pr 0 c) (nXr b 1))
      () () NL (NL_eq b.val b.isLt _) (amount_xs_l m c b 0) (amount_xr_l m (pr 0 c) b 0) O hO (W := W)
      (Entails.of_eq (payload_xs_l m c b 0).symm)
      (by rw [payload_xr_l, pr_pr]; exact Entails.of_eq (landed_l m c (pr 0 c) b f))) $$ [Hsrc Hdst HO Htok₁ Htok₂]
  isplitr; · iapply (inv_d (Rd m) K c (nXs b 1)); iexact HR
  isplitr; · iapply (inv_d (Rd m) K (pr 0 c) (nXr b 1)); iexact HR
  isplitl [Hsrc]; · iexact Hsrc
  isplitl [Hdst]; · iexact Hdst
  isplitl [HO]; · iexact HO
  isplitl [Htok₁]; · iexact Htok₁
  isplitr; · iapply (reached_d (Rd m) K c (nXs b 1)); iexact HR
  isplitl [Htok₂]; · iexact Htok₂
  iapply (reached_d (Rd m) K (pr 0 c) (nXr b 1)); iexact HR

/-- The copy of the weighted sums of batch b as paying step n of the device's dues: the step's peel
    (owed_8, owed_10, owed_19, owed_28 for b = 0, 1, 2, 3) is the hypothesis. -/
theorem step_xsendO (K : Dev nD × Option (Fin 80) → ℕ) (c : Dev nD) (b : Fin 4) (n : ℕ)
    (hO : owedFrom c n = owedFrom c (n + 1) + tallyAt (dCell (pr 0 c) (nXr b 0)) () NO)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc (pr 0 c) : Thread nD τ) (oSl b.val b.isLt oM') (.dma (dS (nXs b 0))) hsc)} :
    iprop(Rec m K ∗ oA m c b ∗ poE (pr 0 c) b ∗ owes (c : Thread nD τ) (owedFrom c n) W ∗ tokD c (nXs b 0) ∗ tokD c (nXr b 0))
      ⊢ iprop(((crD c (nXs b 0) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc (pr 0 c) : Thread nD τ) (oSl b.val b.isLt oM') (.dma (dS (nXs b 0))) hsc)
                (.dma (dS (nXr b 0))) hsrc hdst hsem) k) Q) :=
  step_xsendO' m K c b (owedFrom c n) (owedFrom c (n + 1)) hO

/-- The copy of the row sums of batch b as paying step n (owed_9, owed_11, owed_20, owed_29). -/
theorem step_xsendL (K : Dev nD × Option (Fin 80) → ℕ) (c : Dev nD) (b : Fin 4) (n : ℕ)
    (hO : owedFrom c n = owedFrom c (n + 1) + tallyAt (dCell (pr 0 c) (nXr b 1)) () NL)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc (pr 0 c) : Thread nD τ) (lSl b.val b.isLt lM') (.dma (dS (nXs b 1))) hsc)} :
    iprop(Rec m K ∗ lA m c b ∗ plE (pr 0 c) b ∗ owes (c : Thread nD τ) (owedFrom c n) W ∗ tokD c (nXs b 1) ∗ tokD c (nXr b 1))
      ⊢ iprop(((crD c (nXs b 1) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc (pr 0 c) : Thread nD τ) (lSl b.val b.isLt lM') (.dma (dS (nXs b 1))) hsc)
                (.dma (dS (nXr b 1))) hsrc hdst hsem) k) Q) :=
  step_xsendL' m K c b (owedFrom c n) (owedFrom c (n + 1)) hO

/-! The eight instances: each batch's two copies at their paying steps. -/
example (K : Dev nD × Option (Fin 80) → ℕ) (c : Dev nD) := @step_xsendO F _ m K c 0 8 (owed_8 c)
example (K : Dev nD × Option (Fin 80) → ℕ) (c : Dev nD) := @step_xsendL F _ m K c 0 9 (owed_9 c)
example (K : Dev nD × Option (Fin 80) → ℕ) (c : Dev nD) := @step_xsendO F _ m K c 1 10 (owed_10 c)
example (K : Dev nD × Option (Fin 80) → ℕ) (c : Dev nD) := @step_xsendL F _ m K c 1 11 (owed_11 c)
example (K : Dev nD × Option (Fin 80) → ℕ) (c : Dev nD) := @step_xsendO F _ m K c 2 19 (owed_19 c)
example (K : Dev nD × Option (Fin 80) → ℕ) (c : Dev nD) := @step_xsendL F _ m K c 2 20 (owed_20 c)
example (K : Dev nD × Option (Fin 80) → ℕ) (c : Dev nD) := @step_xsendO F _ m K c 3 28 (owed_28 c)
example (K : Dev nD × Option (Fin 80) → ℕ) (c : Dev nD) := @step_xsendL F _ m K c 3 29 (owed_29 c)

/-! ## The local copies, the source rows' offsets a variable

The program spells the offsets of a device's head rows by a function of the device; these forms take the
offsets as a variable with the equation that says which rows they are. -/

theorem step_locK_off (K : Dev nD × Option (Fin 80) → ℕ) (c : Dev nD) (b : Fin 4) (off : Fin 4 → ℕ)
    (hoff : off = ![b.val, 0, hdN c, 0])
    {hinb : ∀ a, off a + S1x4096x1x128.size a ≤ S4x4096x8x128.size a}
    {h2 : ∀ a, (Rect.unit (s := S4x4096x8x128) off S1x4096x1x128.size hinb).stride a = 1}
    {α : Type} {Q : α → sProp 𝕄} {k : PUnit → Prog (TpuEff nD τ sig (Elt F) Λ₀ .tc) α}
    {hsrc : (((Memref.whole main_arg1 : Memref sig .tc .hbm S4x4096x8x128 .f32).slice
        (Rect.unit (s := S4x4096x8x128) off S1x4096x1x128.size hinb) h2).squeeze S4096x1x128 squeezes_S1x4096x1x128_S4096x1x128).view.WordExact}
    {hdst : (kvDst b.val b.isLt kM).view.WordExact}
    {hsem : DmaTarget.Typed .hbm (.dma (dS (nLoc b 0))) (.here (kvDst b.val b.isLt kM) : DmaTarget nD τ sig Proc.tc .vmem S4096x1x128 .f32)} :
    iprop(Rec m K ∗ kSrcA m c b ∗ kDstE c b ∗ tokD c (nLoc b 0))
      ⊢ iprop((crD c (nLoc b 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole main_arg1 : Memref sig .tc .hbm S4x4096x8x128 .f32).slice
                  (Rect.unit (s := S4x4096x8x128) off S1x4096x1x128.size hinb) h2).squeeze S4096x1x128 squeezes_S1x4096x1x128_S4096x1x128)
                (.here (kvDst b.val b.isLt kM)) (.dma (dS (nLoc b 0))) hsrc hdst hsem) k) Q) := by
  subst hoff
  exact step_locK m K c b

theorem step_locV_off (K : Dev nD × Option (Fin 80) → ℕ) (c : Dev nD) (b : Fin 4) (off : Fin 4 → ℕ)
    (hoff : off = ![b.val, 0, hdN c, 0])
    {hinb : ∀ a, off a + S1x4096x1x128.size a ≤ S4x4096x8x128.size a}
    {h2 : ∀ a, (Rect.unit (s := S4x4096x8x128) off S1x4096x1x128.size hinb).stride a = 1}
    {α : Type} {Q : α → sProp 𝕄} {k : PUnit → Prog (TpuEff nD τ sig (Elt F) Λ₀ .tc) α}
    {hsrc : (((Memref.whole main_arg2 : Memref sig .tc .hbm S4x4096x8x128 .f32).slice
        (Rect.unit (s := S4x4096x8x128) off S1x4096x1x128.size hinb) h2).squeeze S4096x1x128 squeezes_S1x4096x1x128_S4096x1x128).view.WordExact}
    {hdst : (kvDst b.val b.isLt vM).view.WordExact}
    {hsem : DmaTarget.Typed .hbm (.dma (dS (nLoc b 1))) (.here (kvDst b.val b.isLt vM) : DmaTarget nD τ sig Proc.tc .vmem S4096x1x128 .f32)} :
    iprop(Rec m K ∗ vSrcA m c b ∗ vDstE c b ∗ tokD c (nLoc b 1))
      ⊢ iprop((crD c (nLoc b 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole main_arg2 : Memref sig .tc .hbm S4x4096x8x128 .f32).slice
                  (Rect.unit (s := S4x4096x8x128) off S1x4096x1x128.size hinb) h2).squeeze S4096x1x128 squeezes_S1x4096x1x128_S4096x1x128)
                (.here (kvDst b.val b.isLt vM)) (.dma (dS (nLoc b 1))) hsrc hdst hsem) k) Q) := by
  subst hoff
  exact step_locV m K c b

/-! The eight instances: each batch's source rows at the offsets the program names. -/
example (K : Dev nD × Option (Fin 80) → ℕ) (c : Dev nD) := @step_locK_off F _ m K c 0 (k0_off1 c) (k0_off1_eq c)
example (K : Dev nD × Option (Fin 80) → ℕ) (c : Dev nD) := @step_locV_off F _ m K c 0 (k0_off1 c) (k0_off1_eq c)
example (K : Dev nD × Option (Fin 80) → ℕ) (c : Dev nD) := @step_locK_off F _ m K c 1 (k0_off2 c) (k0_off2_eq c)
example (K : Dev nD × Option (Fin 80) → ℕ) (c : Dev nD) := @step_locV_off F _ m K c 1 (k0_off2 c) (k0_off2_eq c)
example (K : Dev nD × Option (Fin 80) → ℕ) (c : Dev nD) := @step_locK_off F _ m K c 2 (k0_off3 c) (k0_off3_eq c)
example (K : Dev nD × Option (Fin 80) → ℕ) (c : Dev nD) := @step_locV_off F _ m K c 2 (k0_off3 c) (k0_off3_eq c)
example (K : Dev nD × Option (Fin 80) → ℕ) (c : Dev nD) := @step_locK_off F _ m K c 3 (k0_off4 c) (k0_off4_eq c)
example (K : Dev nD × Option (Fin 80) → ℕ) (c : Dev nD) := @step_locV_off F _ m K c 3 (k0_off4 c) (k0_off4_eq c)

/-! ## The exchange's copies, the addressed device a variable

The program names the other half by a function of the device; these forms take the addressed device as a
variable with the equation that says it is the other half. -/

theorem step_xsendO_dev (K : Dev nD × Option (Fin 80) → ℕ) (c : Dev nD) (b : Fin 4) (n : ℕ)
    (hO : owedFrom c n = owedFrom c (n + 1) + tallyAt (dCell (pr 0 c) (nXr b 0)) () NO)
    (d : Dev nD) (hd : d = pr 0 c)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc d : Thread nD τ) (oSl b.val b.isLt oM') (.dma (dS (nXs b 0))) hsc)} :
    iprop(Rec m K ∗ oA m c b ∗ poE (pr 0 c) b ∗ owes (c : Thread nD τ) (owedFrom c n) W ∗ tokD c (nXs b 0) ∗ tokD c (nXr b 0))
      ⊢ iprop(((crD c (nXs b 0) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc d : Thread nD τ) (oSl b.val b.isLt oM') (.dma (dS (nXs b 0))) hsc)
                (.dma (dS (nXr b 0))) hsrc hdst hsem) k) Q) := by
  subst hd
  exact step_xsendO m K c b n hO

theorem step_xsendL_dev (K : Dev nD × Option (Fin 80) → ℕ) (c : Dev nD) (b : Fin 4) (n : ℕ)
    (hO : owedFrom c n = owedFrom c (n + 1) + tallyAt (dCell (pr 0 c) (nXr b 1)) () NL)
    (d : Dev nD) (hd : d = pr 0 c)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc d : Thread nD τ) (lSl b.val b.isLt lM') (.dma (dS (nXs b 1))) hsc)} :
    iprop(Rec m K ∗ lA m c b ∗ plE (pr 0 c) b ∗ owes (c : Thread nD τ) (owedFrom c n) W ∗ tokD c (nXs b 1) ∗ tokD c (nXr b 1))
      ⊢ iprop(((crD c (nXs b 1) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc d : Thread nD τ) (lSl b.val b.isLt lM') (.dma (dS (nXs b 1))) hsc)
                (.dma (dS (nXr b 1))) hsrc hdst hsem) k) Q) := by
  subst hd
  exact step_xsendL m K c b n hO

/-! The eight instances: each batch's two copies addressed as the program addresses them. -/
example (K : Dev nD × Option (Fin 80) → ℕ) (c : Dev nD) := @step_xsendO_dev F _ m K c 0 8 (owed_8 c) ⟨k0_dev9 c, k0_dev9_lt c⟩ (dev9_eq c)
example (K : Dev nD × Option (Fin 80) → ℕ) (c : Dev nD) := @step_xsendL_dev F _ m K c 0 9 (owed_9 c) ⟨k0_dev10 c, k0_dev10_lt c⟩ (dev10_eq c)
example (K : Dev nD × Option (Fin 80) → ℕ) (c : Dev nD) := @step_xsendO_dev F _ m K c 1 10 (owed_10 c) ⟨k0_dev11 c, k0_dev11_lt c⟩ (dev11_eq c)
example (K : Dev nD × Option (Fin 80) → ℕ) (c : Dev nD) := @step_xsendL_dev F _ m K c 1 11 (owed_11 c) ⟨k0_dev12 c, k0_dev12_lt c⟩ (dev12_eq c)
example (K : Dev nD × Option (Fin 80) → ℕ) (c : Dev nD) := @step_xsendO_dev F _ m K c 2 19 (owed_19 c) ⟨k0_dev20 c, k0_dev20_lt c⟩ (dev20_eq c)
example (K : Dev nD × Option (Fin 80) → ℕ) (c : Dev nD) := @step_xsendL_dev F _ m K c 2 20 (owed_20 c) ⟨k0_dev21 c, k0_dev21_lt c⟩ (dev21_eq c)
example (K : Dev nD × Option (Fin 80) → ℕ) (c : Dev nD) := @step_xsendO_dev F _ m K c 3 28 (owed_28 c) ⟨k0_dev29 c, k0_dev29_lt c⟩ (dev29_eq c)
example (K : Dev nD × Option (Fin 80) → ℕ) (c : Dev nD) := @step_xsendL_dev F _ m K c 3 29 (owed_29 c) ⟨k0_dev30 c, k0_dev30_lt c⟩ (dev30_eq c)

/-- info: 'Cert.KernelIdeal.Flash.step_locK' depends on axioms: [propext, Classical.choice, Quot.sound] -/
#guard_msgs in #print axioms step_locK

/-- info: 'Cert.KernelIdeal.Flash.step_locV' depends on axioms: [propext, Classical.choice, Quot.sound] -/
#guard_msgs in #print axioms step_locV

/-- info: 'Cert.KernelIdeal.Flash.step_locK_off' depends on axioms: [propext, Classical.choice, Quot.sound] -/
#guard_msgs in #print axioms step_locK_off

/-- info: 'Cert.KernelIdeal.Flash.step_locV_off' depends on axioms: [propext, Classical.choice, Quot.sound] -/
#guard_msgs in #print axioms step_locV_off

/-- info: 'Cert.KernelIdeal.Flash.step_xsendO' depends on axioms: [propext, Classical.choice, Quot.sound] -/
#guard_msgs in #print axioms step_xsendO

/-- info: 'Cert.KernelIdeal.Flash.step_xsendL' depends on axioms: [propext, Classical.choice, Quot.sound] -/
#guard_msgs in #print axioms step_xsendL

/-- info: 'Cert.KernelIdeal.Flash.step_xsendO_dev' depends on axioms: [propext, Classical.choice, Quot.sound] -/
#guard_msgs in #print axioms step_xsendO_dev

/-- info: 'Cert.KernelIdeal.Flash.step_xsendL_dev' depends on axioms: [propext, Classical.choice, Quot.sound] -/
#guard_msgs in #print axioms step_xsendL_dev

end Cert.KernelIdeal.Flash

end
-- ==== Proof.StepsMem.lean ====
import proofs.«900786_g7700000000000787_dist_flashdec_v7x_xyz2x2x4_x_b4_sq32_skv4096_h8_d128_f32_1_alg».proof.Proof.Atoms
import proofs.«900786_g7700000000000787_dist_flashdec_v7x_xyz2x2x4_x_b4_sq32_skv4096_h8_d128_f32_1_alg».proof.Proof.SchedRestate

/-! The body's loads and stores.

A load through a row's rectangle of a buffer held only on that row reads the row: of the staged
queries and of the landed keys and values the blocks `qB`, `kB`, `vB`; of the buffers of partial
results the blocks `oB`, `lB` of the device or of the other half; of the result buffer the merged
block. A store of the device's partial results, or of the merged block, through the row's
rectangle leaves the row at the canonical contents. -/

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The canonical contents read through a row's rectangle -/

theorem idx_rO (b : Fin 4) (q : Fin 32) (d : Fin 128) :
    (rO b).toLoadRect.idx (ix3 (0 : Fin 1) q d) = ix3 b q d :=
  funext fun a => Fin.ext (by
    match a with
    | ⟨0, _⟩ => show b.val + 1 * 0 = b.val; omega
    | ⟨1, _⟩ => show 0 + 1 * q.val = q.val; omega
    | ⟨2, _⟩ => show 0 + 1 * d.val = d.val; omega)

theorem idx_rL (b : Fin 4) (q : Fin 32) (w : Fin 1) :
    (rL b).toLoadRect.idx (ix3 (0 : Fin 1) q w) = ix3 b q w :=
  funext fun a => Fin.ext (by
    match a with
    | ⟨0, _⟩ => show b.val + 1 * 0 = b.val; omega
    | ⟨1, _⟩ => show 0 + 1 * q.val = q.val; omega
    | ⟨2, _⟩ => show 0 + 1 * w.val = w.val; omega)

theorem idx_rH (b : Fin 4) (h : ℕ) (hh : h < 8) (q : Fin 32) (d : Fin 128) :
    (rH b h hh).toLoadRect.idx (ix4 (0 : Fin 1) q (0 : Fin 1) d) = ix4 b q (⟨h, hh⟩ : Fin 8) d :=
  funext fun a => Fin.ext (by
    match a with
    | ⟨0, _⟩ => show b.val + 1 * 0 = b.val; omega
    | ⟨1, _⟩ => show 0 + 1 * q.val = q.val; omega
    | ⟨2, _⟩ => show h + 1 * 0 = h; omega
    | ⟨3, _⟩ => show 0 + 1 * d.val = d.val; omega)

/-- Row `b` of a device's buffer of partial outputs is its partial output of batch `b`. -/
theorem readAt_oC (c : Dev nD) (b : Fin 4) :
    (oM : Memref sig .tc .vmem S4x32x128 .f32).view.readAt (Elt F) (rO b).toLoadRect (oC m c) = oB m c b := by
  funext x
  obtain ⟨u, q, d, rfl⟩ : ∃ (u : Fin 1) (q : Fin 32) (d : Fin 128), x = ix3 u q d := ⟨x 0, x 1, x 2, eq_ix3 x⟩
  obtain rfl : u = 0 := Subsingleton.elim _ _
  exact (congrArg (oC m c) (idx_rO b q d)).trans rfl

/-- The same read off the landing buffer, which holds a copy of it. -/
theorem readAt_oC' (c : Dev nD) (b : Fin 4) :
    (oM' : Memref sig .tc .vmem S4x32x128 .f32).view.readAt (Elt F) (rO b).toLoadRect (oC m c) = oB m c b := by
  funext x
  obtain ⟨u, q, d, rfl⟩ : ∃ (u : Fin 1) (q : Fin 32) (d : Fin 128), x = ix3 u q d := ⟨x 0, x 1, x 2, eq_ix3 x⟩
  obtain rfl : u = 0 := Subsingleton.elim _ _
  exact (congrArg (oC m c) (idx_rO b q d)).trans rfl

theorem readAt_lC (c : Dev nD) (b : Fin 4) :
    (lM : Memref sig .tc .vmem S4x32x1 .f32).view.readAt (Elt F) (rL b).toLoadRect (lC m c) = lB m c b := by
  funext x
  obtain ⟨u, q, w, rfl⟩ : ∃ (u : Fin 1) (q : Fin 32) (w : Fin 1), x = ix3 u q w := ⟨x 0, x 1, x 2, eq_ix3 x⟩
  obtain rfl : u = 0 := Subsingleton.elim _ _
  exact (congrArg (lC m c) (idx_rL b q w)).trans rfl

theorem readAt_lC' (c : Dev nD) (b : Fin 4) :
    (lM' : Memref sig .tc .vmem S4x32x1 .f32).view.readAt (Elt F) (rL b).toLoadRect (lC m c) = lB m c b := by
  funext x
  obtain ⟨u, q, w, rfl⟩ : ∃ (u : Fin 1) (q : Fin 32) (w : Fin 1), x = ix3 u q w := ⟨x 0, x 1, x 2, eq_ix3 x⟩
  obtain rfl : u = 0 := Subsingleton.elim _ _
  exact (congrArg (lC m c) (idx_rL b q w)).trans rfl

/-- The device's own row of the result buffer is its merged block. -/
theorem readAt_outC (c : Dev nD) (b : Fin 4) :
    (rM : Memref sig .tc .vmem S4x32x8x128 .f32).view.readAt (Elt F) (rH b (hdN c) (hdN_lt c)).toLoadRect (outC m c) = mB m c b := by
  funext x
  obtain ⟨u, q, w, d, rfl⟩ : ∃ (u : Fin 1) (q : Fin 32) (w : Fin 1) (d : Fin 128), x = ix4 u q w d := ⟨x 0, x 1, x 2, x 3, eq_ix4 x⟩
  obtain rfl : u = 0 := Subsingleton.elim _ _
  obtain rfl : w = 0 := Subsingleton.elim _ _
  refine (congrArg (outC m c) (idx_rH b (hdN c) (hdN_lt c) q d)).trans ?_
  exact congrArg (fun d' => mB m d' b (ix4 (0 : Fin 1) q (0 : Fin 1) d)) (hdDev_self c)

/-! ## What the stores leave -/

theorem stored_o (c : Dev nD) (b : Fin 4) (f : (cc0_scratch2 : Ref sig .tc).ty.Contents (Elt F)) :
    slPts c (oSl b.val b.isLt oM) fullShare (((oM : Memref sig .tc .vmem S4x32x128 .f32).access (rO b)).write (Elt F) f (oB m c b) Finset.univ)
      = slPts c (oSl b.val b.isLt oM) fullShare (oC m c) :=
  pointsTo_congr (by
    rw [set_oSl b oM]
    exact write_agree ((oM : Memref sig .tc .vmem S4x32x128 .f32).access (rO b)) f (oC m c) (oB m c b)
      fun x => (congrFun (readAt_oC m c b) x).symm)

theorem stored_l (c : Dev nD) (b : Fin 4) (f : (cc0_scratch3 : Ref sig .tc).ty.Contents (Elt F)) :
    slPts c (lSl b.val b.isLt lM) fullShare (((lM : Memref sig .tc .vmem S4x32x1 .f32).access (rL b)).write (Elt F) f (lB m c b) Finset.univ)
      = slPts c (lSl b.val b.isLt lM) fullShare (lC m c) :=
  pointsTo_congr (by
    rw [set_lSl b lM]
    exact write_agree ((lM : Memref sig .tc .vmem S4x32x1 .f32).access (rL b)) f (lC m c) (lB m c b)
      fun x => (congrFun (readAt_lC m c b) x).symm)

theorem stored_h (c : Dev nD) (b : Fin 4) (f : (cc0_stg1_0 : Ref sig .tc).ty.Contents (Elt F)) :
    slPts c (hSl b.val b.isLt (hdN c) (hdN_lt c) rM) fullShare
        (((rM : Memref sig .tc .vmem S4x32x8x128 .f32).access (rH b (hdN c) (hdN_lt c))).write (Elt F) f (mB m c b) Finset.univ)
      = slPts c (hSl b.val b.isLt (hdN c) (hdN_lt c) rM) fullShare (outC m c) :=
  pointsTo_congr (write_agree ((rM : Memref sig .tc .vmem S4x32x8x128 .f32).access (rH b (hdN c) (hdN_lt c))) f (outC m c) (mB m c b)
    fun x => (congrFun (readAt_outC m c b) x).symm)

/-! ## The steps -/

/-- The load of the query block of batch `b`. -/
theorem step_loadQ (K : Dev nD × Option (Fin 80) → ℕ) (c : Dev nD) (b : Fin 4) {α : Type} {Q : α → sProp 𝕄}
    {k : Vec F S1x32x1x128 .f32 → Prog (TpuEff nD τ sig (Elt F) Λ₀ .tc) α}
    {hl : (qM : Memref sig .tc .vmem S4x32x8x128 .f32).view.LoadsAt (rH b (hdN c) (hdN_lt c)).toLoadRect} :
    iprop(Qstg m c)
      ⊢ iprop((Qstg m c -∗ wp frame (wpE (defs₀ (F := F)) 𝒱₀ (c : Thread nD τ) none) Set.univ (k (qB m c b)) Q)
          -∗ wp frame (wpE (defs₀ (F := F)) 𝒱₀ (c : Thread nD τ) none) Set.univ
              (.op (.load qM (rH b (hdN c) (hdN_lt c)).toLoadRect hl) k) Q) := by
  exact wp_load 𝒱₀ (c : Thread nD τ) none Set.univ (View.setOn_subset_set _ _)

/-- The load of the landed key block of batch `b`. -/
theorem step_loadK (K : Dev nD × Option (Fin 80) → ℕ) (c : Dev nD) (b : Fin 4) {α : Type} {Q : α → sProp 𝕄}
    {k : Vec F S1x4096x1x128 .f32 → Prog (TpuEff nD τ sig (Elt F) Λ₀ .tc) α}
    {hl : (kM : Memref sig .tc .vmem S4x4096x1x128 .f32).view.LoadsAt (rK b).toLoadRect} :
    iprop(kDstA m c b)
      ⊢ iprop((kDstA m c b -∗ wp frame (wpE (defs₀ (F := F)) 𝒱₀ (c : Thread nD τ) none) Set.univ (k (kB m c b)) Q)
          -∗ wp frame (wpE (defs₀ (F := F)) 𝒱₀ (c : Thread nD τ) none) Set.univ
              (.op (.load kM (rK b).toLoadRect hl) k) Q) := by
  exact wp_load_rect 𝒱₀ (c : Thread nD τ) none Set.univ (m := kM) (r := rK b) (set_kvDst b kM).ge

/-- The load of the landed value block of batch `b`. -/
theorem step_loadV (K : Dev nD × Option (Fin 80) → ℕ) (c : Dev nD) (b : Fin 4) {α : Type} {Q : α → sProp 𝕄}
    {k : Vec F S1x4096x1x128 .f32 → Prog (TpuEff nD τ sig (Elt F) Λ₀ .tc) α}
    {hl : (vM : Memref sig .tc .vmem S4x4096x1x128 .f32).view.LoadsAt (rK b).toLoadRect} :
    iprop(vDstA m c b)
      ⊢ iprop((vDstA m c b -∗ wp frame (wpE (defs₀ (F := F)) 𝒱₀ (c : Thread nD τ) none) Set.univ (k (vB m c b)) Q)
          -∗ wp frame (wpE (defs₀ (F := F)) 𝒱₀ (c : Thread nD τ) none) Set.univ
              (.op (.load vM (rK b).toLoadRect hl) k) Q) := by
  exact wp_load_rect 𝒱₀ (c : Thread nD τ) none Set.univ (m := vM) (r := rK b) (set_kvDst b vM).ge

include m in
/-- A load of row `b` of the buffer of partial denominators before it is written: the row is kept, the value is whatever was there. -/
theorem step_loadLdead (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM : Memref sig .tc .vmem S4x32x1 .f32).view.LoadsAt (rL b).toLoadRect} :
    iprop(lE (F := F) c b)
      ⊢ iprop((∀ ret, lE (F := F) c b -∗ wp frame (wpE (defs₀ (F := F)) 𝒱₀ (c : Thread nD τ) none) Set.univ (k ret) Q)
          -∗ wp frame (wpE (defs₀ (F := F)) 𝒱₀ (c : Thread nD τ) none) Set.univ
              (.op (.load lM (rL b).toLoadRect hl) k) Q) := by
  iintro ⟨%f, H⟩ Hk
  iapply (wp_load_rect 𝒱₀ (c : Thread nD τ) none Set.univ (m := (lM : Memref sig .tc .vmem S4x32x1 .f32)) (r := rL b) (set_lSl b lM).ge) $$ H
  iintro H
  iapply Hk
  iexists f
  iexact H

include m in
/-- A load of row `b` of the buffer of partial outputs before it is written. -/
theorem step_loadOdead (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM : Memref sig .tc .vmem S4x32x128 .f32).view.LoadsAt (rO b).toLoadRect} :
    iprop(oE (F := F) c b)
      ⊢ iprop((∀ ret, oE (F := F) c b -∗ wp frame (wpE (defs₀ (F := F)) 𝒱₀ (c : Thread nD τ) none) Set.univ (k ret) Q)
          -∗ wp frame (wpE (defs₀ (F := F)) 𝒱₀ (c : Thread nD τ) none) Set.univ
              (.op (.load oM (rO b).toLoadRect hl) k) Q) := by
  iintro ⟨%f, H⟩ Hk
  iapply (wp_load_rect 𝒱₀ (c : Thread nD τ) none Set.univ (m := (oM : Memref sig .tc .vmem S4x32x128 .f32)) (r := rO b) (set_oSl b oM).ge) $$ H
  iintro H
  iapply Hk
  iexists f
  iexact H

/-- The store of the partial denominator of batch `b`. -/
theorem step_storeL (K : Dev nD × Option (Fin 80) → ℕ) (c : Dev nD) (b : Fin 4) {α : Type} {Q : α → sProp 𝕄}
    {k : PUnit → Prog (TpuEff nD τ sig (Elt F) Λ₀ .tc) α}
    {hx : ((lM : Memref sig .tc .vmem S4x32x1 .f32).access (rL b)).Stores Finset.univ}
    {hm : (Finset.univ : Finset (rL b).shape.Idx) = Finset.univ ∨ ∀ a, (rL b).stride a = 1} :
    iprop(lE (F := F) c b)
      ⊢ iprop((lA m c b -∗ wp frame (wpE (defs₀ (F := F)) 𝒱₀ (c : Thread nD τ) none) Set.univ (k ⟨⟩) Q)
          -∗ wp frame (wpE (defs₀ (F := F)) 𝒱₀ (c : Thread nD τ) none) Set.univ
              (.op (.store lM (rL b) (lB m c b) Finset.univ hx hm) k) Q) := by
  iintro ⟨%f, H⟩ Hk
  iapply (wp_store 𝒱₀ (c : Thread nD τ) none Set.univ (m := (lM : Memref sig .tc .vmem S4x32x1 .f32)) (r := rL b) (w := lB m c b) (Mk := Finset.univ)
    ((View.setOn_univ _).trans_subset (set_lSl b lM).ge)) $$ H
  iintro H
  iapply Hk
  iapply (Entails.of_eq (stored_l m c b f))
  iexact H

/-- The store of the partial output of batch `b`. -/
theorem step_storeO (K : Dev nD × Option (Fin 80) → ℕ) (c : Dev nD) (b : Fin 4) {α : Type} {Q : α → sProp 𝕄}
    {k : PUnit → Prog (TpuEff nD τ sig (Elt F) Λ₀ .tc) α}
    {hx : ((oM : Memref sig .tc .vmem S4x32x128 .f32).access (rO b)).Stores Finset.univ}
    {hm : (Finset.univ : Finset (rO b).shape.Idx) = Finset.univ ∨ ∀ a, (rO b).stride a = 1} :
    iprop(oE (F := F) c b)
      ⊢ iprop((oA m c b -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (rO b) (oB m c b) Finset.univ hx hm) k) Q) := by
  iintro ⟨%f, H⟩ Hk
  iapply (wp_store 𝒱₀ (c : Thread nD τ) none Set.univ (m := (oM : Memref sig .tc .vmem S4x32x128 .f32)) (r := rO b) (w := oB m c b) (Mk := Finset.univ)
    ((View.setOn_univ _).trans_subset (set_oSl b oM).ge)) $$ H
  iintro H
  iapply Hk
  iapply (Entails.of_eq (stored_o m c b f))
  iexact H

/-- The load of the device's partial output of batch `b`. -/
theorem step_loadO (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM : Memref sig .tc .vmem S4x32x128 .f32).view.LoadsAt (rO b).toLoadRect} :
    iprop(oA m c b)
      ⊢ iprop((oA m c b -∗ wp frame (wpE (defs₀ (F := F)) 𝒱₀ (c : Thread nD τ) none) Set.univ (k (oB m c b)) Q)
          -∗ wp frame (wpE (defs₀ (F := F)) 𝒱₀ (c : Thread nD τ) none) Set.univ
              (.op (.load oM (rO b).toLoadRect hl) k) Q) := by
  rw [← readAt_oC m c b]
  exact wp_load_rect 𝒱₀ (c : Thread nD τ) none Set.univ (m := oM) (r := rO b) (set_oSl b oM).ge

/-- The load of the other half's partial output of batch `b`, landed. -/
theorem step_loadPO (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM' : Memref sig .tc .vmem S4x32x128 .f32).view.LoadsAt (rO b).toLoadRect} :
    iprop(poA m c b)
      ⊢ iprop((poA m c b -∗ wp frame (wpE (defs₀ (F := F)) 𝒱₀ (c : Thread nD τ) none) Set.univ (k (oB m (pr 0 c) b)) Q)
          -∗ wp frame (wpE (defs₀ (F := F)) 𝒱₀ (c : Thread nD τ) none) Set.univ
              (.op (.load oM' (rO b).toLoadRect hl) k) Q) := by
  rw [← readAt_oC' m (pr 0 c) b]
  exact wp_load_rect 𝒱₀ (c : Thread nD τ) none Set.univ (m := oM') (r := rO b) (set_oSl b oM').ge

/-- The load of the device's partial denominator of batch `b`. -/
theorem step_loadL (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM : Memref sig .tc .vmem S4x32x1 .f32).view.LoadsAt (rL b).toLoadRect} :
    iprop(lA m c b)
      ⊢ iprop((lA m c b -∗ wp frame (wpE (defs₀ (F := F)) 𝒱₀ (c : Thread nD τ) none) Set.univ (k (lB m c b)) Q)
          -∗ wp frame (wpE (defs₀ (F := F)) 𝒱₀ (c : Thread nD τ) none) Set.univ
              (.op (.load lM (rL b).toLoadRect hl) k) Q) := by
  rw [← readAt_lC m c b]
  exact wp_load_rect 𝒱₀ (c : Thread nD τ) none Set.univ (m := lM) (r := rL b) (set_lSl b lM).ge

/-- The load of the other half's partial denominator of batch `b`, landed. -/
theorem step_loadPL (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM' : Memref sig .tc .vmem S4x32x1 .f32).view.LoadsAt (rL b).toLoadRect} :
    iprop(plA m c b)
      ⊢ iprop((plA m c b -∗ wp frame (wpE (defs₀ (F := F)) 𝒱₀ (c : Thread nD τ) none) Set.univ (k (lB m (pr 0 c) b)) Q)
          -∗ wp frame (wpE (defs₀ (F := F)) 𝒱₀ (c : Thread nD τ) none) Set.univ
              (.op (.load lM' (rL b).toLoadRect hl) k) Q) := by
  rw [← readAt_lC' m (pr 0 c) b]
  exact wp_load_rect 𝒱₀ (c : Thread nD τ) none Set.univ (m := lM') (r := rL b) (set_lSl b lM').ge

include m in
/-- A load of the device's row of the result buffer before it is written. -/
theorem step_loadHdead (K : Dev nD × Option (Fin 80) → ℕ) (c : Dev nD) (b : Fin 4) {α : Type} {Q : α → sProp 𝕄}
    {k : Vec F S1x32x1x128 .f32 → Prog (TpuEff nD τ sig (Elt F) Λ₀ .tc) α}
    {hl : (rM : Memref sig .tc .vmem S4x32x8x128 .f32).view.LoadsAt (rH b (hdN c) (hdN_lt c)).toLoadRect} :
    iprop(hE (F := F) c b (hdN c) (hdN_lt c))
      ⊢ iprop((∀ ret, hE (F := F) c b (hdN c) (hdN_lt c) -∗ wp frame (wpE (defs₀ (F := F)) 𝒱₀ (c : Thread nD τ) none) Set.univ (k ret) Q)
          -∗ wp frame (wpE (defs₀ (F := F)) 𝒱₀ (c : Thread nD τ) none) Set.univ
              (.op (.load rM (rH b (hdN c) (hdN_lt c)).toLoadRect hl) k) Q) := by
  iintro ⟨%f, H⟩ Hk
  iapply (wp_load_rect 𝒱₀ (c : Thread nD τ) none Set.univ (m := (rM : Memref sig .tc .vmem S4x32x8x128 .f32)) (r := rH b (hdN c) (hdN_lt c)) (set_hSl b (hdN c) (hdN_lt c) rM).ge) $$ H
  iintro H
  iapply Hk
  iexists f
  iexact H

/-- The store of the merged block of batch `b` into the device's row of the result buffer. -/
theorem step_storeH (K : Dev nD × Option (Fin 80) → ℕ) (c : Dev nD) (b : Fin 4) {α : Type} {Q : α → sProp 𝕄}
    {k : PUnit → Prog (TpuEff nD τ sig (Elt F) Λ₀ .tc) α}
    {hx : ((rM : Memref sig .tc .vmem S4x32x8x128 .f32).access (rH b (hdN c) (hdN_lt c))).Stores Finset.univ}
    {hm : (Finset.univ : Finset (rH b (hdN c) (hdN_lt c)).shape.Idx) = Finset.univ ∨ ∀ a, (rH b (hdN c) (hdN_lt c)).stride a = 1} :
    iprop(hE (F := F) c b (hdN c) (hdN_lt c))
      ⊢ iprop((hA m c b (hdN c) (hdN_lt c) fullShare -∗ wp frame (wpE (defs₀ (F := F)) 𝒱₀ (c : Thread nD τ) none) Set.univ (k ⟨⟩) Q)
          -∗ wp frame (wpE (defs₀ (F := F)) 𝒱₀ (c : Thread nD τ) none) Set.univ
              (.op (.store rM (rH b (hdN c) (hdN_lt c)) (mB m c b) Finset.univ hx hm) k) Q) := by
  iintro ⟨%f, H⟩ Hk
  iapply (wp_store 𝒱₀ (c : Thread nD τ) none Set.univ (m := (rM : Memref sig .tc .vmem S4x32x8x128 .f32)) (r := rH b (hdN c) (hdN_lt c)) (w := mB m c b) (Mk := Finset.univ)
    ((View.setOn_univ _).trans_subset (set_hSl b (hdN c) (hdN_lt c) rM).ge)) $$ H
  iintro H
  iapply Hk
  iapply (Entails.of_eq (stored_h m c b f))
  iexact H

/--
info: 'Cert.KernelIdeal.Flash.step_storeH' depends on axioms: [propext, Classical.choice, Quot.sound]
-/
#guard_msgs in #print axioms step_storeH
/--
info: 'Cert.KernelIdeal.Flash.step_loadPO' depends on axioms: [propext, Classical.choice, Quot.sound]
-/
#guard_msgs in #print axioms step_loadPO
/--
info: 'Cert.KernelIdeal.Flash.step_loadHdead' depends on axioms: [propext, Classical.choice, Quot.sound]
-/
#guard_msgs in #print axioms step_loadHdead

end Cert.KernelIdeal.Flash

end
-- ==== Proof.StepsMemOff.lean ====
import proofs.«900786_g7700000000000787_dist_flashdec_v7x_xyz2x2x4_x_b4_sq32_skv4096_h8_d128_f32_1_alg».proof.Proof.StepsMem

/-! The loads and stores through the device's own row of the query and result buffers, with the
row's offsets given as a function and an equation: the row of batch `b`, head `hdN c`, however its
offsets are spelt. -/

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The load of the query block of batch `b`, the row's offsets given by an equation. -/
theorem step_loadQ_off (K : Dev nD × Option (Fin 80) → ℕ) (c : Dev nD) (b : Fin 4) (off : Fin 4 → ℕ) (hoff : off = ![b.val, 0, hdN c, 0])
    {α : Type} {Q : α → sProp 𝕄} {k : Vec F S1x32x1x128 .f32 → Prog (TpuEff nD τ sig (Elt F) Λ₀ .tc) α}
    {hinb : ∀ a, off a + S1x32x1x128.size a ≤ S4x32x8x128.size a}
    {hl : (qM : Memref sig .tc .vmem S4x32x8x128 .f32).view.LoadsAt (Rect.unit (s := S4x32x8x128) off S1x32x1x128.size hinb).toLoadRect} :
    iprop(Qstg m c)
      ⊢ iprop((Qstg m c -∗ wp frame (wpE (defs₀ (F := F)) 𝒱₀ (c : Thread nD τ) none) Set.univ (k (qB m c b)) Q)
          -∗ wp frame (wpE (defs₀ (F := F)) 𝒱₀ (c : Thread nD τ) none) Set.univ
              (.op (.load qM (Rect.unit (s := S4x32x8x128) off S1x32x1x128.size hinb).toLoadRect hl) k) Q) := by
  subst hoff
  exact step_loadQ m K c b

include m in
/-- A load of the device's row of the result buffer before it is written, the row's offsets given by an equation. -/
theorem step_loadHdead_off (K : Dev nD × Option (Fin 80) → ℕ) (c : Dev nD) (b : Fin 4) (off : Fin 4 → ℕ) (hoff : off = ![b.val, 0, hdN c, 0])
    {α : Type} {Q : α → sProp 𝕄} {k : Vec F S1x32x1x128 .f32 → Prog (TpuEff nD τ sig (Elt F) Λ₀ .tc) α}
    {hinb : ∀ a, off a + S1x32x1x128.size a ≤ S4x32x8x128.size a}
    {hl : (rM : Memref sig .tc .vmem S4x32x8x128 .f32).view.LoadsAt (Rect.unit (s := S4x32x8x128) off S1x32x1x128.size hinb).toLoadRect} :
    iprop(hE (F := F) c b (hdN c) (hdN_lt c))
      ⊢ iprop((∀ ret, hE (F := F) c b (hdN c) (hdN_lt c) -∗ wp frame (wpE (defs₀ (F := F)) 𝒱₀ (c : Thread nD τ) none) Set.univ (k ret) Q)
          -∗ wp frame (wpE (defs₀ (F := F)) 𝒱₀ (c : Thread nD τ) none) Set.univ
              (.op (.load rM (Rect.unit (s := S4x32x8x128) off S1x32x1x128.size hinb).toLoadRect hl) k) Q) := by
  subst hoff
  exact step_loadHdead m K c b

/-- The store of the merged block of batch `b`, the row's offsets given by an equation. -/
theorem step_storeH_off (K : Dev nD × Option (Fin 80) → ℕ) (c : Dev nD) (b : Fin 4) (off : Fin 4 → ℕ) (hoff : off = ![b.val, 0, hdN c, 0])
    {α : Type} {Q : α → sProp 𝕄} {k : PUnit → Prog (TpuEff nD τ sig (Elt F) Λ₀ .tc) α}
    {hinb : ∀ a, off a + S1x32x1x128.size a ≤ S4x32x8x128.size a}
    {hx : ((rM : Memref sig .tc .vmem S4x32x8x128 .f32).access (Rect.unit (s := S4x32x8x128) off S1x32x1x128.size hinb)).Stores Finset.univ}
    {hm : (Finset.univ : Finset (Rect.unit (s := S4x32x8x128) off S1x32x1x128.size hinb).shape.Idx) = Finset.univ
      ∨ ∀ a, (Rect.unit (s := S4x32x8x128) off S1x32x1x128.size hinb).stride a = 1} :
    iprop(hE (F := F) c b (hdN c) (hdN_lt c))
      ⊢ iprop((hA m c b (hdN c) (hdN_lt c) fullShare -∗ wp frame (wpE (defs₀ (F := F)) 𝒱₀ (c : Thread nD τ) none) Set.univ (k ⟨⟩) Q)
          -∗ wp frame (wpE (defs₀ (F := F)) 𝒱₀ (c : Thread nD τ) none) Set.univ
              (.op (.store rM (Rect.unit (s := S4x32x8x128) off S1x32x1x128.size hinb) (mB m c b) Finset.univ hx hm) k) Q) := by
  subst hoff
  exact step_storeH m K c b

/--
info: 'Cert.KernelIdeal.Flash.step_storeH_off' depends on axioms: [propext, Classical.choice, Quot.sound]
-/
#guard_msgs in #print axioms step_storeH_off

end Cert.KernelIdeal.Flash

end
-- ==== Proof.Chain.lean ====
/- One device's body, effect by effect in the order of the printed program: each local copy, signal, wait,
   remote copy, load and store takes the resources its step lemma names and hands back those it leaves, from
   the device's resources at kernel entry to its resources at the return. The step lemmas (generic in the batch
   and the peer) are the argument; this module is the table of their instances along the unrolled program. -/
import proofs.«900786_g7700000000000787_dist_flashdec_v7x_xyz2x2x4_x_b4_sq32_skv4096_h8_d128_f32_1_alg».proof.Proof.BodyDefs
import proofs.«900786_g7700000000000787_dist_flashdec_v7x_xyz2x2x4_x_b4_sq32_skv4096_h8_d128_f32_1_alg».proof.Proof.Topo
import proofs.«900786_g7700000000000787_dist_flashdec_v7x_xyz2x2x4_x_b4_sq32_skv4096_h8_d128_f32_1_alg».proof.Proof.Chains
import proofs.«900786_g7700000000000787_dist_flashdec_v7x_xyz2x2x4_x_b4_sq32_skv4096_h8_d128_f32_1_alg».proof.Proof.RegionsChain
import proofs.«900786_g7700000000000787_dist_flashdec_v7x_xyz2x2x4_x_b4_sq32_skv4096_h8_d128_f32_1_alg».proof.Proof.StepsWait
import proofs.«900786_g7700000000000787_dist_flashdec_v7x_xyz2x2x4_x_b4_sq32_skv4096_h8_d128_f32_1_alg».proof.Proof.StepsBar
import proofs.«900786_g7700000000000787_dist_flashdec_v7x_xyz2x2x4_x_b4_sq32_skv4096_h8_d128_f32_1_alg».proof.Proof.StepsGlue
import proofs.«900786_g7700000000000787_dist_flashdec_v7x_xyz2x2x4_x_b4_sq32_skv4096_h8_d128_f32_1_alg».proof.Proof.StepsCopy
import proofs.«900786_g7700000000000787_dist_flashdec_v7x_xyz2x2x4_x_b4_sq32_skv4096_h8_d128_f32_1_alg».proof.Proof.StepsMem
import proofs.«900786_g7700000000000787_dist_flashdec_v7x_xyz2x2x4_x_b4_sq32_skv4096_h8_d128_f32_1_alg».proof.Proof.StepsMemOff
import proofs.«900786_g7700000000000787_dist_flashdec_v7x_xyz2x2x4_x_b4_sq32_skv4096_h8_d128_f32_1_alg».proof.Proof.StepsGather

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 60000000 in
set_option maxRecDepth 8000 in
theorem chain (m : (ℓ : Loc nD τ sig) → Buf (Elt F) ℓ) (K : Dev nD × Option (Fin 80) → ℕ) (c : Dev nD) (W : Waits sig Unit) (Kt : PUnit → sProp 𝕄) :
    iprop(Rec m K
        ∗ Lev (F := F)
        ∗ owes (c : Thread nD τ) (owedFrom c 0) W
        ∗ posB c
        ∗ posD c (0 : Fin 80)
        ∗ posD c (1 : Fin 80)
        ∗ posD c (2 : Fin 80)
        ∗ posD c (3 : Fin 80)
        ∗ posD c (4 : Fin 80)
        ∗ posD c (5 : Fin 80)
        ∗ posD c (6 : Fin 80)
        ∗ posD c (7 : Fin 80)
        ∗ posD c (8 : Fin 80)
        ∗ posD c (9 : Fin 80)
        ∗ posD c (10 : Fin 80)
        ∗ posD c (11 : Fin 80)
        ∗ posD c (12 : Fin 80)
        ∗ posD c (13 : Fin 80)
        ∗ posD c (14 : Fin 80)
        ∗ posD c (15 : Fin 80)
        ∗ posD c (16 : Fin 80)
        ∗ posD c (17 : Fin 80)
        ∗ posD c (18 : Fin 80)
        ∗ posD c (19 : Fin 80)
        ∗ posD c (20 : Fin 80)
        ∗ posD c (21 : Fin 80)
        ∗ posD c (22 : Fin 80)
        ∗ posD c (23 : Fin 80)
        ∗ posD c (24 : Fin 80)
        ∗ posD c (25 : Fin 80)
        ∗ posD c (26 : Fin 80)
        ∗ posD c (27 : Fin 80)
        ∗ posD c (28 : Fin 80)
        ∗ posD c (29 : Fin 80)
        ∗ posD c (30 : Fin 80)
        ∗ posD c (31 : Fin 80)
        ∗ posD c (32 : Fin 80)
        ∗ posD c (33 : Fin 80)
        ∗ posD c (34 : Fin 80)
        ∗ posD c (35 : Fin 80)
        ∗ posD c (36 : Fin 80)
        ∗ posD c (37 : Fin 80)
        ∗ posD c (38 : Fin 80)
        ∗ posD c (39 : Fin 80)
        ∗ posD c (40 : Fin 80)
        ∗ posD c (41 : Fin 80)
        ∗ posD c (42 : Fin 80)
        ∗ posD c (43 : Fin 80)
        ∗ posD c (44 : Fin 80)
        ∗ posD c (45 : Fin 80)
        ∗ posD c (46 : Fin 80)
        ∗ posD c (47 : Fin 80)
        ∗ posD c (48 : Fin 80)
        ∗ posD c (49 : Fin 80)
        ∗ posD c (50 : Fin 80)
        ∗ posD c (51 : Fin 80)
        ∗ posD c (52 : Fin 80)
        ∗ posD c (53 : Fin 80)
        ∗ posD c (54 : Fin 80)
        ∗ posD c (55 : Fin 80)
        ∗ posD c (56 : Fin 80)
        ∗ posD c (57 : Fin 80)
        ∗ posD c (58 : Fin 80)
        ∗ posD c (59 : Fin 80)
        ∗ posD c (60 : Fin 80)
        ∗ posD c (61 : Fin 80)
        ∗ posD c (62 : Fin 80)
        ∗ posD c (63 : Fin 80)
        ∗ posD c (64 : Fin 80)
        ∗ posD c (65 : Fin 80)
        ∗ posD c (66 : Fin 80)
        ∗ posD c (67 : Fin 80)
        ∗ posD c (68 : Fin 80)
        ∗ posD c (69 : Fin 80)
        ∗ posD c (70 : Fin 80)
        ∗ posD c (71 : Fin 80)
        ∗ posD c (72 : Fin 80)
        ∗ posD c (73 : Fin 80)
        ∗ posD c (74 : Fin 80)
        ∗ posD c (75 : Fin 80)
        ∗ posD c (76 : Fin 80)
        ∗ posD c (77 : Fin 80)
        ∗ posD c (78 : Fin 80)
        ∗ posD c (79 : Fin 80)
        ∗ tokB c (0 : Fin 8)
        ∗ tokB c (1 : Fin 8)
        ∗ tokB c (2 : Fin 8)
        ∗ tokB c (3 : Fin 8)
        ∗ tokB c (4 : Fin 8)
        ∗ tokB c (5 : Fin 8)
        ∗ tokB c (6 : Fin 8)
        ∗ tokB c (7 : Fin 8)
        ∗ tokD c (0 : Fin 80)
        ∗ tokD c (1 : Fin 80)
        ∗ tokD c (2 : Fin 80)
        ∗ tokD c (3 : Fin 80)
        ∗ tokD c (4 : Fin 80)
        ∗ tokD c (5 : Fin 80)
        ∗ tokD c (6 : Fin 80)
        ∗ tokD c (7 : Fin 80)
        ∗ tokD c (8 : Fin 80)
        ∗ tokD c (9 : Fin 80)
        ∗ tokD c (10 : Fin 80)
        ∗ tokD c (11 : Fin 80)
        ∗ tokD c (12 : Fin 80)
        ∗ tokD c (13 : Fin 80)
        ∗ tokD c (14 : Fin 80)
        ∗ tokD c (15 : Fin 80)
        ∗ tokD c (16 : Fin 80)
        ∗ tokD c (17 : Fin 80)
        ∗ tokD c (18 : Fin 80)
        ∗ tokD c (19 : Fin 80)
        ∗ tokD c (20 : Fin 80)
        ∗ tokD c (21 : Fin 80)
        ∗ tokD c (22 : Fin 80)
        ∗ tokD c (23 : Fin 80)
        ∗ tokD c (24 : Fin 80)
        ∗ tokD c (25 : Fin 80)
        ∗ tokD c (26 : Fin 80)
        ∗ tokD c (27 : Fin 80)
        ∗ tokD c (28 : Fin 80)
        ∗ tokD c (29 : Fin 80)
        ∗ tokD c (30 : Fin 80)
        ∗ tokD c (31 : Fin 80)
        ∗ tokD c (32 : Fin 80)
        ∗ tokD c (33 : Fin 80)
        ∗ tokD c (34 : Fin 80)
        ∗ tokD c (35 : Fin 80)
        ∗ tokD c (36 : Fin 80)
        ∗ tokD c (37 : Fin 80)
        ∗ tokD c (38 : Fin 80)
        ∗ tokD c (39 : Fin 80)
        ∗ tokD c (40 : Fin 80)
        ∗ tokD c (41 : Fin 80)
        ∗ tokD c (42 : Fin 80)
        ∗ tokD c (43 : Fin 80)
        ∗ tokD c (44 : Fin 80)
        ∗ tokD c (45 : Fin 80)
        ∗ tokD c (46 : Fin 80)
        ∗ tokD c (47 : Fin 80)
        ∗ tokD c (48 : Fin 80)
        ∗ tokD c (49 : Fin 80)
        ∗ tokD c (50 : Fin 80)
        ∗ tokD c (51 : Fin 80)
        ∗ tokD c (52 : Fin 80)
        ∗ tokD c (53 : Fin 80)
        ∗ tokD c (54 : Fin 80)
        ∗ tokD c (55 : Fin 80)
        ∗ tokD c (56 : Fin 80)
        ∗ tokD c (57 : Fin 80)
        ∗ tokD c (58 : Fin 80)
        ∗ tokD c (59 : Fin 80)
        ∗ tokD c (60 : Fin 80)
        ∗ tokD c (61 : Fin 80)
        ∗ tokD c (62 : Fin 80)
        ∗ tokD c (63 : Fin 80)
        ∗ tokD c (64 : Fin 80)
        ∗ tokD c (65 : Fin 80)
        ∗ tokD c (66 : Fin 80)
        ∗ tokD c (67 : Fin 80)
        ∗ tokD c (68 : Fin 80)
        ∗ tokD c (69 : Fin 80)
        ∗ tokD c (70 : Fin 80)
        ∗ tokD c (71 : Fin 80)
        ∗ tokD c (72 : Fin 80)
        ∗ tokD c (73 : Fin 80)
        ∗ tokD c (74 : Fin 80)
        ∗ tokD c (75 : Fin 80)
        ∗ tokD c (76 : Fin 80)
        ∗ tokD c (77 : Fin 80)
        ∗ tokD c (78 : Fin 80)
        ∗ tokD c (79 : Fin 80)
        ∗ crB c
        ∗ crD c (16 : Fin 80)
        ∗ crD c (17 : Fin 80)
        ∗ crD c (18 : Fin 80)
        ∗ crD c (19 : Fin 80)
        ∗ crD c (20 : Fin 80)
        ∗ crD c (21 : Fin 80)
        ∗ crD c (22 : Fin 80)
        ∗ crD c (23 : Fin 80)
        ∗ crD c (52 : Fin 80)
        ∗ crD c (53 : Fin 80)
        ∗ crD c (54 : Fin 80)
        ∗ crD c (55 : Fin 80)
        ∗ crD c (56 : Fin 80)
        ∗ crD c (57 : Fin 80)
        ∗ crD c (58 : Fin 80)
        ∗ crD c (59 : Fin 80)
        ∗ crD c (60 : Fin 80)
        ∗ crD c (61 : Fin 80)
        ∗ crD c (62 : Fin 80)
        ∗ crD c (63 : Fin 80)
        ∗ crD c (64 : Fin 80)
        ∗ crD c (65 : Fin 80)
        ∗ crD c (66 : Fin 80)
        ∗ crD c (67 : Fin 80)
        ∗ crD c (68 : Fin 80)
        ∗ crD c (69 : Fin 80)
        ∗ crD c (70 : Fin 80)
        ∗ crD c (71 : Fin 80)
        ∗ crD c (72 : Fin 80)
        ∗ crD c (73 : Fin 80)
        ∗ crD c (74 : Fin 80)
        ∗ crD c (75 : Fin 80)
        ∗ crD c (76 : Fin 80)
        ∗ crD c (77 : Fin 80)
        ∗ crD c (78 : Fin 80)
        ∗ crD c (79 : Fin 80)
        ∗ Qstg m c
        ∗ kSrcA m c (0 : Fin 4)
        ∗ kSrcA m c (1 : Fin 4)
        ∗ kSrcA m c (2 : Fin 4)
        ∗ kSrcA m c (3 : Fin 4)
        ∗ vSrcA m c (0 : Fin 4)
        ∗ vSrcA m c (1 : Fin 4)
        ∗ vSrcA m c (2 : Fin 4)
        ∗ vSrcA m c (3 : Fin 4)
        ∗ kDstE (F := F) c (0 : Fin 4)
        ∗ kDstE (F := F) c (1 : Fin 4)
        ∗ kDstE (F := F) c (2 : Fin 4)
        ∗ kDstE (F := F) c (3 : Fin 4)
        ∗ vDstE (F := F) c (0 : Fin 4)
        ∗ vDstE (F := F) c (1 : Fin 4)
        ∗ vDstE (F := F) c (2 : Fin 4)
        ∗ vDstE (F := F) c (3 : Fin 4)
        ∗ oE (F := F) c (0 : Fin 4)
        ∗ oE (F := F) c (1 : Fin 4)
        ∗ oE (F := F) c (2 : Fin 4)
        ∗ oE (F := F) c (3 : Fin 4)
        ∗ lE (F := F) c (0 : Fin 4)
        ∗ lE (F := F) c (1 : Fin 4)
        ∗ lE (F := F) c (2 : Fin 4)
        ∗ lE (F := F) c (3 : Fin 4)
        ∗ wholeE (F := F) c cc0_scratch4
        ∗ wholeE (F := F) c cc0_scratch5
        ∗ hE (F := F) c (0 : Fin 4) (hdN c) (hdN_lt c)
        ∗ hE (F := F) c (1 : Fin 4) (hdN c) (hdN_lt c)
        ∗ hE (F := F) c (2 : Fin 4) (hdN c) (hdN_lt c)
        ∗ hE (F := F) c (3 : Fin 4) (hdN c) (hdN_lt c)
        ∗ hE (F := F) c (0 : Fin 4) (hdN (pr (0 : Fin 7).succ c)) (hdN_lt _)
        ∗ hE (F := F) c (1 : Fin 4) (hdN (pr (0 : Fin 7).succ c)) (hdN_lt _)
        ∗ hE (F := F) c (2 : Fin 4) (hdN (pr (0 : Fin 7).succ c)) (hdN_lt _)
        ∗ hE (F := F) c (3 : Fin 4) (hdN (pr (0 : Fin 7).succ c)) (hdN_lt _)
        ∗ hE (F := F) c (0 : Fin 4) (hdN (pr (1 : Fin 7).succ c)) (hdN_lt _)
        ∗ hE (F := F) c (1 : Fin 4) (hdN (pr (1 : Fin 7).succ c)) (hdN_lt _)
        ∗ hE (F := F) c (2 : Fin 4) (hdN (pr (1 : Fin 7).succ c)) (hdN_lt _)
        ∗ hE (F := F) c (3 : Fin 4) (hdN (pr (1 : Fin 7).succ c)) (hdN_lt _)
        ∗ hE (F := F) c (0 : Fin 4) (hdN (pr (2 : Fin 7).succ c)) (hdN_lt _)
        ∗ hE (F := F) c (1 : Fin 4) (hdN (pr (2 : Fin 7).succ c)) (hdN_lt _)
        ∗ hE (F := F) c (2 : Fin 4) (hdN (pr (2 : Fin 7).succ c)) (hdN_lt _)
        ∗ hE (F := F) c (3 : Fin 4) (hdN (pr (2 : Fin 7).succ c)) (hdN_lt _)
        ∗ hE (F := F) c (0 : Fin 4) (hdN (pr (3 : Fin 7).succ c)) (hdN_lt _)
        ∗ hE (F := F) c (1 : Fin 4) (hdN (pr (3 : Fin 7).succ c)) (hdN_lt _)
        ∗ hE (F := F) c (2 : Fin 4) (hdN (pr (3 : Fin 7).succ c)) (hdN_lt _)
        ∗ hE (F := F) c (3 : Fin 4) (hdN (pr (3 : Fin 7).succ c)) (hdN_lt _)
        ∗ hE (F := F) c (0 : Fin 4) (hdN (pr (4 : Fin 7).succ c)) (hdN_lt _)
        ∗ hE (F := F) c (1 : Fin 4) (hdN (pr (4 : Fin 7).succ c)) (hdN_lt _)
        ∗ hE (F := F) c (2 : Fin 4) (hdN (pr (4 : Fin 7).succ c)) (hdN_lt _)
        ∗ hE (F := F) c (3 : Fin 4) (hdN (pr (4 : Fin 7).succ c)) (hdN_lt _)
        ∗ hE (F := F) c (0 : Fin 4) (hdN (pr (5 : Fin 7).succ c)) (hdN_lt _)
        ∗ hE (F := F) c (1 : Fin 4) (hdN (pr (5 : Fin 7).succ c)) (hdN_lt _)
        ∗ hE (F := F) c (2 : Fin 4) (hdN (pr (5 : Fin 7).succ c)) (hdN_lt _)
        ∗ hE (F := F) c (3 : Fin 4) (hdN (pr (5 : Fin 7).succ c)) (hdN_lt _)
        ∗ hE (F := F) c (0 : Fin 4) (hdN (pr (6 : Fin 7).succ c)) (hdN_lt _)
        ∗ hE (F := F) c (1 : Fin 4) (hdN (pr (6 : Fin 7).succ c)) (hdN_lt _)
        ∗ hE (F := F) c (2 : Fin 4) (hdN (pr (6 : Fin 7).succ c)) (hdN_lt _)
        ∗ hE (F := F) c (3 : Fin 4) (hdN (pr (6 : Fin 7).succ c)) (hdN_lt _))
      ⊢ iprop((iprop((∃ W', owes (c : Thread nD τ) (owedFrom c 44) W')
        ∗ svD c (0 : Fin 80)
        ∗ svD c (1 : Fin 80)
        ∗ svD c (2 : Fin 80)
        ∗ svD c (3 : Fin 80)
        ∗ svD c (4 : Fin 80)
        ∗ svD c (5 : Fin 80)
        ∗ svD c (6 : Fin 80)
        ∗ svD c (7 : Fin 80)
        ∗ svD c (8 : Fin 80)
        ∗ svD c (9 : Fin 80)
        ∗ svD c (10 : Fin 80)
        ∗ svD c (11 : Fin 80)
        ∗ svD c (12 : Fin 80)
        ∗ svD c (13 : Fin 80)
        ∗ svD c (14 : Fin 80)
        ∗ svD c (15 : Fin 80)
        ∗ svD c (16 : Fin 80)
        ∗ svD c (17 : Fin 80)
        ∗ svD c (18 : Fin 80)
        ∗ svD c (19 : Fin 80)
        ∗ svD c (20 : Fin 80)
        ∗ svD c (21 : Fin 80)
        ∗ svD c (22 : Fin 80)
        ∗ svD c (23 : Fin 80)
        ∗ svD c (24 : Fin 80)
        ∗ svD c (25 : Fin 80)
        ∗ svD c (26 : Fin 80)
        ∗ svD c (27 : Fin 80)
        ∗ svD c (28 : Fin 80)
        ∗ svD c (29 : Fin 80)
        ∗ svD c (30 : Fin 80)
        ∗ svD c (31 : Fin 80)
        ∗ svD c (32 : Fin 80)
        ∗ svD c (33 : Fin 80)
        ∗ svD c (34 : Fin 80)
        ∗ svD c (35 : Fin 80)
        ∗ svD c (36 : Fin 80)
        ∗ svD c (37 : Fin 80)
        ∗ svD c (38 : Fin 80)
        ∗ svD c (39 : Fin 80)
        ∗ svD c (40 : Fin 80)
        ∗ svD c (41 : Fin 80)
        ∗ svD c (42 : Fin 80)
        ∗ svD c (43 : Fin 80)
        ∗ svD c (44 : Fin 80)
        ∗ svD c (45 : Fin 80)
        ∗ svD c (46 : Fin 80)
        ∗ svD c (47 : Fin 80)
        ∗ svD c (48 : Fin 80)
        ∗ svD c (49 : Fin 80)
        ∗ svD c (50 : Fin 80)
        ∗ svD c (51 : Fin 80)
        ∗ svD c (52 : Fin 80)
        ∗ svD c (53 : Fin 80)
        ∗ svD c (54 : Fin 80)
        ∗ svD c (55 : Fin 80)
        ∗ svD c (56 : Fin 80)
        ∗ svD c (57 : Fin 80)
        ∗ svD c (58 : Fin 80)
        ∗ svD c (59 : Fin 80)
        ∗ svD c (60 : Fin 80)
        ∗ svD c (61 : Fin 80)
        ∗ svD c (62 : Fin 80)
        ∗ svD c (63 : Fin 80)
        ∗ svD c (64 : Fin 80)
        ∗ svD c (65 : Fin 80)
        ∗ svD c (66 : Fin 80)
        ∗ svD c (67 : Fin 80)
        ∗ svD c (68 : Fin 80)
        ∗ svD c (69 : Fin 80)
        ∗ svD c (70 : Fin 80)
        ∗ svD c (71 : Fin 80)
        ∗ svD c (72 : Fin 80)
        ∗ svD c (73 : Fin 80)
        ∗ svD c (74 : Fin 80)
        ∗ svD c (75 : Fin 80)
        ∗ svD c (76 : Fin 80)
        ∗ svD c (77 : Fin 80)
        ∗ svD c (78 : Fin 80)
        ∗ svD c (79 : Fin 80)
        ∗ Qstg m c
        ∗ kSrcA m c (0 : Fin 4)
        ∗ kSrcA m c (1 : Fin 4)
        ∗ kSrcA m c (2 : Fin 4)
        ∗ kSrcA m c (3 : Fin 4)
        ∗ vSrcA m c (0 : Fin 4)
        ∗ vSrcA m c (1 : Fin 4)
        ∗ vSrcA m c (2 : Fin 4)
        ∗ vSrcA m c (3 : Fin 4)
        ∗ kDstA m c (0 : Fin 4)
        ∗ kDstA m c (1 : Fin 4)
        ∗ kDstA m c (2 : Fin 4)
        ∗ kDstA m c (3 : Fin 4)
        ∗ vDstA m c (0 : Fin 4)
        ∗ vDstA m c (1 : Fin 4)
        ∗ vDstA m c (2 : Fin 4)
        ∗ vDstA m c (3 : Fin 4)
        ∗ oA m c (0 : Fin 4)
        ∗ oA m c (1 : Fin 4)
        ∗ oA m c (2 : Fin 4)
        ∗ oA m c (3 : Fin 4)
        ∗ lA m c (0 : Fin 4)
        ∗ lA m c (1 : Fin 4)
        ∗ lA m c (2 : Fin 4)
        ∗ lA m c (3 : Fin 4)
        ∗ poA m c (0 : Fin 4)
        ∗ poA m c (1 : Fin 4)
        ∗ poA m c (2 : Fin 4)
        ∗ poA m c (3 : Fin 4)
        ∗ plA m c (0 : Fin 4)
        ∗ plA m c (1 : Fin 4)
        ∗ plA m c (2 : Fin 4)
        ∗ plA m c (3 : Fin 4)
        ∗ hA m c (0 : Fin 4) (hdN c) (hdN_lt c) (Transfers.shareDrop fullShare 7)
        ∗ hA m c (1 : Fin 4) (hdN c) (hdN_lt c) (Transfers.shareDrop fullShare 7)
        ∗ hA m c (2 : Fin 4) (hdN c) (hdN_lt c) (Transfers.shareDrop fullShare 7)
        ∗ hA m c (3 : Fin 4) (hdN c) (hdN_lt c) (Transfers.shareDrop fullShare 7)
        ∗ hA m c (0 : Fin 4) (hdN c) (hdN_lt c) (gsShare (0 : Fin 7))
        ∗ hA m c (0 : Fin 4) (hdN c) (hdN_lt c) (gsShare (1 : Fin 7))
        ∗ hA m c (0 : Fin 4) (hdN c) (hdN_lt c) (gsShare (2 : Fin 7))
        ∗ hA m c (0 : Fin 4) (hdN c) (hdN_lt c) (gsShare (3 : Fin 7))
        ∗ hA m c (0 : Fin 4) (hdN c) (hdN_lt c) (gsShare (4 : Fin 7))
        ∗ hA m c (0 : Fin 4) (hdN c) (hdN_lt c) (gsShare (5 : Fin 7))
        ∗ hA m c (0 : Fin 4) (hdN c) (hdN_lt c) (gsShare (6 : Fin 7))
        ∗ hA m c (1 : Fin 4) (hdN c) (hdN_lt c) (gsShare (0 : Fin 7))
        ∗ hA m c (1 : Fin 4) (hdN c) (hdN_lt c) (gsShare (1 : Fin 7))
        ∗ hA m c (1 : Fin 4) (hdN c) (hdN_lt c) (gsShare (2 : Fin 7))
        ∗ hA m c (1 : Fin 4) (hdN c) (hdN_lt c) (gsShare (3 : Fin 7))
        ∗ hA m c (1 : Fin 4) (hdN c) (hdN_lt c) (gsShare (4 : Fin 7))
        ∗ hA m c (1 : Fin 4) (hdN c) (hdN_lt c) (gsShare (5 : Fin 7))
        ∗ hA m c (1 : Fin 4) (hdN c) (hdN_lt c) (gsShare (6 : Fin 7))
        ∗ hA m c (2 : Fin 4) (hdN c) (hdN_lt c) (gsShare (0 : Fin 7))
        ∗ hA m c (2 : Fin 4) (hdN c) (hdN_lt c) (gsShare (1 : Fin 7))
        ∗ hA m c (2 : Fin 4) (hdN c) (hdN_lt c) (gsShare (2 : Fin 7))
        ∗ hA m c (2 : Fin 4) (hdN c) (hdN_lt c) (gsShare (3 : Fin 7))
        ∗ hA m c (2 : Fin 4) (hdN c) (hdN_lt c) (gsShare (4 : Fin 7))
        ∗ hA m c (2 : Fin 4) (hdN c) (hdN_lt c) (gsShare (5 : Fin 7))
        ∗ hA m c (2 : Fin 4) (hdN c) (hdN_lt c) (gsShare (6 : Fin 7))
        ∗ hA m c (3 : Fin 4) (hdN c) (hdN_lt c) (gsShare (0 : Fin 7))
        ∗ hA m c (3 : Fin 4) (hdN c) (hdN_lt c) (gsShare (1 : Fin 7))
        ∗ hA m c (3 : Fin 4) (hdN c) (hdN_lt c) (gsShare (2 : Fin 7))
        ∗ hA m c (3 : Fin 4) (hdN c) (hdN_lt c) (gsShare (3 : Fin 7))
        ∗ hA m c (3 : Fin 4) (hdN c) (hdN_lt c) (gsShare (4 : Fin 7))
        ∗ hA m c (3 : Fin 4) (hdN c) (hdN_lt c) (gsShare (5 : Fin 7))
        ∗ hA m c (3 : Fin 4) (hdN c) (hdN_lt c) (gsShare (6 : Fin 7))
        ∗ hA m c (0 : Fin 4) (hdN (pr (0 : Fin 7).succ c)) (hdN_lt _) fullShare
        ∗ hA m c (0 : Fin 4) (hdN (pr (1 : Fin 7).succ c)) (hdN_lt _) fullShare
        ∗ hA m c (0 : Fin 4) (hdN (pr (2 : Fin 7).succ c)) (hdN_lt _) fullShare
        ∗ hA m c (0 : Fin 4) (hdN (pr (3 : Fin 7).succ c)) (hdN_lt _) fullShare
        ∗ hA m c (0 : Fin 4) (hdN (pr (4 : Fin 7).succ c)) (hdN_lt _) fullShare
        ∗ hA m c (0 : Fin 4) (hdN (pr (5 : Fin 7).succ c)) (hdN_lt _) fullShare
        ∗ hA m c (0 : Fin 4) (hdN (pr (6 : Fin 7).succ c)) (hdN_lt _) fullShare
        ∗ hA m c (1 : Fin 4) (hdN (pr (0 : Fin 7).succ c)) (hdN_lt _) fullShare
        ∗ hA m c (1 : Fin 4) (hdN (pr (1 : Fin 7).succ c)) (hdN_lt _) fullShare
        ∗ hA m c (1 : Fin 4) (hdN (pr (2 : Fin 7).succ c)) (hdN_lt _) fullShare
        ∗ hA m c (1 : Fin 4) (hdN (pr (3 : Fin 7).succ c)) (hdN_lt _) fullShare
        ∗ hA m c (1 : Fin 4) (hdN (pr (4 : Fin 7).succ c)) (hdN_lt _) fullShare
        ∗ hA m c (1 : Fin 4) (hdN (pr (5 : Fin 7).succ c)) (hdN_lt _) fullShare
        ∗ hA m c (1 : Fin 4) (hdN (pr (6 : Fin 7).succ c)) (hdN_lt _) fullShare
        ∗ hA m c (2 : Fin 4) (hdN (pr (0 : Fin 7).succ c)) (hdN_lt _) fullShare
        ∗ hA m c (2 : Fin 4) (hdN (pr (1 : Fin 7).succ c)) (hdN_lt _) fullShare
        ∗ hA m c (2 : Fin 4) (hdN (pr (2 : Fin 7).succ c)) (hdN_lt _) fullShare
        ∗ hA m c (2 : Fin 4) (hdN (pr (3 : Fin 7).succ c)) (hdN_lt _) fullShare
        ∗ hA m c (2 : Fin 4) (hdN (pr (4 : Fin 7).succ c)) (hdN_lt _) fullShare
        ∗ hA m c (2 : Fin 4) (hdN (pr (5 : Fin 7).succ c)) (hdN_lt _) fullShare
        ∗ hA m c (2 : Fin 4) (hdN (pr (6 : Fin 7).succ c)) (hdN_lt _) fullShare
        ∗ hA m c (3 : Fin 4) (hdN (pr (0 : Fin 7).succ c)) (hdN_lt _) fullShare
        ∗ hA m c (3 : Fin 4) (hdN (pr (1 : Fin 7).succ c)) (hdN_lt _) fullShare
        ∗ hA m c (3 : Fin 4) (hdN (pr (2 : Fin 7).succ c)) (hdN_lt _) fullShare
        ∗ hA m c (3 : Fin 4) (hdN (pr (3 : Fin 7).succ c)) (hdN_lt _) fullShare
        ∗ hA m c (3 : Fin 4) (hdN (pr (4 : Fin 7).succ c)) (hdN_lt _) fullShare
        ∗ hA m c (3 : Fin 4) (hdN (pr (5 : Fin 7).succ c)) (hdN_lt _) fullShare
        ∗ hA m c (3 : Fin 4) (hdN (pr (6 : Fin 7).succ c)) (hdN_lt _) fullShare) -∗ Kt ⟨⟩)
          -∗ wp frame (wpE (defs₀ (F := F)) 𝒱₀ (c : Thread nD τ) none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  iintro ⟨#HR, #HL, HO, HposB, Hpos0, Hpos1, Hpos2, Hpos3, Hpos4, Hpos5, Hpos6, Hpos7, Hpos8, Hpos9, Hpos10, Hpos11, Hpos12, Hpos13, Hpos14, Hpos15, Hpos16, Hpos17, Hpos18, Hpos19, Hpos20, Hpos21, Hpos22, Hpos23, Hpos24, Hpos25, Hpos26, Hpos27, Hpos28, Hpos29, Hpos30, Hpos31, Hpos32, Hpos33, Hpos34, Hpos35, Hpos36, Hpos37, Hpos38, Hpos39, Hpos40, Hpos41, Hpos42, Hpos43, Hpos44, Hpos45, Hpos46, Hpos47, Hpos48, Hpos49, Hpos50, Hpos51, Hpos52, Hpos53, Hpos54, Hpos55, Hpos56, Hpos57, Hpos58, Hpos59, Hpos60, Hpos61, Hpos62, Hpos63, Hpos64, Hpos65, Hpos66, Hpos67, Hpos68, Hpos69, Hpos70, Hpos71, Hpos72, Hpos73, Hpos74, Hpos75, Hpos76, Hpos77, Hpos78, Hpos79, HtokB0, HtokB1, HtokB2, HtokB3, HtokB4, HtokB5, HtokB6, HtokB7, HtokD0, HtokD1, HtokD2, HtokD3, HtokD4, HtokD5, HtokD6, HtokD7, HtokD8, HtokD9, HtokD10, HtokD11, HtokD12, HtokD13, HtokD14, HtokD15, HtokD16, HtokD17, HtokD18, HtokD19, HtokD20, HtokD21, HtokD22, HtokD23, HtokD24, HtokD25, HtokD26, HtokD27, HtokD28, HtokD29, HtokD30, HtokD31, HtokD32, HtokD33, HtokD34, HtokD35, HtokD36, HtokD37, HtokD38, HtokD39, HtokD40, HtokD41, HtokD42, HtokD43, HtokD44, HtokD45, HtokD46, HtokD47, HtokD48, HtokD49, HtokD50, HtokD51, HtokD52, HtokD53, HtokD54, HtokD55, HtokD56, HtokD57, HtokD58, HtokD59, HtokD60, HtokD61, HtokD62, HtokD63, HtokD64, HtokD65, HtokD66, HtokD67, HtokD68, HtokD69, HtokD70, HtokD71, HtokD72, HtokD73, HtokD74, HtokD75, HtokD76, HtokD77, HtokD78, HtokD79, HcrB, Hcr16, Hcr17, Hcr18, Hcr19, Hcr20, Hcr21, Hcr22, Hcr23, Hcr52, Hcr53, Hcr54, Hcr55, Hcr56, Hcr57, Hcr58, Hcr59, Hcr60, Hcr61, Hcr62, Hcr63, Hcr64, Hcr65, Hcr66, Hcr67, Hcr68, Hcr69, Hcr70, Hcr71, Hcr72, Hcr73, Hcr74, Hcr75, Hcr76, Hcr77, Hcr78, Hcr79, HQ, HkS0, HkS1, HkS2, HkS3, HvS0, HvS1, HvS2, HvS3, HkD0, HkD1, HkD2, HkD3, HvD0, HvD1, HvD2, HvD3, Ho0, Ho1, Ho2, Ho3, Hl0, Hl1, Hl2, Hl3, Hw4, Hw5, HhOwn0, HhOwn1, HhOwn2, HhOwn3, HhGive0_0, HhGive0_1, HhGive0_2, HhGive0_3, HhGive1_0, HhGive1_1, HhGive1_2, HhGive1_3, HhGive2_0, HhGive2_1, HhGive2_2, HhGive2_3, HhGive3_0, HhGive3_1, HhGive3_2, HhGive3_3, HhGive4_0, HhGive4_1, HhGive4_2, HhGive4_3, HhGive5_0, HhGive5_1, HhGive5_2, HhGive5_3, HhGive6_0, HhGive6_1, HhGive6_2, HhGive6_3⟩ Hk
  rw [cc0_body_eq_skeleton]; unfold cc0_body_skel
  rw [k0_part54_eq_skeleton]; unfold k0_part54_skel
  simp only [Prog.bind_assoc, wp_bind]
  -- part 1
  rw [k0_part1_eq_skeleton]; unfold k0_part1_skel
  simp only [Prog.lift, Prog.bind_op, Prog.bind_ret, Prog.pure_eq_ret, wp_ret, wp_deviceId, semSignalWord, semWaitWord]
  (try imodintro)
  -- (the printed offsets and device chains stay as printed: the step lemmas take them with their equations)
  -- part 2
  rw [k0_part2_eq_skeleton]; unfold k0_part2_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 0 (by decide), sem_loc 1 (by decide), sem_loc 2 (by decide), sem_loc 3 (by decide)]
  -- enq batch 0
  iapply (step_locK_off m K c (0 : Fin 4) (k0_off1 c) (off1_eq c)) $$ [HkS0 HkD0 HtokD0]
  · isplitr; · iexact HR
    isplitl [HkS0]; · iexact HkS0
    isplitl [HkD0]; · iexact HkD0
    iexact HtokD0
  iintro Hcr0
  -- enq batch 0
  iapply (step_locV_off m K c (0 : Fin 4) (k0_off1 c) (off1_eq c)) $$ [HvS0 HvD0 HtokD1]
  · isplitr; · iexact HR
    isplitl [HvS0]; · iexact HvS0
    isplitl [HvD0]; · iexact HvD0
    iexact HtokD1
  iintro Hcr1
  -- enq batch 1
  iapply (step_locK_off m K c (1 : Fin 4) (k0_off2 c) (off2_eq c)) $$ [HkS1 HkD1 HtokD2]
  · isplitr; · iexact HR
    isplitl [HkS1]; · iexact HkS1
    isplitl [HkD1]; · iexact HkD1
    iexact HtokD2
  iintro Hcr2
  -- enq batch 1
  iapply (step_locV_off m K c (1 : Fin 4) (k0_off2 c) (off2_eq c)) $$ [HvS1 HvD1 HtokD3]
  · isplitr; · iexact HR
    isplitl [HvS1]; · iexact HvS1
    isplitl [HvD1]; · iexact HvD1
    iexact HtokD3
  iintro Hcr3
  -- part 3
  rw [k0_part3_eq_skeleton]; unfold k0_part3_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 4 (by decide), sem_loc 5 (by decide), sem_loc 6 (by decide), sem_loc 7 (by decide)]
  -- enq batch 2
  iapply (step_locK_off m K c (2 : Fin 4) (k0_off3 c) (off3_eq c)) $$ [HkS2 HkD2 HtokD4]
  · isplitr; · iexact HR
    isplitl [HkS2]; · iexact HkS2
    isplitl [HkD2]; · iexact HkD2
    iexact HtokD4
  iintro Hcr4
  -- enq batch 2
  iapply (step_locV_off m K c (2 : Fin 4) (k0_off3 c) (off3_eq c)) $$ [HvS2 HvD2 HtokD5]
  · isplitr; · iexact HR
    isplitl [HvS2]; · iexact HvS2
    isplitl [HvD2]; · iexact HvD2
    iexact HtokD5
  iintro Hcr5
  -- enq batch 3
  iapply (step_locK_off m K c (3 : Fin 4) (k0_off4 c) (off4_eq c)) $$ [HkS3 HkD3 HtokD6]
  · isplitr; · iexact HR
    isplitl [HkS3]; · iexact HkS3
    isplitl [HkD3]; · iexact HkD3
    iexact HtokD6
  iintro Hcr6
  -- enq batch 3
  iapply (step_locV_off m K c (3 : Fin 4) (k0_off4 c) (off4_eq c)) $$ [HvS3 HvD3 HtokD7]
  · isplitr; · iexact HR
    isplitl [HvS3]; · iexact HvS3
    isplitl [HvD3]; · iexact HvD3
    iexact HtokD7
  iintro Hcr7
  -- part 4
  rw [k0_part4_eq_skeleton]; unfold k0_part4_skel
  simp only [Prog.lift, Prog.bind_op, Prog.bind_ret, Prog.pure_eq_ret, wp_ret, wp_deviceId, semSignalWord, semWaitWord]
  (try imodintro)
  -- (the printed offsets and device chains stay as printed: the step lemmas take them with their equations)
  -- sig index 0
  iapply (step_sig_dev m K c (0 : Fin 8) ⟨k0_dev1 c, k0_dev1_lt c⟩ (dev1_eq c)) $$ [HO HtokB0 Hw4 Hw5]
  · isplitr; · iexact HR
    isplitl [HO]; · iexact HO
    isplitl [HtokB0]; · iexact HtokB0
    rw [give_zero]
    isplitl [Hw4]; · iexact Hw4
    iexact Hw5
  iintro HO
  -- sig index 1
  iapply (step_sig_dev m K c (0 : Fin 7).succ ⟨k0_dev2 c, k0_dev2_lt c⟩ (dev2_eq c)) $$ [HO HtokB1 HhGive0_0 HhGive0_1 HhGive0_2 HhGive0_3]
  · isplitr; · iexact HR
    isplitl [HO]; · iexact HO
    isplitl [HtokB1]; · iexact HtokB1
    rw [give_succ, bigSep_fin4]
    isplitl [HhGive0_0]; · iexact HhGive0_0
    isplitl [HhGive0_1]; · iexact HhGive0_1
    isplitl [HhGive0_2]; · iexact HhGive0_2
    iexact HhGive0_3
  iintro HO
  -- sig index 2
  iapply (step_sig_dev m K c (1 : Fin 7).succ ⟨k0_dev3 c, k0_dev3_lt c⟩ (dev3_eq c)) $$ [HO HtokB2 HhGive1_0 HhGive1_1 HhGive1_2 HhGive1_3]
  · isplitr; · iexact HR
    isplitl [HO]; · iexact HO
    isplitl [HtokB2]; · iexact HtokB2
    rw [give_succ, bigSep_fin4]
    isplitl [HhGive1_0]; · iexact HhGive1_0
    isplitl [HhGive1_1]; · iexact HhGive1_1
    isplitl [HhGive1_2]; · iexact HhGive1_2
    iexact HhGive1_3
  iintro HO
  -- sig index 3
  iapply (step_sig_dev m K c (2 : Fin 7).succ ⟨k0_dev4 c, k0_dev4_lt c⟩ (dev4_eq c)) $$ [HO HtokB3 HhGive2_0 HhGive2_1 HhGive2_2 HhGive2_3]
  · isplitr; · iexact HR
    isplitl [HO]; · iexact HO
    isplitl [HtokB3]; · iexact HtokB3
    rw [give_succ, bigSep_fin4]
    isplitl [HhGive2_0]; · iexact HhGive2_0
    isplitl [HhGive2_1]; · iexact HhGive2_1
    isplitl [HhGive2_2]; · iexact HhGive2_2
    iexact HhGive2_3
  iintro HO
  -- sig index 4
  iapply (step_sig_dev m K c (3 : Fin 7).succ ⟨k0_dev5 c, k0_dev5_lt c⟩ (dev5_eq c)) $$ [HO HtokB4 HhGive3_0 HhGive3_1 HhGive3_2 HhGive3_3]
  · isplitr; · iexact HR
    isplitl [HO]; · iexact HO
    isplitl [HtokB4]; · iexact HtokB4
    rw [give_succ, bigSep_fin4]
    isplitl [HhGive3_0]; · iexact HhGive3_0
    isplitl [HhGive3_1]; · iexact HhGive3_1
    isplitl [HhGive3_2]; · iexact HhGive3_2
    iexact HhGive3_3
  iintro HO
  -- part 5
  rw [k0_part5_eq_skeleton]; unfold k0_part5_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 0 (by decide)]
  -- sig index 5
  iapply (step_sig_dev m K c (4 : Fin 7).succ ⟨k0_dev6 c, k0_dev6_lt c⟩ (dev6_eq c)) $$ [HO HtokB5 HhGive4_0 HhGive4_1 HhGive4_2 HhGive4_3]
  · isplitr; · iexact HR
    isplitl [HO]; · iexact HO
    isplitl [HtokB5]; · iexact HtokB5
    rw [give_succ, bigSep_fin4]
    isplitl [HhGive4_0]; · iexact HhGive4_0
    isplitl [HhGive4_1]; · iexact HhGive4_1
    isplitl [HhGive4_2]; · iexact HhGive4_2
    iexact HhGive4_3
  iintro HO
  -- sig index 6
  iapply (step_sig_dev m K c (5 : Fin 7).succ ⟨k0_dev7 c, k0_dev7_lt c⟩ (dev7_eq c)) $$ [HO HtokB6 HhGive5_0 HhGive5_1 HhGive5_2 HhGive5_3]
  · isplitr; · iexact HR
    isplitl [HO]; · iexact HO
    isplitl [HtokB6]; · iexact HtokB6
    rw [give_succ, bigSep_fin4]
    isplitl [HhGive5_0]; · iexact HhGive5_0
    isplitl [HhGive5_1]; · iexact HhGive5_1
    isplitl [HhGive5_2]; · iexact HhGive5_2
    iexact HhGive5_3
  iintro HO
  -- sig index 7
  iapply (step_sig_dev m K c (6 : Fin 7).succ ⟨k0_dev8 c, k0_dev8_lt c⟩ (dev8_eq c)) $$ [HO HtokB7 HhGive6_0 HhGive6_1 HhGive6_2 HhGive6_3]
  · isplitr; · iexact HR
    isplitl [HO]; · iexact HO
    isplitl [HtokB7]; · iexact HtokB7
    rw [give_succ, bigSep_fin4]
    isplitl [HhGive6_0]; · iexact HhGive6_0
    isplitl [HhGive6_1]; · iexact HhGive6_1
    isplitl [HhGive6_2]; · iexact HhGive6_2
    iexact HhGive6_3
  iintro HO
  -- barwait
  iapply (step_barwait m K c) $$ [HcrB HposB HO]
  · isplitr; · iexact HR
    isplitr; · iexact HL
    isplitl [HcrB]; · iexact HcrB
    isplitl [HposB]; · iexact HposB
    iexact HO
  iintro ⟨⟨%W1, HO⟩, Hgot⟩
  ihave Hgot2 := (got_elim c) $$ Hgot
  icases Hgot2 with ⟨HxW4, HxW5, HhPeer0_0, HhPeer0_1, HhPeer0_2, HhPeer0_3, HhPeer1_0, HhPeer1_1, HhPeer1_2, HhPeer1_3, HhPeer2_0, HhPeer2_1, HhPeer2_2, HhPeer2_3, HhPeer3_0, HhPeer3_1, HhPeer3_2, HhPeer3_3, HhPeer4_0, HhPeer4_1, HhPeer4_2, HhPeer4_3, HhPeer5_0, HhPeer5_1, HhPeer5_2, HhPeer5_3, HhPeer6_0, HhPeer6_1, HhPeer6_2, HhPeer6_3⟩
  -- splitX
  ihave Hs4 := (oM'_splitE (pr 0 c)) $$ HxW4
  icases Hs4 with ⟨HxPo0, HxPo1, HxPo2, HxPo3⟩
  ihave Hs5 := (lM'_splitE (pr 0 c)) $$ HxW5
  icases Hs5 with ⟨HxPl0, HxPl1, HxPl2, HxPl3⟩
  -- load arg0 batch 0
  iapply (step_loadQ_off m K c (0 : Fin 4) (k0_off5 c) (off5_eq c)) $$ [HQ]
  · iexact HQ
  iintro HQ
  -- wait loc batch 0 index 0
  iapply (step_wait_locK m K c (0 : Fin 4) 8 (dst := kvDst (0 : Fin 4).val (0 : Fin 4).isLt kM) rfl) $$ [Hcr0 Hpos0 HO]
  · isplitr; · iexact HR
    isplitr; · iexact HL
    isplitl [Hcr0]; · iexact Hcr0
    isplitl [Hpos0]; · iexact Hpos0
    iexact HO
  iintro ⟨⟨%W2, HO⟩, Hsv0, HkD0, HkS0⟩
  -- load arg4 batch 0
  iapply (step_loadK m K c (0 : Fin 4)) $$ [HkD0]
  · iexact HkD0
  iintro HkD0
  -- part 6
  rw [k0_part6_eq_skeleton]; unfold k0_part6_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 1 (by decide)]
  simp only [pay4_eq, pay5_eq, pay8_eq, pay9_eq, pay13_eq, pay14_eq, pay20_eq, pay21_eq, pay10_eq, pay16_eq, pay22_eq, pay23_eq]
  -- wait loc batch 0 index 1
  iapply (step_wait_locV m K c (0 : Fin 4) 8 (dst := kvDst (0 : Fin 4).val (0 : Fin 4).isLt vM) rfl) $$ [Hcr1 Hpos1 HO]
  · isplitr; · iexact HR
    isplitr; · iexact HL
    isplitl [Hcr1]; · iexact Hcr1
    isplitl [Hpos1]; · iexact Hpos1
    iexact HO
  iintro ⟨⟨%W3, HO⟩, Hsv1, HvD0, HvS0⟩
  -- load arg5 batch 0
  iapply (step_loadV m K c (0 : Fin 4)) $$ [HvD0]
  · iexact HvD0
  iintro HvD0
  -- load arg7 batch 0
  iapply (step_loadLdead m K c (0 : Fin 4)) $$ [Hl0]
  · iexact Hl0
  iintro %vd1 Hl0
  -- store arg7 batch 0
  iapply (step_storeL m K c (0 : Fin 4)) $$ [Hl0]
  · iexact Hl0
  iintro Hl0
  -- load arg6 batch 0
  iapply (step_loadOdead m K c (0 : Fin 4)) $$ [Ho0]
  · iexact Ho0
  iintro %vd2 Ho0
  -- store arg6 batch 0
  iapply (step_storeO m K c (0 : Fin 4)) $$ [Ho0]
  · iexact Ho0
  iintro Ho0
  -- part 7
  rw [k0_part7_eq_skeleton]; unfold k0_part7_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 0 0 (by decide) (by decide), sem_xr 0 0 (by decide) (by decide), sem_xs 0 1 (by decide) (by decide), sem_xr 0 1 (by decide) (by decide)]
  -- xsend batch 0 index 0
  iapply (step_xsendO_dev m K c (0 : Fin 4) 8 (owed_8 c) ⟨k0_dev9 c, k0_dev9_lt c⟩ (dev9_eq c)) $$ [Ho0 HxPo0 HO HtokD8 HtokD16]
  · isplitr; · iexact HR
    isplitl [Ho0]; · iexact Ho0
    isplitl [HxPo0]; · iexact HxPo0
    isplitl [HO]; · iexact HO
    isplitl [HtokD8]; · iexact HtokD8
    iexact HtokD16
  iintro ⟨Hcr8, HO⟩
  -- xsend batch 0 index 1
  iapply (step_xsendL_dev m K c (0 : Fin 4) 9 (owed_9 c) ⟨k0_dev10 c, k0_dev10_lt c⟩ (dev10_eq c)) $$ [Hl0 HxPl0 HO HtokD9 HtokD17]
  · isplitr; · iexact HR
    isplitl [Hl0]; · iexact Hl0
    isplitl [HxPl0]; · iexact HxPl0
    isplitl [HO]; · iexact HO
    isplitl [HtokD9]; · iexact HtokD9
    iexact HtokD17
  iintro ⟨Hcr9, HO⟩
  -- load arg0 batch 1
  iapply (step_loadQ_off m K c (1 : Fin 4) (k0_off6 c) (off6_eq c)) $$ [HQ]
  · iexact HQ
  iintro HQ
  -- part 8
  rw [k0_part8_eq_skeleton]; unfold k0_part8_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 2 (by decide), sem_loc 3 (by decide)]
  simp only [pay4_eq, pay5_eq, pay8_eq, pay9_eq, pay13_eq, pay14_eq, pay20_eq, pay21_eq, pay10_eq, pay16_eq, pay22_eq, pay23_eq]
  -- wait loc batch 1 index 0
  iapply (step_wait_locK m K c (1 : Fin 4) 10 (dst := kvDst (1 : Fin 4).val (1 : Fin 4).isLt kM) rfl) $$ [Hcr2 Hpos2 HO]
  · isplitr; · iexact HR
    isplitr; · iexact HL
    isplitl [Hcr2]; · iexact Hcr2
    isplitl [Hpos2]; · iexact Hpos2
    iexact HO
  iintro ⟨⟨%W4, HO⟩, Hsv2, HkD1, HkS1⟩
  -- load arg4 batch 1
  iapply (step_loadK m K c (1 : Fin 4)) $$ [HkD1]
  · iexact HkD1
  iintro HkD1
  -- wait loc batch 1 index 1
  iapply (step_wait_locV m K c (1 : Fin 4) 10 (dst := kvDst (1 : Fin 4).val (1 : Fin 4).isLt vM) rfl) $$ [Hcr3 Hpos3 HO]
  · isplitr; · iexact HR
    isplitr; · iexact HL
    isplitl [Hcr3]; · iexact Hcr3
    isplitl [Hpos3]; · iexact Hpos3
    iexact HO
  iintro ⟨⟨%W5, HO⟩, Hsv3, HvD1, HvS1⟩
  -- load arg5 batch 1
  iapply (step_loadV m K c (1 : Fin 4)) $$ [HvD1]
  · iexact HvD1
  iintro HvD1
  -- load arg7 batch 1
  iapply (step_loadLdead m K c (1 : Fin 4)) $$ [Hl1]
  · iexact Hl1
  iintro %vd3 Hl1
  -- store arg7 batch 1
  iapply (step_storeL m K c (1 : Fin 4)) $$ [Hl1]
  · iexact Hl1
  iintro Hl1
  -- load arg6 batch 1
  iapply (step_loadOdead m K c (1 : Fin 4)) $$ [Ho1]
  · iexact Ho1
  iintro %vd4 Ho1
  -- store arg6 batch 1
  iapply (step_storeO m K c (1 : Fin 4)) $$ [Ho1]
  · iexact Ho1
  iintro Ho1
  -- part 9
  rw [k0_part9_eq_skeleton]; unfold k0_part9_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 1 0 (by decide) (by decide), sem_xr 1 0 (by decide) (by decide), sem_xs 1 1 (by decide) (by decide), sem_xr 1 1 (by decide) (by decide)]
  -- xsend batch 1 index 0
  iapply (step_xsendO_dev m K c (1 : Fin 4) 10 (owed_10 c) ⟨k0_dev11 c, k0_dev11_lt c⟩ (dev11_eq c)) $$ [Ho1 HxPo1 HO HtokD10 HtokD18]
  · isplitr; · iexact HR
    isplitl [Ho1]; · iexact Ho1
    isplitl [HxPo1]; · iexact HxPo1
    isplitl [HO]; · iexact HO
    isplitl [HtokD10]; · iexact HtokD10
    iexact HtokD18
  iintro ⟨Hcr10, HO⟩
  -- xsend batch 1 index 1
  iapply (step_xsendL_dev m K c (1 : Fin 4) 11 (owed_11 c) ⟨k0_dev12 c, k0_dev12_lt c⟩ (dev12_eq c)) $$ [Hl1 HxPl1 HO HtokD11 HtokD19]
  · isplitr; · iexact HR
    isplitl [Hl1]; · iexact Hl1
    isplitl [HxPl1]; · iexact HxPl1
    isplitl [HO]; · iexact HO
    isplitl [HtokD11]; · iexact HtokD11
    iexact HtokD19
  iintro ⟨Hcr11, HO⟩
  -- part 10
  rw [k0_part10_eq_skeleton]; unfold k0_part10_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 0 0 (by decide) (by decide), sem_xr 0 0 (by decide) (by decide), sem_xs 0 1 (by decide) (by decide)]
  -- wait xs batch 0 index 0
  iapply (step_wait_xsO m K c (0 : Fin 4) 12 (dst := oSl (0 : Fin 4).val (0 : Fin 4).isLt oM) rfl) $$ [Hcr8 Hpos8 HO]
  · isplitr; · iexact HR
    isplitr; · iexact HL
    isplitl [Hcr8]; · iexact Hcr8
    isplitl [Hpos8]; · iexact Hpos8
    iexact HO
  iintro ⟨⟨%W6, HO⟩, Hsv8, Ho0⟩
  -- wait xr batch 0 index 0
  iapply (step_wait_xrO m K c (0 : Fin 4) (dst := oSl (0 : Fin 4).val (0 : Fin 4).isLt oM') rfl) $$ [Hcr16 Hpos16 HO]
  · isplitr; · iexact HR
    isplitr; · iexact HL
    isplitl [Hcr16]; · iexact Hcr16
    isplitl [Hpos16]; · iexact Hpos16
    iexact HO
  iintro ⟨⟨%W7, HO⟩, Hsv16, Hpo0⟩
  -- wait xs batch 0 index 1
  iapply (step_wait_xsL m K c (0 : Fin 4) 12 (dst := lSl (0 : Fin 4).val (0 : Fin 4).isLt lM) rfl) $$ [Hcr9 Hpos9 HO]
  · isplitr; · iexact HR
    isplitr; · iexact HL
    isplitl [Hcr9]; · iexact Hcr9
    isplitl [Hpos9]; · iexact Hpos9
    iexact HO
  iintro ⟨⟨%W8, HO⟩, Hsv9, Hl0⟩
  -- part 11
  rw [k0_part11_eq_skeleton]; unfold k0_part11_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 0 1 (by decide) (by decide)]
  simp only [pay4_eq, pay5_eq, pay8_eq, pay9_eq, pay13_eq, pay14_eq, pay20_eq, pay21_eq, pay10_eq, pay16_eq, pay22_eq, pay23_eq]
  -- wait xr batch 0 index 1
  iapply (step_wait_xrL m K c (0 : Fin 4) (dst := lSl (0 : Fin 4).val (0 : Fin 4).isLt lM') rfl) $$ [Hcr17 Hpos17 HO]
  · isplitr; · iexact HR
    isplitr; · iexact HL
    isplitl [Hcr17]; · iexact Hcr17
    isplitl [Hpos17]; · iexact Hpos17
    iexact HO
  iintro ⟨⟨%W9, HO⟩, Hsv17, Hpl0⟩
  -- load arg6 batch 0
  iapply (step_loadO m K c (0 : Fin 4)) $$ [Ho0]
  · iexact Ho0
  iintro Ho0
  -- load arg8 batch 0
  iapply (step_loadPO m K c (0 : Fin 4)) $$ [Hpo0]
  · iexact Hpo0
  iintro Hpo0
  -- load arg7 batch 0
  iapply (step_loadL m K c (0 : Fin 4)) $$ [Hl0]
  · iexact Hl0
  iintro Hl0
  -- load arg9 batch 0
  iapply (step_loadPL m K c (0 : Fin 4)) $$ [Hpl0]
  · iexact Hpl0
  iintro Hpl0
  -- load arg3 batch 0
  iapply (step_loadHdead_off m K c (0 : Fin 4) (k0_off5 c) (off5_eq c)) $$ [HhOwn0]
  · iexact HhOwn0
  iintro %vd5 HhOwn0
  -- store arg3 batch 0
  iapply (step_storeH_off m K c (0 : Fin 4) (k0_off5 c) (off5_eq c)) $$ [HhOwn0]
  · iexact HhOwn0
  iintro HhOwn0
  -- shares batch 0
  ihave Hsh := (hA_shares_split m c (0 : Fin 4) (hdN c) (hdN_lt c)) $$ HhOwn0
  icases Hsh with ⟨HhRem0, HhS0_0, HhS0_1, HhS0_2, HhS0_3, HhS0_4, HhS0_5, HhS0_6⟩
  -- part 12
  rw [k0_part12_eq_skeleton]; unfold k0_part12_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 0 (by decide) (by decide), sem_ar 0 0 (by decide) (by decide), sem_as 0 1 (by decide) (by decide), sem_ar 0 1 (by decide) (by decide)]
  -- gsend batch 0 index 0
  iapply (step_agsend_off m K c (0 : Fin 4) (0 : Fin 7) 12 (by decide) rfl (k0_off7 c) (off7_eq c) ⟨k0_dev13 c, k0_dev13_lt c⟩ (dev13_eq c)) $$ [HhS0_0 HhPeer0_0 HO HtokD24 HtokD52]
  · isplitr; · iexact HR
    isplitl [HhS0_0]; · iexact HhS0_0
    isplitl [HhPeer0_0]; · iexact HhPeer0_0
    isplitl [HO]; · iexact HO
    isplitl [HtokD24]; · iexact HtokD24
    iexact HtokD52
  iintro ⟨Hcr24, HO⟩
  -- gsend batch 0 index 1
  iapply (step_agsend_off m K c (0 : Fin 4) (1 : Fin 7) 13 (by decide) rfl (k0_off7 c) (off7_eq c) ⟨k0_dev14 c, k0_dev14_lt c⟩ (dev14_eq c)) $$ [HhS0_1 HhPeer1_0 HO HtokD25 HtokD53]
  · isplitr; · iexact HR
    isplitl [HhS0_1]; · iexact HhS0_1
    isplitl [HhPeer1_0]; · iexact HhPeer1_0
    isplitl [HO]; · iexact HO
    isplitl [HtokD25]; · iexact HtokD25
    iexact HtokD53
  iintro ⟨Hcr25, HO⟩
  -- part 13
  rw [k0_part13_eq_skeleton]; unfold k0_part13_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 2 (by decide) (by decide), sem_ar 0 2 (by decide) (by decide), sem_as 0 3 (by decide) (by decide), sem_ar 0 3 (by decide) (by decide)]
  -- gsend batch 0 index 2
  iapply (step_agsend_off m K c (0 : Fin 4) (2 : Fin 7) 14 (by decide) rfl (k0_off7 c) (off7_eq c) ⟨k0_dev15 c, k0_dev15_lt c⟩ (dev15_eq c)) $$ [HhS0_2 HhPeer2_0 HO HtokD26 HtokD54]
  · isplitr; · iexact HR
    isplitl [HhS0_2]; · iexact HhS0_2
    isplitl [HhPeer2_0]; · iexact HhPeer2_0
    isplitl [HO]; · iexact HO
    isplitl [HtokD26]; · iexact HtokD26
    iexact HtokD54
  iintro ⟨Hcr26, HO⟩
  -- gsend batch 0 index 3
  iapply (step_agsend_off m K c (0 : Fin 4) (3 : Fin 7) 15 (by decide) rfl (k0_off7 c) (off7_eq c) ⟨k0_dev16 c, k0_dev16_lt c⟩ (dev16_eq c)) $$ [HhS0_3 HhPeer3_0 HO HtokD27 HtokD55]
  · isplitr; · iexact HR
    isplitl [HhS0_3]; · iexact HhS0_3
    isplitl [HhPeer3_0]; · iexact HhPeer3_0
    isplitl [HO]; · iexact HO
    isplitl [HtokD27]; · iexact HtokD27
    iexact HtokD55
  iintro ⟨Hcr27, HO⟩
  -- part 14
  rw [k0_part14_eq_skeleton]; unfold k0_part14_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 4 (by decide) (by decide), sem_ar 0 4 (by decide) (by decide), sem_as 0 5 (by decide) (by decide), sem_ar 0 5 (by decide) (by decide)]
  -- gsend batch 0 index 4
  iapply (step_agsend_off m K c (0 : Fin 4) (4 : Fin 7) 16 (by decide) rfl (k0_off7 c) (off7_eq c) ⟨k0_dev17 c, k0_dev17_lt c⟩ (dev17_eq c)) $$ [HhS0_4 HhPeer4_0 HO HtokD28 HtokD56]
  · isplitr; · iexact HR
    isplitl [HhS0_4]; · iexact HhS0_4
    isplitl [HhPeer4_0]; · iexact HhPeer4_0
    isplitl [HO]; · iexact HO
    isplitl [HtokD28]; · iexact HtokD28
    iexact HtokD56
  iintro ⟨Hcr28, HO⟩
  -- gsend batch 0 index 5
  iapply (step_agsend_off m K c (0 : Fin 4) (5 : Fin 7) 17 (by decide) rfl (k0_off7 c) (off7_eq c) ⟨k0_dev18 c, k0_dev18_lt c⟩ (dev18_eq c)) $$ [HhS0_5 HhPeer5_0 HO HtokD29 HtokD57]
  · isplitr; · iexact HR
    isplitl [HhS0_5]; · iexact HhS0_5
    isplitl [HhPeer5_0]; · iexact HhPeer5_0
    isplitl [HO]; · iexact HO
    isplitl [HtokD29]; · iexact HtokD29
    iexact HtokD57
  iintro ⟨Hcr29, HO⟩
  -- part 15
  rw [k0_part15_eq_skeleton]; unfold k0_part15_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 6 (by decide) (by decide), sem_ar 0 6 (by decide) (by decide), sem_loc 4 (by decide), sem_loc 5 (by decide)]
  -- gsend batch 0 index 6
  iapply (step_agsend_off m K c (0 : Fin 4) (6 : Fin 7) 18 (by decide) rfl (k0_off7 c) (off7_eq c) ⟨k0_dev19 c, k0_dev19_lt c⟩ (dev19_eq c)) $$ [HhS0_6 HhPeer6_0 HO HtokD30 HtokD58]
  · isplitr; · iexact HR
    isplitl [HhS0_6]; · iexact HhS0_6
    isplitl [HhPeer6_0]; · iexact HhPeer6_0
    isplitl [HO]; · iexact HO
    isplitl [HtokD30]; · iexact HtokD30
    iexact HtokD58
  iintro ⟨Hcr30, HO⟩
  -- load arg0 batch 2
  iapply (step_loadQ_off m K c (2 : Fin 4) (k0_off8 c) (off8_eq c)) $$ [HQ]
  · iexact HQ
  iintro HQ
  -- wait loc batch 2 index 0
  iapply (step_wait_locK m K c (2 : Fin 4) 19 (dst := kvDst (2 : Fin 4).val (2 : Fin 4).isLt kM) rfl) $$ [Hcr4 Hpos4 HO]
  · isplitr; · iexact HR
    isplitr; · iexact HL
    isplitl [Hcr4]; · iexact Hcr4
    isplitl [Hpos4]; · iexact Hpos4
    iexact HO
  iintro ⟨⟨%W10, HO⟩, Hsv4, HkD2, HkS2⟩
  -- load arg4 batch 2
  iapply (step_loadK m K c (2 : Fin 4)) $$ [HkD2]
  · iexact HkD2
  iintro HkD2
  -- wait loc batch 2 index 1
  iapply (step_wait_locV m K c (2 : Fin 4) 19 (dst := kvDst (2 : Fin 4).val (2 : Fin 4).isLt vM) rfl) $$ [Hcr5 Hpos5 HO]
  · isplitr; · iexact HR
    isplitr; · iexact HL
    isplitl [Hcr5]; · iexact Hcr5
    isplitl [Hpos5]; · iexact Hpos5
    iexact HO
  iintro ⟨⟨%W11, HO⟩, Hsv5, HvD2, HvS2⟩
  -- load arg5 batch 2
  iapply (step_loadV m K c (2 : Fin 4)) $$ [HvD2]
  · iexact HvD2
  iintro HvD2
  -- part 16
  rw [k0_part16_eq_skeleton]; unfold k0_part16_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 2 0 (by decide) (by decide), sem_xr 2 0 (by decide) (by decide)]
  simp only [pay4_eq, pay5_eq, pay8_eq, pay9_eq, pay13_eq, pay14_eq, pay20_eq, pay21_eq, pay10_eq, pay16_eq, pay22_eq, pay23_eq]
  -- load arg7 batch 2
  iapply (step_loadLdead m K c (2 : Fin 4)) $$ [Hl2]
  · iexact Hl2
  iintro %vd6 Hl2
  -- store arg7 batch 2
  iapply (step_storeL m K c (2 : Fin 4)) $$ [Hl2]
  · iexact Hl2
  iintro Hl2
  -- load arg6 batch 2
  iapply (step_loadOdead m K c (2 : Fin 4)) $$ [Ho2]
  · iexact Ho2
  iintro %vd7 Ho2
  -- store arg6 batch 2
  iapply (step_storeO m K c (2 : Fin 4)) $$ [Ho2]
  · iexact Ho2
  iintro Ho2
  -- xsend batch 2 index 0
  iapply (step_xsendO_dev m K c (2 : Fin 4) 19 (owed_19 c) ⟨k0_dev20 c, k0_dev20_lt c⟩ (dev20_eq c)) $$ [Ho2 HxPo2 HO HtokD12 HtokD20]
  · isplitr; · iexact HR
    isplitl [Ho2]; · iexact Ho2
    isplitl [HxPo2]; · iexact HxPo2
    isplitl [HO]; · iexact HO
    isplitl [HtokD12]; · iexact HtokD12
    iexact HtokD20
  iintro ⟨Hcr12, HO⟩
  -- part 17
  rw [k0_part17_eq_skeleton]; unfold k0_part17_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 2 1 (by decide) (by decide), sem_xr 2 1 (by decide) (by decide), sem_xs 1 0 (by decide) (by decide)]
  -- xsend batch 2 index 1
  iapply (step_xsendL_dev m K c (2 : Fin 4) 20 (owed_20 c) ⟨k0_dev21 c, k0_dev21_lt c⟩ (dev21_eq c)) $$ [Hl2 HxPl2 HO HtokD13 HtokD21]
  · isplitr; · iexact HR
    isplitl [Hl2]; · iexact Hl2
    isplitl [HxPl2]; · iexact HxPl2
    isplitl [HO]; · iexact HO
    isplitl [HtokD13]; · iexact HtokD13
    iexact HtokD21
  iintro ⟨Hcr13, HO⟩
  -- wait xs batch 1 index 0
  iapply (step_wait_xsO m K c (1 : Fin 4) 21 (dst := oSl (1 : Fin 4).val (1 : Fin 4).isLt oM) rfl) $$ [Hcr10 Hpos10 HO]
  · isplitr; · iexact HR
    isplitr; · iexact HL
    isplitl [Hcr10]; · iexact Hcr10
    isplitl [Hpos10]; · iexact Hpos10
    iexact HO
  iintro ⟨⟨%W12, HO⟩, Hsv10, Ho1⟩
  -- part 18
  rw [k0_part18_eq_skeleton]; unfold k0_part18_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 1 0 (by decide) (by decide), sem_xs 1 1 (by decide) (by decide), sem_xr 1 1 (by decide) (by decide)]
  -- wait xr batch 1 index 0
  iapply (step_wait_xrO m K c (1 : Fin 4) (dst := oSl (1 : Fin 4).val (1 : Fin 4).isLt oM') rfl) $$ [Hcr18 Hpos18 HO]
  · isplitr; · iexact HR
    isplitr; · iexact HL
    isplitl [Hcr18]; · iexact Hcr18
    isplitl [Hpos18]; · iexact Hpos18
    iexact HO
  iintro ⟨⟨%W13, HO⟩, Hsv18, Hpo1⟩
  -- wait xs batch 1 index 1
  iapply (step_wait_xsL m K c (1 : Fin 4) 21 (dst := lSl (1 : Fin 4).val (1 : Fin 4).isLt lM) rfl) $$ [Hcr11 Hpos11 HO]
  · isplitr; · iexact HR
    isplitr; · iexact HL
    isplitl [Hcr11]; · iexact Hcr11
    isplitl [Hpos11]; · iexact Hpos11
    iexact HO
  iintro ⟨⟨%W14, HO⟩, Hsv11, Hl1⟩
  -- wait xr batch 1 index 1
  iapply (step_wait_xrL m K c (1 : Fin 4) (dst := lSl (1 : Fin 4).val (1 : Fin 4).isLt lM') rfl) $$ [Hcr19 Hpos19 HO]
  · isplitr; · iexact HR
    isplitr; · iexact HL
    isplitl [Hcr19]; · iexact Hcr19
    isplitl [Hpos19]; · iexact Hpos19
    iexact HO
  iintro ⟨⟨%W15, HO⟩, Hsv19, Hpl1⟩
  -- load arg6 batch 1
  iapply (step_loadO m K c (1 : Fin 4)) $$ [Ho1]
  · iexact Ho1
  iintro Ho1
  -- load arg8 batch 1
  iapply (step_loadPO m K c (1 : Fin 4)) $$ [Hpo1]
  · iexact Hpo1
  iintro Hpo1
  -- part 19
  rw [k0_part19_eq_skeleton]; unfold k0_part19_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 0 (by decide) (by decide), sem_ar 1 0 (by decide) (by decide)]
  simp only [pay4_eq, pay5_eq, pay8_eq, pay9_eq, pay13_eq, pay14_eq, pay20_eq, pay21_eq, pay10_eq, pay16_eq, pay22_eq, pay23_eq]
  -- load arg7 batch 1
  iapply (step_loadL m K c (1 : Fin 4)) $$ [Hl1]
  · iexact Hl1
  iintro Hl1
  -- load arg9 batch 1
  iapply (step_loadPL m K c (1 : Fin 4)) $$ [Hpl1]
  · iexact Hpl1
  iintro Hpl1
  -- load arg3 batch 1
  iapply (step_loadHdead_off m K c (1 : Fin 4) (k0_off6 c) (off6_eq c)) $$ [HhOwn1]
  · iexact HhOwn1
  iintro %vd8 HhOwn1
  -- store arg3 batch 1
  iapply (step_storeH_off m K c (1 : Fin 4) (k0_off6 c) (off6_eq c)) $$ [HhOwn1]
  · iexact HhOwn1
  iintro HhOwn1
  -- shares batch 1
  ihave Hsh := (hA_shares_split m c (1 : Fin 4) (hdN c) (hdN_lt c)) $$ HhOwn1
  icases Hsh with ⟨HhRem1, HhS1_0, HhS1_1, HhS1_2, HhS1_3, HhS1_4, HhS1_5, HhS1_6⟩
  -- gsend batch 1 index 0
  iapply (step_agsend_off m K c (1 : Fin 4) (0 : Fin 7) 21 (by decide) rfl (k0_off9 c) (off9_eq c) ⟨k0_dev22 c, k0_dev22_lt c⟩ (dev22_eq c)) $$ [HhS1_0 HhPeer0_1 HO HtokD31 HtokD59]
  · isplitr; · iexact HR
    isplitl [HhS1_0]; · iexact HhS1_0
    isplitl [HhPeer0_1]; · iexact HhPeer0_1
    isplitl [HO]; · iexact HO
    isplitl [HtokD31]; · iexact HtokD31
    iexact HtokD59
  iintro ⟨Hcr31, HO⟩
  -- part 20
  rw [k0_part20_eq_skeleton]; unfold k0_part20_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 1 (by decide) (by decide), sem_ar 1 1 (by decide) (by decide), sem_as 1 2 (by decide) (by decide), sem_ar 1 2 (by decide) (by decide)]
  -- gsend batch 1 index 1
  iapply (step_agsend_off m K c (1 : Fin 4) (1 : Fin 7) 22 (by decide) rfl (k0_off9 c) (off9_eq c) ⟨k0_dev23 c, k0_dev23_lt c⟩ (dev23_eq c)) $$ [HhS1_1 HhPeer1_1 HO HtokD32 HtokD60]
  · isplitr; · iexact HR
    isplitl [HhS1_1]; · iexact HhS1_1
    isplitl [HhPeer1_1]; · iexact HhPeer1_1
    isplitl [HO]; · iexact HO
    isplitl [HtokD32]; · iexact HtokD32
    iexact HtokD60
  iintro ⟨Hcr32, HO⟩
  -- gsend batch 1 index 2
  iapply (step_agsend_off m K c (1 : Fin 4) (2 : Fin 7) 23 (by decide) rfl (k0_off9 c) (off9_eq c) ⟨k0_dev24 c, k0_dev24_lt c⟩ (dev24_eq c)) $$ [HhS1_2 HhPeer2_1 HO HtokD33 HtokD61]
  · isplitr; · iexact HR
    isplitl [HhS1_2]; · iexact HhS1_2
    isplitl [HhPeer2_1]; · iexact HhPeer2_1
    isplitl [HO]; · iexact HO
    isplitl [HtokD33]; · iexact HtokD33
    iexact HtokD61
  iintro ⟨Hcr33, HO⟩
  -- part 21
  rw [k0_part21_eq_skeleton]; unfold k0_part21_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 3 (by decide) (by decide), sem_ar 1 3 (by decide) (by decide), sem_as 1 4 (by decide) (by decide), sem_ar 1 4 (by decide) (by decide)]
  -- gsend batch 1 index 3
  iapply (step_agsend_off m K c (1 : Fin 4) (3 : Fin 7) 24 (by decide) rfl (k0_off9 c) (off9_eq c) ⟨k0_dev25 c, k0_dev25_lt c⟩ (dev25_eq c)) $$ [HhS1_3 HhPeer3_1 HO HtokD34 HtokD62]
  · isplitr; · iexact HR
    isplitl [HhS1_3]; · iexact HhS1_3
    isplitl [HhPeer3_1]; · iexact HhPeer3_1
    isplitl [HO]; · iexact HO
    isplitl [HtokD34]; · iexact HtokD34
    iexact HtokD62
  iintro ⟨Hcr34, HO⟩
  -- gsend batch 1 index 4
  iapply (step_agsend_off m K c (1 : Fin 4) (4 : Fin 7) 25 (by decide) rfl (k0_off9 c) (off9_eq c) ⟨k0_dev26 c, k0_dev26_lt c⟩ (dev26_eq c)) $$ [HhS1_4 HhPeer4_1 HO HtokD35 HtokD63]
  · isplitr; · iexact HR
    isplitl [HhS1_4]; · iexact HhS1_4
    isplitl [HhPeer4_1]; · iexact HhPeer4_1
    isplitl [HO]; · iexact HO
    isplitl [HtokD35]; · iexact HtokD35
    iexact HtokD63
  iintro ⟨Hcr35, HO⟩
  -- part 22
  rw [k0_part22_eq_skeleton]; unfold k0_part22_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 5 (by decide) (by decide), sem_ar 1 5 (by decide) (by decide), sem_as 1 6 (by decide) (by decide), sem_ar 1 6 (by decide) (by decide), sem_loc 6 (by decide)]
  -- gsend batch 1 index 5
  iapply (step_agsend_off m K c (1 : Fin 4) (5 : Fin 7) 26 (by decide) rfl (k0_off9 c) (off9_eq c) ⟨k0_dev27 c, k0_dev27_lt c⟩ (dev27_eq c)) $$ [HhS1_5 HhPeer5_1 HO HtokD36 HtokD64]
  · isplitr; · iexact HR
    isplitl [HhS1_5]; · iexact HhS1_5
    isplitl [HhPeer5_1]; · iexact HhPeer5_1
    isplitl [HO]; · iexact HO
    isplitl [HtokD36]; · iexact HtokD36
    iexact HtokD64
  iintro ⟨Hcr36, HO⟩
  -- gsend batch 1 index 6
  iapply (step_agsend_off m K c (1 : Fin 4) (6 : Fin 7) 27 (by decide) rfl (k0_off9 c) (off9_eq c) ⟨k0_dev28 c, k0_dev28_lt c⟩ (dev28_eq c)) $$ [HhS1_6 HhPeer6_1 HO HtokD37 HtokD65]
  · isplitr; · iexact HR
    isplitl [HhS1_6]; · iexact HhS1_6
    isplitl [HhPeer6_1]; · iexact HhPeer6_1
    isplitl [HO]; · iexact HO
    isplitl [HtokD37]; · iexact HtokD37
    iexact HtokD65
  iintro ⟨Hcr37, HO⟩
  -- load arg0 batch 3
  iapply (step_loadQ_off m K c (3 : Fin 4) (k0_off10 c) (off10_eq c)) $$ [HQ]
  · iexact HQ
  iintro HQ
  -- wait loc batch 3 index 0
  iapply (step_wait_locK m K c (3 : Fin 4) 28 (dst := kvDst (3 : Fin 4).val (3 : Fin 4).isLt kM) rfl) $$ [Hcr6 Hpos6 HO]
  · isplitr; · iexact HR
    isplitr; · iexact HL
    isplitl [Hcr6]; · iexact Hcr6
    isplitl [Hpos6]; · iexact Hpos6
    iexact HO
  iintro ⟨⟨%W16, HO⟩, Hsv6, HkD3, HkS3⟩
  -- load arg4 batch 3
  iapply (step_loadK m K c (3 : Fin 4)) $$ [HkD3]
  · iexact HkD3
  iintro HkD3
  -- part 23
  rw [k0_part23_eq_skeleton]; unfold k0_part23_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 7 (by decide)]
  simp only [pay4_eq, pay5_eq, pay8_eq, pay9_eq, pay13_eq, pay14_eq, pay20_eq, pay21_eq, pay10_eq, pay16_eq, pay22_eq, pay23_eq]
  -- wait loc batch 3 index 1
  iapply (step_wait_locV m K c (3 : Fin 4) 28 (dst := kvDst (3 : Fin 4).val (3 : Fin 4).isLt vM) rfl) $$ [Hcr7 Hpos7 HO]
  · isplitr; · iexact HR
    isplitr; · iexact HL
    isplitl [Hcr7]; · iexact Hcr7
    isplitl [Hpos7]; · iexact Hpos7
    iexact HO
  iintro ⟨⟨%W17, HO⟩, Hsv7, HvD3, HvS3⟩
  -- load arg5 batch 3
  iapply (step_loadV m K c (3 : Fin 4)) $$ [HvD3]
  · iexact HvD3
  iintro HvD3
  -- load arg7 batch 3
  iapply (step_loadLdead m K c (3 : Fin 4)) $$ [Hl3]
  · iexact Hl3
  iintro %vd9 Hl3
  -- store arg7 batch 3
  iapply (step_storeL m K c (3 : Fin 4)) $$ [Hl3]
  · iexact Hl3
  iintro Hl3
  -- load arg6 batch 3
  iapply (step_loadOdead m K c (3 : Fin 4)) $$ [Ho3]
  · iexact Ho3
  iintro %vd10 Ho3
  -- store arg6 batch 3
  iapply (step_storeO m K c (3 : Fin 4)) $$ [Ho3]
  · iexact Ho3
  iintro Ho3
  -- part 24
  rw [k0_part24_eq_skeleton]; unfold k0_part24_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 3 0 (by decide) (by decide), sem_xr 3 0 (by decide) (by decide), sem_xs 3 1 (by decide) (by decide), sem_xr 3 1 (by decide) (by decide), sem_xs 2 0 (by decide) (by decide)]
  -- xsend batch 3 index 0
  iapply (step_xsendO_dev m K c (3 : Fin 4) 28 (owed_28 c) ⟨k0_dev29 c, k0_dev29_lt c⟩ (dev29_eq c)) $$ [Ho3 HxPo3 HO HtokD14 HtokD22]
  · isplitr; · iexact HR
    isplitl [Ho3]; · iexact Ho3
    isplitl [HxPo3]; · iexact HxPo3
    isplitl [HO]; · iexact HO
    isplitl [HtokD14]; · iexact HtokD14
    iexact HtokD22
  iintro ⟨Hcr14, HO⟩
  -- xsend batch 3 index 1
  iapply (step_xsendL_dev m K c (3 : Fin 4) 29 (owed_29 c) ⟨k0_dev30 c, k0_dev30_lt c⟩ (dev30_eq c)) $$ [Hl3 HxPl3 HO HtokD15 HtokD23]
  · isplitr; · iexact HR
    isplitl [Hl3]; · iexact Hl3
    isplitl [HxPl3]; · iexact HxPl3
    isplitl [HO]; · iexact HO
    isplitl [HtokD15]; · iexact HtokD15
    iexact HtokD23
  iintro ⟨Hcr15, HO⟩
  -- wait xs batch 2 index 0
  iapply (step_wait_xsO m K c (2 : Fin 4) 30 (dst := oSl (2 : Fin 4).val (2 : Fin 4).isLt oM) rfl) $$ [Hcr12 Hpos12 HO]
  · isplitr; · iexact HR
    isplitr; · iexact HL
    isplitl [Hcr12]; · iexact Hcr12
    isplitl [Hpos12]; · iexact Hpos12
    iexact HO
  iintro ⟨⟨%W18, HO⟩, Hsv12, Ho2⟩
  -- part 25
  rw [k0_part25_eq_skeleton]; unfold k0_part25_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 2 0 (by decide) (by decide), sem_xs 2 1 (by decide) (by decide)]
  -- wait xr batch 2 index 0
  iapply (step_wait_xrO m K c (2 : Fin 4) (dst := oSl (2 : Fin 4).val (2 : Fin 4).isLt oM') rfl) $$ [Hcr20 Hpos20 HO]
  · isplitr; · iexact HR
    isplitr; · iexact HL
    isplitl [Hcr20]; · iexact Hcr20
    isplitl [Hpos20]; · iexact Hpos20
    iexact HO
  iintro ⟨⟨%W19, HO⟩, Hsv20, Hpo2⟩
  -- wait xs batch 2 index 1
  iapply (step_wait_xsL m K c (2 : Fin 4) 30 (dst := lSl (2 : Fin 4).val (2 : Fin 4).isLt lM) rfl) $$ [Hcr13 Hpos13 HO]
  · isplitr; · iexact HR
    isplitr; · iexact HL
    isplitl [Hcr13]; · iexact Hcr13
    isplitl [Hpos13]; · iexact Hpos13
    iexact HO
  iintro ⟨⟨%W20, HO⟩, Hsv13, Hl2⟩
  -- part 26
  rw [k0_part26_eq_skeleton]; unfold k0_part26_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 2 1 (by decide) (by decide)]
  simp only [pay4_eq, pay5_eq, pay8_eq, pay9_eq, pay13_eq, pay14_eq, pay20_eq, pay21_eq, pay10_eq, pay16_eq, pay22_eq, pay23_eq]
  -- wait xr batch 2 index 1
  iapply (step_wait_xrL m K c (2 : Fin 4) (dst := lSl (2 : Fin 4).val (2 : Fin 4).isLt lM') rfl) $$ [Hcr21 Hpos21 HO]
  · isplitr; · iexact HR
    isplitr; · iexact HL
    isplitl [Hcr21]; · iexact Hcr21
    isplitl [Hpos21]; · iexact Hpos21
    iexact HO
  iintro ⟨⟨%W21, HO⟩, Hsv21, Hpl2⟩
  -- load arg6 batch 2
  iapply (step_loadO m K c (2 : Fin 4)) $$ [Ho2]
  · iexact Ho2
  iintro Ho2
  -- load arg8 batch 2
  iapply (step_loadPO m K c (2 : Fin 4)) $$ [Hpo2]
  · iexact Hpo2
  iintro Hpo2
  -- load arg7 batch 2
  iapply (step_loadL m K c (2 : Fin 4)) $$ [Hl2]
  · iexact Hl2
  iintro Hl2
  -- load arg9 batch 2
  iapply (step_loadPL m K c (2 : Fin 4)) $$ [Hpl2]
  · iexact Hpl2
  iintro Hpl2
  -- load arg3 batch 2
  iapply (step_loadHdead_off m K c (2 : Fin 4) (k0_off8 c) (off8_eq c)) $$ [HhOwn2]
  · iexact HhOwn2
  iintro %vd11 HhOwn2
  -- store arg3 batch 2
  iapply (step_storeH_off m K c (2 : Fin 4) (k0_off8 c) (off8_eq c)) $$ [HhOwn2]
  · iexact HhOwn2
  iintro HhOwn2
  -- shares batch 2
  ihave Hsh := (hA_shares_split m c (2 : Fin 4) (hdN c) (hdN_lt c)) $$ HhOwn2
  icases Hsh with ⟨HhRem2, HhS2_0, HhS2_1, HhS2_2, HhS2_3, HhS2_4, HhS2_5, HhS2_6⟩
  -- part 27
  rw [k0_part27_eq_skeleton]; unfold k0_part27_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 0 (by decide) (by decide), sem_ar 2 0 (by decide) (by decide), sem_as 2 1 (by decide) (by decide), sem_ar 2 1 (by decide) (by decide)]
  -- gsend batch 2 index 0
  iapply (step_agsend_off m K c (2 : Fin 4) (0 : Fin 7) 30 (by decide) rfl (k0_off11 c) (off11_eq c) ⟨k0_dev31 c, k0_dev31_lt c⟩ (dev31_eq c)) $$ [HhS2_0 HhPeer0_2 HO HtokD38 HtokD66]
  · isplitr; · iexact HR
    isplitl [HhS2_0]; · iexact HhS2_0
    isplitl [HhPeer0_2]; · iexact HhPeer0_2
    isplitl [HO]; · iexact HO
    isplitl [HtokD38]; · iexact HtokD38
    iexact HtokD66
  iintro ⟨Hcr38, HO⟩
  -- gsend batch 2 index 1
  iapply (step_agsend_off m K c (2 : Fin 4) (1 : Fin 7) 31 (by decide) rfl (k0_off11 c) (off11_eq c) ⟨k0_dev32 c, k0_dev32_lt c⟩ (dev32_eq c)) $$ [HhS2_1 HhPeer1_2 HO HtokD39 HtokD67]
  · isplitr; · iexact HR
    isplitl [HhS2_1]; · iexact HhS2_1
    isplitl [HhPeer1_2]; · iexact HhPeer1_2
    isplitl [HO]; · iexact HO
    isplitl [HtokD39]; · iexact HtokD39
    iexact HtokD67
  iintro ⟨Hcr39, HO⟩
  -- part 28
  rw [k0_part28_eq_skeleton]; unfold k0_part28_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 2 (by decide) (by decide), sem_ar 2 2 (by decide) (by decide), sem_as 2 3 (by decide) (by decide), sem_ar 2 3 (by decide) (by decide), sem_as 2 4 (by decide) (by decide), sem_ar 2 4 (by decide) (by decide)]
  -- gsend batch 2 index 2
  iapply (step_agsend_off m K c (2 : Fin 4) (2 : Fin 7) 32 (by decide) rfl (k0_off11 c) (off11_eq c) ⟨k0_dev33 c, k0_dev33_lt c⟩ (dev33_eq c)) $$ [HhS2_2 HhPeer2_2 HO HtokD40 HtokD68]
  · isplitr; · iexact HR
    isplitl [HhS2_2]; · iexact HhS2_2
    isplitl [HhPeer2_2]; · iexact HhPeer2_2
    isplitl [HO]; · iexact HO
    isplitl [HtokD40]; · iexact HtokD40
    iexact HtokD68
  iintro ⟨Hcr40, HO⟩
  -- gsend batch 2 index 3
  iapply (step_agsend_off m K c (2 : Fin 4) (3 : Fin 7) 33 (by decide) rfl (k0_off11 c) (off11_eq c) ⟨k0_dev34 c, k0_dev34_lt c⟩ (dev34_eq c)) $$ [HhS2_3 HhPeer3_2 HO HtokD41 HtokD69]
  · isplitr; · iexact HR
    isplitl [HhS2_3]; · iexact HhS2_3
    isplitl [HhPeer3_2]; · iexact HhPeer3_2
    isplitl [HO]; · iexact HO
    isplitl [HtokD41]; · iexact HtokD41
    iexact HtokD69
  iintro ⟨Hcr41, HO⟩
  -- gsend batch 2 index 4
  iapply (step_agsend_off m K c (2 : Fin 4) (4 : Fin 7) 34 (by decide) rfl (k0_off11 c) (off11_eq c) ⟨k0_dev35 c, k0_dev35_lt c⟩ (dev35_eq c)) $$ [HhS2_4 HhPeer4_2 HO HtokD42 HtokD70]
  · isplitr; · iexact HR
    isplitl [HhS2_4]; · iexact HhS2_4
    isplitl [HhPeer4_2]; · iexact HhPeer4_2
    isplitl [HO]; · iexact HO
    isplitl [HtokD42]; · iexact HtokD42
    iexact HtokD70
  iintro ⟨Hcr42, HO⟩
  -- part 29
  rw [k0_part29_eq_skeleton]; unfold k0_part29_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 5 (by decide) (by decide), sem_ar 2 5 (by decide) (by decide), sem_as 2 6 (by decide) (by decide), sem_ar 2 6 (by decide) (by decide)]
  -- gsend batch 2 index 5
  iapply (step_agsend_off m K c (2 : Fin 4) (5 : Fin 7) 35 (by decide) rfl (k0_off11 c) (off11_eq c) ⟨k0_dev36 c, k0_dev36_lt c⟩ (dev36_eq c)) $$ [HhS2_5 HhPeer5_2 HO HtokD43 HtokD71]
  · isplitr; · iexact HR
    isplitl [HhS2_5]; · iexact HhS2_5
    isplitl [HhPeer5_2]; · iexact HhPeer5_2
    isplitl [HO]; · iexact HO
    isplitl [HtokD43]; · iexact HtokD43
    iexact HtokD71
  iintro ⟨Hcr43, HO⟩
  -- gsend batch 2 index 6
  iapply (step_agsend_off m K c (2 : Fin 4) (6 : Fin 7) 36 (by decide) rfl (k0_off11 c) (off11_eq c) ⟨k0_dev37 c, k0_dev37_lt c⟩ (dev37_eq c)) $$ [HhS2_6 HhPeer6_2 HO HtokD44 HtokD72]
  · isplitr; · iexact HR
    isplitl [HhS2_6]; · iexact HhS2_6
    isplitl [HhPeer6_2]; · iexact HhPeer6_2
    isplitl [HO]; · iexact HO
    isplitl [HtokD44]; · iexact HtokD44
    iexact HtokD72
  iintro ⟨Hcr44, HO⟩
  -- part 30
  rw [k0_part30_eq_skeleton]; unfold k0_part30_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 3 0 (by decide) (by decide), sem_xr 3 0 (by decide) (by decide), sem_xs 3 1 (by decide) (by decide)]
  -- wait xs batch 3 index 0
  iapply (step_wait_xsO m K c (3 : Fin 4) 37 (dst := oSl (3 : Fin 4).val (3 : Fin 4).isLt oM) rfl) $$ [Hcr14 Hpos14 HO]
  · isplitr; · iexact HR
    isplitr; · iexact HL
    isplitl [Hcr14]; · iexact Hcr14
    isplitl [Hpos14]; · iexact Hpos14
    iexact HO
  iintro ⟨⟨%W22, HO⟩, Hsv14, Ho3⟩
  -- wait xr batch 3 index 0
  iapply (step_wait_xrO m K c (3 : Fin 4) (dst := oSl (3 : Fin 4).val (3 : Fin 4).isLt oM') rfl) $$ [Hcr22 Hpos22 HO]
  · isplitr; · iexact HR
    isplitr; · iexact HL
    isplitl [Hcr22]; · iexact Hcr22
    isplitl [Hpos22]; · iexact Hpos22
    iexact HO
  iintro ⟨⟨%W23, HO⟩, Hsv22, Hpo3⟩
  -- wait xs batch 3 index 1
  iapply (step_wait_xsL m K c (3 : Fin 4) 37 (dst := lSl (3 : Fin 4).val (3 : Fin 4).isLt lM) rfl) $$ [Hcr15 Hpos15 HO]
  · isplitr; · iexact HR
    isplitr; · iexact HL
    isplitl [Hcr15]; · iexact Hcr15
    isplitl [Hpos15]; · iexact Hpos15
    iexact HO
  iintro ⟨⟨%W24, HO⟩, Hsv15, Hl3⟩
  -- part 31
  rw [k0_part31_eq_skeleton]; unfold k0_part31_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 3 1 (by decide) (by decide)]
  simp only [pay4_eq, pay5_eq, pay8_eq, pay9_eq, pay13_eq, pay14_eq, pay20_eq, pay21_eq, pay10_eq, pay16_eq, pay22_eq, pay23_eq]
  -- wait xr batch 3 index 1
  iapply (step_wait_xrL m K c (3 : Fin 4) (dst := lSl (3 : Fin 4).val (3 : Fin 4).isLt lM') rfl) $$ [Hcr23 Hpos23 HO]
  · isplitr; · iexact HR
    isplitr; · iexact HL
    isplitl [Hcr23]; · iexact Hcr23
    isplitl [Hpos23]; · iexact Hpos23
    iexact HO
  iintro ⟨⟨%W25, HO⟩, Hsv23, Hpl3⟩
  -- load arg6 batch 3
  iapply (step_loadO m K c (3 : Fin 4)) $$ [Ho3]
  · iexact Ho3
  iintro Ho3
  -- load arg8 batch 3
  iapply (step_loadPO m K c (3 : Fin 4)) $$ [Hpo3]
  · iexact Hpo3
  iintro Hpo3
  -- load arg7 batch 3
  iapply (step_loadL m K c (3 : Fin 4)) $$ [Hl3]
  · iexact Hl3
  iintro Hl3
  -- load arg9 batch 3
  iapply (step_loadPL m K c (3 : Fin 4)) $$ [Hpl3]
  · iexact Hpl3
  iintro Hpl3
  -- load arg3 batch 3
  iapply (step_loadHdead_off m K c (3 : Fin 4) (k0_off10 c) (off10_eq c)) $$ [HhOwn3]
  · iexact HhOwn3
  iintro %vd12 HhOwn3
  -- store arg3 batch 3
  iapply (step_storeH_off m K c (3 : Fin 4) (k0_off10 c) (off10_eq c)) $$ [HhOwn3]
  · iexact HhOwn3
  iintro HhOwn3
  -- shares batch 3
  ihave Hsh := (hA_shares_split m c (3 : Fin 4) (hdN c) (hdN_lt c)) $$ HhOwn3
  icases Hsh with ⟨HhRem3, HhS3_0, HhS3_1, HhS3_2, HhS3_3, HhS3_4, HhS3_5, HhS3_6⟩
  -- part 32
  rw [k0_part32_eq_skeleton]; unfold k0_part32_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 0 (by decide) (by decide), sem_ar 3 0 (by decide) (by decide), sem_as 3 1 (by decide) (by decide), sem_ar 3 1 (by decide) (by decide)]
  -- gsend batch 3 index 0
  iapply (step_agsend_off m K c (3 : Fin 4) (0 : Fin 7) 37 (by decide) rfl (k0_off12 c) (off12_eq c) ⟨k0_dev38 c, k0_dev38_lt c⟩ (dev38_eq c)) $$ [HhS3_0 HhPeer0_3 HO HtokD45 HtokD73]
  · isplitr; · iexact HR
    isplitl [HhS3_0]; · iexact HhS3_0
    isplitl [HhPeer0_3]; · iexact HhPeer0_3
    isplitl [HO]; · iexact HO
    isplitl [HtokD45]; · iexact HtokD45
    iexact HtokD73
  iintro ⟨Hcr45, HO⟩
  -- gsend batch 3 index 1
  iapply (step_agsend_off m K c (3 : Fin 4) (1 : Fin 7) 38 (by decide) rfl (k0_off12 c) (off12_eq c) ⟨k0_dev39 c, k0_dev39_lt c⟩ (dev39_eq c)) $$ [HhS3_1 HhPeer1_3 HO HtokD46 HtokD74]
  · isplitr; · iexact HR
    isplitl [HhS3_1]; · iexact HhS3_1
    isplitl [HhPeer1_3]; · iexact HhPeer1_3
    isplitl [HO]; · iexact HO
    isplitl [HtokD46]; · iexact HtokD46
    iexact HtokD74
  iintro ⟨Hcr46, HO⟩
  -- part 33
  rw [k0_part33_eq_skeleton]; unfold k0_part33_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 2 (by decide) (by decide), sem_ar 3 2 (by decide) (by decide), sem_as 3 3 (by decide) (by decide), sem_ar 3 3 (by decide) (by decide)]
  -- gsend batch 3 index 2
  iapply (step_agsend_off m K c (3 : Fin 4) (2 : Fin 7) 39 (by decide) rfl (k0_off12 c) (off12_eq c) ⟨k0_dev40 c, k0_dev40_lt c⟩ (dev40_eq c)) $$ [HhS3_2 HhPeer2_3 HO HtokD47 HtokD75]
  · isplitr; · iexact HR
    isplitl [HhS3_2]; · iexact HhS3_2
    isplitl [HhPeer2_3]; · iexact HhPeer2_3
    isplitl [HO]; · iexact HO
    isplitl [HtokD47]; · iexact HtokD47
    iexact HtokD75
  iintro ⟨Hcr47, HO⟩
  -- gsend batch 3 index 3
  iapply (step_agsend_off m K c (3 : Fin 4) (3 : Fin 7) 40 (by decide) rfl (k0_off12 c) (off12_eq c) ⟨k0_dev41 c, k0_dev41_lt c⟩ (dev41_eq c)) $$ [HhS3_3 HhPeer3_3 HO HtokD48 HtokD76]
  · isplitr; · iexact HR
    isplitl [HhS3_3]; · iexact HhS3_3
    isplitl [HhPeer3_3]; · iexact HhPeer3_3
    isplitl [HO]; · iexact HO
    isplitl [HtokD48]; · iexact HtokD48
    iexact HtokD76
  iintro ⟨Hcr48, HO⟩
  -- part 34
  rw [k0_part34_eq_skeleton]; unfold k0_part34_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 4 (by decide) (by decide), sem_ar 3 4 (by decide) (by decide), sem_as 3 5 (by decide) (by decide), sem_ar 3 5 (by decide) (by decide)]
  -- gsend batch 3 index 4
  iapply (step_agsend_off m K c (3 : Fin 4) (4 : Fin 7) 41 (by decide) rfl (k0_off12 c) (off12_eq c) ⟨k0_dev42 c, k0_dev42_lt c⟩ (dev42_eq c)) $$ [HhS3_4 HhPeer4_3 HO HtokD49 HtokD77]
  · isplitr; · iexact HR
    isplitl [HhS3_4]; · iexact HhS3_4
    isplitl [HhPeer4_3]; · iexact HhPeer4_3
    isplitl [HO]; · iexact HO
    isplitl [HtokD49]; · iexact HtokD49
    iexact HtokD77
  iintro ⟨Hcr49, HO⟩
  -- gsend batch 3 index 5
  iapply (step_agsend_off m K c (3 : Fin 4) (5 : Fin 7) 42 (by decide) rfl (k0_off12 c) (off12_eq c) ⟨k0_dev43 c, k0_dev43_lt c⟩ (dev43_eq c)) $$ [HhS3_5 HhPeer5_3 HO HtokD50 HtokD78]
  · isplitr; · iexact HR
    isplitl [HhS3_5]; · iexact HhS3_5
    isplitl [HhPeer5_3]; · iexact HhPeer5_3
    isplitl [HO]; · iexact HO
    isplitl [HtokD50]; · iexact HtokD50
    iexact HtokD78
  iintro ⟨Hcr50, HO⟩
  -- part 35
  rw [k0_part35_eq_skeleton]; unfold k0_part35_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 6 (by decide) (by decide), sem_ar 3 6 (by decide) (by decide), sem_as 0 0 (by decide) (by decide), sem_ar 0 0 (by decide) (by decide)]
  -- gsend batch 3 index 6
  iapply (step_agsend_off m K c (3 : Fin 4) (6 : Fin 7) 43 (by decide) rfl (k0_off12 c) (off12_eq c) ⟨k0_dev44 c, k0_dev44_lt c⟩ (dev44_eq c)) $$ [HhS3_6 HhPeer6_3 HO HtokD51 HtokD79]
  · isplitr; · iexact HR
    isplitl [HhS3_6]; · iexact HhS3_6
    isplitl [HhPeer6_3]; · iexact HhPeer6_3
    isplitl [HO]; · iexact HO
    isplitl [HtokD51]; · iexact HtokD51
    iexact HtokD79
  iintro ⟨Hcr51, HO⟩
  -- wait gs batch 0 index 0
  iapply (step_wait_as m K c (0 : Fin 4) (0 : Fin 7) (dst := ((Memref.whole cc0_stg1_0).slice (Rect.unit (s := S4x32x8x128) (k0_off7 c) S1x32x1x128.size (k0_off7_inb c)) (fun _ => rfl))) rfl) $$ [Hcr24 Hpos24 HO]
  · isplitr; · iexact HR
    isplitr; · iexact HL
    isplitl [Hcr24]; · iexact Hcr24
    isplitl [Hpos24]; · iexact Hpos24
    iexact HO
  iintro ⟨⟨%W26, HO⟩, Hsv24, HhS0_0⟩
  -- wait gr batch 0 index 0
  iapply (step_wait_ar m K c (0 : Fin 4) (0 : Fin 7) (dst := ((Memref.whole cc0_stg1_0).slice (Rect.unit (s := S4x32x8x128) (k0_off7 c) S1x32x1x128.size (k0_off7_inb c)) (fun _ => rfl))) rfl) $$ [Hcr52 Hpos52 HO]
  · isplitr; · iexact HR
    isplitr; · iexact HL
    isplitl [Hcr52]; · iexact Hcr52
    isplitl [Hpos52]; · iexact Hpos52
    iexact HO
  iintro ⟨⟨%W27, HO⟩, Hsv52, HhR0_0⟩
  -- part 36
  rw [k0_part36_eq_skeleton]; unfold k0_part36_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 1 (by decide) (by decide), sem_ar 0 1 (by decide) (by decide), sem_as 0 2 (by decide) (by decide)]
  -- wait gs batch 0 index 1
  iapply (step_wait_as m K c (0 : Fin 4) (1 : Fin 7) (dst := ((Memref.whole cc0_stg1_0).slice (Rect.unit (s := S4x32x8x128) (k0_off7 c) S1x32x1x128.size (k0_off7_inb c)) (fun _ => rfl))) rfl) $$ [Hcr25 Hpos25 HO]
  · isplitr; · iexact HR
    isplitr; · iexact HL
    isplitl [Hcr25]; · iexact Hcr25
    isplitl [Hpos25]; · iexact Hpos25
    iexact HO
  iintro ⟨⟨%W28, HO⟩, Hsv25, HhS0_1⟩
  -- wait gr batch 0 index 1
  iapply (step_wait_ar m K c (0 : Fin 4) (1 : Fin 7) (dst := ((Memref.whole cc0_stg1_0).slice (Rect.unit (s := S4x32x8x128) (k0_off7 c) S1x32x1x128.size (k0_off7_inb c)) (fun _ => rfl))) rfl) $$ [Hcr53 Hpos53 HO]
  · isplitr; · iexact HR
    isplitr; · iexact HL
    isplitl [Hcr53]; · iexact Hcr53
    isplitl [Hpos53]; · iexact Hpos53
    iexact HO
  iintro ⟨⟨%W29, HO⟩, Hsv53, HhR0_1⟩
  -- wait gs batch 0 index 2
  iapply (step_wait_as m K c (0 : Fin 4) (2 : Fin 7) (dst := ((Memref.whole cc0_stg1_0).slice (Rect.unit (s := S4x32x8x128) (k0_off7 c) S1x32x1x128.size (k0_off7_inb c)) (fun _ => rfl))) rfl) $$ [Hcr26 Hpos26 HO]
  · isplitr; · iexact HR
    isplitr; · iexact HL
    isplitl [Hcr26]; · iexact Hcr26
    isplitl [Hpos26]; · iexact Hpos26
    iexact HO
  iintro ⟨⟨%W30, HO⟩, Hsv26, HhS0_2⟩
  -- part 37
  rw [k0_part37_eq_skeleton]; unfold k0_part37_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 0 2 (by decide) (by decide), sem_as 0 3 (by decide) (by decide), sem_ar 0 3 (by decide) (by decide)]
  -- wait gr batch 0 index 2
  iapply (step_wait_ar m K c (0 : Fin 4) (2 : Fin 7) (dst := ((Memref.whole cc0_stg1_0).slice (Rect.unit (s := S4x32x8x128) (k0_off7 c) S1x32x1x128.size (k0_off7_inb c)) (fun _ => rfl))) rfl) $$ [Hcr54 Hpos54 HO]
  · isplitr; · iexact HR
    isplitr; · iexact HL
    isplitl [Hcr54]; · iexact Hcr54
    isplitl [Hpos54]; · iexact Hpos54
    iexact HO
  iintro ⟨⟨%W31, HO⟩, Hsv54, HhR0_2⟩
  -- wait gs batch 0 index 3
  iapply (step_wait_as m K c (0 : Fin 4) (3 : Fin 7) (dst := ((Memref.whole cc0_stg1_0).slice (Rect.unit (s := S4x32x8x128) (k0_off7 c) S1x32x1x128.size (k0_off7_inb c)) (fun _ => rfl))) rfl) $$ [Hcr27 Hpos27 HO]
  · isplitr; · iexact HR
    isplitr; · iexact HL
    isplitl [Hcr27]; · iexact Hcr27
    isplitl [Hpos27]; · iexact Hpos27
    iexact HO
  iintro ⟨⟨%W32, HO⟩, Hsv27, HhS0_3⟩
  -- wait gr batch 0 index 3
  iapply (step_wait_ar m K c (0 : Fin 4) (3 : Fin 7) (dst := ((Memref.whole cc0_stg1_0).slice (Rect.unit (s := S4x32x8x128) (k0_off7 c) S1x32x1x128.size (k0_off7_inb c)) (fun _ => rfl))) rfl) $$ [Hcr55 Hpos55 HO]
  · isplitr; · iexact HR
    isplitr; · iexact HL
    isplitl [Hcr55]; · iexact Hcr55
    isplitl [Hpos55]; · iexact Hpos55
    iexact HO
  iintro ⟨⟨%W33, HO⟩, Hsv55, HhR0_3⟩
  -- part 38
  rw [k0_part38_eq_skeleton]; unfold k0_part38_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 4 (by decide) (by decide), sem_ar 0 4 (by decide) (by decide), sem_as 0 5 (by decide) (by decide)]
  -- wait gs batch 0 index 4
  iapply (step_wait_as m K c (0 : Fin 4) (4 : Fin 7) (dst := ((Memref.whole cc0_stg1_0).slice (Rect.unit (s := S4x32x8x128) (k0_off7 c) S1x32x1x128.size (k0_off7_inb c)) (fun _ => rfl))) rfl) $$ [Hcr28 Hpos28 HO]
  · isplitr; · iexact HR
    isplitr; · iexact HL
    isplitl [Hcr28]; · iexact Hcr28
    isplitl [Hpos28]; · iexact Hpos28
    iexact HO
  iintro ⟨⟨%W34, HO⟩, Hsv28, HhS0_4⟩
  -- wait gr batch 0 index 4
  iapply (step_wait_ar m K c (0 : Fin 4) (4 : Fin 7) (dst := ((Memref.whole cc0_stg1_0).slice (Rect.unit (s := S4x32x8x128) (k0_off7 c) S1x32x1x128.size (k0_off7_inb c)) (fun _ => rfl))) rfl) $$ [Hcr56 Hpos56 HO]
  · isplitr; · iexact HR
    isplitr; · iexact HL
    isplitl [Hcr56]; · iexact Hcr56
    isplitl [Hpos56]; · iexact Hpos56
    iexact HO
  iintro ⟨⟨%W35, HO⟩, Hsv56, HhR0_4⟩
  -- wait gs batch 0 index 5
  iapply (step_wait_as m K c (0 : Fin 4) (5 : Fin 7) (dst := ((Memref.whole cc0_stg1_0).slice (Rect.unit (s := S4x32x8x128) (k0_off7 c) S1x32x1x128.size (k0_off7_inb c)) (fun _ => rfl))) rfl) $$ [Hcr29 Hpos29 HO]
  · isplitr; · iexact HR
    isplitr; · iexact HL
    isplitl [Hcr29]; · iexact Hcr29
    isplitl [Hpos29]; · iexact Hpos29
    iexact HO
  iintro ⟨⟨%W36, HO⟩, Hsv29, HhS0_5⟩
  -- part 39
  rw [k0_part39_eq_skeleton]; unfold k0_part39_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 0 5 (by decide) (by decide), sem_as 0 6 (by decide) (by decide), sem_ar 0 6 (by decide) (by decide)]
  -- wait gr batch 0 index 5
  iapply (step_wait_ar m K c (0 : Fin 4) (5 : Fin 7) (dst := ((Memref.whole cc0_stg1_0).slice (Rect.unit (s := S4x32x8x128) (k0_off7 c) S1x32x1x128.size (k0_off7_inb c)) (fun _ => rfl))) rfl) $$ [Hcr57 Hpos57 HO]
  · isplitr; · iexact HR
    isplitr; · iexact HL
    isplitl [Hcr57]; · iexact Hcr57
    isplitl [Hpos57]; · iexact Hpos57
    iexact HO
  iintro ⟨⟨%W37, HO⟩, Hsv57, HhR0_5⟩
  -- wait gs batch 0 index 6
  iapply (step_wait_as m K c (0 : Fin 4) (6 : Fin 7) (dst := ((Memref.whole cc0_stg1_0).slice (Rect.unit (s := S4x32x8x128) (k0_off7 c) S1x32x1x128.size (k0_off7_inb c)) (fun _ => rfl))) rfl) $$ [Hcr30 Hpos30 HO]
  · isplitr; · iexact HR
    isplitr; · iexact HL
    isplitl [Hcr30]; · iexact Hcr30
    isplitl [Hpos30]; · iexact Hpos30
    iexact HO
  iintro ⟨⟨%W38, HO⟩, Hsv30, HhS0_6⟩
  -- wait gr batch 0 index 6
  iapply (step_wait_ar m K c (0 : Fin 4) (6 : Fin 7) (dst := ((Memref.whole cc0_stg1_0).slice (Rect.unit (s := S4x32x8x128) (k0_off7 c) S1x32x1x128.size (k0_off7_inb c)) (fun _ => rfl))) rfl) $$ [Hcr58 Hpos58 HO]
  · isplitr; · iexact HR
    isplitr; · iexact HL
    isplitl [Hcr58]; · iexact Hcr58
    isplitl [Hpos58]; · iexact Hpos58
    iexact HO
  iintro ⟨⟨%W39, HO⟩, Hsv58, HhR0_6⟩
  -- part 40
  rw [k0_part40_eq_skeleton]; unfold k0_part40_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 0 (by decide) (by decide), sem_ar 1 0 (by decide) (by decide), sem_as 1 1 (by decide) (by decide)]
  -- wait gs batch 1 index 0
  iapply (step_wait_as m K c (1 : Fin 4) (0 : Fin 7) (dst := ((Memref.whole cc0_stg1_0).slice (Rect.unit (s := S4x32x8x128) (k0_off9 c) S1x32x1x128.size (k0_off9_inb c)) (fun _ => rfl))) rfl) $$ [Hcr31 Hpos31 HO]
  · isplitr; · iexact HR
    isplitr; · iexact HL
    isplitl [Hcr31]; · iexact Hcr31
    isplitl [Hpos31]; · iexact Hpos31
    iexact HO
  iintro ⟨⟨%W40, HO⟩, Hsv31, HhS1_0⟩
  -- wait gr batch 1 index 0
  iapply (step_wait_ar m K c (1 : Fin 4) (0 : Fin 7) (dst := ((Memref.whole cc0_stg1_0).slice (Rect.unit (s := S4x32x8x128) (k0_off9 c) S1x32x1x128.size (k0_off9_inb c)) (fun _ => rfl))) rfl) $$ [Hcr59 Hpos59 HO]
  · isplitr; · iexact HR
    isplitr; · iexact HL
    isplitl [Hcr59]; · iexact Hcr59
    isplitl [Hpos59]; · iexact Hpos59
    iexact HO
  iintro ⟨⟨%W41, HO⟩, Hsv59, HhR1_0⟩
  -- wait gs batch 1 index 1
  iapply (step_wait_as m K c (1 : Fin 4) (1 : Fin 7) (dst := ((Memref.whole cc0_stg1_0).slice (Rect.unit (s := S4x32x8x128) (k0_off9 c) S1x32x1x128.size (k0_off9_inb c)) (fun _ => rfl))) rfl) $$ [Hcr32 Hpos32 HO]
  · isplitr; · iexact HR
    isplitr; · iexact HL
    isplitl [Hcr32]; · iexact Hcr32
    isplitl [Hpos32]; · iexact Hpos32
    iexact HO
  iintro ⟨⟨%W42, HO⟩, Hsv32, HhS1_1⟩
  -- part 41
  rw [k0_part41_eq_skeleton]; unfold k0_part41_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 1 1 (by decide) (by decide), sem_as 1 2 (by decide) (by decide), sem_ar 1 2 (by decide) (by decide)]
  -- wait gr batch 1 index 1
  iapply (step_wait_ar m K c (1 : Fin 4) (1 : Fin 7) (dst := ((Memref.whole cc0_stg1_0).slice (Rect.unit (s := S4x32x8x128) (k0_off9 c) S1x32x1x128.size (k0_off9_inb c)) (fun _ => rfl))) rfl) $$ [Hcr60 Hpos60 HO]
  · isplitr; · iexact HR
    isplitr; · iexact HL
    isplitl [Hcr60]; · iexact Hcr60
    isplitl [Hpos60]; · iexact Hpos60
    iexact HO
  iintro ⟨⟨%W43, HO⟩, Hsv60, HhR1_1⟩
  -- wait gs batch 1 index 2
  iapply (step_wait_as m K c (1 : Fin 4) (2 : Fin 7) (dst := ((Memref.whole cc0_stg1_0).slice (Rect.unit (s := S4x32x8x128) (k0_off9 c) S1x32x1x128.size (k0_off9_inb c)) (fun _ => rfl))) rfl) $$ [Hcr33 Hpos33 HO]
  · isplitr; · iexact HR
    isplitr; · iexact HL
    isplitl [Hcr33]; · iexact Hcr33
    isplitl [Hpos33]; · iexact Hpos33
    iexact HO
  iintro ⟨⟨%W44, HO⟩, Hsv33, HhS1_2⟩
  -- wait gr batch 1 index 2
  iapply (step_wait_ar m K c (1 : Fin 4) (2 : Fin 7) (dst := ((Memref.whole cc0_stg1_0).slice (Rect.unit (s := S4x32x8x128) (k0_off9 c) S1x32x1x128.size (k0_off9_inb c)) (fun _ => rfl))) rfl) $$ [Hcr61 Hpos61 HO]
  · isplitr; · iexact HR
    isplitr; · iexact HL
    isplitl [Hcr61]; · iexact Hcr61
    isplitl [Hpos61]; · iexact Hpos61
    iexact HO
  iintro ⟨⟨%W45, HO⟩, Hsv61, HhR1_2⟩
  -- part 42
  rw [k0_part42_eq_skeleton]; unfold k0_part42_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 3 (by decide) (by decide), sem_ar 1 3 (by decide) (by decide), sem_as 1 4 (by decide) (by decide)]
  -- wait gs batch 1 index 3
  iapply (step_wait_as m K c (1 : Fin 4) (3 : Fin 7) (dst := ((Memref.whole cc0_stg1_0).slice (Rect.unit (s := S4x32x8x128) (k0_off9 c) S1x32x1x128.size (k0_off9_inb c)) (fun _ => rfl))) rfl) $$ [Hcr34 Hpos34 HO]
  · isplitr; · iexact HR
    isplitr; · iexact HL
    isplitl [Hcr34]; · iexact Hcr34
    isplitl [Hpos34]; · iexact Hpos34
    iexact HO
  iintro ⟨⟨%W46, HO⟩, Hsv34, HhS1_3⟩
  -- wait gr batch 1 index 3
  iapply (step_wait_ar m K c (1 : Fin 4) (3 : Fin 7) (dst := ((Memref.whole cc0_stg1_0).slice (Rect.unit (s := S4x32x8x128) (k0_off9 c) S1x32x1x128.size (k0_off9_inb c)) (fun _ => rfl))) rfl) $$ [Hcr62 Hpos62 HO]
  · isplitr; · iexact HR
    isplitr; · iexact HL
    isplitl [Hcr62]; · iexact Hcr62
    isplitl [Hpos62]; · iexact Hpos62
    iexact HO
  iintro ⟨⟨%W47, HO⟩, Hsv62, HhR1_3⟩
  -- wait gs batch 1 index 4
  iapply (step_wait_as m K c (1 : Fin 4) (4 : Fin 7) (dst := ((Memref.whole cc0_stg1_0).slice (Rect.unit (s := S4x32x8x128) (k0_off9 c) S1x32x1x128.size (k0_off9_inb c)) (fun _ => rfl))) rfl) $$ [Hcr35 Hpos35 HO]
  · isplitr; · iexact HR
    isplitr; · iexact HL
    isplitl [Hcr35]; · iexact Hcr35
    isplitl [Hpos35]; · iexact Hpos35
    iexact HO
  iintro ⟨⟨%W48, HO⟩, Hsv35, HhS1_4⟩
  -- part 43
  rw [k0_part43_eq_skeleton]; unfold k0_part43_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 1 4 (by decide) (by decide), sem_as 1 5 (by decide) (by decide), sem_ar 1 5 (by decide) (by decide)]
  -- wait gr batch 1 index 4
  iapply (step_wait_ar m K c (1 : Fin 4) (4 : Fin 7) (dst := ((Memref.whole cc0_stg1_0).slice (Rect.unit (s := S4x32x8x128) (k0_off9 c) S1x32x1x128.size (k0_off9_inb c)) (fun _ => rfl))) rfl) $$ [Hcr63 Hpos63 HO]
  · isplitr; · iexact HR
    isplitr; · iexact HL
    isplitl [Hcr63]; · iexact Hcr63
    isplitl [Hpos63]; · iexact Hpos63
    iexact HO
  iintro ⟨⟨%W49, HO⟩, Hsv63, HhR1_4⟩
  -- wait gs batch 1 index 5
  iapply (step_wait_as m K c (1 : Fin 4) (5 : Fin 7) (dst := ((Memref.whole cc0_stg1_0).slice (Rect.unit (s := S4x32x8x128) (k0_off9 c) S1x32x1x128.size (k0_off9_inb c)) (fun _ => rfl))) rfl) $$ [Hcr36 Hpos36 HO]
  · isplitr; · iexact HR
    isplitr; · iexact HL
    isplitl [Hcr36]; · iexact Hcr36
    isplitl [Hpos36]; · iexact Hpos36
    iexact HO
  iintro ⟨⟨%W50, HO⟩, Hsv36, HhS1_5⟩
  -- wait gr batch 1 index 5
  iapply (step_wait_ar m K c (1 : Fin 4) (5 : Fin 7) (dst := ((Memref.whole cc0_stg1_0).slice (Rect.unit (s := S4x32x8x128) (k0_off9 c) S1x32x1x128.size (k0_off9_inb c)) (fun _ => rfl))) rfl) $$ [Hcr64 Hpos64 HO]
  · isplitr; · iexact HR
    isplitr; · iexact HL
    isplitl [Hcr64]; · iexact Hcr64
    isplitl [Hpos64]; · iexact Hpos64
    iexact HO
  iintro ⟨⟨%W51, HO⟩, Hsv64, HhR1_5⟩
  -- part 44
  rw [k0_part44_eq_skeleton]; unfold k0_part44_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 6 (by decide) (by decide), sem_ar 1 6 (by decide) (by decide), sem_as 2 0 (by decide) (by decide)]
  -- wait gs batch 1 index 6
  iapply (step_wait_as m K c (1 : Fin 4) (6 : Fin 7) (dst := ((Memref.whole cc0_stg1_0).slice (Rect.unit (s := S4x32x8x128) (k0_off9 c) S1x32x1x128.size (k0_off9_inb c)) (fun _ => rfl))) rfl) $$ [Hcr37 Hpos37 HO]
  · isplitr; · iexact HR
    isplitr; · iexact HL
    isplitl [Hcr37]; · iexact Hcr37
    isplitl [Hpos37]; · iexact Hpos37
    iexact HO
  iintro ⟨⟨%W52, HO⟩, Hsv37, HhS1_6⟩
  -- wait gr batch 1 index 6
  iapply (step_wait_ar m K c (1 : Fin 4) (6 : Fin 7) (dst := ((Memref.whole cc0_stg1_0).slice (Rect.unit (s := S4x32x8x128) (k0_off9 c) S1x32x1x128.size (k0_off9_inb c)) (fun _ => rfl))) rfl) $$ [Hcr65 Hpos65 HO]
  · isplitr; · iexact HR
    isplitr; · iexact HL
    isplitl [Hcr65]; · iexact Hcr65
    isplitl [Hpos65]; · iexact Hpos65
    iexact HO
  iintro ⟨⟨%W53, HO⟩, Hsv65, HhR1_6⟩
  -- wait gs batch 2 index 0
  iapply (step_wait_as m K c (2 : Fin 4) (0 : Fin 7) (dst := ((Memref.whole cc0_stg1_0).slice (Rect.unit (s := S4x32x8x128) (k0_off11 c) S1x32x1x128.size (k0_off11_inb c)) (fun _ => rfl))) rfl) $$ [Hcr38 Hpos38 HO]
  · isplitr; · iexact HR
    isplitr; · iexact HL
    isplitl [Hcr38]; · iexact Hcr38
    isplitl [Hpos38]; · iexact Hpos38
    iexact HO
  iintro ⟨⟨%W54, HO⟩, Hsv38, HhS2_0⟩
  -- part 45
  rw [k0_part45_eq_skeleton]; unfold k0_part45_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 0 (by decide) (by decide), sem_as 2 1 (by decide) (by decide)]
  -- wait gr batch 2 index 0
  iapply (step_wait_ar m K c (2 : Fin 4) (0 : Fin 7) (dst := ((Memref.whole cc0_stg1_0).slice (Rect.unit (s := S4x32x8x128) (k0_off11 c) S1x32x1x128.size (k0_off11_inb c)) (fun _ => rfl))) rfl) $$ [Hcr66 Hpos66 HO]
  · isplitr; · iexact HR
    isplitr; · iexact HL
    isplitl [Hcr66]; · iexact Hcr66
    isplitl [Hpos66]; · iexact Hpos66
    iexact HO
  iintro ⟨⟨%W55, HO⟩, Hsv66, HhR2_0⟩
  -- wait gs batch 2 index 1
  iapply (step_wait_as m K c (2 : Fin 4) (1 : Fin 7) (dst := ((Memref.whole cc0_stg1_0).slice (Rect.unit (s := S4x32x8x128) (k0_off11 c) S1x32x1x128.size (k0_off11_inb c)) (fun _ => rfl))) rfl) $$ [Hcr39 Hpos39 HO]
  · isplitr; · iexact HR
    isplitr; · iexact HL
    isplitl [Hcr39]; · iexact Hcr39
    isplitl [Hpos39]; · iexact Hpos39
    iexact HO
  iintro ⟨⟨%W56, HO⟩, Hsv39, HhS2_1⟩
  -- part 46
  rw [k0_part46_eq_skeleton]; unfold k0_part46_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 1 (by decide) (by decide), sem_as 2 2 (by decide) (by decide), sem_ar 2 2 (by decide) (by decide), sem_as 2 3 (by decide) (by decide)]
  -- wait gr batch 2 index 1
  iapply (step_wait_ar m K c (2 : Fin 4) (1 : Fin 7) (dst := ((Memref.whole cc0_stg1_0).slice (Rect.unit (s := S4x32x8x128) (k0_off11 c) S1x32x1x128.size (k0_off11_inb c)) (fun _ => rfl))) rfl) $$ [Hcr67 Hpos67 HO]
  · isplitr; · iexact HR
    isplitr; · iexact HL
    isplitl [Hcr67]; · iexact Hcr67
    isplitl [Hpos67]; · iexact Hpos67
    iexact HO
  iintro ⟨⟨%W57, HO⟩, Hsv67, HhR2_1⟩
  -- wait gs batch 2 index 2
  iapply (step_wait_as m K c (2 : Fin 4) (2 : Fin 7) (dst := ((Memref.whole cc0_stg1_0).slice (Rect.unit (s := S4x32x8x128) (k0_off11 c) S1x32x1x128.size (k0_off11_inb c)) (fun _ => rfl))) rfl) $$ [Hcr40 Hpos40 HO]
  · isplitr; · iexact HR
    isplitr; · iexact HL
    isplitl [Hcr40]; · iexact Hcr40
    isplitl [Hpos40]; · iexact Hpos40
    iexact HO
  iintro ⟨⟨%W58, HO⟩, Hsv40, HhS2_2⟩
  -- wait gr batch 2 index 2
  iapply (step_wait_ar m K c (2 : Fin 4) (2 : Fin 7) (dst := ((Memref.whole cc0_stg1_0).slice (Rect.unit (s := S4x32x8x128) (k0_off11 c) S1x32x1x128.size (k0_off11_inb c)) (fun _ => rfl))) rfl) $$ [Hcr68 Hpos68 HO]
  · isplitr; · iexact HR
    isplitr; · iexact HL
    isplitl [Hcr68]; · iexact Hcr68
    isplitl [Hpos68]; · iexact Hpos68
    iexact HO
  iintro ⟨⟨%W59, HO⟩, Hsv68, HhR2_2⟩
  -- wait gs batch 2 index 3
  iapply (step_wait_as m K c (2 : Fin 4) (3 : Fin 7) (dst := ((Memref.whole cc0_stg1_0).slice (Rect.unit (s := S4x32x8x128) (k0_off11 c) S1x32x1x128.size (k0_off11_inb c)) (fun _ => rfl))) rfl) $$ [Hcr41 Hpos41 HO]
  · isplitr; · iexact HR
    isplitr; · iexact HL
    isplitl [Hcr41]; · iexact Hcr41
    isplitl [Hpos41]; · iexact Hpos41
    iexact HO
  iintro ⟨⟨%W60, HO⟩, Hsv41, HhS2_3⟩
  -- part 47
  rw [k0_part47_eq_skeleton]; unfold k0_part47_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 3 (by decide) (by decide), sem_as 2 4 (by decide) (by decide)]
  -- wait gr batch 2 index 3
  iapply (step_wait_ar m K c (2 : Fin 4) (3 : Fin 7) (dst := ((Memref.whole cc0_stg1_0).slice (Rect.unit (s := S4x32x8x128) (k0_off11 c) S1x32x1x128.size (k0_off11_inb c)) (fun _ => rfl))) rfl) $$ [Hcr69 Hpos69 HO]
  · isplitr; · iexact HR
    isplitr; · iexact HL
    isplitl [Hcr69]; · iexact Hcr69
    isplitl [Hpos69]; · iexact Hpos69
    iexact HO
  iintro ⟨⟨%W61, HO⟩, Hsv69, HhR2_3⟩
  -- wait gs batch 2 index 4
  iapply (step_wait_as m K c (2 : Fin 4) (4 : Fin 7) (dst := ((Memref.whole cc0_stg1_0).slice (Rect.unit (s := S4x32x8x128) (k0_off11 c) S1x32x1x128.size (k0_off11_inb c)) (fun _ => rfl))) rfl) $$ [Hcr42 Hpos42 HO]
  · isplitr; · iexact HR
    isplitr; · iexact HL
    isplitl [Hcr42]; · iexact Hcr42
    isplitl [Hpos42]; · iexact Hpos42
    iexact HO
  iintro ⟨⟨%W62, HO⟩, Hsv42, HhS2_4⟩
  -- part 48
  rw [k0_part48_eq_skeleton]; unfold k0_part48_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 4 (by decide) (by decide), sem_as 2 5 (by decide) (by decide), sem_ar 2 5 (by decide) (by decide)]
  -- wait gr batch 2 index 4
  iapply (step_wait_ar m K c (2 : Fin 4) (4 : Fin 7) (dst := ((Memref.whole cc0_stg1_0).slice (Rect.unit (s := S4x32x8x128) (k0_off11 c) S1x32x1x128.size (k0_off11_inb c)) (fun _ => rfl))) rfl) $$ [Hcr70 Hpos70 HO]
  · isplitr; · iexact HR
    isplitr; · iexact HL
    isplitl [Hcr70]; · iexact Hcr70
    isplitl [Hpos70]; · iexact Hpos70
    iexact HO
  iintro ⟨⟨%W63, HO⟩, Hsv70, HhR2_4⟩
  -- wait gs batch 2 index 5
  iapply (step_wait_as m K c (2 : Fin 4) (5 : Fin 7) (dst := ((Memref.whole cc0_stg1_0).slice (Rect.unit (s := S4x32x8x128) (k0_off11 c) S1x32x1x128.size (k0_off11_inb c)) (fun _ => rfl))) rfl) $$ [Hcr43 Hpos43 HO]
  · isplitr; · iexact HR
    isplitr; · iexact HL
    isplitl [Hcr43]; · iexact Hcr43
    isplitl [Hpos43]; · iexact Hpos43
    iexact HO
  iintro ⟨⟨%W64, HO⟩, Hsv43, HhS2_5⟩
  -- wait gr batch 2 index 5
  iapply (step_wait_ar m K c (2 : Fin 4) (5 : Fin 7) (dst := ((Memref.whole cc0_stg1_0).slice (Rect.unit (s := S4x32x8x128) (k0_off11 c) S1x32x1x128.size (k0_off11_inb c)) (fun _ => rfl))) rfl) $$ [Hcr71 Hpos71 HO]
  · isplitr; · iexact HR
    isplitr; · iexact HL
    isplitl [Hcr71]; · iexact Hcr71
    isplitl [Hpos71]; · iexact Hpos71
    iexact HO
  iintro ⟨⟨%W65, HO⟩, Hsv71, HhR2_5⟩
  -- part 49
  rw [k0_part49_eq_skeleton]; unfold k0_part49_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 6 (by decide) (by decide), sem_ar 2 6 (by decide) (by decide), sem_as 3 0 (by decide) (by decide)]
  -- wait gs batch 2 index 6
  iapply (step_wait_as m K c (2 : Fin 4) (6 : Fin 7) (dst := ((Memref.whole cc0_stg1_0).slice (Rect.unit (s := S4x32x8x128) (k0_off11 c) S1x32x1x128.size (k0_off11_inb c)) (fun _ => rfl))) rfl) $$ [Hcr44 Hpos44 HO]
  · isplitr; · iexact HR
    isplitr; · iexact HL
    isplitl [Hcr44]; · iexact Hcr44
    isplitl [Hpos44]; · iexact Hpos44
    iexact HO
  iintro ⟨⟨%W66, HO⟩, Hsv44, HhS2_6⟩
  -- wait gr batch 2 index 6
  iapply (step_wait_ar m K c (2 : Fin 4) (6 : Fin 7) (dst := ((Memref.whole cc0_stg1_0).slice (Rect.unit (s := S4x32x8x128) (k0_off11 c) S1x32x1x128.size (k0_off11_inb c)) (fun _ => rfl))) rfl) $$ [Hcr72 Hpos72 HO]
  · isplitr; · iexact HR
    isplitr; · iexact HL
    isplitl [Hcr72]; · iexact Hcr72
    isplitl [Hpos72]; · iexact Hpos72
    iexact HO
  iintro ⟨⟨%W67, HO⟩, Hsv72, HhR2_6⟩
  -- wait gs batch 3 index 0
  iapply (step_wait_as m K c (3 : Fin 4) (0 : Fin 7) (dst := ((Memref.whole cc0_stg1_0).slice (Rect.unit (s := S4x32x8x128) (k0_off12 c) S1x32x1x128.size (k0_off12_inb c)) (fun _ => rfl))) rfl) $$ [Hcr45 Hpos45 HO]
  · isplitr; · iexact HR
    isplitr; · iexact HL
    isplitl [Hcr45]; · iexact Hcr45
    isplitl [Hpos45]; · iexact Hpos45
    iexact HO
  iintro ⟨⟨%W68, HO⟩, Hsv45, HhS3_0⟩
  -- part 50
  rw [k0_part50_eq_skeleton]; unfold k0_part50_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 3 0 (by decide) (by decide), sem_as 3 1 (by decide) (by decide), sem_ar 3 1 (by decide) (by decide)]
  -- wait gr batch 3 index 0
  iapply (step_wait_ar m K c (3 : Fin 4) (0 : Fin 7) (dst := ((Memref.whole cc0_stg1_0).slice (Rect.unit (s := S4x32x8x128) (k0_off12 c) S1x32x1x128.size (k0_off12_inb c)) (fun _ => rfl))) rfl) $$ [Hcr73 Hpos73 HO]
  · isplitr; · iexact HR
    isplitr; · iexact HL
    isplitl [Hcr73]; · iexact Hcr73
    isplitl [Hpos73]; · iexact Hpos73
    iexact HO
  iintro ⟨⟨%W69, HO⟩, Hsv73, HhR3_0⟩
  -- wait gs batch 3 index 1
  iapply (step_wait_as m K c (3 : Fin 4) (1 : Fin 7) (dst := ((Memref.whole cc0_stg1_0).slice (Rect.unit (s := S4x32x8x128) (k0_off12 c) S1x32x1x128.size (k0_off12_inb c)) (fun _ => rfl))) rfl) $$ [Hcr46 Hpos46 HO]
  · isplitr; · iexact HR
    isplitr; · iexact HL
    isplitl [Hcr46]; · iexact Hcr46
    isplitl [Hpos46]; · iexact Hpos46
    iexact HO
  iintro ⟨⟨%W70, HO⟩, Hsv46, HhS3_1⟩
  -- wait gr batch 3 index 1
  iapply (step_wait_ar m K c (3 : Fin 4) (1 : Fin 7) (dst := ((Memref.whole cc0_stg1_0).slice (Rect.unit (s := S4x32x8x128) (k0_off12 c) S1x32x1x128.size (k0_off12_inb c)) (fun _ => rfl))) rfl) $$ [Hcr74 Hpos74 HO]
  · isplitr; · iexact HR
    isplitr; · iexact HL
    isplitl [Hcr74]; · iexact Hcr74
    isplitl [Hpos74]; · iexact Hpos74
    iexact HO
  iintro ⟨⟨%W71, HO⟩, Hsv74, HhR3_1⟩
  -- part 51
  rw [k0_part51_eq_skeleton]; unfold k0_part51_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 2 (by decide) (by decide), sem_ar 3 2 (by decide) (by decide), sem_as 3 3 (by decide) (by decide)]
  -- wait gs batch 3 index 2
  iapply (step_wait_as m K c (3 : Fin 4) (2 : Fin 7) (dst := ((Memref.whole cc0_stg1_0).slice (Rect.unit (s := S4x32x8x128) (k0_off12 c) S1x32x1x128.size (k0_off12_inb c)) (fun _ => rfl))) rfl) $$ [Hcr47 Hpos47 HO]
  · isplitr; · iexact HR
    isplitr; · iexact HL
    isplitl [Hcr47]; · iexact Hcr47
    isplitl [Hpos47]; · iexact Hpos47
    iexact HO
  iintro ⟨⟨%W72, HO⟩, Hsv47, HhS3_2⟩
  -- wait gr batch 3 index 2
  iapply (step_wait_ar m K c (3 : Fin 4) (2 : Fin 7) (dst := ((Memref.whole cc0_stg1_0).slice (Rect.unit (s := S4x32x8x128) (k0_off12 c) S1x32x1x128.size (k0_off12_inb c)) (fun _ => rfl))) rfl) $$ [Hcr75 Hpos75 HO]
  · isplitr; · iexact HR
    isplitr; · iexact HL
    isplitl [Hcr75]; · iexact Hcr75
    isplitl [Hpos75]; · iexact Hpos75
    iexact HO
  iintro ⟨⟨%W73, HO⟩, Hsv75, HhR3_2⟩
  -- wait gs batch 3 index 3
  iapply (step_wait_as m K c (3 : Fin 4) (3 : Fin 7) (dst := ((Memref.whole cc0_stg1_0).slice (Rect.unit (s := S4x32x8x128) (k0_off12 c) S1x32x1x128.size (k0_off12_inb c)) (fun _ => rfl))) rfl) $$ [Hcr48 Hpos48 HO]
  · isplitr; · iexact HR
    isplitr; · iexact HL
    isplitl [Hcr48]; · iexact Hcr48
    isplitl [Hpos48]; · iexact Hpos48
    iexact HO
  iintro ⟨⟨%W74, HO⟩, Hsv48, HhS3_3⟩
  -- part 52
  rw [k0_part52_eq_skeleton]; unfold k0_part52_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 3 3 (by decide) (by decide), sem_as 3 4 (by decide) (by decide), sem_ar 3 4 (by decide) (by decide)]
  -- wait gr batch 3 index 3
  iapply (step_wait_ar m K c (3 : Fin 4) (3 : Fin 7) (dst := ((Memref.whole cc0_stg1_0).slice (Rect.unit (s := S4x32x8x128) (k0_off12 c) S1x32x1x128.size (k0_off12_inb c)) (fun _ => rfl))) rfl) $$ [Hcr76 Hpos76 HO]
  · isplitr; · iexact HR
    isplitr; · iexact HL
    isplitl [Hcr76]; · iexact Hcr76
    isplitl [Hpos76]; · iexact Hpos76
    iexact HO
  iintro ⟨⟨%W75, HO⟩, Hsv76, HhR3_3⟩
  -- wait gs batch 3 index 4
  iapply (step_wait_as m K c (3 : Fin 4) (4 : Fin 7) (dst := ((Memref.whole cc0_stg1_0).slice (Rect.unit (s := S4x32x8x128) (k0_off12 c) S1x32x1x128.size (k0_off12_inb c)) (fun _ => rfl))) rfl) $$ [Hcr49 Hpos49 HO]
  · isplitr; · iexact HR
    isplitr; · iexact HL
    isplitl [Hcr49]; · iexact Hcr49
    isplitl [Hpos49]; · iexact Hpos49
    iexact HO
  iintro ⟨⟨%W76, HO⟩, Hsv49, HhS3_4⟩
  -- wait gr batch 3 index 4
  iapply (step_wait_ar m K c (3 : Fin 4) (4 : Fin 7) (dst := ((Memref.whole cc0_stg1_0).slice (Rect.unit (s := S4x32x8x128) (k0_off12 c) S1x32x1x128.size (k0_off12_inb c)) (fun _ => rfl))) rfl) $$ [Hcr77 Hpos77 HO]
  · isplitr; · iexact HR
    isplitr; · iexact HL
    isplitl [Hcr77]; · iexact Hcr77
    isplitl [Hpos77]; · iexact Hpos77
    iexact HO
  iintro ⟨⟨%W77, HO⟩, Hsv77, HhR3_4⟩
  -- part 53
  rw [k0_part53_eq_skeleton]; unfold k0_part53_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 5 (by decide) (by decide), sem_ar 3 5 (by decide) (by decide), sem_as 3 6 (by decide) (by decide)]
  -- wait gs batch 3 index 5
  iapply (step_wait_as m K c (3 : Fin 4) (5 : Fin 7) (dst := ((Memref.whole cc0_stg1_0).slice (Rect.unit (s := S4x32x8x128) (k0_off12 c) S1x32x1x128.size (k0_off12_inb c)) (fun _ => rfl))) rfl) $$ [Hcr50 Hpos50 HO]
  · isplitr; · iexact HR
    isplitr; · iexact HL
    isplitl [Hcr50]; · iexact Hcr50
    isplitl [Hpos50]; · iexact Hpos50
    iexact HO
  iintro ⟨⟨%W78, HO⟩, Hsv50, HhS3_5⟩
  -- wait gr batch 3 index 5
  iapply (step_wait_ar m K c (3 : Fin 4) (5 : Fin 7) (dst := ((Memref.whole cc0_stg1_0).slice (Rect.unit (s := S4x32x8x128) (k0_off12 c) S1x32x1x128.size (k0_off12_inb c)) (fun _ => rfl))) rfl) $$ [Hcr78 Hpos78 HO]
  · isplitr; · iexact HR
    isplitr; · iexact HL
    isplitl [Hcr78]; · iexact Hcr78
    isplitl [Hpos78]; · iexact Hpos78
    iexact HO
  iintro ⟨⟨%W79, HO⟩, Hsv78, HhR3_5⟩
  -- wait gs batch 3 index 6
  iapply (step_wait_as m K c (3 : Fin 4) (6 : Fin 7) (dst := ((Memref.whole cc0_stg1_0).slice (Rect.unit (s := S4x32x8x128) (k0_off12 c) S1x32x1x128.size (k0_off12_inb c)) (fun _ => rfl))) rfl) $$ [Hcr51 Hpos51 HO]
  · isplitr; · iexact HR
    isplitr; · iexact HL
    isplitl [Hcr51]; · iexact Hcr51
    isplitl [Hpos51]; · iexact Hpos51
    iexact HO
  iintro ⟨⟨%W80, HO⟩, Hsv51, HhS3_6⟩
  -- the last wait and the return
  simp only [Prog.lift, Prog.bind_op, Prog.bind_ret, Prog.pure_eq_ret, wp_ret, wp_deviceId, semSignalWord, semWaitWord]
  (try imodintro)
  (try imodintro)
  -- (the printed offsets and device chains stay as printed: the step lemmas take them with their equations)
  (try simp only [sem_ar 3 6 (by decide) (by decide)])
  -- wait gr batch 3 index 6
  iapply (step_wait_ar m K c (3 : Fin 4) (6 : Fin 7) (dst := ((Memref.whole cc0_stg1_0).slice (Rect.unit (s := S4x32x8x128) (k0_off12 c) S1x32x1x128.size (k0_off12_inb c)) (fun _ => rfl))) rfl) $$ [Hcr79 Hpos79 HO]
  · isplitr; · iexact HR
    isplitr; · iexact HL
    isplitl [Hcr79]; · iexact Hcr79
    isplitl [Hpos79]; · iexact Hpos79
    iexact HO
  iintro ⟨⟨%W81, HO⟩, Hsv79, HhR3_6⟩
  (try simp only [wp_ret])
  (try imodintro)
  (try imodintro)
  iapply Hk
  isplitl [HO]; · (iexists _; iexact HO)
  isplitl [Hsv0]; · iexact Hsv0
  isplitl [Hsv1]; · iexact Hsv1
  isplitl [Hsv2]; · iexact Hsv2
  isplitl [Hsv3]; · iexact Hsv3
  isplitl [Hsv4]; · iexact Hsv4
  isplitl [Hsv5]; · iexact Hsv5
  isplitl [Hsv6]; · iexact Hsv6
  isplitl [Hsv7]; · iexact Hsv7
  isplitl [Hsv8]; · iexact Hsv8
  isplitl [Hsv9]; · iexact Hsv9
  isplitl [Hsv10]; · iexact Hsv10
  isplitl [Hsv11]; · iexact Hsv11
  isplitl [Hsv12]; · iexact Hsv12
  isplitl [Hsv13]; · iexact Hsv13
  isplitl [Hsv14]; · iexact Hsv14
  isplitl [Hsv15]; · iexact Hsv15
  isplitl [Hsv16]; · iexact Hsv16
  isplitl [Hsv17]; · iexact Hsv17
  isplitl [Hsv18]; · iexact Hsv18
  isplitl [Hsv19]; · iexact Hsv19
  isplitl [Hsv20]; · iexact Hsv20
  isplitl [Hsv21]; · iexact Hsv21
  isplitl [Hsv22]; · iexact Hsv22
  isplitl [Hsv23]; · iexact Hsv23
  isplitl [Hsv24]; · iexact Hsv24
  isplitl [Hsv25]; · iexact Hsv25
  isplitl [Hsv26]; · iexact Hsv26
  isplitl [Hsv27]; · iexact Hsv27
  isplitl [Hsv28]; · iexact Hsv28
  isplitl [Hsv29]; · iexact Hsv29
  isplitl [Hsv30]; · iexact Hsv30
  isplitl [Hsv31]; · iexact Hsv31
  isplitl [Hsv32]; · iexact Hsv32
  isplitl [Hsv33]; · iexact Hsv33
  isplitl [Hsv34]; · iexact Hsv34
  isplitl [Hsv35]; · iexact Hsv35
  isplitl [Hsv36]; · iexact Hsv36
  isplitl [Hsv37]; · iexact Hsv37
  isplitl [Hsv38]; · iexact Hsv38
  isplitl [Hsv39]; · iexact Hsv39
  isplitl [Hsv40]; · iexact Hsv40
  isplitl [Hsv41]; · iexact Hsv41
  isplitl [Hsv42]; · iexact Hsv42
  isplitl [Hsv43]; · iexact Hsv43
  isplitl [Hsv44]; · iexact Hsv44
  isplitl [Hsv45]; · iexact Hsv45
  isplitl [Hsv46]; · iexact Hsv46
  isplitl [Hsv47]; · iexact Hsv47
  isplitl [Hsv48]; · iexact Hsv48
  isplitl [Hsv49]; · iexact Hsv49
  isplitl [Hsv50]; · iexact Hsv50
  isplitl [Hsv51]; · iexact Hsv51
  isplitl [Hsv52]; · iexact Hsv52
  isplitl [Hsv53]; · iexact Hsv53
  isplitl [Hsv54]; · iexact Hsv54
  isplitl [Hsv55]; · iexact Hsv55
  isplitl [Hsv56]; · iexact Hsv56
  isplitl [Hsv57]; · iexact Hsv57
  isplitl [Hsv58]; · iexact Hsv58
  isplitl [Hsv59]; · iexact Hsv59
  isplitl [Hsv60]; · iexact Hsv60
  isplitl [Hsv61]; · iexact Hsv61
  isplitl [Hsv62]; · iexact Hsv62
  isplitl [Hsv63]; · iexact Hsv63
  isplitl [Hsv64]; · iexact Hsv64
  isplitl [Hsv65]; · iexact Hsv65
  isplitl [Hsv66]; · iexact Hsv66
  isplitl [Hsv67]; · iexact Hsv67
  isplitl [Hsv68]; · iexact Hsv68
  isplitl [Hsv69]; · iexact Hsv69
  isplitl [Hsv70]; · iexact Hsv70
  isplitl [Hsv71]; · iexact Hsv71
  isplitl [Hsv72]; · iexact Hsv72
  isplitl [Hsv73]; · iexact Hsv73
  isplitl [Hsv74]; · iexact Hsv74
  isplitl [Hsv75]; · iexact Hsv75
  isplitl [Hsv76]; · iexact Hsv76
  isplitl [Hsv77]; · iexact Hsv77
  isplitl [Hsv78]; · iexact Hsv78
  isplitl [Hsv79]; · iexact Hsv79
  isplitl [HQ]; · iexact HQ
  isplitl [HkS0]; · iexact HkS0
  isplitl [HkS1]; · iexact HkS1
  isplitl [HkS2]; · iexact HkS2
  isplitl [HkS3]; · iexact HkS3
  isplitl [HvS0]; · iexact HvS0
  isplitl [HvS1]; · iexact HvS1
  isplitl [HvS2]; · iexact HvS2
  isplitl [HvS3]; · iexact HvS3
  isplitl [HkD0]; · iexact HkD0
  isplitl [HkD1]; · iexact HkD1
  isplitl [HkD2]; · iexact HkD2
  isplitl [HkD3]; · iexact HkD3
  isplitl [HvD0]; · iexact HvD0
  isplitl [HvD1]; · iexact HvD1
  isplitl [HvD2]; · iexact HvD2
  isplitl [HvD3]; · iexact HvD3
  isplitl [Ho0]; · iexact Ho0
  isplitl [Ho1]; · iexact Ho1
  isplitl [Ho2]; · iexact Ho2
  isplitl [Ho3]; · iexact Ho3
  isplitl [Hl0]; · iexact Hl0
  isplitl [Hl1]; · iexact Hl1
  isplitl [Hl2]; · iexact Hl2
  isplitl [Hl3]; · iexact Hl3
  isplitl [Hpo0]; · iexact Hpo0
  isplitl [Hpo1]; · iexact Hpo1
  isplitl [Hpo2]; · iexact Hpo2
  isplitl [Hpo3]; · iexact Hpo3
  isplitl [Hpl0]; · iexact Hpl0
  isplitl [Hpl1]; · iexact Hpl1
  isplitl [Hpl2]; · iexact Hpl2
  isplitl [Hpl3]; · iexact Hpl3
  isplitl [HhRem0]; · iexact HhRem0
  isplitl [HhRem1]; · iexact HhRem1
  isplitl [HhRem2]; · iexact HhRem2
  isplitl [HhRem3]; · iexact HhRem3
  isplitl [HhS0_0]; · iexact HhS0_0
  isplitl [HhS0_1]; · iexact HhS0_1
  isplitl [HhS0_2]; · iexact HhS0_2
  isplitl [HhS0_3]; · iexact HhS0_3
  isplitl [HhS0_4]; · iexact HhS0_4
  isplitl [HhS0_5]; · iexact HhS0_5
  isplitl [HhS0_6]; · iexact HhS0_6
  isplitl [HhS1_0]; · iexact HhS1_0
  isplitl [HhS1_1]; · iexact HhS1_1
  isplitl [HhS1_2]; · iexact HhS1_2
  isplitl [HhS1_3]; · iexact HhS1_3
  isplitl [HhS1_4]; · iexact HhS1_4
  isplitl [HhS1_5]; · iexact HhS1_5
  isplitl [HhS1_6]; · iexact HhS1_6
  isplitl [HhS2_0]; · iexact HhS2_0
  isplitl [HhS2_1]; · iexact HhS2_1
  isplitl [HhS2_2]; · iexact HhS2_2
  isplitl [HhS2_3]; · iexact HhS2_3
  isplitl [HhS2_4]; · iexact HhS2_4
  isplitl [HhS2_5]; · iexact HhS2_5
  isplitl [HhS2_6]; · iexact HhS2_6
  isplitl [HhS3_0]; · iexact HhS3_0
  isplitl [HhS3_1]; · iexact HhS3_1
  isplitl [HhS3_2]; · iexact HhS3_2
  isplitl [HhS3_3]; · iexact HhS3_3
  isplitl [HhS3_4]; · iexact HhS3_4
  isplitl [HhS3_5]; · iexact HhS3_5
  isplitl [HhS3_6]; · iexact HhS3_6
  isplitl [HhR0_0]; · iexact HhR0_0
  isplitl [HhR0_1]; · iexact HhR0_1
  isplitl [HhR0_2]; · iexact HhR0_2
  isplitl [HhR0_3]; · iexact HhR0_3
  isplitl [HhR0_4]; · iexact HhR0_4
  isplitl [HhR0_5]; · iexact HhR0_5
  isplitl [HhR0_6]; · iexact HhR0_6
  isplitl [HhR1_0]; · iexact HhR1_0
  isplitl [HhR1_1]; · iexact HhR1_1
  isplitl [HhR1_2]; · iexact HhR1_2
  isplitl [HhR1_3]; · iexact HhR1_3
  isplitl [HhR1_4]; · iexact HhR1_4
  isplitl [HhR1_5]; · iexact HhR1_5
  isplitl [HhR1_6]; · iexact HhR1_6
  isplitl [HhR2_0]; · iexact HhR2_0
  isplitl [HhR2_1]; · iexact HhR2_1
  isplitl [HhR2_2]; · iexact HhR2_2
  isplitl [HhR2_3]; · iexact HhR2_3
  isplitl [HhR2_4]; · iexact HhR2_4
  isplitl [HhR2_5]; · iexact HhR2_5
  isplitl [HhR2_6]; · iexact HhR2_6
  isplitl [HhR3_0]; · iexact HhR3_0
  isplitl [HhR3_1]; · iexact HhR3_1
  isplitl [HhR3_2]; · iexact HhR3_2
  isplitl [HhR3_3]; · iexact HhR3_3
  isplitl [HhR3_4]; · iexact HhR3_4
  isplitl [HhR3_5]; · iexact HhR3_5
  iexact HhR3_6

end Cert.KernelIdeal.Flash

end
-- ==== Proof.Body.lean ====
/-
  One device's body, from what the launch hands it to what the launch asks back: the launch's holdings are taken
  apart into the resources the body's steps name, the steps run in program order, and the pieces are put back
  together at the return.
-/
import proofs.«900786_g7700000000000787_dist_flashdec_v7x_xyz2x2x4_x_b4_sq32_skv4096_h8_d128_f32_1_alg».proof.Proof.BodyGlue
import proofs.«900786_g7700000000000787_dist_flashdec_v7x_xyz2x2x4_x_b4_sq32_skv4096_h8_d128_f32_1_alg».proof.Proof.Chain

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
set_option maxRecDepth 8000 in
/-- The steps in program order, between the two ends' names for the resources. -/
theorem chain_named (m : (ℓ : Loc nD τ sig) → Buf (Elt F) ℓ) (K : Dev nD × Option (Fin 80) → ℕ) (c : Dev nD) (W : Waits sig Unit)
    (Kt : PUnit → sProp 𝕄) :
    initChain m K c W ⊢ iprop((finalChain m c -∗ Kt ⟨⟩)
      -∗ wp frame (wpE (defs₀ (F := F)) 𝒱₀ (c : Thread nD τ) none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  unfold initChain finalChain
  exact chain m K c W Kt

/-- The body, from the launch's precondition to its postcondition. -/
theorem sound_body (m : (ℓ : Loc nD τ sig) → Buf (Elt F) ℓ) (K : Dev nD × Option (Fin 80) → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt := by
  iintro ⟨Hpre, Hk⟩
  ihave H := (body_in m K c) $$ Hpre
  icases H with ⟨%W, Hinit, Hr1, Hr2⟩
  iapply (chain_named m K c W Kt) $$ Hinit
  iintro Hfin
  iapply Hk
  iapply (body_out m c)
  isplitl [Hfin]; · iexact Hfin
  isplitl [Hr1]; · iexact Hr1
  iexact Hr2

/-- info: 'Cert.KernelIdeal.Flash.sound_body' depends on axioms: [propext, Classical.choice, Quot.sound] -/
#guard_msgs in #print axioms sound_body

end Cert.KernelIdeal.Flash

end
-- ==== Proof.Launch.lean ====
/-
  The launch: from a proof of one device's body to the run of the whole mesh.

  Every device's body is proved once, at a symbolic device, from the invariant before the one grid point —
  the ghost state of the protocol at the names the launch allocated, the device's credit tokens, the level
  facts, its key and value blocks as launched and its scratch buffers — to the invariant after it: the key and
  value blocks as they were, its eighty semaphores back at zero, the scratch buffers at something, the staged
  query array as it was and the result buffer at the merged blocks of all eight heads. The launch sorts what
  each device holds at kernel entry into that invariant (the launch credit is what all the others owe its
  cells; the two staging semaphores may be waited at any time, their level being the lowest), runs the
  pipeline of one point around the body, and reads the final arrays back: the query array is an input and
  never written; the result array's one block is the whole array, written once with what the body left in
  the staging buffer; the key and value blocks are read off their points-to against the final memory.
-/
import proofs.«900786_g7700000000000787_dist_flashdec_v7x_xyz2x2x4_x_b4_sq32_skv4096_h8_d128_f32_1_alg».proof.Proof.BodyDefs
import proofs.«900786_g7700000000000787_dist_flashdec_v7x_xyz2x2x4_x_b4_sq32_skv4096_h8_d128_f32_1_alg».proof.Proof.Ghost
import proofs.«900786_g7700000000000787_dist_flashdec_v7x_xyz2x2x4_x_b4_sq32_skv4096_h8_d128_f32_1_alg».proof.Proof.Levels
import proofs.«900786_g7700000000000787_dist_flashdec_v7x_xyz2x2x4_x_b4_sq32_skv4096_h8_d128_f32_1_alg».proof.Proof.Body

noncomputable section

namespace Cert.KernelIdeal.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The body obligation -/

/-- What the pipeline hands the body at its one point: the invariant, what the device owes, and the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The body's proof, in the form the launch takes it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => bodyPost m c)
  unfold bodyPre' Φ₀ start
  iintro ⟨⟨⟨⟨%K, Hg⟩, Hcr, Hlev, Hkv⟩, Hscr⟩, Ho, Hx, Hout⟩
  iapply (sound_body m K c fun _ => bodyPost m c)
  unfold bodyPre
  isplitr []
  · isplitl [Hg Hcr Hlev Hkv Hscr]
    · isplitl [Hg]; · iexact Hg
      isplitl [Hcr]; · iexact Hcr
      isplitl [Hlev]; · iexact Hlev
      isplitl [Hkv]; · iexact Hkv
      iexact Hscr
    isplitl [Ho]; · iexact Ho
    isplitl [Hx]; · iexact Hx
    iexact Hout
  · iintro H; iexact H

/-! ## Sorting the launch's holdings into the invariant -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Rd m) c)
      ⊢ |={Set.univ}=> iprop(start m c ∗ emp) := by
  rw [Pipeline.unscopedRestP_none, unscopedRest0_eq]
  iintro ⟨⟨H1, H2⟩, Hlev, Hcr, -, HG⟩
  ihave Hc := (creds (F := F) c) $$ Hcr
  imodintro
  unfold start G' credsAt kvPts
  isplitl
  · isplitl [HG]; · iexact HG
    isplitl [Hc]; · iexact Hc
    isplitl [Hlev]; · iexact Hlev
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(kvPts m c ∗ Pipeline.ownSems0 osem c ∗ Pipeline.scopedRest cfg0.spec c) := by
  rw [show (dats m 0 c).Φ (Fin.last cfg0.N) = Φ₁ m c from rfl]
  unfold Φ₁
  exact .rfl

/-- The two staging semaphores have the lowest level: they may be waited whatever the device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_lv0 (F := F) c _ (by fin_cases w <;> fin_cases s <;> rfl) 0
    · show _ ⊢ MayWait (c : Thread nD τ) _ () (0 : CellTallies nD τ sig Unit)
      rw [MayWait_zero]; iintro -; iempintro

/-! ## The final arrays -/

/-- The query array is an input: it ends as it was. -/
theorem final_in (c : Dev nD) : (dats m 0 c).arrAt (0 : Fin 2) cfg0.N = m ((c : Thread nD τ).loc main_arg0) :=
  (dats (F := F) m 0 c).arrAt_in (0 : Fin 2) rfl _

/-- The result array's one block is the whole array, written once with what the body left: the merged blocks. -/
theorem final_out (c : Dev nD) : (dats m 0 c).arrAt (1 : Fin 2) cfg0.N = outC m c := by
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  funext i
  have h := View.write_emb_of_mem (v := ((cfg0.win (1 : Fin 2)).blk (0 : Fin 1)).view) (Val := Elt F)
    ((dats m 0 c).arrAt (1 : Fin 2) ((0 : Fin 1) : Fin cfg0.N).val) ((dats m 0 c).flushed (1 : Fin 2) (0 : Fin 1)) (M := Finset.univ) (x := i) (Finset.mem_univ _)
  have he : ((cfg0.win (1 : Fin 2)).blk (0 : Fin 1)).view.emb i = i := funext fun a => Fin.ext (by
    match a with
    | ⟨0, _⟩ => show 0 * 4 + 1 * (i 0).val = (i 0).val; omega
    | ⟨1, _⟩ => show 0 * 32 + 1 * (i 1).val = (i 1).val; omega
    | ⟨2, _⟩ => show 0 * 8 + 1 * (i 2).val = (i 2).val; omega
    | ⟨3, _⟩ => show 0 * 128 + 1 * (i 3).val = (i 3).val; omega)
  rw [he] at h
  exact h

/-! ## The run -/

/-- At the compiled mesh of sixteen devices, for any float values, from any memory with zero counters: every
    weakly fair execution of @main terminates, and every final state has each device's result array at the
    merged blocks of all eight heads and its three argument arrays unchanged. -/
theorem run_main : θ_run (Cert.KernelIdeal.defs (F := F)) (onTc (τ := Cert.KernelIdeal.τ) (Cert.KernelIdeal.main (F := F))) ⟨m, fun _ => 0, ρ⟩
    (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Rd m)) (G' := G' (Rd m)) (u₀ := u₀)
    (hu₀ := launch_u₀ (Rd m))
    (hglob := glob (Rd m))
    (hA := fun _ _ => rfl) (hpf := fun _ k => k.elim0)
    (X := start m) (Y := kvPts m) (Z := fun _ => iprop(emp))
    (hX := start_intro m ρ) (hin := phi0_intro m) (hout := phi1_exit m)
    (QY := fun c s => s.mem ((c.tc : Thread nD τ).loc main_arg1) = m ((c.tc : Thread nD τ).loc main_arg1)
      ∧ s.mem ((c.tc : Thread nD τ).loc main_arg2) = m ((c.tc : Thread nD τ).loc main_arg2))
    (hY := fun c s' => by
      unfold kvPts
      iintro ⟨⟨H1, H2⟩, -, HSI⟩
      icombine HSI H1 gives %h1
      icombine HSI H2 gives %h2
      imodintro
      isplitr; · ipureintro; exact ⟨Buf.eq_of_forall_mem_univ h1, Buf.eq_of_forall_mem_univ h2⟩
      iexact HSI)
    (hQ := fun s h c => ⟨((h c).1 (1 : Fin 2)).trans (final_out m c), ((h c).1 (0 : Fin 2)).trans (final_in m c), (h c).2.2.1, (h c).2.2.2⟩)

/-- info: 'Cert.KernelIdeal.Flash.run_main' depends on axioms: [propext, Classical.choice, Quot.sound] -/
#guard_msgs in #print axioms run_main

end Cert.KernelIdeal.Flash

end
-- ==== Proof.Word.Proto.lean ====
/-
  The cross-device protocol of the kernel, as definitions: the sixteen devices' peers, the semaphores each
  device owns, the views through which each copy reads and writes, and the levels at which a device may wait.

  Device d = 8x + 4y + z works on head d % 8 with its half x of the keys and values.  Its eight peers are
  d xor 8 (the same head, the other half) and d xor 1 … d xor 7 (the same half, the other seven heads).
  Semaphores of a device, by number: 2+j the eight local copies (key block b at 2b, value block at 2b+1);
  10+2b+i and 18+2b+i the send and receive side of the exchange of batch b with d xor 8 (i = 0 the weighted
  sum, i = 1 the row sums); 26+7b+i and 54+7b+i the send and receive side of the copy of batch b's merged
  block to and from d xor (i+1); and the runtime's barrier semaphore.
-/
import proofs.«900786_g7700000000000787_dist_flashdec_v7x_xyz2x2x4_x_b4_sq32_skv4096_h8_d128_f32_1_alg».proof.Proof.Gen.Kernel.Skeleton
import proofs.«900786_g7700000000000787_dist_flashdec_v7x_xyz2x2x4_x_b4_sq32_skv4096_h8_d128_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names Fin 8) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers and heads -/

/-- The xor mask of peer j: peer 0 is the other half of the same head, peers 1…7 the other heads. -/
def msk : Fin 8 → ℕ := ![8, 1, 2, 3, 4, 5, 6, 7]

/-- Peer j of device c. -/
def pr (j : Fin 8) (c : Dev nD) : Dev nD := ⟨(c.val ^^^ msk j) % 16, Nat.mod_lt _ (by decide)⟩

/-- The head a device works on, as a number. -/
abbrev hdN (c : Dev nD) : ℕ := 4 * ((c.val / 4) % 2) + (c.val % 4)

theorem pr_pr (j : Fin 8) (c : Dev nD) : pr j (pr j c) = c := by revert j c; decide
theorem pr_ne (j : Fin 8) (c : Dev nD) : pr j c ≠ c := by revert j c; decide
theorem pr_inj_j (c : Dev nD) : Function.Injective (fun j => pr j c) := by revert c; decide
theorem hdN_lt (c : Dev nD) : hdN c < 8 := by revert c; decide
/-- The other half works on the same head; -/
theorem hdN_pr0 (c : Dev nD) : hdN (pr 0 c) = hdN c := by revert c; decide
/-- the other peers on the other heads. -/
theorem hdN_pr_succ (i : Fin 7) (c : Dev nD) : hdN (pr i.succ c) = hdN c ^^^ (i.val + 1) := by revert i c; decide
theorem hdN_pr_succ_ne (i : Fin 7) (c : Dev nD) : hdN (pr i.succ c) ≠ hdN c := by revert i c; decide

def prEquiv (j : Fin 8) : Dev nD ≃ Dev nD := ⟨pr j, pr j, pr_pr j, pr_pr j⟩

/-! ## Semaphores and cells -/

/-- The runtime's barrier semaphore of collective id 0. -/
abbrev barS : Sem sig := (SemArray.scalar (sig.barrier 0 rfl) : Sems sig S_).sem

/-- The kernel's own DMA semaphore number n + 2 (numbers 0 and 1 are the staging buffers'). -/
abbrev dS (n : Fin 80) : DmaSem sig := ⟨n.val + 2, by have := n.isLt; show n.val + 2 < 82; omega⟩

abbrev locN (b : ℕ) (v : ℕ) : ℕ := 2 * b + v            -- local copy of batch b: keys v = 0, values v = 1
abbrev xsN (b : ℕ) (i : ℕ) : ℕ := 8 + 2 * b + i          -- exchange, send side
abbrev xrN (b : ℕ) (i : ℕ) : ℕ := 16 + 2 * b + i         -- exchange, receive side
abbrev asN (b : ℕ) (i : ℕ) : ℕ := 24 + 7 * b + i         -- gather, send side
abbrev arN (b : ℕ) (i : ℕ) : ℕ := 52 + 7 * b + i         -- gather, receive side

abbrev barCell (c : Dev nD) : GSem nD τ sig := ((c : Thread nD τ), .reg barS)
abbrev dCell (c : Dev nD) (n : Fin 80) : GSem nD τ sig := ((c : Thread nD τ), .dma (dS n))

/-- The kernel's own (scoped) semaphores, as the launch theorem indexes them. -/
abbrev osem : Fin 80 → SemLoc sig := fun n => .dma (dS n)

/-- A device's cells: none the barrier, some n its own DMA semaphore n. -/
abbrev csem : Option (Fin 80) → SemLoc sig := fun | none => .reg barS | some n => .dma (dS n)
abbrev kcell (ck : Dev nD × Option (Fin 80)) : GSem nD τ sig := ((ck.1 : Thread nD τ), csem ck.2)

/-! ## Who pays: every DMA cell has one duty, 0; the barrier cell of c has duty j paid by peer j -/

/-- The xor mask from a device to the device whose cell number n it pays: itself for the local copies and the
    send sides (its own engine pays them), the other half for the exchange's receive side, peer i+1 for the
    gather's receive side of peer slot i. -/
def tgtMsk (n : Fin 80) : ℕ :=
  if n.val < 16 then 0 else if n.val < 24 then 8 else if n.val < 52 then 0 else (n.val - 52) % 7 + 1

/-- The device whose cell number n device c pays. -/
def tgt (n : Fin 80) (c : Dev nD) : Dev nD := ⟨(c.val ^^^ tgtMsk n) % 16, Nat.mod_lt _ (by decide)⟩

theorem tgt_tgt (n : Fin 80) (c : Dev nD) : tgt n (tgt n c) = c := by revert n c; decide
def tgtEquiv (n : Fin 80) : Dev nD ≃ Dev nD := ⟨tgt n, tgt n, tgt_tgt n, tgt_tgt n⟩

theorem tgt_own (n : Fin 80) (h : n.val < 16 ∨ (24 ≤ n.val ∧ n.val < 52)) (c : Dev nD) : tgt n c = c := by
  revert n c; decide
theorem xrN_lt (b : Fin 4) (i : Fin 2) : xrN b.val i.val < 80 := by have := b.isLt; have := i.isLt; show 16 + 2 * b.val + i.val < 80; omega
theorem arN_lt (b : Fin 4) (i : Fin 7) : arN b.val i.val < 80 := by have := b.isLt; have := i.isLt; show 52 + 7 * b.val + i.val < 80; omega
theorem xsN_lt (b : Fin 4) (i : Fin 2) : xsN b.val i.val < 80 := by have := b.isLt; have := i.isLt; show 8 + 2 * b.val + i.val < 80; omega
theorem asN_lt (b : Fin 4) (i : Fin 7) : asN b.val i.val < 80 := by have := b.isLt; have := i.isLt; show 24 + 7 * b.val + i.val < 80; omega
theorem locN_lt (b : Fin 4) (v : Fin 2) : locN b.val v.val < 80 := by have := b.isLt; have := v.isLt; show 2 * b.val + v.val < 80; omega
theorem tgt_xr (b : Fin 4) (i : Fin 2) (c : Dev nD) : tgt ⟨xrN b.val i.val, xrN_lt b i⟩ c = pr 0 c := by revert b i c; decide
theorem tgt_ar (b : Fin 4) (i : Fin 7) (c : Dev nD) : tgt ⟨arN b.val i.val, arN_lt b i⟩ c = pr i.succ c := by revert b i c; decide

/-! ## The views of the copies, spelt as the program spells them -/

theorem inbK (b : ℕ) (hb : b < 4) : ∀ a, (![b, 0, 0, 0] : Fin 4 → Nat) a + S1x4096x1x128.size a ≤ S4x4096x1x128.size a :=
  (by decide : ∀ b : Fin 4, ∀ a, (![b.val, 0, 0, 0] : Fin 4 → Nat) a + S1x4096x1x128.size a ≤ S4x4096x1x128.size a) ⟨b, hb⟩
theorem inbO (b : ℕ) (hb : b < 4) : ∀ a, (![b, 0, 0] : Fin 3 → Nat) a + S1x32x128.size a ≤ S4x32x128.size a :=
  (by decide : ∀ b : Fin 4, ∀ a, (![b.val, 0, 0] : Fin 3 → Nat) a + S1x32x128.size a ≤ S4x32x128.size a) ⟨b, hb⟩
theorem inbL (b : ℕ) (hb : b < 4) : ∀ a, (![b, 0, 0] : Fin 3 → Nat) a + S1x32x1.size a ≤ S4x32x1.size a :=
  (by decide : ∀ b : Fin 4, ∀ a, (![b.val, 0, 0] : Fin 3 → Nat) a + S1x32x1.size a ≤ S4x32x1.size a) ⟨b, hb⟩
theorem inbH (b : ℕ) (hb : b < 4) (h : ℕ) (hh : h < 8) : ∀ a, (![b, 0, h, 0] : Fin 4 → Nat) a + S1x32x1x128.size a ≤ S4x32x8x128.size a :=
  (by decide : ∀ b : Fin 4, ∀ h : Fin 8, ∀ a, (![b.val, 0, h.val, 0] : Fin 4 → Nat) a + S1x32x1x128.size a ≤ S4x32x8x128.size a) ⟨b, hb⟩ ⟨h, hh⟩
theorem inbA (b : ℕ) (hb : b < 4) (h : ℕ) (hh : h < 8) : ∀ a, (![b, 0, h, 0] : Fin 4 → Nat) a + S1x4096x1x128.size a ≤ S4x4096x8x128.size a :=
  (by decide : ∀ b : Fin 4, ∀ h : Fin 8, ∀ a, (![b.val, 0, h.val, 0] : Fin 4 → Nat) a + S1x4096x1x128.size a ≤ S4x4096x8x128.size a) ⟨b, hb⟩ ⟨h, hh⟩

/-- Batch b of a 4 x 4096 x 1 x 128 scratch buffer (the keys' at r = cc0_scratch0, the values' at cc0_scratch1). -/
abbrev kvDst (b : ℕ) (hb : b < 4) (M : Memref sig .tc .vmem S4x4096x1x128 .f32) : Memref sig .tc .vmem S4096x1x128 .f32 :=
  (M.slice (Rect.unit (s := S4x4096x1x128) ![b, 0, 0, 0] S1x4096x1x128.size (inbK b hb)) (fun _ => rfl)).squeeze S4096x1x128 squeezes_S1x4096x1x128_S4096x1x128

/-- Batch b, head h of a device's block of the keys or values in HBM. -/
abbrev kvSrc (b : ℕ) (hb : b < 4) (h : ℕ) (hh : h < 8) (M : Memref sig .tc .hbm S4x4096x8x128 .f32) : Memref sig .tc .hbm S4096x1x128 .f32 :=
  (M.slice (Rect.unit (s := S4x4096x8x128) ![b, 0, h, 0] S1x4096x1x128.size (inbA b hb h hh)) (fun _ => rfl)).squeeze S4096x1x128 squeezes_S1x4096x1x128_S4096x1x128

/-- Batch b of a 4 x 32 x 128 scratch buffer (the weighted sums: own cc0_scratch2, the peer's landing cc0_scratch4). -/
abbrev oSl (b : ℕ) (hb : b < 4) (M : Memref sig .tc .vmem S4x32x128 .f32) : Memref sig .tc .vmem S32x128 .f32 :=
  (M.slice (Rect.unit (s := S4x32x128) ![b, 0, 0] S1x32x128.size (inbO b hb)) (fun _ => rfl)).squeeze S32x128 squeezes_S1x32x128_S32x128

/-- Batch b of a 4 x 32 x 1 scratch buffer (the row sums: own cc0_scratch3, the peer's landing cc0_scratch5). -/
abbrev lSl (b : ℕ) (hb : b < 4) (M : Memref sig .tc .vmem S4x32x1 .f32) : Memref sig .tc .vmem S32x1 .f32 :=
  (M.slice (Rect.unit (s := S4x32x1) ![b, 0, 0] S1x32x1.size (inbL b hb)) (fun _ => rfl)).squeeze S32x1 squeezes_S1x32x1_S32x1

/-- Batch b, head h of the result's staging buffer. -/
abbrev hSl (b : ℕ) (hb : b < 4) (h : ℕ) (hh : h < 8) (M : Memref sig .tc .vmem S4x32x8x128 .f32) : Memref sig .tc .vmem S1x32x1x128 .f32 :=
  M.slice (Rect.unit (s := S4x32x8x128) ![b, 0, h, 0] S1x32x1x128.size (inbH b hb h hh)) (fun _ => rfl)

/-! ## Levels: the barrier below the exchange's receive cells in batch order, below the gather's receive cells -/

def L (g : GSem nD τ sig) : Finset Unit := if g.1.2 = .tc then {()} else ∅

/-- The level of a cell: 0 the send sides, the local copies and the staging semaphores; 1 the barrier;
    2 + b the exchange's receive side of batch b; 6 the gather's receive side. -/
def lvS : SemLoc sig → ℕ
  | .reg _ => 1
  | .dma n => if 18 ≤ n.val ∧ n.val < 26 then 2 + (n.val - 18) / 2 else if 54 ≤ n.val then 6 else 0

def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

end Cert.Kernel.Flash

end
-- ==== Proof.Word.KTerms.lean ====
import proofs.«900786_g7700000000000787_dist_flashdec_v7x_xyz2x2x4_x_b4_sq32_skv4096_h8_d128_f32_1_alg».proof.Proof.Gen.Kernel.Skeleton

/-! The arithmetic of one attention block, as functions of the loaded vectors.

For a query block `qb` (32 rows of 128 lanes), a key block `kb` and a value block `vb` (4096 rows
of 128 lanes each):

* `qs qb` is the query block times the scale constant;
* `pmat qb kb` is the 32 x 4096 matrix `exp ((qs qb) · kbᵀ)` (no maximum is subtracted);
* `lpart qb kb` is the column of its row sums, `l = Σ_k p`;
* `opart qb kb vb` is the unnormalised output `o = p · vb`;
* `merge o o' l l'` joins the partial results of the two halves of the key axis,
  `(o + o') / (l + l')`.

Every value the program stores for one of the four batches is one of these, by unfolding. -/

set_option synthInstance.maxSize 4096

noncomputable section

namespace Cert.Kernel.Flash

open Idealize.ShloMosaic Idealize.SL.Sem
open Cert.Kernel Cert.Kernel.Gen

variable {F : FTy → Type} [FloatOps F]

/-- The query block as a 32 x 128 matrix, times the scale constant. -/
def qs (qb : Vec F S1x32x1x128 .f32) : FVec F S32x128 .f32 :=
  mulf
    (shapeCast S32x128 (shapeCast S32x1x128 qb shapeCasts_S1x32x1x128_S32x1x128)
      shapeCasts_S32x1x128_S32x128)
    (broadcast S32x128 (Scalar.ofBits .f32 0x3DB504F3#32))

/-- The unnormalised weights `exp ((qs qb) · kbᵀ)`, a 32 x 4096 matrix. -/
def pmat (qb : Vec F S1x32x1x128 .f32) (kb : Vec F S1x4096x1x128 .f32) : FVec F S32x4096 .f32 :=
  exp (matmul dot_S32x128_S4096x128_S32x4096_1_1_0_0_n_n none (qs qb)
    (shapeCast S4096x128 kb shapeCasts_S1x4096x1x128_S4096x128)
    (constant S32x4096 .f32 0x00000000#32))

/-- The row sums of the weights, as a column with a leading unit axis. -/
def lpart (qb : Vec F S1x32x1x128 .f32) (kb : Vec F S1x4096x1x128 .f32) : FVec F S1x32x1 .f32 :=
  shapeCast S1x32x1
    (shapeCast S32x1
      (multiReduction .add [1] S32 (pmat qb kb) 0x00000000#32 reduces_S32x4096_S32 (.inl rfl) rfl)
      shapeCasts_S32_S32x1)
    shapeCasts_S32x1_S1x32x1

/-- The weights times the value block, with a leading unit axis. -/
def opart (qb : Vec F S1x32x1x128 .f32) (kb vb : Vec F S1x4096x1x128 .f32) :
    FVec F S1x32x128 .f32 :=
  shapeCast S1x32x128
    (matmul dot_S32x4096_S4096x128_S32x128_1_0_0_1_n_n none (pmat qb kb)
      (shapeCast S4096x128 vb shapeCasts_S1x4096x1x128_S4096x128)
      (constant S32x128 .f32 0x00000000#32))
    shapeCasts_S32x128_S1x32x128

/-- The two halves joined: `(o + o') / (l + l')`, the denominator broadcast along the lanes. -/
def merge (o o' : Vec F S1x32x128 .f32) (l l' : Vec F S1x32x1 .f32) : FVec F S1x32x1x128 .f32 :=
  shapeCast S1x32x1x128
    (shapeCast S32x1x128
      (divf
        (addf (shapeCast S32x128 o shapeCasts_S1x32x128_S32x128)
          (shapeCast S32x128 o' shapeCasts_S1x32x128_S32x128))
        (broadcastTo S32x128
          (addf (shapeCast S32x1 l shapeCasts_S1x32x1_S32x1)
            (shapeCast S32x1 l' shapeCasts_S1x32x1_S32x1))
          broadcasts_S32x1_S32x128))
      shapeCasts_S32x128_S32x1x128)
    shapeCasts_S32x1x128_S1x32x1x128

/-! ## The stored values are these functions -/

theorem pay1_eq (qb : Vec F S1x32x1x128 .f32) : k0_pay1 qb = qs qb := rfl
theorem pay6_eq (qb : Vec F S1x32x1x128 .f32) : k0_pay6 qb = qs qb := rfl
theorem pay17_eq (qb : Vec F S1x32x1x128 .f32) : k0_pay17 qb = qs qb := rfl

theorem pay3_eq (qb : Vec F S1x32x1x128 .f32) (kb : Vec F S1x4096x1x128 .f32) :
    k0_pay3 (k0_pay1 qb) (k0_pay2 kb) = pmat qb kb := rfl
theorem pay7_eq (qb : Vec F S1x32x1x128 .f32) (kb : Vec F S1x4096x1x128 .f32) :
    k0_pay7 (k0_pay6 qb) kb = pmat qb kb := rfl
theorem pay11_eq (qb : Vec F S1x32x1x128 .f32) (kb : Vec F S1x4096x1x128 .f32) :
    k0_pay11 qb kb = pmat qb kb := rfl
theorem pay19_eq (qb : Vec F S1x32x1x128 .f32) (kb : Vec F S1x4096x1x128 .f32) :
    k0_pay19 (k0_pay17 qb) (k0_pay18 kb) = pmat qb kb := rfl

theorem pay4_eq (qb : Vec F S1x32x1x128 .f32) (kb : Vec F S1x4096x1x128 .f32) :
    k0_pay4 (k0_pay1 qb) (k0_pay2 kb) = lpart qb kb := rfl
theorem pay5_eq (qb : Vec F S1x32x1x128 .f32) (kb vb : Vec F S1x4096x1x128 .f32) :
    k0_pay5 (k0_pay1 qb) (k0_pay2 kb) vb = opart qb kb vb := rfl

theorem pay8_eq (qb : Vec F S1x32x1x128 .f32) (kb : Vec F S1x4096x1x128 .f32) :
    k0_pay8 (k0_pay6 qb) kb = lpart qb kb := rfl
theorem pay9_eq (qb : Vec F S1x32x1x128 .f32) (kb vb : Vec F S1x4096x1x128 .f32) :
    k0_pay9 (k0_pay6 qb) kb vb = opart qb kb vb := rfl

theorem pay13_eq (qb : Vec F S1x32x1x128 .f32) (kb : Vec F S1x4096x1x128 .f32) :
    k0_pay13 (k0_pay11 qb kb) = lpart qb kb := rfl
theorem pay14_eq (qb : Vec F S1x32x1x128 .f32) (kb vb : Vec F S1x4096x1x128 .f32) :
    k0_pay14 (k0_pay11 qb kb) (k0_pay12 vb) = opart qb kb vb := rfl

theorem pay20_eq (qb : Vec F S1x32x1x128 .f32) (kb : Vec F S1x4096x1x128 .f32) :
    k0_pay20 (k0_pay17 qb) (k0_pay18 kb) = lpart qb kb := rfl
theorem pay21_eq (qb : Vec F S1x32x1x128 .f32) (kb vb : Vec F S1x4096x1x128 .f32) :
    k0_pay21 (k0_pay17 qb) (k0_pay18 kb) vb = opart qb kb vb := rfl

theorem pay10_eq (o o' : Vec F S1x32x128 .f32) (l l' : Vec F S1x32x1 .f32) :
    k0_pay10 o o' l l' = merge o o' l l' := rfl
theorem pay16_eq (o o' : Vec F S1x32x128 .f32) (l l' : Vec F S1x32x1 .f32) :
    k0_pay16 (k0_pay15 o o') l l' = merge o o' l l' := rfl
theorem pay22_eq (o o' : Vec F S1x32x128 .f32) (l l' : Vec F S1x32x1 .f32) :
    k0_pay22 o o' l l' = merge o o' l l' := rfl
theorem pay23_eq (o o' : Vec F S1x32x128 .f32) (l l' : Vec F S1x32x1 .f32) :
    k0_pay23 o o' l l' = merge o o' l l' := rfl

/--
info: 'Cert.Kernel.Flash.pay10_eq' depends on axioms: [propext, Classical.choice, Quot.sound]
-/
#guard_msgs in #print axioms pay10_eq
/--
info: 'Cert.Kernel.Flash.pay5_eq' depends on axioms: [propext, Classical.choice, Quot.sound]
-/
#guard_msgs in #print axioms pay5_eq

end Cert.Kernel.Flash

end
-- ==== Proof.Word.Sched.lean ====
import proofs.«900786_g7700000000000787_dist_flashdec_v7x_xyz2x2x4_x_b4_sq32_skv4096_h8_d128_f32_1_alg».proof.Proof.Word.Proto
import proofs.«900786_g7700000000000787_dist_flashdec_v7x_xyz2x2x4_x_b4_sq32_skv4096_h8_d128_f32_1_alg».proof.Proof.Word.KTerms
import Idealize.ShloMosaic.Lib.Transfers
import Idealize.ShloMosaic.Lib.ValueIdx

/-! The protocol's schedule: what every buffer holds at each stage, and what each signal and copy
hands over.

For device `c` (head `hdN c`, its half of the keys and values), batch `b`:
* `Qst m c` is the staged query array; `kC`, `vC` the key and value rows of head `hdN c` once
  the local copies have landed; `qB`, `kB`, `vB` the blocks the body loads from them;
* `oB`, `lB` are the device's partial output and partial denominator, `oC`, `lC` the buffers
  holding them batch by batch;
* `mB m c b` is the merge of the device's partial results with those of the other half
  (`pr 0 c`); `outC m c` the result buffer at the end: its row `(b, ·, h, ·)` is the merged block of
  the device of `c`'s half that works on head `h`.
The schedule `Rd m` has one round: a barrier cell has eight duties of one unit (one per peer), each
of the eighty DMA cells one duty of its view's credit. -/

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The buffers -/

abbrev qM : Memref sig .tc .vmem S4x32x8x128 .f32 := Memref.whole cc0_stg0_0
abbrev rM : Memref sig .tc .vmem S4x32x8x128 .f32 := Memref.whole cc0_stg1_0
abbrev kM : Memref sig .tc .vmem S4x4096x1x128 .f32 := Memref.whole cc0_scratch0
abbrev vM : Memref sig .tc .vmem S4x4096x1x128 .f32 := Memref.whole cc0_scratch1
abbrev oM : Memref sig .tc .vmem S4x32x128 .f32 := Memref.whole cc0_scratch2
abbrev lM : Memref sig .tc .vmem S4x32x1 .f32 := Memref.whole cc0_scratch3
abbrev oM' : Memref sig .tc .vmem S4x32x128 .f32 := Memref.whole cc0_scratch4
abbrev lM' : Memref sig .tc .vmem S4x32x1 .f32 := Memref.whole cc0_scratch5
abbrev aK : Memref sig .tc .hbm S4x4096x8x128 .f32 := Memref.whole main_arg1
abbrev aV : Memref sig .tc .hbm S4x4096x8x128 .f32 := Memref.whole main_arg2

/-! ## The rectangles the body loads and stores through -/

abbrev rH (b : Fin 4) (h : ℕ) (hh : h < 8) : Rect S4x32x8x128 :=
  Rect.unit (s := S4x32x8x128) ![b.val, 0, h, 0] S1x32x1x128.size (inbH b.val b.isLt h hh)
abbrev rK (b : Fin 4) : Rect S4x4096x1x128 :=
  Rect.unit (s := S4x4096x1x128) ![b.val, 0, 0, 0] S1x4096x1x128.size (inbK b.val b.isLt)
abbrev rO (b : Fin 4) : Rect S4x32x128 :=
  Rect.unit (s := S4x32x128) ![b.val, 0, 0] S1x32x128.size (inbO b.val b.isLt)
abbrev rL (b : Fin 4) : Rect S4x32x1 :=
  Rect.unit (s := S4x32x1) ![b.val, 0, 0] S1x32x1.size (inbL b.val b.isLt)

/-! ## Contents -/

/-- The staged query array of device `c`. -/
def Qst (c : Dev nD) : (cc0_stg0_0 : Ref sig .tc).ty.Contents (Elt F) :=
  (win0_0.blk (0 : Fin 1)).view.read (Elt F) (m ((c : Thread nD τ).loc main_arg0))

/-- The key rows of head `hdN c`, batch by batch, once the local copies have landed. -/
def kC (c : Dev nD) : (cc0_scratch0 : Ref sig .tc).ty.Contents (Elt F) := fun i =>
  m ((c : Thread nD τ).loc main_arg1) (ix4 (i 0) (i 1) (⟨hdN c, hdN_lt c⟩ : Fin 8) (i 3))

/-- The value rows of head `hdN c`. -/
def vC (c : Dev nD) : (cc0_scratch1 : Ref sig .tc).ty.Contents (Elt F) := fun i =>
  m ((c : Thread nD τ).loc main_arg2) (ix4 (i 0) (i 1) (⟨hdN c, hdN_lt c⟩ : Fin 8) (i 3))

/-- The query block of batch `b`, head `hdN c`, as the body loads it. -/
def qB (c : Dev nD) (b : Fin 4) : Vec F S1x32x1x128 .f32 :=
  (qM : Memref sig .tc .vmem S4x32x8x128 .f32).view.readAt (Elt F) (rH b (hdN c) (hdN_lt c)).toLoadRect (Qst m c)
/-- The key block of batch `b`. -/
def kB (c : Dev nD) (b : Fin 4) : Vec F S1x4096x1x128 .f32 :=
  (kM : Memref sig .tc .vmem S4x4096x1x128 .f32).view.readAt (Elt F) (rK b).toLoadRect (kC m c)
/-- The value block of batch `b`. -/
def vB (c : Dev nD) (b : Fin 4) : Vec F S1x4096x1x128 .f32 :=
  (vM : Memref sig .tc .vmem S4x4096x1x128 .f32).view.readAt (Elt F) (rK b).toLoadRect (vC m c)

/-- The device's partial output and partial denominator of batch `b`. -/
def oB (c : Dev nD) (b : Fin 4) : Vec F S1x32x128 .f32 := opart (qB m c b) (kB m c b) (vB m c b)
def lB (c : Dev nD) (b : Fin 4) : Vec F S1x32x1 .f32 := lpart (qB m c b) (kB m c b)

/-- The buffers holding them: row `b` is batch `b`'s. -/
def oC (c : Dev nD) : (cc0_scratch2 : Ref sig .tc).ty.Contents (Elt F) := fun i =>
  oB m c (i 0) (ix3 (0 : Fin 1) (i 1) (i 2))
def lC (c : Dev nD) : (cc0_scratch3 : Ref sig .tc).ty.Contents (Elt F) := fun i =>
  lB m c (i 0) (ix3 (0 : Fin 1) (i 1) (i 2))

/-- The merged block of batch `b`: the device's partial results with the other half's. -/
def mB (c : Dev nD) (b : Fin 4) : Vec F S1x32x1x128 .f32 :=
  merge (oB m c b) (oB m (pr 0 c) b) (lB m c b) (lB m (pr 0 c) b)

/-- The device of `c`'s half that works on head `h`. -/
def hdDev (c : Dev nD) (h : Fin 8) : Dev nD := ⟨8 * (c.val / 8) + h.val, by have hc : c.val < 16 := c.isLt; have := h.isLt; show 8 * (c.val / 8) + h.val < 16; omega⟩

/-- The result buffer at the end: row `(b, ·, h, ·)` is the merged block of the device of `c`'s half
    that works on head `h`. -/
def outC (c : Dev nD) : (cc0_stg1_0 : Ref sig .tc).ty.Contents (Elt F) := fun i =>
  mB m (hdDev c (i 2)) (i 0) (ix4 (0 : Fin 1) (i 1) (0 : Fin 1) (i 3))

/-! ## The cells by number -/

/-- The number of each DMA cell of a device, by its role. -/
abbrev nLoc (b : Fin 4) (v : Fin 2) : Fin 80 := ⟨locN b.val v.val, by have := b.isLt; have := v.isLt; show 2 * b.val + v.val < 80; omega⟩
abbrev nXs (b : Fin 4) (i : Fin 2) : Fin 80 := ⟨xsN b.val i.val, by have := b.isLt; have := i.isLt; show 8 + 2 * b.val + i.val < 80; omega⟩
abbrev nXr (b : Fin 4) (i : Fin 2) : Fin 80 := ⟨xrN b.val i.val, by have := b.isLt; have := i.isLt; show 16 + 2 * b.val + i.val < 80; omega⟩
abbrev nGs (b : Fin 4) (i : Fin 7) : Fin 80 := ⟨asN b.val i.val, by have := b.isLt; have := i.isLt; show 24 + 7 * b.val + i.val < 80; omega⟩
abbrev nGr (b : Fin 4) (i : Fin 7) : Fin 80 := ⟨arN b.val i.val, by have := b.isLt; have := i.isLt; show 52 + 7 * b.val + i.val < 80; omega⟩

/-- A DMA cell's role. -/
inductive Role where
  | loc (b : Fin 4) (v : Fin 2)
  | xs (b : Fin 4) (i : Fin 2)
  | xr (b : Fin 4) (i : Fin 2)
  | gs (b : Fin 4) (i : Fin 7)
  | gr (b : Fin 4) (i : Fin 7)
  deriving DecidableEq

def Role.num : Role → Fin 80
  | .loc b v => nLoc b v
  | .xs b i => nXs b i
  | .xr b i => nXr b i
  | .gs b i => nGs b i
  | .gr b i => nGr b i

/-- The role of DMA cell number `n`. -/
def roleOf (n : Fin 80) : Role :=
  if h₁ : n.val < 8 then .loc ⟨n.val / 2, by omega⟩ ⟨n.val % 2, by omega⟩
  else if h₂ : n.val < 16 then .xs ⟨(n.val - 8) / 2, by omega⟩ ⟨(n.val - 8) % 2, by omega⟩
  else if h₃ : n.val < 24 then .xr ⟨(n.val - 16) / 2, by omega⟩ ⟨(n.val - 16) % 2, by omega⟩
  else if h₄ : n.val < 52 then .gs ⟨(n.val - 24) / 7, by omega⟩ ⟨(n.val - 24) % 7, by omega⟩
  else .gr ⟨(n.val - 52) / 7, by have := n.isLt; omega⟩ ⟨(n.val - 52) % 7, by omega⟩

theorem roleOf_num (k : Role) : roleOf k.num = k := by
  cases k with
  | loc b v => revert b v; decide
  | xs b i => revert b i; decide
  | xr b i => revert b i; decide
  | gs b i => revert b i; decide
  | gr b i => revert b i; decide

/-- The DMA semaphore's number, if it is one of the kernel's own eighty. -/
def dnum : SemLoc sig → Option (Fin 80)
  | .reg _ => none
  | .dma s => if h : 2 ≤ s.val ∧ s.val < 82 then some ⟨s.val - 2, by omega⟩ else none

theorem dnum_dS (n : Fin 80) : dnum (.dma (dS n)) = some n := by
  have := n.isLt
  show (if h : 2 ≤ n.val + 2 ∧ n.val + 2 < 82 then some (⟨n.val + 2 - 2, _⟩ : Fin 80) else none) = some n
  rw [dif_pos ⟨by omega, by omega⟩]
  exact congrArg some (Fin.ext (by show n.val + 2 - 2 = n.val; omega))

/-! ## The credits -/

abbrev NK : ℕ := (kvDst 0 (by decide) kM).view.dmaCredit
abbrev NV : ℕ := (kvDst 0 (by decide) vM).view.dmaCredit
abbrev NO : ℕ := (oSl 0 (by decide) oM').view.dmaCredit
abbrev NL : ℕ := (lSl 0 (by decide) lM').view.dmaCredit
abbrev NH : ℕ := (hSl 0 (by decide) 0 (by decide) rM).view.dmaCredit

theorem NK_pos : 0 < NK := View.dmaCredit_pos _ (by decide)
theorem NV_pos : 0 < NV := View.dmaCredit_pos _ (by decide)
theorem NO_pos : 0 < NO := View.dmaCredit_pos _ (by decide)
theorem NL_pos : 0 < NL := View.dmaCredit_pos _ (by decide)
theorem NH_pos : 0 < NH := View.dmaCredit_pos _ (by decide)

/-- What a transfer completing on a DMA cell credits it, by the cell's role. -/
def roleAmt : Role → ℕ
  | .loc _ v => if v = 0 then NK else NV
  | .xs _ i => if i = 0 then NO else NL
  | .xr _ i => if i = 0 then NO else NL
  | .gs _ _ => NH
  | .gr _ _ => NH

theorem roleAmt_pos (k : Role) : 0 < roleAmt k := by
  cases k <;> dsimp only [roleAmt] <;> (try split) <;> first | exact NK_pos | exact NV_pos | exact NO_pos | exact NL_pos | exact NH_pos

/-! ## The shares of a merged block read by seven copies at once -/

/-- The share of its merged block a device lends to the copy towards peer `i + 1`. -/
abbrev gsShare (i : Fin 7) : PosShare TreeShare := Transfers.shareTok fullShare 7 i

/-! ## What each duty hands over -/

/-- Region points-to of a memref's elements on a device. -/
abbrev slPts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- Duty `j` of device `c`'s barrier cell, paid by peer `pr j c`: from the other half (`j = 0`) its two
    landing buffers; from another head's device its four rows of the result buffer that `c` will write. -/
def barPay (c : Dev nD) (j : Fin 8) : sProp 𝕄 :=
  if j = 0 then iprop((∃ f, slPts (pr 0 c) oM' fullShare f) ∗ (∃ f, slPts (pr 0 c) lM' fullShare f))
  else bigSep (Finset.univ : Finset (Fin 4)) (fun b => iprop(∃ f, slPts (pr j c) (hSl b.val b.isLt (hdN c) (hdN_lt c) rM) fullShare f))

/-- What a DMA cell's one duty hands its device, by role. -/
def rolePay (c : Dev nD) : Role → sProp 𝕄
  | .loc b v =>
    if v = 0 then iprop(slPts c (kvDst b.val b.isLt kM) fullShare (kC m c)
        ∗ slPts c (kvSrc b.val b.isLt (hdN c) (hdN_lt c) aK) fullShare (m ((c : Thread nD τ).loc main_arg1)))
    else iprop(slPts c (kvDst b.val b.isLt vM) fullShare (vC m c)
        ∗ slPts c (kvSrc b.val b.isLt (hdN c) (hdN_lt c) aV) fullShare (m ((c : Thread nD τ).loc main_arg2)))
  | .xs b i =>
    if i = 0 then slPts c (oSl b.val b.isLt oM) fullShare (oC m c)
    else slPts c (lSl b.val b.isLt lM) fullShare (lC m c)
  | .xr b i =>
    if i = 0 then slPts c (oSl b.val b.isLt oM') fullShare (oC m (pr 0 c))
    else slPts c (lSl b.val b.isLt lM') fullShare (lC m (pr 0 c))
  | .gs b i => slPts c (hSl b.val b.isLt (hdN c) (hdN_lt c) rM) (gsShare i) (outC m c)
  | .gr b i => slPts c (hSl b.val b.isLt (hdN (pr i.succ c)) (hdN_lt _) rM) fullShare (outC m c)

abbrev IsBar (g : GSem nD τ sig) : Prop := g.1.2 = .tc ∧ g.2 = .reg barS
abbrev IsDma (g : GSem nD τ sig) : Prop := g.1.2 = .tc ∧ (dnum g.2).isSome

/-- One round, round 0: a barrier cell has eight duties of one unit, one per peer; each of a device's
    eighty DMA cells one duty, of the credit of the view whose transfer completes there. -/
def Rd : Rounds.Schedule (GSem nD τ sig) (Fin 8) 𝕄 where
  duties g r := if r = 0 ∧ IsBar g then Finset.univ else if r = 0 ∧ IsDma g then {0} else ∅
  amount g _ _ := (dnum g.2).elim 1 (fun n => roleAmt (roleOf n))
  payload g _ d :=
    if g.2 = .reg barS then barPay g.1.1 d
    else (dnum g.2).elim iprop(emp) (fun n => rolePay m g.1.1 (roleOf n))
  amount_pos g _ _ _ := by
    cases dnum g.2 with
    | some n => exact roleAmt_pos _
    | none => exact Nat.one_pos

set_option synthInstance.maxHeartbeats 400000 in
instance Rd_payload_storable (g : GSem nD τ sig) (r : ℕ) (d : Fin 8) :
    BI.Storable (upEmb : UEmb _ 𝕄) ((Rd (F := F) m).payload g r d) := by
  show BI.Storable upEmb (if g.2 = .reg barS then barPay g.1.1 d
    else (dnum g.2).elim iprop(emp) (fun n => rolePay m g.1.1 (roleOf n)))
  split
  · unfold barPay; split <;> infer_instance
  · cases dnum g.2 with
    | none => show BI.Storable upEmb iprop(emp); infer_instance
    | some n =>
      show BI.Storable upEmb (rolePay m g.1.1 (roleOf n))
      cases roleOf n <;> dsimp only [rolePay] <;> (try split) <;> infer_instance

/-! ## The tables, cell by cell -/

section Tables
variable (c : Dev nD)

theorem dma_ne_bar (s : DmaSem sig) : (SemLoc.dma s : SemLoc sig) ≠ .reg barS := fun h => by cases h
theorem not_bar_dCell (n : Fin 80) : ¬ IsBar (dCell c n) := fun h => dma_ne_bar _ h.2
theorem isDma_dCell (n : Fin 80) : IsDma (dCell c n) := ⟨rfl, by show (dnum (.dma (dS n))).isSome = true; rw [dnum_dS]; rfl⟩

theorem duties_bar : (Rd (F := F) m).duties (barCell c) 0 = Finset.univ := by dsimp only [Rd]; exact if_pos ⟨rfl, rfl, rfl⟩
theorem duties_dma (n : Fin 80) : (Rd (F := F) m).duties (dCell c n) 0 = {0} := by
  dsimp only [Rd]; rw [if_neg (fun h => not_bar_dCell c n h.2)]; exact if_pos ⟨rfl, isDma_dCell c n⟩
theorem duties_later (g : GSem nD τ sig) : ∀ r, 1 ≤ r → (Rd (F := F) m).duties g r = ∅ :=
  fun r hr => by dsimp only [Rd]; rw [if_neg fun h => by omega, if_neg fun h => by omega]
theorem mem_duties_bar (j : Fin 8) : j ∈ (Rd (F := F) m).duties (barCell c) 0 := by rw [duties_bar]; exact Finset.mem_univ j
theorem mem_duties_dma (n : Fin 80) : (0 : Fin 8) ∈ (Rd (F := F) m).duties (dCell c n) 0 := by rw [duties_dma]; exact Finset.mem_singleton_self _

theorem amount_bar (d : Fin 8) : (Rd (F := F) m).amount (barCell c) 0 d = 1 := rfl
theorem amount_dma (k : Role) (d : Fin 8) : (Rd (F := F) m).amount (dCell c k.num) 0 d = roleAmt k := by
  show (dnum (.dma (dS k.num))).elim 1 (fun n => roleAmt (roleOf n)) = roleAmt k
  rw [dnum_dS, Option.elim_some, roleOf_num]

theorem expect_bar : (Rd (F := F) m).expect (barCell c) 0 = 8 := by
  unfold Schedule.expect Schedule.amountOf
  rw [duties_bar, Finset.sum_congr rfl fun d _ => amount_bar m c d, Finset.sum_const, Finset.card_univ, Fintype.card_fin, smul_eq_mul]
theorem expect_dma (k : Role) : (Rd (F := F) m).expect (dCell c k.num) 0 = roleAmt k := by
  unfold Schedule.expect Schedule.amountOf; rw [duties_dma, Finset.sum_singleton, amount_dma]

theorem payload_bar (j : Fin 8) : (Rd (F := F) m).payload (barCell c) 0 j = barPay c j := by dsimp only [Rd]; rw [if_pos rfl]
theorem payload_dma (k : Role) (d : Fin 8) : (Rd (F := F) m).payload (dCell c k.num) 0 d = rolePay m c k := by
  show (if (SemLoc.dma (dS k.num) : SemLoc sig) = .reg barS then barPay c d
    else (dnum (.dma (dS k.num))).elim iprop(emp) (fun n => rolePay m c (roleOf n))) = rolePay m c k
  rw [if_neg (dma_ne_bar _), dnum_dS, Option.elim_some, roleOf_num]

end Tables

end Cert.Kernel.Flash

end
-- ==== Proof.Word.Ghost.lean ====
/-
  The ghost state of the launch, for any schedule of the cells' rounds.

  Every device owns 81 cells: its barrier semaphore and its eighty DMA semaphores.  At launch each cell stands at
  round 0 with nothing taken and nothing consumed, and 88 duty tokens of round 0 are minted per device: the eight
  duties of its barrier cell and the one duty of each of its DMA cells.  A token goes to the device that PAYS the
  duty: duty j of a barrier cell to peer j of its owner, the duty of DMA cell n to the device whose target for n
  the owner is.  Both maps are involutions of the mesh, so dealing the tokens is a reindexing of the devices.

  What each device ends with is: the persistent records (every cell's invariant at the name it was allocated
  at, and that round 0 of every cell is reached), its 81 positions, and the 88 tokens it pays with.
-/
import proofs.«900786_g7700000000000787_dist_flashdec_v7x_xyz2x2x4_x_b4_sq32_skv4096_h8_d128_f32_1_alg».proof.Proof.Word.Proto
import Idealize.ShloMosaic.Lib.Pipeline.Launch
import Idealize.ShloMosaic.Lib.Pipeline.Kit
import Idealize.ShloMosaic.Lib.Rounds
import Idealize.ShloMosaic.Lib.Tactic
import Mathlib.Data.Fintype.Option
import Mathlib.Logic.Equiv.Option

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Iterated separating conjunctions: an optional index, and one member taken out -/

section BigSep

variable {M : Type} [URA M]

/-- Over an optional index: the member at none, and the members at some. -/
theorem bigSep_univ_option {α : Type} [Fintype α] (Φ : Option α → sProp M) :
    bigSep Finset.univ Φ = iprop(Φ none ∗ bigSep Finset.univ fun a : α => Φ (some a)) := by
  rw [bigSep_univ_equiv (Equiv.optionEquivSumPUnit.{0, 0} α).symm Φ, bigSep_univ_sum,
    bigSep_univ_of_subsingleton PUnit.unit]
  show BI.sep (bigSep Finset.univ fun a : α => Φ (some a)) (Φ none) = BI.sep (Φ none) (bigSep Finset.univ fun a : α => Φ (some a))
  exact equiv_iff.mp ⟨BI.sep_comm, BI.sep_comm⟩

/-- One member of a set first, the others after it. -/
theorem bigSep_take {I : Type} [DecidableEq I] {S : Finset I} {i : I} (hi : i ∈ S) (Φ : I → sProp M) :
    bigSep S Φ = iprop(Φ i ∗ bigSep (S.erase i) Φ) := bigSep_erase hi

/-- The same, as the two entailments a proof in progress applies. -/
theorem bigSep_take_out {I : Type} [DecidableEq I] {S : Finset I} {i : I} (hi : i ∈ S) (Φ : I → sProp M) :
    bigSep S Φ ⊢ iprop(Φ i ∗ bigSep (S.erase i) Φ) := Entails.of_eq (bigSep_take hi Φ)
theorem bigSep_put_back {I : Type} [DecidableEq I] {S : Finset I} {i : I} (hi : i ∈ S) (Φ : I → sProp M) :
    iprop(Φ i ∗ bigSep (S.erase i) Φ) ⊢ bigSep S Φ := Entails.of_eq (bigSep_take hi Φ).symm

/-- One member of a whole finite type first. -/
theorem bigSep_univ_take {I : Type} [Fintype I] [DecidableEq I] (i : I) (Φ : I → sProp M) :
    bigSep Finset.univ Φ = iprop(Φ i ∗ bigSep (Finset.univ.erase i) Φ) := bigSep_erase (Finset.mem_univ i)

/-- A member changed, the others kept: the old member out, and the whole back for the new one. -/
theorem bigSep_swap {I : Type} [DecidableEq I] {S : Finset I} {i : I} (hi : i ∈ S) (Φ : I → sProp M) (P : sProp M) :
    bigSep S Φ ⊢ iprop(Φ i ∗ (P -∗ bigSep S fun j => if j = i then P else Φ j)) := by
  have e : (bigSep S fun j => if j = i then P else Φ j) = iprop(P ∗ bigSep (S.erase i) Φ) := by
    rw [bigSep_take hi, if_pos rfl]
    exact congrArg (BI.sep P) (bigSep_congr fun j hj => if_neg (Finset.ne_of_mem_erase hj))
  rw [bigSep_take hi Φ, e]
  iintro ⟨H, Hr⟩
  isplitl [H]; · iexact H
  iintro HP
  isplitl [HP] <;> iassumption

end BigSep

/-! ## The cells and the minted tokens -/

theorem dS_injective : Function.Injective dS := fun a b h => by
  have h' : a.val + 2 = b.val + 2 := congrArg (fun x : DmaSem sig => x.val) h
  exact Fin.ext (by omega)

theorem csem_injective : Function.Injective csem := by
  intro k k' h
  cases k with
  | none => cases k' with
    | none => rfl
    | some b => cases h
  | some a => cases k' with
    | none => cases h
    | some b => exact congrArg some (dS_injective (SemLoc.dma.inj h))

theorem kcell_injective : Function.Injective (kcell : Dev nD × Option (Fin 80) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_none (c : Dev nD) : kcell (c, none) = barCell c := rfl
theorem kcell_some (c : Dev nD) (n : Fin 80) : kcell (c, some n) = dCell c n := rfl

/-- All the cells of the launch. -/
def allCells : Finset (GSem nD τ sig) := Finset.univ.map ⟨kcell, kcell_injective⟩

/-- A device's own cells' duty tokens as minted: the eight duties of its barrier cell, the one duty of each DMA cell. -/
abbrev tokOf (cj : Dev nD × (Fin 8 ⊕ Fin 80)) : GSem nD τ sig × ℕ × Fin 8 := match cj.2 with
  | .inl j => (barCell cj.1, 0, j)
  | .inr n => (dCell cj.1 n, 0, 0)

theorem tokOf_injective : Function.Injective (tokOf : Dev nD × (Fin 8 ⊕ Fin 80) → GSem nD τ sig × ℕ × Fin 8) := by
  rintro ⟨c, j⟩ ⟨c', j'⟩ h
  have h1 : c = c' := by
    have := congrArg (fun x : GSem nD τ sig × ℕ × Fin 8 => x.1.1.1) h
    cases j <;> cases j' <;> exact this
  subst h1
  have h2 := congrArg (fun x : GSem nD τ sig × ℕ × Fin 8 => x.1.2) h
  have h3 := congrArg (fun x : GSem nD τ sig × ℕ × Fin 8 => x.2.2) h
  cases j with
  | inl a => cases j' with
    | inl b => have : a = b := h3; rw [this]
    | inr b => cases h2
  | inr a => cases j' with
    | inl b => cases h2
    | inr b => have : a = b := dS_injective (SemLoc.dma.inj h2); rw [this]

/-- All the minted tokens. -/
def allToks : Finset (GSem nD τ sig × ℕ × Fin 8) := Finset.univ.map ⟨tokOf, tokOf_injective⟩

/-- The launch element: the pipeline library's, and the protocol's. -/
def u₀ : UU :=
  (initOf (Pipeline.cells cfgs cellOf_inj) (Pipeline.launchToks cfgs cellOf_inj), initOf allCells allToks)

/-! ## What the launch deals a device, and what the device's body starts from -/

variable (Rd : Rounds.Schedule (GSem nD τ sig) (Fin 8) (MT nD τ sig Unit (Elt F) ℕ UU ℕ))

/-- The duty tokens of device c's own cells. -/
def toks (c : Dev nD) : sProp 𝕄 :=
  iprop((bigSep Finset.univ fun j : Fin 8 => dutyTok ER (barCell c) 0 j)
    ∗ bigSep Finset.univ fun n : Fin 80 => dutyTok ER (dCell c n) 0 (0 : Fin 8))

/-- What the launch element deals device c: the round states of its cells at counter zero, its positions with
    the marks that round 0 is reached, and its own cells' tokens. -/
def G (c : Dev nD) : sProp 𝕄 :=
  iprop((bigSep Finset.univ fun k : Option (Fin 80) => roundState ER Rd (kcell (c, k)) 0)
    ∗ (bigSep Finset.univ fun k : Option (Fin 80) => iprop(atPos ER (kcell (c, k)) 0 ∅ 0 ∗ reached ER (kcell (c, k)) 0))
    ∗ toks c)

/-- The persistent records: every cell's invariant, at the name K gives it, and that round 0 of every cell is reached. -/
def records (K : Dev nD × Option (Fin 80) → ℕ) : sProp 𝕄 :=
  iprop((bigSep Finset.univ fun ck : Dev nD × Option (Fin 80) => cellInv ER Rd (K ck) (kcell ck))
    ∗ bigSep Finset.univ fun ck : Dev nD × Option (Fin 80) => reached ER (kcell ck) 0)

instance records_persistent (K : Dev nD × Option (Fin 80) → ℕ) : BI.Persistent (records Rd K) := by
  unfold records; infer_instance

/-- The tokens device c pays with: duty j of the barrier cell of its peer j, and the duty of cell n of its target for n. -/
def payToks (c : Dev nD) : sProp 𝕄 :=
  iprop((bigSep Finset.univ fun j : Fin 8 => dutyTok ER (barCell (pr j c)) 0 j)
    ∗ bigSep Finset.univ fun n : Fin 80 => dutyTok ER (dCell (tgt n c) n) 0 (0 : Fin 8))

/-- What stays with device c: its positions, and the tokens of the duties it pays. -/
def linear (c : Dev nD) : sProp 𝕄 :=
  iprop((bigSep Finset.univ fun k : Option (Fin 80) => atPos ER (kcell (c, k)) 0 ∅ 0) ∗ payToks c)

/-- The ghost state device c's body starts from, at the names K. -/
def ghost (K : Dev nD × Option (Fin 80) → ℕ) (c : Dev nD) : sProp 𝕄 := iprop(records Rd K ∗ linear c)

/-- The same at some names: what the global step of the launch hands device c. -/
def G' (c : Dev nD) : sProp 𝕄 := iprop(∃ K, ghost Rd K c)

/-! ## Funding: the protocol's launch element becomes every device's share -/

omit [FloatOps F] in
/-- Over all the cells: device by device, cell by cell. -/
theorem bigSep_allCells (Φ : GSem nD τ sig → sProp 𝕄) :
    bigSep allCells Φ = bigSep Finset.univ fun c : Dev nD => bigSep Finset.univ fun k : Option (Fin 80) => Φ (kcell (c, k)) := by
  unfold allCells; rw [bigSep_map, bigSep_univ_prod]; rfl

omit [FloatOps F] in
/-- Over all the minted tokens: device by device, its own cells' tokens. -/
theorem bigSep_allToks :
    bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

omit [FloatOps F] in
theorem fund : BI.own (ER (initOf allCells allToks)) ⊢ (|==> bigSep Finset.univ (G Rd) : sProp 𝕄) := by
  iintro HX
  imod (Rounds.fund ER Rd allCells allToks) $$ HX with ⟨Hst, Hr, Hat, Htok⟩
  imodintro
  ihave Hst' := (Entails.of_eq (bigSep_allCells fun g => roundState ER Rd g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq bigSep_allToks) $$ Htok
  unfold G; simp only [bigSep_sep']
  isplitl [Hst']; · iexact Hst'
  isplitl [Hat' Hr']
  · isplitl [Hat'] <;> iassumption
  iexact Htok'

omit [FloatOps F] in
/-- The launch element split between the pipeline library and the protocol, and the protocol's half funded (`hu₀`). -/
theorem launch_u₀ : (ownU u₀ : sProp 𝕄)
    ⊢ |={Set.univ}=> iprop(BI.own (EP (initOf (Pipeline.cells cfgs cellOf_inj) (Pipeline.launchToks cfgs cellOf_inj)))
        ∗ bigSep Finset.univ (G Rd)) := by
  unfold u₀
  iintro Hu
  ihave H := (ownU_pair _ _) $$ Hu
  icases H with ⟨HP, HX⟩
  imod (fund Rd) $$ HX with HG
  imodintro
  isplitl [HP] <;> iassumption

/-! ## The semaphores at zero: the eighty own ones and the barrier semaphore, the one unscoped semaphore -/

theorem ownSemFacts : Pipeline.OwnSemFacts cfg0.spec osem := by decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 80) => semVal (kcell (c, k)) 0 : sProp 𝕄) := by
  rw [unscopedSems0_eq, bigSep_univ_option]
  unfold Pipeline.ownSems0
  iintro ⟨HS, HB⟩
  isplitl [HB]; · iexact HB
  iexact HS

/-! ## The global step: every cell's invariant allocated, the tokens dealt to their payers -/

section Alloc

variable [hRd : ∀ g r d, BI.Storable (upEmb : UEmb _ (MT nD τ sig Unit (Elt F) ℕ UU ℕ)) (Rd.payload g r d)]

omit [FloatOps F] in
/-- Device c's cells' invariants, from its semaphores at zero and its round states at zero. -/
theorem core_alloc (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : Option (Fin 80) => iprop(∃ κ : ℕ, cellInv ER Rd κ (kcell (c, k))))
          ∗ (bigSep Finset.univ fun k : Option (Fin 80) => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 80) => semVal (kcell (c, k)) 0) ∗ bigSep Finset.univ fun k : Option (Fin 80) => roundState ER Rd (kcell (c, k)) 0)
      ⊢ (|={Set.univ}=> bigSep Finset.univ fun k : Option (Fin 80) => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Alloc

omit [FloatOps F] in
theorem inv_at (K : Dev nD × Option (Fin 80) → ℕ) (ck : Dev nD × Option (Fin 80)) : records Rd K ⊢ cellInv ER Rd (K ck) (kcell ck) := by
  unfold records
  exact sep_elim_left.trans (bigSep_elim (Finset.mem_univ ck))

omit [FloatOps F] in
theorem reached_at (K : Dev nD × Option (Fin 80) → ℕ) (ck : Dev nD × Option (Fin 80)) : records Rd K ⊢ reached ER (kcell ck) 0 := by
  unfold records
  exact sep_elim_right.trans (bigSep_elim (Finset.mem_univ ck))

omit [FloatOps F] in
/-- The tokens dealt to their payers.  Duty j of a barrier cell goes to peer j of its owner, the duty of DMA
    cell n to the target for n of its owner; both maps are their own inverses, so each family is the minted one
    with the devices reindexed. -/
theorem toks_around_eq : (bigSep Finset.univ fun c : Dev nD => (toks c : sProp 𝕄)) = bigSep Finset.univ fun c : Dev nD => payToks c := by
  unfold toks payToks
  rw [bigSep_sep', bigSep_sep']
  congr 1
  · rw [bigSep_univ_comm, bigSep_univ_comm (fun (c : Dev nD) (j : Fin 8) => (dutyTok ER (barCell (pr j c)) 0 j : sProp 𝕄))]
    exact bigSep_congr fun j _ => bigSep_univ_equiv (prEquiv j) (fun c : Dev nD => (dutyTok ER (barCell c) 0 j : sProp 𝕄))
  · rw [bigSep_univ_comm, bigSep_univ_comm (fun (c : Dev nD) (n : Fin 80) => (dutyTok ER (dCell (tgt n c) n) 0 (0 : Fin 8) : sProp 𝕄))]
    exact bigSep_congr fun n _ => bigSep_univ_equiv (tgtEquiv n) (fun c : Dev nD => (dutyTok ER (dCell c n) 0 (0 : Fin 8) : sProp 𝕄))

omit [FloatOps F] in
theorem toks_around : (bigSep Finset.univ fun c : Dev nD => (toks c : sProp 𝕄)) ⊢ bigSep Finset.univ fun c : Dev nD => payToks c :=
  Entails.of_eq toks_around_eq

omit [FloatOps F] in
theorem ghost_intro (K : Dev nD × Option (Fin 80) → ℕ) (c : Dev nD) : iprop(records Rd K ∗ linear c) ⊢ G' Rd c := by
  unfold G' ghost
  iintro H
  iexists K
  iexact H

omit [FloatOps F] in
/-- The devices' shares after allocation, regrouped: the records gathered into one persistent whole at the names
    chosen, and every device left with its positions and the tokens it pays with. -/
theorem regroup :
    (bigSep Finset.univ fun c : Dev nD => iprop((bigSep Finset.univ fun k : Option (Fin 80) => iprop(∃ κ : ℕ, cellInv ER Rd κ (kcell (c, k))))
          ∗ (bigSep Finset.univ fun k : Option (Fin 80) => iprop(atPos ER (kcell (c, k)) 0 ∅ 0 ∗ reached ER (kcell (c, k)) 0)) ∗ toks c) : sProp 𝕄)
      ⊢ bigSep Finset.univ (G' Rd) := by
  rw [bigSep_sep', bigSep_sep', ← bigSep_univ_prod (fun ck : Dev nD × Option (Fin 80) => iprop(∃ κ : ℕ, cellInv ER Rd κ (kcell ck))),
    bigSep_congr (s := Finset.univ) (fun (c : Dev nD) _ => bigSep_sep' Finset.univ (fun k : Option (Fin 80) => (atPos ER (kcell (c, k)) 0 ∅ 0 : sProp 𝕄)) (fun k => reached ER (kcell (c, k)) 0)),
    bigSep_sep', ← bigSep_univ_prod (fun ck : Dev nD × Option (Fin 80) => (reached ER (kcell ck) 0 : sProp 𝕄))]
  iintro ⟨HI, ⟨Hat, #HR⟩, Htok⟩
  ihave HK := (BI.bigSep_exists_pi Finset.univ (fun (ck : Dev nD × Option (Fin 80)) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply ((Entails.of_eq (bigSep_sep' Finset.univ (fun c : Dev nD => bigSep Finset.univ fun k : Option (Fin 80) => (atPos ER (kcell (c, k)) 0 ∅ 0 : sProp 𝕄)) payToks).symm).trans
      (bigSep_mono fun c _ => show _ ⊢ linear c from Entails.of_eq (by unfold linear; rfl)))
    isplitl [Hat]; · iexact Hat
    iexact Htk

section Glob

variable [hRd : ∀ g r d, BI.Storable (upEmb : UEmb _ (MT nD τ sig Unit (Elt F) ℕ UU ℕ)) (Rd.payload g r d)]

omit [FloatOps F] in
/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

end Glob

/-! ## Taking the ghost state apart: the records at one cell, and one position or one token out of the rest -/

omit [FloatOps F] in
theorem ghost_records (K : Dev nD × Option (Fin 80) → ℕ) (c : Dev nD) : ghost Rd K c ⊢ records Rd K := by
  unfold ghost; exact sep_elim_left
omit [FloatOps F] in
theorem ghost_split (K : Dev nD × Option (Fin 80) → ℕ) (c : Dev nD) : ghost Rd K c ⊢ iprop(records Rd K ∗ linear c) := by
  unfold ghost; exact .rfl

omit [FloatOps F] in
theorem inv_bar (K : Dev nD × Option (Fin 80) → ℕ) (c : Dev nD) : records Rd K ⊢ cellInv ER Rd (K (c, none)) (barCell c) :=
  inv_at Rd K (c, none)
omit [FloatOps F] in
theorem inv_d (K : Dev nD × Option (Fin 80) → ℕ) (c : Dev nD) (n : Fin 80) : records Rd K ⊢ cellInv ER Rd (K (c, some n)) (dCell c n) :=
  inv_at Rd K (c, some n)
omit [FloatOps F] in
theorem reached_bar (K : Dev nD × Option (Fin 80) → ℕ) (c : Dev nD) : records Rd K ⊢ reached ER (barCell c) 0 :=
  reached_at Rd K (c, none)
omit [FloatOps F] in
theorem reached_d (K : Dev nD × Option (Fin 80) → ℕ) (c : Dev nD) (n : Fin 80) : records Rd K ⊢ reached ER (dCell c n) 0 :=
  reached_at Rd K (c, some n)

/-- Device c's positions at round 0, over the cells S. -/
def posAt (c : Dev nD) (S : Finset (Option (Fin 80))) : sProp 𝕄 := bigSep S fun k => atPos ER (kcell (c, k)) 0 ∅ 0
/-- The barrier tokens device c pays with, over the duties S. -/
def barToksAt (c : Dev nD) (S : Finset (Fin 8)) : sProp 𝕄 := bigSep S fun j => dutyTok ER (barCell (pr j c)) 0 j
/-- The DMA tokens device c pays with, over the cell numbers S. -/
def dToksAt (c : Dev nD) (S : Finset (Fin 80)) : sProp 𝕄 := bigSep S fun n => dutyTok ER (dCell (tgt n c) n) 0 (0 : Fin 8)

omit [FloatOps F] in
theorem linear_eq (c : Dev nD) : (linear c : sProp 𝕄) = iprop(posAt c Finset.univ ∗ barToksAt c Finset.univ ∗ dToksAt c Finset.univ) := rfl

omit [FloatOps F] in
theorem pos_take (c : Dev nD) {S : Finset (Option (Fin 80))} {k : Option (Fin 80)} (hk : k ∈ S) :
    (posAt c S : sProp 𝕄) = iprop(atPos ER (kcell (c, k)) 0 ∅ 0 ∗ posAt c (S.erase k)) := bigSep_erase hk
omit [FloatOps F] in
theorem pos_take_bar (c : Dev nD) {S : Finset (Option (Fin 80))} (hk : none ∈ S) :
    (posAt c S : sProp 𝕄) = iprop(atPos ER (barCell c) 0 ∅ 0 ∗ posAt c (S.erase none)) := bigSep_erase hk
omit [FloatOps F] in
theorem pos_take_d (c : Dev nD) {S : Finset (Option (Fin 80))} {n : Fin 80} (hk : some n ∈ S) :
    (posAt c S : sProp 𝕄) = iprop(atPos ER (dCell c n) 0 ∅ 0 ∗ posAt c (S.erase (some n))) := bigSep_erase hk
omit [FloatOps F] in
theorem pos_split (c : Dev nD) {S T : Finset (Option (Fin 80))} (h : T ⊆ S) :
    (posAt c S : sProp 𝕄) = iprop(posAt c T ∗ posAt c (S \ T)) := bigSep_sdiff_split h

omit [FloatOps F] in
theorem tok_bar_take (c : Dev nD) {S : Finset (Fin 8)} {j : Fin 8} (hj : j ∈ S) :
    (barToksAt c S : sProp 𝕄) = iprop(dutyTok ER (barCell (pr j c)) 0 j ∗ barToksAt c (S.erase j)) := bigSep_erase hj
omit [FloatOps F] in
theorem tok_bar_split (c : Dev nD) {S T : Finset (Fin 8)} (h : T ⊆ S) :
    (barToksAt c S : sProp 𝕄) = iprop(barToksAt c T ∗ barToksAt c (S \ T)) := bigSep_sdiff_split h

omit [FloatOps F] in
theorem tok_d_take (c : Dev nD) {S : Finset (Fin 80)} {n : Fin 80} (hn : n ∈ S) :
    (dToksAt c S : sProp 𝕄) = iprop(dutyTok ER (dCell (tgt n c) n) 0 (0 : Fin 8) ∗ dToksAt c (S.erase n)) := bigSep_erase hn
omit [FloatOps F] in
/-- The token of one of the device's own cells (a local copy's or a send side's): the target is the device itself. -/
theorem tok_d_take_own (c : Dev nD) {S : Finset (Fin 80)} {n : Fin 80} (hn : n ∈ S) (h : n.val < 16 ∨ (24 ≤ n.val ∧ n.val < 52)) :
    (dToksAt c S : sProp 𝕄) = iprop(dutyTok ER (dCell c n) 0 (0 : Fin 8) ∗ dToksAt c (S.erase n)) := by
  rw [tok_d_take c hn, tgt_own n h c]
omit [FloatOps F] in
theorem tok_d_split (c : Dev nD) {S T : Finset (Fin 80)} (h : T ⊆ S) :
    (dToksAt c S : sProp 𝕄) = iprop(dToksAt c T ∗ dToksAt c (S \ T)) := bigSep_sdiff_split h

omit [FloatOps F] in
/-- The eight barrier tokens as a chain. -/
theorem barToks_chain (c : Dev nD) : (barToksAt c Finset.univ : sProp 𝕄)
    = iprop(dutyTok ER (barCell (pr 0 c)) 0 0 ∗ dutyTok ER (barCell (pr 1 c)) 0 1 ∗ dutyTok ER (barCell (pr 2 c)) 0 2 ∗ dutyTok ER (barCell (pr 3 c)) 0 3
        ∗ dutyTok ER (barCell (pr 4 c)) 0 4 ∗ dutyTok ER (barCell (pr 5 c)) 0 5 ∗ dutyTok ER (barCell (pr 6 c)) 0 6 ∗ dutyTok ER (barCell (pr 7 c)) 0 7) :=
  bigSep_univ_eq_bigSepL [0, 1, 2, 3, 4, 5, 6, 7] (by decide) (by decide) _

section Axioms

variable [hRd : ∀ g r d, BI.Storable (upEmb : UEmb _ (MT nD τ sig Unit (Elt F) ℕ UU ℕ)) (Rd.payload g r d)]

/-- info: 'Cert.Kernel.Flash.launch_u₀' depends on axioms: [propext, Classical.choice, Quot.sound] -/
#guard_msgs in #print axioms launch_u₀

/-- info: 'Cert.Kernel.Flash.glob' depends on axioms: [propext, Classical.choice, Quot.sound] -/
#guard_msgs in #print axioms glob

end Axioms

end Cert.Kernel.Flash

end
-- ==== Proof.Word.Atoms.lean ====
/-
  The resources a device's body holds, one name each: its positions on its own cells, the tokens of the duties
  it pays, its credits, its closed semaphores, and its buffers cut along the views of the copies — each buffer
  region either at some contents or at the contents the protocol says it holds by then.
-/
import proofs.«900786_g7700000000000787_dist_flashdec_v7x_xyz2x2x4_x_b4_sq32_skv4096_h8_d128_f32_1_alg».proof.Proof.Word.Sched
import proofs.«900786_g7700000000000787_dist_flashdec_v7x_xyz2x2x4_x_b4_sq32_skv4096_h8_d128_f32_1_alg».proof.Proof.Word.Ghost

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Ghost state -/

/-- Every cell's invariant at the names K, and that round 0 of every cell is reached. -/
abbrev Rec (K : Dev nD × Option (Fin 80) → ℕ) : sProp 𝕄 := records (Rd m) K
/-- The levels. -/
abbrev Lev : sProp 𝕄 := levAts L lv

abbrev posB (c : Dev nD) : sProp 𝕄 := atPos ER (barCell c) 0 ∅ 0
abbrev posD (c : Dev nD) (n : Fin 80) : sProp 𝕄 := atPos ER (dCell c n) 0 ∅ 0
/-- The token of the barrier duty device c pays: duty j of peer j's cell. -/
abbrev tokB (c : Dev nD) (j : Fin 8) : sProp 𝕄 := dutyTok ER (barCell (pr j c)) 0 j
/-- The token of the one duty of the DMA cell number n that device c pays. -/
abbrev tokD (c : Dev nD) (n : Fin 80) : sProp 𝕄 := dutyTok ER (dCell (tgt n c) n) 0 (0 : Fin 8)
abbrev crB (c : Dev nD) : sProp 𝕄 := cred (tallyAt (barCell c) () 8)
abbrev crD (c : Dev nD) (n : Fin 80) : sProp 𝕄 := cred (tallyAt (dCell c n) () (roleAmt (roleOf n)))
abbrev svD (c : Dev nD) (n : Fin 80) : sProp 𝕄 := semVal (dCell c n) 0

/-! ## Buffers, cut along the copies' views -/

/-- A view's elements on a device at some contents. -/
abbrev slE {sp : Space} {s : Shape} {e : EltTy} (c : Dev nD) (M : Memref sig .tc sp s e) : sProp 𝕄 :=
  iprop(∃ f, slPts (F := F) c M fullShare f)

abbrev kSrcA (c : Dev nD) (b : Fin 4) : sProp 𝕄 :=
  slPts c (kvSrc b.val b.isLt (hdN c) (hdN_lt c) aK) fullShare (m ((c : Thread nD τ).loc main_arg1))
abbrev vSrcA (c : Dev nD) (b : Fin 4) : sProp 𝕄 :=
  slPts c (kvSrc b.val b.isLt (hdN c) (hdN_lt c) aV) fullShare (m ((c : Thread nD τ).loc main_arg2))
abbrev kDstE (c : Dev nD) (b : Fin 4) : sProp 𝕄 := slE (F := F) c (kvDst b.val b.isLt kM)
abbrev vDstE (c : Dev nD) (b : Fin 4) : sProp 𝕄 := slE (F := F) c (kvDst b.val b.isLt vM)
abbrev kDstA (c : Dev nD) (b : Fin 4) : sProp 𝕄 := slPts c (kvDst b.val b.isLt kM) fullShare (kC m c)
abbrev vDstA (c : Dev nD) (b : Fin 4) : sProp 𝕄 := slPts c (kvDst b.val b.isLt vM) fullShare (vC m c)
abbrev oE (c : Dev nD) (b : Fin 4) : sProp 𝕄 := slE (F := F) c (oSl b.val b.isLt oM)
abbrev lE (c : Dev nD) (b : Fin 4) : sProp 𝕄 := slE (F := F) c (lSl b.val b.isLt lM)
abbrev oA (c : Dev nD) (b : Fin 4) : sProp 𝕄 := slPts c (oSl b.val b.isLt oM) fullShare (oC m c)
abbrev lA (c : Dev nD) (b : Fin 4) : sProp 𝕄 := slPts c (lSl b.val b.isLt lM) fullShare (lC m c)
abbrev poE (c : Dev nD) (b : Fin 4) : sProp 𝕄 := slE (F := F) c (oSl b.val b.isLt oM')
abbrev plE (c : Dev nD) (b : Fin 4) : sProp 𝕄 := slE (F := F) c (lSl b.val b.isLt lM')
abbrev poA (c : Dev nD) (b : Fin 4) : sProp 𝕄 := slPts c (oSl b.val b.isLt oM') fullShare (oC m (pr 0 c))
abbrev plA (c : Dev nD) (b : Fin 4) : sProp 𝕄 := slPts c (lSl b.val b.isLt lM') fullShare (lC m (pr 0 c))
abbrev hE (c : Dev nD) (b : Fin 4) (h : ℕ) (hh : h < 8) : sProp 𝕄 := slE (F := F) c (hSl b.val b.isLt h hh rM)
abbrev hA (c : Dev nD) (b : Fin 4) (h : ℕ) (hh : h < 8) (q : PosShare TreeShare) : sProp 𝕄 :=
  slPts c (hSl b.val b.isLt h hh rM) q (outC m c)
/-- The staged query array. -/
abbrev Qstg (c : Dev nD) : sProp 𝕄 := slPts c qM fullShare (Qst m c)
/-- A whole buffer at some contents. -/
abbrev wholeE (c : Dev nD) (r : Ref sig .tc) : sProp 𝕄 :=
  iprop(∃ f : Buf (Elt F) (((c : Dev nD) : Thread nD τ).loc r), (((c : Thread nD τ).loc r) ↦{fullShare} f))

/-- What device c hands peer j with its barrier signal: to the other half its two landing buffers, to
    another head's device the four rows of its result buffer that device will write. -/
def give (c : Dev nD) (j : Fin 8) : sProp 𝕄 := barPay (F := F) (pr j c) j

/-- What the eight signals device c waits for hand it. -/
def got (c : Dev nD) : sProp 𝕄 := bigSep (Finset.univ : Finset (Fin 8)) (fun j => barPay (F := F) c j)

end Cert.Kernel.Flash

end
-- ==== Proof.Word.Levels.lean ====
/-
  What a device owes its peers at launch, in the order it pays, and why none of its waits can deadlock.

  Every device pays, in program order: one unit to the barrier cell of each of its eight peers; then, batch
  by batch, the exchange of its weighted sums and row sums into the two receive cells of the other half of
  its head, and (one batch behind) the seven copies of a merged block into a receive cell of each other head:
    steps 0 … 7    the barrier signals to peers 0 … 7;
    steps 8, 9     exchange of batch 0;   10, 11  of batch 1;   19, 20  of batch 2;   28, 29  of batch 3;
    steps 12 … 18  copies of batch 0's merged block to peers 1 … 7;  21 … 27 of batch 1;  30 … 36 of batch 2;
                   37 … 43 of batch 3.
  What is still owed after the first n steps is the sum of the later steps' dues, so each step peels one summand.

  A device may wait on a cell only if the cell's level is below the level of every cell it still owes. The
  levels: 0 its own local-copy, send-side and staging cells; 1 the barrier; 2 + b the exchange's receive cells
  of batch b; 6 the merged blocks' receive cells. Along the program the dues' levels only matter from the
  current step on, and from step n on every due has level at least 1; from step 8 on at least 2; from the step
  at which batch b's exchange is awaited on (12, 21, 30, 37 for b = 0, 1, 2, 3) above 2 + b; at the end nothing.

  The launch hands each device, for each of its own cells, a credit token for everything anyone owes the cell:
  eight units on its barrier cell (one from each peer, the peer map being an involution), the block's credit
  on each exchange receive cell (from the other half) and on each merged-block receive cell (from the head it names).
-/
import proofs.«900786_g7700000000000787_dist_flashdec_v7x_xyz2x2x4_x_b4_sq32_skv4096_h8_d128_f32_1_alg».proof.Proof.Word.Proto

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The amounts: a landing's credit is its destination view's -/

/-- A batch of weighted sums landing in the other half's buffer; -/
abbrev No : ℕ := (oSl 0 (by decide) (Memref.whole cc0_scratch4 : Memref sig .tc .vmem S4x32x128 .f32)).view.dmaCredit
/-- a batch of row sums landing there; -/
abbrev Nl : ℕ := (lSl 0 (by decide) (Memref.whole cc0_scratch5 : Memref sig .tc .vmem S4x32x1 .f32)).view.dmaCredit
/-- a merged block landing in another head's result buffer. -/
abbrev Ng : ℕ := (hSl 0 (by decide) 0 (by decide) (Memref.whole cc0_stg1_0 : Memref sig .tc .vmem S4x32x8x128 .f32)).view.dmaCredit

/-- The credit does not depend on which batch (or head) the slice is of. -/
theorem No_eq (b : ℕ) (hb : b < 4) : (oSl b hb (Memref.whole cc0_scratch4 : Memref sig .tc .vmem S4x32x128 .f32)).view.dmaCredit = No := rfl
theorem Nl_eq (b : ℕ) (hb : b < 4) : (lSl b hb (Memref.whole cc0_scratch5 : Memref sig .tc .vmem S4x32x1 .f32)).view.dmaCredit = Nl := rfl
theorem Ng_eq (b : ℕ) (hb : b < 4) (h : ℕ) (hh : h < 8) :
    (hSl b hb h hh (Memref.whole cc0_stg1_0 : Memref sig .tc .vmem S4x32x8x128 .f32)).view.dmaCredit = Ng := rfl

theorem No_pos : 0 < No := View.dmaCredit_pos _ (by decide)
theorem Nl_pos : 0 < Nl := View.dmaCredit_pos _ (by decide)
theorem Ng_pos : 0 < Ng := View.dmaCredit_pos _ (by decide)

/-! ## The paying steps, in program order -/

/-- Step k: the peer paid, which of the peer's cells (none: its barrier cell), and how much. -/
def step : ℕ → Fin 8 × Option (Fin 80) × ℕ
  | 0 => (0, none, 1)
  | 1 => (1, none, 1)
  | 2 => (2, none, 1)
  | 3 => (3, none, 1)
  | 4 => (4, none, 1)
  | 5 => (5, none, 1)
  | 6 => (6, none, 1)
  | 7 => (7, none, 1)
  | 8 => (0, some ⟨xrN 0 0, by decide⟩, No)
  | 9 => (0, some ⟨xrN 0 1, by decide⟩, Nl)
  | 10 => (0, some ⟨xrN 1 0, by decide⟩, No)
  | 11 => (0, some ⟨xrN 1 1, by decide⟩, Nl)
  | 12 => (1, some ⟨arN 0 0, by decide⟩, Ng)
  | 13 => (2, some ⟨arN 0 1, by decide⟩, Ng)
  | 14 => (3, some ⟨arN 0 2, by decide⟩, Ng)
  | 15 => (4, some ⟨arN 0 3, by decide⟩, Ng)
  | 16 => (5, some ⟨arN 0 4, by decide⟩, Ng)
  | 17 => (6, some ⟨arN 0 5, by decide⟩, Ng)
  | 18 => (7, some ⟨arN 0 6, by decide⟩, Ng)
  | 19 => (0, some ⟨xrN 2 0, by decide⟩, No)
  | 20 => (0, some ⟨xrN 2 1, by decide⟩, Nl)
  | 21 => (1, some ⟨arN 1 0, by decide⟩, Ng)
  | 22 => (2, some ⟨arN 1 1, by decide⟩, Ng)
  | 23 => (3, some ⟨arN 1 2, by decide⟩, Ng)
  | 24 => (4, some ⟨arN 1 3, by decide⟩, Ng)
  | 25 => (5, some ⟨arN 1 4, by decide⟩, Ng)
  | 26 => (6, some ⟨arN 1 5, by decide⟩, Ng)
  | 27 => (7, some ⟨arN 1 6, by decide⟩, Ng)
  | 28 => (0, some ⟨xrN 3 0, by decide⟩, No)
  | 29 => (0, some ⟨xrN 3 1, by decide⟩, Nl)
  | 30 => (1, some ⟨arN 2 0, by decide⟩, Ng)
  | 31 => (2, some ⟨arN 2 1, by decide⟩, Ng)
  | 32 => (3, some ⟨arN 2 2, by decide⟩, Ng)
  | 33 => (4, some ⟨arN 2 3, by decide⟩, Ng)
  | 34 => (5, some ⟨arN 2 4, by decide⟩, Ng)
  | 35 => (6, some ⟨arN 2 5, by decide⟩, Ng)
  | 36 => (7, some ⟨arN 2 6, by decide⟩, Ng)
  | 37 => (1, some ⟨arN 3 0, by decide⟩, Ng)
  | 38 => (2, some ⟨arN 3 1, by decide⟩, Ng)
  | 39 => (3, some ⟨arN 3 2, by decide⟩, Ng)
  | 40 => (4, some ⟨arN 3 3, by decide⟩, Ng)
  | 41 => (5, some ⟨arN 3 4, by decide⟩, Ng)
  | 42 => (6, some ⟨arN 3 5, by decide⟩, Ng)
  | 43 => (7, some ⟨arN 3 6, by decide⟩, Ng)
  | _ => (0, none, 0)

/-- What step k pays, as a tally. -/
def payAt (c : Dev nD) (k : ℕ) : CellTallies nD τ sig Unit := tallyAt (kcell (pr (step k).1 c, (step k).2.1)) () (step k).2.2

/-- What device c still owes after its first n paying steps. -/
def owedFrom (c : Dev nD) (n : ℕ) : CellTallies nD τ sig Unit := ∑ k ∈ Finset.Ico n 44, payAt c k

/-- What it owes at launch. -/
def O₀ (c : Dev nD) : CellTallies nD τ sig Unit := owedFrom c 0

theorem owedFrom_peel (c : Dev nD) (n : ℕ) (hn : n < 44) : owedFrom c n = owedFrom c (n + 1) + payAt c n := by
  unfold owedFrom
  rw [show n + 1 = n.succ from rfl, Nat.Ico_succ_left_eq_erase_Ico, add_comm]
  exact (Finset.add_sum_erase _ _ (Finset.mem_Ico.mpr ⟨le_rfl, hn⟩)).symm

theorem owedFrom_end (c : Dev nD) : owedFrom c 44 = 0 := by
  unfold owedFrom; rw [Finset.Ico_self, Finset.sum_empty]

/-! Each step's peel, spelt out. -/
theorem owed_0 (c : Dev nD) : owedFrom c 0 = owedFrom c 1 + tallyAt (barCell (pr 0 c)) () 1 := owedFrom_peel c 0 (by decide)
theorem owed_1 (c : Dev nD) : owedFrom c 1 = owedFrom c 2 + tallyAt (barCell (pr 1 c)) () 1 := owedFrom_peel c 1 (by decide)
theorem owed_2 (c : Dev nD) : owedFrom c 2 = owedFrom c 3 + tallyAt (barCell (pr 2 c)) () 1 := owedFrom_peel c 2 (by decide)
theorem owed_3 (c : Dev nD) : owedFrom c 3 = owedFrom c 4 + tallyAt (barCell (pr 3 c)) () 1 := owedFrom_peel c 3 (by decide)
theorem owed_4 (c : Dev nD) : owedFrom c 4 = owedFrom c 5 + tallyAt (barCell (pr 4 c)) () 1 := owedFrom_peel c 4 (by decide)
theorem owed_5 (c : Dev nD) : owedFrom c 5 = owedFrom c 6 + tallyAt (barCell (pr 5 c)) () 1 := owedFrom_peel c 5 (by decide)
theorem owed_6 (c : Dev nD) : owedFrom c 6 = owedFrom c 7 + tallyAt (barCell (pr 6 c)) () 1 := owedFrom_peel c 6 (by decide)
theorem owed_7 (c : Dev nD) : owedFrom c 7 = owedFrom c 8 + tallyAt (barCell (pr 7 c)) () 1 := owedFrom_peel c 7 (by decide)
theorem owed_8 (c : Dev nD) : owedFrom c 8 = owedFrom c 9 + tallyAt (dCell (pr 0 c) ⟨xrN 0 0, by decide⟩) () No := owedFrom_peel c 8 (by decide)
theorem owed_9 (c : Dev nD) : owedFrom c 9 = owedFrom c 10 + tallyAt (dCell (pr 0 c) ⟨xrN 0 1, by decide⟩) () Nl := owedFrom_peel c 9 (by decide)
theorem owed_10 (c : Dev nD) : owedFrom c 10 = owedFrom c 11 + tallyAt (dCell (pr 0 c) ⟨xrN 1 0, by decide⟩) () No := owedFrom_peel c 10 (by decide)
theorem owed_11 (c : Dev nD) : owedFrom c 11 = owedFrom c 12 + tallyAt (dCell (pr 0 c) ⟨xrN 1 1, by decide⟩) () Nl := owedFrom_peel c 11 (by decide)
theorem owed_12 (c : Dev nD) : owedFrom c 12 = owedFrom c 13 + tallyAt (dCell (pr 1 c) ⟨arN 0 0, by decide⟩) () Ng := owedFrom_peel c 12 (by decide)
theorem owed_13 (c : Dev nD) : owedFrom c 13 = owedFrom c 14 + tallyAt (dCell (pr 2 c) ⟨arN 0 1, by decide⟩) () Ng := owedFrom_peel c 13 (by decide)
theorem owed_14 (c : Dev nD) : owedFrom c 14 = owedFrom c 15 + tallyAt (dCell (pr 3 c) ⟨arN 0 2, by decide⟩) () Ng := owedFrom_peel c 14 (by decide)
theorem owed_15 (c : Dev nD) : owedFrom c 15 = owedFrom c 16 + tallyAt (dCell (pr 4 c) ⟨arN 0 3, by decide⟩) () Ng := owedFrom_peel c 15 (by decide)
theorem owed_16 (c : Dev nD) : owedFrom c 16 = owedFrom c 17 + tallyAt (dCell (pr 5 c) ⟨arN 0 4, by decide⟩) () Ng := owedFrom_peel c 16 (by decide)
theorem owed_17 (c : Dev nD) : owedFrom c 17 = owedFrom c 18 + tallyAt (dCell (pr 6 c) ⟨arN 0 5, by decide⟩) () Ng := owedFrom_peel c 17 (by decide)
theorem owed_18 (c : Dev nD) : owedFrom c 18 = owedFrom c 19 + tallyAt (dCell (pr 7 c) ⟨arN 0 6, by decide⟩) () Ng := owedFrom_peel c 18 (by decide)
theorem owed_19 (c : Dev nD) : owedFrom c 19 = owedFrom c 20 + tallyAt (dCell (pr 0 c) ⟨xrN 2 0, by decide⟩) () No := owedFrom_peel c 19 (by decide)
theorem owed_20 (c : Dev nD) : owedFrom c 20 = owedFrom c 21 + tallyAt (dCell (pr 0 c) ⟨xrN 2 1, by decide⟩) () Nl := owedFrom_peel c 20 (by decide)
theorem owed_21 (c : Dev nD) : owedFrom c 21 = owedFrom c 22 + tallyAt (dCell (pr 1 c) ⟨arN 1 0, by decide⟩) () Ng := owedFrom_peel c 21 (by decide)
theorem owed_22 (c : Dev nD) : owedFrom c 22 = owedFrom c 23 + tallyAt (dCell (pr 2 c) ⟨arN 1 1, by decide⟩) () Ng := owedFrom_peel c 22 (by decide)
theorem owed_23 (c : Dev nD) : owedFrom c 23 = owedFrom c 24 + tallyAt (dCell (pr 3 c) ⟨arN 1 2, by decide⟩) () Ng := owedFrom_peel c 23 (by decide)
theorem owed_24 (c : Dev nD) : owedFrom c 24 = owedFrom c 25 + tallyAt (dCell (pr 4 c) ⟨arN 1 3, by decide⟩) () Ng := owedFrom_peel c 24 (by decide)
theorem owed_25 (c : Dev nD) : owedFrom c 25 = owedFrom c 26 + tallyAt (dCell (pr 5 c) ⟨arN 1 4, by decide⟩) () Ng := owedFrom_peel c 25 (by decide)
theorem owed_26 (c : Dev nD) : owedFrom c 26 = owedFrom c 27 + tallyAt (dCell (pr 6 c) ⟨arN 1 5, by decide⟩) () Ng := owedFrom_peel c 26 (by decide)
theorem owed_27 (c : Dev nD) : owedFrom c 27 = owedFrom c 28 + tallyAt (dCell (pr 7 c) ⟨arN 1 6, by decide⟩) () Ng := owedFrom_peel c 27 (by decide)
theorem owed_28 (c : Dev nD) : owedFrom c 28 = owedFrom c 29 + tallyAt (dCell (pr 0 c) ⟨xrN 3 0, by decide⟩) () No := owedFrom_peel c 28 (by decide)
theorem owed_29 (c : Dev nD) : owedFrom c 29 = owedFrom c 30 + tallyAt (dCell (pr 0 c) ⟨xrN 3 1, by decide⟩) () Nl := owedFrom_peel c 29 (by decide)
theorem owed_30 (c : Dev nD) : owedFrom c 30 = owedFrom c 31 + tallyAt (dCell (pr 1 c) ⟨arN 2 0, by decide⟩) () Ng := owedFrom_peel c 30 (by decide)
theorem owed_31 (c : Dev nD) : owedFrom c 31 = owedFrom c 32 + tallyAt (dCell (pr 2 c) ⟨arN 2 1, by decide⟩) () Ng := owedFrom_peel c 31 (by decide)
theorem owed_32 (c : Dev nD) : owedFrom c 32 = owedFrom c 33 + tallyAt (dCell (pr 3 c) ⟨arN 2 2, by decide⟩) () Ng := owedFrom_peel c 32 (by decide)
theorem owed_33 (c : Dev nD) : owedFrom c 33 = owedFrom c 34 + tallyAt (dCell (pr 4 c) ⟨arN 2 3, by decide⟩) () Ng := owedFrom_peel c 33 (by decide)
theorem owed_34 (c : Dev nD) : owedFrom c 34 = owedFrom c 35 + tallyAt (dCell (pr 5 c) ⟨arN 2 4, by decide⟩) () Ng := owedFrom_peel c 34 (by decide)
theorem owed_35 (c : Dev nD) : owedFrom c 35 = owedFrom c 36 + tallyAt (dCell (pr 6 c) ⟨arN 2 5, by decide⟩) () Ng := owedFrom_peel c 35 (by decide)
theorem owed_36 (c : Dev nD) : owedFrom c 36 = owedFrom c 37 + tallyAt (dCell (pr 7 c) ⟨arN 2 6, by decide⟩) () Ng := owedFrom_peel c 36 (by decide)
theorem owed_37 (c : Dev nD) : owedFrom c 37 = owedFrom c 38 + tallyAt (dCell (pr 1 c) ⟨arN 3 0, by decide⟩) () Ng := owedFrom_peel c 37 (by decide)
theorem owed_38 (c : Dev nD) : owedFrom c 38 = owedFrom c 39 + tallyAt (dCell (pr 2 c) ⟨arN 3 1, by decide⟩) () Ng := owedFrom_peel c 38 (by decide)
theorem owed_39 (c : Dev nD) : owedFrom c 39 = owedFrom c 40 + tallyAt (dCell (pr 3 c) ⟨arN 3 2, by decide⟩) () Ng := owedFrom_peel c 39 (by decide)
theorem owed_40 (c : Dev nD) : owedFrom c 40 = owedFrom c 41 + tallyAt (dCell (pr 4 c) ⟨arN 3 3, by decide⟩) () Ng := owedFrom_peel c 40 (by decide)
theorem owed_41 (c : Dev nD) : owedFrom c 41 = owedFrom c 42 + tallyAt (dCell (pr 5 c) ⟨arN 3 4, by decide⟩) () Ng := owedFrom_peel c 41 (by decide)
theorem owed_42 (c : Dev nD) : owedFrom c 42 = owedFrom c 43 + tallyAt (dCell (pr 6 c) ⟨arN 3 5, by decide⟩) () Ng := owedFrom_peel c 42 (by decide)
theorem owed_43 (c : Dev nD) : owedFrom c 43 = owedFrom c 44 + tallyAt (dCell (pr 7 c) ⟨arN 3 6, by decide⟩) () Ng := owedFrom_peel c 43 (by decide)

/-- A positive due is some later step's. -/
theorem owed_pos {c : Dev nD} {n : ℕ} {g : GSem nD τ sig} {u : Unit} (h : 0 < owedFrom c n g u) :
    ∃ k, n ≤ k ∧ k < 44 ∧ g = kcell (pr (step k).1 c, (step k).2.1) := by
  unfold owedFrom at h
  obtain ⟨k, hk, hpos⟩ := Pipeline.sum_pos_exists h
  rw [Finset.mem_Ico] at hk
  exact ⟨k, hk.1, hk.2, (Pipeline.tallyAt_pos hpos).1⟩

/-! ## The waits -/

/-- The level of the cell step k pays. -/
abbrev stepLv (k : ℕ) : ℕ := lvS (csem (step k).2.1)

omit [FloatOps F] in
/-- A wait on a cell of the device's own whose level is below every due from step n on is allowed while
    owing what is owed from step n on. -/
theorem mayWait_from (c : Dev nD) (sm : SemLoc sig) (n : ℕ) (h : ∀ k : Fin 44, n ≤ k.val → lvS sm < stepLv k.val) :
    (levAts L lv : sProp 𝕄) ⊢ MayWait (c : Thread nD τ) sm () (owedFrom c n) :=
  Pipeline.mayWait_of_levAts (L := L) (lev := lv) (by rw [L_tc]; exact Finset.mem_singleton_self _) fun g i hg => by
    obtain ⟨k, hnk, hk, rfl⟩ := owed_pos hg
    exact ⟨by rw [L_tc]; exact Finset.mem_singleton_self _, h ⟨k, hk⟩ hnk⟩

theorem stepLv_pos : ∀ k : Fin 44, 0 < stepLv k.val := by decide
theorem stepLv_gt_one : ∀ k : Fin 44, 8 ≤ k.val → 1 < stepLv k.val := by decide

omit [FloatOps F] in
/-- (a) Any cell of level 0 — a staging, local-copy or send-side cell — at any point of the program. -/
theorem mayWait_lv0 (c : Dev nD) (q : DmaSem sig) (hq : lvS (.dma q) = 0) (n : ℕ) :
    (levAts L lv : sProp 𝕄) ⊢ MayWait (c : Thread nD τ) (.dma q) () (owedFrom c n) :=
  mayWait_from c (.dma q) n fun k _ => by rw [hq]; exact stepLv_pos k

omit [FloatOps F] in
/-- (b) The barrier wait, after the eight signals. -/
theorem mayWait_bar (c : Dev nD) : (levAts L lv : sProp 𝕄) ⊢ MayWait (c : Thread nD τ) (.reg barS) () (owedFrom c 8) :=
  mayWait_from c (.reg barS) 8 fun k hk => stepLv_gt_one k hk

/-- The step count at which batch b's exchange is awaited: after the exchange of the next batch (or, for the
    last, after the copies of the batch before it). -/
def nX : Fin 4 → ℕ := ![12, 21, 30, 37]

theorem stepLv_gt_xr : ∀ (b : Fin 4) (i : Fin 2) (k : Fin 44), nX b ≤ k.val → lvS (.dma (dS ⟨xrN b.val i.val, xrN_lt b i⟩)) < stepLv k.val := by decide

omit [FloatOps F] in
/-- (c) The wait on the exchange's receive cell of batch b, at the point the program awaits it. -/
theorem mayWait_xr (c : Dev nD) (b : Fin 4) (i : Fin 2) :
    (levAts L lv : sProp 𝕄) ⊢ MayWait (c : Thread nD τ) (.dma (dS ⟨xrN b.val i.val, xrN_lt b i⟩)) () (owedFrom c (nX b)) :=
  mayWait_from c _ (nX b) fun k hk => stepLv_gt_xr b i k hk

omit [FloatOps F] in
/-- (d) Owing nothing, any wait. -/
theorem mayWait_end (c : Dev nD) (sm : SemLoc sig) : (levAts L lv : sProp 𝕄) ⊢ MayWait (c : Thread nD τ) sm () (owedFrom c 44) := by
  rw [owedFrom_end, MayWait_zero]; iintro -; iempintro

/-! ## The launch credit

The same dues grouped by kind rather than by time: the eight barrier units; the exchange's, batch by batch;
the merged blocks', batch by batch and head by head. -/

/-- The barrier unit owed to peer j; -/
def tBar (j : Fin 8) (c : Dev nD) : CellTallies nD τ sig Unit := tallyAt (barCell (pr j c)) () 1
/-- the credit of a landing of the exchange, by what lands: weighted sums (0), row sums (1); -/
def Nx : Fin 2 → ℕ := ![No, Nl]
/-- the exchange's due to the other half, batch b, part i; -/
def tX (b : Fin 4) (i : Fin 2) (c : Dev nD) : CellTallies nD τ sig Unit := tallyAt (dCell (pr 0 c) ⟨xrN b.val i.val, xrN_lt b i⟩) () (Nx i)
/-- the merged block of batch b owed to the i-th other head. -/
def tG (b : Fin 4) (i : Fin 7) (c : Dev nD) : CellTallies nD τ sig Unit := tallyAt (dCell (pr i.succ c) ⟨arN b.val i.val, arN_lt b i⟩) () Ng

def Obar (c : Dev nD) : CellTallies nD τ sig Unit := ∑ j : Fin 8, tBar j c
def Oex (c : Dev nD) : CellTallies nD τ sig Unit := ∑ b : Fin 4, ∑ i : Fin 2, tX b i c
def Oag (c : Dev nD) : CellTallies nD τ sig Unit := ∑ b : Fin 4, ∑ i : Fin 7, tG b i c

/-- The dues in program order, each as its group's member. -/
theorem O₀_flat (c : Dev nD) : O₀ c = tBar 0 c + tBar 1 c + tBar 2 c + tBar 3 c + tBar 4 c + tBar 5 c + tBar 6 c + tBar 7 c + tX 0 0 c + tX 0 1 c + tX 1 0 c + tX 1 1 c + tG 0 0 c + tG 0 1 c + tG 0 2 c + tG 0 3 c + tG 0 4 c + tG 0 5 c + tG 0 6 c + tX 2 0 c + tX 2 1 c + tG 1 0 c + tG 1 1 c + tG 1 2 c + tG 1 3 c + tG 1 4 c + tG 1 5 c + tG 1 6 c + tX 3 0 c + tX 3 1 c + tG 2 0 c + tG 2 1 c + tG 2 2 c + tG 2 3 c + tG 2 4 c + tG 2 5 c + tG 2 6 c + tG 3 0 c + tG 3 1 c + tG 3 2 c + tG 3 3 c + tG 3 4 c + tG 3 5 c + tG 3 6 c := by
  unfold O₀ owedFrom
  rw [Nat.Ico_zero_eq_range]
  simp only [Finset.sum_range_succ, Finset.sum_range_zero, zero_add]
  rfl

/-- Time order and kind order sum to the same dues. -/
theorem O₀_eq (c : Dev nD) : O₀ c = Obar c + (Oex c + Oag c) := by
  rw [O₀_flat]
  unfold Obar Oex Oag
  simp only [Fin.sum_univ_eight, Fin.sum_univ_four, Fin.sum_univ_two, Fin.sum_univ_seven]
  ac_rfl

theorem bar8 (g : GSem nD τ sig) : (∑ _j : Fin 8, tallyAt g () 1 : CellTallies nD τ sig Unit) = tallyAt g () 8 := by
  simp only [Fin.sum_univ_eight, tallyAt_add]

/-- What the launch deals device c: eight units on its barrier cell, each exchange landing's credit on its
    receive cell, each merged block's credit on its receive cell. -/
theorem creds (c : Dev nD) :
    (Pipeline.launchCred O₀ c : sProp 𝕄) ⊢ iprop(cred (tallyAt (barCell c) () 8)
      ∗ (bigSep Finset.univ fun b : Fin 4 => bigSep Finset.univ fun i : Fin 2 => cred (tallyAt (dCell c ⟨xrN b.val i.val, xrN_lt b i⟩) () (Nx i)))
      ∗ (bigSep Finset.univ fun b : Fin 4 => bigSep Finset.univ fun i : Fin 7 => cred (tallyAt (dCell c ⟨arN b.val i.val, arN_lt b i⟩) () Ng))) := by
  rw [show (O₀ : Dev nD → CellTallies nD τ sig Unit) = fun d => Obar d + (Oex d + Oag d) from funext O₀_eq,
    Pipeline.launchCred_add, Pipeline.launchCred_add]
  refine sep_mono ?_ (sep_mono ?_ ?_)
  · -- the barrier: one unit from each peer
    unfold Obar
    rw [Pipeline.launchCred_sum, ← bar8, Pipeline.cred_finsetSum]
    exact bigSep_mono fun j _ => Pipeline.launchCred_tallyAt (.reg barS) (pr j) (pr j) (pr_pr j) (pr_pr j) () 1 c
  · unfold Oex
    rw [Pipeline.launchCred_sum]
    refine bigSep_mono fun b _ => ?_
    rw [Pipeline.launchCred_sum]
    exact bigSep_mono fun i _ => Pipeline.launchCred_tallyAt (.dma (dS ⟨xrN b.val i.val, xrN_lt b i⟩)) (pr 0) (pr 0) (pr_pr 0) (pr_pr 0) () (Nx i) c
  · unfold Oag
    rw [Pipeline.launchCred_sum]
    refine bigSep_mono fun b _ => ?_
    rw [Pipeline.launchCred_sum]
    exact bigSep_mono fun i _ => Pipeline.launchCred_tallyAt (.dma (dS ⟨arN b.val i.val, arN_lt b i⟩)) (pr i.succ) (pr i.succ) (pr_pr i.succ) (pr_pr i.succ) () Ng c

/-- info: 'Cert.Kernel.Flash.creds' depends on axioms: [propext, Classical.choice, Quot.sound] -/
#guard_msgs in #print axioms creds

/-- info: 'Cert.Kernel.Flash.mayWait_xr' depends on axioms: [propext, Classical.choice, Quot.sound] -/
#guard_msgs in #print axioms mayWait_xr

end Cert.Kernel.Flash

end
-- ==== Proof.Word.BodyDefs.lean ====
/-
  Each device's proof data for the launch: what its two staging buffers hold after the body (the staged query
  array as it was; the result buffer at the merged blocks of all eight heads), the invariant before and after
  the one grid point, and what the device owes; and the body's pre- and postcondition in the form the launch
  theorem hands them over.
-/
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.Levels
import proofs.«900786_g7700000000000787_dist_flashdec_v7x_xyz2x2x4_x_b4_sq32_skv4096_h8_d128_f32_1_alg».proof.Proof.Gen.Kernel.Frame

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The keys' and values' blocks in HBM, as launched: the body reads them and hands them back. -/
def kvPts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2)))

/-- The credit the launch deals a device: eight units on its barrier, the landings of the exchange and of the gather. -/
def credsAt (c : Dev nD) : sProp 𝕄 :=
  iprop(cred (tallyAt (barCell c) () 8)
    ∗ (bigSep Finset.univ fun b : Fin 4 => bigSep Finset.univ fun i : Fin 2 => cred (tallyAt (dCell c ⟨xrN b.val i.val, xrN_lt b i⟩) () (Nx i)))
    ∗ (bigSep Finset.univ fun b : Fin 4 => bigSep Finset.univ fun i : Fin 7 => cred (tallyAt (dCell c ⟨arN b.val i.val, arN_lt b i⟩) () Ng)))

/-- What a device's body starts from, besides its scratch buffers. -/
def start (c : Dev nD) : sProp 𝕄 :=
  iprop((∃ K, ghost (Rd m) K c) ∗ credsAt c ∗ levAts L lv ∗ kvPts m c)

def Φ₀ (c : Dev nD) : sProp 𝕄 := iprop(start m c ∗ Pipeline.scopedRest cfg0.spec c)
/-- After the point: the HBM blocks as they were, the kernel's eighty semaphores at zero, the scratch buffers at something. -/
def Φ₁ (c : Dev nD) : sProp 𝕄 :=
  iprop(kvPts m c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => Qst m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Option (Fin 80) → ℕ) (c : Dev nD) : sProp 𝕄 :=
  iprop((ghost (Rd m) K c ∗ credsAt c ∗ levAts L lv ∗ kvPts m c ∗ Pipeline.scopedRest cfg0.spec c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (Qst m c) ∗ stg c cc0_stg1_0 (outC m c))

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m 0 c).share w = fullShare := by unfold Dat.share; split <;> rfl

end Cert.Kernel.Flash

end
-- ==== Proof.Word.Chains.lean ====
/-
  Iterated separating conjunctions over the small index types of the protocol, written out as right-nested
  chains in index order: four batches, eight duties, seven other heads by four batches, eighty cell numbers.
-/
import Idealize.ShloMosaic.Lib.Pipeline.Kit
import Mathlib.Data.Fintype.Prod

namespace Cert.Kernel.Flash

open Idealize.SL Idealize.SL.RA Idealize.SL.BI
open scoped Idealize.SL.BI
open Idealize.SL.BI.BIBase

variable {M : Type} [URA M]

theorem bigSep_fin4 (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem bigSep_fin7 (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem bigSep_fin8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Seven by four, the first index the slower. -/
theorem bigSep_fin7x4 (Φ : Fin 7 → Fin 4 → sProp M) :
    (bigSep Finset.univ fun i : Fin 7 => bigSep Finset.univ fun b : Fin 4 => Φ i b)
      = iprop(Φ 0 0 ∗ Φ 0 1 ∗ Φ 0 2 ∗ Φ 0 3 ∗ Φ 1 0 ∗ Φ 1 1 ∗ Φ 1 2 ∗ Φ 1 3 ∗ Φ 2 0 ∗ Φ 2 1 ∗ Φ 2 2 ∗ Φ 2 3 ∗ Φ 3 0 ∗ Φ 3 1 ∗ Φ 3 2 ∗ Φ 3 3 ∗ Φ 4 0 ∗ Φ 4 1 ∗ Φ 4 2 ∗ Φ 4 3 ∗ Φ 5 0 ∗ Φ 5 1 ∗ Φ 5 2 ∗ Φ 5 3 ∗ Φ 6 0 ∗ Φ 6 1 ∗ Φ 6 2 ∗ Φ 6 3) := by
  rw [← bigSep_univ_prod (fun ib : Fin 7 × Fin 4 => Φ ib.1 ib.2)]
  exact bigSep_univ_eq_bigSepL [((0 : Fin 7), (0 : Fin 4)), ((0 : Fin 7), (1 : Fin 4)), ((0 : Fin 7), (2 : Fin 4)), ((0 : Fin 7), (3 : Fin 4)), ((1 : Fin 7), (0 : Fin 4)), ((1 : Fin 7), (1 : Fin 4)), ((1 : Fin 7), (2 : Fin 4)), ((1 : Fin 7), (3 : Fin 4)), ((2 : Fin 7), (0 : Fin 4)), ((2 : Fin 7), (1 : Fin 4)), ((2 : Fin 7), (2 : Fin 4)), ((2 : Fin 7), (3 : Fin 4)), ((3 : Fin 7), (0 : Fin 4)), ((3 : Fin 7), (1 : Fin 4)), ((3 : Fin 7), (2 : Fin 4)), ((3 : Fin 7), (3 : Fin 4)), ((4 : Fin 7), (0 : Fin 4)), ((4 : Fin 7), (1 : Fin 4)), ((4 : Fin 7), (2 : Fin 4)), ((4 : Fin 7), (3 : Fin 4)), ((5 : Fin 7), (0 : Fin 4)), ((5 : Fin 7), (1 : Fin 4)), ((5 : Fin 7), (2 : Fin 4)), ((5 : Fin 7), (3 : Fin 4)), ((6 : Fin 7), (0 : Fin 4)), ((6 : Fin 7), (1 : Fin 4)), ((6 : Fin 7), (2 : Fin 4)), ((6 : Fin 7), (3 : Fin 4))]
    (by decide) (by decide) (fun ib : Fin 7 × Fin 4 => Φ ib.1 ib.2)

/-- Four by two, the first index the slower. -/
theorem bigSep_fin4x2 (Φ : Fin 4 → Fin 2 → sProp M) :
    (bigSep Finset.univ fun b : Fin 4 => bigSep Finset.univ fun i : Fin 2 => Φ b i)
      = iprop(Φ 0 0 ∗ Φ 0 1 ∗ Φ 1 0 ∗ Φ 1 1 ∗ Φ 2 0 ∗ Φ 2 1 ∗ Φ 3 0 ∗ Φ 3 1) := by
  rw [← bigSep_univ_prod (fun bi : Fin 4 × Fin 2 => Φ bi.1 bi.2)]
  exact bigSep_univ_eq_bigSepL [((0 : Fin 4), (0 : Fin 2)), ((0 : Fin 4), (1 : Fin 2)), ((1 : Fin 4), (0 : Fin 2)), ((1 : Fin 4), (1 : Fin 2)), ((2 : Fin 4), (0 : Fin 2)), ((2 : Fin 4), (1 : Fin 2)), ((3 : Fin 4), (0 : Fin 2)), ((3 : Fin 4), (1 : Fin 2))]
    (by decide) (by decide) (fun bi : Fin 4 × Fin 2 => Φ bi.1 bi.2)

/-- Four by seven, the first index the slower. -/
theorem bigSep_fin4x7 (Φ : Fin 4 → Fin 7 → sProp M) :
    (bigSep Finset.univ fun b : Fin 4 => bigSep Finset.univ fun i : Fin 7 => Φ b i)
      = iprop(Φ 0 0 ∗ Φ 0 1 ∗ Φ 0 2 ∗ Φ 0 3 ∗ Φ 0 4 ∗ Φ 0 5 ∗ Φ 0 6 ∗ Φ 1 0 ∗ Φ 1 1 ∗ Φ 1 2 ∗ Φ 1 3 ∗ Φ 1 4 ∗ Φ 1 5 ∗ Φ 1 6 ∗ Φ 2 0 ∗ Φ 2 1 ∗ Φ 2 2 ∗ Φ 2 3 ∗ Φ 2 4 ∗ Φ 2 5 ∗ Φ 2 6 ∗ Φ 3 0 ∗ Φ 3 1 ∗ Φ 3 2 ∗ Φ 3 3 ∗ Φ 3 4 ∗ Φ 3 5 ∗ Φ 3 6) := by
  rw [← bigSep_univ_prod (fun bi : Fin 4 × Fin 7 => Φ bi.1 bi.2)]
  exact bigSep_univ_eq_bigSepL [((0 : Fin 4), (0 : Fin 7)), ((0 : Fin 4), (1 : Fin 7)), ((0 : Fin 4), (2 : Fin 7)), ((0 : Fin 4), (3 : Fin 7)), ((0 : Fin 4), (4 : Fin 7)), ((0 : Fin 4), (5 : Fin 7)), ((0 : Fin 4), (6 : Fin 7)), ((1 : Fin 4), (0 : Fin 7)), ((1 : Fin 4), (1 : Fin 7)), ((1 : Fin 4), (2 : Fin 7)), ((1 : Fin 4), (3 : Fin 7)), ((1 : Fin 4), (4 : Fin 7)), ((1 : Fin 4), (5 : Fin 7)), ((1 : Fin 4), (6 : Fin 7)), ((2 : Fin 4), (0 : Fin 7)), ((2 : Fin 4), (1 : Fin 7)), ((2 : Fin 4), (2 : Fin 7)), ((2 : Fin 4), (3 : Fin 7)), ((2 : Fin 4), (4 : Fin 7)), ((2 : Fin 4), (5 : Fin 7)), ((2 : Fin 4), (6 : Fin 7)), ((3 : Fin 4), (0 : Fin 7)), ((3 : Fin 4), (1 : Fin 7)), ((3 : Fin 4), (2 : Fin 7)), ((3 : Fin 4), (3 : Fin 7)), ((3 : Fin 4), (4 : Fin 7)), ((3 : Fin 4), (5 : Fin 7)), ((3 : Fin 4), (6 : Fin 7))]
    (by decide) (by decide) (fun bi : Fin 4 × Fin 7 => Φ bi.1 bi.2)

set_option maxRecDepth 4000 in
theorem bigSep_fin80 (Φ : Fin 80 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79) :=
  bigSep_univ_eq_bigSepL [(0 : Fin 80), 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79] (by decide) (by decide) Φ

/-- info: 'Cert.Kernel.Flash.bigSep_fin80' depends on axioms: [propext, Classical.choice, Quot.sound] -/
#guard_msgs in #print axioms bigSep_fin80

end Cert.Kernel.Flash
-- ==== Proof.Word.GlueGhost.lean ====
/-
  The launch's holdings of a device, taken apart into the body's own resources one by one, and the eighty closed
  semaphores put back together at the end: the ghost state as the records, the 81 positions and the 88 tokens;
  the launch credit as the barrier's eight units and the 36 landings' credits; the semaphores at zero.
-/
import proofs.«900786_g7700000000000787_dist_flashdec_v7x_xyz2x2x4_x_b4_sq32_skv4096_h8_d128_f32_1_alg».proof.Proof.Word.BodyDefs
import proofs.«900786_g7700000000000787_dist_flashdec_v7x_xyz2x2x4_x_b4_sq32_skv4096_h8_d128_f32_1_alg».proof.Proof.Word.Chains

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The ghost state -/

set_option maxRecDepth 8000 in
/-- The records; the barrier position and the eighty DMA positions; the eight barrier tokens; the eighty DMA tokens. -/
theorem ghost_unpack : (ghost (Rd m) K c : sProp 𝕄)
    ⊢ iprop(Rec m K ∗ posB c
        ∗ (posD c 0 ∗ posD c 1 ∗ posD c 2 ∗ posD c 3 ∗ posD c 4 ∗ posD c 5 ∗ posD c 6 ∗ posD c 7 ∗ posD c 8 ∗ posD c 9 ∗ posD c 10 ∗ posD c 11 ∗ posD c 12 ∗ posD c 13 ∗ posD c 14 ∗ posD c 15 ∗ posD c 16 ∗ posD c 17 ∗ posD c 18 ∗ posD c 19 ∗ posD c 20 ∗ posD c 21 ∗ posD c 22 ∗ posD c 23 ∗ posD c 24 ∗ posD c 25 ∗ posD c 26 ∗ posD c 27 ∗ posD c 28 ∗ posD c 29 ∗ posD c 30 ∗ posD c 31 ∗ posD c 32 ∗ posD c 33 ∗ posD c 34 ∗ posD c 35 ∗ posD c 36 ∗ posD c 37 ∗ posD c 38 ∗ posD c 39 ∗ posD c 40 ∗ posD c 41 ∗ posD c 42 ∗ posD c 43 ∗ posD c 44 ∗ posD c 45 ∗ posD c 46 ∗ posD c 47 ∗ posD c 48 ∗ posD c 49 ∗ posD c 50 ∗ posD c 51 ∗ posD c 52 ∗ posD c 53 ∗ posD c 54 ∗ posD c 55 ∗ posD c 56 ∗ posD c 57 ∗ posD c 58 ∗ posD c 59 ∗ posD c 60 ∗ posD c 61 ∗ posD c 62 ∗ posD c 63 ∗ posD c 64 ∗ posD c 65 ∗ posD c 66 ∗ posD c 67 ∗ posD c 68 ∗ posD c 69 ∗ posD c 70 ∗ posD c 71 ∗ posD c 72 ∗ posD c 73 ∗ posD c 74 ∗ posD c 75 ∗ posD c 76 ∗ posD c 77 ∗ posD c 78 ∗ posD c 79)
        ∗ (tokB c 0 ∗ tokB c 1 ∗ tokB c 2 ∗ tokB c 3 ∗ tokB c 4 ∗ tokB c 5 ∗ tokB c 6 ∗ tokB c 7)
        ∗ (tokD c 0 ∗ tokD c 1 ∗ tokD c 2 ∗ tokD c 3 ∗ tokD c 4 ∗ tokD c 5 ∗ tokD c 6 ∗ tokD c 7 ∗ tokD c 8 ∗ tokD c 9 ∗ tokD c 10 ∗ tokD c 11 ∗ tokD c 12 ∗ tokD c 13 ∗ tokD c 14 ∗ tokD c 15 ∗ tokD c 16 ∗ tokD c 17 ∗ tokD c 18 ∗ tokD c 19 ∗ tokD c 20 ∗ tokD c 21 ∗ tokD c 22 ∗ tokD c 23 ∗ tokD c 24 ∗ tokD c 25 ∗ tokD c 26 ∗ tokD c 27 ∗ tokD c 28 ∗ tokD c 29 ∗ tokD c 30 ∗ tokD c 31 ∗ tokD c 32 ∗ tokD c 33 ∗ tokD c 34 ∗ tokD c 35 ∗ tokD c 36 ∗ tokD c 37 ∗ tokD c 38 ∗ tokD c 39 ∗ tokD c 40 ∗ tokD c 41 ∗ tokD c 42 ∗ tokD c 43 ∗ tokD c 44 ∗ tokD c 45 ∗ tokD c 46 ∗ tokD c 47 ∗ tokD c 48 ∗ tokD c 49 ∗ tokD c 50 ∗ tokD c 51 ∗ tokD c 52 ∗ tokD c 53 ∗ tokD c 54 ∗ tokD c 55 ∗ tokD c 56 ∗ tokD c 57 ∗ tokD c 58 ∗ tokD c 59 ∗ tokD c 60 ∗ tokD c 61 ∗ tokD c 62 ∗ tokD c 63 ∗ tokD c 64 ∗ tokD c 65 ∗ tokD c 66 ∗ tokD c 67 ∗ tokD c 68 ∗ tokD c 69 ∗ tokD c 70 ∗ tokD c 71 ∗ tokD c 72 ∗ tokD c 73 ∗ tokD c 74 ∗ tokD c 75 ∗ tokD c 76 ∗ tokD c 77 ∗ tokD c 78 ∗ tokD c 79)) := by
  unfold ghost linear payToks
  rw [bigSep_univ_option, bigSep_fin80, bigSep_fin8, bigSep_fin80]
  iintro ⟨HR, ⟨HpB, HpD⟩, HtB, HtD⟩
  isplitl [HR]; · iexact HR
  isplitl [HpB]; · iexact HpB
  isplitl [HpD]; · iexact HpD
  isplitl [HtB]; · iexact HtB
  iexact HtD

/-! ## The launch credit -/

/-- The credit of an exchange landing is what the schedule says the receive cell's duty amounts to; -/
theorem amt_xr (b : Fin 4) (i : Fin 2) : roleAmt (roleOf (nXr b i)) = Nx i := by
  rw [show nXr b i = (Role.xr b i).num from rfl, roleOf_num]
  fin_cases i <;> rfl
/-- and so is a merged block's. -/
theorem amt_gr (b : Fin 4) (i : Fin 7) : roleAmt (roleOf (nGr b i)) = Ng := by
  rw [show nGr b i = (Role.gr b i).num from rfl, roleOf_num]
  rfl

omit [FloatOps F] in
theorem credsAt_eq : (credsAt (F := F) c : sProp 𝕄)
    = iprop(crB c ∗ (bigSep Finset.univ fun b : Fin 4 => bigSep Finset.univ fun i : Fin 2 => crD (F := F) c (nXr b i))
        ∗ (bigSep Finset.univ fun b : Fin 4 => bigSep Finset.univ fun i : Fin 7 => crD (F := F) c (nGr b i))) := by
  unfold credsAt
  rw [bigSep_congr (s := Finset.univ) (fun (b : Fin 4) _ => bigSep_congr (s := Finset.univ) fun (i : Fin 2) _ =>
        show (cred (tallyAt (dCell c ⟨xrN b.val i.val, xrN_lt b i⟩) () (Nx i)) : sProp 𝕄) = crD (F := F) c (nXr b i) from by rw [← amt_xr b i]),
    bigSep_congr (s := Finset.univ) (fun (b : Fin 4) _ => bigSep_congr (s := Finset.univ) fun (i : Fin 7) _ =>
        show (cred (tallyAt (dCell c ⟨arN b.val i.val, arN_lt b i⟩) () Ng) : sProp 𝕄) = crD (F := F) c (nGr b i) from by rw [← amt_gr b i])]

omit [FloatOps F] in
/-- The barrier's eight units; the exchange's eight receive cells; the merged blocks' twenty-eight receive cells. -/
theorem creds_unpack : (credsAt (F := F) c : sProp 𝕄)
    ⊢ iprop(crB c
        ∗ (crD (F := F) c 16 ∗ crD (F := F) c 17 ∗ crD (F := F) c 18 ∗ crD (F := F) c 19 ∗ crD (F := F) c 20 ∗ crD (F := F) c 21 ∗ crD (F := F) c 22 ∗ crD (F := F) c 23)
        ∗ (crD (F := F) c 52 ∗ crD (F := F) c 53 ∗ crD (F := F) c 54 ∗ crD (F := F) c 55 ∗ crD (F := F) c 56 ∗ crD (F := F) c 57 ∗ crD (F := F) c 58 ∗ crD (F := F) c 59 ∗ crD (F := F) c 60 ∗ crD (F := F) c 61 ∗ crD (F := F) c 62 ∗ crD (F := F) c 63 ∗ crD (F := F) c 64 ∗ crD (F := F) c 65 ∗ crD (F := F) c 66 ∗ crD (F := F) c 67 ∗ crD (F := F) c 68 ∗ crD (F := F) c 69 ∗ crD (F := F) c 70 ∗ crD (F := F) c 71 ∗ crD (F := F) c 72 ∗ crD (F := F) c 73 ∗ crD (F := F) c 74 ∗ crD (F := F) c 75 ∗ crD (F := F) c 76 ∗ crD (F := F) c 77 ∗ crD (F := F) c 78 ∗ crD (F := F) c 79)) := by
  rw [credsAt_eq, bigSep_fin4x2 (fun b i => crD (F := F) c (nXr b i)), bigSep_fin4x7 (fun b i => crD (F := F) c (nGr b i))]
  exact .rfl

/-! ## The semaphores at zero, handed back -/

set_option maxRecDepth 8000 in
omit [FloatOps F] in
theorem sems_pack : iprop(svD (F := F) c 0 ∗ svD (F := F) c 1 ∗ svD (F := F) c 2 ∗ svD (F := F) c 3 ∗ svD (F := F) c 4 ∗ svD (F := F) c 5 ∗ svD (F := F) c 6 ∗ svD (F := F) c 7 ∗ svD (F := F) c 8 ∗ svD (F := F) c 9 ∗ svD (F := F) c 10 ∗ svD (F := F) c 11 ∗ svD (F := F) c 12 ∗ svD (F := F) c 13 ∗ svD (F := F) c 14 ∗ svD (F := F) c 15 ∗ svD (F := F) c 16 ∗ svD (F := F) c 17 ∗ svD (F := F) c 18 ∗ svD (F := F) c 19 ∗ svD (F := F) c 20 ∗ svD (F := F) c 21 ∗ svD (F := F) c 22 ∗ svD (F := F) c 23 ∗ svD (F := F) c 24 ∗ svD (F := F) c 25 ∗ svD (F := F) c 26 ∗ svD (F := F) c 27 ∗ svD (F := F) c 28 ∗ svD (F := F) c 29 ∗ svD (F := F) c 30 ∗ svD (F := F) c 31 ∗ svD (F := F) c 32 ∗ svD (F := F) c 33 ∗ svD (F := F) c 34 ∗ svD (F := F) c 35 ∗ svD (F := F) c 36 ∗ svD (F := F) c 37 ∗ svD (F := F) c 38 ∗ svD (F := F) c 39 ∗ svD (F := F) c 40 ∗ svD (F := F) c 41 ∗ svD (F := F) c 42 ∗ svD (F := F) c 43 ∗ svD (F := F) c 44 ∗ svD (F := F) c 45 ∗ svD (F := F) c 46 ∗ svD (F := F) c 47 ∗ svD (F := F) c 48 ∗ svD (F := F) c 49 ∗ svD (F := F) c 50 ∗ svD (F := F) c 51 ∗ svD (F := F) c 52 ∗ svD (F := F) c 53 ∗ svD (F := F) c 54 ∗ svD (F := F) c 55 ∗ svD (F := F) c 56 ∗ svD (F := F) c 57 ∗ svD (F := F) c 58 ∗ svD (F := F) c 59 ∗ svD (F := F) c 60 ∗ svD (F := F) c 61 ∗ svD (F := F) c 62 ∗ svD (F := F) c 63 ∗ svD (F := F) c 64 ∗ svD (F := F) c 65 ∗ svD (F := F) c 66 ∗ svD (F := F) c 67 ∗ svD (F := F) c 68 ∗ svD (F := F) c 69 ∗ svD (F := F) c 70 ∗ svD (F := F) c 71 ∗ svD (F := F) c 72 ∗ svD (F := F) c 73 ∗ svD (F := F) c 74 ∗ svD (F := F) c 75 ∗ svD (F := F) c 76 ∗ svD (F := F) c 77 ∗ svD (F := F) c 78 ∗ svD (F := F) c 79)
    ⊢ (Pipeline.ownSems0 (Ix := Unit) (Name := ℕ) (U := UU) (Lvl := ℕ) (Val := Elt F) (τ := τ) osem c : sProp 𝕄) := by
  unfold Pipeline.ownSems0
  rw [bigSep_fin80]

/-- info: 'Cert.Kernel.Flash.ghost_unpack' depends on axioms: [propext, Classical.choice, Quot.sound] -/
#guard_msgs in #print axioms ghost_unpack

/-- info: 'Cert.Kernel.Flash.creds_unpack' depends on axioms: [propext, Classical.choice, Quot.sound] -/
#guard_msgs in #print axioms creds_unpack

/-- info: 'Cert.Kernel.Flash.sems_pack' depends on axioms: [propext, Classical.choice, Quot.sound] -/
#guard_msgs in #print axioms sems_pack

end Cert.Kernel.Flash

end
-- ==== Proof.Word.Regions.lean ====
/-
  The six scratch buffers of a device, cut batch by batch.

  Each of the six scratch buffers has the four batches on its first axis, and every copy of the kernel
  reads or writes the slice of one batch: the rectangle with the one index b on the first axis and whole
  on the others. The four rectangles are pairwise disjoint (they differ on the first axis) and cover the
  buffer (an element lies in the rectangle of its own first coordinate). So a buffer held whole at the
  full share, at any contents, is the separating conjunction of its four batch slices held at the full
  share at the same contents.
-/
import proofs.«900786_g7700000000000787_dist_flashdec_v7x_xyz2x2x4_x_b4_sq32_skv4096_h8_d128_f32_1_alg».proof.Proof.Word.Proto
import Idealize.ShloMosaic.Lib.Ring

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of batch b's slice of the keys' scratch buffer. -/
def scratch0_set (c : Dev nD) (b : Fin 4) : Finset (Idx ((Memref.whole cc0_scratch0).view.loc (c : Thread nD τ))) :=
  (kvDst b.val b.isLt (Memref.whole cc0_scratch0)).view.set

/-- They are the rectangle of the one batch index b, whole on the other axes. -/
theorem scratch0_set_eq (c : Dev nD) (b : Fin 4) :
    scratch0_set c b = (Rect.unit (s := S4x4096x1x128) ![b.val, 0, 0, 0] S1x4096x1x128.size (inbK b.val b.isLt)).set := by
  unfold scratch0_set
  simp only [Memref.view_squeeze, Memref.view_slice, Memref.view_whole, View.set_reshape, View.set_slice_whole]

theorem scratch0_set_disjoint (c : Dev nD) (b b' : Fin 4) (hbb : b ≠ b') : Disjoint (scratch0_set c b) (scratch0_set c b') := by
  rw [scratch0_set_eq, scratch0_set_eq]
  refine Rect.unit_disjoint (0 : Fin 4) ?_
  have : b.val ≠ b'.val := fun h => hbb (Fin.ext h)
  show b.val + 1 ≤ b'.val ∨ b'.val + 1 ≤ b.val
  omega

theorem scratch0_set_cover (c : Dev nD) : Finset.univ.biUnion (scratch0_set c) = Finset.univ := by
  refine Finset.eq_univ_iff_forall.mpr fun i => ?_
  refine Finset.mem_biUnion.mpr ⟨⟨(i 0).val, (i 0).isLt⟩, Finset.mem_univ _, ?_⟩
  rw [scratch0_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩
  | ⟨3, _⟩ => exact ⟨Nat.zero_le _, Nat.lt_of_lt_of_le (i _).isLt (Nat.le_add_left _ _)⟩

/-- The keys' scratch buffer, held whole, is held batch by batch. -/
theorem scratch0_batches (c : Dev nD) (f : Buf (Elt F) ((Memref.whole cc0_scratch0).view.loc (c : Thread nD τ))) :
    ((Memref.whole cc0_scratch0).view.loc (c : Thread nD τ) ↦{fullShare} f : sProp 𝕄)
      = bigSep Finset.univ fun b : Fin 4 =>
          ((kvDst b.val b.isLt (Memref.whole cc0_scratch0)).view.loc (c : Thread nD τ)
            ↦[(kvDst b.val b.isLt (Memref.whole cc0_scratch0)).view.set]{fullShare} f : sProp 𝕄) :=
  Ring.pointsTo_blocks (scratch0_set c) (scratch0_set_disjoint c) (scratch0_set_cover c) f

/-- The elements of batch b's slice of the values' scratch buffer. -/
def scratch1_set (c : Dev nD) (b : Fin 4) : Finset (Idx ((Memref.whole cc0_scratch1).view.loc (c : Thread nD τ))) :=
  (kvDst b.val b.isLt (Memref.whole cc0_scratch1)).view.set

/-- They are the rectangle of the one batch index b, whole on the other axes. -/
theorem scratch1_set_eq (c : Dev nD) (b : Fin 4) :
    scratch1_set c b = (Rect.unit (s := S4x4096x1x128) ![b.val, 0, 0, 0] S1x4096x1x128.size (inbK b.val b.isLt)).set := by
  unfold scratch1_set
  simp only [Memref.view_squeeze, Memref.view_slice, Memref.view_whole, View.set_reshape, View.set_slice_whole]

theorem scratch1_set_disjoint (c : Dev nD) (b b' : Fin 4) (hbb : b ≠ b') : Disjoint (scratch1_set c b) (scratch1_set c b') := by
  rw [scratch1_set_eq, scratch1_set_eq]
  refine Rect.unit_disjoint (0 : Fin 4) ?_
  have : b.val ≠ b'.val := fun h => hbb (Fin.ext h)
  show b.val + 1 ≤ b'.val ∨ b'.val + 1 ≤ b.val
  omega

theorem scratch1_set_cover (c : Dev nD) : Finset.univ.biUnion (scratch1_set c) = Finset.univ := by
  refine Finset.eq_univ_iff_forall.mpr fun i => ?_
  refine Finset.mem_biUnion.mpr ⟨⟨(i 0).val, (i 0).isLt⟩, Finset.mem_univ _, ?_⟩
  rw [scratch1_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩
  | ⟨3, _⟩ => exact ⟨Nat.zero_le _, Nat.lt_of_lt_of_le (i _).isLt (Nat.le_add_left _ _)⟩

/-- The values' scratch buffer, held whole, is held batch by batch. -/
theorem scratch1_batches (c : Dev nD) (f : Buf (Elt F) ((Memref.whole cc0_scratch1).view.loc (c : Thread nD τ))) :
    ((Memref.whole cc0_scratch1).view.loc (c : Thread nD τ) ↦{fullShare} f : sProp 𝕄)
      = bigSep Finset.univ fun b : Fin 4 =>
          ((kvDst b.val b.isLt (Memref.whole cc0_scratch1)).view.loc (c : Thread nD τ)
            ↦[(kvDst b.val b.isLt (Memref.whole cc0_scratch1)).view.set]{fullShare} f : sProp 𝕄) :=
  Ring.pointsTo_blocks (scratch1_set c) (scratch1_set_disjoint c) (scratch1_set_cover c) f

/-- The elements of batch b's slice of the buffer of the device's own weighted sums. -/
def scratch2_set (c : Dev nD) (b : Fin 4) : Finset (Idx ((Memref.whole cc0_scratch2).view.loc (c : Thread nD τ))) :=
  (oSl b.val b.isLt (Memref.whole cc0_scratch2)).view.set

/-- They are the rectangle of the one batch index b, whole on the other axes. -/
theorem scratch2_set_eq (c : Dev nD) (b : Fin 4) :
    scratch2_set c b = (Rect.unit (s := S4x32x128) ![b.val, 0, 0] S1x32x128.size (inbO b.val b.isLt)).set := by
  unfold scratch2_set
  simp only [Memref.view_squeeze, Memref.view_slice, Memref.view_whole, View.set_reshape, View.set_slice_whole]

theorem scratch2_set_disjoint (c : Dev nD) (b b' : Fin 4) (hbb : b ≠ b') : Disjoint (scratch2_set c b) (scratch2_set c b') := by
  rw [scratch2_set_eq, scratch2_set_eq]
  refine Rect.unit_disjoint (0 : Fin 3) ?_
  have : b.val ≠ b'.val := fun h => hbb (Fin.ext h)
  show b.val + 1 ≤ b'.val ∨ b'.val + 1 ≤ b.val
  omega

theorem scratch2_set_cover (c : Dev nD) : Finset.univ.biUnion (scratch2_set c) = Finset.univ := by
  refine Finset.eq_univ_iff_forall.mpr fun i => ?_
  refine Finset.mem_biUnion.mpr ⟨⟨(i 0).val, (i 0).isLt⟩, Finset.mem_univ _, ?_⟩
  rw [scratch2_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The buffer of the device's own weighted sums, held whole, is held batch by batch. -/
theorem scratch2_batches (c : Dev nD) (f : Buf (Elt F) ((Memref.whole cc0_scratch2).view.loc (c : Thread nD τ))) :
    ((Memref.whole cc0_scratch2).view.loc (c : Thread nD τ) ↦{fullShare} f : sProp 𝕄)
      = bigSep Finset.univ fun b : Fin 4 =>
          ((oSl b.val b.isLt (Memref.whole cc0_scratch2)).view.loc (c : Thread nD τ)
            ↦[(oSl b.val b.isLt (Memref.whole cc0_scratch2)).view.set]{fullShare} f : sProp 𝕄) :=
  Ring.pointsTo_blocks (scratch2_set c) (scratch2_set_disjoint c) (scratch2_set_cover c) f

/-- The elements of batch b's slice of the landing buffer of the other half's weighted sums. -/
def scratch4_set (c : Dev nD) (b : Fin 4) : Finset (Idx ((Memref.whole cc0_scratch4).view.loc (c : Thread nD τ))) :=
  (oSl b.val b.isLt (Memref.whole cc0_scratch4)).view.set

/-- They are the rectangle of the one batch index b, whole on the other axes. -/
theorem scratch4_set_eq (c : Dev nD) (b : Fin 4) :
    scratch4_set c b = (Rect.unit (s := S4x32x128) ![b.val, 0, 0] S1x32x128.size (inbO b.val b.isLt)).set := by
  unfold scratch4_set
  simp only [Memref.view_squeeze, Memref.view_slice, Memref.view_whole, View.set_reshape, View.set_slice_whole]

theorem scratch4_set_disjoint (c : Dev nD) (b b' : Fin 4) (hbb : b ≠ b') : Disjoint (scratch4_set c b) (scratch4_set c b') := by
  rw [scratch4_set_eq, scratch4_set_eq]
  refine Rect.unit_disjoint (0 : Fin 3) ?_
  have : b.val ≠ b'.val := fun h => hbb (Fin.ext h)
  show b.val + 1 ≤ b'.val ∨ b'.val + 1 ≤ b.val
  omega

theorem scratch4_set_cover (c : Dev nD) : Finset.univ.biUnion (scratch4_set c) = Finset.univ := by
  refine Finset.eq_univ_iff_forall.mpr fun i => ?_
  refine Finset.mem_biUnion.mpr ⟨⟨(i 0).val, (i 0).isLt⟩, Finset.mem_univ _, ?_⟩
  rw [scratch4_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The landing buffer of the other half's weighted sums, held whole, is held batch by batch. -/
theorem scratch4_batches (c : Dev nD) (f : Buf (Elt F) ((Memref.whole cc0_scratch4).view.loc (c : Thread nD τ))) :
    ((Memref.whole cc0_scratch4).view.loc (c : Thread nD τ) ↦{fullShare} f : sProp 𝕄)
      = bigSep Finset.univ fun b : Fin 4 =>
          ((oSl b.val b.isLt (Memref.whole cc0_scratch4)).view.loc (c : Thread nD τ)
            ↦[(oSl b.val b.isLt (Memref.whole cc0_scratch4)).view.set]{fullShare} f : sProp 𝕄) :=
  Ring.pointsTo_blocks (scratch4_set c) (scratch4_set_disjoint c) (scratch4_set_cover c) f

/-- The elements of batch b's slice of the buffer of the device's own row sums. -/
def scratch3_set (c : Dev nD) (b : Fin 4) : Finset (Idx ((Memref.whole cc0_scratch3).view.loc (c : Thread nD τ))) :=
  (lSl b.val b.isLt (Memref.whole cc0_scratch3)).view.set

/-- They are the rectangle of the one batch index b, whole on the other axes. -/
theorem scratch3_set_eq (c : Dev nD) (b : Fin 4) :
    scratch3_set c b = (Rect.unit (s := S4x32x1) ![b.val, 0, 0] S1x32x1.size (inbL b.val b.isLt)).set := by
  unfold scratch3_set
  simp only [Memref.view_squeeze, Memref.view_slice, Memref.view_whole, View.set_reshape, View.set_slice_whole]

theorem scratch3_set_disjoint (c : Dev nD) (b b' : Fin 4) (hbb : b ≠ b') : Disjoint (scratch3_set c b) (scratch3_set c b') := by
  rw [scratch3_set_eq, scratch3_set_eq]
  refine Rect.unit_disjoint (0 : Fin 3) ?_
  have : b.val ≠ b'.val := fun h => hbb (Fin.ext h)
  show b.val + 1 ≤ b'.val ∨ b'.val + 1 ≤ b.val
  omega

theorem scratch3_set_cover (c : Dev nD) : Finset.univ.biUnion (scratch3_set c) = Finset.univ := by
  refine Finset.eq_univ_iff_forall.mpr fun i => ?_
  refine Finset.mem_biUnion.mpr ⟨⟨(i 0).val, (i 0).isLt⟩, Finset.mem_univ _, ?_⟩
  rw [scratch3_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The buffer of the device's own row sums, held whole, is held batch by batch. -/
theorem scratch3_batches (c : Dev nD) (f : Buf (Elt F) ((Memref.whole cc0_scratch3).view.loc (c : Thread nD τ))) :
    ((Memref.whole cc0_scratch3).view.loc (c : Thread nD τ) ↦{fullShare} f : sProp 𝕄)
      = bigSep Finset.univ fun b : Fin 4 =>
          ((lSl b.val b.isLt (Memref.whole cc0_scratch3)).view.loc (c : Thread nD τ)
            ↦[(lSl b.val b.isLt (Memref.whole cc0_scratch3)).view.set]{fullShare} f : sProp 𝕄) :=
  Ring.pointsTo_blocks (scratch3_set c) (scratch3_set_disjoint c) (scratch3_set_cover c) f

/-- The elements of batch b's slice of the landing buffer of the other half's row sums. -/
def scratch5_set (c : Dev nD) (b : Fin 4) : Finset (Idx ((Memref.whole cc0_scratch5).view.loc (c : Thread nD τ))) :=
  (lSl b.val b.isLt (Memref.whole cc0_scratch5)).view.set

/-- They are the rectangle of the one batch index b, whole on the other axes. -/
theorem scratch5_set_eq (c : Dev nD) (b : Fin 4) :
    scratch5_set c b = (Rect.unit (s := S4x32x1) ![b.val, 0, 0] S1x32x1.size (inbL b.val b.isLt)).set := by
  unfold scratch5_set
  simp only [Memref.view_squeeze, Memref.view_slice, Memref.view_whole, View.set_reshape, View.set_slice_whole]

theorem scratch5_set_disjoint (c : Dev nD) (b b' : Fin 4) (hbb : b ≠ b') : Disjoint (scratch5_set c b) (scratch5_set c b') := by
  rw [scratch5_set_eq, scratch5_set_eq]
  refine Rect.unit_disjoint (0 : Fin 3) ?_
  have : b.val ≠ b'.val := fun h => hbb (Fin.ext h)
  show b.val + 1 ≤ b'.val ∨ b'.val + 1 ≤ b.val
  omega

theorem scratch5_set_cover (c : Dev nD) : Finset.univ.biUnion (scratch5_set c) = Finset.univ := by
  refine Finset.eq_univ_iff_forall.mpr fun i => ?_
  refine Finset.mem_biUnion.mpr ⟨⟨(i 0).val, (i 0).isLt⟩, Finset.mem_univ _, ?_⟩
  rw [scratch5_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.zero_le _, Nat.lt_of_lt_of_le (i _).isLt (Nat.le_add_left _ _)⟩

/-- The landing buffer of the other half's row sums, held whole, is held batch by batch. -/
theorem scratch5_batches (c : Dev nD) (f : Buf (Elt F) ((Memref.whole cc0_scratch5).view.loc (c : Thread nD τ))) :
    ((Memref.whole cc0_scratch5).view.loc (c : Thread nD τ) ↦{fullShare} f : sProp 𝕄)
      = bigSep Finset.univ fun b : Fin 4 =>
          ((lSl b.val b.isLt (Memref.whole cc0_scratch5)).view.loc (c : Thread nD τ)
            ↦[(lSl b.val b.isLt (Memref.whole cc0_scratch5)).view.set]{fullShare} f : sProp 𝕄) :=
  Ring.pointsTo_blocks (scratch5_set c) (scratch5_set_disjoint c) (scratch5_set_cover c) f

/--
info: 'Cert.Kernel.Flash.scratch0_batches' depends on axioms: [propext, Classical.choice, Quot.sound]
-/
#guard_msgs in #print axioms scratch0_batches

end Cert.Kernel.Flash

end
-- ==== Proof.Word.Regions2.lean ====
/-
  The result's staging buffer cut row by row, a device's blocks of the keys and of the values cut into the
  rows its copies read and the rest, and the independence of a region points-to from contents off the region.

  The result's staging buffer [4, 32, 8, 128] is tiled by the thirty-two rectangles with one batch index on
  axis 0 and one head index on axis 2: two of them differ on one of those axes, and an element lies in the
  rectangle of its own batch and head. A device's block [4, 4096, 8, 128] of the keys (of the values) is read
  only through the four rectangles of its own head, one per batch; they are pairwise disjoint, and the
  buffer is those four and the complement of their union.
-/
import proofs.«900786_g7700000000000787_dist_flashdec_v7x_xyz2x2x4_x_b4_sq32_skv4096_h8_d128_f32_1_alg».proof.Proof.Word.Proto
import Idealize.ShloMosaic.Lib.Ring

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of the slice at batch b and head h of the result's staging buffer. -/
def stg1_set (c : Dev nD) (p : Fin 4 × Fin 8) : Finset (Idx ((Memref.whole cc0_stg1_0).view.loc (c : Thread nD τ))) :=
  (hSl p.1.val p.1.isLt p.2.val p.2.isLt (Memref.whole cc0_stg1_0)).view.set

/-- They are the rectangle of the one batch index and the one head index, whole on the two other axes. -/
theorem stg1_set_eq (c : Dev nD) (p : Fin 4 × Fin 8) :
    stg1_set c p = (Rect.unit (s := S4x32x8x128) ![p.1.val, 0, p.2.val, 0] S1x32x1x128.size
      (inbH p.1.val p.1.isLt p.2.val p.2.isLt)).set := by
  unfold stg1_set
  simp only [Memref.view_slice, Memref.view_whole, View.set_slice_whole]

theorem stg1_set_disjoint (c : Dev nD) (p p' : Fin 4 × Fin 8) (hpp : p ≠ p') : Disjoint (stg1_set c p) (stg1_set c p') := by
  rw [stg1_set_eq, stg1_set_eq]
  by_cases hb : p.1 = p'.1
  · have hh : p.2 ≠ p'.2 := fun e => hpp (Prod.ext hb e)
    refine Rect.unit_disjoint (2 : Fin 4) ?_
    have : p.2.val ≠ p'.2.val := fun e => hh (Fin.ext e)
    show p.2.val + 1 ≤ p'.2.val ∨ p'.2.val + 1 ≤ p.2.val
    omega
  · refine Rect.unit_disjoint (0 : Fin 4) ?_
    have : p.1.val ≠ p'.1.val := fun e => hb (Fin.ext e)
    show p.1.val + 1 ≤ p'.1.val ∨ p'.1.val + 1 ≤ p.1.val
    omega

theorem stg1_set_cover (c : Dev nD) : Finset.univ.biUnion (stg1_set c) = Finset.univ := by
  refine Finset.eq_univ_iff_forall.mpr fun i => ?_
  refine Finset.mem_biUnion.mpr ⟨(⟨(i 0).val, (i 0).isLt⟩, ⟨(i 2).val, (i 2).isLt⟩), Finset.mem_univ _, ?_⟩
  rw [stg1_set_eq, Rect.mem_set_unit]
  intro a
  match a with
  | ⟨0, _⟩ => exact ⟨Nat.le_refl _, Nat.lt_succ_self _⟩
  | ⟨1, _⟩ => exact ⟨Nat.zero_le _, Nat.lt_of_lt_of_le (i _).isLt (Nat.le_add_left _ _)⟩
  | ⟨2, _⟩ => exact ⟨Nat.le_refl _, Nat.lt_succ_self _⟩
  | ⟨3, _⟩ => exact ⟨Nat.zero_le _, Nat.lt_of_lt_of_le (i _).isLt (Nat.le_add_left _ _)⟩

/-- The result's staging buffer, held whole, is held row by row: one slice for each batch and head. -/
theorem stg1_tiles (c : Dev nD) (f : Buf (Elt F) ((Memref.whole cc0_stg1_0).view.loc (c : Thread nD τ))) :
    ((Memref.whole cc0_stg1_0).view.loc (c : Thread nD τ) ↦{fullShare} f : sProp 𝕄)
      = bigSep Finset.univ fun b : Fin 4 => bigSep Finset.univ fun h : Fin 8 =>
          ((hSl b.val b.isLt h.val h.isLt (Memref.whole cc0_stg1_0)).view.loc (c : Thread nD τ)
            ↦[(hSl b.val b.isLt h.val h.isLt (Memref.whole cc0_stg1_0)).view.set]{fullShare} f : sProp 𝕄) := by
  rw [Ring.pointsTo_blocks (stg1_set c) (stg1_set_disjoint c) (stg1_set_cover c) f, bigSep_univ_prod]
  rfl

/-- The elements of batch b's source slice — the rows of the device's own head — of the device's block of the keys. -/
def arg1_set (c : Dev nD) (b : Fin 4) : Finset (Idx ((Memref.whole main_arg1).view.loc (c : Thread nD τ))) :=
  (kvSrc b.val b.isLt (hdN c) (hdN_lt c) (Memref.whole main_arg1)).view.set

theorem arg1_set_eq (c : Dev nD) (b : Fin 4) :
    arg1_set c b = (Rect.unit (s := S4x4096x8x128) ![b.val, 0, hdN c, 0] S1x4096x1x128.size
      (inbA b.val b.isLt (hdN c) (hdN_lt c))).set := by
  unfold arg1_set
  simp only [Memref.view_squeeze, Memref.view_slice, Memref.view_whole, View.set_reshape, View.set_slice_whole]

theorem arg1_set_disjoint (c : Dev nD) (b b' : Fin 4) (hbb : b ≠ b') : Disjoint (arg1_set c b) (arg1_set c b') := by
  rw [arg1_set_eq, arg1_set_eq]
  refine Rect.unit_disjoint (0 : Fin 4) ?_
  have : b.val ≠ b'.val := fun h => hbb (Fin.ext h)
  show b.val + 1 ≤ b'.val ∨ b'.val + 1 ≤ b.val
  omega

/-- The elements of the device's block of the keys that no copy of the device reads: the rows of the other seven heads. -/
def arg1_rest (c : Dev nD) : Finset (Idx ((Memref.whole main_arg1).view.loc (c : Thread nD τ))) :=
  Finset.univ \ Finset.univ.biUnion (arg1_set c)

/-- The device's block of the keys, held whole, is the four source slices of its head's rows and the rest. -/
theorem arg1_batches_rest (c : Dev nD) (f : Buf (Elt F) ((Memref.whole main_arg1).view.loc (c : Thread nD τ))) :
    ((Memref.whole main_arg1).view.loc (c : Thread nD τ) ↦{fullShare} f : sProp 𝕄)
      = iprop((bigSep Finset.univ fun b : Fin 4 =>
          ((kvSrc b.val b.isLt (hdN c) (hdN_lt c) (Memref.whole main_arg1)).view.loc (c : Thread nD τ)
            ↦[(kvSrc b.val b.isLt (hdN c) (hdN_lt c) (Memref.whole main_arg1)).view.set]{fullShare} f : sProp 𝕄))
        ∗ ((Memref.whole main_arg1).view.loc (c : Thread nD τ) ↦[arg1_rest c]{fullShare} f)) := by
  have h : ((Memref.whole main_arg1).view.loc (c : Thread nD τ) ↦{fullShare} f : sProp 𝕄)
      ⊣⊢ iprop(((Memref.whole main_arg1).view.loc (c : Thread nD τ) ↦[Finset.univ.biUnion (arg1_set c)]{fullShare} f)
        ∗ ((Memref.whole main_arg1).view.loc (c : Thread nD τ) ↦[arg1_rest c]{fullShare} f)) :=
    pointsTo_split_subset (Finset.subset_univ _)
  rw [Entails.antisymm h.1 h.2,
    pointsTo_biUnion Finset.univ (arg1_set c) (fun b _ b' _ hbb => arg1_set_disjoint c b b' hbb)]
  rfl

/-- The elements of batch b's source slice — the rows of the device's own head — of the device's block of the values. -/
def arg2_set (c : Dev nD) (b : Fin 4) : Finset (Idx ((Memref.whole main_arg2).view.loc (c : Thread nD τ))) :=
  (kvSrc b.val b.isLt (hdN c) (hdN_lt c) (Memref.whole main_arg2)).view.set

theorem arg2_set_eq (c : Dev nD) (b : Fin 4) :
    arg2_set c b = (Rect.unit (s := S4x4096x8x128) ![b.val, 0, hdN c, 0] S1x4096x1x128.size
      (inbA b.val b.isLt (hdN c) (hdN_lt c))).set := by
  unfold arg2_set
  simp only [Memref.view_squeeze, Memref.view_slice, Memref.view_whole, View.set_reshape, View.set_slice_whole]

theorem arg2_set_disjoint (c : Dev nD) (b b' : Fin 4) (hbb : b ≠ b') : Disjoint (arg2_set c b) (arg2_set c b') := by
  rw [arg2_set_eq, arg2_set_eq]
  refine Rect.unit_disjoint (0 : Fin 4) ?_
  have : b.val ≠ b'.val := fun h => hbb (Fin.ext h)
  show b.val + 1 ≤ b'.val ∨ b'.val + 1 ≤ b.val
  omega

/-- The elements of the device's block of the values that no copy of the device reads: the rows of the other seven heads. -/
def arg2_rest (c : Dev nD) : Finset (Idx ((Memref.whole main_arg2).view.loc (c : Thread nD τ))) :=
  Finset.univ \ Finset.univ.biUnion (arg2_set c)

/-- The device's block of the values, held whole, is the four source slices of its head's rows and the rest. -/
theorem arg2_batches_rest (c : Dev nD) (f : Buf (Elt F) ((Memref.whole main_arg2).view.loc (c : Thread nD τ))) :
    ((Memref.whole main_arg2).view.loc (c : Thread nD τ) ↦{fullShare} f : sProp 𝕄)
      = iprop((bigSep Finset.univ fun b : Fin 4 =>
          ((kvSrc b.val b.isLt (hdN c) (hdN_lt c) (Memref.whole main_arg2)).view.loc (c : Thread nD τ)
            ↦[(kvSrc b.val b.isLt (hdN c) (hdN_lt c) (Memref.whole main_arg2)).view.set]{fullShare} f : sProp 𝕄))
        ∗ ((Memref.whole main_arg2).view.loc (c : Thread nD τ) ↦[arg2_rest c]{fullShare} f)) := by
  have h : ((Memref.whole main_arg2).view.loc (c : Thread nD τ) ↦{fullShare} f : sProp 𝕄)
      ⊣⊢ iprop(((Memref.whole main_arg2).view.loc (c : Thread nD τ) ↦[Finset.univ.biUnion (arg2_set c)]{fullShare} f)
        ∗ ((Memref.whole main_arg2).view.loc (c : Thread nD τ) ↦[arg2_rest c]{fullShare} f)) :=
    pointsTo_split_subset (Finset.subset_univ _)
  rw [Entails.antisymm h.1 h.2,
    pointsTo_biUnion Finset.univ (arg2_set c) (fun b _ b' _ hbb => arg2_set_disjoint c b b' hbb)]
  rfl

/-- A region points-to depends only on the contents on the region. -/
theorem region_congr (ℓ : Loc nD τ sig) (S : Finset (Idx ℓ)) (q : PosShare TreeShare) (f f' : Buf (Elt F) ℓ)
    (h : ∀ i ∈ S, f i = f' i) : (ℓ ↦[S]{q} f : sProp 𝕄) = (ℓ ↦[S]{q} f' : sProp 𝕄) :=
  pointsTo_congr h

/--
info: 'Cert.Kernel.Flash.stg1_tiles' depends on axioms: [propext, Classical.choice, Quot.sound]
-/
#guard_msgs in #print axioms stg1_tiles

/--
info: 'Cert.Kernel.Flash.arg1_batches_rest' depends on axioms: [propext, Classical.choice, Quot.sound]
-/
#guard_msgs in #print axioms arg1_batches_rest

end Cert.Kernel.Flash

end
-- ==== Proof.Word.Shares.lean ====
/-
  Eight shares of a buffer.

  A positive tree share is the composite of its two halves. Halving the full share three times gives
  eight shares that compose to the full share; a points-to on a region at the full share is the
  separating conjunction of the points-to's on the same region, with the same contents, at the eight
  shares. Eight readers may then each hold one share of a buffer and read it at the same time, and the
  eight shares together give back the right to write.
-/
import proofs.«900786_g7700000000000787_dist_flashdec_v7x_xyz2x2x4_x_b4_sq32_skv4096_h8_d128_f32_1_alg».proof.Proof.Word.Proto

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight eighths of the full share: the leaves of its three-level halving, left to right. -/
def shr : Fin 8 → PosShare TreeShare :=
  ![fullShare.left.left.left, fullShare.left.left.right, fullShare.left.right.left, fullShare.left.right.right,
    fullShare.right.left.left, fullShare.right.left.right, fullShare.right.right.left, fullShare.right.right.right]

/-- A points-to at a share is the two points-to's at its halves. -/
theorem pointsTo_halves (ℓ : Loc nD τ sig) (S : Finset (Idx ℓ)) (q : PosShare TreeShare) (f : Buf (Elt F) ℓ) :
    (ℓ ↦[S]{q} f : sProp 𝕄) = iprop((ℓ ↦[S]{q.left} f) ∗ (ℓ ↦[S]{q.right} f)) :=
  Entails.antisymm (Region.is_share (PosShare.mem_left_op_right q)).1 (Region.is_share (PosShare.mem_left_op_right q)).2

/-- The separating conjunction is associative, as an equation. -/
theorem sep_assoc_eq (P Q R : sProp 𝕄) : iprop((P ∗ Q) ∗ R) = iprop(P ∗ (Q ∗ R)) :=
  Entails.antisymm BI.sep_assoc BI.sep_assoc'

/-- A points-to at the full share is the eight points-to's at the eight shares. -/
theorem pointsTo_shr (ℓ : Loc nD τ sig) (S : Finset (Idx ℓ)) (f : Buf (Elt F) ℓ) :
    (ℓ ↦[S]{fullShare} f : sProp 𝕄) = bigSep Finset.univ fun i : Fin 8 => (ℓ ↦[S]{shr i} f : sProp 𝕄) := by
  rw [bigSep_univ_eq_bigSepL [(0 : Fin 8), 1, 2, 3, 4, 5, 6, 7] (by decide) (by decide)]
  simp only [bigSepL_cons_cons, bigSepL_singleton]
  conv_lhs =>
    rw [pointsTo_halves ℓ S fullShare f, pointsTo_halves ℓ S fullShare.left f, pointsTo_halves ℓ S fullShare.right f,
      pointsTo_halves ℓ S fullShare.left.left f, pointsTo_halves ℓ S fullShare.left.right f,
      pointsTo_halves ℓ S fullShare.right.left f, pointsTo_halves ℓ S fullShare.right.right f]
  simp only [sep_assoc_eq]
  rfl

/--
info: 'Cert.Kernel.Flash.pointsTo_shr' depends on axioms: [propext, Classical.choice, Quot.sound]
-/
#guard_msgs in #print axioms pointsTo_shr

end Cert.Kernel.Flash

end
-- ==== Proof.Word.RegionsRows.lean ====
/-
  The result buffer of a device, row by row, the rows named by who writes them.

  The result's staging buffer is tiled by its thirty-two rows, one for each batch and head. Device c writes
  the four rows of its own head itself and receives the rows of head hdN (pr j c) from peer j, j = 1 … 7;
  own head and the seven peers' heads are the eight heads, each once. So the eight rows of a batch can be
  renumbered by who writes them, and the buffer held whole at the full share is the four own rows and the
  twenty-eight received rows — batch by batch, or peer by peer.
-/
import proofs.«900786_g7700000000000787_dist_flashdec_v7x_xyz2x2x4_x_b4_sq32_skv4096_h8_d128_f32_1_alg».proof.Proof.Word.Regions
import proofs.«900786_g7700000000000787_dist_flashdec_v7x_xyz2x2x4_x_b4_sq32_skv4096_h8_d128_f32_1_alg».proof.Proof.Word.Regions2
import proofs.«900786_g7700000000000787_dist_flashdec_v7x_xyz2x2x4_x_b4_sq32_skv4096_h8_d128_f32_1_alg».proof.Proof.Word.Shares
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.Chains

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The result buffer, row by row, the rows named by who writes them

Device c writes the row of its own head itself and receives the row of head hdN (pr j c) from peer j, for
j = 1 … 7; these eight heads are the eight heads. -/

/-- The head of the row of the result buffer that device c writes itself (j = 0) or receives from peer j. -/
def hdJ (c : Dev nD) (j : Fin 8) : ℕ := Fin.cases (hdN c) (fun i : Fin 7 => hdN (pr i.succ c)) j

theorem hdJ_lt (c : Dev nD) (j : Fin 8) : hdJ c j < 8 := by
  induction j using Fin.cases with
  | zero => exact hdN_lt c
  | succ i => exact hdN_lt (pr i.succ c)

/-- Own head and the seven peers' heads are the eight heads, each once. -/
theorem hdJ_bijective : ∀ c : Dev nD, Function.Bijective (fun j : Fin 8 => (⟨hdJ c j, hdJ_lt c j⟩ : Fin 8)) := by
  decide

/-- The heads, renumbered by who writes the row. -/
def hdEquiv (c : Dev nD) : Fin 8 ≃ Fin 8 := Equiv.ofBijective _ (hdJ_bijective c)

/-- The eight rows of batch b, renumbered: own row first, then the rows of peers 1 … 7. -/
theorem rM_row_eq (c : Dev nD) (f : Buf (Elt F) ((c : Thread nD τ).loc cc0_stg1_0)) (b : Fin 4) :
    (bigSep Finset.univ fun h : Fin 8 =>
        ((hSl b.val b.isLt h.val h.isLt (Memref.whole cc0_stg1_0)).view.loc (c : Thread nD τ)
          ↦[(hSl b.val b.isLt h.val h.isLt (Memref.whole cc0_stg1_0)).view.set]{fullShare} f : sProp 𝕄))
      = iprop(slPts c (hSl b.val b.isLt (hdN c) (hdN_lt c) rM) fullShare f
          ∗ slPts c (hSl b.val b.isLt (hdN (pr (1 : Fin 8) c)) (hdN_lt _) rM) fullShare f
          ∗ slPts c (hSl b.val b.isLt (hdN (pr (2 : Fin 8) c)) (hdN_lt _) rM) fullShare f
          ∗ slPts c (hSl b.val b.isLt (hdN (pr (3 : Fin 8) c)) (hdN_lt _) rM) fullShare f
          ∗ slPts c (hSl b.val b.isLt (hdN (pr (4 : Fin 8) c)) (hdN_lt _) rM) fullShare f
          ∗ slPts c (hSl b.val b.isLt (hdN (pr (5 : Fin 8) c)) (hdN_lt _) rM) fullShare f
          ∗ slPts c (hSl b.val b.isLt (hdN (pr (6 : Fin 8) c)) (hdN_lt _) rM) fullShare f
          ∗ slPts c (hSl b.val b.isLt (hdN (pr (7 : Fin 8) c)) (hdN_lt _) rM) fullShare f) := by
  rw [bigSep_univ_equiv (hdEquiv c), bigSep_fin8]
  rfl

/-! ## The own rows apart from the peers' rows -/

/-- A separating conjunction over eight indices: the first, and the seven successors. -/
private theorem rows_fin8_succ (Φ : Fin 8 → sProp 𝕄) :
    bigSep Finset.univ Φ = iprop(Φ 0 ∗ bigSep Finset.univ fun i : Fin 7 => Φ i.succ) := by
  rw [bigSep_fin8 Φ, bigSep_fin7 (fun i : Fin 7 => Φ i.succ)]
  rfl

/-- The result buffer held whole at contents f is the device's four own rows and, batch by batch, the seven
    rows it receives from its peers 1 … 7. -/
theorem rM_own_peers (c : Dev nD) (f : Buf (Elt F) ((c : Thread nD τ).loc cc0_stg1_0)) :
    (((c : Thread nD τ).loc cc0_stg1_0) ↦{fullShare} f : sProp 𝕄)
      = iprop((bigSep Finset.univ fun b : Fin 4 => slPts c (hSl b.val b.isLt (hdN c) (hdN_lt c) rM) fullShare f)
          ∗ (bigSep Finset.univ fun b : Fin 4 => bigSep Finset.univ fun i : Fin 7 =>
              slPts c (hSl b.val b.isLt (hdN (pr i.succ c)) (hdN_lt _) rM) fullShare f)) := by
  refine (stg1_tiles c f).trans (Eq.trans ?_ (bigSep_sep Finset.univ _ _))
  refine bigSep_congr fun b _ => ?_
  rw [bigSep_univ_equiv (hdEquiv c), rows_fin8_succ]
  rfl

/-- The same with the peers' rows peer by peer, and for each peer batch by batch. -/
theorem rM_own_peers_imajor (c : Dev nD) (f : Buf (Elt F) ((c : Thread nD τ).loc cc0_stg1_0)) :
    (((c : Thread nD τ).loc cc0_stg1_0) ↦{fullShare} f : sProp 𝕄)
      = iprop((bigSep Finset.univ fun b : Fin 4 => slPts c (hSl b.val b.isLt (hdN c) (hdN_lt c) rM) fullShare f)
          ∗ (bigSep Finset.univ fun i : Fin 7 => bigSep Finset.univ fun b : Fin 4 =>
              slPts c (hSl b.val b.isLt (hdN (pr i.succ c)) (hdN_lt _) rM) fullShare f)) := by
  rw [rM_own_peers c f, bigSep_univ_comm]

/--
info: 'Cert.Kernel.Flash.rM_own_peers_imajor' depends on axioms: [propext, Classical.choice, Quot.sound]
-/
#guard_msgs in #print axioms rM_own_peers_imajor

end Cert.Kernel.Flash

end
-- ==== Proof.Word.SchedTables.lean ====
import proofs.«900786_g7700000000000787_dist_flashdec_v7x_xyz2x2x4_x_b4_sq32_skv4096_h8_d128_f32_1_alg».proof.Proof.Word.Sched
import Idealize.ShloMosaic.Lib.Tactic

/-! The schedule's tables role by role: for each kind of cell of a device — the barrier, the local
copies of the keys and values, the send and receive sides of the exchange with the other half, the
send and receive sides of the gather of the merged blocks — its duties, amounts, expected units,
payloads, and the payloads of a whole round. -/

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## The barrier cell -/

theorem barPay_zero : barPay (F := F) c 0 = iprop((∃ f, slPts (pr 0 c) oM' fullShare f) ∗ (∃ f, slPts (pr 0 c) lM' fullShare f)) := by
  unfold barPay; exact if_pos rfl
theorem barPay_succ (i : Fin 7) : barPay (F := F) c i.succ
    = bigSep (Finset.univ : Finset (Fin 4)) (fun b => iprop(∃ f, slPts (pr i.succ c) (hSl b.val b.isLt (hdN c) (hdN_lt c) rM) fullShare f)) := by
  unfold barPay; exact if_neg (Fin.succ_ne_zero i)

theorem payload_bar_zero : (Rd m).payload (barCell c) 0 0
    = iprop((∃ f, slPts (pr 0 c) oM' fullShare f) ∗ (∃ f, slPts (pr 0 c) lM' fullShare f)) := by
  rw [payload_bar, barPay_zero]
theorem payload_bar_succ (i : Fin 7) : (Rd m).payload (barCell c) 0 i.succ
    = bigSep (Finset.univ : Finset (Fin 4)) (fun b => iprop(∃ f, slPts (pr i.succ c) (hSl b.val b.isLt (hdN c) (hdN_lt c) rM) fullShare f)) := by
  rw [payload_bar, barPay_succ]

/-- The payloads of the barrier cell's whole round: one per peer. -/
theorem rest_bar : bigSep ((Rd m).duties (barCell c) 0 \ ∅) (fun d => (Rd m).payload (barCell c) 0 d)
    = bigSep (Finset.univ : Finset (Fin 8)) (fun j => barPay (F := F) c j) := by
  rw [Finset.sdiff_empty, duties_bar]
  exact congrArg (bigSep Finset.univ) (funext fun j => payload_bar m c j)

/-! ## The DMA cells, by role -/

/-- The payloads of a DMA cell's whole round: its one duty's. -/
theorem rest_dma (k : Role) : bigSep ((Rd m).duties (dCell c k.num) 0 \ ∅) (fun d => (Rd m).payload (dCell c k.num) 0 d) = rolePay m c k := by
  rw [Finset.sdiff_empty, duties_dma, bigSep_singleton, payload_dma]

section Loc
variable (b : Fin 4) (d : Fin 8)

theorem amount_loc_k : (Rd m).amount (dCell c (nLoc b 0)) 0 d = NK := amount_dma m c (.loc b 0) d
theorem amount_loc_v : (Rd m).amount (dCell c (nLoc b 1)) 0 d = NV := amount_dma m c (.loc b 1) d
theorem expect_loc_k : (Rd m).expect (dCell c (nLoc b 0)) 0 = NK := expect_dma m c (.loc b 0)
theorem expect_loc_v : (Rd m).expect (dCell c (nLoc b 1)) 0 = NV := expect_dma m c (.loc b 1)
theorem payload_loc_k : (Rd m).payload (dCell c (nLoc b 0)) 0 d
    = iprop(slPts c (kvDst b.val b.isLt kM) fullShare (kC m c)
        ∗ slPts c (kvSrc b.val b.isLt (hdN c) (hdN_lt c) aK) fullShare (m ((c : Thread nD τ).loc main_arg1))) :=
  payload_dma m c (.loc b 0) d
theorem payload_loc_v : (Rd m).payload (dCell c (nLoc b 1)) 0 d
    = iprop(slPts c (kvDst b.val b.isLt vM) fullShare (vC m c)
        ∗ slPts c (kvSrc b.val b.isLt (hdN c) (hdN_lt c) aV) fullShare (m ((c : Thread nD τ).loc main_arg2))) :=
  payload_dma m c (.loc b 1) d
theorem rest_loc_k : bigSep ((Rd m).duties (dCell c (nLoc b 0)) 0 \ ∅) (fun d => (Rd m).payload (dCell c (nLoc b 0)) 0 d)
    = iprop(slPts c (kvDst b.val b.isLt kM) fullShare (kC m c)
        ∗ slPts c (kvSrc b.val b.isLt (hdN c) (hdN_lt c) aK) fullShare (m ((c : Thread nD τ).loc main_arg1))) :=
  rest_dma m c (.loc b 0)
theorem rest_loc_v : bigSep ((Rd m).duties (dCell c (nLoc b 1)) 0 \ ∅) (fun d => (Rd m).payload (dCell c (nLoc b 1)) 0 d)
    = iprop(slPts c (kvDst b.val b.isLt vM) fullShare (vC m c)
        ∗ slPts c (kvSrc b.val b.isLt (hdN c) (hdN_lt c) aV) fullShare (m ((c : Thread nD τ).loc main_arg2))) :=
  rest_dma m c (.loc b 1)

end Loc

section Exchange
variable (b : Fin 4) (d : Fin 8)

theorem amount_xs_o : (Rd m).amount (dCell c (nXs b 0)) 0 d = NO := amount_dma m c (.xs b 0) d
theorem amount_xs_l : (Rd m).amount (dCell c (nXs b 1)) 0 d = NL := amount_dma m c (.xs b 1) d
theorem amount_xr_o : (Rd m).amount (dCell c (nXr b 0)) 0 d = NO := amount_dma m c (.xr b 0) d
theorem amount_xr_l : (Rd m).amount (dCell c (nXr b 1)) 0 d = NL := amount_dma m c (.xr b 1) d
theorem expect_xs_o : (Rd m).expect (dCell c (nXs b 0)) 0 = NO := expect_dma m c (.xs b 0)
theorem expect_xs_l : (Rd m).expect (dCell c (nXs b 1)) 0 = NL := expect_dma m c (.xs b 1)
theorem expect_xr_o : (Rd m).expect (dCell c (nXr b 0)) 0 = NO := expect_dma m c (.xr b 0)
theorem expect_xr_l : (Rd m).expect (dCell c (nXr b 1)) 0 = NL := expect_dma m c (.xr b 1)
theorem payload_xs_o : (Rd m).payload (dCell c (nXs b 0)) 0 d = slPts c (oSl b.val b.isLt oM) fullShare (oC m c) :=
  payload_dma m c (.xs b 0) d
theorem payload_xs_l : (Rd m).payload (dCell c (nXs b 1)) 0 d = slPts c (lSl b.val b.isLt lM) fullShare (lC m c) :=
  payload_dma m c (.xs b 1) d
theorem payload_xr_o : (Rd m).payload (dCell c (nXr b 0)) 0 d = slPts c (oSl b.val b.isLt oM') fullShare (oC m (pr 0 c)) :=
  payload_dma m c (.xr b 0) d
theorem payload_xr_l : (Rd m).payload (dCell c (nXr b 1)) 0 d = slPts c (lSl b.val b.isLt lM') fullShare (lC m (pr 0 c)) :=
  payload_dma m c (.xr b 1) d
theorem rest_xs_o : bigSep ((Rd m).duties (dCell c (nXs b 0)) 0 \ ∅) (fun d => (Rd m).payload (dCell c (nXs b 0)) 0 d)
    = slPts c (oSl b.val b.isLt oM) fullShare (oC m c) := rest_dma m c (.xs b 0)
theorem rest_xs_l : bigSep ((Rd m).duties (dCell c (nXs b 1)) 0 \ ∅) (fun d => (Rd m).payload (dCell c (nXs b 1)) 0 d)
    = slPts c (lSl b.val b.isLt lM) fullShare (lC m c) := rest_dma m c (.xs b 1)
theorem rest_xr_o : bigSep ((Rd m).duties (dCell c (nXr b 0)) 0 \ ∅) (fun d => (Rd m).payload (dCell c (nXr b 0)) 0 d)
    = slPts c (oSl b.val b.isLt oM') fullShare (oC m (pr 0 c)) := rest_dma m c (.xr b 0)
theorem rest_xr_l : bigSep ((Rd m).duties (dCell c (nXr b 1)) 0 \ ∅) (fun d => (Rd m).payload (dCell c (nXr b 1)) 0 d)
    = slPts c (lSl b.val b.isLt lM') fullShare (lC m (pr 0 c)) := rest_dma m c (.xr b 1)

end Exchange

section Gather
variable (b : Fin 4) (i : Fin 7) (d : Fin 8)

theorem amount_gs : (Rd m).amount (dCell c (nGs b i)) 0 d = NH := amount_dma m c (.gs b i) d
theorem amount_gr : (Rd m).amount (dCell c (nGr b i)) 0 d = NH := amount_dma m c (.gr b i) d
theorem expect_gs : (Rd m).expect (dCell c (nGs b i)) 0 = NH := expect_dma m c (.gs b i)
theorem expect_gr : (Rd m).expect (dCell c (nGr b i)) 0 = NH := expect_dma m c (.gr b i)
theorem payload_gs : (Rd m).payload (dCell c (nGs b i)) 0 d
    = slPts c (hSl b.val b.isLt (hdN c) (hdN_lt c) rM) (gsShare i) (outC m c) := payload_dma m c (.gs b i) d
theorem payload_gr : (Rd m).payload (dCell c (nGr b i)) 0 d
    = slPts c (hSl b.val b.isLt (hdN (pr i.succ c)) (hdN_lt _) rM) fullShare (outC m c) := payload_dma m c (.gr b i) d
theorem rest_gs : bigSep ((Rd m).duties (dCell c (nGs b i)) 0 \ ∅) (fun d => (Rd m).payload (dCell c (nGs b i)) 0 d)
    = slPts c (hSl b.val b.isLt (hdN c) (hdN_lt c) rM) (gsShare i) (outC m c) := rest_dma m c (.gs b i)
theorem rest_gr : bigSep ((Rd m).duties (dCell c (nGr b i)) 0 \ ∅) (fun d => (Rd m).payload (dCell c (nGr b i)) 0 d)
    = slPts c (hSl b.val b.isLt (hdN (pr i.succ c)) (hdN_lt _) rM) fullShare (outC m c) := rest_dma m c (.gr b i)

end Gather

/-! ## The credits are the views' -/

theorem NK_eq (b : ℕ) (hb : b < 4) (sm : DmaSem sig) : (kvDst b hb kM).view.amount (.dma sm) = NK := rfl
theorem NV_eq (b : ℕ) (hb : b < 4) (sm : DmaSem sig) : (kvDst b hb vM).view.amount (.dma sm) = NV := rfl
theorem NO_eq (b : ℕ) (hb : b < 4) (sm : DmaSem sig) : (oSl b hb oM').view.amount (.dma sm) = NO := rfl
theorem NL_eq (b : ℕ) (hb : b < 4) (sm : DmaSem sig) : (lSl b hb lM').view.amount (.dma sm) = NL := rfl
theorem NH_eq (b : ℕ) (hb : b < 4) (h : ℕ) (hh : h < 8) (sm : DmaSem sig) : (hSl b hb h hh rM).view.amount (.dma sm) = NH := rfl

attribute [sl_rounds] duties_bar duties_dma amount_bar amount_dma expect_bar expect_dma payload_bar payload_dma
  payload_bar_zero payload_bar_succ
  amount_loc_k amount_loc_v expect_loc_k expect_loc_v payload_loc_k payload_loc_v
  amount_xs_o amount_xs_l amount_xr_o amount_xr_l expect_xs_o expect_xs_l expect_xr_o expect_xr_l
  payload_xs_o payload_xs_l payload_xr_o payload_xr_l
  amount_gs amount_gr expect_gs expect_gr payload_gs payload_gr

/--
info: 'Cert.Kernel.Flash.rest_dma' depends on axioms: [propext, Classical.choice, Quot.sound]
-/
#guard_msgs in #print axioms rest_dma

end Cert.Kernel.Flash

end
-- ==== Proof.Word.SchedRestate.lean ====
import proofs.«900786_g7700000000000787_dist_flashdec_v7x_xyz2x2x4_x_b4_sq32_skv4096_h8_d128_f32_1_alg».proof.Proof.Word.Sched
import Idealize.ShloMosaic.Lib.Pipeline.Value
import Idealize.ShloMosaic.Lib.ValueLayout

/-! What the copies leave behind, restated against the canonical contents.

A view reads its buffer's contents at coordinates: batch `b` of a scratch buffer at `(b, …)`, row
`(b, ·, h, ·)` of a device's block of the keys or values at `(b, k, h, t)`. Two contents that read
the same through a view agree on the view's elements, and a region points-to only speaks of the
contents there. So the destination of a copy, rewritten by what the source view reads, is the
destination at the canonical contents: the local copies land `kC` and `vC`, the exchange lands the
sender's `oC` and `lC`, the gather lands the sender's row of `outC`, which every device of one
half agrees on. -/

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Contents that read the same through a view agree under it -/

section Generic
variable {Val : EltTy → Type} {sg : RefSig} {κ : Kind} {sp : Space} {S : Shape} {e : EltTy}

theorem agree_of_read (v : View sg κ sp S e) {f g : v.ty.Contents Val} (h : ∀ x, v.read Val f x = v.read Val g x) :
    ∀ i ∈ v.set, f i = g i := by
  intro i hi
  obtain ⟨y, rfl⟩ := View.exists_emb_of_mem_set v hi
  have := h y
  rw [View.read_apply, View.read_apply] at this
  exact (cast_inj _).mp this

theorem write_agree (v : View sg κ sp S e) (fd g : v.ty.Contents Val) (w : S.Idx → Val e) (h : ∀ x, w x = v.read Val g x) :
    ∀ i ∈ v.set, v.write Val fd w Finset.univ i = g i :=
  agree_of_read v fun x => by rw [View.read_write_of_mem fd w (Finset.mem_univ x), h x]

end Generic

/-! ## The views read the contents at coordinates -/

theorem read_kDst (c : Dev nD) (b : Fin 4) (k : Fin 4096) (u : Fin 1) (t : Fin 128) :
    (kvDst b.val b.isLt kM).view.read (Elt F) (kC m c) (ix3 k u t)
      = m ((c : Thread nD τ).loc main_arg1) (ix4 b k (⟨hdN c, hdN_lt c⟩ : Fin 8) t) := by
  show shapeCast S4096x1x128 ((kM : Memref sig .tc .vmem S4x4096x1x128 .f32).view.readAt (Elt F) (rK b).toLoadRect (kC m c)) (by decide : S1x4096x1x128.ShapeCasts S4096x1x128) (ix3 k u t) = _
  rw [shapeCast_1abc_abc_apply]
  show kC m c ((rK b).toLoadRect.idx (ix4 (0 : Fin 1) k u t)) = _
  unfold kC
  refine congrArg (m ((c : Thread nD τ).loc main_arg1)) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

theorem read_vDst (c : Dev nD) (b : Fin 4) (k : Fin 4096) (u : Fin 1) (t : Fin 128) :
    (kvDst b.val b.isLt vM).view.read (Elt F) (vC m c) (ix3 k u t)
      = m ((c : Thread nD τ).loc main_arg2) (ix4 b k (⟨hdN c, hdN_lt c⟩ : Fin 8) t) := by
  show shapeCast S4096x1x128 ((vM : Memref sig .tc .vmem S4x4096x1x128 .f32).view.readAt (Elt F) (rK b).toLoadRect (vC m c)) (by decide : S1x4096x1x128.ShapeCasts S4096x1x128) (ix3 k u t) = _
  rw [shapeCast_1abc_abc_apply]
  show vC m c ((rK b).toLoadRect.idx (ix4 (0 : Fin 1) k u t)) = _
  unfold vC
  refine congrArg (m ((c : Thread nD τ).loc main_arg2)) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

/-- A device's block of the keys read through the view of batch `b`, head `h`. -/
theorem read_kSrc (b : Fin 4) (h : ℕ) (hh : h < 8) (f : (main_arg1 : Ref sig .tc).ty.Contents (Elt F))
    (k : Fin 4096) (u : Fin 1) (t : Fin 128) :
    (kvSrc b.val b.isLt h hh aK).view.read (Elt F) f (ix3 k u t) = f (ix4 b k (⟨h, hh⟩ : Fin 8) t) := by
  show shapeCast S4096x1x128 ((aK : Memref sig .tc .hbm S4x4096x8x128 .f32).view.readAt (Elt F)
    (Rect.unit (s := S4x4096x8x128) ![b.val, 0, h, 0] S1x4096x1x128.size (inbA b.val b.isLt h hh)).toLoadRect f) (by decide : S1x4096x1x128.ShapeCasts S4096x1x128) (ix3 k u t) = _
  rw [shapeCast_1abc_abc_apply]
  show f ((Rect.unit (s := S4x4096x8x128) ![b.val, 0, h, 0] S1x4096x1x128.size (inbA b.val b.isLt h hh)).toLoadRect.idx (ix4 (0 : Fin 1) k u t)) = _
  refine congrArg f (funext fun a => Fin.ext ?_)
  have hu : u.val = 0 := by have := u.isLt; omega
  match a with
  | ⟨0, _⟩ => show b.val + 1 * 0 = b.val; omega
  | ⟨1, _⟩ => show 0 + 1 * k.val = k.val; omega
  | ⟨2, _⟩ => show h + 1 * u.val = h; omega
  | ⟨3, _⟩ => show 0 + 1 * t.val = t.val; omega

theorem read_vSrc (b : Fin 4) (h : ℕ) (hh : h < 8) (f : (main_arg2 : Ref sig .tc).ty.Contents (Elt F))
    (k : Fin 4096) (u : Fin 1) (t : Fin 128) :
    (kvSrc b.val b.isLt h hh aV).view.read (Elt F) f (ix3 k u t) = f (ix4 b k (⟨h, hh⟩ : Fin 8) t) := by
  show shapeCast S4096x1x128 ((aV : Memref sig .tc .hbm S4x4096x8x128 .f32).view.readAt (Elt F)
    (Rect.unit (s := S4x4096x8x128) ![b.val, 0, h, 0] S1x4096x1x128.size (inbA b.val b.isLt h hh)).toLoadRect f) (by decide : S1x4096x1x128.ShapeCasts S4096x1x128) (ix3 k u t) = _
  rw [shapeCast_1abc_abc_apply]
  show f ((Rect.unit (s := S4x4096x8x128) ![b.val, 0, h, 0] S1x4096x1x128.size (inbA b.val b.isLt h hh)).toLoadRect.idx (ix4 (0 : Fin 1) k u t)) = _
  refine congrArg f (funext fun a => Fin.ext ?_)
  have hu : u.val = 0 := by have := u.isLt; omega
  match a with
  | ⟨0, _⟩ => show b.val + 1 * 0 = b.val; omega
  | ⟨1, _⟩ => show 0 + 1 * k.val = k.val; omega
  | ⟨2, _⟩ => show h + 1 * u.val = h; omega
  | ⟨3, _⟩ => show 0 + 1 * t.val = t.val; omega

/-! ## What the local copies land -/

/-- The keys of batch `b` copied from the device's block land as the canonical contents say. -/
theorem landed_k_pt (c : Dev nD) (b : Fin 4) (fd : (cc0_scratch0 : Ref sig .tc).ty.Contents (Elt F)) :
    ∀ i ∈ (kvDst b.val b.isLt kM).view.set,
      (kvDst b.val b.isLt kM).view.write (Elt F) fd
        ((kvSrc b.val b.isLt (hdN c) (hdN_lt c) aK).view.read (Elt F) (m ((c : Thread nD τ).loc main_arg1))) Finset.univ i = kC m c i :=
  by
  refine write_agree (kvDst b.val b.isLt kM).view fd (kC m c) _ fun x => ?_
  obtain ⟨k, u, t, rfl⟩ : ∃ (k : Fin 4096) (u : Fin 1) (t : Fin 128), x = ix3 k u t := ⟨x 0, x 1, x 2, eq_ix3 x⟩
  rw [read_kDst, read_kSrc]

theorem landed_v_pt (c : Dev nD) (b : Fin 4) (fd : (cc0_scratch1 : Ref sig .tc).ty.Contents (Elt F)) :
    ∀ i ∈ (kvDst b.val b.isLt vM).view.set,
      (kvDst b.val b.isLt vM).view.write (Elt F) fd
        ((kvSrc b.val b.isLt (hdN c) (hdN_lt c) aV).view.read (Elt F) (m ((c : Thread nD τ).loc main_arg2))) Finset.univ i = vC m c i :=
  by
  refine write_agree (kvDst b.val b.isLt vM).view fd (vC m c) _ fun x => ?_
  obtain ⟨k, u, t, rfl⟩ : ∃ (k : Fin 4096) (u : Fin 1) (t : Fin 128), x = ix3 k u t := ⟨x 0, x 1, x 2, eq_ix3 x⟩
  rw [read_vDst, read_vSrc]

theorem landed_k (c : Dev nD) (b : Fin 4) (fd : (cc0_scratch0 : Ref sig .tc).ty.Contents (Elt F)) :
    slPts c (kvDst b.val b.isLt kM) fullShare ((kvDst b.val b.isLt kM).view.write (Elt F) fd
        ((kvSrc b.val b.isLt (hdN c) (hdN_lt c) aK).view.read (Elt F) (m ((c : Thread nD τ).loc main_arg1))) Finset.univ)
      = slPts c (kvDst b.val b.isLt kM) fullShare (kC m c) :=
  pointsTo_congr (landed_k_pt m c b fd)

theorem landed_v (c : Dev nD) (b : Fin 4) (fd : (cc0_scratch1 : Ref sig .tc).ty.Contents (Elt F)) :
    slPts c (kvDst b.val b.isLt vM) fullShare ((kvDst b.val b.isLt vM).view.write (Elt F) fd
        ((kvSrc b.val b.isLt (hdN c) (hdN_lt c) aV).view.read (Elt F) (m ((c : Thread nD τ).loc main_arg2))) Finset.univ)
      = slPts c (kvDst b.val b.isLt vM) fullShare (vC m c) :=
  pointsTo_congr (landed_v_pt m c b fd)

/-! ## The exchange: partial outputs and partial denominators -/

theorem read_oSl (b : Fin 4) (g : (cc0_scratch2 : Ref sig .tc).ty.Contents (Elt F)) (q : Fin 32) (d : Fin 128) :
    (oSl b.val b.isLt oM).view.read (Elt F) g (ix2 q d) = g (ix3 b q d) := by
  show shapeCast S32x128 ((oM : Memref sig .tc .vmem S4x32x128 .f32).view.readAt (Elt F) (rO b).toLoadRect g) (by decide : S1x32x128.ShapeCasts S32x128) (ix2 q d) = _
  rw [shapeCast_1ab_ab_apply]
  show g ((rO b).toLoadRect.idx (ix3 (0 : Fin 1) q d)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * d.val = d.val; omega

theorem read_oSl' (b : Fin 4) (g : (cc0_scratch4 : Ref sig .tc).ty.Contents (Elt F)) (q : Fin 32) (d : Fin 128) :
    (oSl b.val b.isLt oM').view.read (Elt F) g (ix2 q d) = g (ix3 b q d) := by
  show shapeCast S32x128 ((oM' : Memref sig .tc .vmem S4x32x128 .f32).view.readAt (Elt F) (rO b).toLoadRect g) (by decide : S1x32x128.ShapeCasts S32x128) (ix2 q d) = _
  rw [shapeCast_1ab_ab_apply]
  show g ((rO b).toLoadRect.idx (ix3 (0 : Fin 1) q d)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * d.val = d.val; omega

theorem read_lSl (b : Fin 4) (g : (cc0_scratch3 : Ref sig .tc).ty.Contents (Elt F)) (q : Fin 32) (w : Fin 1) :
    (lSl b.val b.isLt lM).view.read (Elt F) g (ix2 q w) = g (ix3 b q w) := by
  show shapeCast S32x1 ((lM : Memref sig .tc .vmem S4x32x1 .f32).view.readAt (Elt F) (rL b).toLoadRect g) (by decide : S1x32x1.ShapeCasts S32x1) (ix2 q w) = _
  rw [shapeCast_1ab_ab_apply]
  show g ((rL b).toLoadRect.idx (ix3 (0 : Fin 1) q w)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * w.val = w.val; omega

theorem read_lSl' (b : Fin 4) (g : (cc0_scratch5 : Ref sig .tc).ty.Contents (Elt F)) (q : Fin 32) (w : Fin 1) :
    (lSl b.val b.isLt lM').view.read (Elt F) g (ix2 q w) = g (ix3 b q w) := by
  show shapeCast S32x1 ((lM' : Memref sig .tc .vmem S4x32x1 .f32).view.readAt (Elt F) (rL b).toLoadRect g) (by decide : S1x32x1.ShapeCasts S32x1) (ix2 q w) = _
  rw [shapeCast_1ab_ab_apply]
  show g ((rL b).toLoadRect.idx (ix3 (0 : Fin 1) q w)) = _
  refine congrArg g (funext fun a => Fin.ext ?_)
  match a with
  | ⟨0, _⟩ => show b.val + 1 * 0 = b.val; omega
  | ⟨1, _⟩ => show 0 + 1 * q.val = q.val; omega
  | ⟨2, _⟩ => show 0 + 1 * w.val = w.val; omega

/-- Batch `b` of a 4 x 32 x 128 buffer, copied into batch `b` of the landing buffer, lands as it was. -/
theorem landed_o_pt (b : Fin 4) (g : (cc0_scratch2 : Ref sig .tc).ty.Contents (Elt F)) (fd : (cc0_scratch4 : Ref sig .tc).ty.Contents (Elt F)) :
    ∀ i ∈ (oSl b.val b.isLt oM').view.set,
      (oSl b.val b.isLt oM').view.write (Elt F) fd ((oSl b.val b.isLt oM).view.read (Elt F) g) Finset.univ i = g i := by
  refine write_agree (oSl b.val b.isLt oM').view fd g _ fun x => ?_
  obtain ⟨q, d, rfl⟩ : ∃ (q : Fin 32) (d : Fin 128), x = ix2 q d := ⟨x 0, x 1, eq_ix2 x⟩
  rw [read_oSl, read_oSl']

theorem landed_l_pt (b : Fin 4) (g : (cc0_scratch3 : Ref sig .tc).ty.Contents (Elt F)) (fd : (cc0_scratch5 : Ref sig .tc).ty.Contents (Elt F)) :
    ∀ i ∈ (lSl b.val b.isLt lM').view.set,
      (lSl b.val b.isLt lM').view.write (Elt F) fd ((lSl b.val b.isLt lM).view.read (Elt F) g) Finset.univ i = g i := by
  refine write_agree (lSl b.val b.isLt lM').view fd g _ fun x => ?_
  obtain ⟨q, w, rfl⟩ : ∃ (q : Fin 32) (w : Fin 1), x = ix2 q w := ⟨x 0, x 1, eq_ix2 x⟩
  rw [read_lSl, read_lSl']

/-- On device `x`, batch `b` of the landing buffer after the copy of device `c`'s partial output. -/
theorem landed_o (c x : Dev nD) (b : Fin 4) (fd : (cc0_scratch4 : Ref sig .tc).ty.Contents (Elt F)) :
    slPts x (oSl b.val b.isLt oM') fullShare ((oSl b.val b.isLt oM').view.write (Elt F) fd ((oSl b.val b.isLt oM).view.read (Elt F) (oC m c)) Finset.univ)
      = slPts x (oSl b.val b.isLt oM') fullShare (oC m c) :=
  pointsTo_congr (landed_o_pt b (oC m c) fd)

theorem landed_l (c x : Dev nD) (b : Fin 4) (fd : (cc0_scratch5 : Ref sig .tc).ty.Contents (Elt F)) :
    slPts x (lSl b.val b.isLt lM') fullShare ((lSl b.val b.isLt lM').view.write (Elt F) fd ((lSl b.val b.isLt lM).view.read (Elt F) (lC m c)) Finset.univ)
      = slPts x (lSl b.val b.isLt lM') fullShare (lC m c) :=
  pointsTo_congr (landed_l_pt b (lC m c) fd)

/-! ## The gather: a merged row copied to the same row of a peer's result buffer -/

theorem hdDev_pr_succ (i : Fin 7) (c : Dev nD) (h : Fin 8) : hdDev (pr i.succ c) h = hdDev c h := by revert i c h; decide
theorem hdDev_self (c : Dev nD) : hdDev c (⟨hdN c, hdN_lt c⟩ : Fin 8) = c := by revert c; decide

/-- The devices of one half agree on what the result buffer holds at the end. -/
theorem outC_pr_succ (i : Fin 7) (c : Dev nD) : outC m (pr i.succ c) = outC m c := by
  funext j
  exact congrArg (fun d => mB m d (j 0) (ix4 (0 : Fin 1) (j 1) (0 : Fin 1) (j 3))) (hdDev_pr_succ i c (j 2))

/-- On device `p`, row `(b, h)` of the result buffer after the copy of the same row of device `c`'s. -/
theorem landed_h (c p : Dev nD) (b : Fin 4) (h : ℕ) (hh : h < 8) (fd : (cc0_stg1_0 : Ref sig .tc).ty.Contents (Elt F)) :
    slPts p (hSl b.val b.isLt h hh rM) fullShare ((hSl b.val b.isLt h hh rM).view.write (Elt F) fd ((hSl b.val b.isLt h hh rM).view.read (Elt F) (outC m c)) Finset.univ)
      = slPts p (hSl b.val b.isLt h hh rM) fullShare (outC m c) :=
  pointsTo_congr (write_agree (hSl b.val b.isLt h hh rM).view fd (outC m c) _ fun _ => rfl)

/-! ## The views' element sets: a squeezed row is the row -/

theorem set_kvDst (b : Fin 4) (M : Memref sig .tc .vmem S4x4096x1x128 .f32) :
    (kvDst b.val b.isLt M).view.set = (M.access (rK b)).set := View.set_reshape _ _
theorem set_oSl (b : Fin 4) (M : Memref sig .tc .vmem S4x32x128 .f32) :
    (oSl b.val b.isLt M).view.set = (M.access (rO b)).set := View.set_reshape _ _
theorem set_lSl (b : Fin 4) (M : Memref sig .tc .vmem S4x32x1 .f32) :
    (lSl b.val b.isLt M).view.set = (M.access (rL b)).set := View.set_reshape _ _
theorem set_hSl (b : Fin 4) (h : ℕ) (hh : h < 8) (M : Memref sig .tc .vmem S4x32x8x128 .f32) :
    (hSl b.val b.isLt h hh M).view.set = (M.access (rH b h hh)).set := rfl

/--
info: 'Cert.Kernel.Flash.landed_k' depends on axioms: [propext, Classical.choice, Quot.sound]
-/
#guard_msgs in #print axioms landed_k
/--
info: 'Cert.Kernel.Flash.landed_o' depends on axioms: [propext, Classical.choice, Quot.sound]
-/
#guard_msgs in #print axioms landed_o
/--
info: 'Cert.Kernel.Flash.landed_h' depends on axioms: [propext, Classical.choice, Quot.sound]
-/
#guard_msgs in #print axioms landed_h

end Cert.Kernel.Flash

end
-- ==== Proof.Word.StepsGather.lean ====
/-
  The gather of the merged blocks, step by step.

  Device c merges batch b's partial results into row (b, ·, hdN c, ·) of its result buffer; the row then holds what
  the result buffer holds at the end, since the device of c's half that works on head hdN c is c itself. Seven
  copies then read the row at once, one to each other head's device of the same half, each under its own share of
  the row; the copy to the head i + 1 away lands in row (b, ·, hdN c, ·) of that device's result buffer, which the
  device handed over at the barrier, and what it leaves there is what that device's own result buffer holds at the
  end, the two devices being of one half.
-/
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.SchedTables
import proofs.«900786_g7700000000000787_dist_flashdec_v7x_xyz2x2x4_x_b4_sq32_skv4096_h8_d128_f32_1_alg».proof.Proof.Word.SchedRestate
import proofs.«900786_g7700000000000787_dist_flashdec_v7x_xyz2x2x4_x_b4_sq32_skv4096_h8_d128_f32_1_alg».proof.Proof.Word.Levels
import Idealize.ShloMosaic.Lib.Rounds
import Idealize.ShloMosaic.Lib.Transfers

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The device's own row of the result buffer -/

/-- Row (b, ·, hdN c, ·) of device c's result buffer is its own merged block of batch b. -/
theorem outC_row (b : Fin 4) (x : S1x32x1x128.Idx) :
    outC m c ((rH b (hdN c) (hdN_lt c)).emb x) = mB m c b x := by
  have x0 : (x 0).val < 1 := (x 0).isLt
  have x2 : (x 2).val < 1 := (x 2).isLt
  have h0 : (show Fin 4 from (rH b (hdN c) (hdN_lt c)).emb x 0) = b := Fin.ext (by
    show b.val + 1 * (x 0).val = b.val
    omega)
  have h2 : (show Fin 8 from (rH b (hdN c) (hdN_lt c)).emb x 2) = (⟨hdN c, hdN_lt c⟩ : Fin 8) := Fin.ext (by
    show hdN c + 1 * (x 2).val = hdN c
    omega)
  have hx : ix4 (0 : Fin 1) (show Fin 32 from (rH b (hdN c) (hdN_lt c)).emb x 1) (0 : Fin 1) (show Fin 128 from (rH b (hdN c) (hdN_lt c)).emb x 3) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 = (x 2).val; omega)
    | ⟨3, _⟩ => exact Fin.ext (by show 0 + 1 * (x 3).val = (x 3).val; omega)
  have key : ∀ (d : Dev nD) (b' : Fin 4) (y : S1x32x1x128.Idx), d = c → b' = b → y = x → mB m d b' y = mB m c b x := by
    rintro _ _ _ rfl rfl rfl; rfl
  exact key _ _ _ ((congrArg (hdDev c) h2).trans (hdDev_self c)) h0 hx

/-! ## The copy of the merged block to another head's device -/

/-- The send side of the gather is the device's own cell; -/
theorem tgt_gs (b : Fin 4) (i : Fin 7) (c : Dev nD) : tgt (nGs b i) c = c :=
  tgt_own (nGs b i) (Or.inr ⟨by show 24 ≤ 24 + 7 * b.val + i.val; omega,
    by have := b.isLt; have := i.isLt; show 24 + 7 * b.val + i.val < 52; omega⟩) c
/-- the receive side the cell of the head it is sent to. -/
theorem tgt_gr (b : Fin 4) (i : Fin 7) (c : Dev nD) : tgt (nGr b i) c = pr i.succ c := tgt_ar b i c

/-- The send cell's credit is the row's. -/
theorem amt_gs (b : Fin 4) (i : Fin 7) : roleAmt (roleOf (nGs b i)) = NH := by
  rw [show nGs b i = (Role.gs b i).num from rfl, roleOf_num]; rfl

/-- What the receive cell of peer slot i hands device p, the row spelt at a given head number. -/
theorem rolePay_gr (b : Fin 4) (i : Fin 7) (p : Dev nD) (h : ℕ) (hh : h < 8) (e : hdN (pr i.succ p) = h) :
    rolePay m p (.gr b i) = slPts p (hSl b.val b.isLt h hh rM) fullShare (outC m p) := by
  subst e; rfl

/-- What the landing leaves in the row of the other head's device is what its receive cell hands that device:
    the two devices are of one half, and the row is sent from the head the receive cell names. -/
theorem landed_gr (b : Fin 4) (i : Fin 7) (fd : (cc0_stg1_0 : Ref sig .tc).ty.Contents (Elt F)) :
    slPts (pr i.succ c) (hSl b.val b.isLt (hdN c) (hdN_lt c) rM) fullShare
        ((hSl b.val b.isLt (hdN c) (hdN_lt c) rM).view.write (Elt F) fd ((hSl b.val b.isLt (hdN c) (hdN_lt c) rM).view.read (Elt F) (outC m c)) Finset.univ)
      = rolePay m (pr i.succ c) (.gr b i) := by
  rw [rolePay_gr m b i (pr i.succ c) (hdN c) (hdN_lt c) (by rw [pr_pr]), outC_pr_succ]
  exact landed_h m c (pr i.succ c) b (hdN c) (hdN_lt c) fd

/-- The copy of batch b's merged block to the device of head i + 1 away: the device lends the copy one share of its own
    row, hands over the other device's row, which it got at the barrier, and is paid its send cell's credit. -/
theorem step_agsend (b : Fin 4) (i : Fin 7) (n : ℕ) (hn : n < 44) (hs : step n = (i.succ, some (nGr b i), Ng))
    {W : Waits sig Unit}
    {hsc : (hSl b.val b.isLt (hdN c) (hdN_lt c) rM).view.ref.isScScratch = false}
    {hsrc : (hSl b.val b.isLt (hdN c) (hdN_lt c) rM).view.WordExact} {hdst : (hSl b.val b.isLt (hdN c) (hdN_lt c) rM).view.WordExact}
    {hsem : DmaTarget.Typed (nD := nD) .vmem (.dma (dS (nGr b i)))
      (.remote ((pr i.succ c : Dev nD) : Thread nD τ) (hSl b.val b.isLt (hdN c) (hdN_lt c) rM) (.dma (dS (nGs b i))) hsc)}
    {α : Type} {Q : α → sProp 𝕄} {k : PUnit → Prog (TpuEff nD τ sig (Elt F) Λ₀ .tc) α} :
    iprop(Rec m K ∗ hA m c b (hdN c) (hdN_lt c) (gsShare i) ∗ hE (F := F) (pr i.succ c) b (hdN c) (hdN_lt c)
        ∗ owes (c : Thread nD τ) (owedFrom c n) W ∗ tokD (F := F) c (nGs b i) ∗ tokD (F := F) c (nGr b i))
      ⊢ iprop(((crD (F := F) c (nGs b i) ∗ owes (c : Thread nD τ) (owedFrom c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hSl b.val b.isLt (hdN c) (hdN_lt c) rM)
                (.remote ((pr i.succ c : Dev nD) : Thread nD τ) (hSl b.val b.isLt (hdN c) (hdN_lt c) rM) (.dma (dS (nGs b i))) hsc)
                (.dma (dS (nGr b i))) hsrc hdst hsem) k) Q) := by
  have hO : owedFrom c n = owedFrom c (n + 1) + tallyAt (dCell (pr i.succ c) (nGr b i)) () NH := by
    rw [owedFrom_peel c n hn]; unfold payAt; rw [hs]
  unfold tokD crD
  rw [tgt_gs, tgt_gr, amt_gs]
  iintro ⟨#HR, Hsrc, ⟨%fd, Hdst⟩, HO, Ht1, Ht2⟩ Hk
  iapply (Rounds.wp_send_pointsTo 𝒱₀ ER (Rd m) (c : Thread nD τ) none (c' := ((pr i.succ c : Dev nD) : Thread nD τ))
      (src := hSl b.val b.isLt (hdN c) (hdN_lt c) rM) (dst := hSl b.val b.isLt (hdN c) (hdN_lt c) rM)
      (q := gsShare i) (fs := outC m c) (fd := fd)
      (κ₁ := K (c, some (nGs b i))) (κ₂ := K (pr i.succ c, some (nGr b i))) (r₁ := 0) (r₂ := 0) (d₁ := 0) (d₂ := 0)
      (mem_duties_dma m c (nGs b i)) (mem_duties_dma m (pr i.succ c) (nGr b i)) () () NH rfl
      (amount_gs m c b i 0) (amount_gr m (pr i.succ c) b i 0) (owedFrom c (n + 1)) hO (W := W)
      (Entails.of_eq (payload_gs m c b i 0).symm)
      (Entails.of_eq ((landed_gr m c b i fd).trans (payload_dma m (pr i.succ c) (.gr b i) 0).symm))) $$ [Hsrc Hdst HO Ht1 Ht2]
  · isplitr; · iapply (inv_d (Rd m) K c (nGs b i)); iexact HR
    isplitr; · iapply (inv_d (Rd m) K (pr i.succ c) (nGr b i)); iexact HR
    isplitl [Hsrc]; · iexact Hsrc
    isplitl [Hdst]; · iexact Hdst
    isplitl [HO]; · iexact HO
    isplitl [Ht1]; · iexact Ht1
    isplitr; · iapply (reached_d (Rd m) K c (nGs b i)); iexact HR
    isplitl [Ht2]; · iexact Ht2
    iapply (reached_d (Rd m) K (pr i.succ c) (nGr b i)); iexact HR
  iexact Hk

/-! ## The same copy, its row spelt at an offset vector equal to (b, 0, hdN c, 0) and its target at a device equal to the peer -/

/-- `step_agsend` with the source and the destination written as slices of the result buffer at an offset vector
    that equals (b, 0, hdN c, 0), each slice with its own evidence, and the target a device that equals the peer. -/
theorem step_agsend_off (b : Fin 4) (i : Fin 7) (n : ℕ) (hn : n < 44) (hs : step n = (i.succ, some (nGr b i), Ng))
    (off : Fin 4 → ℕ) (hoff : off = ![b.val, 0, hdN c, 0]) (d : Dev nD) (hd : d = pr i.succ c)
    {hinb₁ hinb₂ : ∀ a, off a + S1x32x1x128.size a ≤ S4x32x8x128.size a}
    {h2₁ : ∀ a, (Rect.unit (s := S4x32x8x128) off S1x32x1x128.size hinb₁).stride a = 1}
    {h2₂ : ∀ a, (Rect.unit (s := S4x32x8x128) off S1x32x1x128.size hinb₂).stride a = 1}
    {W : Waits sig Unit}
    {hsc : ((Memref.whole cc0_stg1_0 : Memref sig .tc .vmem S4x32x8x128 .f32).slice (Rect.unit (s := S4x32x8x128) off S1x32x1x128.size hinb₂) h2₂).view.ref.isScScratch = false}
    {hsrc : ((Memref.whole cc0_stg1_0 : Memref sig .tc .vmem S4x32x8x128 .f32).slice (Rect.unit (s := S4x32x8x128) off S1x32x1x128.size hinb₁) h2₁).view.WordExact}
    {hdst : ((Memref.whole cc0_stg1_0 : Memref sig .tc .vmem S4x32x8x128 .f32).slice (Rect.unit (s := S4x32x8x128) off S1x32x1x128.size hinb₂) h2₂).view.WordExact}
    {hsem : DmaTarget.Typed (nD := nD) .vmem (.dma (dS (nGr b i)))
      (.remote (Dev.tc d : Thread nD τ)
        ((Memref.whole cc0_stg1_0 : Memref sig .tc .vmem S4x32x8x128 .f32).slice (Rect.unit (s := S4x32x8x128) off S1x32x1x128.size hinb₂) h2₂)
        (.dma (dS (nGs b i))) hsc)}
    {α : Type} {Q : α → sProp 𝕄} {k : PUnit → Prog (TpuEff nD τ sig (Elt F) Λ₀ .tc) α} :
    iprop(Rec m K ∗ hA m c b (hdN c) (hdN_lt c) (gsShare i) ∗ hE (F := F) (pr i.succ c) b (hdN c) (hdN_lt c)
        ∗ owes (c : Thread nD τ) (owedFrom c n) W ∗ tokD (F := F) c (nGs b i) ∗ tokD (F := F) c (nGr b i))
      ⊢ iprop(((crD (F := F) c (nGs b i) ∗ owes (c : Thread nD τ) (owedFrom c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma
                ((Memref.whole cc0_stg1_0 : Memref sig .tc .vmem S4x32x8x128 .f32).slice (Rect.unit (s := S4x32x8x128) off S1x32x1x128.size hinb₁) h2₁)
                (.remote (Dev.tc d : Thread nD τ)
                  ((Memref.whole cc0_stg1_0 : Memref sig .tc .vmem S4x32x8x128 .f32).slice (Rect.unit (s := S4x32x8x128) off S1x32x1x128.size hinb₂) h2₂)
                  (.dma (dS (nGs b i))) hsc)
                (.dma (dS (nGr b i))) hsrc hdst hsem) k) Q) := by
  subst hoff hd
  exact step_agsend m K c b i n hn hs

/-! ## The device's own row lent to the seven copies at once -/

/-- The whole row is the share that stays with the device and the seven shares the copies read under. -/
theorem hA_shares (b : Fin 4) (h : ℕ) (hh : h < 8) :
    hA m c b h hh fullShare
      ⊣⊢ iprop(hA m c b h hh (Transfers.shareDrop fullShare 7) ∗ bigSep Finset.univ fun i : Fin 7 => hA m c b h hh (gsShare i)) :=
  Transfers.pointsTo_toks fullShare 7

private theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The same with the seven shares written out in the order of the copies. -/
theorem hA_shares_split (b : Fin 4) (h : ℕ) (hh : h < 8) :
    hA m c b h hh fullShare
      ⊢ iprop(hA m c b h hh (Transfers.shareDrop fullShare 7) ∗ hA m c b h hh (gsShare 0) ∗ hA m c b h hh (gsShare 1)
          ∗ hA m c b h hh (gsShare 2) ∗ hA m c b h hh (gsShare 3) ∗ hA m c b h hh (gsShare 4) ∗ hA m c b h hh (gsShare 5)
          ∗ hA m c b h hh (gsShare 6)) :=
  (hA_shares m c b h hh).1.trans (sep_mono_right (Entails.of_eq (bigSep_seven fun i : Fin 7 => hA m c b h hh (gsShare i))))

/-- The share that stayed and the seven shares come back: the whole row again. -/
theorem hA_shares_join (b : Fin 4) (h : ℕ) (hh : h < 8) :
    iprop(hA m c b h hh (Transfers.shareDrop fullShare 7) ∗ hA m c b h hh (gsShare 0) ∗ hA m c b h hh (gsShare 1)
          ∗ hA m c b h hh (gsShare 2) ∗ hA m c b h hh (gsShare 3) ∗ hA m c b h hh (gsShare 4) ∗ hA m c b h hh (gsShare 5)
          ∗ hA m c b h hh (gsShare 6))
      ⊢ hA m c b h hh fullShare :=
  (sep_mono_right (Entails.of_eq (bigSep_seven fun i : Fin 7 => hA m c b h hh (gsShare i)).symm)).trans (hA_shares m c b h hh).2

/-- info: 'Cert.Kernel.Flash.step_agsend' depends on axioms: [propext, Classical.choice, Quot.sound] -/
#guard_msgs in #print axioms step_agsend

/-- info: 'Cert.Kernel.Flash.outC_row' depends on axioms: [propext, Classical.choice, Quot.sound] -/
#guard_msgs in #print axioms outC_row

/-- info: 'Cert.Kernel.Flash.hA_shares_join' depends on axioms: [propext, Classical.choice, Quot.sound] -/
#guard_msgs in #print axioms hA_shares_join

/-- info: 'Cert.Kernel.Flash.step_agsend_off' depends on axioms: [propext, Classical.choice, Quot.sound] -/
#guard_msgs in #print axioms step_agsend_off

end Cert.Kernel.Flash

end
-- ==== Proof.Word.BodyGlue.lean ====
/-
  The two ends of a device's body.  At entry, what the launch hands the device — its ghost state, its credit, its
  dues, the staged query array, the result buffer, the six scratch buffers, its blocks of the keys and values — is
  taken apart into the resources the body's steps name one by one: positions, tokens and credits cell by cell, each
  buffer cut along the copies' views (the scratch buffers batch by batch, the result buffer row by row — the
  device's own head's four rows and the four rows of each of the seven other heads —, the keys' and values' blocks
  into the four rows the local copies read and a rest that is kept aside).  At the return the same pieces, now at
  the contents the protocol leaves in them, are put back together into the buffers whole.
-/
import proofs.«900786_g7700000000000787_dist_flashdec_v7x_xyz2x2x4_x_b4_sq32_skv4096_h8_d128_f32_1_alg».proof.Proof.Word.GlueGhost
import proofs.«900786_g7700000000000787_dist_flashdec_v7x_xyz2x2x4_x_b4_sq32_skv4096_h8_d128_f32_1_alg».proof.Proof.Word.Regions
import proofs.«900786_g7700000000000787_dist_flashdec_v7x_xyz2x2x4_x_b4_sq32_skv4096_h8_d128_f32_1_alg».proof.Proof.Word.Regions2
import proofs.«900786_g7700000000000787_dist_flashdec_v7x_xyz2x2x4_x_b4_sq32_skv4096_h8_d128_f32_1_alg».proof.Proof.Word.RegionsRows
import proofs.«900786_g7700000000000787_dist_flashdec_v7x_xyz2x2x4_x_b4_sq32_skv4096_h8_d128_f32_1_alg».proof.Proof.Word.StepsGather

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The body's resources at entry and at the return, in the order its steps name them -/

/-- At entry, with the recorded waits W. -/
def initChain (W : Waits sig Unit) : sProp 𝕄 :=
  iprop(Rec m K
    ∗ Lev (F := F)
    ∗ owes (c : Thread nD τ) (owedFrom c 0) W
    ∗ posB c
    ∗ posD c (0 : Fin 80)
    ∗ posD c (1 : Fin 80)
    ∗ posD c (2 : Fin 80)
    ∗ posD c (3 : Fin 80)
    ∗ posD c (4 : Fin 80)
    ∗ posD c (5 : Fin 80)
    ∗ posD c (6 : Fin 80)
    ∗ posD c (7 : Fin 80)
    ∗ posD c (8 : Fin 80)
    ∗ posD c (9 : Fin 80)
    ∗ posD c (10 : Fin 80)
    ∗ posD c (11 : Fin 80)
    ∗ posD c (12 : Fin 80)
    ∗ posD c (13 : Fin 80)
    ∗ posD c (14 : Fin 80)
    ∗ posD c (15 : Fin 80)
    ∗ posD c (16 : Fin 80)
    ∗ posD c (17 : Fin 80)
    ∗ posD c (18 : Fin 80)
    ∗ posD c (19 : Fin 80)
    ∗ posD c (20 : Fin 80)
    ∗ posD c (21 : Fin 80)
    ∗ posD c (22 : Fin 80)
    ∗ posD c (23 : Fin 80)
    ∗ posD c (24 : Fin 80)
    ∗ posD c (25 : Fin 80)
    ∗ posD c (26 : Fin 80)
    ∗ posD c (27 : Fin 80)
    ∗ posD c (28 : Fin 80)
    ∗ posD c (29 : Fin 80)
    ∗ posD c (30 : Fin 80)
    ∗ posD c (31 : Fin 80)
    ∗ posD c (32 : Fin 80)
    ∗ posD c (33 : Fin 80)
    ∗ posD c (34 : Fin 80)
    ∗ posD c (35 : Fin 80)
    ∗ posD c (36 : Fin 80)
    ∗ posD c (37 : Fin 80)
    ∗ posD c (38 : Fin 80)
    ∗ posD c (39 : Fin 80)
    ∗ posD c (40 : Fin 80)
    ∗ posD c (41 : Fin 80)
    ∗ posD c (42 : Fin 80)
    ∗ posD c (43 : Fin 80)
    ∗ posD c (44 : Fin 80)
    ∗ posD c (45 : Fin 80)
    ∗ posD c (46 : Fin 80)
    ∗ posD c (47 : Fin 80)
    ∗ posD c (48 : Fin 80)
    ∗ posD c (49 : Fin 80)
    ∗ posD c (50 : Fin 80)
    ∗ posD c (51 : Fin 80)
    ∗ posD c (52 : Fin 80)
    ∗ posD c (53 : Fin 80)
    ∗ posD c (54 : Fin 80)
    ∗ posD c (55 : Fin 80)
    ∗ posD c (56 : Fin 80)
    ∗ posD c (57 : Fin 80)
    ∗ posD c (58 : Fin 80)
    ∗ posD c (59 : Fin 80)
    ∗ posD c (60 : Fin 80)
    ∗ posD c (61 : Fin 80)
    ∗ posD c (62 : Fin 80)
    ∗ posD c (63 : Fin 80)
    ∗ posD c (64 : Fin 80)
    ∗ posD c (65 : Fin 80)
    ∗ posD c (66 : Fin 80)
    ∗ posD c (67 : Fin 80)
    ∗ posD c (68 : Fin 80)
    ∗ posD c (69 : Fin 80)
    ∗ posD c (70 : Fin 80)
    ∗ posD c (71 : Fin 80)
    ∗ posD c (72 : Fin 80)
    ∗ posD c (73 : Fin 80)
    ∗ posD c (74 : Fin 80)
    ∗ posD c (75 : Fin 80)
    ∗ posD c (76 : Fin 80)
    ∗ posD c (77 : Fin 80)
    ∗ posD c (78 : Fin 80)
    ∗ posD c (79 : Fin 80)
    ∗ tokB c (0 : Fin 8)
    ∗ tokB c (1 : Fin 8)
    ∗ tokB c (2 : Fin 8)
    ∗ tokB c (3 : Fin 8)
    ∗ tokB c (4 : Fin 8)
    ∗ tokB c (5 : Fin 8)
    ∗ tokB c (6 : Fin 8)
    ∗ tokB c (7 : Fin 8)
    ∗ tokD c (0 : Fin 80)
    ∗ tokD c (1 : Fin 80)
    ∗ tokD c (2 : Fin 80)
    ∗ tokD c (3 : Fin 80)
    ∗ tokD c (4 : Fin 80)
    ∗ tokD c (5 : Fin 80)
    ∗ tokD c (6 : Fin 80)
    ∗ tokD c (7 : Fin 80)
    ∗ tokD c (8 : Fin 80)
    ∗ tokD c (9 : Fin 80)
    ∗ tokD c (10 : Fin 80)
    ∗ tokD c (11 : Fin 80)
    ∗ tokD c (12 : Fin 80)
    ∗ tokD c (13 : Fin 80)
    ∗ tokD c (14 : Fin 80)
    ∗ tokD c (15 : Fin 80)
    ∗ tokD c (16 : Fin 80)
    ∗ tokD c (17 : Fin 80)
    ∗ tokD c (18 : Fin 80)
    ∗ tokD c (19 : Fin 80)
    ∗ tokD c (20 : Fin 80)
    ∗ tokD c (21 : Fin 80)
    ∗ tokD c (22 : Fin 80)
    ∗ tokD c (23 : Fin 80)
    ∗ tokD c (24 : Fin 80)
    ∗ tokD c (25 : Fin 80)
    ∗ tokD c (26 : Fin 80)
    ∗ tokD c (27 : Fin 80)
    ∗ tokD c (28 : Fin 80)
    ∗ tokD c (29 : Fin 80)
    ∗ tokD c (30 : Fin 80)
    ∗ tokD c (31 : Fin 80)
    ∗ tokD c (32 : Fin 80)
    ∗ tokD c (33 : Fin 80)
    ∗ tokD c (34 : Fin 80)
    ∗ tokD c (35 : Fin 80)
    ∗ tokD c (36 : Fin 80)
    ∗ tokD c (37 : Fin 80)
    ∗ tokD c (38 : Fin 80)
    ∗ tokD c (39 : Fin 80)
    ∗ tokD c (40 : Fin 80)
    ∗ tokD c (41 : Fin 80)
    ∗ tokD c (42 : Fin 80)
    ∗ tokD c (43 : Fin 80)
    ∗ tokD c (44 : Fin 80)
    ∗ tokD c (45 : Fin 80)
    ∗ tokD c (46 : Fin 80)
    ∗ tokD c (47 : Fin 80)
    ∗ tokD c (48 : Fin 80)
    ∗ tokD c (49 : Fin 80)
    ∗ tokD c (50 : Fin 80)
    ∗ tokD c (51 : Fin 80)
    ∗ tokD c (52 : Fin 80)
    ∗ tokD c (53 : Fin 80)
    ∗ tokD c (54 : Fin 80)
    ∗ tokD c (55 : Fin 80)
    ∗ tokD c (56 : Fin 80)
    ∗ tokD c (57 : Fin 80)
    ∗ tokD c (58 : Fin 80)
    ∗ tokD c (59 : Fin 80)
    ∗ tokD c (60 : Fin 80)
    ∗ tokD c (61 : Fin 80)
    ∗ tokD c (62 : Fin 80)
    ∗ tokD c (63 : Fin 80)
    ∗ tokD c (64 : Fin 80)
    ∗ tokD c (65 : Fin 80)
    ∗ tokD c (66 : Fin 80)
    ∗ tokD c (67 : Fin 80)
    ∗ tokD c (68 : Fin 80)
    ∗ tokD c (69 : Fin 80)
    ∗ tokD c (70 : Fin 80)
    ∗ tokD c (71 : Fin 80)
    ∗ tokD c (72 : Fin 80)
    ∗ tokD c (73 : Fin 80)
    ∗ tokD c (74 : Fin 80)
    ∗ tokD c (75 : Fin 80)
    ∗ tokD c (76 : Fin 80)
    ∗ tokD c (77 : Fin 80)
    ∗ tokD c (78 : Fin 80)
    ∗ tokD c (79 : Fin 80)
    ∗ crB c
    ∗ crD c (16 : Fin 80)
    ∗ crD c (17 : Fin 80)
    ∗ crD c (18 : Fin 80)
    ∗ crD c (19 : Fin 80)
    ∗ crD c (20 : Fin 80)
    ∗ crD c (21 : Fin 80)
    ∗ crD c (22 : Fin 80)
    ∗ crD c (23 : Fin 80)
    ∗ crD c (52 : Fin 80)
    ∗ crD c (53 : Fin 80)
    ∗ crD c (54 : Fin 80)
    ∗ crD c (55 : Fin 80)
    ∗ crD c (56 : Fin 80)
    ∗ crD c (57 : Fin 80)
    ∗ crD c (58 : Fin 80)
    ∗ crD c (59 : Fin 80)
    ∗ crD c (60 : Fin 80)
    ∗ crD c (61 : Fin 80)
    ∗ crD c (62 : Fin 80)
    ∗ crD c (63 : Fin 80)
    ∗ crD c (64 : Fin 80)
    ∗ crD c (65 : Fin 80)
    ∗ crD c (66 : Fin 80)
    ∗ crD c (67 : Fin 80)
    ∗ crD c (68 : Fin 80)
    ∗ crD c (69 : Fin 80)
    ∗ crD c (70 : Fin 80)
    ∗ crD c (71 : Fin 80)
    ∗ crD c (72 : Fin 80)
    ∗ crD c (73 : Fin 80)
    ∗ crD c (74 : Fin 80)
    ∗ crD c (75 : Fin 80)
    ∗ crD c (76 : Fin 80)
    ∗ crD c (77 : Fin 80)
    ∗ crD c (78 : Fin 80)
    ∗ crD c (79 : Fin 80)
    ∗ Qstg m c
    ∗ kSrcA m c (0 : Fin 4)
    ∗ kSrcA m c (1 : Fin 4)
    ∗ kSrcA m c (2 : Fin 4)
    ∗ kSrcA m c (3 : Fin 4)
    ∗ vSrcA m c (0 : Fin 4)
    ∗ vSrcA m c (1 : Fin 4)
    ∗ vSrcA m c (2 : Fin 4)
    ∗ vSrcA m c (3 : Fin 4)
    ∗ kDstE (F := F) c (0 : Fin 4)
    ∗ kDstE (F := F) c (1 : Fin 4)
    ∗ kDstE (F := F) c (2 : Fin 4)
    ∗ kDstE (F := F) c (3 : Fin 4)
    ∗ vDstE (F := F) c (0 : Fin 4)
    ∗ vDstE (F := F) c (1 : Fin 4)
    ∗ vDstE (F := F) c (2 : Fin 4)
    ∗ vDstE (F := F) c (3 : Fin 4)
    ∗ oE (F := F) c (0 : Fin 4)
    ∗ oE (F := F) c (1 : Fin 4)
    ∗ oE (F := F) c (2 : Fin 4)
    ∗ oE (F := F) c (3 : Fin 4)
    ∗ lE (F := F) c (0 : Fin 4)
    ∗ lE (F := F) c (1 : Fin 4)
    ∗ lE (F := F) c (2 : Fin 4)
    ∗ lE (F := F) c (3 : Fin 4)
    ∗ wholeE (F := F) c cc0_scratch4
    ∗ wholeE (F := F) c cc0_scratch5
    ∗ hE (F := F) c (0 : Fin 4) (hdN c) (hdN_lt c)
    ∗ hE (F := F) c (1 : Fin 4) (hdN c) (hdN_lt c)
    ∗ hE (F := F) c (2 : Fin 4) (hdN c) (hdN_lt c)
    ∗ hE (F := F) c (3 : Fin 4) (hdN c) (hdN_lt c)
    ∗ hE (F := F) c (0 : Fin 4) (hdN (pr (0 : Fin 7).succ c)) (hdN_lt _)
    ∗ hE (F := F) c (1 : Fin 4) (hdN (pr (0 : Fin 7).succ c)) (hdN_lt _)
    ∗ hE (F := F) c (2 : Fin 4) (hdN (pr (0 : Fin 7).succ c)) (hdN_lt _)
    ∗ hE (F := F) c (3 : Fin 4) (hdN (pr (0 : Fin 7).succ c)) (hdN_lt _)
    ∗ hE (F := F) c (0 : Fin 4) (hdN (pr (1 : Fin 7).succ c)) (hdN_lt _)
    ∗ hE (F := F) c (1 : Fin 4) (hdN (pr (1 : Fin 7).succ c)) (hdN_lt _)
    ∗ hE (F := F) c (2 : Fin 4) (hdN (pr (1 : Fin 7).succ c)) (hdN_lt _)
    ∗ hE (F := F) c (3 : Fin 4) (hdN (pr (1 : Fin 7).succ c)) (hdN_lt _)
    ∗ hE (F := F) c (0 : Fin 4) (hdN (pr (2 : Fin 7).succ c)) (hdN_lt _)
    ∗ hE (F := F) c (1 : Fin 4) (hdN (pr (2 : Fin 7).succ c)) (hdN_lt _)
    ∗ hE (F := F) c (2 : Fin 4) (hdN (pr (2 : Fin 7).succ c)) (hdN_lt _)
    ∗ hE (F := F) c (3 : Fin 4) (hdN (pr (2 : Fin 7).succ c)) (hdN_lt _)
    ∗ hE (F := F) c (0 : Fin 4) (hdN (pr (3 : Fin 7).succ c)) (hdN_lt _)
    ∗ hE (F := F) c (1 : Fin 4) (hdN (pr (3 : Fin 7).succ c)) (hdN_lt _)
    ∗ hE (F := F) c (2 : Fin 4) (hdN (pr (3 : Fin 7).succ c)) (hdN_lt _)
    ∗ hE (F := F) c (3 : Fin 4) (hdN (pr (3 : Fin 7).succ c)) (hdN_lt _)
    ∗ hE (F := F) c (0 : Fin 4) (hdN (pr (4 : Fin 7).succ c)) (hdN_lt _)
    ∗ hE (F := F) c (1 : Fin 4) (hdN (pr (4 : Fin 7).succ c)) (hdN_lt _)
    ∗ hE (F := F) c (2 : Fin 4) (hdN (pr (4 : Fin 7).succ c)) (hdN_lt _)
    ∗ hE (F := F) c (3 : Fin 4) (hdN (pr (4 : Fin 7).succ c)) (hdN_lt _)
    ∗ hE (F := F) c (0 : Fin 4) (hdN (pr (5 : Fin 7).succ c)) (hdN_lt _)
    ∗ hE (F := F) c (1 : Fin 4) (hdN (pr (5 : Fin 7).succ c)) (hdN_lt _)
    ∗ hE (F := F) c (2 : Fin 4) (hdN (pr (5 : Fin 7).succ c)) (hdN_lt _)
    ∗ hE (F := F) c (3 : Fin 4) (hdN (pr (5 : Fin 7).succ c)) (hdN_lt _)
    ∗ hE (F := F) c (0 : Fin 4) (hdN (pr (6 : Fin 7).succ c)) (hdN_lt _)
    ∗ hE (F := F) c (1 : Fin 4) (hdN (pr (6 : Fin 7).succ c)) (hdN_lt _)
    ∗ hE (F := F) c (2 : Fin 4) (hdN (pr (6 : Fin 7).succ c)) (hdN_lt _)
    ∗ hE (F := F) c (3 : Fin 4) (hdN (pr (6 : Fin 7).succ c)) (hdN_lt _))

/-- At the return. -/
def finalChain : sProp 𝕄 :=
  iprop((∃ W', owes (c : Thread nD τ) (owedFrom c 44) W')
    ∗ svD c (0 : Fin 80)
    ∗ svD c (1 : Fin 80)
    ∗ svD c (2 : Fin 80)
    ∗ svD c (3 : Fin 80)
    ∗ svD c (4 : Fin 80)
    ∗ svD c (5 : Fin 80)
    ∗ svD c (6 : Fin 80)
    ∗ svD c (7 : Fin 80)
    ∗ svD c (8 : Fin 80)
    ∗ svD c (9 : Fin 80)
    ∗ svD c (10 : Fin 80)
    ∗ svD c (11 : Fin 80)
    ∗ svD c (12 : Fin 80)
    ∗ svD c (13 : Fin 80)
    ∗ svD c (14 : Fin 80)
    ∗ svD c (15 : Fin 80)
    ∗ svD c (16 : Fin 80)
    ∗ svD c (17 : Fin 80)
    ∗ svD c (18 : Fin 80)
    ∗ svD c (19 : Fin 80)
    ∗ svD c (20 : Fin 80)
    ∗ svD c (21 : Fin 80)
    ∗ svD c (22 : Fin 80)
    ∗ svD c (23 : Fin 80)
    ∗ svD c (24 : Fin 80)
    ∗ svD c (25 : Fin 80)
    ∗ svD c (26 : Fin 80)
    ∗ svD c (27 : Fin 80)
    ∗ svD c (28 : Fin 80)
    ∗ svD c (29 : Fin 80)
    ∗ svD c (30 : Fin 80)
    ∗ svD c (31 : Fin 80)
    ∗ svD c (32 : Fin 80)
    ∗ svD c (33 : Fin 80)
    ∗ svD c (34 : Fin 80)
    ∗ svD c (35 : Fin 80)
    ∗ svD c (36 : Fin 80)
    ∗ svD c (37 : Fin 80)
    ∗ svD c (38 : Fin 80)
    ∗ svD c (39 : Fin 80)
    ∗ svD c (40 : Fin 80)
    ∗ svD c (41 : Fin 80)
    ∗ svD c (42 : Fin 80)
    ∗ svD c (43 : Fin 80)
    ∗ svD c (44 : Fin 80)
    ∗ svD c (45 : Fin 80)
    ∗ svD c (46 : Fin 80)
    ∗ svD c (47 : Fin 80)
    ∗ svD c (48 : Fin 80)
    ∗ svD c (49 : Fin 80)
    ∗ svD c (50 : Fin 80)
    ∗ svD c (51 : Fin 80)
    ∗ svD c (52 : Fin 80)
    ∗ svD c (53 : Fin 80)
    ∗ svD c (54 : Fin 80)
    ∗ svD c (55 : Fin 80)
    ∗ svD c (56 : Fin 80)
    ∗ svD c (57 : Fin 80)
    ∗ svD c (58 : Fin 80)
    ∗ svD c (59 : Fin 80)
    ∗ svD c (60 : Fin 80)
    ∗ svD c (61 : Fin 80)
    ∗ svD c (62 : Fin 80)
    ∗ svD c (63 : Fin 80)
    ∗ svD c (64 : Fin 80)
    ∗ svD c (65 : Fin 80)
    ∗ svD c (66 : Fin 80)
    ∗ svD c (67 : Fin 80)
    ∗ svD c (68 : Fin 80)
    ∗ svD c (69 : Fin 80)
    ∗ svD c (70 : Fin 80)
    ∗ svD c (71 : Fin 80)
    ∗ svD c (72 : Fin 80)
    ∗ svD c (73 : Fin 80)
    ∗ svD c (74 : Fin 80)
    ∗ svD c (75 : Fin 80)
    ∗ svD c (76 : Fin 80)
    ∗ svD c (77 : Fin 80)
    ∗ svD c (78 : Fin 80)
    ∗ svD c (79 : Fin 80)
    ∗ Qstg m c
    ∗ kSrcA m c (0 : Fin 4)
    ∗ kSrcA m c (1 : Fin 4)
    ∗ kSrcA m c (2 : Fin 4)
    ∗ kSrcA m c (3 : Fin 4)
    ∗ vSrcA m c (0 : Fin 4)
    ∗ vSrcA m c (1 : Fin 4)
    ∗ vSrcA m c (2 : Fin 4)
    ∗ vSrcA m c (3 : Fin 4)
    ∗ kDstA m c (0 : Fin 4)
    ∗ kDstA m c (1 : Fin 4)
    ∗ kDstA m c (2 : Fin 4)
    ∗ kDstA m c (3 : Fin 4)
    ∗ vDstA m c (0 : Fin 4)
    ∗ vDstA m c (1 : Fin 4)
    ∗ vDstA m c (2 : Fin 4)
    ∗ vDstA m c (3 : Fin 4)
    ∗ oA m c (0 : Fin 4)
    ∗ oA m c (1 : Fin 4)
    ∗ oA m c (2 : Fin 4)
    ∗ oA m c (3 : Fin 4)
    ∗ lA m c (0 : Fin 4)
    ∗ lA m c (1 : Fin 4)
    ∗ lA m c (2 : Fin 4)
    ∗ lA m c (3 : Fin 4)
    ∗ poA m c (0 : Fin 4)
    ∗ poA m c (1 : Fin 4)
    ∗ poA m c (2 : Fin 4)
    ∗ poA m c (3 : Fin 4)
    ∗ plA m c (0 : Fin 4)
    ∗ plA m c (1 : Fin 4)
    ∗ plA m c (2 : Fin 4)
    ∗ plA m c (3 : Fin 4)
    ∗ hA m c (0 : Fin 4) (hdN c) (hdN_lt c) (Transfers.shareDrop fullShare 7)
    ∗ hA m c (1 : Fin 4) (hdN c) (hdN_lt c) (Transfers.shareDrop fullShare 7)
    ∗ hA m c (2 : Fin 4) (hdN c) (hdN_lt c) (Transfers.shareDrop fullShare 7)
    ∗ hA m c (3 : Fin 4) (hdN c) (hdN_lt c) (Transfers.shareDrop fullShare 7)
    ∗ hA m c (0 : Fin 4) (hdN c) (hdN_lt c) (gsShare (0 : Fin 7))
    ∗ hA m c (0 : Fin 4) (hdN c) (hdN_lt c) (gsShare (1 : Fin 7))
    ∗ hA m c (0 : Fin 4) (hdN c) (hdN_lt c) (gsShare (2 : Fin 7))
    ∗ hA m c (0 : Fin 4) (hdN c) (hdN_lt c) (gsShare (3 : Fin 7))
    ∗ hA m c (0 : Fin 4) (hdN c) (hdN_lt c) (gsShare (4 : Fin 7))
    ∗ hA m c (0 : Fin 4) (hdN c) (hdN_lt c) (gsShare (5 : Fin 7))
    ∗ hA m c (0 : Fin 4) (hdN c) (hdN_lt c) (gsShare (6 : Fin 7))
    ∗ hA m c (1 : Fin 4) (hdN c) (hdN_lt c) (gsShare (0 : Fin 7))
    ∗ hA m c (1 : Fin 4) (hdN c) (hdN_lt c) (gsShare (1 : Fin 7))
    ∗ hA m c (1 : Fin 4) (hdN c) (hdN_lt c) (gsShare (2 : Fin 7))
    ∗ hA m c (1 : Fin 4) (hdN c) (hdN_lt c) (gsShare (3 : Fin 7))
    ∗ hA m c (1 : Fin 4) (hdN c) (hdN_lt c) (gsShare (4 : Fin 7))
    ∗ hA m c (1 : Fin 4) (hdN c) (hdN_lt c) (gsShare (5 : Fin 7))
    ∗ hA m c (1 : Fin 4) (hdN c) (hdN_lt c) (gsShare (6 : Fin 7))
    ∗ hA m c (2 : Fin 4) (hdN c) (hdN_lt c) (gsShare (0 : Fin 7))
    ∗ hA m c (2 : Fin 4) (hdN c) (hdN_lt c) (gsShare (1 : Fin 7))
    ∗ hA m c (2 : Fin 4) (hdN c) (hdN_lt c) (gsShare (2 : Fin 7))
    ∗ hA m c (2 : Fin 4) (hdN c) (hdN_lt c) (gsShare (3 : Fin 7))
    ∗ hA m c (2 : Fin 4) (hdN c) (hdN_lt c) (gsShare (4 : Fin 7))
    ∗ hA m c (2 : Fin 4) (hdN c) (hdN_lt c) (gsShare (5 : Fin 7))
    ∗ hA m c (2 : Fin 4) (hdN c) (hdN_lt c) (gsShare (6 : Fin 7))
    ∗ hA m c (3 : Fin 4) (hdN c) (hdN_lt c) (gsShare (0 : Fin 7))
    ∗ hA m c (3 : Fin 4) (hdN c) (hdN_lt c) (gsShare (1 : Fin 7))
    ∗ hA m c (3 : Fin 4) (hdN c) (hdN_lt c) (gsShare (2 : Fin 7))
    ∗ hA m c (3 : Fin 4) (hdN c) (hdN_lt c) (gsShare (3 : Fin 7))
    ∗ hA m c (3 : Fin 4) (hdN c) (hdN_lt c) (gsShare (4 : Fin 7))
    ∗ hA m c (3 : Fin 4) (hdN c) (hdN_lt c) (gsShare (5 : Fin 7))
    ∗ hA m c (3 : Fin 4) (hdN c) (hdN_lt c) (gsShare (6 : Fin 7))
    ∗ hA m c (0 : Fin 4) (hdN (pr (0 : Fin 7).succ c)) (hdN_lt _) fullShare
    ∗ hA m c (0 : Fin 4) (hdN (pr (1 : Fin 7).succ c)) (hdN_lt _) fullShare
    ∗ hA m c (0 : Fin 4) (hdN (pr (2 : Fin 7).succ c)) (hdN_lt _) fullShare
    ∗ hA m c (0 : Fin 4) (hdN (pr (3 : Fin 7).succ c)) (hdN_lt _) fullShare
    ∗ hA m c (0 : Fin 4) (hdN (pr (4 : Fin 7).succ c)) (hdN_lt _) fullShare
    ∗ hA m c (0 : Fin 4) (hdN (pr (5 : Fin 7).succ c)) (hdN_lt _) fullShare
    ∗ hA m c (0 : Fin 4) (hdN (pr (6 : Fin 7).succ c)) (hdN_lt _) fullShare
    ∗ hA m c (1 : Fin 4) (hdN (pr (0 : Fin 7).succ c)) (hdN_lt _) fullShare
    ∗ hA m c (1 : Fin 4) (hdN (pr (1 : Fin 7).succ c)) (hdN_lt _) fullShare
    ∗ hA m c (1 : Fin 4) (hdN (pr (2 : Fin 7).succ c)) (hdN_lt _) fullShare
    ∗ hA m c (1 : Fin 4) (hdN (pr (3 : Fin 7).succ c)) (hdN_lt _) fullShare
    ∗ hA m c (1 : Fin 4) (hdN (pr (4 : Fin 7).succ c)) (hdN_lt _) fullShare
    ∗ hA m c (1 : Fin 4) (hdN (pr (5 : Fin 7).succ c)) (hdN_lt _) fullShare
    ∗ hA m c (1 : Fin 4) (hdN (pr (6 : Fin 7).succ c)) (hdN_lt _) fullShare
    ∗ hA m c (2 : Fin 4) (hdN (pr (0 : Fin 7).succ c)) (hdN_lt _) fullShare
    ∗ hA m c (2 : Fin 4) (hdN (pr (1 : Fin 7).succ c)) (hdN_lt _) fullShare
    ∗ hA m c (2 : Fin 4) (hdN (pr (2 : Fin 7).succ c)) (hdN_lt _) fullShare
    ∗ hA m c (2 : Fin 4) (hdN (pr (3 : Fin 7).succ c)) (hdN_lt _) fullShare
    ∗ hA m c (2 : Fin 4) (hdN (pr (4 : Fin 7).succ c)) (hdN_lt _) fullShare
    ∗ hA m c (2 : Fin 4) (hdN (pr (5 : Fin 7).succ c)) (hdN_lt _) fullShare
    ∗ hA m c (2 : Fin 4) (hdN (pr (6 : Fin 7).succ c)) (hdN_lt _) fullShare
    ∗ hA m c (3 : Fin 4) (hdN (pr (0 : Fin 7).succ c)) (hdN_lt _) fullShare
    ∗ hA m c (3 : Fin 4) (hdN (pr (1 : Fin 7).succ c)) (hdN_lt _) fullShare
    ∗ hA m c (3 : Fin 4) (hdN (pr (2 : Fin 7).succ c)) (hdN_lt _) fullShare
    ∗ hA m c (3 : Fin 4) (hdN (pr (3 : Fin 7).succ c)) (hdN_lt _) fullShare
    ∗ hA m c (3 : Fin 4) (hdN (pr (4 : Fin 7).succ c)) (hdN_lt _) fullShare
    ∗ hA m c (3 : Fin 4) (hdN (pr (5 : Fin 7).succ c)) (hdN_lt _) fullShare
    ∗ hA m c (3 : Fin 4) (hdN (pr (6 : Fin 7).succ c)) (hdN_lt _) fullShare)

/-- The rows of the device's block of the keys that no copy reads (the other seven heads'), as launched; -/
def kRest : sProp 𝕄 :=
  (Memref.whole main_arg1).view.loc (c : Thread nD τ) ↦[arg1_rest c]{fullShare} m ((c : Thread nD τ).loc main_arg1)
/-- and of its block of the values. -/
def vRest : sProp 𝕄 :=
  (Memref.whole main_arg2).view.loc (c : Thread nD τ) ↦[arg2_rest c]{fullShare} m ((c : Thread nD τ).loc main_arg2)

/-! ## The buffers cut, and put back -/

theorem bg_scr0_in (f : Buf (Elt F) (((c : Dev nD) : Thread nD τ).loc cc0_scratch0)) :
    ((((c : Thread nD τ).loc cc0_scratch0) ↦{fullShare} f) : sProp 𝕄)
      ⊢ iprop(kDstE (F := F) c 0 ∗ kDstE (F := F) c 1 ∗ kDstE (F := F) c 2 ∗ kDstE (F := F) c 3) := by
  refine (Entails.of_eq ((scratch0_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr1_in (f : Buf (Elt F) (((c : Dev nD) : Thread nD τ).loc cc0_scratch1)) :
    ((((c : Thread nD τ).loc cc0_scratch1) ↦{fullShare} f) : sProp 𝕄)
      ⊢ iprop(vDstE (F := F) c 0 ∗ vDstE (F := F) c 1 ∗ vDstE (F := F) c 2 ∗ vDstE (F := F) c 3) := by
  refine (Entails.of_eq ((scratch1_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr2_in (f : Buf (Elt F) (((c : Dev nD) : Thread nD τ).loc cc0_scratch2)) :
    ((((c : Thread nD τ).loc cc0_scratch2) ↦{fullShare} f) : sProp 𝕄)
      ⊢ iprop(oE (F := F) c 0 ∗ oE (F := F) c 1 ∗ oE (F := F) c 2 ∗ oE (F := F) c 3) := by
  refine (Entails.of_eq ((scratch2_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr3_in (f : Buf (Elt F) (((c : Dev nD) : Thread nD τ).loc cc0_scratch3)) :
    ((((c : Thread nD τ).loc cc0_scratch3) ↦{fullShare} f) : sProp 𝕄)
      ⊢ iprop(lE (F := F) c 0 ∗ lE (F := F) c 1 ∗ lE (F := F) c 2 ∗ lE (F := F) c 3) := by
  refine (Entails.of_eq ((scratch3_batches c f).trans (bigSep_fin4 _))).trans ?_
  iintro ⟨H0, H1, H2, H3⟩
  isplitl [H0]; · iexists f; iexact H0
  isplitl [H1]; · iexists f; iexact H1
  isplitl [H2]; · iexists f; iexact H2
  iexists f; iexact H3

theorem bg_scr0_out :
    iprop(kDstA m c 0 ∗ kDstA m c 1 ∗ kDstA m c 2 ∗ kDstA m c 3)
      ⊢ (iprop(∃ f : Buf (Elt F) (((c : Dev nD) : Thread nD τ).loc cc0_scratch0), (((c : Thread nD τ).loc cc0_scratch0) ↦{fullShare} f)) : sProp 𝕄) := by
  refine (Entails.of_eq ((scratch0_batches c (kC m c)).trans (bigSep_fin4 _)).symm).trans ?_
  iintro H; iexists (kC m c); iexact H

theorem bg_scr1_out :
    iprop(vDstA m c 0 ∗ vDstA m c 1 ∗ vDstA m c 2 ∗ vDstA m c 3)
      ⊢ (iprop(∃ f : Buf (Elt F) (((c : Dev nD) : Thread nD τ).loc cc0_scratch1), (((c : Thread nD τ).loc cc0_scratch1) ↦{fullShare} f)) : sProp 𝕄) := by
  refine (Entails.of_eq ((scratch1_batches c (vC m c)).trans (bigSep_fin4 _)).symm).trans ?_
  iintro H; iexists (vC m c); iexact H

theorem bg_scr2_out :
    iprop(oA m c 0 ∗ oA m c 1 ∗ oA m c 2 ∗ oA m c 3)
      ⊢ (iprop(∃ f : Buf (Elt F) (((c : Dev nD) : Thread nD τ).loc cc0_scratch2), (((c : Thread nD τ).loc cc0_scratch2) ↦{fullShare} f)) : sProp 𝕄) := by
  refine (Entails.of_eq ((scratch2_batches c (oC m c)).trans (bigSep_fin4 _)).symm).trans ?_
  iintro H; iexists (oC m c); iexact H

theorem bg_scr3_out :
    iprop(lA m c 0 ∗ lA m c 1 ∗ lA m c 2 ∗ lA m c 3)
      ⊢ (iprop(∃ f : Buf (Elt F) (((c : Dev nD) : Thread nD τ).loc cc0_scratch3), (((c : Thread nD τ).loc cc0_scratch3) ↦{fullShare} f)) : sProp 𝕄) := by
  refine (Entails.of_eq ((scratch3_batches c (lC m c)).trans (bigSep_fin4 _)).symm).trans ?_
  iintro H; iexists (lC m c); iexact H

theorem bg_scr4_out :
    iprop(poA m c 0 ∗ poA m c 1 ∗ poA m c 2 ∗ poA m c 3)
      ⊢ (iprop(∃ f : Buf (Elt F) (((c : Dev nD) : Thread nD τ).loc cc0_scratch4), (((c : Thread nD τ).loc cc0_scratch4) ↦{fullShare} f)) : sProp 𝕄) := by
  refine (Entails.of_eq ((scratch4_batches c (oC m (pr 0 c))).trans (bigSep_fin4 _)).symm).trans ?_
  iintro H; iexists (oC m (pr 0 c)); iexact H

theorem bg_scr5_out :
    iprop(plA m c 0 ∗ plA m c 1 ∗ plA m c 2 ∗ plA m c 3)
      ⊢ (iprop(∃ f : Buf (Elt F) (((c : Dev nD) : Thread nD τ).loc cc0_scratch5), (((c : Thread nD τ).loc cc0_scratch5) ↦{fullShare} f)) : sProp 𝕄) := by
  refine (Entails.of_eq ((scratch5_batches c (lC m (pr 0 c))).trans (bigSep_fin4 _)).symm).trans ?_
  iintro H; iexists (lC m (pr 0 c)); iexact H

/-- The keys' block: the four rows of the device's head, and the rest. -/
theorem bg_aK_eq : ((((c : Thread nD τ).loc main_arg1) ↦{fullShare} m ((c : Thread nD τ).loc main_arg1)) : sProp 𝕄)
    = iprop((kSrcA m c 0 ∗ kSrcA m c 1 ∗ kSrcA m c 2 ∗ kSrcA m c 3) ∗ kRest m c) := by
  unfold kRest
  rw [← bigSep_fin4 (fun b : Fin 4 => kSrcA m c b)]
  exact arg1_batches_rest c (m ((c : Thread nD τ).loc main_arg1))
theorem bg_aV_eq : ((((c : Thread nD τ).loc main_arg2) ↦{fullShare} m ((c : Thread nD τ).loc main_arg2)) : sProp 𝕄)
    = iprop((vSrcA m c 0 ∗ vSrcA m c 1 ∗ vSrcA m c 2 ∗ vSrcA m c 3) ∗ vRest m c) := by
  unfold vRest
  rw [← bigSep_fin4 (fun b : Fin 4 => vSrcA m c b)]
  exact arg2_batches_rest c (m ((c : Thread nD τ).loc main_arg2))

/-- The staged query array is its buffer whole. -/
theorem Qstg_eq : (Qstg m c : sProp 𝕄) = (((c : Thread nD τ).loc cc0_stg0_0) ↦{fullShare} Qst m c) := by
  show ((qM : Memref sig .tc .vmem S4x32x8x128 .f32).view.loc (c : Thread nD τ) ↦[(qM : Memref sig .tc .vmem S4x32x8x128 .f32).view.set]{fullShare} Qst m c) = _
  simp only [Memref.view_whole, View.set_whole]

/-- The result buffer at some contents, row by row: the device's own head's four, then each other head's four. -/
theorem bg_rows_in (f : Buf (Elt F) (((c : Dev nD) : Thread nD τ).loc cc0_stg1_0)) :
    ((((c : Thread nD τ).loc cc0_stg1_0) ↦{fullShare} f) : sProp 𝕄)
      ⊢ iprop(hE (F := F) c 0 (hdN c) (hdN_lt c) ∗ hE (F := F) c 1 (hdN c) (hdN_lt c) ∗ hE (F := F) c 2 (hdN c) (hdN_lt c) ∗ hE (F := F) c 3 (hdN c) (hdN_lt c)
          ∗ hE (F := F) c 0 (hdN (pr (0 : Fin 7).succ c)) (hdN_lt _)
          ∗ hE (F := F) c 1 (hdN (pr (0 : Fin 7).succ c)) (hdN_lt _)
          ∗ hE (F := F) c 2 (hdN (pr (0 : Fin 7).succ c)) (hdN_lt _)
          ∗ hE (F := F) c 3 (hdN (pr (0 : Fin 7).succ c)) (hdN_lt _)
          ∗ hE (F := F) c 0 (hdN (pr (1 : Fin 7).succ c)) (hdN_lt _)
          ∗ hE (F := F) c 1 (hdN (pr (1 : Fin 7).succ c)) (hdN_lt _)
          ∗ hE (F := F) c 2 (hdN (pr (1 : Fin 7).succ c)) (hdN_lt _)
          ∗ hE (F := F) c 3 (hdN (pr (1 : Fin 7).succ c)) (hdN_lt _)
          ∗ hE (F := F) c 0 (hdN (pr (2 : Fin 7).succ c)) (hdN_lt _)
          ∗ hE (F := F) c 1 (hdN (pr (2 : Fin 7).succ c)) (hdN_lt _)
          ∗ hE (F := F) c 2 (hdN (pr (2 : Fin 7).succ c)) (hdN_lt _)
          ∗ hE (F := F) c 3 (hdN (pr (2 : Fin 7).succ c)) (hdN_lt _)
          ∗ hE (F := F) c 0 (hdN (pr (3 : Fin 7).succ c)) (hdN_lt _)
          ∗ hE (F := F) c 1 (hdN (pr (3 : Fin 7).succ c)) (hdN_lt _)
          ∗ hE (F := F) c 2 (hdN (pr (3 : Fin 7).succ c)) (hdN_lt _)
          ∗ hE (F := F) c 3 (hdN (pr (3 : Fin 7).succ c)) (hdN_lt _)
          ∗ hE (F := F) c 0 (hdN (pr (4 : Fin 7).succ c)) (hdN_lt _)
          ∗ hE (F := F) c 1 (hdN (pr (4 : Fin 7).succ c)) (hdN_lt _)
          ∗ hE (F := F) c 2 (hdN (pr (4 : Fin 7).succ c)) (hdN_lt _)
          ∗ hE (F := F) c 3 (hdN (pr (4 : Fin 7).succ c)) (hdN_lt _)
          ∗ hE (F := F) c 0 (hdN (pr (5 : Fin 7).succ c)) (hdN_lt _)
          ∗ hE (F := F) c 1 (hdN (pr (5 : Fin 7).succ c)) (hdN_lt _)
          ∗ hE (F := F) c 2 (hdN (pr (5 : Fin 7).succ c)) (hdN_lt _)
          ∗ hE (F := F) c 3 (hdN (pr (5 : Fin 7).succ c)) (hdN_lt _)
          ∗ hE (F := F) c 0 (hdN (pr (6 : Fin 7).succ c)) (hdN_lt _)
          ∗ hE (F := F) c 1 (hdN (pr (6 : Fin 7).succ c)) (hdN_lt _)
          ∗ hE (F := F) c 2 (hdN (pr (6 : Fin 7).succ c)) (hdN_lt _)
          ∗ hE (F := F) c 3 (hdN (pr (6 : Fin 7).succ c)) (hdN_lt _)) := by
  rw [rM_own_peers_imajor c f, bigSep_fin4, bigSep_fin7x4 (fun (i : Fin 7) (b : Fin 4) => slPts c (hSl b.val b.isLt (hdN (pr i.succ c)) (hdN_lt _) rM) fullShare f)]
  iintro ⟨⟨HO0, HO1, HO2, HO3⟩, HP0, HP1, HP2, HP3, HP4, HP5, HP6, HP7, HP8, HP9, HP10, HP11, HP12, HP13, HP14, HP15, HP16, HP17, HP18, HP19, HP20, HP21, HP22, HP23, HP24, HP25, HP26, HP27⟩
  isplitl [HO0]; · iexists f; iexact HO0
  isplitl [HO1]; · iexists f; iexact HO1
  isplitl [HO2]; · iexists f; iexact HO2
  isplitl [HO3]; · iexists f; iexact HO3
  isplitl [HP0]; · iexists f; iexact HP0
  isplitl [HP1]; · iexists f; iexact HP1
  isplitl [HP2]; · iexists f; iexact HP2
  isplitl [HP3]; · iexists f; iexact HP3
  isplitl [HP4]; · iexists f; iexact HP4
  isplitl [HP5]; · iexists f; iexact HP5
  isplitl [HP6]; · iexists f; iexact HP6
  isplitl [HP7]; · iexists f; iexact HP7
  isplitl [HP8]; · iexists f; iexact HP8
  isplitl [HP9]; · iexists f; iexact HP9
  isplitl [HP10]; · iexists f; iexact HP10
  isplitl [HP11]; · iexists f; iexact HP11
  isplitl [HP12]; · iexists f; iexact HP12
  isplitl [HP13]; · iexists f; iexact HP13
  isplitl [HP14]; · iexists f; iexact HP14
  isplitl [HP15]; · iexists f; iexact HP15
  isplitl [HP16]; · iexists f; iexact HP16
  isplitl [HP17]; · iexists f; iexact HP17
  isplitl [HP18]; · iexists f; iexact HP18
  isplitl [HP19]; · iexists f; iexact HP19
  isplitl [HP20]; · iexists f; iexact HP20
  isplitl [HP21]; · iexists f; iexact HP21
  isplitl [HP22]; · iexists f; iexact HP22
  isplitl [HP23]; · iexists f; iexact HP23
  isplitl [HP24]; · iexists f; iexact HP24
  isplitl [HP25]; · iexists f; iexact HP25
  isplitl [HP26]; · iexists f; iexact HP26
  iexists f; iexact HP27

/-- The result rows at the merged blocks, put back: the result buffer whole. -/
theorem bg_rows_out :
    iprop((hA m c 0 (hdN c) (hdN_lt c) fullShare ∗ hA m c 1 (hdN c) (hdN_lt c) fullShare ∗ hA m c 2 (hdN c) (hdN_lt c) fullShare ∗ hA m c 3 (hdN c) (hdN_lt c) fullShare)
        ∗ hA m c 0 (hdN (pr (0 : Fin 7).succ c)) (hdN_lt _) fullShare
        ∗ hA m c 0 (hdN (pr (1 : Fin 7).succ c)) (hdN_lt _) fullShare
        ∗ hA m c 0 (hdN (pr (2 : Fin 7).succ c)) (hdN_lt _) fullShare
        ∗ hA m c 0 (hdN (pr (3 : Fin 7).succ c)) (hdN_lt _) fullShare
        ∗ hA m c 0 (hdN (pr (4 : Fin 7).succ c)) (hdN_lt _) fullShare
        ∗ hA m c 0 (hdN (pr (5 : Fin 7).succ c)) (hdN_lt _) fullShare
        ∗ hA m c 0 (hdN (pr (6 : Fin 7).succ c)) (hdN_lt _) fullShare
        ∗ hA m c 1 (hdN (pr (0 : Fin 7).succ c)) (hdN_lt _) fullShare
        ∗ hA m c 1 (hdN (pr (1 : Fin 7).succ c)) (hdN_lt _) fullShare
        ∗ hA m c 1 (hdN (pr (2 : Fin 7).succ c)) (hdN_lt _) fullShare
        ∗ hA m c 1 (hdN (pr (3 : Fin 7).succ c)) (hdN_lt _) fullShare
        ∗ hA m c 1 (hdN (pr (4 : Fin 7).succ c)) (hdN_lt _) fullShare
        ∗ hA m c 1 (hdN (pr (5 : Fin 7).succ c)) (hdN_lt _) fullShare
        ∗ hA m c 1 (hdN (pr (6 : Fin 7).succ c)) (hdN_lt _) fullShare
        ∗ hA m c 2 (hdN (pr (0 : Fin 7).succ c)) (hdN_lt _) fullShare
        ∗ hA m c 2 (hdN (pr (1 : Fin 7).succ c)) (hdN_lt _) fullShare
        ∗ hA m c 2 (hdN (pr (2 : Fin 7).succ c)) (hdN_lt _) fullShare
        ∗ hA m c 2 (hdN (pr (3 : Fin 7).succ c)) (hdN_lt _) fullShare
        ∗ hA m c 2 (hdN (pr (4 : Fin 7).succ c)) (hdN_lt _) fullShare
        ∗ hA m c 2 (hdN (pr (5 : Fin 7).succ c)) (hdN_lt _) fullShare
        ∗ hA m c 2 (hdN (pr (6 : Fin 7).succ c)) (hdN_lt _) fullShare
        ∗ hA m c 3 (hdN (pr (0 : Fin 7).succ c)) (hdN_lt _) fullShare
        ∗ hA m c 3 (hdN (pr (1 : Fin 7).succ c)) (hdN_lt _) fullShare
        ∗ hA m c 3 (hdN (pr (2 : Fin 7).succ c)) (hdN_lt _) fullShare
        ∗ hA m c 3 (hdN (pr (3 : Fin 7).succ c)) (hdN_lt _) fullShare
        ∗ hA m c 3 (hdN (pr (4 : Fin 7).succ c)) (hdN_lt _) fullShare
        ∗ hA m c 3 (hdN (pr (5 : Fin 7).succ c)) (hdN_lt _) fullShare
        ∗ hA m c 3 (hdN (pr (6 : Fin 7).succ c)) (hdN_lt _) fullShare)
      ⊢ ((((c : Thread nD τ).loc cc0_stg1_0) ↦{fullShare} outC m c) : sProp 𝕄) := by
  rw [rM_own_peers c (outC m c), bigSep_fin4, bigSep_fin4x7 (fun (b : Fin 4) (i : Fin 7) => slPts c (hSl b.val b.isLt (hdN (pr i.succ c)) (hdN_lt _) rM) fullShare (outC m c))]

/-! ## At entry -/

set_option maxHeartbeats 4000000 in
set_option maxRecDepth 8000 in
/-- What the launch hands the device is the body's resources at entry, for some recorded waits, with the unread
    rows of the keys' and values' blocks kept aside. -/
theorem body_in : bodyPre m K c ⊢ iprop(∃ W : Waits sig Unit, initChain m K c W ∗ kRest m c ∗ vRest m c) := by
  unfold bodyPre kvPts
  iintro ⟨⟨Hg, Hcr, #HL, ⟨Hk1, Hk2⟩, Hscr⟩, Ho, ⟨%d0, %g0, %hg0, Hx⟩, ⟨%d1, %g1, %hg1, Hy⟩⟩
  have hx : g0 = Qst m c := by rw [hg0]; unfold Dat.before; rw [if_pos (fetch_0 t₀)]; rfl
  subst hx
  unfold Dat.owesAt Pipeline.owesWithin
  icases Ho with ⟨%W, %hW, HO⟩
  iexists W
  ihave Hg' := (ghost_unpack m K c) $$ Hg
  icases Hg' with ⟨#HR, HpB, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, Hp70, Hp71, Hp72, Hp73, Hp74, Hp75, Hp76, Hp77, Hp78, Hp79⟩, ⟨HtB0, HtB1, HtB2, HtB3, HtB4, HtB5, HtB6, HtB7⟩, HtD0, HtD1, HtD2, HtD3, HtD4, HtD5, HtD6, HtD7, HtD8, HtD9, HtD10, HtD11, HtD12, HtD13, HtD14, HtD15, HtD16, HtD17, HtD18, HtD19, HtD20, HtD21, HtD22, HtD23, HtD24, HtD25, HtD26, HtD27, HtD28, HtD29, HtD30, HtD31, HtD32, HtD33, HtD34, HtD35, HtD36, HtD37, HtD38, HtD39, HtD40, HtD41, HtD42, HtD43, HtD44, HtD45, HtD46, HtD47, HtD48, HtD49, HtD50, HtD51, HtD52, HtD53, HtD54, HtD55, HtD56, HtD57, HtD58, HtD59, HtD60, HtD61, HtD62, HtD63, HtD64, HtD65, HtD66, HtD67, HtD68, HtD69, HtD70, HtD71, HtD72, HtD73, HtD74, HtD75, HtD76, HtD77, HtD78, HtD79⟩
  ihave Hcr' := (creds_unpack (F := F) c) $$ Hcr
  icases Hcr' with ⟨HcB, ⟨Hc16, Hc17, Hc18, Hc19, Hc20, Hc21, Hc22, Hc23⟩, Hc52, Hc53, Hc54, Hc55, Hc56, Hc57, Hc58, Hc59, Hc60, Hc61, Hc62, Hc63, Hc64, Hc65, Hc66, Hc67, Hc68, Hc69, Hc70, Hc71, Hc72, Hc73, Hc74, Hc75, Hc76, Hc77, Hc78, Hc79⟩
  ihave HQ := (Entails.of_eq (Qstg_eq m c).symm) $$ Hx
  ihave Hk1' := (Entails.of_eq (bg_aK_eq m c)) $$ Hk1
  icases Hk1' with ⟨⟨HkS0, HkS1, HkS2, HkS3⟩, Hr1⟩
  ihave Hk2' := (Entails.of_eq (bg_aV_eq m c)) $$ Hk2
  icases Hk2' with ⟨⟨HvS0, HvS1, HvS2, HvS3⟩, Hr2⟩
  ihave Hs := (Entails.of_eq (scopedRest0_eq (Ix := Unit) (Val := Elt F) (Name := ℕ) (U := UU) (Lvl := ℕ) c)) $$ Hscr
  icases Hs with ⟨⟨%f0, Hs0⟩, ⟨%f1, Hs1⟩, ⟨%f2, Hs2⟩, ⟨%f3, Hs3⟩, Hw4, Hw5⟩
  ihave Hs0' := (bg_scr0_in (F := F) c f0) $$ Hs0
  icases Hs0' with ⟨HkD0, HkD1, HkD2, HkD3⟩
  ihave Hs1' := (bg_scr1_in (F := F) c f1) $$ Hs1
  icases Hs1' with ⟨HvD0, HvD1, HvD2, HvD3⟩
  ihave Hs2' := (bg_scr2_in (F := F) c f2) $$ Hs2
  icases Hs2' with ⟨Ho0, Ho1, Ho2, Ho3⟩
  ihave Hs3' := (bg_scr3_in (F := F) c f3) $$ Hs3
  icases Hs3' with ⟨Hl0, Hl1, Hl2, Hl3⟩
  ihave Hy' := (bg_rows_in (F := F) c g1) $$ Hy
  icases Hy' with ⟨HhO0, HhO1, HhO2, HhO3, HhP0, HhP1, HhP2, HhP3, HhP4, HhP5, HhP6, HhP7, HhP8, HhP9, HhP10, HhP11, HhP12, HhP13, HhP14, HhP15, HhP16, HhP17, HhP18, HhP19, HhP20, HhP21, HhP22, HhP23, HhP24, HhP25, HhP26, HhP27⟩
  isplitr [Hr1 Hr2]
  · unfold initChain
    rw [show (dats m 0 c).owed t₀.castSucc = owedFrom c 0 from rfl]
    isplitr; · iexact HR
    isplitr; · iexact HL
    isplitl [HO]; · iexact HO
    isplitl [HpB]; · iexact HpB
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    isplitl [Hp18]; · iexact Hp18
    isplitl [Hp19]; · iexact Hp19
    isplitl [Hp20]; · iexact Hp20
    isplitl [Hp21]; · iexact Hp21
    isplitl [Hp22]; · iexact Hp22
    isplitl [Hp23]; · iexact Hp23
    isplitl [Hp24]; · iexact Hp24
    isplitl [Hp25]; · iexact Hp25
    isplitl [Hp26]; · iexact Hp26
    isplitl [Hp27]; · iexact Hp27
    isplitl [Hp28]; · iexact Hp28
    isplitl [Hp29]; · iexact Hp29
    isplitl [Hp30]; · iexact Hp30
    isplitl [Hp31]; · iexact Hp31
    isplitl [Hp32]; · iexact Hp32
    isplitl [Hp33]; · iexact Hp33
    isplitl [Hp34]; · iexact Hp34
    isplitl [Hp35]; · iexact Hp35
    isplitl [Hp36]; · iexact Hp36
    isplitl [Hp37]; · iexact Hp37
    isplitl [Hp38]; · iexact Hp38
    isplitl [Hp39]; · iexact Hp39
    isplitl [Hp40]; · iexact Hp40
    isplitl [Hp41]; · iexact Hp41
    isplitl [Hp42]; · iexact Hp42
    isplitl [Hp43]; · iexact Hp43
    isplitl [Hp44]; · iexact Hp44
    isplitl [Hp45]; · iexact Hp45
    isplitl [Hp46]; · iexact Hp46
    isplitl [Hp47]; · iexact Hp47
    isplitl [Hp48]; · iexact Hp48
    isplitl [Hp49]; · iexact Hp49
    isplitl [Hp50]; · iexact Hp50
    isplitl [Hp51]; · iexact Hp51
    isplitl [Hp52]; · iexact Hp52
    isplitl [Hp53]; · iexact Hp53
    isplitl [Hp54]; · iexact Hp54
    isplitl [Hp55]; · iexact Hp55
    isplitl [Hp56]; · iexact Hp56
    isplitl [Hp57]; · iexact Hp57
    isplitl [Hp58]; · iexact Hp58
    isplitl [Hp59]; · iexact Hp59
    isplitl [Hp60]; · iexact Hp60
    isplitl [Hp61]; · iexact Hp61
    isplitl [Hp62]; · iexact Hp62
    isplitl [Hp63]; · iexact Hp63
    isplitl [Hp64]; · iexact Hp64
    isplitl [Hp65]; · iexact Hp65
    isplitl [Hp66]; · iexact Hp66
    isplitl [Hp67]; · iexact Hp67
    isplitl [Hp68]; · iexact Hp68
    isplitl [Hp69]; · iexact Hp69
    isplitl [Hp70]; · iexact Hp70
    isplitl [Hp71]; · iexact Hp71
    isplitl [Hp72]; · iexact Hp72
    isplitl [Hp73]; · iexact Hp73
    isplitl [Hp74]; · iexact Hp74
    isplitl [Hp75]; · iexact Hp75
    isplitl [Hp76]; · iexact Hp76
    isplitl [Hp77]; · iexact Hp77
    isplitl [Hp78]; · iexact Hp78
    isplitl [Hp79]; · iexact Hp79
    isplitl [HtB0]; · iexact HtB0
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [HtD0]; · iexact HtD0
    isplitl [HtD1]; · iexact HtD1
    isplitl [HtD2]; · iexact HtD2
    isplitl [HtD3]; · iexact HtD3
    isplitl [HtD4]; · iexact HtD4
    isplitl [HtD5]; · iexact HtD5
    isplitl [HtD6]; · iexact HtD6
    isplitl [HtD7]; · iexact HtD7
    isplitl [HtD8]; · iexact HtD8
    isplitl [HtD9]; · iexact HtD9
    isplitl [HtD10]; · iexact HtD10
    isplitl [HtD11]; · iexact HtD11
    isplitl [HtD12]; · iexact HtD12
    isplitl [HtD13]; · iexact HtD13
    isplitl [HtD14]; · iexact HtD14
    isplitl [HtD15]; · iexact HtD15
    isplitl [HtD16]; · iexact HtD16
    isplitl [HtD17]; · iexact HtD17
    isplitl [HtD18]; · iexact HtD18
    isplitl [HtD19]; · iexact HtD19
    isplitl [HtD20]; · iexact HtD20
    isplitl [HtD21]; · iexact HtD21
    isplitl [HtD22]; · iexact HtD22
    isplitl [HtD23]; · iexact HtD23
    isplitl [HtD24]; · iexact HtD24
    isplitl [HtD25]; · iexact HtD25
    isplitl [HtD26]; · iexact HtD26
    isplitl [HtD27]; · iexact HtD27
    isplitl [HtD28]; · iexact HtD28
    isplitl [HtD29]; · iexact HtD29
    isplitl [HtD30]; · iexact HtD30
    isplitl [HtD31]; · iexact HtD31
    isplitl [HtD32]; · iexact HtD32
    isplitl [HtD33]; · iexact HtD33
    isplitl [HtD34]; · iexact HtD34
    isplitl [HtD35]; · iexact HtD35
    isplitl [HtD36]; · iexact HtD36
    isplitl [HtD37]; · iexact HtD37
    isplitl [HtD38]; · iexact HtD38
    isplitl [HtD39]; · iexact HtD39
    isplitl [HtD40]; · iexact HtD40
    isplitl [HtD41]; · iexact HtD41
    isplitl [HtD42]; · iexact HtD42
    isplitl [HtD43]; · iexact HtD43
    isplitl [HtD44]; · iexact HtD44
    isplitl [HtD45]; · iexact HtD45
    isplitl [HtD46]; · iexact HtD46
    isplitl [HtD47]; · iexact HtD47
    isplitl [HtD48]; · iexact HtD48
    isplitl [HtD49]; · iexact HtD49
    isplitl [HtD50]; · iexact HtD50
    isplitl [HtD51]; · iexact HtD51
    isplitl [HtD52]; · iexact HtD52
    isplitl [HtD53]; · iexact HtD53
    isplitl [HtD54]; · iexact HtD54
    isplitl [HtD55]; · iexact HtD55
    isplitl [HtD56]; · iexact HtD56
    isplitl [HtD57]; · iexact HtD57
    isplitl [HtD58]; · iexact HtD58
    isplitl [HtD59]; · iexact HtD59
    isplitl [HtD60]; · iexact HtD60
    isplitl [HtD61]; · iexact HtD61
    isplitl [HtD62]; · iexact HtD62
    isplitl [HtD63]; · iexact HtD63
    isplitl [HtD64]; · iexact HtD64
    isplitl [HtD65]; · iexact HtD65
    isplitl [HtD66]; · iexact HtD66
    isplitl [HtD67]; · iexact HtD67
    isplitl [HtD68]; · iexact HtD68
    isplitl [HtD69]; · iexact HtD69
    isplitl [HtD70]; · iexact HtD70
    isplitl [HtD71]; · iexact HtD71
    isplitl [HtD72]; · iexact HtD72
    isplitl [HtD73]; · iexact HtD73
    isplitl [HtD74]; · iexact HtD74
    isplitl [HtD75]; · iexact HtD75
    isplitl [HtD76]; · iexact HtD76
    isplitl [HtD77]; · iexact HtD77
    isplitl [HtD78]; · iexact HtD78
    isplitl [HtD79]; · iexact HtD79
    isplitl [HcB]; · iexact HcB
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc52]; · iexact Hc52
    isplitl [Hc53]; · iexact Hc53
    isplitl [Hc54]; · iexact Hc54
    isplitl [Hc55]; · iexact Hc55
    isplitl [Hc56]; · iexact Hc56
    isplitl [Hc57]; · iexact Hc57
    isplitl [Hc58]; · iexact Hc58
    isplitl [Hc59]; · iexact Hc59
    isplitl [Hc60]; · iexact Hc60
    isplitl [Hc61]; · iexact Hc61
    isplitl [Hc62]; · iexact Hc62
    isplitl [Hc63]; · iexact Hc63
    isplitl [Hc64]; · iexact Hc64
    isplitl [Hc65]; · iexact Hc65
    isplitl [Hc66]; · iexact Hc66
    isplitl [Hc67]; · iexact Hc67
    isplitl [Hc68]; · iexact Hc68
    isplitl [Hc69]; · iexact Hc69
    isplitl [Hc70]; · iexact Hc70
    isplitl [Hc71]; · iexact Hc71
    isplitl [Hc72]; · iexact Hc72
    isplitl [Hc73]; · iexact Hc73
    isplitl [Hc74]; · iexact Hc74
    isplitl [Hc75]; · iexact Hc75
    isplitl [Hc76]; · iexact Hc76
    isplitl [Hc77]; · iexact Hc77
    isplitl [Hc78]; · iexact Hc78
    isplitl [Hc79]; · iexact Hc79
    isplitl [HQ]; · iexact HQ
    isplitl [HkS0]; · iexact HkS0
    isplitl [HkS1]; · iexact HkS1
    isplitl [HkS2]; · iexact HkS2
    isplitl [HkS3]; · iexact HkS3
    isplitl [HvS0]; · iexact HvS0
    isplitl [HvS1]; · iexact HvS1
    isplitl [HvS2]; · iexact HvS2
    isplitl [HvS3]; · iexact HvS3
    isplitl [HkD0]; · iexact HkD0
    isplitl [HkD1]; · iexact HkD1
    isplitl [HkD2]; · iexact HkD2
    isplitl [HkD3]; · iexact HkD3
    isplitl [HvD0]; · iexact HvD0
    isplitl [HvD1]; · iexact HvD1
    isplitl [HvD2]; · iexact HvD2
    isplitl [HvD3]; · iexact HvD3
    isplitl [Ho0]; · iexact Ho0
    isplitl [Ho1]; · iexact Ho1
    isplitl [Ho2]; · iexact Ho2
    isplitl [Ho3]; · iexact Ho3
    isplitl [Hl0]; · iexact Hl0
    isplitl [Hl1]; · iexact Hl1
    isplitl [Hl2]; · iexact Hl2
    isplitl [Hl3]; · iexact Hl3
    isplitl [Hw4]; · iexact Hw4
    isplitl [Hw5]; · iexact Hw5
    isplitl [HhO0]; · iexact HhO0
    isplitl [HhO1]; · iexact HhO1
    isplitl [HhO2]; · iexact HhO2
    isplitl [HhO3]; · iexact HhO3
    isplitl [HhP0]; · iexact HhP0
    isplitl [HhP1]; · iexact HhP1
    isplitl [HhP2]; · iexact HhP2
    isplitl [HhP3]; · iexact HhP3
    isplitl [HhP4]; · iexact HhP4
    isplitl [HhP5]; · iexact HhP5
    isplitl [HhP6]; · iexact HhP6
    isplitl [HhP7]; · iexact HhP7
    isplitl [HhP8]; · iexact HhP8
    isplitl [HhP9]; · iexact HhP9
    isplitl [HhP10]; · iexact HhP10
    isplitl [HhP11]; · iexact HhP11
    isplitl [HhP12]; · iexact HhP12
    isplitl [HhP13]; · iexact HhP13
    isplitl [HhP14]; · iexact HhP14
    isplitl [HhP15]; · iexact HhP15
    isplitl [HhP16]; · iexact HhP16
    isplitl [HhP17]; · iexact HhP17
    isplitl [HhP18]; · iexact HhP18
    isplitl [HhP19]; · iexact HhP19
    isplitl [HhP20]; · iexact HhP20
    isplitl [HhP21]; · iexact HhP21
    isplitl [HhP22]; · iexact HhP22
    isplitl [HhP23]; · iexact HhP23
    isplitl [HhP24]; · iexact HhP24
    isplitl [HhP25]; · iexact HhP25
    isplitl [HhP26]; · iexact HhP26
    iexact HhP27
  · isplitl [Hr1]; · iexact Hr1
    iexact Hr2

/-! ## At the return -/

set_option maxHeartbeats 4000000 in
set_option maxRecDepth 8000 in
/-- The body's resources at the return, with the rows kept aside, are what the launch asks back. -/
theorem body_out : iprop(finalChain m c ∗ kRest m c ∗ vRest m c) ⊢ bodyPost m c := by
  unfold finalChain
  iintro ⟨⟨⟨%W', HOw⟩, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, HQ, HkS0, HkS1, HkS2, HkS3, HvS0, HvS1, HvS2, HvS3, HkD0, HkD1, HkD2, HkD3, HvD0, HvD1, HvD2, HvD3, Ho0, Ho1, Ho2, Ho3, Hl0, Hl1, Hl2, Hl3, Hpo0, Hpo1, Hpo2, Hpo3, Hpl0, Hpl1, Hpl2, Hpl3, HhD0, HhD1, HhD2, HhD3, HhG0_0, HhG0_1, HhG0_2, HhG0_3, HhG0_4, HhG0_5, HhG0_6, HhG1_0, HhG1_1, HhG1_2, HhG1_3, HhG1_4, HhG1_5, HhG1_6, HhG2_0, HhG2_1, HhG2_2, HhG2_3, HhG2_4, HhG2_5, HhG2_6, HhG3_0, HhG3_1, HhG3_2, HhG3_3, HhG3_4, HhG3_5, HhG3_6, HhP0_0, HhP0_1, HhP0_2, HhP0_3, HhP0_4, HhP0_5, HhP0_6, HhP1_0, HhP1_1, HhP1_2, HhP1_3, HhP1_4, HhP1_5, HhP1_6, HhP2_0, HhP2_1, HhP2_2, HhP2_3, HhP2_4, HhP2_5, HhP2_6, HhP3_0, HhP3_1, HhP3_2, HhP3_3, HhP3_4, HhP3_5, HhP3_6⟩, Hr1, Hr2⟩
  -- each of the device's own result rows whole again, from the share it kept and the seven it lent
  ihave HhF0 := (hA_shares_join m c 0 (hdN c) (hdN_lt c)) $$ [HhD0 HhG0_0 HhG0_1 HhG0_2 HhG0_3 HhG0_4 HhG0_5 HhG0_6]
  · isplitl [HhD0]; · iexact HhD0
    isplitl [HhG0_0]; · iexact HhG0_0
    isplitl [HhG0_1]; · iexact HhG0_1
    isplitl [HhG0_2]; · iexact HhG0_2
    isplitl [HhG0_3]; · iexact HhG0_3
    isplitl [HhG0_4]; · iexact HhG0_4
    isplitl [HhG0_5]; · iexact HhG0_5
    iexact HhG0_6
  ihave HhF1 := (hA_shares_join m c 1 (hdN c) (hdN_lt c)) $$ [HhD1 HhG1_0 HhG1_1 HhG1_2 HhG1_3 HhG1_4 HhG1_5 HhG1_6]
  · isplitl [HhD1]; · iexact HhD1
    isplitl [HhG1_0]; · iexact HhG1_0
    isplitl [HhG1_1]; · iexact HhG1_1
    isplitl [HhG1_2]; · iexact HhG1_2
    isplitl [HhG1_3]; · iexact HhG1_3
    isplitl [HhG1_4]; · iexact HhG1_4
    isplitl [HhG1_5]; · iexact HhG1_5
    iexact HhG1_6
  ihave HhF2 := (hA_shares_join m c 2 (hdN c) (hdN_lt c)) $$ [HhD2 HhG2_0 HhG2_1 HhG2_2 HhG2_3 HhG2_4 HhG2_5 HhG2_6]
  · isplitl [HhD2]; · iexact HhD2
    isplitl [HhG2_0]; · iexact HhG2_0
    isplitl [HhG2_1]; · iexact HhG2_1
    isplitl [HhG2_2]; · iexact HhG2_2
    isplitl [HhG2_3]; · iexact HhG2_3
    isplitl [HhG2_4]; · iexact HhG2_4
    isplitl [HhG2_5]; · iexact HhG2_5
    iexact HhG2_6
  ihave HhF3 := (hA_shares_join m c 3 (hdN c) (hdN_lt c)) $$ [HhD3 HhG3_0 HhG3_1 HhG3_2 HhG3_3 HhG3_4 HhG3_5 HhG3_6]
  · isplitl [HhD3]; · iexact HhD3
    isplitl [HhG3_0]; · iexact HhG3_0
    isplitl [HhG3_1]; · iexact HhG3_1
    isplitl [HhG3_2]; · iexact HhG3_2
    isplitl [HhG3_3]; · iexact HhG3_3
    isplitl [HhG3_4]; · iexact HhG3_4
    isplitl [HhG3_5]; · iexact HhG3_5
    iexact HhG3_6
  unfold bodyPost Φ₁ kvPts Dat.owesAt Pipeline.owesWithin
  rw [show (dats m 0 c).owed t₀.succ = 0 from rfl]
  isplitl [HkS0 HkS1 HkS2 HkS3 Hr1 HvS0 HvS1 HvS2 HvS3 Hr2 Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 HkD0 HkD1 HkD2 HkD3 HvD0 HvD1 HvD2 HvD3 Ho0 Ho1 Ho2 Ho3 Hl0 Hl1 Hl2 Hl3 Hpo0 Hpo1 Hpo2 Hpo3 Hpl0 Hpl1 Hpl2 Hpl3]
  · isplitl [HkS0 HkS1 HkS2 HkS3 Hr1 HvS0 HvS1 HvS2 HvS3 Hr2]
    · isplitl [HkS0 HkS1 HkS2 HkS3 Hr1]
      · iapply (Entails.of_eq (bg_aK_eq m c).symm)
        isplitl [HkS0 HkS1 HkS2 HkS3]
        · isplitl [HkS0]; · iexact HkS0
          isplitl [HkS1]; · iexact HkS1
          isplitl [HkS2]; · iexact HkS2
          iexact HkS3
        · iexact Hr1
      · iapply (Entails.of_eq (bg_aV_eq m c).symm)
        isplitl [HvS0 HvS1 HvS2 HvS3]
        · isplitl [HvS0]; · iexact HvS0
          isplitl [HvS1]; · iexact HvS1
          isplitl [HvS2]; · iexact HvS2
          iexact HvS3
        · iexact Hr2
    isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79]
    · iapply (sems_pack (F := F) c)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      isplitl [Hs21]; · iexact Hs21
      isplitl [Hs22]; · iexact Hs22
      isplitl [Hs23]; · iexact Hs23
      isplitl [Hs24]; · iexact Hs24
      isplitl [Hs25]; · iexact Hs25
      isplitl [Hs26]; · iexact Hs26
      isplitl [Hs27]; · iexact Hs27
      isplitl [Hs28]; · iexact Hs28
      isplitl [Hs29]; · iexact Hs29
      isplitl [Hs30]; · iexact Hs30
      isplitl [Hs31]; · iexact Hs31
      isplitl [Hs32]; · iexact Hs32
      isplitl [Hs33]; · iexact Hs33
      isplitl [Hs34]; · iexact Hs34
      isplitl [Hs35]; · iexact Hs35
      isplitl [Hs36]; · iexact Hs36
      isplitl [Hs37]; · iexact Hs37
      isplitl [Hs38]; · iexact Hs38
      isplitl [Hs39]; · iexact Hs39
      isplitl [Hs40]; · iexact Hs40
      isplitl [Hs41]; · iexact Hs41
      isplitl [Hs42]; · iexact Hs42
      isplitl [Hs43]; · iexact Hs43
      isplitl [Hs44]; · iexact Hs44
      isplitl [Hs45]; · iexact Hs45
      isplitl [Hs46]; · iexact Hs46
      isplitl [Hs47]; · iexact Hs47
      isplitl [Hs48]; · iexact Hs48
      isplitl [Hs49]; · iexact Hs49
      isplitl [Hs50]; · iexact Hs50
      isplitl [Hs51]; · iexact Hs51
      isplitl [Hs52]; · iexact Hs52
      isplitl [Hs53]; · iexact Hs53
      isplitl [Hs54]; · iexact Hs54
      isplitl [Hs55]; · iexact Hs55
      isplitl [Hs56]; · iexact Hs56
      isplitl [Hs57]; · iexact Hs57
      isplitl [Hs58]; · iexact Hs58
      isplitl [Hs59]; · iexact Hs59
      isplitl [Hs60]; · iexact Hs60
      isplitl [Hs61]; · iexact Hs61
      isplitl [Hs62]; · iexact Hs62
      isplitl [Hs63]; · iexact Hs63
      isplitl [Hs64]; · iexact Hs64
      isplitl [Hs65]; · iexact Hs65
      isplitl [Hs66]; · iexact Hs66
      isplitl [Hs67]; · iexact Hs67
      isplitl [Hs68]; · iexact Hs68
      isplitl [Hs69]; · iexact Hs69
      isplitl [Hs70]; · iexact Hs70
      isplitl [Hs71]; · iexact Hs71
      isplitl [Hs72]; · iexact Hs72
      isplitl [Hs73]; · iexact Hs73
      isplitl [Hs74]; · iexact Hs74
      isplitl [Hs75]; · iexact Hs75
      isplitl [Hs76]; · iexact Hs76
      isplitl [Hs77]; · iexact Hs77
      isplitl [Hs78]; · iexact Hs78
      iexact Hs79
    · iapply (Entails.of_eq (scopedRest0_eq (Ix := Unit) (Val := Elt F) (Name := ℕ) (U := UU) (Lvl := ℕ) c).symm)
      isplitl [HkD0 HkD1 HkD2 HkD3]
      · iapply (bg_scr0_out m c)
        isplitl [HkD0]; · iexact HkD0
        isplitl [HkD1]; · iexact HkD1
        isplitl [HkD2]; · iexact HkD2
        iexact HkD3
      isplitl [HvD0 HvD1 HvD2 HvD3]
      · iapply (bg_scr1_out m c)
        isplitl [HvD0]; · iexact HvD0
        isplitl [HvD1]; · iexact HvD1
        isplitl [HvD2]; · iexact HvD2
        iexact HvD3
      isplitl [Ho0 Ho1 Ho2 Ho3]
      · iapply (bg_scr2_out m c)
        isplitl [Ho0]; · iexact Ho0
        isplitl [Ho1]; · iexact Ho1
        isplitl [Ho2]; · iexact Ho2
        iexact Ho3
      isplitl [Hl0 Hl1 Hl2 Hl3]
      · iapply (bg_scr3_out m c)
        isplitl [Hl0]; · iexact Hl0
        isplitl [Hl1]; · iexact Hl1
        isplitl [Hl2]; · iexact Hl2
        iexact Hl3
      isplitl [Hpo0 Hpo1 Hpo2 Hpo3]
      · iapply (bg_scr4_out m c)
        isplitl [Hpo0]; · iexact Hpo0
        isplitl [Hpo1]; · iexact Hpo1
        isplitl [Hpo2]; · iexact Hpo2
        iexact Hpo3
      iapply (bg_scr5_out m c)
      isplitl [Hpl0]; · iexact Hpl0
      isplitl [Hpl1]; · iexact Hpl1
      isplitl [Hpl2]; · iexact Hpl2
      iexact Hpl3
  isplitl [HOw]
  · iexists W'
    isplitr; · ipureintro; exact fun _ _ => Or.inl trivial
    rw [show owedFrom c 44 = (0 : CellTallies nD τ sig Unit) from owedFrom_end c]
    iexact HOw
  isplitl [HQ]
  · iexists (Qst m c); isplitr; · (ipureintro; rfl)
    iapply (Entails.of_eq (Qstg_eq m c)); iexact HQ
  iexists (outC m c); isplitr; · (ipureintro; rfl)
  iapply (bg_rows_out m c)
  isplitl [HhF0 HhF1 HhF2 HhF3]
  · isplitl [HhF0]; · iexact HhF0
    isplitl [HhF1]; · iexact HhF1
    isplitl [HhF2]; · iexact HhF2
    iexact HhF3
  isplitl [HhP0_0]; · iexact HhP0_0
  isplitl [HhP0_1]; · iexact HhP0_1
  isplitl [HhP0_2]; · iexact HhP0_2
  isplitl [HhP0_3]; · iexact HhP0_3
  isplitl [HhP0_4]; · iexact HhP0_4
  isplitl [HhP0_5]; · iexact HhP0_5
  isplitl [HhP0_6]; · iexact HhP0_6
  isplitl [HhP1_0]; · iexact HhP1_0
  isplitl [HhP1_1]; · iexact HhP1_1
  isplitl [HhP1_2]; · iexact HhP1_2
  isplitl [HhP1_3]; · iexact HhP1_3
  isplitl [HhP1_4]; · iexact HhP1_4
  isplitl [HhP1_5]; · iexact HhP1_5
  isplitl [HhP1_6]; · iexact HhP1_6
  isplitl [HhP2_0]; · iexact HhP2_0
  isplitl [HhP2_1]; · iexact HhP2_1
  isplitl [HhP2_2]; · iexact HhP2_2
  isplitl [HhP2_3]; · iexact HhP2_3
  isplitl [HhP2_4]; · iexact HhP2_4
  isplitl [HhP2_5]; · iexact HhP2_5
  isplitl [HhP2_6]; · iexact HhP2_6
  isplitl [HhP3_0]; · iexact HhP3_0
  isplitl [HhP3_1]; · iexact HhP3_1
  isplitl [HhP3_2]; · iexact HhP3_2
  isplitl [HhP3_3]; · iexact HhP3_3
  isplitl [HhP3_4]; · iexact HhP3_4
  isplitl [HhP3_5]; · iexact HhP3_5
  iexact HhP3_6

/-- info: 'Cert.Kernel.Flash.body_in' depends on axioms: [propext, Classical.choice, Quot.sound] -/
#guard_msgs in #print axioms body_in

/-- info: 'Cert.Kernel.Flash.body_out' depends on axioms: [propext, Classical.choice, Quot.sound] -/
#guard_msgs in #print axioms body_out

end Cert.Kernel.Flash

end
-- ==== Proof.Word.Topo.lean ====
/-
  The devices a device addresses, and the slices it works on, in closed form.

  Device d = 8x + 4y + z addresses its peers by arithmetic on its own coordinates: the other half of its
  head is (1 − x, y, z), that is d xor 8, and the seven other heads of its half are (x, y xor dy, z xor dz)
  for (dy, dz) ≠ (0, 0) in the order (0,1), (0,2), (0,3), (1,0), …, (1,3), that is d xor 1, …, d xor 7.
  The program spells each addressed device as its own chain of word operations; over the sixteen devices
  each chain is decided to be one of these eight peers:
    chains 1 … 8      the eight barrier signals, to peers 0, 1, …, 7;
    chains 9, 10      the exchange of batch 0 (weighted sums, then row sums), to peer 0;  11, 12 of batch 1;
                      20, 21 of batch 2;  29, 30 of batch 3;
    chains 13 … 19    the seven copies of batch 0's merged block, to peers 1, …, 7;  22 … 28 of batch 1;
                      31 … 37 of batch 2;  38 … 44 of batch 3.
  Every slice offset is (b, 0, head, 0) with head = 4y + z the device's own head:
    offsets 1 … 4     the key and value source slices of batches 0 … 3;
    offsets 5, 6, 8, 10   the query rows and the result's own block of batches 0, 1, 2, 3;
    offsets 7, 9, 11, 12  the result block sent to (and awaited from) the other heads, batches 0, 1, 2, 3.
  Last, the semaphore a slice of one of the five semaphore arrays names, as its number in the pool.
-/
import proofs.«900786_g7700000000000787_dist_flashdec_v7x_xyz2x2x4_x_b4_sq32_skv4096_h8_d128_f32_1_alg».proof.Proof.Word.Proto

noncomputable section

namespace Cert.Kernel.Flash

open Cert.Kernel Cert.Kernel.Gen
open Idealize.ShloMosaic Idealize.ShloMosaic.TcCoe

/-! ## The addressed devices -/

@[sl_canon] theorem dev1_eq (c : Dev nD) : (⟨k0_dev1 c, k0_dev1_lt c⟩ : Dev nD) = pr 0 c :=
  Fin.ext ((by decide +kernel : ∀ c : Dev nD, k0_dev1 c = (pr 0 c).val) c)
@[sl_canon] theorem dev2_eq (c : Dev nD) : (⟨k0_dev2 c, k0_dev2_lt c⟩ : Dev nD) = pr 1 c :=
  Fin.ext ((by decide +kernel : ∀ c : Dev nD, k0_dev2 c = (pr 1 c).val) c)
@[sl_canon] theorem dev3_eq (c : Dev nD) : (⟨k0_dev3 c, k0_dev3_lt c⟩ : Dev nD) = pr 2 c :=
  Fin.ext ((by decide +kernel : ∀ c : Dev nD, k0_dev3 c = (pr 2 c).val) c)
@[sl_canon] theorem dev4_eq (c : Dev nD) : (⟨k0_dev4 c, k0_dev4_lt c⟩ : Dev nD) = pr 3 c :=
  Fin.ext ((by decide +kernel : ∀ c : Dev nD, k0_dev4 c = (pr 3 c).val) c)
@[sl_canon] theorem dev5_eq (c : Dev nD) : (⟨k0_dev5 c, k0_dev5_lt c⟩ : Dev nD) = pr 4 c :=
  Fin.ext ((by decide +kernel : ∀ c : Dev nD, k0_dev5 c = (pr 4 c).val) c)
@[sl_canon] theorem dev6_eq (c : Dev nD) : (⟨k0_dev6 c, k0_dev6_lt c⟩ : Dev nD) = pr 5 c :=
  Fin.ext ((by decide +kernel : ∀ c : Dev nD, k0_dev6 c = (pr 5 c).val) c)
@[sl_canon] theorem dev7_eq (c : Dev nD) : (⟨k0_dev7 c, k0_dev7_lt c⟩ : Dev nD) = pr 6 c :=
  Fin.ext ((by decide +kernel : ∀ c : Dev nD, k0_dev7 c = (pr 6 c).val) c)
@[sl_canon] theorem dev8_eq (c : Dev nD) : (⟨k0_dev8 c, k0_dev8_lt c⟩ : Dev nD) = pr 7 c :=
  Fin.ext ((by decide +kernel : ∀ c : Dev nD, k0_dev8 c = (pr 7 c).val) c)
@[sl_canon] theorem dev9_eq (c : Dev nD) : (⟨k0_dev9 c, k0_dev9_lt c⟩ : Dev nD) = pr 0 c :=
  Fin.ext ((by decide +kernel : ∀ c : Dev nD, k0_dev9 c = (pr 0 c).val) c)
@[sl_canon] theorem dev10_eq (c : Dev nD) : (⟨k0_dev10 c, k0_dev10_lt c⟩ : Dev nD) = pr 0 c :=
  Fin.ext ((by decide +kernel : ∀ c : Dev nD, k0_dev10 c = (pr 0 c).val) c)
@[sl_canon] theorem dev11_eq (c : Dev nD) : (⟨k0_dev11 c, k0_dev11_lt c⟩ : Dev nD) = pr 0 c :=
  Fin.ext ((by decide +kernel : ∀ c : Dev nD, k0_dev11 c = (pr 0 c).val) c)
@[sl_canon] theorem dev12_eq (c : Dev nD) : (⟨k0_dev12 c, k0_dev12_lt c⟩ : Dev nD) = pr 0 c :=
  Fin.ext ((by decide +kernel : ∀ c : Dev nD, k0_dev12 c = (pr 0 c).val) c)
@[sl_canon] theorem dev13_eq (c : Dev nD) : (⟨k0_dev13 c, k0_dev13_lt c⟩ : Dev nD) = pr 1 c :=
  Fin.ext ((by decide +kernel : ∀ c : Dev nD, k0_dev13 c = (pr 1 c).val) c)
@[sl_canon] theorem dev14_eq (c : Dev nD) : (⟨k0_dev14 c, k0_dev14_lt c⟩ : Dev nD) = pr 2 c :=
  Fin.ext ((by decide +kernel : ∀ c : Dev nD, k0_dev14 c = (pr 2 c).val) c)
@[sl_canon] theorem dev15_eq (c : Dev nD) : (⟨k0_dev15 c, k0_dev15_lt c⟩ : Dev nD) = pr 3 c :=
  Fin.ext ((by decide +kernel : ∀ c : Dev nD, k0_dev15 c = (pr 3 c).val) c)
@[sl_canon] theorem dev16_eq (c : Dev nD) : (⟨k0_dev16 c, k0_dev16_lt c⟩ : Dev nD) = pr 4 c :=
  Fin.ext ((by decide +kernel : ∀ c : Dev nD, k0_dev16 c = (pr 4 c).val) c)
@[sl_canon] theorem dev17_eq (c : Dev nD) : (⟨k0_dev17 c, k0_dev17_lt c⟩ : Dev nD) = pr 5 c :=
  Fin.ext ((by decide +kernel : ∀ c : Dev nD, k0_dev17 c = (pr 5 c).val) c)
@[sl_canon] theorem dev18_eq (c : Dev nD) : (⟨k0_dev18 c, k0_dev18_lt c⟩ : Dev nD) = pr 6 c :=
  Fin.ext ((by decide +kernel : ∀ c : Dev nD, k0_dev18 c = (pr 6 c).val) c)
@[sl_canon] theorem dev19_eq (c : Dev nD) : (⟨k0_dev19 c, k0_dev19_lt c⟩ : Dev nD) = pr 7 c :=
  Fin.ext ((by decide +kernel : ∀ c : Dev nD, k0_dev19 c = (pr 7 c).val) c)
@[sl_canon] theorem dev20_eq (c : Dev nD) : (⟨k0_dev20 c, k0_dev20_lt c⟩ : Dev nD) = pr 0 c :=
  Fin.ext ((by decide +kernel : ∀ c : Dev nD, k0_dev20 c = (pr 0 c).val) c)
@[sl_canon] theorem dev21_eq (c : Dev nD) : (⟨k0_dev21 c, k0_dev21_lt c⟩ : Dev nD) = pr 0 c :=
  Fin.ext ((by decide +kernel : ∀ c : Dev nD, k0_dev21 c = (pr 0 c).val) c)
@[sl_canon] theorem dev22_eq (c : Dev nD) : (⟨k0_dev22 c, k0_dev22_lt c⟩ : Dev nD) = pr 1 c :=
  Fin.ext ((by decide +kernel : ∀ c : Dev nD, k0_dev22 c = (pr 1 c).val) c)
@[sl_canon] theorem dev23_eq (c : Dev nD) : (⟨k0_dev23 c, k0_dev23_lt c⟩ : Dev nD) = pr 2 c :=
  Fin.ext ((by decide +kernel : ∀ c : Dev nD, k0_dev23 c = (pr 2 c).val) c)
@[sl_canon] theorem dev24_eq (c : Dev nD) : (⟨k0_dev24 c, k0_dev24_lt c⟩ : Dev nD) = pr 3 c :=
  Fin.ext ((by decide +kernel : ∀ c : Dev nD, k0_dev24 c = (pr 3 c).val) c)
@[sl_canon] theorem dev25_eq (c : Dev nD) : (⟨k0_dev25 c, k0_dev25_lt c⟩ : Dev nD) = pr 4 c :=
  Fin.ext ((by decide +kernel : ∀ c : Dev nD, k0_dev25 c = (pr 4 c).val) c)
@[sl_canon] theorem dev26_eq (c : Dev nD) : (⟨k0_dev26 c, k0_dev26_lt c⟩ : Dev nD) = pr 5 c :=
  Fin.ext ((by decide +kernel : ∀ c : Dev nD, k0_dev26 c = (pr 5 c).val) c)
@[sl_canon] theorem dev27_eq (c : Dev nD) : (⟨k0_dev27 c, k0_dev27_lt c⟩ : Dev nD) = pr 6 c :=
  Fin.ext ((by decide +kernel : ∀ c : Dev nD, k0_dev27 c = (pr 6 c).val) c)
@[sl_canon] theorem dev28_eq (c : Dev nD) : (⟨k0_dev28 c, k0_dev28_lt c⟩ : Dev nD) = pr 7 c :=
  Fin.ext ((by decide +kernel : ∀ c : Dev nD, k0_dev28 c = (pr 7 c).val) c)
@[sl_canon] theorem dev29_eq (c : Dev nD) : (⟨k0_dev29 c, k0_dev29_lt c⟩ : Dev nD) = pr 0 c :=
  Fin.ext ((by decide +kernel : ∀ c : Dev nD, k0_dev29 c = (pr 0 c).val) c)
@[sl_canon] theorem dev30_eq (c : Dev nD) : (⟨k0_dev30 c, k0_dev30_lt c⟩ : Dev nD) = pr 0 c :=
  Fin.ext ((by decide +kernel : ∀ c : Dev nD, k0_dev30 c = (pr 0 c).val) c)
@[sl_canon] theorem dev31_eq (c : Dev nD) : (⟨k0_dev31 c, k0_dev31_lt c⟩ : Dev nD) = pr 1 c :=
  Fin.ext ((by decide +kernel : ∀ c : Dev nD, k0_dev31 c = (pr 1 c).val) c)
@[sl_canon] theorem dev32_eq (c : Dev nD) : (⟨k0_dev32 c, k0_dev32_lt c⟩ : Dev nD) = pr 2 c :=
  Fin.ext ((by decide +kernel : ∀ c : Dev nD, k0_dev32 c = (pr 2 c).val) c)
@[sl_canon] theorem dev33_eq (c : Dev nD) : (⟨k0_dev33 c, k0_dev33_lt c⟩ : Dev nD) = pr 3 c :=
  Fin.ext ((by decide +kernel : ∀ c : Dev nD, k0_dev33 c = (pr 3 c).val) c)
@[sl_canon] theorem dev34_eq (c : Dev nD) : (⟨k0_dev34 c, k0_dev34_lt c⟩ : Dev nD) = pr 4 c :=
  Fin.ext ((by decide +kernel : ∀ c : Dev nD, k0_dev34 c = (pr 4 c).val) c)
@[sl_canon] theorem dev35_eq (c : Dev nD) : (⟨k0_dev35 c, k0_dev35_lt c⟩ : Dev nD) = pr 5 c :=
  Fin.ext ((by decide +kernel : ∀ c : Dev nD, k0_dev35 c = (pr 5 c).val) c)
@[sl_canon] theorem dev36_eq (c : Dev nD) : (⟨k0_dev36 c, k0_dev36_lt c⟩ : Dev nD) = pr 6 c :=
  Fin.ext ((by decide +kernel : ∀ c : Dev nD, k0_dev36 c = (pr 6 c).val) c)
@[sl_canon] theorem dev37_eq (c : Dev nD) : (⟨k0_dev37 c, k0_dev37_lt c⟩ : Dev nD) = pr 7 c :=
  Fin.ext ((by decide +kernel : ∀ c : Dev nD, k0_dev37 c = (pr 7 c).val) c)
@[sl_canon] theorem dev38_eq (c : Dev nD) : (⟨k0_dev38 c, k0_dev38_lt c⟩ : Dev nD) = pr 1 c :=
  Fin.ext ((by decide +kernel : ∀ c : Dev nD, k0_dev38 c = (pr 1 c).val) c)
@[sl_canon] theorem dev39_eq (c : Dev nD) : (⟨k0_dev39 c, k0_dev39_lt c⟩ : Dev nD) = pr 2 c :=
  Fin.ext ((by decide +kernel : ∀ c : Dev nD, k0_dev39 c = (pr 2 c).val) c)
@[sl_canon] theorem dev40_eq (c : Dev nD) : (⟨k0_dev40 c, k0_dev40_lt c⟩ : Dev nD) = pr 3 c :=
  Fin.ext ((by decide +kernel : ∀ c : Dev nD, k0_dev40 c = (pr 3 c).val) c)
@[sl_canon] theorem dev41_eq (c : Dev nD) : (⟨k0_dev41 c, k0_dev41_lt c⟩ : Dev nD) = pr 4 c :=
  Fin.ext ((by decide +kernel : ∀ c : Dev nD, k0_dev41 c = (pr 4 c).val) c)
@[sl_canon] theorem dev42_eq (c : Dev nD) : (⟨k0_dev42 c, k0_dev42_lt c⟩ : Dev nD) = pr 5 c :=
  Fin.ext ((by decide +kernel : ∀ c : Dev nD, k0_dev42 c = (pr 5 c).val) c)
@[sl_canon] theorem dev43_eq (c : Dev nD) : (⟨k0_dev43 c, k0_dev43_lt c⟩ : Dev nD) = pr 6 c :=
  Fin.ext ((by decide +kernel : ∀ c : Dev nD, k0_dev43 c = (pr 6 c).val) c)
@[sl_canon] theorem dev44_eq (c : Dev nD) : (⟨k0_dev44 c, k0_dev44_lt c⟩ : Dev nD) = pr 7 c :=
  Fin.ext ((by decide +kernel : ∀ c : Dev nD, k0_dev44 c = (pr 7 c).val) c)

/-- Rewrites every addressed device to its peer. -/
macro "simp_devs" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq])
macro "simp_devs" "at" h:ident : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq] at $h:ident)

/-! ## The slice offsets -/

theorem off1_eq (c : Dev nD) : k0_off1 c = ![0, 0, hdN c, 0] := k0_off1_eq c
theorem off2_eq (c : Dev nD) : k0_off2 c = ![1, 0, hdN c, 0] := k0_off2_eq c
theorem off3_eq (c : Dev nD) : k0_off3 c = ![2, 0, hdN c, 0] := k0_off3_eq c
theorem off4_eq (c : Dev nD) : k0_off4 c = ![3, 0, hdN c, 0] := k0_off4_eq c
theorem off5_eq (c : Dev nD) : k0_off5 c = ![0, 0, hdN c, 0] := k0_off5_eq c
theorem off6_eq (c : Dev nD) : k0_off6 c = ![1, 0, hdN c, 0] := k0_off6_eq c
theorem off7_eq (c : Dev nD) : k0_off7 c = ![0, 0, hdN c, 0] := k0_off7_eq c
theorem off8_eq (c : Dev nD) : k0_off8 c = ![2, 0, hdN c, 0] := k0_off8_eq c
theorem off9_eq (c : Dev nD) : k0_off9 c = ![1, 0, hdN c, 0] := k0_off9_eq c
theorem off10_eq (c : Dev nD) : k0_off10 c = ![3, 0, hdN c, 0] := k0_off10_eq c
theorem off11_eq (c : Dev nD) : k0_off11 c = ![2, 0, hdN c, 0] := k0_off11_eq c
theorem off12_eq (c : Dev nD) : k0_off12 c = ![3, 0, hdN c, 0] := k0_off12_eq c

/-- Rewrites every slice offset to (batch, 0, head, 0). -/
macro "simp_offs" : tactic => `(tactic| simp only [off1_eq, off2_eq, off3_eq, off4_eq, off5_eq, off6_eq, off7_eq, off8_eq, off9_eq, off10_eq, off11_eq, off12_eq])
macro "simp_offs" "at" h:ident : tactic => `(tactic| simp only [off1_eq, off2_eq, off3_eq, off4_eq, off5_eq, off6_eq, off7_eq, off8_eq, off9_eq, off10_eq, off11_eq, off12_eq] at $h:ident)

/-! ## The semaphores of the five arrays, by number

The arrays lie one after another in the pool (after the two staging semaphores): the eight local copies'
from 2, the exchange's send and receive sides from 10 and 18 (row b, column i at 2b + i), the copies of the
merged blocks' send and receive sides from 26 and 54 (row b, column i at 7b + i). -/

theorem locJ_lt (j : Fin 8) : j.val < 80 := lt_of_lt_of_le j.isLt (by decide)
theorem sem_loc_fin : ∀ (j : Fin 8) (h : ∀ a, (![j.val] : Fin 1 → Nat) a + S1.size a ≤ S8.size a) (hs : S1.Squeezes S_),
    ((SemArray.slice cc0_scratch6 (Rect.unit (s := S8) ![j.val] S1.size h)).squeeze S_ hs).sem = dS ⟨j.val, locJ_lt j⟩ := by decide
theorem sem_loc (j : ℕ) (hj : j < 8) (h : ∀ a, (![j] : Fin 1 → Nat) a + S1.size a ≤ S8.size a) (hs : S1.Squeezes S_) :
    ((SemArray.slice cc0_scratch6 (Rect.unit (s := S8) ![j] S1.size h)).squeeze S_ hs).sem = dS ⟨j, lt_of_lt_of_le hj (by decide)⟩ :=
  sem_loc_fin ⟨j, hj⟩ h hs

theorem sem_xs_fin : ∀ (b : Fin 4) (i : Fin 2) (h : ∀ a, (![b.val, i.val] : Fin 2 → Nat) a + S1x1.size a ≤ S4x2.size a) (hs : S1x1.Squeezes S_),
    ((SemArray.slice cc0_scratch7 (Rect.unit (s := S4x2) ![b.val, i.val] S1x1.size h)).squeeze S_ hs).sem = dS ⟨xsN b.val i.val, xsN_lt b i⟩ := by decide
theorem sem_xs (b i : ℕ) (hb : b < 4) (hi : i < 2) (h : ∀ a, (![b, i] : Fin 2 → Nat) a + S1x1.size a ≤ S4x2.size a) (hs : S1x1.Squeezes S_) :
    ((SemArray.slice cc0_scratch7 (Rect.unit (s := S4x2) ![b, i] S1x1.size h)).squeeze S_ hs).sem = dS ⟨xsN b i, xsN_lt ⟨b, hb⟩ ⟨i, hi⟩⟩ :=
  sem_xs_fin ⟨b, hb⟩ ⟨i, hi⟩ h hs

theorem sem_xr_fin : ∀ (b : Fin 4) (i : Fin 2) (h : ∀ a, (![b.val, i.val] : Fin 2 → Nat) a + S1x1.size a ≤ S4x2.size a) (hs : S1x1.Squeezes S_),
    ((SemArray.slice cc0_scratch8 (Rect.unit (s := S4x2) ![b.val, i.val] S1x1.size h)).squeeze S_ hs).sem = dS ⟨xrN b.val i.val, xrN_lt b i⟩ := by decide
theorem sem_xr (b i : ℕ) (hb : b < 4) (hi : i < 2) (h : ∀ a, (![b, i] : Fin 2 → Nat) a + S1x1.size a ≤ S4x2.size a) (hs : S1x1.Squeezes S_) :
    ((SemArray.slice cc0_scratch8 (Rect.unit (s := S4x2) ![b, i] S1x1.size h)).squeeze S_ hs).sem = dS ⟨xrN b i, xrN_lt ⟨b, hb⟩ ⟨i, hi⟩⟩ :=
  sem_xr_fin ⟨b, hb⟩ ⟨i, hi⟩ h hs

theorem sem_as_fin : ∀ (b : Fin 4) (i : Fin 7) (h : ∀ a, (![b.val, i.val] : Fin 2 → Nat) a + S1x1.size a ≤ S4x7.size a) (hs : S1x1.Squeezes S_),
    ((SemArray.slice cc0_scratch9 (Rect.unit (s := S4x7) ![b.val, i.val] S1x1.size h)).squeeze S_ hs).sem = dS ⟨asN b.val i.val, asN_lt b i⟩ := by decide
theorem sem_as (b i : ℕ) (hb : b < 4) (hi : i < 7) (h : ∀ a, (![b, i] : Fin 2 → Nat) a + S1x1.size a ≤ S4x7.size a) (hs : S1x1.Squeezes S_) :
    ((SemArray.slice cc0_scratch9 (Rect.unit (s := S4x7) ![b, i] S1x1.size h)).squeeze S_ hs).sem = dS ⟨asN b i, asN_lt ⟨b, hb⟩ ⟨i, hi⟩⟩ :=
  sem_as_fin ⟨b, hb⟩ ⟨i, hi⟩ h hs

theorem sem_ar_fin : ∀ (b : Fin 4) (i : Fin 7) (h : ∀ a, (![b.val, i.val] : Fin 2 → Nat) a + S1x1.size a ≤ S4x7.size a) (hs : S1x1.Squeezes S_),
    ((SemArray.slice cc0_scratch10 (Rect.unit (s := S4x7) ![b.val, i.val] S1x1.size h)).squeeze S_ hs).sem = dS ⟨arN b.val i.val, arN_lt b i⟩ := by decide
theorem sem_ar (b i : ℕ) (hb : b < 4) (hi : i < 7) (h : ∀ a, (![b, i] : Fin 2 → Nat) a + S1x1.size a ≤ S4x7.size a) (hs : S1x1.Squeezes S_) :
    ((SemArray.slice cc0_scratch10 (Rect.unit (s := S4x7) ![b, i] S1x1.size h)).squeeze S_ hs).sem = dS ⟨arN b i, arN_lt ⟨b, hb⟩ ⟨i, hi⟩⟩ :=
  sem_ar_fin ⟨b, hb⟩ ⟨i, hi⟩ h hs

/-- info: 'Cert.Kernel.Flash.dev44_eq' depends on axioms: [propext, Quot.sound] -/
#guard_msgs in #print axioms dev44_eq

/-- info: 'Cert.Kernel.Flash.sem_ar' depends on axioms: [propext, Classical.choice, Quot.sound] -/
#guard_msgs in #print axioms sem_ar

end Cert.Kernel.Flash

end
-- ==== Proof.Word.RegionsChain.lean ====
/-
  The cuts of a device's buffers written out as chains.

  Each of the six scratch buffers held whole, at named contents, is its four batch slices held at the same
  contents, written as one right-nested chain in batch order, with both directions as entailments and the
  form at unnamed contents (whole at some contents gives each slice at some contents). A device's block of
  the keys (of the values) is the four source slices of its head's rows, then the rest.
-/
import proofs.«900786_g7700000000000787_dist_flashdec_v7x_xyz2x2x4_x_b4_sq32_skv4096_h8_d128_f32_1_alg».proof.Proof.Word.Regions
import proofs.«900786_g7700000000000787_dist_flashdec_v7x_xyz2x2x4_x_b4_sq32_skv4096_h8_d128_f32_1_alg».proof.Proof.Word.Regions2
import proofs.«900786_g7700000000000787_dist_flashdec_v7x_xyz2x2x4_x_b4_sq32_skv4096_h8_d128_f32_1_alg».proof.Proof.Word.Shares
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.Chains

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The keys' scratch buffer held whole at contents f is its four batch slices held at f, one after the other. -/
theorem kM_eq (c : Dev nD) (f : Buf (Elt F) ((c : Thread nD τ).loc cc0_scratch0)) :
    (((c : Thread nD τ).loc cc0_scratch0) ↦{fullShare} f : sProp 𝕄)
      = iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f) :=
  (scratch0_batches c f).trans (bigSep_fin4 _)

theorem kM_split (c : Dev nD) (f : Buf (Elt F) ((c : Thread nD τ).loc cc0_scratch0)) :
    (((c : Thread nD τ).loc cc0_scratch0) ↦{fullShare} f : sProp 𝕄)
      ⊢ iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f) :=
  Entails.of_eq (kM_eq c f)

theorem kM_join (c : Dev nD) (f : Buf (Elt F) ((c : Thread nD τ).loc cc0_scratch0)) :
    iprop(slPts c (kvDst (0 : Fin 4).val (0 : Fin 4).isLt kM) fullShare f
          ∗ slPts c (kvDst (1 : Fin 4).val (1 : Fin 4).isLt kM) fullShare f
          ∗ slPts c (kvDst (2 : Fin 4).val (2 : Fin 4).isLt kM) fullShare f
          ∗ slPts c (kvDst (3 : Fin 4).val (3 : Fin 4).isLt kM) fullShare f)
      ⊢ (((c : Thread nD τ).loc cc0_scratch0) ↦{fullShare} f : sProp 𝕄) :=
  Entails.of_eq (kM_eq c f).symm

/-- At some contents: the buffer held whole gives its four batch slices, each at some contents. -/
theorem kM_splitE (c : Dev nD) :
    wholeE (F := F) c cc0_scratch0 ⊢ iprop(kDstE (F := F) c 0 ∗ kDstE (F := F) c 1 ∗ kDstE (F := F) c 2 ∗ kDstE (F := F) c 3) :=
  BIClass.exists_elim fun f => (kM_split c f).trans
    (BIClass.sep_mono (BIClass.exists_intro f) (BIClass.sep_mono (BIClass.exists_intro f) (BIClass.sep_mono (BIClass.exists_intro f) (BIClass.exists_intro f))))

/-- The values' scratch buffer held whole at contents f is its four batch slices held at f, one after the other. -/
theorem vM_eq (c : Dev nD) (f : Buf (Elt F) ((c : Thread nD τ).loc cc0_scratch1)) :
    (((c : Thread nD τ).loc cc0_scratch1) ↦{fullShare} f : sProp 𝕄)
      = iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f) :=
  (scratch1_batches c f).trans (bigSep_fin4 _)

theorem vM_split (c : Dev nD) (f : Buf (Elt F) ((c : Thread nD τ).loc cc0_scratch1)) :
    (((c : Thread nD τ).loc cc0_scratch1) ↦{fullShare} f : sProp 𝕄)
      ⊢ iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f) :=
  Entails.of_eq (vM_eq c f)

theorem vM_join (c : Dev nD) (f : Buf (Elt F) ((c : Thread nD τ).loc cc0_scratch1)) :
    iprop(slPts c (kvDst (0 : Fin 4).val (0 : Fin 4).isLt vM) fullShare f
          ∗ slPts c (kvDst (1 : Fin 4).val (1 : Fin 4).isLt vM) fullShare f
          ∗ slPts c (kvDst (2 : Fin 4).val (2 : Fin 4).isLt vM) fullShare f
          ∗ slPts c (kvDst (3 : Fin 4).val (3 : Fin 4).isLt vM) fullShare f)
      ⊢ (((c : Thread nD τ).loc cc0_scratch1) ↦{fullShare} f : sProp 𝕄) :=
  Entails.of_eq (vM_eq c f).symm

/-- At some contents: the buffer held whole gives its four batch slices, each at some contents. -/
theorem vM_splitE (c : Dev nD) :
    wholeE (F := F) c cc0_scratch1 ⊢ iprop(vDstE (F := F) c 0 ∗ vDstE (F := F) c 1 ∗ vDstE (F := F) c 2 ∗ vDstE (F := F) c 3) :=
  BIClass.exists_elim fun f => (vM_split c f).trans
    (BIClass.sep_mono (BIClass.exists_intro f) (BIClass.sep_mono (BIClass.exists_intro f) (BIClass.sep_mono (BIClass.exists_intro f) (BIClass.exists_intro f))))

/-- The buffer of the device's own weighted sums held whole at contents f is its four batch slices held at f, one after the other. -/
theorem oM_eq (c : Dev nD) (f : Buf (Elt F) ((c : Thread nD τ).loc cc0_scratch2)) :
    (((c : Thread nD τ).loc cc0_scratch2) ↦{fullShare} f : sProp 𝕄)
      = iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f) :=
  (scratch2_batches c f).trans (bigSep_fin4 _)

theorem oM_split (c : Dev nD) (f : Buf (Elt F) ((c : Thread nD τ).loc cc0_scratch2)) :
    (((c : Thread nD τ).loc cc0_scratch2) ↦{fullShare} f : sProp 𝕄)
      ⊢ iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f) :=
  Entails.of_eq (oM_eq c f)

theorem oM_join (c : Dev nD) (f : Buf (Elt F) ((c : Thread nD τ).loc cc0_scratch2)) :
    iprop(slPts c (oSl (0 : Fin 4).val (0 : Fin 4).isLt oM) fullShare f
          ∗ slPts c (oSl (1 : Fin 4).val (1 : Fin 4).isLt oM) fullShare f
          ∗ slPts c (oSl (2 : Fin 4).val (2 : Fin 4).isLt oM) fullShare f
          ∗ slPts c (oSl (3 : Fin 4).val (3 : Fin 4).isLt oM) fullShare f)
      ⊢ (((c : Thread nD τ).loc cc0_scratch2) ↦{fullShare} f : sProp 𝕄) :=
  Entails.of_eq (oM_eq c f).symm

/-- At some contents: the buffer held whole gives its four batch slices, each at some contents. -/
theorem oM_splitE (c : Dev nD) :
    wholeE (F := F) c cc0_scratch2 ⊢ iprop(oE (F := F) c 0 ∗ oE (F := F) c 1 ∗ oE (F := F) c 2 ∗ oE (F := F) c 3) :=
  BIClass.exists_elim fun f => (oM_split c f).trans
    (BIClass.sep_mono (BIClass.exists_intro f) (BIClass.sep_mono (BIClass.exists_intro f) (BIClass.sep_mono (BIClass.exists_intro f) (BIClass.exists_intro f))))

/-- The buffer of the device's own row sums held whole at contents f is its four batch slices held at f, one after the other. -/
theorem lM_eq (c : Dev nD) (f : Buf (Elt F) ((c : Thread nD τ).loc cc0_scratch3)) :
    (((c : Thread nD τ).loc cc0_scratch3) ↦{fullShare} f : sProp 𝕄)
      = iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f) :=
  (scratch3_batches c f).trans (bigSep_fin4 _)

theorem lM_split (c : Dev nD) (f : Buf (Elt F) ((c : Thread nD τ).loc cc0_scratch3)) :
    (((c : Thread nD τ).loc cc0_scratch3) ↦{fullShare} f : sProp 𝕄)
      ⊢ iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f) :=
  Entails.of_eq (lM_eq c f)

theorem lM_join (c : Dev nD) (f : Buf (Elt F) ((c : Thread nD τ).loc cc0_scratch3)) :
    iprop(slPts c (lSl (0 : Fin 4).val (0 : Fin 4).isLt lM) fullShare f
          ∗ slPts c (lSl (1 : Fin 4).val (1 : Fin 4).isLt lM) fullShare f
          ∗ slPts c (lSl (2 : Fin 4).val (2 : Fin 4).isLt lM) fullShare f
          ∗ slPts c (lSl (3 : Fin 4).val (3 : Fin 4).isLt lM) fullShare f)
      ⊢ (((c : Thread nD τ).loc cc0_scratch3) ↦{fullShare} f : sProp 𝕄) :=
  Entails.of_eq (lM_eq c f).symm

/-- At some contents: the buffer held whole gives its four batch slices, each at some contents. -/
theorem lM_splitE (c : Dev nD) :
    wholeE (F := F) c cc0_scratch3 ⊢ iprop(lE (F := F) c 0 ∗ lE (F := F) c 1 ∗ lE (F := F) c 2 ∗ lE (F := F) c 3) :=
  BIClass.exists_elim fun f => (lM_split c f).trans
    (BIClass.sep_mono (BIClass.exists_intro f) (BIClass.sep_mono (BIClass.exists_intro f) (BIClass.sep_mono (BIClass.exists_intro f) (BIClass.exists_intro f))))

/-- The landing buffer of the other half's weighted sums held whole at contents f is its four batch slices held at f, one after the other. -/
theorem oM'_eq (c : Dev nD) (f : Buf (Elt F) ((c : Thread nD τ).loc cc0_scratch4)) :
    (((c : Thread nD τ).loc cc0_scratch4) ↦{fullShare} f : sProp 𝕄)
      = iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f) :=
  (scratch4_batches c f).trans (bigSep_fin4 _)

theorem oM'_split (c : Dev nD) (f : Buf (Elt F) ((c : Thread nD τ).loc cc0_scratch4)) :
    (((c : Thread nD τ).loc cc0_scratch4) ↦{fullShare} f : sProp 𝕄)
      ⊢ iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f) :=
  Entails.of_eq (oM'_eq c f)

theorem oM'_join (c : Dev nD) (f : Buf (Elt F) ((c : Thread nD τ).loc cc0_scratch4)) :
    iprop(slPts c (oSl (0 : Fin 4).val (0 : Fin 4).isLt oM') fullShare f
          ∗ slPts c (oSl (1 : Fin 4).val (1 : Fin 4).isLt oM') fullShare f
          ∗ slPts c (oSl (2 : Fin 4).val (2 : Fin 4).isLt oM') fullShare f
          ∗ slPts c (oSl (3 : Fin 4).val (3 : Fin 4).isLt oM') fullShare f)
      ⊢ (((c : Thread nD τ).loc cc0_scratch4) ↦{fullShare} f : sProp 𝕄) :=
  Entails.of_eq (oM'_eq c f).symm

/-- At some contents: the buffer held whole gives its four batch slices, each at some contents. -/
theorem oM'_splitE (c : Dev nD) :
    wholeE (F := F) c cc0_scratch4 ⊢ iprop(poE (F := F) c 0 ∗ poE (F := F) c 1 ∗ poE (F := F) c 2 ∗ poE (F := F) c 3) :=
  BIClass.exists_elim fun f => (oM'_split c f).trans
    (BIClass.sep_mono (BIClass.exists_intro f) (BIClass.sep_mono (BIClass.exists_intro f) (BIClass.sep_mono (BIClass.exists_intro f) (BIClass.exists_intro f))))

/-- The landing buffer of the other half's row sums held whole at contents f is its four batch slices held at f, one after the other. -/
theorem lM'_eq (c : Dev nD) (f : Buf (Elt F) ((c : Thread nD τ).loc cc0_scratch5)) :
    (((c : Thread nD τ).loc cc0_scratch5) ↦{fullShare} f : sProp 𝕄)
      = iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f) :=
  (scratch5_batches c f).trans (bigSep_fin4 _)

theorem lM'_split (c : Dev nD) (f : Buf (Elt F) ((c : Thread nD τ).loc cc0_scratch5)) :
    (((c : Thread nD τ).loc cc0_scratch5) ↦{fullShare} f : sProp 𝕄)
      ⊢ iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f) :=
  Entails.of_eq (lM'_eq c f)

theorem lM'_join (c : Dev nD) (f : Buf (Elt F) ((c : Thread nD τ).loc cc0_scratch5)) :
    iprop(slPts c (lSl (0 : Fin 4).val (0 : Fin 4).isLt lM') fullShare f
          ∗ slPts c (lSl (1 : Fin 4).val (1 : Fin 4).isLt lM') fullShare f
          ∗ slPts c (lSl (2 : Fin 4).val (2 : Fin 4).isLt lM') fullShare f
          ∗ slPts c (lSl (3 : Fin 4).val (3 : Fin 4).isLt lM') fullShare f)
      ⊢ (((c : Thread nD τ).loc cc0_scratch5) ↦{fullShare} f : sProp 𝕄) :=
  Entails.of_eq (lM'_eq c f).symm

/-- At some contents: the buffer held whole gives its four batch slices, each at some contents. -/
theorem lM'_splitE (c : Dev nD) :
    wholeE (F := F) c cc0_scratch5 ⊢ iprop(plE (F := F) c 0 ∗ plE (F := F) c 1 ∗ plE (F := F) c 2 ∗ plE (F := F) c 3) :=
  BIClass.exists_elim fun f => (lM'_split c f).trans
    (BIClass.sep_mono (BIClass.exists_intro f) (BIClass.sep_mono (BIClass.exists_intro f) (BIClass.sep_mono (BIClass.exists_intro f) (BIClass.exists_intro f))))

/-- The device's block of the keys held whole at contents f is the four source slices of the device's head held at f, and the rest. -/
theorem aK_eq (c : Dev nD) (f : Buf (Elt F) ((c : Thread nD τ).loc main_arg1)) :
    (((c : Thread nD τ).loc main_arg1) ↦{fullShare} f : sProp 𝕄)
      = iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f)) := by
  rw [show (((c : Thread nD τ).loc main_arg1) ↦{fullShare} f : sProp 𝕄) = _ from arg1_batches_rest c f, bigSep_fin4]
  simp only [sep_assoc_eq]

theorem aK_split (c : Dev nD) (f : Buf (Elt F) ((c : Thread nD τ).loc main_arg1)) :
    (((c : Thread nD τ).loc main_arg1) ↦{fullShare} f : sProp 𝕄)
      ⊢ iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f)) :=
  Entails.of_eq (aK_eq c f)

theorem aK_join (c : Dev nD) (f : Buf (Elt F) ((c : Thread nD τ).loc main_arg1)) :
    iprop(slPts c (kvSrc (0 : Fin 4).val (0 : Fin 4).isLt (hdN c) (hdN_lt c) aK) fullShare f
          ∗ slPts c (kvSrc (1 : Fin 4).val (1 : Fin 4).isLt (hdN c) (hdN_lt c) aK) fullShare f
          ∗ slPts c (kvSrc (2 : Fin 4).val (2 : Fin 4).isLt (hdN c) (hdN_lt c) aK) fullShare f
          ∗ slPts c (kvSrc (3 : Fin 4).val (3 : Fin 4).isLt (hdN c) (hdN_lt c) aK) fullShare f
          ∗ (((c : Thread nD τ).loc main_arg1) ↦[arg1_rest c]{fullShare} f))
      ⊢ (((c : Thread nD τ).loc main_arg1) ↦{fullShare} f : sProp 𝕄) :=
  Entails.of_eq (aK_eq c f).symm

/-- The device's block of the values held whole at contents f is the four source slices of the device's head held at f, and the rest. -/
theorem aV_eq (c : Dev nD) (f : Buf (Elt F) ((c : Thread nD τ).loc main_arg2)) :
    (((c : Thread nD τ).loc main_arg2) ↦{fullShare} f : sProp 𝕄)
      = iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f)) := by
  rw [show (((c : Thread nD τ).loc main_arg2) ↦{fullShare} f : sProp 𝕄) = _ from arg2_batches_rest c f, bigSep_fin4]
  simp only [sep_assoc_eq]

theorem aV_split (c : Dev nD) (f : Buf (Elt F) ((c : Thread nD τ).loc main_arg2)) :
    (((c : Thread nD τ).loc main_arg2) ↦{fullShare} f : sProp 𝕄)
      ⊢ iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f)) :=
  Entails.of_eq (aV_eq c f)

theorem aV_join (c : Dev nD) (f : Buf (Elt F) ((c : Thread nD τ).loc main_arg2)) :
    iprop(slPts c (kvSrc (0 : Fin 4).val (0 : Fin 4).isLt (hdN c) (hdN_lt c) aV) fullShare f
          ∗ slPts c (kvSrc (1 : Fin 4).val (1 : Fin 4).isLt (hdN c) (hdN_lt c) aV) fullShare f
          ∗ slPts c (kvSrc (2 : Fin 4).val (2 : Fin 4).isLt (hdN c) (hdN_lt c) aV) fullShare f
          ∗ slPts c (kvSrc (3 : Fin 4).val (3 : Fin 4).isLt (hdN c) (hdN_lt c) aV) fullShare f
          ∗ (((c : Thread nD τ).loc main_arg2) ↦[arg2_rest c]{fullShare} f))
      ⊢ (((c : Thread nD τ).loc main_arg2) ↦{fullShare} f : sProp 𝕄) :=
  Entails.of_eq (aV_eq c f).symm

/--
info: 'Cert.Kernel.Flash.kM_splitE' depends on axioms: [propext, Classical.choice, Quot.sound]
-/
#guard_msgs in #print axioms kM_splitE

/--
info: 'Cert.Kernel.Flash.aK_eq' depends on axioms: [propext, Classical.choice, Quot.sound]
-/
#guard_msgs in #print axioms aK_eq

end Cert.Kernel.Flash

end
-- ==== Proof.Word.StepsWait.lean ====
/-
  Waiting on one of a device's own copy cells, and closing the cell.

  Each of a device's eighty copy cells has one round with one duty: the copy that completes on it, worth
  the credit of the copy's destination view. The device holds the credit token for that amount from launch
  (for a receive cell) or from the enqueue (for a local copy or a send side). The wait consumes the whole
  round, so the device comes back with the duty's payload — the buffer region the copy filled or released,
  at the contents the protocol says — and, no later round having a duty, it closes the cell and gets its
  counter back at zero. A wait is allowed only at a level below everything the device still owes: the
  local-copy and send-side cells have level 0 and may be waited at any time; the exchange's receive cells
  of batch b are waited once everything still owed lies above level 2 + b; the merged blocks' cells when
  nothing is owed any more.
-/
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.SchedTables
import proofs.«900786_g7700000000000787_dist_flashdec_v7x_xyz2x2x4_x_b4_sq32_skv4096_h8_d128_f32_1_alg».proof.Proof.Word.Levels

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Every cell number is its role's number. -/
theorem num_roleOf : ∀ n : Fin 80, (roleOf n).num = n := by decide

/-- The wait on the own copy cell of role `r` for the credit of the destination view named by the wait
    (which must be the role's amount), while owing `O` with evidence that the cell lies below all of it;
    then the cell's closing. The device gets back its dues unchanged (one more wait recorded), the cell's
    counter at zero, and the role's payload. -/
theorem step_wait_role (m : (ℓ : Loc nD τ sig) → Buf (Elt F) ℓ) (K : Dev nD × Option (Fin 80) → ℕ) (c : Dev nD) (r : Role)
    {O : CellTallies nD τ sig Unit} {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = roleAmt r) {α : Type} {Q : α → sProp 𝕄} {k : PUnit → Prog (TpuEff nD τ sig (Elt F) Λ₀ .tc) α} :
    iprop(Rec m K ∗ MayWait (c : Thread nD τ) (.dma (dS r.num)) () O ∗ crD c r.num ∗ posD c r.num ∗ owes (c : Thread nD τ) O W)
      ⊢ iprop((((∃ W', owes (c : Thread nD τ) O W') ∗ svD c r.num ∗ rolePay m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS r.num) src dst hsrc hdst) k) Q) := by
  iintro ⟨#HR, #HM, Hc, Hat, HO⟩ Hk
  ihave HI := (inv_d (Rd m) K c r.num) $$ HR
  iapply (Rounds.wp_wait_rest_token 𝒱₀ ER (Rd m) (c : Thread nD τ) none (κ := K (c, some r.num))
      (wpE_waitDma2_eq 𝒱₀ (c : Thread nD τ) none Set.univ) (Set.mem_univ _) () (O := O) (W := W) (R := 0) (m := 0) (T := ∅)
      (by rw [Nat.zero_add, hamt]; exact (expect_dma m c r).symm)) $$ [Hc HO Hat]
  · isplitr; · iexact HI
    isplitl [Hc]; · rw [hamt]; unfold crD; rw [roleOf_num]; iexact Hc
    isplitl [HO]; · iexact HO
    isplitr; · iexact HM
    iexact Hat
  iintro ⟨HO, Hat, -, Hpay⟩
  ihave Hp := (Entails.of_eq (rest_dma m c r)) $$ Hpay
  imod (Rounds.cell_close ER (Rd m) (Set.mem_univ (K (c, some r.num))) (fun h => h) (R := 0 + 1) (duties_later m (dCell c r.num))) $$ [Hat] with Hz
  · isplitr; · iexact HI
    iexact Hat
  iapply Hk
  isplitl [HO]; · iexists (insert (SemLoc.dma (dS r.num), ()) W); iexact HO
  isplitl [Hz]; · iexact Hz
  iexact Hp

/-- The same for the cell of number `n`, whatever its role. -/
theorem step_wait (m : (ℓ : Loc nD τ sig) → Buf (Elt F) ℓ) (K : Dev nD × Option (Fin 80) → ℕ) (c : Dev nD) (n : Fin 80)
    {O : CellTallies nD τ sig Unit} {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = roleAmt (roleOf n)) {α : Type} {Q : α → sProp 𝕄} {k : PUnit → Prog (TpuEff nD τ sig (Elt F) Λ₀ .tc) α} :
    iprop(Rec m K ∗ MayWait (c : Thread nD τ) (.dma (dS n)) () O ∗ crD c n ∗ posD c n ∗ owes (c : Thread nD τ) O W)
      ⊢ iprop((((∃ W', owes (c : Thread nD τ) O W') ∗ svD c n ∗ rolePay m c (roleOf n)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS n) src dst hsrc hdst) k) Q) := by
  have h := step_wait_role m K c (roleOf n) (O := O) (W := W) (src := src) (dst := dst) (hsrc := hsrc) (hdst := hdst) hamt (Q := Q) (k := k)
  rw [num_roleOf] at h
  exact h

/-! ## By role, with the payload spelt out and the evidence taken from the levels -/

theorem lv_loc (b : Fin 4) (v : Fin 2) : lvS (.dma (dS (nLoc b v)) : SemLoc sig) = 0 := by revert b v; decide
theorem lv_xs (b : Fin 4) (i : Fin 2) : lvS (.dma (dS (nXs b i)) : SemLoc sig) = 0 := by revert b i; decide
theorem lv_gs (b : Fin 4) (i : Fin 7) : lvS (.dma (dS (nGs b i)) : SemLoc sig) = 0 := by revert b i; decide

/-- The key rows of batch b have landed: the scratch rows at the keys of the device's head, and the source slice back. -/
theorem step_wait_locK (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NK) {α : Type} {Q : α → sProp 𝕄} {k : PUnit → Prog (TpuEff nD τ sig (Elt F) Λ₀ .tc) α} :
    iprop(Rec m K ∗ Lev (F := F) ∗ crD c (nLoc b 0) ∗ posD c (nLoc b 0) ∗ owes (c : Thread nD τ) (owedFrom c n) W)
      ⊢ iprop((((∃ W', owes (c : Thread nD τ) (owedFrom c n) W') ∗ svD c (nLoc b 0) ∗ kDstA m c b ∗ kSrcA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nLoc b 0)) src dst hsrc hdst) k) Q) := by
  iintro ⟨#HR, #HL, Hc, Hat, HO⟩
  ihave HM := (mayWait_lv0 (F := F) c (dS (nLoc b 0)) (lv_loc b 0) n) $$ HL
  iapply (step_wait_role m K c (.loc b 0) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The value rows of batch b have landed. -/
theorem step_wait_locV (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NV) {α : Type} {Q : α → sProp 𝕄} {k : PUnit → Prog (TpuEff nD τ sig (Elt F) Λ₀ .tc) α} :
    iprop(Rec m K ∗ Lev (F := F) ∗ crD c (nLoc b 1) ∗ posD c (nLoc b 1) ∗ owes (c : Thread nD τ) (owedFrom c n) W)
      ⊢ iprop((((∃ W', owes (c : Thread nD τ) (owedFrom c n) W') ∗ svD c (nLoc b 1) ∗ vDstA m c b ∗ vSrcA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nLoc b 1)) src dst hsrc hdst) k) Q) := by
  iintro ⟨#HR, #HL, Hc, Hat, HO⟩
  ihave HM := (mayWait_lv0 (F := F) c (dS (nLoc b 1)) (lv_loc b 1) n) $$ HL
  iapply (step_wait_role m K c (.loc b 1) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The weighted sums of batch b have been read out by the copy to the other half: the buffer is the device's again. -/
theorem step_wait_xsO (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NO) {α : Type} {Q : α → sProp 𝕄} {k : PUnit → Prog (TpuEff nD τ sig (Elt F) Λ₀ .tc) α} :
    iprop(Rec m K ∗ Lev (F := F) ∗ crD c (nXs b 0) ∗ posD c (nXs b 0) ∗ owes (c : Thread nD τ) (owedFrom c n) W)
      ⊢ iprop((((∃ W', owes (c : Thread nD τ) (owedFrom c n) W') ∗ svD c (nXs b 0) ∗ oA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXs b 0)) src dst hsrc hdst) k) Q) := by
  iintro ⟨#HR, #HL, Hc, Hat, HO⟩
  ihave HM := (mayWait_lv0 (F := F) c (dS (nXs b 0)) (lv_xs b 0) n) $$ HL
  iapply (step_wait_role m K c (.xs b 0) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The row sums of batch b have been read out. -/
theorem step_wait_xsL (m : (ℓ : Loc nD τ sig) → Buf (Elt F) ℓ) (K : Dev nD × Option (Fin 80) → ℕ) (c : Dev nD) (b : Fin 4) (n : ℕ)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NL) {α : Type} {Q : α → sProp 𝕄} {k : PUnit → Prog (TpuEff nD τ sig (Elt F) Λ₀ .tc) α} :
    iprop(Rec m K ∗ Lev (F := F) ∗ crD c (nXs b 1) ∗ posD c (nXs b 1) ∗ owes (c : Thread nD τ) (owedFrom c n) W)
      ⊢ iprop((((∃ W', owes (c : Thread nD τ) (owedFrom c n) W') ∗ svD c (nXs b 1) ∗ lA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXs b 1)) src dst hsrc hdst) k) Q) := by
  iintro ⟨#HR, #HL, Hc, Hat, HO⟩
  ihave HM := (mayWait_lv0 (F := F) c (dS (nXs b 1)) (lv_xs b 1) n) $$ HL
  iapply (step_wait_role m K c (.xs b 1) (O := owedFrom c n) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The other half's weighted sums of batch b have landed; waited at the point of the program where everything still owed lies above this cell. -/
theorem step_wait_xrO (m : (ℓ : Loc nD τ sig) → Buf (Elt F) ℓ) (K : Dev nD × Option (Fin 80) → ℕ) (c : Dev nD) (b : Fin 4)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NO) {α : Type} {Q : α → sProp 𝕄} {k : PUnit → Prog (TpuEff nD τ sig (Elt F) Λ₀ .tc) α} :
    iprop(Rec m K ∗ Lev (F := F) ∗ crD c (nXr b 0) ∗ posD c (nXr b 0) ∗ owes (c : Thread nD τ) (owedFrom c (nX b)) W)
      ⊢ iprop((((∃ W', owes (c : Thread nD τ) (owedFrom c (nX b)) W') ∗ svD c (nXr b 0) ∗ poA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXr b 0)) src dst hsrc hdst) k) Q) := by
  iintro ⟨#HR, #HL, Hc, Hat, HO⟩
  ihave HM := (mayWait_xr (F := F) c b 0) $$ HL
  iapply (step_wait_role m K c (.xr b 0) (O := owedFrom c (nX b)) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The other half's row sums of batch b have landed. -/
theorem step_wait_xrL (m : (ℓ : Loc nD τ sig) → Buf (Elt F) ℓ) (K : Dev nD × Option (Fin 80) → ℕ) (c : Dev nD) (b : Fin 4)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NL) {α : Type} {Q : α → sProp 𝕄} {k : PUnit → Prog (TpuEff nD τ sig (Elt F) Λ₀ .tc) α} :
    iprop(Rec m K ∗ Lev (F := F) ∗ crD c (nXr b 1) ∗ posD c (nXr b 1) ∗ owes (c : Thread nD τ) (owedFrom c (nX b)) W)
      ⊢ iprop((((∃ W', owes (c : Thread nD τ) (owedFrom c (nX b)) W') ∗ svD c (nXr b 1) ∗ plA m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nXr b 1)) src dst hsrc hdst) k) Q) := by
  iintro ⟨#HR, #HL, Hc, Hat, HO⟩
  ihave HM := (mayWait_xr (F := F) c b 1) $$ HL
  iapply (step_wait_role m K c (.xr b 1) (O := owedFrom c (nX b)) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The copy of batch b's merged block to the i-th other head has read it out: its share of the block is the device's again. Waited at the end, nothing owed. -/
theorem step_wait_as (m : (ℓ : Loc nD τ sig) → Buf (Elt F) ℓ) (K : Dev nD × Option (Fin 80) → ℕ) (c : Dev nD) (b : Fin 4) (i : Fin 7)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NH) {α : Type} {Q : α → sProp 𝕄} {k : PUnit → Prog (TpuEff nD τ sig (Elt F) Λ₀ .tc) α} :
    iprop(Rec m K ∗ Lev (F := F) ∗ crD c (nGs b i) ∗ posD c (nGs b i) ∗ owes (c : Thread nD τ) (owedFrom c 44) W)
      ⊢ iprop((((∃ W', owes (c : Thread nD τ) (owedFrom c 44) W') ∗ svD c (nGs b i) ∗ hA m c b (hdN c) (hdN_lt c) (gsShare i)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nGs b i)) src dst hsrc hdst) k) Q) := by
  iintro ⟨#HR, #HL, Hc, Hat, HO⟩
  ihave HM := (mayWait_end (F := F) c (.dma (dS (nGs b i)))) $$ HL
  iapply (step_wait_role m K c (.gs b i) (O := owedFrom c 44) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- The i-th other head's merged block of batch b has landed in the device's result buffer. Waited at the end, nothing owed. -/
theorem step_wait_ar (m : (ℓ : Loc nD τ sig) → Buf (Elt F) ℓ) (K : Dev nD × Option (Fin 80) → ℕ) (c : Dev nD) (b : Fin 4) (i : Fin 7)
    {W : Waits sig Unit} {sp sp' : Space} {s s' : Shape} {e e' : EltTy} {src : Memref sig .tc sp' s' e'} {κ' : Kind} {dst : Memref sig κ' sp s e}
    {hsrc : src.view.WordExact} {hdst : dst.view.WordExact}
    (hamt : dst.view.dmaCredit = NH) {α : Type} {Q : α → sProp 𝕄} {k : PUnit → Prog (TpuEff nD τ sig (Elt F) Λ₀ .tc) α} :
    iprop(Rec m K ∗ Lev (F := F) ∗ crD c (nGr b i) ∗ posD c (nGr b i) ∗ owes (c : Thread nD τ) (owedFrom c 44) W)
      ⊢ iprop((((∃ W', owes (c : Thread nD τ) (owedFrom c 44) W') ∗ svD c (nGr b i) ∗ hA m c b (hdN (pr i.succ c)) (hdN_lt _) fullShare) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (nGr b i)) src dst hsrc hdst) k) Q) := by
  iintro ⟨#HR, #HL, Hc, Hat, HO⟩
  ihave HM := (mayWait_end (F := F) c (.dma (dS (nGr b i)))) $$ HL
  iapply (step_wait_role m K c (.gr b i) (O := owedFrom c 44) (W := W) (src := src) (dst := dst) (hsrc := hsrc) (hdst := hdst) hamt (Q := Q) (k := k)) $$ [HM Hc Hat HO]
  isplitr; · iexact HR
  isplitl [HM]; · iexact HM
  isplitl [Hc]; · iexact Hc
  isplitl [Hat]; · iexact Hat
  iexact HO

/-- info: 'Cert.Kernel.Flash.step_wait_role' depends on axioms: [propext, Classical.choice, Quot.sound] -/
#guard_msgs in #print axioms step_wait_role

end Cert.Kernel.Flash

end
-- ==== Proof.Word.StepsBar.lean ====
/-
  The entry handshake on the barrier semaphore, as two steps of a device's body.

  A device signals the barrier cell of each of its eight peers with one unit, paying duty j of peer j's cell:
  with the signal it hands the peer what the schedule says that duty carries — to the other half of its head
  its two landing buffers, to another head's device the four rows of its result buffer that device will
  write — and what it owes shrinks by that unit.  Then it waits for eight units on its own barrier cell: the
  whole of round 0, so the eight payloads its peers handed in come back together.
-/
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.Levels
import Mathlib.Logic.Equiv.Fin.Basic

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Option (Fin 80) → ℕ) (c : Dev nD)

/-! ## The dues: the first eight paying steps are the barrier units -/

theorem step_bar : ∀ j : Fin 8, step j.val = (j, none, 1) := by decide

/-- Paying step j, for j below 8, is one unit on peer j's barrier cell. -/
theorem owed_bar (j : Fin 8) : owedFrom c j.val = owedFrom c (j.val + 1) + tallyAt (barCell (pr j c)) () 1 := by
  rw [owedFrom_peel c j.val (by have := j.isLt; omega)]
  unfold payAt
  rw [step_bar j]

/-! ## The signal -/

/-- The signal to peer j: its barrier cell's duty j, paid with the token, the payload and one unit of the dues. -/
theorem step_sig (j : Fin 8) {W : Waits sig Unit} {α : Type} {Q : α → sProp 𝕄}
    {k : PUnit → Prog (TpuEff nD τ sig (Elt F) Λ₀ .tc) α} :
    iprop(Rec m K ∗ owes (c : Thread nD τ) (owedFrom c j.val) W ∗ tokB c j ∗ give c j)
      ⊢ iprop((owes (c : Thread nD τ) (owedFrom c (j.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((pr j c : Dev nD) : Thread nD τ) barS 1) k) Q) := by
  iintro ⟨#HR, HO, Htok, Hgive⟩
  iapply (Rounds.wp_signal 𝒱₀ ER (Rd m) (c : Thread nD τ) none (dst := ((pr j c : Dev nD) : Thread nD τ)) (sem := barS)
      (κ := K (pr j c, none)) (r := 0) (d := j) (mem_duties_bar m (pr j c) j) (amount_bar m (pr j c) j) ()
      (owedFrom c (j.val + 1)) (owed_bar c j))
  isplitr; · iapply (inv_bar (Rd m) K (pr j c)); iexact HR
  isplitl [HO]; · iexact HO
  isplitl [Htok]; · iexact Htok
  isplitl [Hgive]
  · rw [payload_bar]; unfold give; iexact Hgive
  · iapply (reached_bar (Rd m) K (pr j c)); iexact HR

/-- The same with the addressed device named by a variable equal to peer j: the form a program takes whose target is
    computed from the device's own position. -/
theorem step_sig_dev (j : Fin 8) (d : Dev nD) (hd : d = pr j c) {W : Waits sig Unit} {α : Type} {Q : α → sProp 𝕄}
    {k : PUnit → Prog (TpuEff nD τ sig (Elt F) Λ₀ .tc) α} :
    iprop(Rec m K ∗ owes (c : Thread nD τ) (owedFrom c j.val) W ∗ tokB c j ∗ give c j)
      ⊢ iprop((owes (c : Thread nD τ) (owedFrom c (j.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((d : Dev nD) : Thread nD τ) barS 1) k) Q) := by
  subst hd; exact step_sig m K c j

/-! ## The wait -/

/-- The payloads of the whole of round 0 of the device's barrier cell are what its eight peers hand it. -/
theorem rest_bar_got : (bigSep ((Rd (F := F) m).duties (barCell c) 0 \ ∅) fun d => (Rd (F := F) m).payload (barCell c) 0 d) = got c := by
  rw [duties_bar, Finset.sdiff_empty]; unfold got
  exact bigSep_congr fun j _ => payload_bar m c j

/-- The wait for the eight units: the rest of round 0 of the device's barrier cell, all of it. -/
theorem step_barwait {W : Waits sig Unit} {α : Type} {Q : α → sProp 𝕄}
    {k : PUnit → Prog (TpuEff nD τ sig (Elt F) Λ₀ .tc) α} :
    iprop(Rec m K ∗ Lev ∗ crB c ∗ posB c ∗ owes (c : Thread nD τ) (owedFrom c 8) W)
      ⊢ iprop((iprop((∃ W', owes (c : Thread nD τ) (owedFrom c 8) W') ∗ got c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 8) k) Q) := by
  iintro ⟨#HR, #Hlev, Hcr, Hpos, HO⟩ Hk
  iapply (Rounds.wp_wait_rest_token 𝒱₀ ER (Rd m) (c : Thread nD τ) none (κ := K (c, none)) (sm := .reg barS) (k' := 8)
      (wpE_semWait_eq 𝒱₀ (c : Thread nD τ) none Set.univ) (Set.mem_univ _) () (O := owedFrom c 8) (W := W) (R := 0) (m := 0) (T := ∅)
      (by rw [expect_bar])) $$ [Hcr HO Hpos]
  · isplitr; · iapply (inv_bar (Rd m) K c); iexact HR
    isplitl [Hcr]; · iexact Hcr
    isplitl [HO]; · iexact HO
    isplitr; · iapply (mayWait_bar c); iexact Hlev
    iexact Hpos
  iintro ⟨HO, -, -, Hpay⟩
  iapply Hk
  isplitl [HO]; · iexists _; iexact HO
  iapply (Entails.of_eq (rest_bar_got m c))
  iexact Hpay

/-! ## What is handed over, in the body's own terms -/

section Glue

/-- Over the eight duties: duty 0, and the seven others. -/
theorem bigSep_fin8_succ {M : Type} [URA M] (Φ : Fin 8 → sProp M) :
    bigSep Finset.univ Φ = iprop(Φ 0 ∗ bigSep Finset.univ fun i : Fin 7 => Φ i.succ) := by
  rw [bigSep_univ_equiv (finSuccEquiv 7).symm Φ, bigSep_univ_option]
  simp only [finSuccEquiv_symm_none, finSuccEquiv_symm_some]

omit [FloatOps F] in
/-- All the elements of a whole buffer at some contents are the buffer at some contents. -/
theorem slE_oM' (d : Dev nD) : (slE (F := F) d oM' : sProp 𝕄) = wholeE d cc0_scratch4 := by
  show iprop(∃ f, (oM' : Memref sig .tc .vmem S4x32x128 .f32).view.loc (d : Thread nD τ) ↦[(oM' : Memref sig .tc .vmem S4x32x128 .f32).view.set]{fullShare} f) = _
  simp only [Memref.view_whole, View.set_whole]
omit [FloatOps F] in
theorem slE_lM' (d : Dev nD) : (slE (F := F) d lM' : sProp 𝕄) = wholeE d cc0_scratch5 := by
  show iprop(∃ f, (lM' : Memref sig .tc .vmem S4x32x1 .f32).view.loc (d : Thread nD τ) ↦[(lM' : Memref sig .tc .vmem S4x32x1 .f32).view.set]{fullShare} f) = _
  simp only [Memref.view_whole, View.set_whole]

omit [FloatOps F] in
/-- To the other half of its head a device hands its two landing buffers, whole, at whatever they hold. -/
theorem give_zero : (give (F := F) c 0 : sProp 𝕄) = iprop(wholeE c cc0_scratch4 ∗ wholeE c cc0_scratch5) := by
  unfold give barPay
  rw [if_pos rfl, pr_pr, ← slE_oM', ← slE_lM']

omit [FloatOps F] in
/-- To the device of its half working on another head: the four rows of its result buffer that device will write. -/
theorem give_succ (i : Fin 7) : (give (F := F) c i.succ : sProp 𝕄)
    = bigSep Finset.univ fun b : Fin 4 => hE (F := F) c b (hdN (pr i.succ c)) (hdN_lt _) := by
  unfold give barPay
  rw [if_neg (Fin.succ_ne_zero i), pr_pr]

omit [FloatOps F] in
/-- What comes back with the eight units: the other half's landing buffers, and from each other head's device the
    four rows of its result buffer this device will write. -/
theorem got_eq : (got (F := F) c : sProp 𝕄)
    = iprop((wholeE (pr 0 c) cc0_scratch4 ∗ wholeE (pr 0 c) cc0_scratch5)
        ∗ bigSep Finset.univ fun i : Fin 7 => bigSep Finset.univ fun b : Fin 4 => hE (F := F) (pr i.succ c) b (hdN c) (hdN_lt c)) := by
  have h0 : (barPay (F := F) c 0 : sProp 𝕄) = iprop(wholeE (pr 0 c) cc0_scratch4 ∗ wholeE (pr 0 c) cc0_scratch5) := by
    unfold barPay; rw [if_pos rfl, ← slE_oM', ← slE_lM']
  have hs : (bigSep Finset.univ fun i : Fin 7 => (barPay (F := F) c i.succ : sProp 𝕄))
      = bigSep Finset.univ fun i : Fin 7 => bigSep Finset.univ fun b : Fin 4 => hE (F := F) (pr i.succ c) b (hdN c) (hdN_lt c) :=
    bigSep_congr fun i _ => by unfold barPay; rw [if_neg (Fin.succ_ne_zero i)]
  unfold got
  rw [bigSep_fin8_succ, h0, hs]

end Glue

/-- info: 'Cert.Kernel.Flash.step_sig' depends on axioms: [propext, Classical.choice, Quot.sound] -/
#guard_msgs in #print axioms step_sig

/-- info: 'Cert.Kernel.Flash.step_barwait' depends on axioms: [propext, Classical.choice, Quot.sound] -/
#guard_msgs in #print axioms step_barwait

end Cert.Kernel.Flash

end
-- ==== Proof.Word.StepsGlue.lean ====
/-
  What the barrier handshake hands over, written as right-nested chains of the body's own resources: what a
  device gives each peer with its signal, and what the eight units it waits for bring back.
-/
import proofs.«900786_g7700000000000787_dist_flashdec_v7x_xyz2x2x4_x_b4_sq32_skv4096_h8_d128_f32_1_alg».proof.Proof.Word.StepsBar
import proofs.«900786_g7700000000000787_dist_flashdec_v7x_xyz2x2x4_x_b4_sq32_skv4096_h8_d128_f32_1_alg».proof.Proof.Word.Chains

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (c : Dev nD)

omit [FloatOps F] in
/-- To the other half of its head: the device's two landing buffers. -/
theorem give_zero_intro : iprop(wholeE (F := F) c cc0_scratch4 ∗ wholeE (F := F) c cc0_scratch5) ⊢ (give (F := F) c 0 : sProp 𝕄) :=
  Entails.of_eq (give_zero c).symm

omit [FloatOps F] in
/-- To the device working on another head: the four rows of the result buffer that device will write, batch by batch. -/
theorem give_succ_intro (i : Fin 7) :
    iprop(hE (F := F) c 0 (hdN (pr i.succ c)) (hdN_lt _) ∗ hE (F := F) c 1 (hdN (pr i.succ c)) (hdN_lt _) ∗ hE (F := F) c 2 (hdN (pr i.succ c)) (hdN_lt _) ∗ hE (F := F) c 3 (hdN (pr i.succ c)) (hdN_lt _))
      ⊢ (give (F := F) c i.succ : sProp 𝕄) := by
  rw [give_succ, bigSep_fin4]

omit [FloatOps F] in
/-- What the eight units bring back: the other half's two landing buffers, then from each of the seven other heads'
    devices, in order, the four rows of its result buffer this device will write. -/
theorem got_elim : (got (F := F) c : sProp 𝕄)
    ⊢ iprop(wholeE (F := F) (pr 0 c) cc0_scratch4 ∗ wholeE (F := F) (pr 0 c) cc0_scratch5
        ∗ hE (F := F) (pr (0 : Fin 7).succ c) 0 (hdN c) (hdN_lt c)
        ∗ hE (F := F) (pr (0 : Fin 7).succ c) 1 (hdN c) (hdN_lt c)
        ∗ hE (F := F) (pr (0 : Fin 7).succ c) 2 (hdN c) (hdN_lt c)
        ∗ hE (F := F) (pr (0 : Fin 7).succ c) 3 (hdN c) (hdN_lt c)
        ∗ hE (F := F) (pr (1 : Fin 7).succ c) 0 (hdN c) (hdN_lt c)
        ∗ hE (F := F) (pr (1 : Fin 7).succ c) 1 (hdN c) (hdN_lt c)
        ∗ hE (F := F) (pr (1 : Fin 7).succ c) 2 (hdN c) (hdN_lt c)
        ∗ hE (F := F) (pr (1 : Fin 7).succ c) 3 (hdN c) (hdN_lt c)
        ∗ hE (F := F) (pr (2 : Fin 7).succ c) 0 (hdN c) (hdN_lt c)
        ∗ hE (F := F) (pr (2 : Fin 7).succ c) 1 (hdN c) (hdN_lt c)
        ∗ hE (F := F) (pr (2 : Fin 7).succ c) 2 (hdN c) (hdN_lt c)
        ∗ hE (F := F) (pr (2 : Fin 7).succ c) 3 (hdN c) (hdN_lt c)
        ∗ hE (F := F) (pr (3 : Fin 7).succ c) 0 (hdN c) (hdN_lt c)
        ∗ hE (F := F) (pr (3 : Fin 7).succ c) 1 (hdN c) (hdN_lt c)
        ∗ hE (F := F) (pr (3 : Fin 7).succ c) 2 (hdN c) (hdN_lt c)
        ∗ hE (F := F) (pr (3 : Fin 7).succ c) 3 (hdN c) (hdN_lt c)
        ∗ hE (F := F) (pr (4 : Fin 7).succ c) 0 (hdN c) (hdN_lt c)
        ∗ hE (F := F) (pr (4 : Fin 7).succ c) 1 (hdN c) (hdN_lt c)
        ∗ hE (F := F) (pr (4 : Fin 7).succ c) 2 (hdN c) (hdN_lt c)
        ∗ hE (F := F) (pr (4 : Fin 7).succ c) 3 (hdN c) (hdN_lt c)
        ∗ hE (F := F) (pr (5 : Fin 7).succ c) 0 (hdN c) (hdN_lt c)
        ∗ hE (F := F) (pr (5 : Fin 7).succ c) 1 (hdN c) (hdN_lt c)
        ∗ hE (F := F) (pr (5 : Fin 7).succ c) 2 (hdN c) (hdN_lt c)
        ∗ hE (F := F) (pr (5 : Fin 7).succ c) 3 (hdN c) (hdN_lt c)
        ∗ hE (F := F) (pr (6 : Fin 7).succ c) 0 (hdN c) (hdN_lt c)
        ∗ hE (F := F) (pr (6 : Fin 7).succ c) 1 (hdN c) (hdN_lt c)
        ∗ hE (F := F) (pr (6 : Fin 7).succ c) 2 (hdN c) (hdN_lt c)
        ∗ hE (F := F) (pr (6 : Fin 7).succ c) 3 (hdN c) (hdN_lt c)) := by
  rw [got_eq, bigSep_fin7x4 (fun (i : Fin 7) (b : Fin 4) => hE (F := F) (pr i.succ c) b (hdN c) (hdN_lt c))]
  exact sep_assoc.1

/-- info: 'Cert.Kernel.Flash.got_elim' depends on axioms: [propext, Classical.choice, Quot.sound] -/
#guard_msgs in #print axioms got_elim

end Cert.Kernel.Flash

end
-- ==== Proof.Word.StepsCopy.lean ====
/-
  The copies of the body, one step each: the eight local copies of a device's key and value rows into its
  scratch buffers, and the exchange's two copies of a batch's weighted sums and row sums into the landing
  buffers of the other half of the head.

  A local copy completes on one of the device's own cells, whose one duty the device itself pays: the copy hands
  in the source rows and the destination rows at whatever they hold, and the duty's payload is the destination
  rows holding the source rows' head (the restating equation of the landed contents) with the source rows back.
  The device gets the cell's credit.

  A copy of the exchange pays two duties: the one of the device's own send cell, whose payload is the source
  rows back, and the one of the receive cell of the other half, whose payload is the other half's landing rows
  holding this device's partial results; the other half of the other half being the device itself, that is the
  payload the schedule names there. The receive cell's credit is one summand of what the device owes, and the
  step peels it.
-/
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.Levels
import proofs.«900786_g7700000000000787_dist_flashdec_v7x_xyz2x2x4_x_b4_sq32_skv4096_h8_d128_f32_1_alg».proof.Proof.Word.SchedTables
import proofs.«900786_g7700000000000787_dist_flashdec_v7x_xyz2x2x4_x_b4_sq32_skv4096_h8_d128_f32_1_alg».proof.Proof.Word.SchedRestate
import proofs.«900786_g7700000000000787_dist_flashdec_v7x_xyz2x2x4_x_b4_sq32_skv4096_h8_d128_f32_1_alg».proof.Proof.Word.Topo

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The amounts and the payers of the cells the copies complete on -/

theorem amt_locK (b : Fin 4) : roleAmt (roleOf (nLoc b 0)) = NK := by
  rw [show nLoc b 0 = (Role.loc b 0).num from rfl, roleOf_num]; rfl
theorem amt_locV (b : Fin 4) : roleAmt (roleOf (nLoc b 1)) = NV := by
  rw [show nLoc b 1 = (Role.loc b 1).num from rfl, roleOf_num]; rfl
theorem amt_xsO (b : Fin 4) : roleAmt (roleOf (nXs b 0)) = NO := by
  rw [show nXs b 0 = (Role.xs b 0).num from rfl, roleOf_num]; rfl
theorem amt_xsL (b : Fin 4) : roleAmt (roleOf (nXs b 1)) = NL := by
  rw [show nXs b 1 = (Role.xs b 1).num from rfl, roleOf_num]; rfl

theorem tgt_loc (c : Dev nD) (b : Fin 4) (v : Fin 2) : tgt (nLoc b v) c = c :=
  tgt_own _ (Or.inl (by revert b v; decide)) c
theorem tgt_xs (c : Dev nD) (b : Fin 4) (i : Fin 2) : tgt (nXs b i) c = c :=
  tgt_own _ (Or.inl (by revert b i; decide)) c
theorem tgt_nXr (c : Dev nD) (b : Fin 4) (i : Fin 2) : tgt (nXr b i) c = pr 0 c := tgt_xr b i c

/-! ## The local copies -/

theorem step_locK (K : Dev nD × Option (Fin 80) → ℕ) (c : Dev nD) (b : Fin 4)
    {α : Type} {Q : α → sProp 𝕄} {k : PUnit → Prog (TpuEff nD τ sig (Elt F) Λ₀ .tc) α}
    {hsrc : (kvSrc b.val b.isLt (hdN c) (hdN_lt c) aK).view.WordExact} {hdst : (kvDst b.val b.isLt kM).view.WordExact}
    {hsem : DmaTarget.Typed .hbm (.dma (dS (nLoc b 0))) (.here (kvDst b.val b.isLt kM) : DmaTarget nD τ sig Proc.tc .vmem S4096x1x128 .f32)} :
    iprop(Rec m K ∗ kSrcA m c b ∗ kDstE c b ∗ tokD c (nLoc b 0))
      ⊢ iprop((crD c (nLoc b 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kvSrc b.val b.isLt (hdN c) (hdN_lt c) aK) (.here (kvDst b.val b.isLt kM)) (.dma (dS (nLoc b 0))) hsrc hdst hsem) k) Q) := by
  unfold tokD crD kSrcA kDstE slE
  rw [tgt_loc, amt_locK]
  iintro ⟨#HR, Hsrc, ⟨%f, Hdst⟩, Htok⟩
  iapply (Rounds.wp_copy_pointsTo 𝒱₀ ER (Rd m) (c : Thread nD τ) none
      (src := kvSrc b.val b.isLt (hdN c) (hdN_lt c) aK) (dst := kvDst b.val b.isLt kM) (q := fullShare)
      (fs := m ((c : Thread nD τ).loc main_arg1)) (fd := f) (r := 0) (d := 0) (κ := K (c, some (nLoc b 0)))
      (mem_duties_dma m c (nLoc b 0)) () NK (NK_eq b.val b.isLt _) (amount_loc_k m c b 0)
      (by rw [payload_loc_k]; exact sep_mono_left (Entails.of_eq (landed_k m c b f)))) $$ [Hsrc Hdst Htok]
  isplitr; · iapply (inv_d (Rd m) K c (nLoc b 0)); iexact HR
  isplitl [Hsrc]; · iexact Hsrc
  isplitl [Hdst]; · iexact Hdst
  isplitl [Htok]; · iexact Htok
  iapply (reached_d (Rd m) K c (nLoc b 0)); iexact HR

theorem step_locV (K : Dev nD × Option (Fin 80) → ℕ) (c : Dev nD) (b : Fin 4)
    {α : Type} {Q : α → sProp 𝕄} {k : PUnit → Prog (TpuEff nD τ sig (Elt F) Λ₀ .tc) α}
    {hsrc : (kvSrc b.val b.isLt (hdN c) (hdN_lt c) aV).view.WordExact} {hdst : (kvDst b.val b.isLt vM).view.WordExact}
    {hsem : DmaTarget.Typed .hbm (.dma (dS (nLoc b 1))) (.here (kvDst b.val b.isLt vM) : DmaTarget nD τ sig Proc.tc .vmem S4096x1x128 .f32)} :
    iprop(Rec m K ∗ vSrcA m c b ∗ vDstE c b ∗ tokD c (nLoc b 1))
      ⊢ iprop((crD c (nLoc b 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kvSrc b.val b.isLt (hdN c) (hdN_lt c) aV) (.here (kvDst b.val b.isLt vM)) (.dma (dS (nLoc b 1))) hsrc hdst hsem) k) Q) := by
  unfold tokD crD vSrcA vDstE slE
  rw [tgt_loc, amt_locV]
  iintro ⟨#HR, Hsrc, ⟨%f, Hdst⟩, Htok⟩
  iapply (Rounds.wp_copy_pointsTo 𝒱₀ ER (Rd m) (c : Thread nD τ) none
      (src := kvSrc b.val b.isLt (hdN c) (hdN_lt c) aV) (dst := kvDst b.val b.isLt vM) (q := fullShare)
      (fs := m ((c : Thread nD τ).loc main_arg2)) (fd := f) (r := 0) (d := 0) (κ := K (c, some (nLoc b 1)))
      (mem_duties_dma m c (nLoc b 1)) () NV (NV_eq b.val b.isLt _) (amount_loc_v m c b 0)
      (by rw [payload_loc_v]; exact sep_mono_left (Entails.of_eq (landed_v m c b f)))) $$ [Hsrc Hdst Htok]
  isplitr; · iapply (inv_d (Rd m) K c (nLoc b 1)); iexact HR
  isplitl [Hsrc]; · iexact Hsrc
  isplitl [Hdst]; · iexact Hdst
  isplitl [Htok]; · iexact Htok
  iapply (reached_d (Rd m) K c (nLoc b 1)); iexact HR

/-! ## The exchange's two copies to the other half -/

theorem step_xsendO' (K : Dev nD × Option (Fin 80) → ℕ) (c : Dev nD) (b : Fin 4)
    (O₀ O : CellTallies nD τ sig Unit) (hO : O₀ = O + tallyAt (dCell (pr 0 c) (nXr b 0)) () NO)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc (pr 0 c) : Thread nD τ) (oSl b.val b.isLt oM') (.dma (dS (nXs b 0))) hsc)} :
    iprop(Rec m K ∗ oA m c b ∗ poE (pr 0 c) b ∗ owes (c : Thread nD τ) O₀ W ∗ tokD c (nXs b 0) ∗ tokD c (nXr b 0))
      ⊢ iprop(((crD c (nXs b 0) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc (pr 0 c) : Thread nD τ) (oSl b.val b.isLt oM') (.dma (dS (nXs b 0))) hsc)
                (.dma (dS (nXr b 0))) hsrc hdst hsem) k) Q) := by
  unfold tokD crD oA poE slE
  rw [tgt_xs, tgt_nXr, amt_xsO]
  iintro ⟨#HR, Hsrc, ⟨%f, Hdst⟩, HO, Htok₁, Htok₂⟩
  iapply (Rounds.wp_send_pointsTo 𝒱₀ ER (Rd m) (c : Thread nD τ) none (c' := (Dev.tc (pr 0 c) : Thread nD τ))
      (src := oSl b.val b.isLt oM) (dst := oSl b.val b.isLt oM') (q := fullShare) (fs := oC m c) (fd := f)
      (κ₁ := K (c, some (nXs b 0))) (κ₂ := K (pr 0 c, some (nXr b 0))) (r₁ := 0) (r₂ := 0) (d₁ := 0) (d₂ := 0)
      (mem_duties_dma m c (nXs b 0)) (mem_duties_dma m (pr 0 c) (nXr b 0))
      () () NO (NO_eq b.val b.isLt _) (amount_xs_o m c b 0) (amount_xr_o m (pr 0 c) b 0) O hO (W := W)
      (Entails.of_eq (payload_xs_o m c b 0).symm)
      (by rw [payload_xr_o, pr_pr]; exact Entails.of_eq (landed_o m c (pr 0 c) b f))) $$ [Hsrc Hdst HO Htok₁ Htok₂]
  isplitr; · iapply (inv_d (Rd m) K c (nXs b 0)); iexact HR
  isplitr; · iapply (inv_d (Rd m) K (pr 0 c) (nXr b 0)); iexact HR
  isplitl [Hsrc]; · iexact Hsrc
  isplitl [Hdst]; · iexact Hdst
  isplitl [HO]; · iexact HO
  isplitl [Htok₁]; · iexact Htok₁
  isplitr; · iapply (reached_d (Rd m) K c (nXs b 0)); iexact HR
  isplitl [Htok₂]; · iexact Htok₂
  iapply (reached_d (Rd m) K (pr 0 c) (nXr b 0)); iexact HR

theorem step_xsendL' (K : Dev nD × Option (Fin 80) → ℕ) (c : Dev nD) (b : Fin 4)
    (O₀ O : CellTallies nD τ sig Unit) (hO : O₀ = O + tallyAt (dCell (pr 0 c) (nXr b 1)) () NL)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc (pr 0 c) : Thread nD τ) (lSl b.val b.isLt lM') (.dma (dS (nXs b 1))) hsc)} :
    iprop(Rec m K ∗ lA m c b ∗ plE (pr 0 c) b ∗ owes (c : Thread nD τ) O₀ W ∗ tokD c (nXs b 1) ∗ tokD c (nXr b 1))
      ⊢ iprop(((crD c (nXs b 1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc (pr 0 c) : Thread nD τ) (lSl b.val b.isLt lM') (.dma (dS (nXs b 1))) hsc)
                (.dma (dS (nXr b 1))) hsrc hdst hsem) k) Q) := by
  unfold tokD crD lA plE slE
  rw [tgt_xs, tgt_nXr, amt_xsL]
  iintro ⟨#HR, Hsrc, ⟨%f, Hdst⟩, HO, Htok₁, Htok₂⟩
  iapply (Rounds.wp_send_pointsTo 𝒱₀ ER (Rd m) (c : Thread nD τ) none (c' := (Dev.tc (pr 0 c) : Thread nD τ))
      (src := lSl b.val b.isLt lM) (dst := lSl b.val b.isLt lM') (q := fullShare) (fs := lC m c) (fd := f)
      (κ₁ := K (c, some (nXs b 1))) (κ₂ := K (pr 0 c, some (nXr b 1))) (r₁ := 0) (r₂ := 0) (d₁ := 0) (d₂ := 0)
      (mem_duties_dma m c (nXs b 1)) (mem_duties_dma m (pr 0 c) (nXr b 1))
      () () NL (NL_eq b.val b.isLt _) (amount_xs_l m c b 0) (amount_xr_l m (pr 0 c) b 0) O hO (W := W)
      (Entails.of_eq (payload_xs_l m c b 0).symm)
      (by rw [payload_xr_l, pr_pr]; exact Entails.of_eq (landed_l m c (pr 0 c) b f))) $$ [Hsrc Hdst HO Htok₁ Htok₂]
  isplitr; · iapply (inv_d (Rd m) K c (nXs b 1)); iexact HR
  isplitr; · iapply (inv_d (Rd m) K (pr 0 c) (nXr b 1)); iexact HR
  isplitl [Hsrc]; · iexact Hsrc
  isplitl [Hdst]; · iexact Hdst
  isplitl [HO]; · iexact HO
  isplitl [Htok₁]; · iexact Htok₁
  isplitr; · iapply (reached_d (Rd m) K c (nXs b 1)); iexact HR
  isplitl [Htok₂]; · iexact Htok₂
  iapply (reached_d (Rd m) K (pr 0 c) (nXr b 1)); iexact HR

/-- The copy of the weighted sums of batch b as paying step n of the device's dues: the step's peel
    (owed_8, owed_10, owed_19, owed_28 for b = 0, 1, 2, 3) is the hypothesis. -/
theorem step_xsendO (K : Dev nD × Option (Fin 80) → ℕ) (c : Dev nD) (b : Fin 4) (n : ℕ)
    (hO : owedFrom c n = owedFrom c (n + 1) + tallyAt (dCell (pr 0 c) (nXr b 0)) () NO)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc (pr 0 c) : Thread nD τ) (oSl b.val b.isLt oM') (.dma (dS (nXs b 0))) hsc)} :
    iprop(Rec m K ∗ oA m c b ∗ poE (pr 0 c) b ∗ owes (c : Thread nD τ) (owedFrom c n) W ∗ tokD c (nXs b 0) ∗ tokD c (nXr b 0))
      ⊢ iprop(((crD c (nXs b 0) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc (pr 0 c) : Thread nD τ) (oSl b.val b.isLt oM') (.dma (dS (nXs b 0))) hsc)
                (.dma (dS (nXr b 0))) hsrc hdst hsem) k) Q) :=
  step_xsendO' m K c b (owedFrom c n) (owedFrom c (n + 1)) hO

/-- The copy of the row sums of batch b as paying step n (owed_9, owed_11, owed_20, owed_29). -/
theorem step_xsendL (K : Dev nD × Option (Fin 80) → ℕ) (c : Dev nD) (b : Fin 4) (n : ℕ)
    (hO : owedFrom c n = owedFrom c (n + 1) + tallyAt (dCell (pr 0 c) (nXr b 1)) () NL)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc (pr 0 c) : Thread nD τ) (lSl b.val b.isLt lM') (.dma (dS (nXs b 1))) hsc)} :
    iprop(Rec m K ∗ lA m c b ∗ plE (pr 0 c) b ∗ owes (c : Thread nD τ) (owedFrom c n) W ∗ tokD c (nXs b 1) ∗ tokD c (nXr b 1))
      ⊢ iprop(((crD c (nXs b 1) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc (pr 0 c) : Thread nD τ) (lSl b.val b.isLt lM') (.dma (dS (nXs b 1))) hsc)
                (.dma (dS (nXr b 1))) hsrc hdst hsem) k) Q) :=
  step_xsendL' m K c b (owedFrom c n) (owedFrom c (n + 1)) hO

/-! The eight instances: each batch's two copies at their paying steps. -/
example (K : Dev nD × Option (Fin 80) → ℕ) (c : Dev nD) := @step_xsendO F _ m K c 0 8 (owed_8 c)
example (K : Dev nD × Option (Fin 80) → ℕ) (c : Dev nD) := @step_xsendL F _ m K c 0 9 (owed_9 c)
example (K : Dev nD × Option (Fin 80) → ℕ) (c : Dev nD) := @step_xsendO F _ m K c 1 10 (owed_10 c)
example (K : Dev nD × Option (Fin 80) → ℕ) (c : Dev nD) := @step_xsendL F _ m K c 1 11 (owed_11 c)
example (K : Dev nD × Option (Fin 80) → ℕ) (c : Dev nD) := @step_xsendO F _ m K c 2 19 (owed_19 c)
example (K : Dev nD × Option (Fin 80) → ℕ) (c : Dev nD) := @step_xsendL F _ m K c 2 20 (owed_20 c)
example (K : Dev nD × Option (Fin 80) → ℕ) (c : Dev nD) := @step_xsendO F _ m K c 3 28 (owed_28 c)
example (K : Dev nD × Option (Fin 80) → ℕ) (c : Dev nD) := @step_xsendL F _ m K c 3 29 (owed_29 c)

/-! ## The local copies, the source rows' offsets a variable

The program spells the offsets of a device's head rows by a function of the device; these forms take the
offsets as a variable with the equation that says which rows they are. -/

theorem step_locK_off (K : Dev nD × Option (Fin 80) → ℕ) (c : Dev nD) (b : Fin 4) (off : Fin 4 → ℕ)
    (hoff : off = ![b.val, 0, hdN c, 0])
    {hinb : ∀ a, off a + S1x4096x1x128.size a ≤ S4x4096x8x128.size a}
    {h2 : ∀ a, (Rect.unit (s := S4x4096x8x128) off S1x4096x1x128.size hinb).stride a = 1}
    {α : Type} {Q : α → sProp 𝕄} {k : PUnit → Prog (TpuEff nD τ sig (Elt F) Λ₀ .tc) α}
    {hsrc : (((Memref.whole main_arg1 : Memref sig .tc .hbm S4x4096x8x128 .f32).slice
        (Rect.unit (s := S4x4096x8x128) off S1x4096x1x128.size hinb) h2).squeeze S4096x1x128 squeezes_S1x4096x1x128_S4096x1x128).view.WordExact}
    {hdst : (kvDst b.val b.isLt kM).view.WordExact}
    {hsem : DmaTarget.Typed .hbm (.dma (dS (nLoc b 0))) (.here (kvDst b.val b.isLt kM) : DmaTarget nD τ sig Proc.tc .vmem S4096x1x128 .f32)} :
    iprop(Rec m K ∗ kSrcA m c b ∗ kDstE c b ∗ tokD c (nLoc b 0))
      ⊢ iprop((crD c (nLoc b 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole main_arg1 : Memref sig .tc .hbm S4x4096x8x128 .f32).slice
                  (Rect.unit (s := S4x4096x8x128) off S1x4096x1x128.size hinb) h2).squeeze S4096x1x128 squeezes_S1x4096x1x128_S4096x1x128)
                (.here (kvDst b.val b.isLt kM)) (.dma (dS (nLoc b 0))) hsrc hdst hsem) k) Q) := by
  subst hoff
  exact step_locK m K c b

theorem step_locV_off (K : Dev nD × Option (Fin 80) → ℕ) (c : Dev nD) (b : Fin 4) (off : Fin 4 → ℕ)
    (hoff : off = ![b.val, 0, hdN c, 0])
    {hinb : ∀ a, off a + S1x4096x1x128.size a ≤ S4x4096x8x128.size a}
    {h2 : ∀ a, (Rect.unit (s := S4x4096x8x128) off S1x4096x1x128.size hinb).stride a = 1}
    {α : Type} {Q : α → sProp 𝕄} {k : PUnit → Prog (TpuEff nD τ sig (Elt F) Λ₀ .tc) α}
    {hsrc : (((Memref.whole main_arg2 : Memref sig .tc .hbm S4x4096x8x128 .f32).slice
        (Rect.unit (s := S4x4096x8x128) off S1x4096x1x128.size hinb) h2).squeeze S4096x1x128 squeezes_S1x4096x1x128_S4096x1x128).view.WordExact}
    {hdst : (kvDst b.val b.isLt vM).view.WordExact}
    {hsem : DmaTarget.Typed .hbm (.dma (dS (nLoc b 1))) (.here (kvDst b.val b.isLt vM) : DmaTarget nD τ sig Proc.tc .vmem S4096x1x128 .f32)} :
    iprop(Rec m K ∗ vSrcA m c b ∗ vDstE c b ∗ tokD c (nLoc b 1))
      ⊢ iprop((crD c (nLoc b 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole main_arg2 : Memref sig .tc .hbm S4x4096x8x128 .f32).slice
                  (Rect.unit (s := S4x4096x8x128) off S1x4096x1x128.size hinb) h2).squeeze S4096x1x128 squeezes_S1x4096x1x128_S4096x1x128)
                (.here (kvDst b.val b.isLt vM)) (.dma (dS (nLoc b 1))) hsrc hdst hsem) k) Q) := by
  subst hoff
  exact step_locV m K c b

/-! The eight instances: each batch's source rows at the offsets the program names. -/
example (K : Dev nD × Option (Fin 80) → ℕ) (c : Dev nD) := @step_locK_off F _ m K c 0 (k0_off1 c) (k0_off1_eq c)
example (K : Dev nD × Option (Fin 80) → ℕ) (c : Dev nD) := @step_locV_off F _ m K c 0 (k0_off1 c) (k0_off1_eq c)
example (K : Dev nD × Option (Fin 80) → ℕ) (c : Dev nD) := @step_locK_off F _ m K c 1 (k0_off2 c) (k0_off2_eq c)
example (K : Dev nD × Option (Fin 80) → ℕ) (c : Dev nD) := @step_locV_off F _ m K c 1 (k0_off2 c) (k0_off2_eq c)
example (K : Dev nD × Option (Fin 80) → ℕ) (c : Dev nD) := @step_locK_off F _ m K c 2 (k0_off3 c) (k0_off3_eq c)
example (K : Dev nD × Option (Fin 80) → ℕ) (c : Dev nD) := @step_locV_off F _ m K c 2 (k0_off3 c) (k0_off3_eq c)
example (K : Dev nD × Option (Fin 80) → ℕ) (c : Dev nD) := @step_locK_off F _ m K c 3 (k0_off4 c) (k0_off4_eq c)
example (K : Dev nD × Option (Fin 80) → ℕ) (c : Dev nD) := @step_locV_off F _ m K c 3 (k0_off4 c) (k0_off4_eq c)

/-! ## The exchange's copies, the addressed device a variable

The program names the other half by a function of the device; these forms take the addressed device as a
variable with the equation that says it is the other half. -/

theorem step_xsendO_dev (K : Dev nD × Option (Fin 80) → ℕ) (c : Dev nD) (b : Fin 4) (n : ℕ)
    (hO : owedFrom c n = owedFrom c (n + 1) + tallyAt (dCell (pr 0 c) (nXr b 0)) () NO)
    (d : Dev nD) (hd : d = pr 0 c)
    {W : Waits sig Unit} {α : Type} {Q : α → sProp 𝕄} {k : PUnit → Prog (TpuEff nD τ sig (Elt F) Λ₀ .tc) α}
    {hsc : (oSl b.val b.isLt oM').view.ref.isScScratch = false}
    {hsrc : (oSl b.val b.isLt oM).view.WordExact} {hdst : (oSl b.val b.isLt oM').view.WordExact}
    {hsem : DmaTarget.Typed .vmem (.dma (dS (nXr b 0))) (.remote (Dev.tc d : Thread nD τ) (oSl b.val b.isLt oM') (.dma (dS (nXs b 0))) hsc)} :
    iprop(Rec m K ∗ oA m c b ∗ poE (pr 0 c) b ∗ owes (c : Thread nD τ) (owedFrom c n) W ∗ tokD c (nXs b 0) ∗ tokD c (nXr b 0))
      ⊢ iprop(((crD c (nXs b 0) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl b.val b.isLt oM) (.remote (Dev.tc d : Thread nD τ) (oSl b.val b.isLt oM') (.dma (dS (nXs b 0))) hsc)
                (.dma (dS (nXr b 0))) hsrc hdst hsem) k) Q) := by
  subst hd
  exact step_xsendO m K c b n hO

theorem step_xsendL_dev (K : Dev nD × Option (Fin 80) → ℕ) (c : Dev nD) (b : Fin 4) (n : ℕ)
    (hO : owedFrom c n = owedFrom c (n + 1) + tallyAt (dCell (pr 0 c) (nXr b 1)) () NL)
    (d : Dev nD) (hd : d = pr 0 c)
    {W : Waits sig Unit} {α : Type} {Q : α → sProp 𝕄} {k : PUnit → Prog (TpuEff nD τ sig (Elt F) Λ₀ .tc) α}
    {hsc : (lSl b.val b.isLt lM').view.ref.isScScratch = false}
    {hsrc : (lSl b.val b.isLt lM).view.WordExact} {hdst : (lSl b.val b.isLt lM').view.WordExact}
    {hsem : DmaTarget.Typed .vmem (.dma (dS (nXr b 1))) (.remote (Dev.tc d : Thread nD τ) (lSl b.val b.isLt lM') (.dma (dS (nXs b 1))) hsc)} :
    iprop(Rec m K ∗ lA m c b ∗ plE (pr 0 c) b ∗ owes (c : Thread nD τ) (owedFrom c n) W ∗ tokD c (nXs b 1) ∗ tokD c (nXr b 1))
      ⊢ iprop(((crD c (nXs b 1) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSl b.val b.isLt lM) (.remote (Dev.tc d : Thread nD τ) (lSl b.val b.isLt lM') (.dma (dS (nXs b 1))) hsc)
                (.dma (dS (nXr b 1))) hsrc hdst hsem) k) Q) := by
  subst hd
  exact step_xsendL m K c b n hO

/-! The eight instances: each batch's two copies addressed as the program addresses them. -/
example (K : Dev nD × Option (Fin 80) → ℕ) (c : Dev nD) := @step_xsendO_dev F _ m K c 0 8 (owed_8 c) ⟨k0_dev9 c, k0_dev9_lt c⟩ (dev9_eq c)
example (K : Dev nD × Option (Fin 80) → ℕ) (c : Dev nD) := @step_xsendL_dev F _ m K c 0 9 (owed_9 c) ⟨k0_dev10 c, k0_dev10_lt c⟩ (dev10_eq c)
example (K : Dev nD × Option (Fin 80) → ℕ) (c : Dev nD) := @step_xsendO_dev F _ m K c 1 10 (owed_10 c) ⟨k0_dev11 c, k0_dev11_lt c⟩ (dev11_eq c)
example (K : Dev nD × Option (Fin 80) → ℕ) (c : Dev nD) := @step_xsendL_dev F _ m K c 1 11 (owed_11 c) ⟨k0_dev12 c, k0_dev12_lt c⟩ (dev12_eq c)
example (K : Dev nD × Option (Fin 80) → ℕ) (c : Dev nD) := @step_xsendO_dev F _ m K c 2 19 (owed_19 c) ⟨k0_dev20 c, k0_dev20_lt c⟩ (dev20_eq c)
example (K : Dev nD × Option (Fin 80) → ℕ) (c : Dev nD) := @step_xsendL_dev F _ m K c 2 20 (owed_20 c) ⟨k0_dev21 c, k0_dev21_lt c⟩ (dev21_eq c)
example (K : Dev nD × Option (Fin 80) → ℕ) (c : Dev nD) := @step_xsendO_dev F _ m K c 3 28 (owed_28 c) ⟨k0_dev29 c, k0_dev29_lt c⟩ (dev29_eq c)
example (K : Dev nD × Option (Fin 80) → ℕ) (c : Dev nD) := @step_xsendL_dev F _ m K c 3 29 (owed_29 c) ⟨k0_dev30 c, k0_dev30_lt c⟩ (dev30_eq c)

/-- info: 'Cert.Kernel.Flash.step_locK' depends on axioms: [propext, Classical.choice, Quot.sound] -/
#guard_msgs in #print axioms step_locK

/-- info: 'Cert.Kernel.Flash.step_locV' depends on axioms: [propext, Classical.choice, Quot.sound] -/
#guard_msgs in #print axioms step_locV

/-- info: 'Cert.Kernel.Flash.step_locK_off' depends on axioms: [propext, Classical.choice, Quot.sound] -/
#guard_msgs in #print axioms step_locK_off

/-- info: 'Cert.Kernel.Flash.step_locV_off' depends on axioms: [propext, Classical.choice, Quot.sound] -/
#guard_msgs in #print axioms step_locV_off

/-- info: 'Cert.Kernel.Flash.step_xsendO' depends on axioms: [propext, Classical.choice, Quot.sound] -/
#guard_msgs in #print axioms step_xsendO

/-- info: 'Cert.Kernel.Flash.step_xsendL' depends on axioms: [propext, Classical.choice, Quot.sound] -/
#guard_msgs in #print axioms step_xsendL

/-- info: 'Cert.Kernel.Flash.step_xsendO_dev' depends on axioms: [propext, Classical.choice, Quot.sound] -/
#guard_msgs in #print axioms step_xsendO_dev

/-- info: 'Cert.Kernel.Flash.step_xsendL_dev' depends on axioms: [propext, Classical.choice, Quot.sound] -/
#guard_msgs in #print axioms step_xsendL_dev

end Cert.Kernel.Flash

end
-- ==== Proof.Word.StepsMem.lean ====
import proofs.«900786_g7700000000000787_dist_flashdec_v7x_xyz2x2x4_x_b4_sq32_skv4096_h8_d128_f32_1_alg».proof.Proof.Word.Atoms
import proofs.«900786_g7700000000000787_dist_flashdec_v7x_xyz2x2x4_x_b4_sq32_skv4096_h8_d128_f32_1_alg».proof.Proof.Word.SchedRestate

/-! The body's loads and stores.

A load through a row's rectangle of a buffer held only on that row reads the row: of the staged
queries and of the landed keys and values the blocks `qB`, `kB`, `vB`; of the buffers of partial
results the blocks `oB`, `lB` of the device or of the other half; of the result buffer the merged
block. A store of the device's partial results, or of the merged block, through the row's
rectangle leaves the row at the canonical contents. -/

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The canonical contents read through a row's rectangle -/

theorem idx_rO (b : Fin 4) (q : Fin 32) (d : Fin 128) :
    (rO b).toLoadRect.idx (ix3 (0 : Fin 1) q d) = ix3 b q d :=
  funext fun a => Fin.ext (by
    match a with
    | ⟨0, _⟩ => show b.val + 1 * 0 = b.val; omega
    | ⟨1, _⟩ => show 0 + 1 * q.val = q.val; omega
    | ⟨2, _⟩ => show 0 + 1 * d.val = d.val; omega)

theorem idx_rL (b : Fin 4) (q : Fin 32) (w : Fin 1) :
    (rL b).toLoadRect.idx (ix3 (0 : Fin 1) q w) = ix3 b q w :=
  funext fun a => Fin.ext (by
    match a with
    | ⟨0, _⟩ => show b.val + 1 * 0 = b.val; omega
    | ⟨1, _⟩ => show 0 + 1 * q.val = q.val; omega
    | ⟨2, _⟩ => show 0 + 1 * w.val = w.val; omega)

theorem idx_rH (b : Fin 4) (h : ℕ) (hh : h < 8) (q : Fin 32) (d : Fin 128) :
    (rH b h hh).toLoadRect.idx (ix4 (0 : Fin 1) q (0 : Fin 1) d) = ix4 b q (⟨h, hh⟩ : Fin 8) d :=
  funext fun a => Fin.ext (by
    match a with
    | ⟨0, _⟩ => show b.val + 1 * 0 = b.val; omega
    | ⟨1, _⟩ => show 0 + 1 * q.val = q.val; omega
    | ⟨2, _⟩ => show h + 1 * 0 = h; omega
    | ⟨3, _⟩ => show 0 + 1 * d.val = d.val; omega)

/-- Row `b` of a device's buffer of partial outputs is its partial output of batch `b`. -/
theorem readAt_oC (c : Dev nD) (b : Fin 4) :
    (oM : Memref sig .tc .vmem S4x32x128 .f32).view.readAt (Elt F) (rO b).toLoadRect (oC m c) = oB m c b := by
  funext x
  obtain ⟨u, q, d, rfl⟩ : ∃ (u : Fin 1) (q : Fin 32) (d : Fin 128), x = ix3 u q d := ⟨x 0, x 1, x 2, eq_ix3 x⟩
  obtain rfl : u = 0 := Subsingleton.elim _ _
  exact (congrArg (oC m c) (idx_rO b q d)).trans rfl

/-- The same read off the landing buffer, which holds a copy of it. -/
theorem readAt_oC' (c : Dev nD) (b : Fin 4) :
    (oM' : Memref sig .tc .vmem S4x32x128 .f32).view.readAt (Elt F) (rO b).toLoadRect (oC m c) = oB m c b := by
  funext x
  obtain ⟨u, q, d, rfl⟩ : ∃ (u : Fin 1) (q : Fin 32) (d : Fin 128), x = ix3 u q d := ⟨x 0, x 1, x 2, eq_ix3 x⟩
  obtain rfl : u = 0 := Subsingleton.elim _ _
  exact (congrArg (oC m c) (idx_rO b q d)).trans rfl

theorem readAt_lC (c : Dev nD) (b : Fin 4) :
    (lM : Memref sig .tc .vmem S4x32x1 .f32).view.readAt (Elt F) (rL b).toLoadRect (lC m c) = lB m c b := by
  funext x
  obtain ⟨u, q, w, rfl⟩ : ∃ (u : Fin 1) (q : Fin 32) (w : Fin 1), x = ix3 u q w := ⟨x 0, x 1, x 2, eq_ix3 x⟩
  obtain rfl : u = 0 := Subsingleton.elim _ _
  exact (congrArg (lC m c) (idx_rL b q w)).trans rfl

theorem readAt_lC' (c : Dev nD) (b : Fin 4) :
    (lM' : Memref sig .tc .vmem S4x32x1 .f32).view.readAt (Elt F) (rL b).toLoadRect (lC m c) = lB m c b := by
  funext x
  obtain ⟨u, q, w, rfl⟩ : ∃ (u : Fin 1) (q : Fin 32) (w : Fin 1), x = ix3 u q w := ⟨x 0, x 1, x 2, eq_ix3 x⟩
  obtain rfl : u = 0 := Subsingleton.elim _ _
  exact (congrArg (lC m c) (idx_rL b q w)).trans rfl

/-- The device's own row of the result buffer is its merged block. -/
theorem readAt_outC (c : Dev nD) (b : Fin 4) :
    (rM : Memref sig .tc .vmem S4x32x8x128 .f32).view.readAt (Elt F) (rH b (hdN c) (hdN_lt c)).toLoadRect (outC m c) = mB m c b := by
  funext x
  obtain ⟨u, q, w, d, rfl⟩ : ∃ (u : Fin 1) (q : Fin 32) (w : Fin 1) (d : Fin 128), x = ix4 u q w d := ⟨x 0, x 1, x 2, x 3, eq_ix4 x⟩
  obtain rfl : u = 0 := Subsingleton.elim _ _
  obtain rfl : w = 0 := Subsingleton.elim _ _
  refine (congrArg (outC m c) (idx_rH b (hdN c) (hdN_lt c) q d)).trans ?_
  exact congrArg (fun d' => mB m d' b (ix4 (0 : Fin 1) q (0 : Fin 1) d)) (hdDev_self c)

/-! ## What the stores leave -/

theorem stored_o (c : Dev nD) (b : Fin 4) (f : (cc0_scratch2 : Ref sig .tc).ty.Contents (Elt F)) :
    slPts c (oSl b.val b.isLt oM) fullShare (((oM : Memref sig .tc .vmem S4x32x128 .f32).access (rO b)).write (Elt F) f (oB m c b) Finset.univ)
      = slPts c (oSl b.val b.isLt oM) fullShare (oC m c) :=
  pointsTo_congr (by
    rw [set_oSl b oM]
    exact write_agree ((oM : Memref sig .tc .vmem S4x32x128 .f32).access (rO b)) f (oC m c) (oB m c b)
      fun x => (congrFun (readAt_oC m c b) x).symm)

theorem stored_l (c : Dev nD) (b : Fin 4) (f : (cc0_scratch3 : Ref sig .tc).ty.Contents (Elt F)) :
    slPts c (lSl b.val b.isLt lM) fullShare (((lM : Memref sig .tc .vmem S4x32x1 .f32).access (rL b)).write (Elt F) f (lB m c b) Finset.univ)
      = slPts c (lSl b.val b.isLt lM) fullShare (lC m c) :=
  pointsTo_congr (by
    rw [set_lSl b lM]
    exact write_agree ((lM : Memref sig .tc .vmem S4x32x1 .f32).access (rL b)) f (lC m c) (lB m c b)
      fun x => (congrFun (readAt_lC m c b) x).symm)

theorem stored_h (c : Dev nD) (b : Fin 4) (f : (cc0_stg1_0 : Ref sig .tc).ty.Contents (Elt F)) :
    slPts c (hSl b.val b.isLt (hdN c) (hdN_lt c) rM) fullShare
        (((rM : Memref sig .tc .vmem S4x32x8x128 .f32).access (rH b (hdN c) (hdN_lt c))).write (Elt F) f (mB m c b) Finset.univ)
      = slPts c (hSl b.val b.isLt (hdN c) (hdN_lt c) rM) fullShare (outC m c) :=
  pointsTo_congr (write_agree ((rM : Memref sig .tc .vmem S4x32x8x128 .f32).access (rH b (hdN c) (hdN_lt c))) f (outC m c) (mB m c b)
    fun x => (congrFun (readAt_outC m c b) x).symm)

/-! ## The steps -/

/-- The load of the query block of batch `b`. -/
theorem step_loadQ (K : Dev nD × Option (Fin 80) → ℕ) (c : Dev nD) (b : Fin 4) {α : Type} {Q : α → sProp 𝕄}
    {k : Vec F S1x32x1x128 .f32 → Prog (TpuEff nD τ sig (Elt F) Λ₀ .tc) α}
    {hl : (qM : Memref sig .tc .vmem S4x32x8x128 .f32).view.LoadsAt (rH b (hdN c) (hdN_lt c)).toLoadRect} :
    iprop(Qstg m c)
      ⊢ iprop((Qstg m c -∗ wp frame (wpE (defs₀ (F := F)) 𝒱₀ (c : Thread nD τ) none) Set.univ (k (qB m c b)) Q)
          -∗ wp frame (wpE (defs₀ (F := F)) 𝒱₀ (c : Thread nD τ) none) Set.univ
              (.op (.load qM (rH b (hdN c) (hdN_lt c)).toLoadRect hl) k) Q) := by
  exact wp_load 𝒱₀ (c : Thread nD τ) none Set.univ (View.setOn_subset_set _ _)

/-- The load of the landed key block of batch `b`. -/
theorem step_loadK (K : Dev nD × Option (Fin 80) → ℕ) (c : Dev nD) (b : Fin 4) {α : Type} {Q : α → sProp 𝕄}
    {k : Vec F S1x4096x1x128 .f32 → Prog (TpuEff nD τ sig (Elt F) Λ₀ .tc) α}
    {hl : (kM : Memref sig .tc .vmem S4x4096x1x128 .f32).view.LoadsAt (rK b).toLoadRect} :
    iprop(kDstA m c b)
      ⊢ iprop((kDstA m c b -∗ wp frame (wpE (defs₀ (F := F)) 𝒱₀ (c : Thread nD τ) none) Set.univ (k (kB m c b)) Q)
          -∗ wp frame (wpE (defs₀ (F := F)) 𝒱₀ (c : Thread nD τ) none) Set.univ
              (.op (.load kM (rK b).toLoadRect hl) k) Q) := by
  exact wp_load_rect 𝒱₀ (c : Thread nD τ) none Set.univ (m := kM) (r := rK b) (set_kvDst b kM).ge

/-- The load of the landed value block of batch `b`. -/
theorem step_loadV (K : Dev nD × Option (Fin 80) → ℕ) (c : Dev nD) (b : Fin 4) {α : Type} {Q : α → sProp 𝕄}
    {k : Vec F S1x4096x1x128 .f32 → Prog (TpuEff nD τ sig (Elt F) Λ₀ .tc) α}
    {hl : (vM : Memref sig .tc .vmem S4x4096x1x128 .f32).view.LoadsAt (rK b).toLoadRect} :
    iprop(vDstA m c b)
      ⊢ iprop((vDstA m c b -∗ wp frame (wpE (defs₀ (F := F)) 𝒱₀ (c : Thread nD τ) none) Set.univ (k (vB m c b)) Q)
          -∗ wp frame (wpE (defs₀ (F := F)) 𝒱₀ (c : Thread nD τ) none) Set.univ
              (.op (.load vM (rK b).toLoadRect hl) k) Q) := by
  exact wp_load_rect 𝒱₀ (c : Thread nD τ) none Set.univ (m := vM) (r := rK b) (set_kvDst b vM).ge

include m in
/-- A load of row `b` of the buffer of partial denominators before it is written: the row is kept, the value is whatever was there. -/
theorem step_loadLdead (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM : Memref sig .tc .vmem S4x32x1 .f32).view.LoadsAt (rL b).toLoadRect} :
    iprop(lE (F := F) c b)
      ⊢ iprop((∀ ret, lE (F := F) c b -∗ wp frame (wpE (defs₀ (F := F)) 𝒱₀ (c : Thread nD τ) none) Set.univ (k ret) Q)
          -∗ wp frame (wpE (defs₀ (F := F)) 𝒱₀ (c : Thread nD τ) none) Set.univ
              (.op (.load lM (rL b).toLoadRect hl) k) Q) := by
  iintro ⟨%f, H⟩ Hk
  iapply (wp_load_rect 𝒱₀ (c : Thread nD τ) none Set.univ (m := (lM : Memref sig .tc .vmem S4x32x1 .f32)) (r := rL b) (set_lSl b lM).ge) $$ H
  iintro H
  iapply Hk
  iexists f
  iexact H

include m in
/-- A load of row `b` of the buffer of partial outputs before it is written. -/
theorem step_loadOdead (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM : Memref sig .tc .vmem S4x32x128 .f32).view.LoadsAt (rO b).toLoadRect} :
    iprop(oE (F := F) c b)
      ⊢ iprop((∀ ret, oE (F := F) c b -∗ wp frame (wpE (defs₀ (F := F)) 𝒱₀ (c : Thread nD τ) none) Set.univ (k ret) Q)
          -∗ wp frame (wpE (defs₀ (F := F)) 𝒱₀ (c : Thread nD τ) none) Set.univ
              (.op (.load oM (rO b).toLoadRect hl) k) Q) := by
  iintro ⟨%f, H⟩ Hk
  iapply (wp_load_rect 𝒱₀ (c : Thread nD τ) none Set.univ (m := (oM : Memref sig .tc .vmem S4x32x128 .f32)) (r := rO b) (set_oSl b oM).ge) $$ H
  iintro H
  iapply Hk
  iexists f
  iexact H

/-- The store of the partial denominator of batch `b`. -/
theorem step_storeL (K : Dev nD × Option (Fin 80) → ℕ) (c : Dev nD) (b : Fin 4) {α : Type} {Q : α → sProp 𝕄}
    {k : PUnit → Prog (TpuEff nD τ sig (Elt F) Λ₀ .tc) α}
    {hx : ((lM : Memref sig .tc .vmem S4x32x1 .f32).access (rL b)).Stores Finset.univ}
    {hm : (Finset.univ : Finset (rL b).shape.Idx) = Finset.univ ∨ ∀ a, (rL b).stride a = 1} :
    iprop(lE (F := F) c b)
      ⊢ iprop((lA m c b -∗ wp frame (wpE (defs₀ (F := F)) 𝒱₀ (c : Thread nD τ) none) Set.univ (k ⟨⟩) Q)
          -∗ wp frame (wpE (defs₀ (F := F)) 𝒱₀ (c : Thread nD τ) none) Set.univ
              (.op (.store lM (rL b) (lB m c b) Finset.univ hx hm) k) Q) := by
  iintro ⟨%f, H⟩ Hk
  iapply (wp_store 𝒱₀ (c : Thread nD τ) none Set.univ (m := (lM : Memref sig .tc .vmem S4x32x1 .f32)) (r := rL b) (w := lB m c b) (Mk := Finset.univ)
    ((View.setOn_univ _).trans_subset (set_lSl b lM).ge)) $$ H
  iintro H
  iapply Hk
  iapply (Entails.of_eq (stored_l m c b f))
  iexact H

/-- The store of the partial output of batch `b`. -/
theorem step_storeO (K : Dev nD × Option (Fin 80) → ℕ) (c : Dev nD) (b : Fin 4) {α : Type} {Q : α → sProp 𝕄}
    {k : PUnit → Prog (TpuEff nD τ sig (Elt F) Λ₀ .tc) α}
    {hx : ((oM : Memref sig .tc .vmem S4x32x128 .f32).access (rO b)).Stores Finset.univ}
    {hm : (Finset.univ : Finset (rO b).shape.Idx) = Finset.univ ∨ ∀ a, (rO b).stride a = 1} :
    iprop(oE (F := F) c b)
      ⊢ iprop((oA m c b -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (rO b) (oB m c b) Finset.univ hx hm) k) Q) := by
  iintro ⟨%f, H⟩ Hk
  iapply (wp_store 𝒱₀ (c : Thread nD τ) none Set.univ (m := (oM : Memref sig .tc .vmem S4x32x128 .f32)) (r := rO b) (w := oB m c b) (Mk := Finset.univ)
    ((View.setOn_univ _).trans_subset (set_oSl b oM).ge)) $$ H
  iintro H
  iapply Hk
  iapply (Entails.of_eq (stored_o m c b f))
  iexact H

/-- The load of the device's partial output of batch `b`. -/
theorem step_loadO (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM : Memref sig .tc .vmem S4x32x128 .f32).view.LoadsAt (rO b).toLoadRect} :
    iprop(oA m c b)
      ⊢ iprop((oA m c b -∗ wp frame (wpE (defs₀ (F := F)) 𝒱₀ (c : Thread nD τ) none) Set.univ (k (oB m c b)) Q)
          -∗ wp frame (wpE (defs₀ (F := F)) 𝒱₀ (c : Thread nD τ) none) Set.univ
              (.op (.load oM (rO b).toLoadRect hl) k) Q) := by
  rw [← readAt_oC m c b]
  exact wp_load_rect 𝒱₀ (c : Thread nD τ) none Set.univ (m := oM) (r := rO b) (set_oSl b oM).ge

/-- The load of the other half's partial output of batch `b`, landed. -/
theorem step_loadPO (K : Dev nD × Option (Fin 80) → ℕ) (c : Dev nD) (b : Fin 4) {α : Type} {Q : α → sProp 𝕄}
    {k : Vec F S1x32x128 .f32 → Prog (TpuEff nD τ sig (Elt F) Λ₀ .tc) α}
    {hl : (oM' : Memref sig .tc .vmem S4x32x128 .f32).view.LoadsAt (rO b).toLoadRect} :
    iprop(poA m c b)
      ⊢ iprop((poA m c b -∗ wp frame (wpE (defs₀ (F := F)) 𝒱₀ (c : Thread nD τ) none) Set.univ (k (oB m (pr 0 c) b)) Q)
          -∗ wp frame (wpE (defs₀ (F := F)) 𝒱₀ (c : Thread nD τ) none) Set.univ
              (.op (.load oM' (rO b).toLoadRect hl) k) Q) := by
  rw [← readAt_oC' m (pr 0 c) b]
  exact wp_load_rect 𝒱₀ (c : Thread nD τ) none Set.univ (m := oM') (r := rO b) (set_oSl b oM').ge

/-- The load of the device's partial denominator of batch `b`. -/
theorem step_loadL (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM : Memref sig .tc .vmem S4x32x1 .f32).view.LoadsAt (rL b).toLoadRect} :
    iprop(lA m c b)
      ⊢ iprop((lA m c b -∗ wp frame (wpE (defs₀ (F := F)) 𝒱₀ (c : Thread nD τ) none) Set.univ (k (lB m c b)) Q)
          -∗ wp frame (wpE (defs₀ (F := F)) 𝒱₀ (c : Thread nD τ) none) Set.univ
              (.op (.load lM (rL b).toLoadRect hl) k) Q) := by
  rw [← readAt_lC m c b]
  exact wp_load_rect 𝒱₀ (c : Thread nD τ) none Set.univ (m := lM) (r := rL b) (set_lSl b lM).ge

/-- The load of the other half's partial denominator of batch `b`, landed. -/
theorem step_loadPL (K : Dev nD × Option (Fin 80) → ℕ) (c : Dev nD) (b : Fin 4) {α : Type} {Q : α → sProp 𝕄}
    {k : Vec F S1x32x1 .f32 → Prog (TpuEff nD τ sig (Elt F) Λ₀ .tc) α}
    {hl : (lM' : Memref sig .tc .vmem S4x32x1 .f32).view.LoadsAt (rL b).toLoadRect} :
    iprop(plA m c b)
      ⊢ iprop((plA m c b -∗ wp frame (wpE (defs₀ (F := F)) 𝒱₀ (c : Thread nD τ) none) Set.univ (k (lB m (pr 0 c) b)) Q)
          -∗ wp frame (wpE (defs₀ (F := F)) 𝒱₀ (c : Thread nD τ) none) Set.univ
              (.op (.load lM' (rL b).toLoadRect hl) k) Q) := by
  rw [← readAt_lC' m (pr 0 c) b]
  exact wp_load_rect 𝒱₀ (c : Thread nD τ) none Set.univ (m := lM') (r := rL b) (set_lSl b lM').ge

include m in
/-- A load of the device's row of the result buffer before it is written. -/
theorem step_loadHdead (K : Dev nD × Option (Fin 80) → ℕ) (c : Dev nD) (b : Fin 4) {α : Type} {Q : α → sProp 𝕄}
    {k : Vec F S1x32x1x128 .f32 → Prog (TpuEff nD τ sig (Elt F) Λ₀ .tc) α}
    {hl : (rM : Memref sig .tc .vmem S4x32x8x128 .f32).view.LoadsAt (rH b (hdN c) (hdN_lt c)).toLoadRect} :
    iprop(hE (F := F) c b (hdN c) (hdN_lt c))
      ⊢ iprop((∀ ret, hE (F := F) c b (hdN c) (hdN_lt c) -∗ wp frame (wpE (defs₀ (F := F)) 𝒱₀ (c : Thread nD τ) none) Set.univ (k ret) Q)
          -∗ wp frame (wpE (defs₀ (F := F)) 𝒱₀ (c : Thread nD τ) none) Set.univ
              (.op (.load rM (rH b (hdN c) (hdN_lt c)).toLoadRect hl) k) Q) := by
  iintro ⟨%f, H⟩ Hk
  iapply (wp_load_rect 𝒱₀ (c : Thread nD τ) none Set.univ (m := (rM : Memref sig .tc .vmem S4x32x8x128 .f32)) (r := rH b (hdN c) (hdN_lt c)) (set_hSl b (hdN c) (hdN_lt c) rM).ge) $$ H
  iintro H
  iapply Hk
  iexists f
  iexact H

/-- The store of the merged block of batch `b` into the device's row of the result buffer. -/
theorem step_storeH (K : Dev nD × Option (Fin 80) → ℕ) (c : Dev nD) (b : Fin 4) {α : Type} {Q : α → sProp 𝕄}
    {k : PUnit → Prog (TpuEff nD τ sig (Elt F) Λ₀ .tc) α}
    {hx : ((rM : Memref sig .tc .vmem S4x32x8x128 .f32).access (rH b (hdN c) (hdN_lt c))).Stores Finset.univ}
    {hm : (Finset.univ : Finset (rH b (hdN c) (hdN_lt c)).shape.Idx) = Finset.univ ∨ ∀ a, (rH b (hdN c) (hdN_lt c)).stride a = 1} :
    iprop(hE (F := F) c b (hdN c) (hdN_lt c))
      ⊢ iprop((hA m c b (hdN c) (hdN_lt c) fullShare -∗ wp frame (wpE (defs₀ (F := F)) 𝒱₀ (c : Thread nD τ) none) Set.univ (k ⟨⟩) Q)
          -∗ wp frame (wpE (defs₀ (F := F)) 𝒱₀ (c : Thread nD τ) none) Set.univ
              (.op (.store rM (rH b (hdN c) (hdN_lt c)) (mB m c b) Finset.univ hx hm) k) Q) := by
  iintro ⟨%f, H⟩ Hk
  iapply (wp_store 𝒱₀ (c : Thread nD τ) none Set.univ (m := (rM : Memref sig .tc .vmem S4x32x8x128 .f32)) (r := rH b (hdN c) (hdN_lt c)) (w := mB m c b) (Mk := Finset.univ)
    ((View.setOn_univ _).trans_subset (set_hSl b (hdN c) (hdN_lt c) rM).ge)) $$ H
  iintro H
  iapply Hk
  iapply (Entails.of_eq (stored_h m c b f))
  iexact H

/--
info: 'Cert.Kernel.Flash.step_storeH' depends on axioms: [propext, Classical.choice, Quot.sound]
-/
#guard_msgs in #print axioms step_storeH
/--
info: 'Cert.Kernel.Flash.step_loadPO' depends on axioms: [propext, Classical.choice, Quot.sound]
-/
#guard_msgs in #print axioms step_loadPO
/--
info: 'Cert.Kernel.Flash.step_loadHdead' depends on axioms: [propext, Classical.choice, Quot.sound]
-/
#guard_msgs in #print axioms step_loadHdead

end Cert.Kernel.Flash

end
-- ==== Proof.Word.StepsMemOff.lean ====
import proofs.«900786_g7700000000000787_dist_flashdec_v7x_xyz2x2x4_x_b4_sq32_skv4096_h8_d128_f32_1_alg».proof.Proof.Word.StepsMem

/-! The loads and stores through the device's own row of the query and result buffers, with the
row's offsets given as a function and an equation: the row of batch `b`, head `hdN c`, however its
offsets are spelt. -/

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The load of the query block of batch `b`, the row's offsets given by an equation. -/
theorem step_loadQ_off (K : Dev nD × Option (Fin 80) → ℕ) (c : Dev nD) (b : Fin 4) (off : Fin 4 → ℕ) (hoff : off = ![b.val, 0, hdN c, 0])
    {α : Type} {Q : α → sProp 𝕄} {k : Vec F S1x32x1x128 .f32 → Prog (TpuEff nD τ sig (Elt F) Λ₀ .tc) α}
    {hinb : ∀ a, off a + S1x32x1x128.size a ≤ S4x32x8x128.size a}
    {hl : (qM : Memref sig .tc .vmem S4x32x8x128 .f32).view.LoadsAt (Rect.unit (s := S4x32x8x128) off S1x32x1x128.size hinb).toLoadRect} :
    iprop(Qstg m c)
      ⊢ iprop((Qstg m c -∗ wp frame (wpE (defs₀ (F := F)) 𝒱₀ (c : Thread nD τ) none) Set.univ (k (qB m c b)) Q)
          -∗ wp frame (wpE (defs₀ (F := F)) 𝒱₀ (c : Thread nD τ) none) Set.univ
              (.op (.load qM (Rect.unit (s := S4x32x8x128) off S1x32x1x128.size hinb).toLoadRect hl) k) Q) := by
  subst hoff
  exact step_loadQ m K c b

include m in
/-- A load of the device's row of the result buffer before it is written, the row's offsets given by an equation. -/
theorem step_loadHdead_off (K : Dev nD × Option (Fin 80) → ℕ) (c : Dev nD) (b : Fin 4) (off : Fin 4 → ℕ) (hoff : off = ![b.val, 0, hdN c, 0])
    {α : Type} {Q : α → sProp 𝕄} {k : Vec F S1x32x1x128 .f32 → Prog (TpuEff nD τ sig (Elt F) Λ₀ .tc) α}
    {hinb : ∀ a, off a + S1x32x1x128.size a ≤ S4x32x8x128.size a}
    {hl : (rM : Memref sig .tc .vmem S4x32x8x128 .f32).view.LoadsAt (Rect.unit (s := S4x32x8x128) off S1x32x1x128.size hinb).toLoadRect} :
    iprop(hE (F := F) c b (hdN c) (hdN_lt c))
      ⊢ iprop((∀ ret, hE (F := F) c b (hdN c) (hdN_lt c) -∗ wp frame (wpE (defs₀ (F := F)) 𝒱₀ (c : Thread nD τ) none) Set.univ (k ret) Q)
          -∗ wp frame (wpE (defs₀ (F := F)) 𝒱₀ (c : Thread nD τ) none) Set.univ
              (.op (.load rM (Rect.unit (s := S4x32x8x128) off S1x32x1x128.size hinb).toLoadRect hl) k) Q) := by
  subst hoff
  exact step_loadHdead m K c b

/-- The store of the merged block of batch `b`, the row's offsets given by an equation. -/
theorem step_storeH_off (K : Dev nD × Option (Fin 80) → ℕ) (c : Dev nD) (b : Fin 4) (off : Fin 4 → ℕ) (hoff : off = ![b.val, 0, hdN c, 0])
    {α : Type} {Q : α → sProp 𝕄} {k : PUnit → Prog (TpuEff nD τ sig (Elt F) Λ₀ .tc) α}
    {hinb : ∀ a, off a + S1x32x1x128.size a ≤ S4x32x8x128.size a}
    {hx : ((rM : Memref sig .tc .vmem S4x32x8x128 .f32).access (Rect.unit (s := S4x32x8x128) off S1x32x1x128.size hinb)).Stores Finset.univ}
    {hm : (Finset.univ : Finset (Rect.unit (s := S4x32x8x128) off S1x32x1x128.size hinb).shape.Idx) = Finset.univ
      ∨ ∀ a, (Rect.unit (s := S4x32x8x128) off S1x32x1x128.size hinb).stride a = 1} :
    iprop(hE (F := F) c b (hdN c) (hdN_lt c))
      ⊢ iprop((hA m c b (hdN c) (hdN_lt c) fullShare -∗ wp frame (wpE (defs₀ (F := F)) 𝒱₀ (c : Thread nD τ) none) Set.univ (k ⟨⟩) Q)
          -∗ wp frame (wpE (defs₀ (F := F)) 𝒱₀ (c : Thread nD τ) none) Set.univ
              (.op (.store rM (Rect.unit (s := S4x32x8x128) off S1x32x1x128.size hinb) (mB m c b) Finset.univ hx hm) k) Q) := by
  subst hoff
  exact step_storeH m K c b

/--
info: 'Cert.Kernel.Flash.step_storeH_off' depends on axioms: [propext, Classical.choice, Quot.sound]
-/
#guard_msgs in #print axioms step_storeH_off

end Cert.Kernel.Flash

end
-- ==== Proof.Word.Chain.lean ====
/- One device's body, effect by effect in the order of the printed program: each local copy, signal, wait,
   remote copy, load and store takes the resources its step lemma names and hands back those it leaves, from
   the device's resources at kernel entry to its resources at the return. The step lemmas (generic in the batch
   and the peer) are the argument; this module is the table of their instances along the unrolled program. -/
import proofs.«900786_g7700000000000787_dist_flashdec_v7x_xyz2x2x4_x_b4_sq32_skv4096_h8_d128_f32_1_alg».proof.Proof.Word.BodyDefs
import proofs.«900786_g7700000000000787_dist_flashdec_v7x_xyz2x2x4_x_b4_sq32_skv4096_h8_d128_f32_1_alg».proof.Proof.Word.Topo
import proofs.«900786_g7700000000000787_dist_flashdec_v7x_xyz2x2x4_x_b4_sq32_skv4096_h8_d128_f32_1_alg».proof.Proof.Word.Chains
import proofs.«900786_g7700000000000787_dist_flashdec_v7x_xyz2x2x4_x_b4_sq32_skv4096_h8_d128_f32_1_alg».proof.Proof.Word.RegionsChain
import proofs.«900786_g7700000000000787_dist_flashdec_v7x_xyz2x2x4_x_b4_sq32_skv4096_h8_d128_f32_1_alg».proof.Proof.Word.StepsWait
import proofs.«900786_g7700000000000787_dist_flashdec_v7x_xyz2x2x4_x_b4_sq32_skv4096_h8_d128_f32_1_alg».proof.Proof.Word.StepsBar
import proofs.«900786_g7700000000000787_dist_flashdec_v7x_xyz2x2x4_x_b4_sq32_skv4096_h8_d128_f32_1_alg».proof.Proof.Word.StepsGlue
import proofs.«900786_g7700000000000787_dist_flashdec_v7x_xyz2x2x4_x_b4_sq32_skv4096_h8_d128_f32_1_alg».proof.Proof.Word.StepsCopy
import proofs.«900786_g7700000000000787_dist_flashdec_v7x_xyz2x2x4_x_b4_sq32_skv4096_h8_d128_f32_1_alg».proof.Proof.Word.StepsMem
import proofs.«900786_g7700000000000787_dist_flashdec_v7x_xyz2x2x4_x_b4_sq32_skv4096_h8_d128_f32_1_alg».proof.Proof.Word.StepsMemOff
import proofs.«900786_g7700000000000787_dist_flashdec_v7x_xyz2x2x4_x_b4_sq32_skv4096_h8_d128_f32_1_alg».proof.Proof.Word.StepsGather

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 60000000 in
set_option maxRecDepth 8000 in
theorem chain (m : (ℓ : Loc nD τ sig) → Buf (Elt F) ℓ) (K : Dev nD × Option (Fin 80) → ℕ) (c : Dev nD) (W : Waits sig Unit) (Kt : PUnit → sProp 𝕄) :
    iprop(Rec m K
        ∗ Lev (F := F)
        ∗ owes (c : Thread nD τ) (owedFrom c 0) W
        ∗ posB c
        ∗ posD c (0 : Fin 80)
        ∗ posD c (1 : Fin 80)
        ∗ posD c (2 : Fin 80)
        ∗ posD c (3 : Fin 80)
        ∗ posD c (4 : Fin 80)
        ∗ posD c (5 : Fin 80)
        ∗ posD c (6 : Fin 80)
        ∗ posD c (7 : Fin 80)
        ∗ posD c (8 : Fin 80)
        ∗ posD c (9 : Fin 80)
        ∗ posD c (10 : Fin 80)
        ∗ posD c (11 : Fin 80)
        ∗ posD c (12 : Fin 80)
        ∗ posD c (13 : Fin 80)
        ∗ posD c (14 : Fin 80)
        ∗ posD c (15 : Fin 80)
        ∗ posD c (16 : Fin 80)
        ∗ posD c (17 : Fin 80)
        ∗ posD c (18 : Fin 80)
        ∗ posD c (19 : Fin 80)
        ∗ posD c (20 : Fin 80)
        ∗ posD c (21 : Fin 80)
        ∗ posD c (22 : Fin 80)
        ∗ posD c (23 : Fin 80)
        ∗ posD c (24 : Fin 80)
        ∗ posD c (25 : Fin 80)
        ∗ posD c (26 : Fin 80)
        ∗ posD c (27 : Fin 80)
        ∗ posD c (28 : Fin 80)
        ∗ posD c (29 : Fin 80)
        ∗ posD c (30 : Fin 80)
        ∗ posD c (31 : Fin 80)
        ∗ posD c (32 : Fin 80)
        ∗ posD c (33 : Fin 80)
        ∗ posD c (34 : Fin 80)
        ∗ posD c (35 : Fin 80)
        ∗ posD c (36 : Fin 80)
        ∗ posD c (37 : Fin 80)
        ∗ posD c (38 : Fin 80)
        ∗ posD c (39 : Fin 80)
        ∗ posD c (40 : Fin 80)
        ∗ posD c (41 : Fin 80)
        ∗ posD c (42 : Fin 80)
        ∗ posD c (43 : Fin 80)
        ∗ posD c (44 : Fin 80)
        ∗ posD c (45 : Fin 80)
        ∗ posD c (46 : Fin 80)
        ∗ posD c (47 : Fin 80)
        ∗ posD c (48 : Fin 80)
        ∗ posD c (49 : Fin 80)
        ∗ posD c (50 : Fin 80)
        ∗ posD c (51 : Fin 80)
        ∗ posD c (52 : Fin 80)
        ∗ posD c (53 : Fin 80)
        ∗ posD c (54 : Fin 80)
        ∗ posD c (55 : Fin 80)
        ∗ posD c (56 : Fin 80)
        ∗ posD c (57 : Fin 80)
        ∗ posD c (58 : Fin 80)
        ∗ posD c (59 : Fin 80)
        ∗ posD c (60 : Fin 80)
        ∗ posD c (61 : Fin 80)
        ∗ posD c (62 : Fin 80)
        ∗ posD c (63 : Fin 80)
        ∗ posD c (64 : Fin 80)
        ∗ posD c (65 : Fin 80)
        ∗ posD c (66 : Fin 80)
        ∗ posD c (67 : Fin 80)
        ∗ posD c (68 : Fin 80)
        ∗ posD c (69 : Fin 80)
        ∗ posD c (70 : Fin 80)
        ∗ posD c (71 : Fin 80)
        ∗ posD c (72 : Fin 80)
        ∗ posD c (73 : Fin 80)
        ∗ posD c (74 : Fin 80)
        ∗ posD c (75 : Fin 80)
        ∗ posD c (76 : Fin 80)
        ∗ posD c (77 : Fin 80)
        ∗ posD c (78 : Fin 80)
        ∗ posD c (79 : Fin 80)
        ∗ tokB c (0 : Fin 8)
        ∗ tokB c (1 : Fin 8)
        ∗ tokB c (2 : Fin 8)
        ∗ tokB c (3 : Fin 8)
        ∗ tokB c (4 : Fin 8)
        ∗ tokB c (5 : Fin 8)
        ∗ tokB c (6 : Fin 8)
        ∗ tokB c (7 : Fin 8)
        ∗ tokD c (0 : Fin 80)
        ∗ tokD c (1 : Fin 80)
        ∗ tokD c (2 : Fin 80)
        ∗ tokD c (3 : Fin 80)
        ∗ tokD c (4 : Fin 80)
        ∗ tokD c (5 : Fin 80)
        ∗ tokD c (6 : Fin 80)
        ∗ tokD c (7 : Fin 80)
        ∗ tokD c (8 : Fin 80)
        ∗ tokD c (9 : Fin 80)
        ∗ tokD c (10 : Fin 80)
        ∗ tokD c (11 : Fin 80)
        ∗ tokD c (12 : Fin 80)
        ∗ tokD c (13 : Fin 80)
        ∗ tokD c (14 : Fin 80)
        ∗ tokD c (15 : Fin 80)
        ∗ tokD c (16 : Fin 80)
        ∗ tokD c (17 : Fin 80)
        ∗ tokD c (18 : Fin 80)
        ∗ tokD c (19 : Fin 80)
        ∗ tokD c (20 : Fin 80)
        ∗ tokD c (21 : Fin 80)
        ∗ tokD c (22 : Fin 80)
        ∗ tokD c (23 : Fin 80)
        ∗ tokD c (24 : Fin 80)
        ∗ tokD c (25 : Fin 80)
        ∗ tokD c (26 : Fin 80)
        ∗ tokD c (27 : Fin 80)
        ∗ tokD c (28 : Fin 80)
        ∗ tokD c (29 : Fin 80)
        ∗ tokD c (30 : Fin 80)
        ∗ tokD c (31 : Fin 80)
        ∗ tokD c (32 : Fin 80)
        ∗ tokD c (33 : Fin 80)
        ∗ tokD c (34 : Fin 80)
        ∗ tokD c (35 : Fin 80)
        ∗ tokD c (36 : Fin 80)
        ∗ tokD c (37 : Fin 80)
        ∗ tokD c (38 : Fin 80)
        ∗ tokD c (39 : Fin 80)
        ∗ tokD c (40 : Fin 80)
        ∗ tokD c (41 : Fin 80)
        ∗ tokD c (42 : Fin 80)
        ∗ tokD c (43 : Fin 80)
        ∗ tokD c (44 : Fin 80)
        ∗ tokD c (45 : Fin 80)
        ∗ tokD c (46 : Fin 80)
        ∗ tokD c (47 : Fin 80)
        ∗ tokD c (48 : Fin 80)
        ∗ tokD c (49 : Fin 80)
        ∗ tokD c (50 : Fin 80)
        ∗ tokD c (51 : Fin 80)
        ∗ tokD c (52 : Fin 80)
        ∗ tokD c (53 : Fin 80)
        ∗ tokD c (54 : Fin 80)
        ∗ tokD c (55 : Fin 80)
        ∗ tokD c (56 : Fin 80)
        ∗ tokD c (57 : Fin 80)
        ∗ tokD c (58 : Fin 80)
        ∗ tokD c (59 : Fin 80)
        ∗ tokD c (60 : Fin 80)
        ∗ tokD c (61 : Fin 80)
        ∗ tokD c (62 : Fin 80)
        ∗ tokD c (63 : Fin 80)
        ∗ tokD c (64 : Fin 80)
        ∗ tokD c (65 : Fin 80)
        ∗ tokD c (66 : Fin 80)
        ∗ tokD c (67 : Fin 80)
        ∗ tokD c (68 : Fin 80)
        ∗ tokD c (69 : Fin 80)
        ∗ tokD c (70 : Fin 80)
        ∗ tokD c (71 : Fin 80)
        ∗ tokD c (72 : Fin 80)
        ∗ tokD c (73 : Fin 80)
        ∗ tokD c (74 : Fin 80)
        ∗ tokD c (75 : Fin 80)
        ∗ tokD c (76 : Fin 80)
        ∗ tokD c (77 : Fin 80)
        ∗ tokD c (78 : Fin 80)
        ∗ tokD c (79 : Fin 80)
        ∗ crB c
        ∗ crD c (16 : Fin 80)
        ∗ crD c (17 : Fin 80)
        ∗ crD c (18 : Fin 80)
        ∗ crD c (19 : Fin 80)
        ∗ crD c (20 : Fin 80)
        ∗ crD c (21 : Fin 80)
        ∗ crD c (22 : Fin 80)
        ∗ crD c (23 : Fin 80)
        ∗ crD c (52 : Fin 80)
        ∗ crD c (53 : Fin 80)
        ∗ crD c (54 : Fin 80)
        ∗ crD c (55 : Fin 80)
        ∗ crD c (56 : Fin 80)
        ∗ crD c (57 : Fin 80)
        ∗ crD c (58 : Fin 80)
        ∗ crD c (59 : Fin 80)
        ∗ crD c (60 : Fin 80)
        ∗ crD c (61 : Fin 80)
        ∗ crD c (62 : Fin 80)
        ∗ crD c (63 : Fin 80)
        ∗ crD c (64 : Fin 80)
        ∗ crD c (65 : Fin 80)
        ∗ crD c (66 : Fin 80)
        ∗ crD c (67 : Fin 80)
        ∗ crD c (68 : Fin 80)
        ∗ crD c (69 : Fin 80)
        ∗ crD c (70 : Fin 80)
        ∗ crD c (71 : Fin 80)
        ∗ crD c (72 : Fin 80)
        ∗ crD c (73 : Fin 80)
        ∗ crD c (74 : Fin 80)
        ∗ crD c (75 : Fin 80)
        ∗ crD c (76 : Fin 80)
        ∗ crD c (77 : Fin 80)
        ∗ crD c (78 : Fin 80)
        ∗ crD c (79 : Fin 80)
        ∗ Qstg m c
        ∗ kSrcA m c (0 : Fin 4)
        ∗ kSrcA m c (1 : Fin 4)
        ∗ kSrcA m c (2 : Fin 4)
        ∗ kSrcA m c (3 : Fin 4)
        ∗ vSrcA m c (0 : Fin 4)
        ∗ vSrcA m c (1 : Fin 4)
        ∗ vSrcA m c (2 : Fin 4)
        ∗ vSrcA m c (3 : Fin 4)
        ∗ kDstE (F := F) c (0 : Fin 4)
        ∗ kDstE (F := F) c (1 : Fin 4)
        ∗ kDstE (F := F) c (2 : Fin 4)
        ∗ kDstE (F := F) c (3 : Fin 4)
        ∗ vDstE (F := F) c (0 : Fin 4)
        ∗ vDstE (F := F) c (1 : Fin 4)
        ∗ vDstE (F := F) c (2 : Fin 4)
        ∗ vDstE (F := F) c (3 : Fin 4)
        ∗ oE (F := F) c (0 : Fin 4)
        ∗ oE (F := F) c (1 : Fin 4)
        ∗ oE (F := F) c (2 : Fin 4)
        ∗ oE (F := F) c (3 : Fin 4)
        ∗ lE (F := F) c (0 : Fin 4)
        ∗ lE (F := F) c (1 : Fin 4)
        ∗ lE (F := F) c (2 : Fin 4)
        ∗ lE (F := F) c (3 : Fin 4)
        ∗ wholeE (F := F) c cc0_scratch4
        ∗ wholeE (F := F) c cc0_scratch5
        ∗ hE (F := F) c (0 : Fin 4) (hdN c) (hdN_lt c)
        ∗ hE (F := F) c (1 : Fin 4) (hdN c) (hdN_lt c)
        ∗ hE (F := F) c (2 : Fin 4) (hdN c) (hdN_lt c)
        ∗ hE (F := F) c (3 : Fin 4) (hdN c) (hdN_lt c)
        ∗ hE (F := F) c (0 : Fin 4) (hdN (pr (0 : Fin 7).succ c)) (hdN_lt _)
        ∗ hE (F := F) c (1 : Fin 4) (hdN (pr (0 : Fin 7).succ c)) (hdN_lt _)
        ∗ hE (F := F) c (2 : Fin 4) (hdN (pr (0 : Fin 7).succ c)) (hdN_lt _)
        ∗ hE (F := F) c (3 : Fin 4) (hdN (pr (0 : Fin 7).succ c)) (hdN_lt _)
        ∗ hE (F := F) c (0 : Fin 4) (hdN (pr (1 : Fin 7).succ c)) (hdN_lt _)
        ∗ hE (F := F) c (1 : Fin 4) (hdN (pr (1 : Fin 7).succ c)) (hdN_lt _)
        ∗ hE (F := F) c (2 : Fin 4) (hdN (pr (1 : Fin 7).succ c)) (hdN_lt _)
        ∗ hE (F := F) c (3 : Fin 4) (hdN (pr (1 : Fin 7).succ c)) (hdN_lt _)
        ∗ hE (F := F) c (0 : Fin 4) (hdN (pr (2 : Fin 7).succ c)) (hdN_lt _)
        ∗ hE (F := F) c (1 : Fin 4) (hdN (pr (2 : Fin 7).succ c)) (hdN_lt _)
        ∗ hE (F := F) c (2 : Fin 4) (hdN (pr (2 : Fin 7).succ c)) (hdN_lt _)
        ∗ hE (F := F) c (3 : Fin 4) (hdN (pr (2 : Fin 7).succ c)) (hdN_lt _)
        ∗ hE (F := F) c (0 : Fin 4) (hdN (pr (3 : Fin 7).succ c)) (hdN_lt _)
        ∗ hE (F := F) c (1 : Fin 4) (hdN (pr (3 : Fin 7).succ c)) (hdN_lt _)
        ∗ hE (F := F) c (2 : Fin 4) (hdN (pr (3 : Fin 7).succ c)) (hdN_lt _)
        ∗ hE (F := F) c (3 : Fin 4) (hdN (pr (3 : Fin 7).succ c)) (hdN_lt _)
        ∗ hE (F := F) c (0 : Fin 4) (hdN (pr (4 : Fin 7).succ c)) (hdN_lt _)
        ∗ hE (F := F) c (1 : Fin 4) (hdN (pr (4 : Fin 7).succ c)) (hdN_lt _)
        ∗ hE (F := F) c (2 : Fin 4) (hdN (pr (4 : Fin 7).succ c)) (hdN_lt _)
        ∗ hE (F := F) c (3 : Fin 4) (hdN (pr (4 : Fin 7).succ c)) (hdN_lt _)
        ∗ hE (F := F) c (0 : Fin 4) (hdN (pr (5 : Fin 7).succ c)) (hdN_lt _)
        ∗ hE (F := F) c (1 : Fin 4) (hdN (pr (5 : Fin 7).succ c)) (hdN_lt _)
        ∗ hE (F := F) c (2 : Fin 4) (hdN (pr (5 : Fin 7).succ c)) (hdN_lt _)
        ∗ hE (F := F) c (3 : Fin 4) (hdN (pr (5 : Fin 7).succ c)) (hdN_lt _)
        ∗ hE (F := F) c (0 : Fin 4) (hdN (pr (6 : Fin 7).succ c)) (hdN_lt _)
        ∗ hE (F := F) c (1 : Fin 4) (hdN (pr (6 : Fin 7).succ c)) (hdN_lt _)
        ∗ hE (F := F) c (2 : Fin 4) (hdN (pr (6 : Fin 7).succ c)) (hdN_lt _)
        ∗ hE (F := F) c (3 : Fin 4) (hdN (pr (6 : Fin 7).succ c)) (hdN_lt _))
      ⊢ iprop((iprop((∃ W', owes (c : Thread nD τ) (owedFrom c 44) W')
        ∗ svD c (0 : Fin 80)
        ∗ svD c (1 : Fin 80)
        ∗ svD c (2 : Fin 80)
        ∗ svD c (3 : Fin 80)
        ∗ svD c (4 : Fin 80)
        ∗ svD c (5 : Fin 80)
        ∗ svD c (6 : Fin 80)
        ∗ svD c (7 : Fin 80)
        ∗ svD c (8 : Fin 80)
        ∗ svD c (9 : Fin 80)
        ∗ svD c (10 : Fin 80)
        ∗ svD c (11 : Fin 80)
        ∗ svD c (12 : Fin 80)
        ∗ svD c (13 : Fin 80)
        ∗ svD c (14 : Fin 80)
        ∗ svD c (15 : Fin 80)
        ∗ svD c (16 : Fin 80)
        ∗ svD c (17 : Fin 80)
        ∗ svD c (18 : Fin 80)
        ∗ svD c (19 : Fin 80)
        ∗ svD c (20 : Fin 80)
        ∗ svD c (21 : Fin 80)
        ∗ svD c (22 : Fin 80)
        ∗ svD c (23 : Fin 80)
        ∗ svD c (24 : Fin 80)
        ∗ svD c (25 : Fin 80)
        ∗ svD c (26 : Fin 80)
        ∗ svD c (27 : Fin 80)
        ∗ svD c (28 : Fin 80)
        ∗ svD c (29 : Fin 80)
        ∗ svD c (30 : Fin 80)
        ∗ svD c (31 : Fin 80)
        ∗ svD c (32 : Fin 80)
        ∗ svD c (33 : Fin 80)
        ∗ svD c (34 : Fin 80)
        ∗ svD c (35 : Fin 80)
        ∗ svD c (36 : Fin 80)
        ∗ svD c (37 : Fin 80)
        ∗ svD c (38 : Fin 80)
        ∗ svD c (39 : Fin 80)
        ∗ svD c (40 : Fin 80)
        ∗ svD c (41 : Fin 80)
        ∗ svD c (42 : Fin 80)
        ∗ svD c (43 : Fin 80)
        ∗ svD c (44 : Fin 80)
        ∗ svD c (45 : Fin 80)
        ∗ svD c (46 : Fin 80)
        ∗ svD c (47 : Fin 80)
        ∗ svD c (48 : Fin 80)
        ∗ svD c (49 : Fin 80)
        ∗ svD c (50 : Fin 80)
        ∗ svD c (51 : Fin 80)
        ∗ svD c (52 : Fin 80)
        ∗ svD c (53 : Fin 80)
        ∗ svD c (54 : Fin 80)
        ∗ svD c (55 : Fin 80)
        ∗ svD c (56 : Fin 80)
        ∗ svD c (57 : Fin 80)
        ∗ svD c (58 : Fin 80)
        ∗ svD c (59 : Fin 80)
        ∗ svD c (60 : Fin 80)
        ∗ svD c (61 : Fin 80)
        ∗ svD c (62 : Fin 80)
        ∗ svD c (63 : Fin 80)
        ∗ svD c (64 : Fin 80)
        ∗ svD c (65 : Fin 80)
        ∗ svD c (66 : Fin 80)
        ∗ svD c (67 : Fin 80)
        ∗ svD c (68 : Fin 80)
        ∗ svD c (69 : Fin 80)
        ∗ svD c (70 : Fin 80)
        ∗ svD c (71 : Fin 80)
        ∗ svD c (72 : Fin 80)
        ∗ svD c (73 : Fin 80)
        ∗ svD c (74 : Fin 80)
        ∗ svD c (75 : Fin 80)
        ∗ svD c (76 : Fin 80)
        ∗ svD c (77 : Fin 80)
        ∗ svD c (78 : Fin 80)
        ∗ svD c (79 : Fin 80)
        ∗ Qstg m c
        ∗ kSrcA m c (0 : Fin 4)
        ∗ kSrcA m c (1 : Fin 4)
        ∗ kSrcA m c (2 : Fin 4)
        ∗ kSrcA m c (3 : Fin 4)
        ∗ vSrcA m c (0 : Fin 4)
        ∗ vSrcA m c (1 : Fin 4)
        ∗ vSrcA m c (2 : Fin 4)
        ∗ vSrcA m c (3 : Fin 4)
        ∗ kDstA m c (0 : Fin 4)
        ∗ kDstA m c (1 : Fin 4)
        ∗ kDstA m c (2 : Fin 4)
        ∗ kDstA m c (3 : Fin 4)
        ∗ vDstA m c (0 : Fin 4)
        ∗ vDstA m c (1 : Fin 4)
        ∗ vDstA m c (2 : Fin 4)
        ∗ vDstA m c (3 : Fin 4)
        ∗ oA m c (0 : Fin 4)
        ∗ oA m c (1 : Fin 4)
        ∗ oA m c (2 : Fin 4)
        ∗ oA m c (3 : Fin 4)
        ∗ lA m c (0 : Fin 4)
        ∗ lA m c (1 : Fin 4)
        ∗ lA m c (2 : Fin 4)
        ∗ lA m c (3 : Fin 4)
        ∗ poA m c (0 : Fin 4)
        ∗ poA m c (1 : Fin 4)
        ∗ poA m c (2 : Fin 4)
        ∗ poA m c (3 : Fin 4)
        ∗ plA m c (0 : Fin 4)
        ∗ plA m c (1 : Fin 4)
        ∗ plA m c (2 : Fin 4)
        ∗ plA m c (3 : Fin 4)
        ∗ hA m c (0 : Fin 4) (hdN c) (hdN_lt c) (Transfers.shareDrop fullShare 7)
        ∗ hA m c (1 : Fin 4) (hdN c) (hdN_lt c) (Transfers.shareDrop fullShare 7)
        ∗ hA m c (2 : Fin 4) (hdN c) (hdN_lt c) (Transfers.shareDrop fullShare 7)
        ∗ hA m c (3 : Fin 4) (hdN c) (hdN_lt c) (Transfers.shareDrop fullShare 7)
        ∗ hA m c (0 : Fin 4) (hdN c) (hdN_lt c) (gsShare (0 : Fin 7))
        ∗ hA m c (0 : Fin 4) (hdN c) (hdN_lt c) (gsShare (1 : Fin 7))
        ∗ hA m c (0 : Fin 4) (hdN c) (hdN_lt c) (gsShare (2 : Fin 7))
        ∗ hA m c (0 : Fin 4) (hdN c) (hdN_lt c) (gsShare (3 : Fin 7))
        ∗ hA m c (0 : Fin 4) (hdN c) (hdN_lt c) (gsShare (4 : Fin 7))
        ∗ hA m c (0 : Fin 4) (hdN c) (hdN_lt c) (gsShare (5 : Fin 7))
        ∗ hA m c (0 : Fin 4) (hdN c) (hdN_lt c) (gsShare (6 : Fin 7))
        ∗ hA m c (1 : Fin 4) (hdN c) (hdN_lt c) (gsShare (0 : Fin 7))
        ∗ hA m c (1 : Fin 4) (hdN c) (hdN_lt c) (gsShare (1 : Fin 7))
        ∗ hA m c (1 : Fin 4) (hdN c) (hdN_lt c) (gsShare (2 : Fin 7))
        ∗ hA m c (1 : Fin 4) (hdN c) (hdN_lt c) (gsShare (3 : Fin 7))
        ∗ hA m c (1 : Fin 4) (hdN c) (hdN_lt c) (gsShare (4 : Fin 7))
        ∗ hA m c (1 : Fin 4) (hdN c) (hdN_lt c) (gsShare (5 : Fin 7))
        ∗ hA m c (1 : Fin 4) (hdN c) (hdN_lt c) (gsShare (6 : Fin 7))
        ∗ hA m c (2 : Fin 4) (hdN c) (hdN_lt c) (gsShare (0 : Fin 7))
        ∗ hA m c (2 : Fin 4) (hdN c) (hdN_lt c) (gsShare (1 : Fin 7))
        ∗ hA m c (2 : Fin 4) (hdN c) (hdN_lt c) (gsShare (2 : Fin 7))
        ∗ hA m c (2 : Fin 4) (hdN c) (hdN_lt c) (gsShare (3 : Fin 7))
        ∗ hA m c (2 : Fin 4) (hdN c) (hdN_lt c) (gsShare (4 : Fin 7))
        ∗ hA m c (2 : Fin 4) (hdN c) (hdN_lt c) (gsShare (5 : Fin 7))
        ∗ hA m c (2 : Fin 4) (hdN c) (hdN_lt c) (gsShare (6 : Fin 7))
        ∗ hA m c (3 : Fin 4) (hdN c) (hdN_lt c) (gsShare (0 : Fin 7))
        ∗ hA m c (3 : Fin 4) (hdN c) (hdN_lt c) (gsShare (1 : Fin 7))
        ∗ hA m c (3 : Fin 4) (hdN c) (hdN_lt c) (gsShare (2 : Fin 7))
        ∗ hA m c (3 : Fin 4) (hdN c) (hdN_lt c) (gsShare (3 : Fin 7))
        ∗ hA m c (3 : Fin 4) (hdN c) (hdN_lt c) (gsShare (4 : Fin 7))
        ∗ hA m c (3 : Fin 4) (hdN c) (hdN_lt c) (gsShare (5 : Fin 7))
        ∗ hA m c (3 : Fin 4) (hdN c) (hdN_lt c) (gsShare (6 : Fin 7))
        ∗ hA m c (0 : Fin 4) (hdN (pr (0 : Fin 7).succ c)) (hdN_lt _) fullShare
        ∗ hA m c (0 : Fin 4) (hdN (pr (1 : Fin 7).succ c)) (hdN_lt _) fullShare
        ∗ hA m c (0 : Fin 4) (hdN (pr (2 : Fin 7).succ c)) (hdN_lt _) fullShare
        ∗ hA m c (0 : Fin 4) (hdN (pr (3 : Fin 7).succ c)) (hdN_lt _) fullShare
        ∗ hA m c (0 : Fin 4) (hdN (pr (4 : Fin 7).succ c)) (hdN_lt _) fullShare
        ∗ hA m c (0 : Fin 4) (hdN (pr (5 : Fin 7).succ c)) (hdN_lt _) fullShare
        ∗ hA m c (0 : Fin 4) (hdN (pr (6 : Fin 7).succ c)) (hdN_lt _) fullShare
        ∗ hA m c (1 : Fin 4) (hdN (pr (0 : Fin 7).succ c)) (hdN_lt _) fullShare
        ∗ hA m c (1 : Fin 4) (hdN (pr (1 : Fin 7).succ c)) (hdN_lt _) fullShare
        ∗ hA m c (1 : Fin 4) (hdN (pr (2 : Fin 7).succ c)) (hdN_lt _) fullShare
        ∗ hA m c (1 : Fin 4) (hdN (pr (3 : Fin 7).succ c)) (hdN_lt _) fullShare
        ∗ hA m c (1 : Fin 4) (hdN (pr (4 : Fin 7).succ c)) (hdN_lt _) fullShare
        ∗ hA m c (1 : Fin 4) (hdN (pr (5 : Fin 7).succ c)) (hdN_lt _) fullShare
        ∗ hA m c (1 : Fin 4) (hdN (pr (6 : Fin 7).succ c)) (hdN_lt _) fullShare
        ∗ hA m c (2 : Fin 4) (hdN (pr (0 : Fin 7).succ c)) (hdN_lt _) fullShare
        ∗ hA m c (2 : Fin 4) (hdN (pr (1 : Fin 7).succ c)) (hdN_lt _) fullShare
        ∗ hA m c (2 : Fin 4) (hdN (pr (2 : Fin 7).succ c)) (hdN_lt _) fullShare
        ∗ hA m c (2 : Fin 4) (hdN (pr (3 : Fin 7).succ c)) (hdN_lt _) fullShare
        ∗ hA m c (2 : Fin 4) (hdN (pr (4 : Fin 7).succ c)) (hdN_lt _) fullShare
        ∗ hA m c (2 : Fin 4) (hdN (pr (5 : Fin 7).succ c)) (hdN_lt _) fullShare
        ∗ hA m c (2 : Fin 4) (hdN (pr (6 : Fin 7).succ c)) (hdN_lt _) fullShare
        ∗ hA m c (3 : Fin 4) (hdN (pr (0 : Fin 7).succ c)) (hdN_lt _) fullShare
        ∗ hA m c (3 : Fin 4) (hdN (pr (1 : Fin 7).succ c)) (hdN_lt _) fullShare
        ∗ hA m c (3 : Fin 4) (hdN (pr (2 : Fin 7).succ c)) (hdN_lt _) fullShare
        ∗ hA m c (3 : Fin 4) (hdN (pr (3 : Fin 7).succ c)) (hdN_lt _) fullShare
        ∗ hA m c (3 : Fin 4) (hdN (pr (4 : Fin 7).succ c)) (hdN_lt _) fullShare
        ∗ hA m c (3 : Fin 4) (hdN (pr (5 : Fin 7).succ c)) (hdN_lt _) fullShare
        ∗ hA m c (3 : Fin 4) (hdN (pr (6 : Fin 7).succ c)) (hdN_lt _) fullShare) -∗ Kt ⟨⟩)
          -∗ wp frame (wpE (defs₀ (F := F)) 𝒱₀ (c : Thread nD τ) none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  iintro ⟨#HR, #HL, HO, HposB, Hpos0, Hpos1, Hpos2, Hpos3, Hpos4, Hpos5, Hpos6, Hpos7, Hpos8, Hpos9, Hpos10, Hpos11, Hpos12, Hpos13, Hpos14, Hpos15, Hpos16, Hpos17, Hpos18, Hpos19, Hpos20, Hpos21, Hpos22, Hpos23, Hpos24, Hpos25, Hpos26, Hpos27, Hpos28, Hpos29, Hpos30, Hpos31, Hpos32, Hpos33, Hpos34, Hpos35, Hpos36, Hpos37, Hpos38, Hpos39, Hpos40, Hpos41, Hpos42, Hpos43, Hpos44, Hpos45, Hpos46, Hpos47, Hpos48, Hpos49, Hpos50, Hpos51, Hpos52, Hpos53, Hpos54, Hpos55, Hpos56, Hpos57, Hpos58, Hpos59, Hpos60, Hpos61, Hpos62, Hpos63, Hpos64, Hpos65, Hpos66, Hpos67, Hpos68, Hpos69, Hpos70, Hpos71, Hpos72, Hpos73, Hpos74, Hpos75, Hpos76, Hpos77, Hpos78, Hpos79, HtokB0, HtokB1, HtokB2, HtokB3, HtokB4, HtokB5, HtokB6, HtokB7, HtokD0, HtokD1, HtokD2, HtokD3, HtokD4, HtokD5, HtokD6, HtokD7, HtokD8, HtokD9, HtokD10, HtokD11, HtokD12, HtokD13, HtokD14, HtokD15, HtokD16, HtokD17, HtokD18, HtokD19, HtokD20, HtokD21, HtokD22, HtokD23, HtokD24, HtokD25, HtokD26, HtokD27, HtokD28, HtokD29, HtokD30, HtokD31, HtokD32, HtokD33, HtokD34, HtokD35, HtokD36, HtokD37, HtokD38, HtokD39, HtokD40, HtokD41, HtokD42, HtokD43, HtokD44, HtokD45, HtokD46, HtokD47, HtokD48, HtokD49, HtokD50, HtokD51, HtokD52, HtokD53, HtokD54, HtokD55, HtokD56, HtokD57, HtokD58, HtokD59, HtokD60, HtokD61, HtokD62, HtokD63, HtokD64, HtokD65, HtokD66, HtokD67, HtokD68, HtokD69, HtokD70, HtokD71, HtokD72, HtokD73, HtokD74, HtokD75, HtokD76, HtokD77, HtokD78, HtokD79, HcrB, Hcr16, Hcr17, Hcr18, Hcr19, Hcr20, Hcr21, Hcr22, Hcr23, Hcr52, Hcr53, Hcr54, Hcr55, Hcr56, Hcr57, Hcr58, Hcr59, Hcr60, Hcr61, Hcr62, Hcr63, Hcr64, Hcr65, Hcr66, Hcr67, Hcr68, Hcr69, Hcr70, Hcr71, Hcr72, Hcr73, Hcr74, Hcr75, Hcr76, Hcr77, Hcr78, Hcr79, HQ, HkS0, HkS1, HkS2, HkS3, HvS0, HvS1, HvS2, HvS3, HkD0, HkD1, HkD2, HkD3, HvD0, HvD1, HvD2, HvD3, Ho0, Ho1, Ho2, Ho3, Hl0, Hl1, Hl2, Hl3, Hw4, Hw5, HhOwn0, HhOwn1, HhOwn2, HhOwn3, HhGive0_0, HhGive0_1, HhGive0_2, HhGive0_3, HhGive1_0, HhGive1_1, HhGive1_2, HhGive1_3, HhGive2_0, HhGive2_1, HhGive2_2, HhGive2_3, HhGive3_0, HhGive3_1, HhGive3_2, HhGive3_3, HhGive4_0, HhGive4_1, HhGive4_2, HhGive4_3, HhGive5_0, HhGive5_1, HhGive5_2, HhGive5_3, HhGive6_0, HhGive6_1, HhGive6_2, HhGive6_3⟩ Hk
  rw [cc0_body_eq_skeleton]; unfold cc0_body_skel
  rw [k0_part54_eq_skeleton]; unfold k0_part54_skel
  simp only [Prog.bind_assoc, wp_bind]
  -- part 1
  rw [k0_part1_eq_skeleton]; unfold k0_part1_skel
  simp only [Prog.lift, Prog.bind_op, Prog.bind_ret, Prog.pure_eq_ret, wp_ret, wp_deviceId, semSignalWord, semWaitWord]
  (try imodintro)
  -- (the printed offsets and device chains stay as printed: the step lemmas take them with their equations)
  -- part 2
  rw [k0_part2_eq_skeleton]; unfold k0_part2_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 0 (by decide), sem_loc 1 (by decide), sem_loc 2 (by decide), sem_loc 3 (by decide)]
  -- enq batch 0
  iapply (step_locK_off m K c (0 : Fin 4) (k0_off1 c) (off1_eq c)) $$ [HkS0 HkD0 HtokD0]
  · isplitr; · iexact HR
    isplitl [HkS0]; · iexact HkS0
    isplitl [HkD0]; · iexact HkD0
    iexact HtokD0
  iintro Hcr0
  -- enq batch 0
  iapply (step_locV_off m K c (0 : Fin 4) (k0_off1 c) (off1_eq c)) $$ [HvS0 HvD0 HtokD1]
  · isplitr; · iexact HR
    isplitl [HvS0]; · iexact HvS0
    isplitl [HvD0]; · iexact HvD0
    iexact HtokD1
  iintro Hcr1
  -- enq batch 1
  iapply (step_locK_off m K c (1 : Fin 4) (k0_off2 c) (off2_eq c)) $$ [HkS1 HkD1 HtokD2]
  · isplitr; · iexact HR
    isplitl [HkS1]; · iexact HkS1
    isplitl [HkD1]; · iexact HkD1
    iexact HtokD2
  iintro Hcr2
  -- enq batch 1
  iapply (step_locV_off m K c (1 : Fin 4) (k0_off2 c) (off2_eq c)) $$ [HvS1 HvD1 HtokD3]
  · isplitr; · iexact HR
    isplitl [HvS1]; · iexact HvS1
    isplitl [HvD1]; · iexact HvD1
    iexact HtokD3
  iintro Hcr3
  -- part 3
  rw [k0_part3_eq_skeleton]; unfold k0_part3_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 4 (by decide), sem_loc 5 (by decide), sem_loc 6 (by decide), sem_loc 7 (by decide)]
  -- enq batch 2
  iapply (step_locK_off m K c (2 : Fin 4) (k0_off3 c) (off3_eq c)) $$ [HkS2 HkD2 HtokD4]
  · isplitr; · iexact HR
    isplitl [HkS2]; · iexact HkS2
    isplitl [HkD2]; · iexact HkD2
    iexact HtokD4
  iintro Hcr4
  -- enq batch 2
  iapply (step_locV_off m K c (2 : Fin 4) (k0_off3 c) (off3_eq c)) $$ [HvS2 HvD2 HtokD5]
  · isplitr; · iexact HR
    isplitl [HvS2]; · iexact HvS2
    isplitl [HvD2]; · iexact HvD2
    iexact HtokD5
  iintro Hcr5
  -- enq batch 3
  iapply (step_locK_off m K c (3 : Fin 4) (k0_off4 c) (off4_eq c)) $$ [HkS3 HkD3 HtokD6]
  · isplitr; · iexact HR
    isplitl [HkS3]; · iexact HkS3
    isplitl [HkD3]; · iexact HkD3
    iexact HtokD6
  iintro Hcr6
  -- enq batch 3
  iapply (step_locV_off m K c (3 : Fin 4) (k0_off4 c) (off4_eq c)) $$ [HvS3 HvD3 HtokD7]
  · isplitr; · iexact HR
    isplitl [HvS3]; · iexact HvS3
    isplitl [HvD3]; · iexact HvD3
    iexact HtokD7
  iintro Hcr7
  -- part 4
  rw [k0_part4_eq_skeleton]; unfold k0_part4_skel
  simp only [Prog.lift, Prog.bind_op, Prog.bind_ret, Prog.pure_eq_ret, wp_ret, wp_deviceId, semSignalWord, semWaitWord]
  (try imodintro)
  -- (the printed offsets and device chains stay as printed: the step lemmas take them with their equations)
  -- sig index 0
  iapply (step_sig_dev m K c (0 : Fin 8) ⟨k0_dev1 c, k0_dev1_lt c⟩ (dev1_eq c)) $$ [HO HtokB0 Hw4 Hw5]
  · isplitr; · iexact HR
    isplitl [HO]; · iexact HO
    isplitl [HtokB0]; · iexact HtokB0
    rw [give_zero]
    isplitl [Hw4]; · iexact Hw4
    iexact Hw5
  iintro HO
  -- sig index 1
  iapply (step_sig_dev m K c (0 : Fin 7).succ ⟨k0_dev2 c, k0_dev2_lt c⟩ (dev2_eq c)) $$ [HO HtokB1 HhGive0_0 HhGive0_1 HhGive0_2 HhGive0_3]
  · isplitr; · iexact HR
    isplitl [HO]; · iexact HO
    isplitl [HtokB1]; · iexact HtokB1
    rw [give_succ, bigSep_fin4]
    isplitl [HhGive0_0]; · iexact HhGive0_0
    isplitl [HhGive0_1]; · iexact HhGive0_1
    isplitl [HhGive0_2]; · iexact HhGive0_2
    iexact HhGive0_3
  iintro HO
  -- sig index 2
  iapply (step_sig_dev m K c (1 : Fin 7).succ ⟨k0_dev3 c, k0_dev3_lt c⟩ (dev3_eq c)) $$ [HO HtokB2 HhGive1_0 HhGive1_1 HhGive1_2 HhGive1_3]
  · isplitr; · iexact HR
    isplitl [HO]; · iexact HO
    isplitl [HtokB2]; · iexact HtokB2
    rw [give_succ, bigSep_fin4]
    isplitl [HhGive1_0]; · iexact HhGive1_0
    isplitl [HhGive1_1]; · iexact HhGive1_1
    isplitl [HhGive1_2]; · iexact HhGive1_2
    iexact HhGive1_3
  iintro HO
  -- sig index 3
  iapply (step_sig_dev m K c (2 : Fin 7).succ ⟨k0_dev4 c, k0_dev4_lt c⟩ (dev4_eq c)) $$ [HO HtokB3 HhGive2_0 HhGive2_1 HhGive2_2 HhGive2_3]
  · isplitr; · iexact HR
    isplitl [HO]; · iexact HO
    isplitl [HtokB3]; · iexact HtokB3
    rw [give_succ, bigSep_fin4]
    isplitl [HhGive2_0]; · iexact HhGive2_0
    isplitl [HhGive2_1]; · iexact HhGive2_1
    isplitl [HhGive2_2]; · iexact HhGive2_2
    iexact HhGive2_3
  iintro HO
  -- sig index 4
  iapply (step_sig_dev m K c (3 : Fin 7).succ ⟨k0_dev5 c, k0_dev5_lt c⟩ (dev5_eq c)) $$ [HO HtokB4 HhGive3_0 HhGive3_1 HhGive3_2 HhGive3_3]
  · isplitr; · iexact HR
    isplitl [HO]; · iexact HO
    isplitl [HtokB4]; · iexact HtokB4
    rw [give_succ, bigSep_fin4]
    isplitl [HhGive3_0]; · iexact HhGive3_0
    isplitl [HhGive3_1]; · iexact HhGive3_1
    isplitl [HhGive3_2]; · iexact HhGive3_2
    iexact HhGive3_3
  iintro HO
  -- part 5
  rw [k0_part5_eq_skeleton]; unfold k0_part5_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 0 (by decide)]
  -- sig index 5
  iapply (step_sig_dev m K c (4 : Fin 7).succ ⟨k0_dev6 c, k0_dev6_lt c⟩ (dev6_eq c)) $$ [HO HtokB5 HhGive4_0 HhGive4_1 HhGive4_2 HhGive4_3]
  · isplitr; · iexact HR
    isplitl [HO]; · iexact HO
    isplitl [HtokB5]; · iexact HtokB5
    rw [give_succ, bigSep_fin4]
    isplitl [HhGive4_0]; · iexact HhGive4_0
    isplitl [HhGive4_1]; · iexact HhGive4_1
    isplitl [HhGive4_2]; · iexact HhGive4_2
    iexact HhGive4_3
  iintro HO
  -- sig index 6
  iapply (step_sig_dev m K c (5 : Fin 7).succ ⟨k0_dev7 c, k0_dev7_lt c⟩ (dev7_eq c)) $$ [HO HtokB6 HhGive5_0 HhGive5_1 HhGive5_2 HhGive5_3]
  · isplitr; · iexact HR
    isplitl [HO]; · iexact HO
    isplitl [HtokB6]; · iexact HtokB6
    rw [give_succ, bigSep_fin4]
    isplitl [HhGive5_0]; · iexact HhGive5_0
    isplitl [HhGive5_1]; · iexact HhGive5_1
    isplitl [HhGive5_2]; · iexact HhGive5_2
    iexact HhGive5_3
  iintro HO
  -- sig index 7
  iapply (step_sig_dev m K c (6 : Fin 7).succ ⟨k0_dev8 c, k0_dev8_lt c⟩ (dev8_eq c)) $$ [HO HtokB7 HhGive6_0 HhGive6_1 HhGive6_2 HhGive6_3]
  · isplitr; · iexact HR
    isplitl [HO]; · iexact HO
    isplitl [HtokB7]; · iexact HtokB7
    rw [give_succ, bigSep_fin4]
    isplitl [HhGive6_0]; · iexact HhGive6_0
    isplitl [HhGive6_1]; · iexact HhGive6_1
    isplitl [HhGive6_2]; · iexact HhGive6_2
    iexact HhGive6_3
  iintro HO
  -- barwait
  iapply (step_barwait m K c) $$ [HcrB HposB HO]
  · isplitr; · iexact HR
    isplitr; · iexact HL
    isplitl [HcrB]; · iexact HcrB
    isplitl [HposB]; · iexact HposB
    iexact HO
  iintro ⟨⟨%W1, HO⟩, Hgot⟩
  ihave Hgot2 := (got_elim c) $$ Hgot
  icases Hgot2 with ⟨HxW4, HxW5, HhPeer0_0, HhPeer0_1, HhPeer0_2, HhPeer0_3, HhPeer1_0, HhPeer1_1, HhPeer1_2, HhPeer1_3, HhPeer2_0, HhPeer2_1, HhPeer2_2, HhPeer2_3, HhPeer3_0, HhPeer3_1, HhPeer3_2, HhPeer3_3, HhPeer4_0, HhPeer4_1, HhPeer4_2, HhPeer4_3, HhPeer5_0, HhPeer5_1, HhPeer5_2, HhPeer5_3, HhPeer6_0, HhPeer6_1, HhPeer6_2, HhPeer6_3⟩
  -- splitX
  ihave Hs4 := (oM'_splitE (pr 0 c)) $$ HxW4
  icases Hs4 with ⟨HxPo0, HxPo1, HxPo2, HxPo3⟩
  ihave Hs5 := (lM'_splitE (pr 0 c)) $$ HxW5
  icases Hs5 with ⟨HxPl0, HxPl1, HxPl2, HxPl3⟩
  -- load arg0 batch 0
  iapply (step_loadQ_off m K c (0 : Fin 4) (k0_off5 c) (off5_eq c)) $$ [HQ]
  · iexact HQ
  iintro HQ
  -- wait loc batch 0 index 0
  iapply (step_wait_locK m K c (0 : Fin 4) 8 (dst := kvDst (0 : Fin 4).val (0 : Fin 4).isLt kM) rfl) $$ [Hcr0 Hpos0 HO]
  · isplitr; · iexact HR
    isplitr; · iexact HL
    isplitl [Hcr0]; · iexact Hcr0
    isplitl [Hpos0]; · iexact Hpos0
    iexact HO
  iintro ⟨⟨%W2, HO⟩, Hsv0, HkD0, HkS0⟩
  -- load arg4 batch 0
  iapply (step_loadK m K c (0 : Fin 4)) $$ [HkD0]
  · iexact HkD0
  iintro HkD0
  -- part 6
  rw [k0_part6_eq_skeleton]; unfold k0_part6_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 1 (by decide)]
  simp only [pay4_eq, pay5_eq, pay8_eq, pay9_eq, pay13_eq, pay14_eq, pay20_eq, pay21_eq, pay10_eq, pay16_eq, pay22_eq, pay23_eq]
  -- wait loc batch 0 index 1
  iapply (step_wait_locV m K c (0 : Fin 4) 8 (dst := kvDst (0 : Fin 4).val (0 : Fin 4).isLt vM) rfl) $$ [Hcr1 Hpos1 HO]
  · isplitr; · iexact HR
    isplitr; · iexact HL
    isplitl [Hcr1]; · iexact Hcr1
    isplitl [Hpos1]; · iexact Hpos1
    iexact HO
  iintro ⟨⟨%W3, HO⟩, Hsv1, HvD0, HvS0⟩
  -- load arg5 batch 0
  iapply (step_loadV m K c (0 : Fin 4)) $$ [HvD0]
  · iexact HvD0
  iintro HvD0
  -- load arg7 batch 0
  iapply (step_loadLdead m K c (0 : Fin 4)) $$ [Hl0]
  · iexact Hl0
  iintro %vd1 Hl0
  -- store arg7 batch 0
  iapply (step_storeL m K c (0 : Fin 4)) $$ [Hl0]
  · iexact Hl0
  iintro Hl0
  -- load arg6 batch 0
  iapply (step_loadOdead m K c (0 : Fin 4)) $$ [Ho0]
  · iexact Ho0
  iintro %vd2 Ho0
  -- store arg6 batch 0
  iapply (step_storeO m K c (0 : Fin 4)) $$ [Ho0]
  · iexact Ho0
  iintro Ho0
  -- part 7
  rw [k0_part7_eq_skeleton]; unfold k0_part7_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 0 0 (by decide) (by decide), sem_xr 0 0 (by decide) (by decide), sem_xs 0 1 (by decide) (by decide), sem_xr 0 1 (by decide) (by decide)]
  -- xsend batch 0 index 0
  iapply (step_xsendO_dev m K c (0 : Fin 4) 8 (owed_8 c) ⟨k0_dev9 c, k0_dev9_lt c⟩ (dev9_eq c)) $$ [Ho0 HxPo0 HO HtokD8 HtokD16]
  · isplitr; · iexact HR
    isplitl [Ho0]; · iexact Ho0
    isplitl [HxPo0]; · iexact HxPo0
    isplitl [HO]; · iexact HO
    isplitl [HtokD8]; · iexact HtokD8
    iexact HtokD16
  iintro ⟨Hcr8, HO⟩
  -- xsend batch 0 index 1
  iapply (step_xsendL_dev m K c (0 : Fin 4) 9 (owed_9 c) ⟨k0_dev10 c, k0_dev10_lt c⟩ (dev10_eq c)) $$ [Hl0 HxPl0 HO HtokD9 HtokD17]
  · isplitr; · iexact HR
    isplitl [Hl0]; · iexact Hl0
    isplitl [HxPl0]; · iexact HxPl0
    isplitl [HO]; · iexact HO
    isplitl [HtokD9]; · iexact HtokD9
    iexact HtokD17
  iintro ⟨Hcr9, HO⟩
  -- load arg0 batch 1
  iapply (step_loadQ_off m K c (1 : Fin 4) (k0_off6 c) (off6_eq c)) $$ [HQ]
  · iexact HQ
  iintro HQ
  -- part 8
  rw [k0_part8_eq_skeleton]; unfold k0_part8_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 2 (by decide), sem_loc 3 (by decide)]
  simp only [pay4_eq, pay5_eq, pay8_eq, pay9_eq, pay13_eq, pay14_eq, pay20_eq, pay21_eq, pay10_eq, pay16_eq, pay22_eq, pay23_eq]
  -- wait loc batch 1 index 0
  iapply (step_wait_locK m K c (1 : Fin 4) 10 (dst := kvDst (1 : Fin 4).val (1 : Fin 4).isLt kM) rfl) $$ [Hcr2 Hpos2 HO]
  · isplitr; · iexact HR
    isplitr; · iexact HL
    isplitl [Hcr2]; · iexact Hcr2
    isplitl [Hpos2]; · iexact Hpos2
    iexact HO
  iintro ⟨⟨%W4, HO⟩, Hsv2, HkD1, HkS1⟩
  -- load arg4 batch 1
  iapply (step_loadK m K c (1 : Fin 4)) $$ [HkD1]
  · iexact HkD1
  iintro HkD1
  -- wait loc batch 1 index 1
  iapply (step_wait_locV m K c (1 : Fin 4) 10 (dst := kvDst (1 : Fin 4).val (1 : Fin 4).isLt vM) rfl) $$ [Hcr3 Hpos3 HO]
  · isplitr; · iexact HR
    isplitr; · iexact HL
    isplitl [Hcr3]; · iexact Hcr3
    isplitl [Hpos3]; · iexact Hpos3
    iexact HO
  iintro ⟨⟨%W5, HO⟩, Hsv3, HvD1, HvS1⟩
  -- load arg5 batch 1
  iapply (step_loadV m K c (1 : Fin 4)) $$ [HvD1]
  · iexact HvD1
  iintro HvD1
  -- load arg7 batch 1
  iapply (step_loadLdead m K c (1 : Fin 4)) $$ [Hl1]
  · iexact Hl1
  iintro %vd3 Hl1
  -- store arg7 batch 1
  iapply (step_storeL m K c (1 : Fin 4)) $$ [Hl1]
  · iexact Hl1
  iintro Hl1
  -- load arg6 batch 1
  iapply (step_loadOdead m K c (1 : Fin 4)) $$ [Ho1]
  · iexact Ho1
  iintro %vd4 Ho1
  -- store arg6 batch 1
  iapply (step_storeO m K c (1 : Fin 4)) $$ [Ho1]
  · iexact Ho1
  iintro Ho1
  -- part 9
  rw [k0_part9_eq_skeleton]; unfold k0_part9_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 1 0 (by decide) (by decide), sem_xr 1 0 (by decide) (by decide), sem_xs 1 1 (by decide) (by decide), sem_xr 1 1 (by decide) (by decide)]
  -- xsend batch 1 index 0
  iapply (step_xsendO_dev m K c (1 : Fin 4) 10 (owed_10 c) ⟨k0_dev11 c, k0_dev11_lt c⟩ (dev11_eq c)) $$ [Ho1 HxPo1 HO HtokD10 HtokD18]
  · isplitr; · iexact HR
    isplitl [Ho1]; · iexact Ho1
    isplitl [HxPo1]; · iexact HxPo1
    isplitl [HO]; · iexact HO
    isplitl [HtokD10]; · iexact HtokD10
    iexact HtokD18
  iintro ⟨Hcr10, HO⟩
  -- xsend batch 1 index 1
  iapply (step_xsendL_dev m K c (1 : Fin 4) 11 (owed_11 c) ⟨k0_dev12 c, k0_dev12_lt c⟩ (dev12_eq c)) $$ [Hl1 HxPl1 HO HtokD11 HtokD19]
  · isplitr; · iexact HR
    isplitl [Hl1]; · iexact Hl1
    isplitl [HxPl1]; · iexact HxPl1
    isplitl [HO]; · iexact HO
    isplitl [HtokD11]; · iexact HtokD11
    iexact HtokD19
  iintro ⟨Hcr11, HO⟩
  -- part 10
  rw [k0_part10_eq_skeleton]; unfold k0_part10_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 0 0 (by decide) (by decide), sem_xr 0 0 (by decide) (by decide), sem_xs 0 1 (by decide) (by decide)]
  -- wait xs batch 0 index 0
  iapply (step_wait_xsO m K c (0 : Fin 4) 12 (dst := oSl (0 : Fin 4).val (0 : Fin 4).isLt oM) rfl) $$ [Hcr8 Hpos8 HO]
  · isplitr; · iexact HR
    isplitr; · iexact HL
    isplitl [Hcr8]; · iexact Hcr8
    isplitl [Hpos8]; · iexact Hpos8
    iexact HO
  iintro ⟨⟨%W6, HO⟩, Hsv8, Ho0⟩
  -- wait xr batch 0 index 0
  iapply (step_wait_xrO m K c (0 : Fin 4) (dst := oSl (0 : Fin 4).val (0 : Fin 4).isLt oM') rfl) $$ [Hcr16 Hpos16 HO]
  · isplitr; · iexact HR
    isplitr; · iexact HL
    isplitl [Hcr16]; · iexact Hcr16
    isplitl [Hpos16]; · iexact Hpos16
    iexact HO
  iintro ⟨⟨%W7, HO⟩, Hsv16, Hpo0⟩
  -- wait xs batch 0 index 1
  iapply (step_wait_xsL m K c (0 : Fin 4) 12 (dst := lSl (0 : Fin 4).val (0 : Fin 4).isLt lM) rfl) $$ [Hcr9 Hpos9 HO]
  · isplitr; · iexact HR
    isplitr; · iexact HL
    isplitl [Hcr9]; · iexact Hcr9
    isplitl [Hpos9]; · iexact Hpos9
    iexact HO
  iintro ⟨⟨%W8, HO⟩, Hsv9, Hl0⟩
  -- part 11
  rw [k0_part11_eq_skeleton]; unfold k0_part11_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 0 1 (by decide) (by decide)]
  simp only [pay4_eq, pay5_eq, pay8_eq, pay9_eq, pay13_eq, pay14_eq, pay20_eq, pay21_eq, pay10_eq, pay16_eq, pay22_eq, pay23_eq]
  -- wait xr batch 0 index 1
  iapply (step_wait_xrL m K c (0 : Fin 4) (dst := lSl (0 : Fin 4).val (0 : Fin 4).isLt lM') rfl) $$ [Hcr17 Hpos17 HO]
  · isplitr; · iexact HR
    isplitr; · iexact HL
    isplitl [Hcr17]; · iexact Hcr17
    isplitl [Hpos17]; · iexact Hpos17
    iexact HO
  iintro ⟨⟨%W9, HO⟩, Hsv17, Hpl0⟩
  -- load arg6 batch 0
  iapply (step_loadO m K c (0 : Fin 4)) $$ [Ho0]
  · iexact Ho0
  iintro Ho0
  -- load arg8 batch 0
  iapply (step_loadPO m K c (0 : Fin 4)) $$ [Hpo0]
  · iexact Hpo0
  iintro Hpo0
  -- load arg7 batch 0
  iapply (step_loadL m K c (0 : Fin 4)) $$ [Hl0]
  · iexact Hl0
  iintro Hl0
  -- load arg9 batch 0
  iapply (step_loadPL m K c (0 : Fin 4)) $$ [Hpl0]
  · iexact Hpl0
  iintro Hpl0
  -- load arg3 batch 0
  iapply (step_loadHdead_off m K c (0 : Fin 4) (k0_off5 c) (off5_eq c)) $$ [HhOwn0]
  · iexact HhOwn0
  iintro %vd5 HhOwn0
  -- store arg3 batch 0
  iapply (step_storeH_off m K c (0 : Fin 4) (k0_off5 c) (off5_eq c)) $$ [HhOwn0]
  · iexact HhOwn0
  iintro HhOwn0
  -- shares batch 0
  ihave Hsh := (hA_shares_split m c (0 : Fin 4) (hdN c) (hdN_lt c)) $$ HhOwn0
  icases Hsh with ⟨HhRem0, HhS0_0, HhS0_1, HhS0_2, HhS0_3, HhS0_4, HhS0_5, HhS0_6⟩
  -- part 12
  rw [k0_part12_eq_skeleton]; unfold k0_part12_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 0 (by decide) (by decide), sem_ar 0 0 (by decide) (by decide), sem_as 0 1 (by decide) (by decide), sem_ar 0 1 (by decide) (by decide)]
  -- gsend batch 0 index 0
  iapply (step_agsend_off m K c (0 : Fin 4) (0 : Fin 7) 12 (by decide) rfl (k0_off7 c) (off7_eq c) ⟨k0_dev13 c, k0_dev13_lt c⟩ (dev13_eq c)) $$ [HhS0_0 HhPeer0_0 HO HtokD24 HtokD52]
  · isplitr; · iexact HR
    isplitl [HhS0_0]; · iexact HhS0_0
    isplitl [HhPeer0_0]; · iexact HhPeer0_0
    isplitl [HO]; · iexact HO
    isplitl [HtokD24]; · iexact HtokD24
    iexact HtokD52
  iintro ⟨Hcr24, HO⟩
  -- gsend batch 0 index 1
  iapply (step_agsend_off m K c (0 : Fin 4) (1 : Fin 7) 13 (by decide) rfl (k0_off7 c) (off7_eq c) ⟨k0_dev14 c, k0_dev14_lt c⟩ (dev14_eq c)) $$ [HhS0_1 HhPeer1_0 HO HtokD25 HtokD53]
  · isplitr; · iexact HR
    isplitl [HhS0_1]; · iexact HhS0_1
    isplitl [HhPeer1_0]; · iexact HhPeer1_0
    isplitl [HO]; · iexact HO
    isplitl [HtokD25]; · iexact HtokD25
    iexact HtokD53
  iintro ⟨Hcr25, HO⟩
  -- part 13
  rw [k0_part13_eq_skeleton]; unfold k0_part13_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 2 (by decide) (by decide), sem_ar 0 2 (by decide) (by decide), sem_as 0 3 (by decide) (by decide), sem_ar 0 3 (by decide) (by decide)]
  -- gsend batch 0 index 2
  iapply (step_agsend_off m K c (0 : Fin 4) (2 : Fin 7) 14 (by decide) rfl (k0_off7 c) (off7_eq c) ⟨k0_dev15 c, k0_dev15_lt c⟩ (dev15_eq c)) $$ [HhS0_2 HhPeer2_0 HO HtokD26 HtokD54]
  · isplitr; · iexact HR
    isplitl [HhS0_2]; · iexact HhS0_2
    isplitl [HhPeer2_0]; · iexact HhPeer2_0
    isplitl [HO]; · iexact HO
    isplitl [HtokD26]; · iexact HtokD26
    iexact HtokD54
  iintro ⟨Hcr26, HO⟩
  -- gsend batch 0 index 3
  iapply (step_agsend_off m K c (0 : Fin 4) (3 : Fin 7) 15 (by decide) rfl (k0_off7 c) (off7_eq c) ⟨k0_dev16 c, k0_dev16_lt c⟩ (dev16_eq c)) $$ [HhS0_3 HhPeer3_0 HO HtokD27 HtokD55]
  · isplitr; · iexact HR
    isplitl [HhS0_3]; · iexact HhS0_3
    isplitl [HhPeer3_0]; · iexact HhPeer3_0
    isplitl [HO]; · iexact HO
    isplitl [HtokD27]; · iexact HtokD27
    iexact HtokD55
  iintro ⟨Hcr27, HO⟩
  -- part 14
  rw [k0_part14_eq_skeleton]; unfold k0_part14_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 4 (by decide) (by decide), sem_ar 0 4 (by decide) (by decide), sem_as 0 5 (by decide) (by decide), sem_ar 0 5 (by decide) (by decide)]
  -- gsend batch 0 index 4
  iapply (step_agsend_off m K c (0 : Fin 4) (4 : Fin 7) 16 (by decide) rfl (k0_off7 c) (off7_eq c) ⟨k0_dev17 c, k0_dev17_lt c⟩ (dev17_eq c)) $$ [HhS0_4 HhPeer4_0 HO HtokD28 HtokD56]
  · isplitr; · iexact HR
    isplitl [HhS0_4]; · iexact HhS0_4
    isplitl [HhPeer4_0]; · iexact HhPeer4_0
    isplitl [HO]; · iexact HO
    isplitl [HtokD28]; · iexact HtokD28
    iexact HtokD56
  iintro ⟨Hcr28, HO⟩
  -- gsend batch 0 index 5
  iapply (step_agsend_off m K c (0 : Fin 4) (5 : Fin 7) 17 (by decide) rfl (k0_off7 c) (off7_eq c) ⟨k0_dev18 c, k0_dev18_lt c⟩ (dev18_eq c)) $$ [HhS0_5 HhPeer5_0 HO HtokD29 HtokD57]
  · isplitr; · iexact HR
    isplitl [HhS0_5]; · iexact HhS0_5
    isplitl [HhPeer5_0]; · iexact HhPeer5_0
    isplitl [HO]; · iexact HO
    isplitl [HtokD29]; · iexact HtokD29
    iexact HtokD57
  iintro ⟨Hcr29, HO⟩
  -- part 15
  rw [k0_part15_eq_skeleton]; unfold k0_part15_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 6 (by decide) (by decide), sem_ar 0 6 (by decide) (by decide), sem_loc 4 (by decide), sem_loc 5 (by decide)]
  -- gsend batch 0 index 6
  iapply (step_agsend_off m K c (0 : Fin 4) (6 : Fin 7) 18 (by decide) rfl (k0_off7 c) (off7_eq c) ⟨k0_dev19 c, k0_dev19_lt c⟩ (dev19_eq c)) $$ [HhS0_6 HhPeer6_0 HO HtokD30 HtokD58]
  · isplitr; · iexact HR
    isplitl [HhS0_6]; · iexact HhS0_6
    isplitl [HhPeer6_0]; · iexact HhPeer6_0
    isplitl [HO]; · iexact HO
    isplitl [HtokD30]; · iexact HtokD30
    iexact HtokD58
  iintro ⟨Hcr30, HO⟩
  -- load arg0 batch 2
  iapply (step_loadQ_off m K c (2 : Fin 4) (k0_off8 c) (off8_eq c)) $$ [HQ]
  · iexact HQ
  iintro HQ
  -- wait loc batch 2 index 0
  iapply (step_wait_locK m K c (2 : Fin 4) 19 (dst := kvDst (2 : Fin 4).val (2 : Fin 4).isLt kM) rfl) $$ [Hcr4 Hpos4 HO]
  · isplitr; · iexact HR
    isplitr; · iexact HL
    isplitl [Hcr4]; · iexact Hcr4
    isplitl [Hpos4]; · iexact Hpos4
    iexact HO
  iintro ⟨⟨%W10, HO⟩, Hsv4, HkD2, HkS2⟩
  -- load arg4 batch 2
  iapply (step_loadK m K c (2 : Fin 4)) $$ [HkD2]
  · iexact HkD2
  iintro HkD2
  -- wait loc batch 2 index 1
  iapply (step_wait_locV m K c (2 : Fin 4) 19 (dst := kvDst (2 : Fin 4).val (2 : Fin 4).isLt vM) rfl) $$ [Hcr5 Hpos5 HO]
  · isplitr; · iexact HR
    isplitr; · iexact HL
    isplitl [Hcr5]; · iexact Hcr5
    isplitl [Hpos5]; · iexact Hpos5
    iexact HO
  iintro ⟨⟨%W11, HO⟩, Hsv5, HvD2, HvS2⟩
  -- load arg5 batch 2
  iapply (step_loadV m K c (2 : Fin 4)) $$ [HvD2]
  · iexact HvD2
  iintro HvD2
  -- part 16
  rw [k0_part16_eq_skeleton]; unfold k0_part16_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 2 0 (by decide) (by decide), sem_xr 2 0 (by decide) (by decide)]
  simp only [pay4_eq, pay5_eq, pay8_eq, pay9_eq, pay13_eq, pay14_eq, pay20_eq, pay21_eq, pay10_eq, pay16_eq, pay22_eq, pay23_eq]
  -- load arg7 batch 2
  iapply (step_loadLdead m K c (2 : Fin 4)) $$ [Hl2]
  · iexact Hl2
  iintro %vd6 Hl2
  -- store arg7 batch 2
  iapply (step_storeL m K c (2 : Fin 4)) $$ [Hl2]
  · iexact Hl2
  iintro Hl2
  -- load arg6 batch 2
  iapply (step_loadOdead m K c (2 : Fin 4)) $$ [Ho2]
  · iexact Ho2
  iintro %vd7 Ho2
  -- store arg6 batch 2
  iapply (step_storeO m K c (2 : Fin 4)) $$ [Ho2]
  · iexact Ho2
  iintro Ho2
  -- xsend batch 2 index 0
  iapply (step_xsendO_dev m K c (2 : Fin 4) 19 (owed_19 c) ⟨k0_dev20 c, k0_dev20_lt c⟩ (dev20_eq c)) $$ [Ho2 HxPo2 HO HtokD12 HtokD20]
  · isplitr; · iexact HR
    isplitl [Ho2]; · iexact Ho2
    isplitl [HxPo2]; · iexact HxPo2
    isplitl [HO]; · iexact HO
    isplitl [HtokD12]; · iexact HtokD12
    iexact HtokD20
  iintro ⟨Hcr12, HO⟩
  -- part 17
  rw [k0_part17_eq_skeleton]; unfold k0_part17_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 2 1 (by decide) (by decide), sem_xr 2 1 (by decide) (by decide), sem_xs 1 0 (by decide) (by decide)]
  -- xsend batch 2 index 1
  iapply (step_xsendL_dev m K c (2 : Fin 4) 20 (owed_20 c) ⟨k0_dev21 c, k0_dev21_lt c⟩ (dev21_eq c)) $$ [Hl2 HxPl2 HO HtokD13 HtokD21]
  · isplitr; · iexact HR
    isplitl [Hl2]; · iexact Hl2
    isplitl [HxPl2]; · iexact HxPl2
    isplitl [HO]; · iexact HO
    isplitl [HtokD13]; · iexact HtokD13
    iexact HtokD21
  iintro ⟨Hcr13, HO⟩
  -- wait xs batch 1 index 0
  iapply (step_wait_xsO m K c (1 : Fin 4) 21 (dst := oSl (1 : Fin 4).val (1 : Fin 4).isLt oM) rfl) $$ [Hcr10 Hpos10 HO]
  · isplitr; · iexact HR
    isplitr; · iexact HL
    isplitl [Hcr10]; · iexact Hcr10
    isplitl [Hpos10]; · iexact Hpos10
    iexact HO
  iintro ⟨⟨%W12, HO⟩, Hsv10, Ho1⟩
  -- part 18
  rw [k0_part18_eq_skeleton]; unfold k0_part18_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 1 0 (by decide) (by decide), sem_xs 1 1 (by decide) (by decide), sem_xr 1 1 (by decide) (by decide)]
  -- wait xr batch 1 index 0
  iapply (step_wait_xrO m K c (1 : Fin 4) (dst := oSl (1 : Fin 4).val (1 : Fin 4).isLt oM') rfl) $$ [Hcr18 Hpos18 HO]
  · isplitr; · iexact HR
    isplitr; · iexact HL
    isplitl [Hcr18]; · iexact Hcr18
    isplitl [Hpos18]; · iexact Hpos18
    iexact HO
  iintro ⟨⟨%W13, HO⟩, Hsv18, Hpo1⟩
  -- wait xs batch 1 index 1
  iapply (step_wait_xsL m K c (1 : Fin 4) 21 (dst := lSl (1 : Fin 4).val (1 : Fin 4).isLt lM) rfl) $$ [Hcr11 Hpos11 HO]
  · isplitr; · iexact HR
    isplitr; · iexact HL
    isplitl [Hcr11]; · iexact Hcr11
    isplitl [Hpos11]; · iexact Hpos11
    iexact HO
  iintro ⟨⟨%W14, HO⟩, Hsv11, Hl1⟩
  -- wait xr batch 1 index 1
  iapply (step_wait_xrL m K c (1 : Fin 4) (dst := lSl (1 : Fin 4).val (1 : Fin 4).isLt lM') rfl) $$ [Hcr19 Hpos19 HO]
  · isplitr; · iexact HR
    isplitr; · iexact HL
    isplitl [Hcr19]; · iexact Hcr19
    isplitl [Hpos19]; · iexact Hpos19
    iexact HO
  iintro ⟨⟨%W15, HO⟩, Hsv19, Hpl1⟩
  -- load arg6 batch 1
  iapply (step_loadO m K c (1 : Fin 4)) $$ [Ho1]
  · iexact Ho1
  iintro Ho1
  -- load arg8 batch 1
  iapply (step_loadPO m K c (1 : Fin 4)) $$ [Hpo1]
  · iexact Hpo1
  iintro Hpo1
  -- part 19
  rw [k0_part19_eq_skeleton]; unfold k0_part19_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 0 (by decide) (by decide), sem_ar 1 0 (by decide) (by decide)]
  simp only [pay4_eq, pay5_eq, pay8_eq, pay9_eq, pay13_eq, pay14_eq, pay20_eq, pay21_eq, pay10_eq, pay16_eq, pay22_eq, pay23_eq]
  -- load arg7 batch 1
  iapply (step_loadL m K c (1 : Fin 4)) $$ [Hl1]
  · iexact Hl1
  iintro Hl1
  -- load arg9 batch 1
  iapply (step_loadPL m K c (1 : Fin 4)) $$ [Hpl1]
  · iexact Hpl1
  iintro Hpl1
  -- load arg3 batch 1
  iapply (step_loadHdead_off m K c (1 : Fin 4) (k0_off6 c) (off6_eq c)) $$ [HhOwn1]
  · iexact HhOwn1
  iintro %vd8 HhOwn1
  -- store arg3 batch 1
  iapply (step_storeH_off m K c (1 : Fin 4) (k0_off6 c) (off6_eq c)) $$ [HhOwn1]
  · iexact HhOwn1
  iintro HhOwn1
  -- shares batch 1
  ihave Hsh := (hA_shares_split m c (1 : Fin 4) (hdN c) (hdN_lt c)) $$ HhOwn1
  icases Hsh with ⟨HhRem1, HhS1_0, HhS1_1, HhS1_2, HhS1_3, HhS1_4, HhS1_5, HhS1_6⟩
  -- gsend batch 1 index 0
  iapply (step_agsend_off m K c (1 : Fin 4) (0 : Fin 7) 21 (by decide) rfl (k0_off9 c) (off9_eq c) ⟨k0_dev22 c, k0_dev22_lt c⟩ (dev22_eq c)) $$ [HhS1_0 HhPeer0_1 HO HtokD31 HtokD59]
  · isplitr; · iexact HR
    isplitl [HhS1_0]; · iexact HhS1_0
    isplitl [HhPeer0_1]; · iexact HhPeer0_1
    isplitl [HO]; · iexact HO
    isplitl [HtokD31]; · iexact HtokD31
    iexact HtokD59
  iintro ⟨Hcr31, HO⟩
  -- part 20
  rw [k0_part20_eq_skeleton]; unfold k0_part20_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 1 (by decide) (by decide), sem_ar 1 1 (by decide) (by decide), sem_as 1 2 (by decide) (by decide), sem_ar 1 2 (by decide) (by decide)]
  -- gsend batch 1 index 1
  iapply (step_agsend_off m K c (1 : Fin 4) (1 : Fin 7) 22 (by decide) rfl (k0_off9 c) (off9_eq c) ⟨k0_dev23 c, k0_dev23_lt c⟩ (dev23_eq c)) $$ [HhS1_1 HhPeer1_1 HO HtokD32 HtokD60]
  · isplitr; · iexact HR
    isplitl [HhS1_1]; · iexact HhS1_1
    isplitl [HhPeer1_1]; · iexact HhPeer1_1
    isplitl [HO]; · iexact HO
    isplitl [HtokD32]; · iexact HtokD32
    iexact HtokD60
  iintro ⟨Hcr32, HO⟩
  -- gsend batch 1 index 2
  iapply (step_agsend_off m K c (1 : Fin 4) (2 : Fin 7) 23 (by decide) rfl (k0_off9 c) (off9_eq c) ⟨k0_dev24 c, k0_dev24_lt c⟩ (dev24_eq c)) $$ [HhS1_2 HhPeer2_1 HO HtokD33 HtokD61]
  · isplitr; · iexact HR
    isplitl [HhS1_2]; · iexact HhS1_2
    isplitl [HhPeer2_1]; · iexact HhPeer2_1
    isplitl [HO]; · iexact HO
    isplitl [HtokD33]; · iexact HtokD33
    iexact HtokD61
  iintro ⟨Hcr33, HO⟩
  -- part 21
  rw [k0_part21_eq_skeleton]; unfold k0_part21_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 3 (by decide) (by decide), sem_ar 1 3 (by decide) (by decide), sem_as 1 4 (by decide) (by decide), sem_ar 1 4 (by decide) (by decide)]
  -- gsend batch 1 index 3
  iapply (step_agsend_off m K c (1 : Fin 4) (3 : Fin 7) 24 (by decide) rfl (k0_off9 c) (off9_eq c) ⟨k0_dev25 c, k0_dev25_lt c⟩ (dev25_eq c)) $$ [HhS1_3 HhPeer3_1 HO HtokD34 HtokD62]
  · isplitr; · iexact HR
    isplitl [HhS1_3]; · iexact HhS1_3
    isplitl [HhPeer3_1]; · iexact HhPeer3_1
    isplitl [HO]; · iexact HO
    isplitl [HtokD34]; · iexact HtokD34
    iexact HtokD62
  iintro ⟨Hcr34, HO⟩
  -- gsend batch 1 index 4
  iapply (step_agsend_off m K c (1 : Fin 4) (4 : Fin 7) 25 (by decide) rfl (k0_off9 c) (off9_eq c) ⟨k0_dev26 c, k0_dev26_lt c⟩ (dev26_eq c)) $$ [HhS1_4 HhPeer4_1 HO HtokD35 HtokD63]
  · isplitr; · iexact HR
    isplitl [HhS1_4]; · iexact HhS1_4
    isplitl [HhPeer4_1]; · iexact HhPeer4_1
    isplitl [HO]; · iexact HO
    isplitl [HtokD35]; · iexact HtokD35
    iexact HtokD63
  iintro ⟨Hcr35, HO⟩
  -- part 22
  rw [k0_part22_eq_skeleton]; unfold k0_part22_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 5 (by decide) (by decide), sem_ar 1 5 (by decide) (by decide), sem_as 1 6 (by decide) (by decide), sem_ar 1 6 (by decide) (by decide), sem_loc 6 (by decide)]
  -- gsend batch 1 index 5
  iapply (step_agsend_off m K c (1 : Fin 4) (5 : Fin 7) 26 (by decide) rfl (k0_off9 c) (off9_eq c) ⟨k0_dev27 c, k0_dev27_lt c⟩ (dev27_eq c)) $$ [HhS1_5 HhPeer5_1 HO HtokD36 HtokD64]
  · isplitr; · iexact HR
    isplitl [HhS1_5]; · iexact HhS1_5
    isplitl [HhPeer5_1]; · iexact HhPeer5_1
    isplitl [HO]; · iexact HO
    isplitl [HtokD36]; · iexact HtokD36
    iexact HtokD64
  iintro ⟨Hcr36, HO⟩
  -- gsend batch 1 index 6
  iapply (step_agsend_off m K c (1 : Fin 4) (6 : Fin 7) 27 (by decide) rfl (k0_off9 c) (off9_eq c) ⟨k0_dev28 c, k0_dev28_lt c⟩ (dev28_eq c)) $$ [HhS1_6 HhPeer6_1 HO HtokD37 HtokD65]
  · isplitr; · iexact HR
    isplitl [HhS1_6]; · iexact HhS1_6
    isplitl [HhPeer6_1]; · iexact HhPeer6_1
    isplitl [HO]; · iexact HO
    isplitl [HtokD37]; · iexact HtokD37
    iexact HtokD65
  iintro ⟨Hcr37, HO⟩
  -- load arg0 batch 3
  iapply (step_loadQ_off m K c (3 : Fin 4) (k0_off10 c) (off10_eq c)) $$ [HQ]
  · iexact HQ
  iintro HQ
  -- wait loc batch 3 index 0
  iapply (step_wait_locK m K c (3 : Fin 4) 28 (dst := kvDst (3 : Fin 4).val (3 : Fin 4).isLt kM) rfl) $$ [Hcr6 Hpos6 HO]
  · isplitr; · iexact HR
    isplitr; · iexact HL
    isplitl [Hcr6]; · iexact Hcr6
    isplitl [Hpos6]; · iexact Hpos6
    iexact HO
  iintro ⟨⟨%W16, HO⟩, Hsv6, HkD3, HkS3⟩
  -- load arg4 batch 3
  iapply (step_loadK m K c (3 : Fin 4)) $$ [HkD3]
  · iexact HkD3
  iintro HkD3
  -- part 23
  rw [k0_part23_eq_skeleton]; unfold k0_part23_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_loc 7 (by decide)]
  simp only [pay4_eq, pay5_eq, pay8_eq, pay9_eq, pay13_eq, pay14_eq, pay20_eq, pay21_eq, pay10_eq, pay16_eq, pay22_eq, pay23_eq]
  -- wait loc batch 3 index 1
  iapply (step_wait_locV m K c (3 : Fin 4) 28 (dst := kvDst (3 : Fin 4).val (3 : Fin 4).isLt vM) rfl) $$ [Hcr7 Hpos7 HO]
  · isplitr; · iexact HR
    isplitr; · iexact HL
    isplitl [Hcr7]; · iexact Hcr7
    isplitl [Hpos7]; · iexact Hpos7
    iexact HO
  iintro ⟨⟨%W17, HO⟩, Hsv7, HvD3, HvS3⟩
  -- load arg5 batch 3
  iapply (step_loadV m K c (3 : Fin 4)) $$ [HvD3]
  · iexact HvD3
  iintro HvD3
  -- load arg7 batch 3
  iapply (step_loadLdead m K c (3 : Fin 4)) $$ [Hl3]
  · iexact Hl3
  iintro %vd9 Hl3
  -- store arg7 batch 3
  iapply (step_storeL m K c (3 : Fin 4)) $$ [Hl3]
  · iexact Hl3
  iintro Hl3
  -- load arg6 batch 3
  iapply (step_loadOdead m K c (3 : Fin 4)) $$ [Ho3]
  · iexact Ho3
  iintro %vd10 Ho3
  -- store arg6 batch 3
  iapply (step_storeO m K c (3 : Fin 4)) $$ [Ho3]
  · iexact Ho3
  iintro Ho3
  -- part 24
  rw [k0_part24_eq_skeleton]; unfold k0_part24_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 3 0 (by decide) (by decide), sem_xr 3 0 (by decide) (by decide), sem_xs 3 1 (by decide) (by decide), sem_xr 3 1 (by decide) (by decide), sem_xs 2 0 (by decide) (by decide)]
  -- xsend batch 3 index 0
  iapply (step_xsendO_dev m K c (3 : Fin 4) 28 (owed_28 c) ⟨k0_dev29 c, k0_dev29_lt c⟩ (dev29_eq c)) $$ [Ho3 HxPo3 HO HtokD14 HtokD22]
  · isplitr; · iexact HR
    isplitl [Ho3]; · iexact Ho3
    isplitl [HxPo3]; · iexact HxPo3
    isplitl [HO]; · iexact HO
    isplitl [HtokD14]; · iexact HtokD14
    iexact HtokD22
  iintro ⟨Hcr14, HO⟩
  -- xsend batch 3 index 1
  iapply (step_xsendL_dev m K c (3 : Fin 4) 29 (owed_29 c) ⟨k0_dev30 c, k0_dev30_lt c⟩ (dev30_eq c)) $$ [Hl3 HxPl3 HO HtokD15 HtokD23]
  · isplitr; · iexact HR
    isplitl [Hl3]; · iexact Hl3
    isplitl [HxPl3]; · iexact HxPl3
    isplitl [HO]; · iexact HO
    isplitl [HtokD15]; · iexact HtokD15
    iexact HtokD23
  iintro ⟨Hcr15, HO⟩
  -- wait xs batch 2 index 0
  iapply (step_wait_xsO m K c (2 : Fin 4) 30 (dst := oSl (2 : Fin 4).val (2 : Fin 4).isLt oM) rfl) $$ [Hcr12 Hpos12 HO]
  · isplitr; · iexact HR
    isplitr; · iexact HL
    isplitl [Hcr12]; · iexact Hcr12
    isplitl [Hpos12]; · iexact Hpos12
    iexact HO
  iintro ⟨⟨%W18, HO⟩, Hsv12, Ho2⟩
  -- part 25
  rw [k0_part25_eq_skeleton]; unfold k0_part25_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 2 0 (by decide) (by decide), sem_xs 2 1 (by decide) (by decide)]
  -- wait xr batch 2 index 0
  iapply (step_wait_xrO m K c (2 : Fin 4) (dst := oSl (2 : Fin 4).val (2 : Fin 4).isLt oM') rfl) $$ [Hcr20 Hpos20 HO]
  · isplitr; · iexact HR
    isplitr; · iexact HL
    isplitl [Hcr20]; · iexact Hcr20
    isplitl [Hpos20]; · iexact Hpos20
    iexact HO
  iintro ⟨⟨%W19, HO⟩, Hsv20, Hpo2⟩
  -- wait xs batch 2 index 1
  iapply (step_wait_xsL m K c (2 : Fin 4) 30 (dst := lSl (2 : Fin 4).val (2 : Fin 4).isLt lM) rfl) $$ [Hcr13 Hpos13 HO]
  · isplitr; · iexact HR
    isplitr; · iexact HL
    isplitl [Hcr13]; · iexact Hcr13
    isplitl [Hpos13]; · iexact Hpos13
    iexact HO
  iintro ⟨⟨%W20, HO⟩, Hsv13, Hl2⟩
  -- part 26
  rw [k0_part26_eq_skeleton]; unfold k0_part26_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 2 1 (by decide) (by decide)]
  simp only [pay4_eq, pay5_eq, pay8_eq, pay9_eq, pay13_eq, pay14_eq, pay20_eq, pay21_eq, pay10_eq, pay16_eq, pay22_eq, pay23_eq]
  -- wait xr batch 2 index 1
  iapply (step_wait_xrL m K c (2 : Fin 4) (dst := lSl (2 : Fin 4).val (2 : Fin 4).isLt lM') rfl) $$ [Hcr21 Hpos21 HO]
  · isplitr; · iexact HR
    isplitr; · iexact HL
    isplitl [Hcr21]; · iexact Hcr21
    isplitl [Hpos21]; · iexact Hpos21
    iexact HO
  iintro ⟨⟨%W21, HO⟩, Hsv21, Hpl2⟩
  -- load arg6 batch 2
  iapply (step_loadO m K c (2 : Fin 4)) $$ [Ho2]
  · iexact Ho2
  iintro Ho2
  -- load arg8 batch 2
  iapply (step_loadPO m K c (2 : Fin 4)) $$ [Hpo2]
  · iexact Hpo2
  iintro Hpo2
  -- load arg7 batch 2
  iapply (step_loadL m K c (2 : Fin 4)) $$ [Hl2]
  · iexact Hl2
  iintro Hl2
  -- load arg9 batch 2
  iapply (step_loadPL m K c (2 : Fin 4)) $$ [Hpl2]
  · iexact Hpl2
  iintro Hpl2
  -- load arg3 batch 2
  iapply (step_loadHdead_off m K c (2 : Fin 4) (k0_off8 c) (off8_eq c)) $$ [HhOwn2]
  · iexact HhOwn2
  iintro %vd11 HhOwn2
  -- store arg3 batch 2
  iapply (step_storeH_off m K c (2 : Fin 4) (k0_off8 c) (off8_eq c)) $$ [HhOwn2]
  · iexact HhOwn2
  iintro HhOwn2
  -- shares batch 2
  ihave Hsh := (hA_shares_split m c (2 : Fin 4) (hdN c) (hdN_lt c)) $$ HhOwn2
  icases Hsh with ⟨HhRem2, HhS2_0, HhS2_1, HhS2_2, HhS2_3, HhS2_4, HhS2_5, HhS2_6⟩
  -- part 27
  rw [k0_part27_eq_skeleton]; unfold k0_part27_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 0 (by decide) (by decide), sem_ar 2 0 (by decide) (by decide), sem_as 2 1 (by decide) (by decide), sem_ar 2 1 (by decide) (by decide)]
  -- gsend batch 2 index 0
  iapply (step_agsend_off m K c (2 : Fin 4) (0 : Fin 7) 30 (by decide) rfl (k0_off11 c) (off11_eq c) ⟨k0_dev31 c, k0_dev31_lt c⟩ (dev31_eq c)) $$ [HhS2_0 HhPeer0_2 HO HtokD38 HtokD66]
  · isplitr; · iexact HR
    isplitl [HhS2_0]; · iexact HhS2_0
    isplitl [HhPeer0_2]; · iexact HhPeer0_2
    isplitl [HO]; · iexact HO
    isplitl [HtokD38]; · iexact HtokD38
    iexact HtokD66
  iintro ⟨Hcr38, HO⟩
  -- gsend batch 2 index 1
  iapply (step_agsend_off m K c (2 : Fin 4) (1 : Fin 7) 31 (by decide) rfl (k0_off11 c) (off11_eq c) ⟨k0_dev32 c, k0_dev32_lt c⟩ (dev32_eq c)) $$ [HhS2_1 HhPeer1_2 HO HtokD39 HtokD67]
  · isplitr; · iexact HR
    isplitl [HhS2_1]; · iexact HhS2_1
    isplitl [HhPeer1_2]; · iexact HhPeer1_2
    isplitl [HO]; · iexact HO
    isplitl [HtokD39]; · iexact HtokD39
    iexact HtokD67
  iintro ⟨Hcr39, HO⟩
  -- part 28
  rw [k0_part28_eq_skeleton]; unfold k0_part28_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 2 (by decide) (by decide), sem_ar 2 2 (by decide) (by decide), sem_as 2 3 (by decide) (by decide), sem_ar 2 3 (by decide) (by decide), sem_as 2 4 (by decide) (by decide), sem_ar 2 4 (by decide) (by decide)]
  -- gsend batch 2 index 2
  iapply (step_agsend_off m K c (2 : Fin 4) (2 : Fin 7) 32 (by decide) rfl (k0_off11 c) (off11_eq c) ⟨k0_dev33 c, k0_dev33_lt c⟩ (dev33_eq c)) $$ [HhS2_2 HhPeer2_2 HO HtokD40 HtokD68]
  · isplitr; · iexact HR
    isplitl [HhS2_2]; · iexact HhS2_2
    isplitl [HhPeer2_2]; · iexact HhPeer2_2
    isplitl [HO]; · iexact HO
    isplitl [HtokD40]; · iexact HtokD40
    iexact HtokD68
  iintro ⟨Hcr40, HO⟩
  -- gsend batch 2 index 3
  iapply (step_agsend_off m K c (2 : Fin 4) (3 : Fin 7) 33 (by decide) rfl (k0_off11 c) (off11_eq c) ⟨k0_dev34 c, k0_dev34_lt c⟩ (dev34_eq c)) $$ [HhS2_3 HhPeer3_2 HO HtokD41 HtokD69]
  · isplitr; · iexact HR
    isplitl [HhS2_3]; · iexact HhS2_3
    isplitl [HhPeer3_2]; · iexact HhPeer3_2
    isplitl [HO]; · iexact HO
    isplitl [HtokD41]; · iexact HtokD41
    iexact HtokD69
  iintro ⟨Hcr41, HO⟩
  -- gsend batch 2 index 4
  iapply (step_agsend_off m K c (2 : Fin 4) (4 : Fin 7) 34 (by decide) rfl (k0_off11 c) (off11_eq c) ⟨k0_dev35 c, k0_dev35_lt c⟩ (dev35_eq c)) $$ [HhS2_4 HhPeer4_2 HO HtokD42 HtokD70]
  · isplitr; · iexact HR
    isplitl [HhS2_4]; · iexact HhS2_4
    isplitl [HhPeer4_2]; · iexact HhPeer4_2
    isplitl [HO]; · iexact HO
    isplitl [HtokD42]; · iexact HtokD42
    iexact HtokD70
  iintro ⟨Hcr42, HO⟩
  -- part 29
  rw [k0_part29_eq_skeleton]; unfold k0_part29_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 5 (by decide) (by decide), sem_ar 2 5 (by decide) (by decide), sem_as 2 6 (by decide) (by decide), sem_ar 2 6 (by decide) (by decide)]
  -- gsend batch 2 index 5
  iapply (step_agsend_off m K c (2 : Fin 4) (5 : Fin 7) 35 (by decide) rfl (k0_off11 c) (off11_eq c) ⟨k0_dev36 c, k0_dev36_lt c⟩ (dev36_eq c)) $$ [HhS2_5 HhPeer5_2 HO HtokD43 HtokD71]
  · isplitr; · iexact HR
    isplitl [HhS2_5]; · iexact HhS2_5
    isplitl [HhPeer5_2]; · iexact HhPeer5_2
    isplitl [HO]; · iexact HO
    isplitl [HtokD43]; · iexact HtokD43
    iexact HtokD71
  iintro ⟨Hcr43, HO⟩
  -- gsend batch 2 index 6
  iapply (step_agsend_off m K c (2 : Fin 4) (6 : Fin 7) 36 (by decide) rfl (k0_off11 c) (off11_eq c) ⟨k0_dev37 c, k0_dev37_lt c⟩ (dev37_eq c)) $$ [HhS2_6 HhPeer6_2 HO HtokD44 HtokD72]
  · isplitr; · iexact HR
    isplitl [HhS2_6]; · iexact HhS2_6
    isplitl [HhPeer6_2]; · iexact HhPeer6_2
    isplitl [HO]; · iexact HO
    isplitl [HtokD44]; · iexact HtokD44
    iexact HtokD72
  iintro ⟨Hcr44, HO⟩
  -- part 30
  rw [k0_part30_eq_skeleton]; unfold k0_part30_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xs 3 0 (by decide) (by decide), sem_xr 3 0 (by decide) (by decide), sem_xs 3 1 (by decide) (by decide)]
  -- wait xs batch 3 index 0
  iapply (step_wait_xsO m K c (3 : Fin 4) 37 (dst := oSl (3 : Fin 4).val (3 : Fin 4).isLt oM) rfl) $$ [Hcr14 Hpos14 HO]
  · isplitr; · iexact HR
    isplitr; · iexact HL
    isplitl [Hcr14]; · iexact Hcr14
    isplitl [Hpos14]; · iexact Hpos14
    iexact HO
  iintro ⟨⟨%W22, HO⟩, Hsv14, Ho3⟩
  -- wait xr batch 3 index 0
  iapply (step_wait_xrO m K c (3 : Fin 4) (dst := oSl (3 : Fin 4).val (3 : Fin 4).isLt oM') rfl) $$ [Hcr22 Hpos22 HO]
  · isplitr; · iexact HR
    isplitr; · iexact HL
    isplitl [Hcr22]; · iexact Hcr22
    isplitl [Hpos22]; · iexact Hpos22
    iexact HO
  iintro ⟨⟨%W23, HO⟩, Hsv22, Hpo3⟩
  -- wait xs batch 3 index 1
  iapply (step_wait_xsL m K c (3 : Fin 4) 37 (dst := lSl (3 : Fin 4).val (3 : Fin 4).isLt lM) rfl) $$ [Hcr15 Hpos15 HO]
  · isplitr; · iexact HR
    isplitr; · iexact HL
    isplitl [Hcr15]; · iexact Hcr15
    isplitl [Hpos15]; · iexact Hpos15
    iexact HO
  iintro ⟨⟨%W24, HO⟩, Hsv15, Hl3⟩
  -- part 31
  rw [k0_part31_eq_skeleton]; unfold k0_part31_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_xr 3 1 (by decide) (by decide)]
  simp only [pay4_eq, pay5_eq, pay8_eq, pay9_eq, pay13_eq, pay14_eq, pay20_eq, pay21_eq, pay10_eq, pay16_eq, pay22_eq, pay23_eq]
  -- wait xr batch 3 index 1
  iapply (step_wait_xrL m K c (3 : Fin 4) (dst := lSl (3 : Fin 4).val (3 : Fin 4).isLt lM') rfl) $$ [Hcr23 Hpos23 HO]
  · isplitr; · iexact HR
    isplitr; · iexact HL
    isplitl [Hcr23]; · iexact Hcr23
    isplitl [Hpos23]; · iexact Hpos23
    iexact HO
  iintro ⟨⟨%W25, HO⟩, Hsv23, Hpl3⟩
  -- load arg6 batch 3
  iapply (step_loadO m K c (3 : Fin 4)) $$ [Ho3]
  · iexact Ho3
  iintro Ho3
  -- load arg8 batch 3
  iapply (step_loadPO m K c (3 : Fin 4)) $$ [Hpo3]
  · iexact Hpo3
  iintro Hpo3
  -- load arg7 batch 3
  iapply (step_loadL m K c (3 : Fin 4)) $$ [Hl3]
  · iexact Hl3
  iintro Hl3
  -- load arg9 batch 3
  iapply (step_loadPL m K c (3 : Fin 4)) $$ [Hpl3]
  · iexact Hpl3
  iintro Hpl3
  -- load arg3 batch 3
  iapply (step_loadHdead_off m K c (3 : Fin 4) (k0_off10 c) (off10_eq c)) $$ [HhOwn3]
  · iexact HhOwn3
  iintro %vd12 HhOwn3
  -- store arg3 batch 3
  iapply (step_storeH_off m K c (3 : Fin 4) (k0_off10 c) (off10_eq c)) $$ [HhOwn3]
  · iexact HhOwn3
  iintro HhOwn3
  -- shares batch 3
  ihave Hsh := (hA_shares_split m c (3 : Fin 4) (hdN c) (hdN_lt c)) $$ HhOwn3
  icases Hsh with ⟨HhRem3, HhS3_0, HhS3_1, HhS3_2, HhS3_3, HhS3_4, HhS3_5, HhS3_6⟩
  -- part 32
  rw [k0_part32_eq_skeleton]; unfold k0_part32_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 0 (by decide) (by decide), sem_ar 3 0 (by decide) (by decide), sem_as 3 1 (by decide) (by decide), sem_ar 3 1 (by decide) (by decide)]
  -- gsend batch 3 index 0
  iapply (step_agsend_off m K c (3 : Fin 4) (0 : Fin 7) 37 (by decide) rfl (k0_off12 c) (off12_eq c) ⟨k0_dev38 c, k0_dev38_lt c⟩ (dev38_eq c)) $$ [HhS3_0 HhPeer0_3 HO HtokD45 HtokD73]
  · isplitr; · iexact HR
    isplitl [HhS3_0]; · iexact HhS3_0
    isplitl [HhPeer0_3]; · iexact HhPeer0_3
    isplitl [HO]; · iexact HO
    isplitl [HtokD45]; · iexact HtokD45
    iexact HtokD73
  iintro ⟨Hcr45, HO⟩
  -- gsend batch 3 index 1
  iapply (step_agsend_off m K c (3 : Fin 4) (1 : Fin 7) 38 (by decide) rfl (k0_off12 c) (off12_eq c) ⟨k0_dev39 c, k0_dev39_lt c⟩ (dev39_eq c)) $$ [HhS3_1 HhPeer1_3 HO HtokD46 HtokD74]
  · isplitr; · iexact HR
    isplitl [HhS3_1]; · iexact HhS3_1
    isplitl [HhPeer1_3]; · iexact HhPeer1_3
    isplitl [HO]; · iexact HO
    isplitl [HtokD46]; · iexact HtokD46
    iexact HtokD74
  iintro ⟨Hcr46, HO⟩
  -- part 33
  rw [k0_part33_eq_skeleton]; unfold k0_part33_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 2 (by decide) (by decide), sem_ar 3 2 (by decide) (by decide), sem_as 3 3 (by decide) (by decide), sem_ar 3 3 (by decide) (by decide)]
  -- gsend batch 3 index 2
  iapply (step_agsend_off m K c (3 : Fin 4) (2 : Fin 7) 39 (by decide) rfl (k0_off12 c) (off12_eq c) ⟨k0_dev40 c, k0_dev40_lt c⟩ (dev40_eq c)) $$ [HhS3_2 HhPeer2_3 HO HtokD47 HtokD75]
  · isplitr; · iexact HR
    isplitl [HhS3_2]; · iexact HhS3_2
    isplitl [HhPeer2_3]; · iexact HhPeer2_3
    isplitl [HO]; · iexact HO
    isplitl [HtokD47]; · iexact HtokD47
    iexact HtokD75
  iintro ⟨Hcr47, HO⟩
  -- gsend batch 3 index 3
  iapply (step_agsend_off m K c (3 : Fin 4) (3 : Fin 7) 40 (by decide) rfl (k0_off12 c) (off12_eq c) ⟨k0_dev41 c, k0_dev41_lt c⟩ (dev41_eq c)) $$ [HhS3_3 HhPeer3_3 HO HtokD48 HtokD76]
  · isplitr; · iexact HR
    isplitl [HhS3_3]; · iexact HhS3_3
    isplitl [HhPeer3_3]; · iexact HhPeer3_3
    isplitl [HO]; · iexact HO
    isplitl [HtokD48]; · iexact HtokD48
    iexact HtokD76
  iintro ⟨Hcr48, HO⟩
  -- part 34
  rw [k0_part34_eq_skeleton]; unfold k0_part34_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 4 (by decide) (by decide), sem_ar 3 4 (by decide) (by decide), sem_as 3 5 (by decide) (by decide), sem_ar 3 5 (by decide) (by decide)]
  -- gsend batch 3 index 4
  iapply (step_agsend_off m K c (3 : Fin 4) (4 : Fin 7) 41 (by decide) rfl (k0_off12 c) (off12_eq c) ⟨k0_dev42 c, k0_dev42_lt c⟩ (dev42_eq c)) $$ [HhS3_4 HhPeer4_3 HO HtokD49 HtokD77]
  · isplitr; · iexact HR
    isplitl [HhS3_4]; · iexact HhS3_4
    isplitl [HhPeer4_3]; · iexact HhPeer4_3
    isplitl [HO]; · iexact HO
    isplitl [HtokD49]; · iexact HtokD49
    iexact HtokD77
  iintro ⟨Hcr49, HO⟩
  -- gsend batch 3 index 5
  iapply (step_agsend_off m K c (3 : Fin 4) (5 : Fin 7) 42 (by decide) rfl (k0_off12 c) (off12_eq c) ⟨k0_dev43 c, k0_dev43_lt c⟩ (dev43_eq c)) $$ [HhS3_5 HhPeer5_3 HO HtokD50 HtokD78]
  · isplitr; · iexact HR
    isplitl [HhS3_5]; · iexact HhS3_5
    isplitl [HhPeer5_3]; · iexact HhPeer5_3
    isplitl [HO]; · iexact HO
    isplitl [HtokD50]; · iexact HtokD50
    iexact HtokD78
  iintro ⟨Hcr50, HO⟩
  -- part 35
  rw [k0_part35_eq_skeleton]; unfold k0_part35_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 6 (by decide) (by decide), sem_ar 3 6 (by decide) (by decide), sem_as 0 0 (by decide) (by decide), sem_ar 0 0 (by decide) (by decide)]
  -- gsend batch 3 index 6
  iapply (step_agsend_off m K c (3 : Fin 4) (6 : Fin 7) 43 (by decide) rfl (k0_off12 c) (off12_eq c) ⟨k0_dev44 c, k0_dev44_lt c⟩ (dev44_eq c)) $$ [HhS3_6 HhPeer6_3 HO HtokD51 HtokD79]
  · isplitr; · iexact HR
    isplitl [HhS3_6]; · iexact HhS3_6
    isplitl [HhPeer6_3]; · iexact HhPeer6_3
    isplitl [HO]; · iexact HO
    isplitl [HtokD51]; · iexact HtokD51
    iexact HtokD79
  iintro ⟨Hcr51, HO⟩
  -- wait gs batch 0 index 0
  iapply (step_wait_as m K c (0 : Fin 4) (0 : Fin 7) (dst := ((Memref.whole cc0_stg1_0).slice (Rect.unit (s := S4x32x8x128) (k0_off7 c) S1x32x1x128.size (k0_off7_inb c)) (fun _ => rfl))) rfl) $$ [Hcr24 Hpos24 HO]
  · isplitr; · iexact HR
    isplitr; · iexact HL
    isplitl [Hcr24]; · iexact Hcr24
    isplitl [Hpos24]; · iexact Hpos24
    iexact HO
  iintro ⟨⟨%W26, HO⟩, Hsv24, HhS0_0⟩
  -- wait gr batch 0 index 0
  iapply (step_wait_ar m K c (0 : Fin 4) (0 : Fin 7) (dst := ((Memref.whole cc0_stg1_0).slice (Rect.unit (s := S4x32x8x128) (k0_off7 c) S1x32x1x128.size (k0_off7_inb c)) (fun _ => rfl))) rfl) $$ [Hcr52 Hpos52 HO]
  · isplitr; · iexact HR
    isplitr; · iexact HL
    isplitl [Hcr52]; · iexact Hcr52
    isplitl [Hpos52]; · iexact Hpos52
    iexact HO
  iintro ⟨⟨%W27, HO⟩, Hsv52, HhR0_0⟩
  -- part 36
  rw [k0_part36_eq_skeleton]; unfold k0_part36_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 1 (by decide) (by decide), sem_ar 0 1 (by decide) (by decide), sem_as 0 2 (by decide) (by decide)]
  -- wait gs batch 0 index 1
  iapply (step_wait_as m K c (0 : Fin 4) (1 : Fin 7) (dst := ((Memref.whole cc0_stg1_0).slice (Rect.unit (s := S4x32x8x128) (k0_off7 c) S1x32x1x128.size (k0_off7_inb c)) (fun _ => rfl))) rfl) $$ [Hcr25 Hpos25 HO]
  · isplitr; · iexact HR
    isplitr; · iexact HL
    isplitl [Hcr25]; · iexact Hcr25
    isplitl [Hpos25]; · iexact Hpos25
    iexact HO
  iintro ⟨⟨%W28, HO⟩, Hsv25, HhS0_1⟩
  -- wait gr batch 0 index 1
  iapply (step_wait_ar m K c (0 : Fin 4) (1 : Fin 7) (dst := ((Memref.whole cc0_stg1_0).slice (Rect.unit (s := S4x32x8x128) (k0_off7 c) S1x32x1x128.size (k0_off7_inb c)) (fun _ => rfl))) rfl) $$ [Hcr53 Hpos53 HO]
  · isplitr; · iexact HR
    isplitr; · iexact HL
    isplitl [Hcr53]; · iexact Hcr53
    isplitl [Hpos53]; · iexact Hpos53
    iexact HO
  iintro ⟨⟨%W29, HO⟩, Hsv53, HhR0_1⟩
  -- wait gs batch 0 index 2
  iapply (step_wait_as m K c (0 : Fin 4) (2 : Fin 7) (dst := ((Memref.whole cc0_stg1_0).slice (Rect.unit (s := S4x32x8x128) (k0_off7 c) S1x32x1x128.size (k0_off7_inb c)) (fun _ => rfl))) rfl) $$ [Hcr26 Hpos26 HO]
  · isplitr; · iexact HR
    isplitr; · iexact HL
    isplitl [Hcr26]; · iexact Hcr26
    isplitl [Hpos26]; · iexact Hpos26
    iexact HO
  iintro ⟨⟨%W30, HO⟩, Hsv26, HhS0_2⟩
  -- part 37
  rw [k0_part37_eq_skeleton]; unfold k0_part37_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 0 2 (by decide) (by decide), sem_as 0 3 (by decide) (by decide), sem_ar 0 3 (by decide) (by decide)]
  -- wait gr batch 0 index 2
  iapply (step_wait_ar m K c (0 : Fin 4) (2 : Fin 7) (dst := ((Memref.whole cc0_stg1_0).slice (Rect.unit (s := S4x32x8x128) (k0_off7 c) S1x32x1x128.size (k0_off7_inb c)) (fun _ => rfl))) rfl) $$ [Hcr54 Hpos54 HO]
  · isplitr; · iexact HR
    isplitr; · iexact HL
    isplitl [Hcr54]; · iexact Hcr54
    isplitl [Hpos54]; · iexact Hpos54
    iexact HO
  iintro ⟨⟨%W31, HO⟩, Hsv54, HhR0_2⟩
  -- wait gs batch 0 index 3
  iapply (step_wait_as m K c (0 : Fin 4) (3 : Fin 7) (dst := ((Memref.whole cc0_stg1_0).slice (Rect.unit (s := S4x32x8x128) (k0_off7 c) S1x32x1x128.size (k0_off7_inb c)) (fun _ => rfl))) rfl) $$ [Hcr27 Hpos27 HO]
  · isplitr; · iexact HR
    isplitr; · iexact HL
    isplitl [Hcr27]; · iexact Hcr27
    isplitl [Hpos27]; · iexact Hpos27
    iexact HO
  iintro ⟨⟨%W32, HO⟩, Hsv27, HhS0_3⟩
  -- wait gr batch 0 index 3
  iapply (step_wait_ar m K c (0 : Fin 4) (3 : Fin 7) (dst := ((Memref.whole cc0_stg1_0).slice (Rect.unit (s := S4x32x8x128) (k0_off7 c) S1x32x1x128.size (k0_off7_inb c)) (fun _ => rfl))) rfl) $$ [Hcr55 Hpos55 HO]
  · isplitr; · iexact HR
    isplitr; · iexact HL
    isplitl [Hcr55]; · iexact Hcr55
    isplitl [Hpos55]; · iexact Hpos55
    iexact HO
  iintro ⟨⟨%W33, HO⟩, Hsv55, HhR0_3⟩
  -- part 38
  rw [k0_part38_eq_skeleton]; unfold k0_part38_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 0 4 (by decide) (by decide), sem_ar 0 4 (by decide) (by decide), sem_as 0 5 (by decide) (by decide)]
  -- wait gs batch 0 index 4
  iapply (step_wait_as m K c (0 : Fin 4) (4 : Fin 7) (dst := ((Memref.whole cc0_stg1_0).slice (Rect.unit (s := S4x32x8x128) (k0_off7 c) S1x32x1x128.size (k0_off7_inb c)) (fun _ => rfl))) rfl) $$ [Hcr28 Hpos28 HO]
  · isplitr; · iexact HR
    isplitr; · iexact HL
    isplitl [Hcr28]; · iexact Hcr28
    isplitl [Hpos28]; · iexact Hpos28
    iexact HO
  iintro ⟨⟨%W34, HO⟩, Hsv28, HhS0_4⟩
  -- wait gr batch 0 index 4
  iapply (step_wait_ar m K c (0 : Fin 4) (4 : Fin 7) (dst := ((Memref.whole cc0_stg1_0).slice (Rect.unit (s := S4x32x8x128) (k0_off7 c) S1x32x1x128.size (k0_off7_inb c)) (fun _ => rfl))) rfl) $$ [Hcr56 Hpos56 HO]
  · isplitr; · iexact HR
    isplitr; · iexact HL
    isplitl [Hcr56]; · iexact Hcr56
    isplitl [Hpos56]; · iexact Hpos56
    iexact HO
  iintro ⟨⟨%W35, HO⟩, Hsv56, HhR0_4⟩
  -- wait gs batch 0 index 5
  iapply (step_wait_as m K c (0 : Fin 4) (5 : Fin 7) (dst := ((Memref.whole cc0_stg1_0).slice (Rect.unit (s := S4x32x8x128) (k0_off7 c) S1x32x1x128.size (k0_off7_inb c)) (fun _ => rfl))) rfl) $$ [Hcr29 Hpos29 HO]
  · isplitr; · iexact HR
    isplitr; · iexact HL
    isplitl [Hcr29]; · iexact Hcr29
    isplitl [Hpos29]; · iexact Hpos29
    iexact HO
  iintro ⟨⟨%W36, HO⟩, Hsv29, HhS0_5⟩
  -- part 39
  rw [k0_part39_eq_skeleton]; unfold k0_part39_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 0 5 (by decide) (by decide), sem_as 0 6 (by decide) (by decide), sem_ar 0 6 (by decide) (by decide)]
  -- wait gr batch 0 index 5
  iapply (step_wait_ar m K c (0 : Fin 4) (5 : Fin 7) (dst := ((Memref.whole cc0_stg1_0).slice (Rect.unit (s := S4x32x8x128) (k0_off7 c) S1x32x1x128.size (k0_off7_inb c)) (fun _ => rfl))) rfl) $$ [Hcr57 Hpos57 HO]
  · isplitr; · iexact HR
    isplitr; · iexact HL
    isplitl [Hcr57]; · iexact Hcr57
    isplitl [Hpos57]; · iexact Hpos57
    iexact HO
  iintro ⟨⟨%W37, HO⟩, Hsv57, HhR0_5⟩
  -- wait gs batch 0 index 6
  iapply (step_wait_as m K c (0 : Fin 4) (6 : Fin 7) (dst := ((Memref.whole cc0_stg1_0).slice (Rect.unit (s := S4x32x8x128) (k0_off7 c) S1x32x1x128.size (k0_off7_inb c)) (fun _ => rfl))) rfl) $$ [Hcr30 Hpos30 HO]
  · isplitr; · iexact HR
    isplitr; · iexact HL
    isplitl [Hcr30]; · iexact Hcr30
    isplitl [Hpos30]; · iexact Hpos30
    iexact HO
  iintro ⟨⟨%W38, HO⟩, Hsv30, HhS0_6⟩
  -- wait gr batch 0 index 6
  iapply (step_wait_ar m K c (0 : Fin 4) (6 : Fin 7) (dst := ((Memref.whole cc0_stg1_0).slice (Rect.unit (s := S4x32x8x128) (k0_off7 c) S1x32x1x128.size (k0_off7_inb c)) (fun _ => rfl))) rfl) $$ [Hcr58 Hpos58 HO]
  · isplitr; · iexact HR
    isplitr; · iexact HL
    isplitl [Hcr58]; · iexact Hcr58
    isplitl [Hpos58]; · iexact Hpos58
    iexact HO
  iintro ⟨⟨%W39, HO⟩, Hsv58, HhR0_6⟩
  -- part 40
  rw [k0_part40_eq_skeleton]; unfold k0_part40_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 0 (by decide) (by decide), sem_ar 1 0 (by decide) (by decide), sem_as 1 1 (by decide) (by decide)]
  -- wait gs batch 1 index 0
  iapply (step_wait_as m K c (1 : Fin 4) (0 : Fin 7) (dst := ((Memref.whole cc0_stg1_0).slice (Rect.unit (s := S4x32x8x128) (k0_off9 c) S1x32x1x128.size (k0_off9_inb c)) (fun _ => rfl))) rfl) $$ [Hcr31 Hpos31 HO]
  · isplitr; · iexact HR
    isplitr; · iexact HL
    isplitl [Hcr31]; · iexact Hcr31
    isplitl [Hpos31]; · iexact Hpos31
    iexact HO
  iintro ⟨⟨%W40, HO⟩, Hsv31, HhS1_0⟩
  -- wait gr batch 1 index 0
  iapply (step_wait_ar m K c (1 : Fin 4) (0 : Fin 7) (dst := ((Memref.whole cc0_stg1_0).slice (Rect.unit (s := S4x32x8x128) (k0_off9 c) S1x32x1x128.size (k0_off9_inb c)) (fun _ => rfl))) rfl) $$ [Hcr59 Hpos59 HO]
  · isplitr; · iexact HR
    isplitr; · iexact HL
    isplitl [Hcr59]; · iexact Hcr59
    isplitl [Hpos59]; · iexact Hpos59
    iexact HO
  iintro ⟨⟨%W41, HO⟩, Hsv59, HhR1_0⟩
  -- wait gs batch 1 index 1
  iapply (step_wait_as m K c (1 : Fin 4) (1 : Fin 7) (dst := ((Memref.whole cc0_stg1_0).slice (Rect.unit (s := S4x32x8x128) (k0_off9 c) S1x32x1x128.size (k0_off9_inb c)) (fun _ => rfl))) rfl) $$ [Hcr32 Hpos32 HO]
  · isplitr; · iexact HR
    isplitr; · iexact HL
    isplitl [Hcr32]; · iexact Hcr32
    isplitl [Hpos32]; · iexact Hpos32
    iexact HO
  iintro ⟨⟨%W42, HO⟩, Hsv32, HhS1_1⟩
  -- part 41
  rw [k0_part41_eq_skeleton]; unfold k0_part41_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 1 1 (by decide) (by decide), sem_as 1 2 (by decide) (by decide), sem_ar 1 2 (by decide) (by decide)]
  -- wait gr batch 1 index 1
  iapply (step_wait_ar m K c (1 : Fin 4) (1 : Fin 7) (dst := ((Memref.whole cc0_stg1_0).slice (Rect.unit (s := S4x32x8x128) (k0_off9 c) S1x32x1x128.size (k0_off9_inb c)) (fun _ => rfl))) rfl) $$ [Hcr60 Hpos60 HO]
  · isplitr; · iexact HR
    isplitr; · iexact HL
    isplitl [Hcr60]; · iexact Hcr60
    isplitl [Hpos60]; · iexact Hpos60
    iexact HO
  iintro ⟨⟨%W43, HO⟩, Hsv60, HhR1_1⟩
  -- wait gs batch 1 index 2
  iapply (step_wait_as m K c (1 : Fin 4) (2 : Fin 7) (dst := ((Memref.whole cc0_stg1_0).slice (Rect.unit (s := S4x32x8x128) (k0_off9 c) S1x32x1x128.size (k0_off9_inb c)) (fun _ => rfl))) rfl) $$ [Hcr33 Hpos33 HO]
  · isplitr; · iexact HR
    isplitr; · iexact HL
    isplitl [Hcr33]; · iexact Hcr33
    isplitl [Hpos33]; · iexact Hpos33
    iexact HO
  iintro ⟨⟨%W44, HO⟩, Hsv33, HhS1_2⟩
  -- wait gr batch 1 index 2
  iapply (step_wait_ar m K c (1 : Fin 4) (2 : Fin 7) (dst := ((Memref.whole cc0_stg1_0).slice (Rect.unit (s := S4x32x8x128) (k0_off9 c) S1x32x1x128.size (k0_off9_inb c)) (fun _ => rfl))) rfl) $$ [Hcr61 Hpos61 HO]
  · isplitr; · iexact HR
    isplitr; · iexact HL
    isplitl [Hcr61]; · iexact Hcr61
    isplitl [Hpos61]; · iexact Hpos61
    iexact HO
  iintro ⟨⟨%W45, HO⟩, Hsv61, HhR1_2⟩
  -- part 42
  rw [k0_part42_eq_skeleton]; unfold k0_part42_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 3 (by decide) (by decide), sem_ar 1 3 (by decide) (by decide), sem_as 1 4 (by decide) (by decide)]
  -- wait gs batch 1 index 3
  iapply (step_wait_as m K c (1 : Fin 4) (3 : Fin 7) (dst := ((Memref.whole cc0_stg1_0).slice (Rect.unit (s := S4x32x8x128) (k0_off9 c) S1x32x1x128.size (k0_off9_inb c)) (fun _ => rfl))) rfl) $$ [Hcr34 Hpos34 HO]
  · isplitr; · iexact HR
    isplitr; · iexact HL
    isplitl [Hcr34]; · iexact Hcr34
    isplitl [Hpos34]; · iexact Hpos34
    iexact HO
  iintro ⟨⟨%W46, HO⟩, Hsv34, HhS1_3⟩
  -- wait gr batch 1 index 3
  iapply (step_wait_ar m K c (1 : Fin 4) (3 : Fin 7) (dst := ((Memref.whole cc0_stg1_0).slice (Rect.unit (s := S4x32x8x128) (k0_off9 c) S1x32x1x128.size (k0_off9_inb c)) (fun _ => rfl))) rfl) $$ [Hcr62 Hpos62 HO]
  · isplitr; · iexact HR
    isplitr; · iexact HL
    isplitl [Hcr62]; · iexact Hcr62
    isplitl [Hpos62]; · iexact Hpos62
    iexact HO
  iintro ⟨⟨%W47, HO⟩, Hsv62, HhR1_3⟩
  -- wait gs batch 1 index 4
  iapply (step_wait_as m K c (1 : Fin 4) (4 : Fin 7) (dst := ((Memref.whole cc0_stg1_0).slice (Rect.unit (s := S4x32x8x128) (k0_off9 c) S1x32x1x128.size (k0_off9_inb c)) (fun _ => rfl))) rfl) $$ [Hcr35 Hpos35 HO]
  · isplitr; · iexact HR
    isplitr; · iexact HL
    isplitl [Hcr35]; · iexact Hcr35
    isplitl [Hpos35]; · iexact Hpos35
    iexact HO
  iintro ⟨⟨%W48, HO⟩, Hsv35, HhS1_4⟩
  -- part 43
  rw [k0_part43_eq_skeleton]; unfold k0_part43_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 1 4 (by decide) (by decide), sem_as 1 5 (by decide) (by decide), sem_ar 1 5 (by decide) (by decide)]
  -- wait gr batch 1 index 4
  iapply (step_wait_ar m K c (1 : Fin 4) (4 : Fin 7) (dst := ((Memref.whole cc0_stg1_0).slice (Rect.unit (s := S4x32x8x128) (k0_off9 c) S1x32x1x128.size (k0_off9_inb c)) (fun _ => rfl))) rfl) $$ [Hcr63 Hpos63 HO]
  · isplitr; · iexact HR
    isplitr; · iexact HL
    isplitl [Hcr63]; · iexact Hcr63
    isplitl [Hpos63]; · iexact Hpos63
    iexact HO
  iintro ⟨⟨%W49, HO⟩, Hsv63, HhR1_4⟩
  -- wait gs batch 1 index 5
  iapply (step_wait_as m K c (1 : Fin 4) (5 : Fin 7) (dst := ((Memref.whole cc0_stg1_0).slice (Rect.unit (s := S4x32x8x128) (k0_off9 c) S1x32x1x128.size (k0_off9_inb c)) (fun _ => rfl))) rfl) $$ [Hcr36 Hpos36 HO]
  · isplitr; · iexact HR
    isplitr; · iexact HL
    isplitl [Hcr36]; · iexact Hcr36
    isplitl [Hpos36]; · iexact Hpos36
    iexact HO
  iintro ⟨⟨%W50, HO⟩, Hsv36, HhS1_5⟩
  -- wait gr batch 1 index 5
  iapply (step_wait_ar m K c (1 : Fin 4) (5 : Fin 7) (dst := ((Memref.whole cc0_stg1_0).slice (Rect.unit (s := S4x32x8x128) (k0_off9 c) S1x32x1x128.size (k0_off9_inb c)) (fun _ => rfl))) rfl) $$ [Hcr64 Hpos64 HO]
  · isplitr; · iexact HR
    isplitr; · iexact HL
    isplitl [Hcr64]; · iexact Hcr64
    isplitl [Hpos64]; · iexact Hpos64
    iexact HO
  iintro ⟨⟨%W51, HO⟩, Hsv64, HhR1_5⟩
  -- part 44
  rw [k0_part44_eq_skeleton]; unfold k0_part44_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 1 6 (by decide) (by decide), sem_ar 1 6 (by decide) (by decide), sem_as 2 0 (by decide) (by decide)]
  -- wait gs batch 1 index 6
  iapply (step_wait_as m K c (1 : Fin 4) (6 : Fin 7) (dst := ((Memref.whole cc0_stg1_0).slice (Rect.unit (s := S4x32x8x128) (k0_off9 c) S1x32x1x128.size (k0_off9_inb c)) (fun _ => rfl))) rfl) $$ [Hcr37 Hpos37 HO]
  · isplitr; · iexact HR
    isplitr; · iexact HL
    isplitl [Hcr37]; · iexact Hcr37
    isplitl [Hpos37]; · iexact Hpos37
    iexact HO
  iintro ⟨⟨%W52, HO⟩, Hsv37, HhS1_6⟩
  -- wait gr batch 1 index 6
  iapply (step_wait_ar m K c (1 : Fin 4) (6 : Fin 7) (dst := ((Memref.whole cc0_stg1_0).slice (Rect.unit (s := S4x32x8x128) (k0_off9 c) S1x32x1x128.size (k0_off9_inb c)) (fun _ => rfl))) rfl) $$ [Hcr65 Hpos65 HO]
  · isplitr; · iexact HR
    isplitr; · iexact HL
    isplitl [Hcr65]; · iexact Hcr65
    isplitl [Hpos65]; · iexact Hpos65
    iexact HO
  iintro ⟨⟨%W53, HO⟩, Hsv65, HhR1_6⟩
  -- wait gs batch 2 index 0
  iapply (step_wait_as m K c (2 : Fin 4) (0 : Fin 7) (dst := ((Memref.whole cc0_stg1_0).slice (Rect.unit (s := S4x32x8x128) (k0_off11 c) S1x32x1x128.size (k0_off11_inb c)) (fun _ => rfl))) rfl) $$ [Hcr38 Hpos38 HO]
  · isplitr; · iexact HR
    isplitr; · iexact HL
    isplitl [Hcr38]; · iexact Hcr38
    isplitl [Hpos38]; · iexact Hpos38
    iexact HO
  iintro ⟨⟨%W54, HO⟩, Hsv38, HhS2_0⟩
  -- part 45
  rw [k0_part45_eq_skeleton]; unfold k0_part45_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 0 (by decide) (by decide), sem_as 2 1 (by decide) (by decide)]
  -- wait gr batch 2 index 0
  iapply (step_wait_ar m K c (2 : Fin 4) (0 : Fin 7) (dst := ((Memref.whole cc0_stg1_0).slice (Rect.unit (s := S4x32x8x128) (k0_off11 c) S1x32x1x128.size (k0_off11_inb c)) (fun _ => rfl))) rfl) $$ [Hcr66 Hpos66 HO]
  · isplitr; · iexact HR
    isplitr; · iexact HL
    isplitl [Hcr66]; · iexact Hcr66
    isplitl [Hpos66]; · iexact Hpos66
    iexact HO
  iintro ⟨⟨%W55, HO⟩, Hsv66, HhR2_0⟩
  -- wait gs batch 2 index 1
  iapply (step_wait_as m K c (2 : Fin 4) (1 : Fin 7) (dst := ((Memref.whole cc0_stg1_0).slice (Rect.unit (s := S4x32x8x128) (k0_off11 c) S1x32x1x128.size (k0_off11_inb c)) (fun _ => rfl))) rfl) $$ [Hcr39 Hpos39 HO]
  · isplitr; · iexact HR
    isplitr; · iexact HL
    isplitl [Hcr39]; · iexact Hcr39
    isplitl [Hpos39]; · iexact Hpos39
    iexact HO
  iintro ⟨⟨%W56, HO⟩, Hsv39, HhS2_1⟩
  -- part 46
  rw [k0_part46_eq_skeleton]; unfold k0_part46_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 1 (by decide) (by decide), sem_as 2 2 (by decide) (by decide), sem_ar 2 2 (by decide) (by decide), sem_as 2 3 (by decide) (by decide)]
  -- wait gr batch 2 index 1
  iapply (step_wait_ar m K c (2 : Fin 4) (1 : Fin 7) (dst := ((Memref.whole cc0_stg1_0).slice (Rect.unit (s := S4x32x8x128) (k0_off11 c) S1x32x1x128.size (k0_off11_inb c)) (fun _ => rfl))) rfl) $$ [Hcr67 Hpos67 HO]
  · isplitr; · iexact HR
    isplitr; · iexact HL
    isplitl [Hcr67]; · iexact Hcr67
    isplitl [Hpos67]; · iexact Hpos67
    iexact HO
  iintro ⟨⟨%W57, HO⟩, Hsv67, HhR2_1⟩
  -- wait gs batch 2 index 2
  iapply (step_wait_as m K c (2 : Fin 4) (2 : Fin 7) (dst := ((Memref.whole cc0_stg1_0).slice (Rect.unit (s := S4x32x8x128) (k0_off11 c) S1x32x1x128.size (k0_off11_inb c)) (fun _ => rfl))) rfl) $$ [Hcr40 Hpos40 HO]
  · isplitr; · iexact HR
    isplitr; · iexact HL
    isplitl [Hcr40]; · iexact Hcr40
    isplitl [Hpos40]; · iexact Hpos40
    iexact HO
  iintro ⟨⟨%W58, HO⟩, Hsv40, HhS2_2⟩
  -- wait gr batch 2 index 2
  iapply (step_wait_ar m K c (2 : Fin 4) (2 : Fin 7) (dst := ((Memref.whole cc0_stg1_0).slice (Rect.unit (s := S4x32x8x128) (k0_off11 c) S1x32x1x128.size (k0_off11_inb c)) (fun _ => rfl))) rfl) $$ [Hcr68 Hpos68 HO]
  · isplitr; · iexact HR
    isplitr; · iexact HL
    isplitl [Hcr68]; · iexact Hcr68
    isplitl [Hpos68]; · iexact Hpos68
    iexact HO
  iintro ⟨⟨%W59, HO⟩, Hsv68, HhR2_2⟩
  -- wait gs batch 2 index 3
  iapply (step_wait_as m K c (2 : Fin 4) (3 : Fin 7) (dst := ((Memref.whole cc0_stg1_0).slice (Rect.unit (s := S4x32x8x128) (k0_off11 c) S1x32x1x128.size (k0_off11_inb c)) (fun _ => rfl))) rfl) $$ [Hcr41 Hpos41 HO]
  · isplitr; · iexact HR
    isplitr; · iexact HL
    isplitl [Hcr41]; · iexact Hcr41
    isplitl [Hpos41]; · iexact Hpos41
    iexact HO
  iintro ⟨⟨%W60, HO⟩, Hsv41, HhS2_3⟩
  -- part 47
  rw [k0_part47_eq_skeleton]; unfold k0_part47_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 3 (by decide) (by decide), sem_as 2 4 (by decide) (by decide)]
  -- wait gr batch 2 index 3
  iapply (step_wait_ar m K c (2 : Fin 4) (3 : Fin 7) (dst := ((Memref.whole cc0_stg1_0).slice (Rect.unit (s := S4x32x8x128) (k0_off11 c) S1x32x1x128.size (k0_off11_inb c)) (fun _ => rfl))) rfl) $$ [Hcr69 Hpos69 HO]
  · isplitr; · iexact HR
    isplitr; · iexact HL
    isplitl [Hcr69]; · iexact Hcr69
    isplitl [Hpos69]; · iexact Hpos69
    iexact HO
  iintro ⟨⟨%W61, HO⟩, Hsv69, HhR2_3⟩
  -- wait gs batch 2 index 4
  iapply (step_wait_as m K c (2 : Fin 4) (4 : Fin 7) (dst := ((Memref.whole cc0_stg1_0).slice (Rect.unit (s := S4x32x8x128) (k0_off11 c) S1x32x1x128.size (k0_off11_inb c)) (fun _ => rfl))) rfl) $$ [Hcr42 Hpos42 HO]
  · isplitr; · iexact HR
    isplitr; · iexact HL
    isplitl [Hcr42]; · iexact Hcr42
    isplitl [Hpos42]; · iexact Hpos42
    iexact HO
  iintro ⟨⟨%W62, HO⟩, Hsv42, HhS2_4⟩
  -- part 48
  rw [k0_part48_eq_skeleton]; unfold k0_part48_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 2 4 (by decide) (by decide), sem_as 2 5 (by decide) (by decide), sem_ar 2 5 (by decide) (by decide)]
  -- wait gr batch 2 index 4
  iapply (step_wait_ar m K c (2 : Fin 4) (4 : Fin 7) (dst := ((Memref.whole cc0_stg1_0).slice (Rect.unit (s := S4x32x8x128) (k0_off11 c) S1x32x1x128.size (k0_off11_inb c)) (fun _ => rfl))) rfl) $$ [Hcr70 Hpos70 HO]
  · isplitr; · iexact HR
    isplitr; · iexact HL
    isplitl [Hcr70]; · iexact Hcr70
    isplitl [Hpos70]; · iexact Hpos70
    iexact HO
  iintro ⟨⟨%W63, HO⟩, Hsv70, HhR2_4⟩
  -- wait gs batch 2 index 5
  iapply (step_wait_as m K c (2 : Fin 4) (5 : Fin 7) (dst := ((Memref.whole cc0_stg1_0).slice (Rect.unit (s := S4x32x8x128) (k0_off11 c) S1x32x1x128.size (k0_off11_inb c)) (fun _ => rfl))) rfl) $$ [Hcr43 Hpos43 HO]
  · isplitr; · iexact HR
    isplitr; · iexact HL
    isplitl [Hcr43]; · iexact Hcr43
    isplitl [Hpos43]; · iexact Hpos43
    iexact HO
  iintro ⟨⟨%W64, HO⟩, Hsv43, HhS2_5⟩
  -- wait gr batch 2 index 5
  iapply (step_wait_ar m K c (2 : Fin 4) (5 : Fin 7) (dst := ((Memref.whole cc0_stg1_0).slice (Rect.unit (s := S4x32x8x128) (k0_off11 c) S1x32x1x128.size (k0_off11_inb c)) (fun _ => rfl))) rfl) $$ [Hcr71 Hpos71 HO]
  · isplitr; · iexact HR
    isplitr; · iexact HL
    isplitl [Hcr71]; · iexact Hcr71
    isplitl [Hpos71]; · iexact Hpos71
    iexact HO
  iintro ⟨⟨%W65, HO⟩, Hsv71, HhR2_5⟩
  -- part 49
  rw [k0_part49_eq_skeleton]; unfold k0_part49_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 2 6 (by decide) (by decide), sem_ar 2 6 (by decide) (by decide), sem_as 3 0 (by decide) (by decide)]
  -- wait gs batch 2 index 6
  iapply (step_wait_as m K c (2 : Fin 4) (6 : Fin 7) (dst := ((Memref.whole cc0_stg1_0).slice (Rect.unit (s := S4x32x8x128) (k0_off11 c) S1x32x1x128.size (k0_off11_inb c)) (fun _ => rfl))) rfl) $$ [Hcr44 Hpos44 HO]
  · isplitr; · iexact HR
    isplitr; · iexact HL
    isplitl [Hcr44]; · iexact Hcr44
    isplitl [Hpos44]; · iexact Hpos44
    iexact HO
  iintro ⟨⟨%W66, HO⟩, Hsv44, HhS2_6⟩
  -- wait gr batch 2 index 6
  iapply (step_wait_ar m K c (2 : Fin 4) (6 : Fin 7) (dst := ((Memref.whole cc0_stg1_0).slice (Rect.unit (s := S4x32x8x128) (k0_off11 c) S1x32x1x128.size (k0_off11_inb c)) (fun _ => rfl))) rfl) $$ [Hcr72 Hpos72 HO]
  · isplitr; · iexact HR
    isplitr; · iexact HL
    isplitl [Hcr72]; · iexact Hcr72
    isplitl [Hpos72]; · iexact Hpos72
    iexact HO
  iintro ⟨⟨%W67, HO⟩, Hsv72, HhR2_6⟩
  -- wait gs batch 3 index 0
  iapply (step_wait_as m K c (3 : Fin 4) (0 : Fin 7) (dst := ((Memref.whole cc0_stg1_0).slice (Rect.unit (s := S4x32x8x128) (k0_off12 c) S1x32x1x128.size (k0_off12_inb c)) (fun _ => rfl))) rfl) $$ [Hcr45 Hpos45 HO]
  · isplitr; · iexact HR
    isplitr; · iexact HL
    isplitl [Hcr45]; · iexact Hcr45
    isplitl [Hpos45]; · iexact Hpos45
    iexact HO
  iintro ⟨⟨%W68, HO⟩, Hsv45, HhS3_0⟩
  -- part 50
  rw [k0_part50_eq_skeleton]; unfold k0_part50_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 3 0 (by decide) (by decide), sem_as 3 1 (by decide) (by decide), sem_ar 3 1 (by decide) (by decide)]
  -- wait gr batch 3 index 0
  iapply (step_wait_ar m K c (3 : Fin 4) (0 : Fin 7) (dst := ((Memref.whole cc0_stg1_0).slice (Rect.unit (s := S4x32x8x128) (k0_off12 c) S1x32x1x128.size (k0_off12_inb c)) (fun _ => rfl))) rfl) $$ [Hcr73 Hpos73 HO]
  · isplitr; · iexact HR
    isplitr; · iexact HL
    isplitl [Hcr73]; · iexact Hcr73
    isplitl [Hpos73]; · iexact Hpos73
    iexact HO
  iintro ⟨⟨%W69, HO⟩, Hsv73, HhR3_0⟩
  -- wait gs batch 3 index 1
  iapply (step_wait_as m K c (3 : Fin 4) (1 : Fin 7) (dst := ((Memref.whole cc0_stg1_0).slice (Rect.unit (s := S4x32x8x128) (k0_off12 c) S1x32x1x128.size (k0_off12_inb c)) (fun _ => rfl))) rfl) $$ [Hcr46 Hpos46 HO]
  · isplitr; · iexact HR
    isplitr; · iexact HL
    isplitl [Hcr46]; · iexact Hcr46
    isplitl [Hpos46]; · iexact Hpos46
    iexact HO
  iintro ⟨⟨%W70, HO⟩, Hsv46, HhS3_1⟩
  -- wait gr batch 3 index 1
  iapply (step_wait_ar m K c (3 : Fin 4) (1 : Fin 7) (dst := ((Memref.whole cc0_stg1_0).slice (Rect.unit (s := S4x32x8x128) (k0_off12 c) S1x32x1x128.size (k0_off12_inb c)) (fun _ => rfl))) rfl) $$ [Hcr74 Hpos74 HO]
  · isplitr; · iexact HR
    isplitr; · iexact HL
    isplitl [Hcr74]; · iexact Hcr74
    isplitl [Hpos74]; · iexact Hpos74
    iexact HO
  iintro ⟨⟨%W71, HO⟩, Hsv74, HhR3_1⟩
  -- part 51
  rw [k0_part51_eq_skeleton]; unfold k0_part51_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 2 (by decide) (by decide), sem_ar 3 2 (by decide) (by decide), sem_as 3 3 (by decide) (by decide)]
  -- wait gs batch 3 index 2
  iapply (step_wait_as m K c (3 : Fin 4) (2 : Fin 7) (dst := ((Memref.whole cc0_stg1_0).slice (Rect.unit (s := S4x32x8x128) (k0_off12 c) S1x32x1x128.size (k0_off12_inb c)) (fun _ => rfl))) rfl) $$ [Hcr47 Hpos47 HO]
  · isplitr; · iexact HR
    isplitr; · iexact HL
    isplitl [Hcr47]; · iexact Hcr47
    isplitl [Hpos47]; · iexact Hpos47
    iexact HO
  iintro ⟨⟨%W72, HO⟩, Hsv47, HhS3_2⟩
  -- wait gr batch 3 index 2
  iapply (step_wait_ar m K c (3 : Fin 4) (2 : Fin 7) (dst := ((Memref.whole cc0_stg1_0).slice (Rect.unit (s := S4x32x8x128) (k0_off12 c) S1x32x1x128.size (k0_off12_inb c)) (fun _ => rfl))) rfl) $$ [Hcr75 Hpos75 HO]
  · isplitr; · iexact HR
    isplitr; · iexact HL
    isplitl [Hcr75]; · iexact Hcr75
    isplitl [Hpos75]; · iexact Hpos75
    iexact HO
  iintro ⟨⟨%W73, HO⟩, Hsv75, HhR3_2⟩
  -- wait gs batch 3 index 3
  iapply (step_wait_as m K c (3 : Fin 4) (3 : Fin 7) (dst := ((Memref.whole cc0_stg1_0).slice (Rect.unit (s := S4x32x8x128) (k0_off12 c) S1x32x1x128.size (k0_off12_inb c)) (fun _ => rfl))) rfl) $$ [Hcr48 Hpos48 HO]
  · isplitr; · iexact HR
    isplitr; · iexact HL
    isplitl [Hcr48]; · iexact Hcr48
    isplitl [Hpos48]; · iexact Hpos48
    iexact HO
  iintro ⟨⟨%W74, HO⟩, Hsv48, HhS3_3⟩
  -- part 52
  rw [k0_part52_eq_skeleton]; unfold k0_part52_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_ar 3 3 (by decide) (by decide), sem_as 3 4 (by decide) (by decide), sem_ar 3 4 (by decide) (by decide)]
  -- wait gr batch 3 index 3
  iapply (step_wait_ar m K c (3 : Fin 4) (3 : Fin 7) (dst := ((Memref.whole cc0_stg1_0).slice (Rect.unit (s := S4x32x8x128) (k0_off12 c) S1x32x1x128.size (k0_off12_inb c)) (fun _ => rfl))) rfl) $$ [Hcr76 Hpos76 HO]
  · isplitr; · iexact HR
    isplitr; · iexact HL
    isplitl [Hcr76]; · iexact Hcr76
    isplitl [Hpos76]; · iexact Hpos76
    iexact HO
  iintro ⟨⟨%W75, HO⟩, Hsv76, HhR3_3⟩
  -- wait gs batch 3 index 4
  iapply (step_wait_as m K c (3 : Fin 4) (4 : Fin 7) (dst := ((Memref.whole cc0_stg1_0).slice (Rect.unit (s := S4x32x8x128) (k0_off12 c) S1x32x1x128.size (k0_off12_inb c)) (fun _ => rfl))) rfl) $$ [Hcr49 Hpos49 HO]
  · isplitr; · iexact HR
    isplitr; · iexact HL
    isplitl [Hcr49]; · iexact Hcr49
    isplitl [Hpos49]; · iexact Hpos49
    iexact HO
  iintro ⟨⟨%W76, HO⟩, Hsv49, HhS3_4⟩
  -- wait gr batch 3 index 4
  iapply (step_wait_ar m K c (3 : Fin 4) (4 : Fin 7) (dst := ((Memref.whole cc0_stg1_0).slice (Rect.unit (s := S4x32x8x128) (k0_off12 c) S1x32x1x128.size (k0_off12_inb c)) (fun _ => rfl))) rfl) $$ [Hcr77 Hpos77 HO]
  · isplitr; · iexact HR
    isplitr; · iexact HL
    isplitl [Hcr77]; · iexact Hcr77
    isplitl [Hpos77]; · iexact Hpos77
    iexact HO
  iintro ⟨⟨%W77, HO⟩, Hsv77, HhR3_4⟩
  -- part 53
  rw [k0_part53_eq_skeleton]; unfold k0_part53_skel
  simp only [Prog.lift, Prog.bind_op, Prog.bind_ret, Prog.pure_eq_ret, wp_ret, wp_deviceId, semSignalWord, semWaitWord]
  (try imodintro)
  -- (the printed offsets and device chains stay as printed: the step lemmas take them with their equations)
  simp only [sem_as 3 5 (by decide) (by decide), sem_ar 3 5 (by decide) (by decide), sem_as 3 6 (by decide) (by decide)]
  -- wait gs batch 3 index 5
  iapply (step_wait_as m K c (3 : Fin 4) (5 : Fin 7) (dst := ((Memref.whole cc0_stg1_0).slice (Rect.unit (s := S4x32x8x128) (k0_off12 c) S1x32x1x128.size (k0_off12_inb c)) (fun _ => rfl))) rfl) $$ [Hcr50 Hpos50 HO]
  · isplitr; · iexact HR
    isplitr; · iexact HL
    isplitl [Hcr50]; · iexact Hcr50
    isplitl [Hpos50]; · iexact Hpos50
    iexact HO
  iintro ⟨⟨%W78, HO⟩, Hsv50, HhS3_5⟩
  -- wait gr batch 3 index 5
  iapply (step_wait_ar m K c (3 : Fin 4) (5 : Fin 7) (dst := ((Memref.whole cc0_stg1_0).slice (Rect.unit (s := S4x32x8x128) (k0_off12 c) S1x32x1x128.size (k0_off12_inb c)) (fun _ => rfl))) rfl) $$ [Hcr78 Hpos78 HO]
  · isplitr; · iexact HR
    isplitr; · iexact HL
    isplitl [Hcr78]; · iexact Hcr78
    isplitl [Hpos78]; · iexact Hpos78
    iexact HO
  iintro ⟨⟨%W79, HO⟩, Hsv78, HhR3_5⟩
  -- wait gs batch 3 index 6
  iapply (step_wait_as m K c (3 : Fin 4) (6 : Fin 7) (dst := ((Memref.whole cc0_stg1_0).slice (Rect.unit (s := S4x32x8x128) (k0_off12 c) S1x32x1x128.size (k0_off12_inb c)) (fun _ => rfl))) rfl) $$ [Hcr51 Hpos51 HO]
  · isplitr; · iexact HR
    isplitr; · iexact HL
    isplitl [Hcr51]; · iexact Hcr51
    isplitl [Hpos51]; · iexact Hpos51
    iexact HO
  iintro ⟨⟨%W80, HO⟩, Hsv51, HhS3_6⟩
  -- the last wait and the return
  simp only [Prog.lift, Prog.bind_op, Prog.bind_ret, Prog.pure_eq_ret, wp_ret, wp_deviceId, semSignalWord, semWaitWord]
  (try imodintro)
  (try imodintro)
  -- (the printed offsets and device chains stay as printed: the step lemmas take them with their equations)
  (try simp only [sem_ar 3 6 (by decide) (by decide)])
  -- wait gr batch 3 index 6
  iapply (step_wait_ar m K c (3 : Fin 4) (6 : Fin 7) (dst := ((Memref.whole cc0_stg1_0).slice (Rect.unit (s := S4x32x8x128) (k0_off12 c) S1x32x1x128.size (k0_off12_inb c)) (fun _ => rfl))) rfl) $$ [Hcr79 Hpos79 HO]
  · isplitr; · iexact HR
    isplitr; · iexact HL
    isplitl [Hcr79]; · iexact Hcr79
    isplitl [Hpos79]; · iexact Hpos79
    iexact HO
  iintro ⟨⟨%W81, HO⟩, Hsv79, HhR3_6⟩
  (try simp only [wp_ret])
  (try imodintro)
  (try imodintro)
  iapply Hk
  isplitl [HO]; · (iexists _; iexact HO)
  isplitl [Hsv0]; · iexact Hsv0
  isplitl [Hsv1]; · iexact Hsv1
  isplitl [Hsv2]; · iexact Hsv2
  isplitl [Hsv3]; · iexact Hsv3
  isplitl [Hsv4]; · iexact Hsv4
  isplitl [Hsv5]; · iexact Hsv5
  isplitl [Hsv6]; · iexact Hsv6
  isplitl [Hsv7]; · iexact Hsv7
  isplitl [Hsv8]; · iexact Hsv8
  isplitl [Hsv9]; · iexact Hsv9
  isplitl [Hsv10]; · iexact Hsv10
  isplitl [Hsv11]; · iexact Hsv11
  isplitl [Hsv12]; · iexact Hsv12
  isplitl [Hsv13]; · iexact Hsv13
  isplitl [Hsv14]; · iexact Hsv14
  isplitl [Hsv15]; · iexact Hsv15
  isplitl [Hsv16]; · iexact Hsv16
  isplitl [Hsv17]; · iexact Hsv17
  isplitl [Hsv18]; · iexact Hsv18
  isplitl [Hsv19]; · iexact Hsv19
  isplitl [Hsv20]; · iexact Hsv20
  isplitl [Hsv21]; · iexact Hsv21
  isplitl [Hsv22]; · iexact Hsv22
  isplitl [Hsv23]; · iexact Hsv23
  isplitl [Hsv24]; · iexact Hsv24
  isplitl [Hsv25]; · iexact Hsv25
  isplitl [Hsv26]; · iexact Hsv26
  isplitl [Hsv27]; · iexact Hsv27
  isplitl [Hsv28]; · iexact Hsv28
  isplitl [Hsv29]; · iexact Hsv29
  isplitl [Hsv30]; · iexact Hsv30
  isplitl [Hsv31]; · iexact Hsv31
  isplitl [Hsv32]; · iexact Hsv32
  isplitl [Hsv33]; · iexact Hsv33
  isplitl [Hsv34]; · iexact Hsv34
  isplitl [Hsv35]; · iexact Hsv35
  isplitl [Hsv36]; · iexact Hsv36
  isplitl [Hsv37]; · iexact Hsv37
  isplitl [Hsv38]; · iexact Hsv38
  isplitl [Hsv39]; · iexact Hsv39
  isplitl [Hsv40]; · iexact Hsv40
  isplitl [Hsv41]; · iexact Hsv41
  isplitl [Hsv42]; · iexact Hsv42
  isplitl [Hsv43]; · iexact Hsv43
  isplitl [Hsv44]; · iexact Hsv44
  isplitl [Hsv45]; · iexact Hsv45
  isplitl [Hsv46]; · iexact Hsv46
  isplitl [Hsv47]; · iexact Hsv47
  isplitl [Hsv48]; · iexact Hsv48
  isplitl [Hsv49]; · iexact Hsv49
  isplitl [Hsv50]; · iexact Hsv50
  isplitl [Hsv51]; · iexact Hsv51
  isplitl [Hsv52]; · iexact Hsv52
  isplitl [Hsv53]; · iexact Hsv53
  isplitl [Hsv54]; · iexact Hsv54
  isplitl [Hsv55]; · iexact Hsv55
  isplitl [Hsv56]; · iexact Hsv56
  isplitl [Hsv57]; · iexact Hsv57
  isplitl [Hsv58]; · iexact Hsv58
  isplitl [Hsv59]; · iexact Hsv59
  isplitl [Hsv60]; · iexact Hsv60
  isplitl [Hsv61]; · iexact Hsv61
  isplitl [Hsv62]; · iexact Hsv62
  isplitl [Hsv63]; · iexact Hsv63
  isplitl [Hsv64]; · iexact Hsv64
  isplitl [Hsv65]; · iexact Hsv65
  isplitl [Hsv66]; · iexact Hsv66
  isplitl [Hsv67]; · iexact Hsv67
  isplitl [Hsv68]; · iexact Hsv68
  isplitl [Hsv69]; · iexact Hsv69
  isplitl [Hsv70]; · iexact Hsv70
  isplitl [Hsv71]; · iexact Hsv71
  isplitl [Hsv72]; · iexact Hsv72
  isplitl [Hsv73]; · iexact Hsv73
  isplitl [Hsv74]; · iexact Hsv74
  isplitl [Hsv75]; · iexact Hsv75
  isplitl [Hsv76]; · iexact Hsv76
  isplitl [Hsv77]; · iexact Hsv77
  isplitl [Hsv78]; · iexact Hsv78
  isplitl [Hsv79]; · iexact Hsv79
  isplitl [HQ]; · iexact HQ
  isplitl [HkS0]; · iexact HkS0
  isplitl [HkS1]; · iexact HkS1
  isplitl [HkS2]; · iexact HkS2
  isplitl [HkS3]; · iexact HkS3
  isplitl [HvS0]; · iexact HvS0
  isplitl [HvS1]; · iexact HvS1
  isplitl [HvS2]; · iexact HvS2
  isplitl [HvS3]; · iexact HvS3
  isplitl [HkD0]; · iexact HkD0
  isplitl [HkD1]; · iexact HkD1
  isplitl [HkD2]; · iexact HkD2
  isplitl [HkD3]; · iexact HkD3
  isplitl [HvD0]; · iexact HvD0
  isplitl [HvD1]; · iexact HvD1
  isplitl [HvD2]; · iexact HvD2
  isplitl [HvD3]; · iexact HvD3
  isplitl [Ho0]; · iexact Ho0
  isplitl [Ho1]; · iexact Ho1
  isplitl [Ho2]; · iexact Ho2
  isplitl [Ho3]; · iexact Ho3
  isplitl [Hl0]; · iexact Hl0
  isplitl [Hl1]; · iexact Hl1
  isplitl [Hl2]; · iexact Hl2
  isplitl [Hl3]; · iexact Hl3
  isplitl [Hpo0]; · iexact Hpo0
  isplitl [Hpo1]; · iexact Hpo1
  isplitl [Hpo2]; · iexact Hpo2
  isplitl [Hpo3]; · iexact Hpo3
  isplitl [Hpl0]; · iexact Hpl0
  isplitl [Hpl1]; · iexact Hpl1
  isplitl [Hpl2]; · iexact Hpl2
  isplitl [Hpl3]; · iexact Hpl3
  isplitl [HhRem0]; · iexact HhRem0
  isplitl [HhRem1]; · iexact HhRem1
  isplitl [HhRem2]; · iexact HhRem2
  isplitl [HhRem3]; · iexact HhRem3
  isplitl [HhS0_0]; · iexact HhS0_0
  isplitl [HhS0_1]; · iexact HhS0_1
  isplitl [HhS0_2]; · iexact HhS0_2
  isplitl [HhS0_3]; · iexact HhS0_3
  isplitl [HhS0_4]; · iexact HhS0_4
  isplitl [HhS0_5]; · iexact HhS0_5
  isplitl [HhS0_6]; · iexact HhS0_6
  isplitl [HhS1_0]; · iexact HhS1_0
  isplitl [HhS1_1]; · iexact HhS1_1
  isplitl [HhS1_2]; · iexact HhS1_2
  isplitl [HhS1_3]; · iexact HhS1_3
  isplitl [HhS1_4]; · iexact HhS1_4
  isplitl [HhS1_5]; · iexact HhS1_5
  isplitl [HhS1_6]; · iexact HhS1_6
  isplitl [HhS2_0]; · iexact HhS2_0
  isplitl [HhS2_1]; · iexact HhS2_1
  isplitl [HhS2_2]; · iexact HhS2_2
  isplitl [HhS2_3]; · iexact HhS2_3
  isplitl [HhS2_4]; · iexact HhS2_4
  isplitl [HhS2_5]; · iexact HhS2_5
  isplitl [HhS2_6]; · iexact HhS2_6
  isplitl [HhS3_0]; · iexact HhS3_0
  isplitl [HhS3_1]; · iexact HhS3_1
  isplitl [HhS3_2]; · iexact HhS3_2
  isplitl [HhS3_3]; · iexact HhS3_3
  isplitl [HhS3_4]; · iexact HhS3_4
  isplitl [HhS3_5]; · iexact HhS3_5
  isplitl [HhS3_6]; · iexact HhS3_6
  isplitl [HhR0_0]; · iexact HhR0_0
  isplitl [HhR0_1]; · iexact HhR0_1
  isplitl [HhR0_2]; · iexact HhR0_2
  isplitl [HhR0_3]; · iexact HhR0_3
  isplitl [HhR0_4]; · iexact HhR0_4
  isplitl [HhR0_5]; · iexact HhR0_5
  isplitl [HhR0_6]; · iexact HhR0_6
  isplitl [HhR1_0]; · iexact HhR1_0
  isplitl [HhR1_1]; · iexact HhR1_1
  isplitl [HhR1_2]; · iexact HhR1_2
  isplitl [HhR1_3]; · iexact HhR1_3
  isplitl [HhR1_4]; · iexact HhR1_4
  isplitl [HhR1_5]; · iexact HhR1_5
  isplitl [HhR1_6]; · iexact HhR1_6
  isplitl [HhR2_0]; · iexact HhR2_0
  isplitl [HhR2_1]; · iexact HhR2_1
  isplitl [HhR2_2]; · iexact HhR2_2
  isplitl [HhR2_3]; · iexact HhR2_3
  isplitl [HhR2_4]; · iexact HhR2_4
  isplitl [HhR2_5]; · iexact HhR2_5
  isplitl [HhR2_6]; · iexact HhR2_6
  isplitl [HhR3_0]; · iexact HhR3_0
  isplitl [HhR3_1]; · iexact HhR3_1
  isplitl [HhR3_2]; · iexact HhR3_2
  isplitl [HhR3_3]; · iexact HhR3_3
  isplitl [HhR3_4]; · iexact HhR3_4
  isplitl [HhR3_5]; · iexact HhR3_5
  iexact HhR3_6

end Cert.Kernel.Flash

end
-- ==== Proof.Word.Body.lean ====
/-
  One device's body, from what the launch hands it to what the launch asks back: the launch's holdings are taken
  apart into the resources the body's steps name, the steps run in program order, and the pieces are put back
  together at the return.
-/
import proofs.«900786_g7700000000000787_dist_flashdec_v7x_xyz2x2x4_x_b4_sq32_skv4096_h8_d128_f32_1_alg».proof.Proof.Word.BodyGlue
import proofs.«900786_g7700000000000787_dist_flashdec_v7x_xyz2x2x4_x_b4_sq32_skv4096_h8_d128_f32_1_alg».proof.Proof.Word.Chain

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
set_option maxRecDepth 8000 in
/-- The steps in program order, between the two ends' names for the resources. -/
theorem chain_named (m : (ℓ : Loc nD τ sig) → Buf (Elt F) ℓ) (K : Dev nD × Option (Fin 80) → ℕ) (c : Dev nD) (W : Waits sig Unit)
    (Kt : PUnit → sProp 𝕄) :
    initChain m K c W ⊢ iprop((finalChain m c -∗ Kt ⟨⟩)
      -∗ wp frame (wpE (defs₀ (F := F)) 𝒱₀ (c : Thread nD τ) none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  unfold initChain finalChain
  exact chain m K c W Kt

/-- The body, from the launch's precondition to its postcondition. -/
theorem sound_body (m : (ℓ : Loc nD τ sig) → Buf (Elt F) ℓ) (K : Dev nD × Option (Fin 80) → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt := by
  iintro ⟨Hpre, Hk⟩
  ihave H := (body_in m K c) $$ Hpre
  icases H with ⟨%W, Hinit, Hr1, Hr2⟩
  iapply (chain_named m K c W Kt) $$ Hinit
  iintro Hfin
  iapply Hk
  iapply (body_out m c)
  isplitl [Hfin]; · iexact Hfin
  isplitl [Hr1]; · iexact Hr1
  iexact Hr2

/-- info: 'Cert.Kernel.Flash.sound_body' depends on axioms: [propext, Classical.choice, Quot.sound] -/
#guard_msgs in #print axioms sound_body

end Cert.Kernel.Flash

end
-- ==== Proof.Word.Launch.lean ====
/-
  The launch: from a proof of one device's body to the run of the whole mesh.

  Every device's body is proved once, at a symbolic device, from the invariant before the one grid point —
  the ghost state of the protocol at the names the launch allocated, the device's credit tokens, the level
  facts, its key and value blocks as launched and its scratch buffers — to the invariant after it: the key and
  value blocks as they were, its eighty semaphores back at zero, the scratch buffers at something, the staged
  query array as it was and the result buffer at the merged blocks of all eight heads. The launch sorts what
  each device holds at kernel entry into that invariant (the launch credit is what all the others owe its
  cells; the two staging semaphores may be waited at any time, their level being the lowest), runs the
  pipeline of one point around the body, and reads the final arrays back: the query array is an input and
  never written; the result array's one block is the whole array, written once with what the body left in
  the staging buffer; the key and value blocks are read off their points-to against the final memory.
-/
import proofs.«900786_g7700000000000787_dist_flashdec_v7x_xyz2x2x4_x_b4_sq32_skv4096_h8_d128_f32_1_alg».proof.Proof.Word.BodyDefs
import proofs.«900786_g7700000000000787_dist_flashdec_v7x_xyz2x2x4_x_b4_sq32_skv4096_h8_d128_f32_1_alg».proof.Proof.Word.Ghost
import proofs.«900786_g7700000000000787_dist_flashdec_v7x_xyz2x2x4_x_b4_sq32_skv4096_h8_d128_f32_1_alg».proof.Proof.Word.Levels
import proofs.«900786_g7700000000000787_dist_flashdec_v7x_xyz2x2x4_x_b4_sq32_skv4096_h8_d128_f32_1_alg».proof.Proof.Word.Body

noncomputable section

namespace Cert.Kernel.Flash

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The body obligation -/

/-- What the pipeline hands the body at its one point: the invariant, what the device owes, and the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The body's proof, in the form the launch takes it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => bodyPost m c)
  unfold bodyPre' Φ₀ start
  iintro ⟨⟨⟨⟨%K, Hg⟩, Hcr, Hlev, Hkv⟩, Hscr⟩, Ho, Hx, Hout⟩
  iapply (sound_body m K c fun _ => bodyPost m c)
  unfold bodyPre
  isplitr []
  · isplitl [Hg Hcr Hlev Hkv Hscr]
    · isplitl [Hg]; · iexact Hg
      isplitl [Hcr]; · iexact Hcr
      isplitl [Hlev]; · iexact Hlev
      isplitl [Hkv]; · iexact Hkv
      iexact Hscr
    isplitl [Ho]; · iexact Ho
    isplitl [Hx]; · iexact Hx
    iexact Hout
  · iintro H; iexact H

/-! ## Sorting the launch's holdings into the invariant -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Rd m) c)
      ⊢ |={Set.univ}=> iprop(start m c ∗ emp) := by
  rw [Pipeline.unscopedRestP_none, unscopedRest0_eq]
  iintro ⟨⟨H1, H2⟩, Hlev, Hcr, -, HG⟩
  ihave Hc := (creds (F := F) c) $$ Hcr
  imodintro
  unfold start G' credsAt kvPts
  isplitl
  · isplitl [HG]; · iexact HG
    isplitl [Hc]; · iexact Hc
    isplitl [Hlev]; · iexact Hlev
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(kvPts m c ∗ Pipeline.ownSems0 osem c ∗ Pipeline.scopedRest cfg0.spec c) := by
  rw [show (dats m 0 c).Φ (Fin.last cfg0.N) = Φ₁ m c from rfl]
  unfold Φ₁
  exact .rfl

/-- The two staging semaphores have the lowest level: they may be waited whatever the device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_lv0 (F := F) c _ (by fin_cases w <;> fin_cases s <;> rfl) 0
    · show _ ⊢ MayWait (c : Thread nD τ) _ () (0 : CellTallies nD τ sig Unit)
      rw [MayWait_zero]; iintro -; iempintro

/-! ## The final arrays -/

/-- The query array is an input: it ends as it was. -/
theorem final_in (c : Dev nD) : (dats m 0 c).arrAt (0 : Fin 2) cfg0.N = m ((c : Thread nD τ).loc main_arg0) :=
  (dats (F := F) m 0 c).arrAt_in (0 : Fin 2) rfl _

/-- The result array's one block is the whole array, written once with what the body left: the merged blocks. -/
theorem final_out (c : Dev nD) : (dats m 0 c).arrAt (1 : Fin 2) cfg0.N = outC m c := by
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  funext i
  have h := View.write_emb_of_mem (v := ((cfg0.win (1 : Fin 2)).blk (0 : Fin 1)).view) (Val := Elt F)
    ((dats m 0 c).arrAt (1 : Fin 2) ((0 : Fin 1) : Fin cfg0.N).val) ((dats m 0 c).flushed (1 : Fin 2) (0 : Fin 1)) (M := Finset.univ) (x := i) (Finset.mem_univ _)
  have he : ((cfg0.win (1 : Fin 2)).blk (0 : Fin 1)).view.emb i = i := funext fun a => Fin.ext (by
    match a with
    | ⟨0, _⟩ => show 0 * 4 + 1 * (i 0).val = (i 0).val; omega
    | ⟨1, _⟩ => show 0 * 32 + 1 * (i 1).val = (i 1).val; omega
    | ⟨2, _⟩ => show 0 * 8 + 1 * (i 2).val = (i 2).val; omega
    | ⟨3, _⟩ => show 0 * 128 + 1 * (i 3).val = (i 3).val; omega)
  rw [he] at h
  exact h

/-! ## The run -/

/-- At the compiled mesh of sixteen devices, for any float values, from any memory with zero counters: every
    weakly fair execution of @main terminates, and every final state has each device's result array at the
    merged blocks of all eight heads and its three argument arrays unchanged. -/
theorem run_main : θ_run (Cert.Kernel.defs (F := F)) (onTc (τ := Cert.Kernel.τ) (Cert.Kernel.main (F := F))) ⟨m, fun _ => 0, ρ⟩
    (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Rd m)) (G' := G' (Rd m)) (u₀ := u₀)
    (hu₀ := launch_u₀ (Rd m))
    (hglob := glob (Rd m))
    (hA := fun _ _ => rfl) (hpf := fun _ k => k.elim0)
    (X := start m) (Y := kvPts m) (Z := fun _ => iprop(emp))
    (hX := start_intro m ρ) (hin := phi0_intro m) (hout := phi1_exit m)
    (QY := fun c s => s.mem ((c.tc : Thread nD τ).loc main_arg1) = m ((c.tc : Thread nD τ).loc main_arg1)
      ∧ s.mem ((c.tc : Thread nD τ).loc main_arg2) = m ((c.tc : Thread nD τ).loc main_arg2))
    (hY := fun c s' => by
      unfold kvPts
      iintro ⟨⟨H1, H2⟩, -, HSI⟩
      icombine HSI H1 gives %h1
      icombine HSI H2 gives %h2
      imodintro
      isplitr; · ipureintro; exact ⟨Buf.eq_of_forall_mem_univ h1, Buf.eq_of_forall_mem_univ h2⟩
      iexact HSI)
    (hQ := fun s h c => ⟨((h c).1 (1 : Fin 2)).trans (final_out m c), ((h c).1 (0 : Fin 2)).trans (final_in m c), (h c).2.2.1, (h c).2.2.2⟩)

/-- info: 'Cert.Kernel.Flash.run_main' depends on axioms: [propext, Classical.choice, Quot.sound] -/
#guard_msgs in #print axioms run_main

end Cert.Kernel.Flash

end
-- ==== Proof.KValue.lean ====
import proofs.«900786_g7700000000000787_dist_flashdec_v7x_xyz2x2x4_x_b4_sq32_skv4096_h8_d128_f32_1_alg».proof.Proof.KTerms
import Idealize.ShloMosaic.PureOps.Ideal.Laws
import Idealize.ShloMosaic.Lib.ValueIdx
import Idealize.ShloMosaic.Lib.ValueLayout
import Idealize.ShloMosaic.Lib.Pipeline.Value

/-! One attention block read at an index, over the extended reals.

With exact arithmetic the weights are `e q k = exp (Σ_t (qb[q,t] · c) · kb[k,t])`, the partial
denominator is `Σ_k e q k`, the partial output is `Σ_k e q k · vb[k,d]`, and the merge of two
halves of the key axis at `(q, d)` is the quotient of the two sums of partial outputs by the sum of
the two partial denominators. Nothing here needs the inputs to be finite: the proofs only read
layout operations at an index, re-index a contraction's sum by its one coordinate, and use that
addition of extended reals commutes. -/

set_option synthInstance.maxSize 4096

noncomputable section

namespace Cert.KernelIdeal.Flash

open Idealize.ShloMosaic Idealize.SL.Sem Idealize.ShloMosaic.ValueIdx
open Cert.KernelIdeal Cert.KernelIdeal.Gen

/-! ## Layout operations at an index: an inner unit axis, a trailing unit axis -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions at an index -/

theorem lhs_qk_0 (i : S32x4096.Idx) (c : dot_S32x128_S4096x128_S32x4096_1_1_0_0_n_n.contr.Idx) :
    (dot_S32x128_S4096x128_S32x4096_1_1_0_0_n_n.lhsIdx i c 0).val = (i 0).val := by
  unfold DotDims.lhsIdx
  rw [dif_neg (show ¬(0 : Fin S32x128.rank) ∈ dot_S32x128_S4096x128_S32x4096_1_1_0_0_n_n.lhsBatch by decide), dif_pos (show (0 : Fin S32x128.rank) ∈ dot_S32x128_S4096x128_S32x4096_1_1_0_0_n_n.lhsNonContracting by decide)]
  rfl
theorem lhs_qk_1 (i : S32x4096.Idx) (c : dot_S32x128_S4096x128_S32x4096_1_1_0_0_n_n.contr.Idx) :
    (dot_S32x128_S4096x128_S32x4096_1_1_0_0_n_n.lhsIdx i c 1).val = (c ⟨0, by decide⟩).val :=
  dot_S32x128_S4096x128_S32x4096_1_1_0_0_n_n.lhsIdx_val_of_single rfl i c
theorem rhs_qk_0 (i : S32x4096.Idx) (c : dot_S32x128_S4096x128_S32x4096_1_1_0_0_n_n.contr.Idx) :
    (dot_S32x128_S4096x128_S32x4096_1_1_0_0_n_n.rhsIdx i c 0).val = (i 1).val := by
  unfold DotDims.rhsIdx
  rw [dif_neg (show ¬(0 : Fin S4096x128.rank) ∈ dot_S32x128_S4096x128_S32x4096_1_1_0_0_n_n.rhsBatch by decide), dif_pos (show (0 : Fin S4096x128.rank) ∈ dot_S32x128_S4096x128_S32x4096_1_1_0_0_n_n.rhsNonContracting by decide)]
  rfl
theorem rhs_qk_1 (i : S32x4096.Idx) (c : dot_S32x128_S4096x128_S32x4096_1_1_0_0_n_n.contr.Idx) :
    (dot_S32x128_S4096x128_S32x4096_1_1_0_0_n_n.rhsIdx i c 1).val = (c ⟨0, by decide⟩).val :=
  dot_S32x128_S4096x128_S32x4096_1_1_0_0_n_n.rhsIdx_val_of_single rfl i c

/-- The product of a `[32, 128]` matrix with the transpose of a `[4096, 128]` one, into a zero
    accumulator, at `(q, k)`: the sum over the 128 lanes. -/
theorem matmul_qk_apply (A : FVec Ideal S32x128 .f32) (B : FVec Ideal S4096x128 .f32) (q : Fin 32) (k : Fin 4096) :
    matmul dot_S32x128_S4096x128_S32x4096_1_1_0_0_n_n none A B (constant (F := Ideal) S32x4096 .f32 0x00000000#32) (ix2 q k)
      = ∑ t : Fin 128, A (ix2 q t) * B (ix2 k t) := by
  show FloatOps.matmul dot_S32x128_S4096x128_S32x4096_1_1_0_0_n_n none A B (constant (F := Ideal) S32x4096 .f32 0x00000000#32) (ix2 q k) = _
  rw [Ideal.matmul_constant_zero_apply, ← Equiv.sum_comp (ValueIdx.contrEquiv1 dot_S32x128_S4096x128_S32x4096_1_1_0_0_n_n 128 rfl rfl).symm]
  refine Finset.sum_congr rfl fun t _ => ?_
  have ht := ValueIdx.contrEquiv1_symm_val dot_S32x128_S4096x128_S32x4096_1_1_0_0_n_n 128 rfl rfl t
  have el : dot_S32x128_S4096x128_S32x4096_1_1_0_0_n_n.lhsIdx (ix2 q k) ((ValueIdx.contrEquiv1 dot_S32x128_S4096x128_S32x4096_1_1_0_0_n_n 128 rfl rfl).symm t) = ix2 q t := funext fun a => Fin.ext (by
    match a with
    | ⟨0, _⟩ => exact lhs_qk_0 _ _
    | ⟨1, _⟩ => exact (lhs_qk_1 _ _).trans ht)
  have er : dot_S32x128_S4096x128_S32x4096_1_1_0_0_n_n.rhsIdx (ix2 q k) ((ValueIdx.contrEquiv1 dot_S32x128_S4096x128_S32x4096_1_1_0_0_n_n 128 rfl rfl).symm t) = ix2 k t := funext fun a => Fin.ext (by
    match a with
    | ⟨0, _⟩ => exact rhs_qk_0 _ _
    | ⟨1, _⟩ => exact (rhs_qk_1 _ _).trans ht)
  rw [el, er]

theorem lhs_pv_0 (i : S32x128.Idx) (c : dot_S32x4096_S4096x128_S32x128_1_0_0_1_n_n.contr.Idx) :
    (dot_S32x4096_S4096x128_S32x128_1_0_0_1_n_n.lhsIdx i c 0).val = (i 0).val := by
  unfold DotDims.lhsIdx
  rw [dif_neg (show ¬(0 : Fin S32x4096.rank) ∈ dot_S32x4096_S4096x128_S32x128_1_0_0_1_n_n.lhsBatch by decide), dif_pos (show (0 : Fin S32x4096.rank) ∈ dot_S32x4096_S4096x128_S32x128_1_0_0_1_n_n.lhsNonContracting by decide)]
  rfl
theorem lhs_pv_1 (i : S32x128.Idx) (c : dot_S32x4096_S4096x128_S32x128_1_0_0_1_n_n.contr.Idx) :
    (dot_S32x4096_S4096x128_S32x128_1_0_0_1_n_n.lhsIdx i c 1).val = (c ⟨0, by decide⟩).val :=
  dot_S32x4096_S4096x128_S32x128_1_0_0_1_n_n.lhsIdx_val_of_single rfl i c
theorem rhs_pv_0 (i : S32x128.Idx) (c : dot_S32x4096_S4096x128_S32x128_1_0_0_1_n_n.contr.Idx) :
    (dot_S32x4096_S4096x128_S32x128_1_0_0_1_n_n.rhsIdx i c 0).val = (c ⟨0, by decide⟩).val :=
  dot_S32x4096_S4096x128_S32x128_1_0_0_1_n_n.rhsIdx_val_of_single rfl i c
theorem rhs_pv_1 (i : S32x128.Idx) (c : dot_S32x4096_S4096x128_S32x128_1_0_0_1_n_n.contr.Idx) :
    (dot_S32x4096_S4096x128_S32x128_1_0_0_1_n_n.rhsIdx i c 1).val = (i 1).val := by
  unfold DotDims.rhsIdx
  rw [dif_neg (show ¬(1 : Fin S4096x128.rank) ∈ dot_S32x4096_S4096x128_S32x128_1_0_0_1_n_n.rhsBatch by decide), dif_pos (show (1 : Fin S4096x128.rank) ∈ dot_S32x4096_S4096x128_S32x128_1_0_0_1_n_n.rhsNonContracting by decide)]
  rfl

/-- The product of a `[32, 4096]` matrix with a `[4096, 128]` one, into a zero accumulator, at
    `(q, d)`: the sum over the 4096 key rows. -/
theorem matmul_pv_apply (P : FVec Ideal S32x4096 .f32) (V : FVec Ideal S4096x128 .f32) (q : Fin 32) (d : Fin 128) :
    matmul dot_S32x4096_S4096x128_S32x128_1_0_0_1_n_n none P V (constant (F := Ideal) S32x128 .f32 0x00000000#32) (ix2 q d)
      = ∑ k : Fin 4096, P (ix2 q k) * V (ix2 k d) := by
  show FloatOps.matmul dot_S32x4096_S4096x128_S32x128_1_0_0_1_n_n none P V (constant (F := Ideal) S32x128 .f32 0x00000000#32) (ix2 q d) = _
  rw [Ideal.matmul_constant_zero_apply, ← Equiv.sum_comp (ValueIdx.contrEquiv1 dot_S32x4096_S4096x128_S32x128_1_0_0_1_n_n 4096 rfl rfl).symm]
  refine Finset.sum_congr rfl fun k _ => ?_
  have hk := ValueIdx.contrEquiv1_symm_val dot_S32x4096_S4096x128_S32x128_1_0_0_1_n_n 4096 rfl rfl k
  have el : dot_S32x4096_S4096x128_S32x128_1_0_0_1_n_n.lhsIdx (ix2 q d) ((ValueIdx.contrEquiv1 dot_S32x4096_S4096x128_S32x128_1_0_0_1_n_n 4096 rfl rfl).symm k) = ix2 q k := funext fun a => Fin.ext (by
    match a with
    | ⟨0, _⟩ => exact lhs_pv_0 _ _
    | ⟨1, _⟩ => exact (lhs_pv_1 _ _).trans hk)
  have er : dot_S32x4096_S4096x128_S32x128_1_0_0_1_n_n.rhsIdx (ix2 q d) ((ValueIdx.contrEquiv1 dot_S32x4096_S4096x128_S32x128_1_0_0_1_n_n 4096 rfl rfl).symm k) = ix2 k d := funext fun a => Fin.ext (by
    match a with
    | ⟨0, _⟩ => exact (rhs_pv_0 _ _).trans hk
    | ⟨1, _⟩ => exact rhs_pv_1 _ _)
  rw [el, er]

/-! ## A row sum at an index -/

/-- The sum of a `[32, 4096]` matrix along its second axis, at row `q`. -/
theorem rowsum_apply (P : FVec Ideal S32x4096 .f32) (hφ : FKind.Formats .f32)
    (hacc : (0x00000000#32 : BitVec 32) = FKind.add.neutral .f32 hφ) (q : Fin 32) :
    multiReduction .add [1] S32 P 0x00000000#32 reduces_S32x4096_S32 hφ hacc (ix1 q)
      = ∑ k : Fin 4096, P (ix2 q k) :=
  (Ideal.multiReduction_add_single P 0x00000000#32 reduces_S32x4096_S32 hφ hacc (ix1 q)).trans
    (Finset.sum_congr rfl fun k _ => congrArg P (funext fun a => Fin.ext (by
      match a with
      | ⟨0, _⟩ => rfl
      | ⟨1, _⟩ => rfl)))

/-! ## The block's functions at an index -/

/-- The weight of key row `k` for query row `q`: `exp` of the scaled score, nothing subtracted. -/
def ew (qb : Vec Ideal S1x32x1x128 .f32) (kb : Vec Ideal S1x4096x1x128 .f32) (q : Fin 32) (k : Fin 4096) : EReal :=
  Ideal.exp (∑ t : Fin 128,
    (qb (ix4 (0 : Fin 1) q (0 : Fin 1) t) * Ideal.ofBits .f32 0x3DB504F3#32) * kb (ix4 (0 : Fin 1) k (0 : Fin 1) t))

theorem qs_apply (qb : Vec Ideal S1x32x1x128 .f32) (q : Fin 32) (t : Fin 128) :
    qs qb (ix2 q t) = qb (ix4 (0 : Fin 1) q (0 : Fin 1) t) * Ideal.ofBits .f32 0x3DB504F3#32 := by
  unfold qs
  rw [mulf_apply, shapeCast_a1b_ab_apply, shapeCast_1abc_abc_apply]
  rfl

theorem pmat_apply (qb : Vec Ideal S1x32x1x128 .f32) (kb : Vec Ideal S1x4096x1x128 .f32) (q : Fin 32) (k : Fin 4096) :
    pmat qb kb (ix2 q k) = ew qb kb q k := by
  unfold pmat ew
  show Ideal.exp (matmul dot_S32x128_S4096x128_S32x4096_1_1_0_0_n_n none (qs qb) (shapeCast S4096x128 kb shapeCasts_S1x4096x1x128_S4096x128) (constant (F := Ideal) S32x4096 .f32 0x00000000#32) (ix2 q k)) = _
  rw [matmul_qk_apply]
  refine congrArg Ideal.exp (Finset.sum_congr rfl fun t _ => ?_)
  rw [qs_apply, shapeCast_1a1b_ab_apply]

theorem lpart_apply (qb : Vec Ideal S1x32x1x128 .f32) (kb : Vec Ideal S1x4096x1x128 .f32) (u : Fin 1) (q : Fin 32) (w : Fin 1) :
    lpart qb kb (ix3 u q w) = ∑ k : Fin 4096, ew qb kb q k := by
  unfold lpart
  rw [shapeCast_ab_1ab_apply, shapeCast_a_a1_apply]
  refine (rowsum_apply _ _ _ q).trans (Finset.sum_congr rfl fun k _ => pmat_apply qb kb q k)

theorem opart_apply (qb : Vec Ideal S1x32x1x128 .f32) (kb vb : Vec Ideal S1x4096x1x128 .f32) (u : Fin 1) (q : Fin 32) (d : Fin 128) :
    opart qb kb vb (ix3 u q d) = ∑ k : Fin 4096, ew qb kb q k * vb (ix4 (0 : Fin 1) k (0 : Fin 1) d) := by
  unfold opart
  rw [shapeCast_ab_1ab_apply, matmul_pv_apply]
  refine Finset.sum_congr rfl fun k _ => ?_
  rw [pmat_apply, shapeCast_1a1b_ab_apply]

/-- The merge at `(q, d)`: the sum of the partial outputs over the sum of the partial denominators. -/
theorem merge_at (o o' : Vec Ideal S1x32x128 .f32) (l l' : Vec Ideal S1x32x1 .f32) (u : Fin 1) (q : Fin 32) (w : Fin 1) (d : Fin 128) :
    merge o o' l l' (ix4 u q w d)
      = Ideal.div (o (ix3 (0 : Fin 1) q d) + o' (ix3 (0 : Fin 1) q d))
          (l (ix3 (0 : Fin 1) q (0 : Fin 1)) + l' (ix3 (0 : Fin 1) q (0 : Fin 1))) := by
  unfold merge
  rw [shapeCast_abc_1abc_apply, shapeCast_ab_a1b_apply, divf_apply, addf_apply, broadcastTo_a1_ab_apply, addf_apply,
    shapeCast_1ab_ab_apply, shapeCast_1ab_ab_apply, shapeCast_1ab_ab_apply, shapeCast_1ab_ab_apply]

/-- The merged block of one batch and head at `(q, d)`, from the loaded query block and the two halves
    of the key and value blocks. -/
theorem merge_apply (qb : Vec Ideal S1x32x1x128 .f32) (k0 v0 k1 v1 : Vec Ideal S1x4096x1x128 .f32) (q : Fin 32) (d : Fin 128) :
    merge (opart qb k0 v0) (opart qb k1 v1) (lpart qb k0) (lpart qb k1) (ix4 (0 : Fin 1) q (0 : Fin 1) d)
      = Ideal.div
          ((∑ k : Fin 4096, ew qb k0 q k * v0 (ix4 (0 : Fin 1) k (0 : Fin 1) d))
            + (∑ k : Fin 4096, ew qb k1 q k * v1 (ix4 (0 : Fin 1) k (0 : Fin 1) d)))
          ((∑ k : Fin 4096, ew qb k0 q k) + (∑ k : Fin 4096, ew qb k1 q k)) := by
  rw [merge_at, opart_apply, opart_apply, lpart_apply, lpart_apply]

/-- Merging is symmetric in the two halves. -/
theorem merge_comm (o o' : Vec Ideal S1x32x128 .f32) (l l' : Vec Ideal S1x32x1 .f32) :
    merge o o' l l' = merge o' o l' l := by
  funext j
  obtain ⟨u, q, w, d, rfl⟩ : ∃ (u : Fin 1) (q : Fin 32) (w : Fin 1) (d : Fin 128), j = ix4 u q w d :=
    ⟨j 0, j 1, j 2, j 3, eq_ix4 j⟩
  rw [merge_at, merge_at, add_comm (G := EReal) (o (ix3 (0 : Fin 1) q d)), add_comm (G := EReal) (l (ix3 (0 : Fin 1) q (0 : Fin 1)))]

/--
info: 'Cert.KernelIdeal.Flash.merge_apply' depends on axioms: [propext, Classical.choice, Quot.sound]
-/
#guard_msgs in #print axioms merge_apply
/--
info: 'Cert.KernelIdeal.Flash.merge_comm' depends on axioms: [propext, Classical.choice, Quot.sound]
-/
#guard_msgs in #print axioms merge_comm

end Cert.KernelIdeal.Flash

end
-- ==== Proof.Spec.lean ====
/-
  Scaled dot-product attention with the softmax written WITHOUT a subtracted maximum, over the
  extended reals: for a query array Q : [4, 32, 8, 128] (batch, query position, head, feature) and
  key and value arrays K, V : [4, 8192, 8, 128] (batch, key position, head, feature),

    score b q h k  =  Σ_d (Q[b,q,h,d] · c) · K[b,k,h,d]                     (the scale multiplies Q first)
    attn[b,q,h,d]  =  (Σ_k exp (score b q h k) · V[b,k,h,d]) / (Σ_k exp (score b q h k)).

  The scale c is the f32 word 0x3DB504F3 read as the extended real it denotes; the word is never
  evaluated, only its being finite is used (its exponent field is neither all ones nor zero).
  exp and the quotient are the ideal instance's (exp ⊥ = 0, exp ⊤ = ⊤; x / y = x · y⁻¹ off zero).

  Also here: the law that lets a softmax be shifted by any FINITE amount m — over the reals
  exp (s − m) / Σ exp (s − m) = exp s / Σ exp s — stated on the extended reals for real-valued
  scores and values over an abstract nonempty finite index type, in the arrangement a max-subtracting
  reference computes it (value times normalised weight, the normaliser a sum started at 0).
-/
import Idealize.ShloMosaic.PureOps.Ideal
import Idealize.ShloMosaic.PureOps.Ideal.Laws
import Idealize.ShloMosaic.Lib.ValueIdx

noncomputable section

open scoped BigOperators

namespace Cert.Flash

open Idealize.ShloMosaic Idealize.ShloMosaic.ValueIdx

/-- The query array's shape: batch 4, query positions 32, heads 8, features 128. -/
abbrev SQ : Shape := ⟨4, ![4, 32, 8, 128]⟩
/-- The key and value arrays' shape: batch 4, key positions 8192, heads 8, features 128. -/
abbrev SKV : Shape := ⟨4, ![4, 8192, 8, 128]⟩

/-- The softmax scale: what the f32 word 0x3DB504F3 denotes (about 1/√128). -/
def cS : EReal := Ideal.ofBits .f32 0x3DB504F3#32

/-- The scaled score of query position `q` against key position `k`, in batch `b` and head `h`:
    the scale multiplies the query's feature before the contraction over the features. -/
def score (Q : SQ.Idx → EReal) (K : SKV.Idx → EReal) (b : Fin 4) (q : Fin 32) (h : Fin 8) (k : Fin 8192) : EReal :=
  ∑ d : Fin 128, (Q (ix4 b q h d) * cS) * K (ix4 b k h d)

/-- Attention at explicit coordinates: the exp-weighted sum of the values over the key positions,
    divided by the sum of the weights. -/
def attnAt (Q : SQ.Idx → EReal) (K V : SKV.Idx → EReal) (b : Fin 4) (q : Fin 32) (h : Fin 8) (d : Fin 128) : EReal :=
  Ideal.div (∑ k : Fin 8192, Ideal.exp (score Q K b q h k) * V (ix4 b k h d))
    (∑ k : Fin 8192, Ideal.exp (score Q K b q h k))

/-- Attention as one array of the query array's shape. -/
def attn (Q : SQ.Idx → EReal) (K V : SKV.Idx → EReal) : SQ.Idx → EReal :=
  fun i => attnAt Q K V (i 0) (i 1) (i 2) (i 3)

/-- At an index given by its coordinates the array reads the coordinate form. -/
theorem attn_ix4 (Q : SQ.Idx → EReal) (K V : SKV.Idx → EReal) (b : Fin 4) (q : Fin 32) (h : Fin 8) (d : Fin 128) :
    attn Q K V (ix4 b q h d) = attnAt Q K V b q h d := rfl

/-! ## Finiteness of the scale, and sums of reals inside the extended reals -/

/-- The scale is a real number: the word's exponent field is neither all ones (an infinity or a
    NaN pattern) nor zero, so it denotes a normal number. Its value is not computed. -/
theorem cS_real : ∃ r : ℝ, cS = (r : EReal) := by
  unfold cS Ideal.ofBits Ideal.ieee
  simp only []
  rw [if_neg (by decide), if_neg (by decide)]
  exact ⟨_, rfl⟩

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A softmax may be shifted by any finite amount

Over a nonempty finite index type, for real scores `s`, real values `v` and a real shift `m`:
Σ_k v_k · (exp (s_k − m) / (0 + Σ_k' exp (s_k' − m))) = (Σ_k exp s_k · v_k) / (Σ_k exp s_k).
Both normalisers are positive reals, so both quotients are products with a real reciprocal; then
exp (s − m) = exp s · (exp m)⁻¹ and the factor (exp m)⁻¹ cancels between weight and normaliser. -/
theorem softmax_shift {ι : Type*} [Fintype ι] [Nonempty ι] (s v : ι → ℝ) (m : ℝ) :
    ∑ k, (v k : EReal) * Ideal.div (Ideal.exp ((s k : EReal) - (m : EReal)))
        ((0 : EReal) + ∑ k', Ideal.exp ((s k' : EReal) - (m : EReal)))
      = Ideal.div (∑ k, Ideal.exp (s k : EReal) * (v k : EReal)) (∑ k, Ideal.exp (s k : EReal)) := by
  have hL : 0 < ∑ k, Real.exp (s k) := Finset.sum_pos (fun k _ => Real.exp_pos _) Finset.univ_nonempty
  have hL' : 0 < ∑ k, Real.exp (s k - m) := Finset.sum_pos (fun k _ => Real.exp_pos _) Finset.univ_nonempty
  simp only [← EReal.coe_sub, Ideal.exp_coe, ← coe_sum, zero_add]
  rw [Ideal.div_coe hL.ne']
  simp only [Ideal.div_coe hL'.ne', ← EReal.coe_mul, ← coe_sum]
  rw [EReal.coe_eq_coe_iff]
  have hm : ∑ k, Real.exp (s k - m) = (∑ k, Real.exp (s k)) * (Real.exp m)⁻¹ := by
    rw [Finset.sum_mul]
    exact Finset.sum_congr rfl fun k _ => by rw [Real.exp_sub, div_eq_mul_inv]
  rw [Finset.sum_mul, hm]
  refine Finset.sum_congr rfl fun k _ => ?_
  have hem : Real.exp m ≠ 0 := (Real.exp_pos m).ne'
  rw [Real.exp_sub]
  field_simp

/-- info: 'Cert.Flash.softmax_shift' depends on axioms: [propext, Classical.choice, Quot.sound] -/
#guard_msgs in #print axioms softmax_shift

/-- info: 'Cert.Flash.cS_real' depends on axioms: [propext, Classical.choice, Quot.sound] -/
#guard_msgs in #print axioms cS_real

end Cert.Flash

end
-- ==== Proof.KValueJoin.lean ====
import proofs.«900786_g7700000000000787_dist_flashdec_v7x_xyz2x2x4_x_b4_sq32_skv4096_h8_d128_f32_1_alg».proof.Proof.KValue
import proofs.«900786_g7700000000000787_dist_flashdec_v7x_xyz2x2x4_x_b4_sq32_skv4096_h8_d128_f32_1_alg».proof.Proof.Spec
import Mathlib.Algebra.BigOperators.Fin

/-! The merged block is attention.

A sum over the 8192 key positions is the sum over the first 4096 plus the sum over the last 4096.
When the loaded query block is row `(b, ·, h, ·)` of the query array and the two loaded key and
value blocks are the two halves of row `(b, ·, h, ·)` of the key and value arrays, the weights of
the two halves are the weights of attention at those key positions, and the merged quotient is
attention at `(b, q, h, d)`. The hypotheses speak of functions of indices only. -/

set_option synthInstance.maxSize 4096

noncomputable section

namespace Cert.KernelIdeal.Flash

open Idealize.ShloMosaic Idealize.SL.Sem Idealize.ShloMosaic.ValueIdx
open Cert.KernelIdeal Cert.KernelIdeal.Gen Cert.Flash

/-- A key position of the first half, among all 8192. -/
abbrev keyLo (k : Fin 4096) : Fin 8192 := ⟨k.val, by omega⟩
/-- A key position of the second half, among all 8192. -/
abbrev keyHi (k : Fin 4096) : Fin 8192 := ⟨4096 + k.val, by omega⟩

/-- A sum over the 8192 key positions, split into its two halves. -/
theorem sum_halves (f : Fin 8192 → EReal) :
    ∑ k : Fin 8192, f k = (∑ k : Fin 4096, f (keyLo k)) + ∑ k : Fin 4096, f (keyHi k) :=
  Fin.sum_univ_add (a := 4096) (b := 4096) f

section Join
variable (Q : SQ.Idx → EReal) (K V : SKV.Idx → EReal) (b : Fin 4) (h : Fin 8)
  (qb : Vec Ideal S1x32x1x128 .f32) (k0 v0 k1 v1 : Vec Ideal S1x4096x1x128 .f32)

/-- The weights of a first-half block are attention's weights at the first 4096 key positions. -/
theorem ew_lo
    (hq : ∀ (q : Fin 32) (t : Fin 128), qb (ix4 (0 : Fin 1) q (0 : Fin 1) t) = Q (ix4 b q h t))
    (hk0 : ∀ (k : Fin 4096) (t : Fin 128), k0 (ix4 (0 : Fin 1) k (0 : Fin 1) t) = K (ix4 b (keyLo k) h t))
    (q : Fin 32) (k : Fin 4096) : ew qb k0 q k = Ideal.exp (score Q K b q h (keyLo k)) := by
  unfold ew score
  refine congrArg Ideal.exp (Finset.sum_congr rfl fun t _ => ?_)
  rw [hq, hk0]
  rfl

/-- The weights of a second-half block are attention's weights at the last 4096 key positions. -/
theorem ew_hi
    (hq : ∀ (q : Fin 32) (t : Fin 128), qb (ix4 (0 : Fin 1) q (0 : Fin 1) t) = Q (ix4 b q h t))
    (hk1 : ∀ (k : Fin 4096) (t : Fin 128), k1 (ix4 (0 : Fin 1) k (0 : Fin 1) t) = K (ix4 b (keyHi k) h t))
    (q : Fin 32) (k : Fin 4096) : ew qb k1 q k = Ideal.exp (score Q K b q h (keyHi k)) := by
  unfold ew score
  refine congrArg Ideal.exp (Finset.sum_congr rfl fun t _ => ?_)
  rw [hq, hk1]
  rfl

/-- The merged quotient of the two halves is attention at `(b, q, h, d)`. -/
theorem halves_eq_attnAt
    (hq : ∀ (q : Fin 32) (t : Fin 128), qb (ix4 (0 : Fin 1) q (0 : Fin 1) t) = Q (ix4 b q h t))
    (hk0 : ∀ (k : Fin 4096) (t : Fin 128), k0 (ix4 (0 : Fin 1) k (0 : Fin 1) t) = K (ix4 b (keyLo k) h t))
    (hk1 : ∀ (k : Fin 4096) (t : Fin 128), k1 (ix4 (0 : Fin 1) k (0 : Fin 1) t) = K (ix4 b (keyHi k) h t))
    (hv0 : ∀ (k : Fin 4096) (t : Fin 128), v0 (ix4 (0 : Fin 1) k (0 : Fin 1) t) = V (ix4 b (keyLo k) h t))
    (hv1 : ∀ (k : Fin 4096) (t : Fin 128), v1 (ix4 (0 : Fin 1) k (0 : Fin 1) t) = V (ix4 b (keyHi k) h t))
    (q : Fin 32) (d : Fin 128) :
    Ideal.div
        ((∑ k : Fin 4096, ew qb k0 q k * v0 (ix4 (0 : Fin 1) k (0 : Fin 1) d))
          + (∑ k : Fin 4096, ew qb k1 q k * v1 (ix4 (0 : Fin 1) k (0 : Fin 1) d)))
        ((∑ k : Fin 4096, ew qb k0 q k) + (∑ k : Fin 4096, ew qb k1 q k))
      = attnAt Q K V b q h d := by
  unfold attnAt
  rw [sum_halves (fun k => Ideal.exp (score Q K b q h k) * V (ix4 b k h d)),
    sum_halves (fun k => Ideal.exp (score Q K b q h k))]
  have hA0 : ∑ k : Fin 4096, ew qb k0 q k * v0 (ix4 (0 : Fin 1) k (0 : Fin 1) d)
      = ∑ k : Fin 4096, Ideal.exp (score Q K b q h (keyLo k)) * V (ix4 b (keyLo k) h d) :=
    Finset.sum_congr rfl fun k _ => by rw [ew_lo Q K b h qb k0 hq hk0, hv0]
  have hA1 : ∑ k : Fin 4096, ew qb k1 q k * v1 (ix4 (0 : Fin 1) k (0 : Fin 1) d)
      = ∑ k : Fin 4096, Ideal.exp (score Q K b q h (keyHi k)) * V (ix4 b (keyHi k) h d) :=
    Finset.sum_congr rfl fun k _ => by rw [ew_hi Q K b h qb k1 hq hk1, hv1]
  have hL0 : ∑ k : Fin 4096, ew qb k0 q k = ∑ k : Fin 4096, Ideal.exp (score Q K b q h (keyLo k)) :=
    Finset.sum_congr rfl fun k _ => ew_lo Q K b h qb k0 hq hk0 q k
  have hL1 : ∑ k : Fin 4096, ew qb k1 q k = ∑ k : Fin 4096, Ideal.exp (score Q K b q h (keyHi k)) :=
    Finset.sum_congr rfl fun k _ => ew_hi Q K b h qb k1 hq hk1 q k
  rw [hA0, hA1, hL0, hL1]

/-- The merged block of batch `b` and head `h`, computed from the loaded blocks, is attention's
    row `(b, ·, h, ·)`. -/
theorem merge_eq_attn
    (hq : ∀ (q : Fin 32) (t : Fin 128), qb (ix4 (0 : Fin 1) q (0 : Fin 1) t) = Q (ix4 b q h t))
    (hk0 : ∀ (k : Fin 4096) (t : Fin 128), k0 (ix4 (0 : Fin 1) k (0 : Fin 1) t) = K (ix4 b (keyLo k) h t))
    (hk1 : ∀ (k : Fin 4096) (t : Fin 128), k1 (ix4 (0 : Fin 1) k (0 : Fin 1) t) = K (ix4 b (keyHi k) h t))
    (hv0 : ∀ (k : Fin 4096) (t : Fin 128), v0 (ix4 (0 : Fin 1) k (0 : Fin 1) t) = V (ix4 b (keyLo k) h t))
    (hv1 : ∀ (k : Fin 4096) (t : Fin 128), v1 (ix4 (0 : Fin 1) k (0 : Fin 1) t) = V (ix4 b (keyHi k) h t))
    (q : Fin 32) (d : Fin 128) :
    merge (opart qb k0 v0) (opart qb k1 v1) (lpart qb k0) (lpart qb k1) (ix4 (0 : Fin 1) q (0 : Fin 1) d)
      = attn Q K V (ix4 b q h d) := by
  rw [merge_apply, attn_ix4]
  exact halves_eq_attnAt Q K V b h qb k0 v0 k1 v1 hq hk0 hk1 hv0 hv1 q d

end Join

/--
info: 'Cert.KernelIdeal.Flash.merge_eq_attn' depends on axioms: [propext, Classical.choice, Quot.sound]
-/
#guard_msgs in #print axioms merge_eq_attn

end Cert.KernelIdeal.Flash

end
-- ==== Proof.RefFinite.lean ====
/-
  Finiteness from the printed precondition. The precondition is, for each of the three inputs x,
  the conjunction over all entries of |x| < +∞ (the word 0x7F800000), the three conjunctions joined by
  `and`; it is stated to be the one-bit word 1. Read back: every entry of every input satisfies
  max x (−x) < ⊤ on the extended reals, which excludes exactly ⊤ and ⊥ — so every entry is a real.
  The same function is printed twice, over the whole arrays (the reference's) and over one device's
  blocks (the kernel's); only the shapes differ.
-/
import proofs.«900786_g7700000000000787_dist_flashdec_v7x_xyz2x2x4_x_b4_sq32_skv4096_h8_d128_f32_1_alg».proof.Proof.Gen.Pre_finite_inputs_ReferenceIdeal
import proofs.«900786_g7700000000000787_dist_flashdec_v7x_xyz2x2x4_x_b4_sq32_skv4096_h8_d128_f32_1_alg».proof.Proof.Gen.Pre_finite_inputs_Kernel
import Idealize.ShloMosaic.Lib.ReduceAll
import Idealize.ShloMosaic.Lib.ValueIdx
import Idealize.ShloMosaic.PureOps.Ideal.Laws

noncomputable section

namespace Cert.Flash

open Idealize.ShloMosaic

/-- The scalar shape has one index. -/
instance : Subsingleton (⟨0, ![]⟩ : Shape).Idx := ⟨fun a b => funext fun d => d.elim0⟩

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hn
    simp only [Ideal.cmp, decide_eq_false hn] at h
    exact absurd h (by decide)
  induction x using EReal.rec with
  | bot => exact absurd hlt (by simp)
  | top => exact absurd hlt (by simp)
  | coe r => exact ⟨r, rfl⟩

/-- One conjunct of the precondition: if the conjunction over all entries of |x| < +∞ is the word 1,
    every entry of `x` is a real. -/
theorem all_real_of_reduce {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ValueIdx.ix0 = 1#1) :
    ∀ i, ∃ r : ℝ, x i = (r : EReal) := fun i =>
  real_of_abs_lt_inf (x i) (Host.reduce_andi_all _ _ hr hu _ e i)

/-- The reference's precondition, over the whole arrays: every entry of Q, K and V is a real. -/
theorem finite_of_pre (Q : FVec Ideal ⟨4, ![4, 32, 8, 128]⟩ .f32) (K V : FVec Ideal ⟨4, ![4, 8192, 8, 128]⟩ .f32)
    (h : Cert.Pre_finite_inputs_ReferenceIdeal.fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ValueIdx.ix0
  dsimp only [Cert.Pre_finite_inputs_ReferenceIdeal.fn] at h0
  obtain ⟨h12, h3⟩ := IntOp.andi_eq_one.1 h0
  obtain ⟨h1, h2⟩ := IntOp.andi_eq_one.1 h12
  exact ⟨all_real_of_reduce Q _ _ _ h1, all_real_of_reduce K _ _ _ h2, all_real_of_reduce V _ _ _ h3⟩

/-- The kernel's precondition, over one device's blocks: every entry of its Q, K block and V block is a real. -/
theorem finite_of_pre_kernel (Q : FVec Ideal ⟨4, ![4, 32, 8, 128]⟩ .f32) (K V : FVec Ideal ⟨4, ![4, 4096, 8, 128]⟩ .f32)
    (h : Cert.Pre_finite_inputs_Kernel.fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ValueIdx.ix0
  dsimp only [Cert.Pre_finite_inputs_Kernel.fn] at h0
  obtain ⟨h12, h3⟩ := IntOp.andi_eq_one.1 h0
  obtain ⟨h1, h2⟩ := IntOp.andi_eq_one.1 h12
  exact ⟨all_real_of_reduce Q _ _ _ h1, all_real_of_reduce K _ _ _ h2, all_real_of_reduce V _ _ _ h3⟩

/-- info: 'Cert.Flash.finite_of_pre' depends on axioms: [propext, Classical.choice, Quot.sound] -/
#guard_msgs in #print axioms finite_of_pre

/-- info: 'Cert.Flash.finite_of_pre_kernel' depends on axioms: [propext, Classical.choice, Quot.sound] -/
#guard_msgs in #print axioms finite_of_pre_kernel

end Cert.Flash

end
-- ==== Proof.Blocks.lean ====
/-
  How the whole key and value arrays lie across the sixteen devices, and that the whole arrays are real.

  The devices are numbered d = 8x + 4y + z over a mesh of sizes 2 × 2 × 4 (x outermost). The key and
  the value array, of shape [4, 8192, 8, 128], are cut along the key-position axis into two blocks of
  4096 positions by the outermost mesh coordinate x = d / 8; the other three axes are not cut. So entry
  (b, k, h, t) of device d's block is entry (b, 4096 · (d / 8) + k, h, t) of the whole array: the devices
  d < 8 hold the first 4096 key positions, the devices d ≥ 8 the last 4096.

  Every key position lies in one of the two halves, so a property of all entries of the whole array
  follows from the property on the two halves. With the precondition — on every device, every entry of
  its query array and of its key and value blocks is finite — this makes every entry of the whole query,
  key and value arrays a real number: the query array is the same on every device, and the two halves of
  the key and value arrays are the blocks of devices 0 and 8.
-/
import proofs.«900786_g7700000000000787_dist_flashdec_v7x_xyz2x2x4_x_b4_sq32_skv4096_h8_d128_f32_1_alg».proof.Defs
import proofs.«900786_g7700000000000787_dist_flashdec_v7x_xyz2x2x4_x_b4_sq32_skv4096_h8_d128_f32_1_alg».proof.Proof.Spec
import proofs.«900786_g7700000000000787_dist_flashdec_v7x_xyz2x2x4_x_b4_sq32_skv4096_h8_d128_f32_1_alg».proof.Proof.RefFinite
import proofs.«900786_g7700000000000787_dist_flashdec_v7x_xyz2x2x4_x_b4_sq32_skv4096_h8_d128_f32_1_alg».proof.Proof.KValueJoin
import Idealize.ShloMosaic.Lib.Layout
import Idealize.ShloMosaic.Lib.ValueIdx
import Idealize.ShloMosaic.PureOps.Ideal

noncomputable section

namespace Cert.KernelIdeal.Flash

open Idealize.ShloMosaic Idealize.SL.Sem Idealize.ShloMosaic.ValueIdx
open Cert.Flash

/-- The per-device shape of the key and value arrays: 4096 of the 8192 key positions. -/
abbrev SKVd : Shape := ⟨4, ![4, 4096, 8, 128]⟩

/-- Entry (b, k, h, t) of device c's block of an array of the key array's shape is entry
    (b, 4096 · (c / 8) + k, h, t) of the whole array: only the key-position axis is cut, in two, by
    the outermost mesh coordinate c / 8; on the three other axes the block coordinate is 0. -/
theorem block_apply {α : Type} (c : Fin 16) (K : SKV.Idx → α)
    (b : Fin 4) (k : Fin 4096) (h : Fin 8) (t : Fin 128) :
    (Layout.blockN ⟨4, ![4, 4096, 8, 128]⟩ ⟨4, ![4, 8192, 8, 128]⟩
        (Layout.meshBlock [2, 2, 4] ![[], [0], [], []] c) K) (ix4 b k h t)
      = K (ix4 b (⟨4096 * (c.val / 8) + k.val, by have := c.isLt; omega⟩ : Fin 8192) h t) := by
  show K _ = K _
  congr 1
  funext e
  apply Fin.ext
  rw [Layout.TilesN.idx_val]
  have hc := c.isLt
  match e with
  | ⟨0, _⟩ =>
    show 0 * 4 + b.val = b.val
    omega
  | ⟨1, _⟩ =>
    show ((c.val / 8) % 2 * 1 + 0) * 4096 + k.val = 4096 * (c.val / 8) + k.val
    omega
  | ⟨2, _⟩ =>
    show 0 * 8 + h.val = h.val
    omega
  | ⟨3, _⟩ =>
    show 0 * 128 + t.val = t.val
    omega

/-- A device of the first eight holds the first 4096 key positions. -/
theorem block_apply_lo {α : Type} (c : Fin 16) (hc : c.val < 8) (K : SKV.Idx → α)
    (b : Fin 4) (k : Fin 4096) (h : Fin 8) (t : Fin 128) :
    (Layout.blockN ⟨4, ![4, 4096, 8, 128]⟩ ⟨4, ![4, 8192, 8, 128]⟩
        (Layout.meshBlock [2, 2, 4] ![[], [0], [], []] c) K) (ix4 b k h t)
      = K (ix4 b (keyLo k) h t) := by
  rw [block_apply]
  have e : (⟨4096 * (c.val / 8) + k.val, by have := c.isLt; omega⟩ : Fin 8192) = keyLo k :=
    Fin.ext (by show 4096 * (c.val / 8) + k.val = k.val; omega)
  rw [e]

/-- A device of the last eight holds the last 4096 key positions. -/
theorem block_apply_hi {α : Type} (c : Fin 16) (hc : 8 ≤ c.val) (K : SKV.Idx → α)
    (b : Fin 4) (k : Fin 4096) (h : Fin 8) (t : Fin 128) :
    (Layout.blockN ⟨4, ![4, 4096, 8, 128]⟩ ⟨4, ![4, 8192, 8, 128]⟩
        (Layout.meshBlock [2, 2, 4] ![[], [0], [], []] c) K) (ix4 b k h t)
      = K (ix4 b (keyHi k) h t) := by
  rw [block_apply]
  have e : (⟨4096 * (c.val / 8) + k.val, by have := c.isLt; omega⟩ : Fin 8192) = keyHi k :=
    Fin.ext (by show 4096 * (c.val / 8) + k.val = 4096 + k.val; have := c.isLt; omega)
  rw [e]

/-- Every key position is in the first or in the second half: a property that holds of the entries
    at the first 4096 and at the last 4096 key positions holds of every entry. -/
theorem forall_of_halves {α : Type} (P : α → Prop) (K : SKV.Idx → α)
    (hlo : ∀ (b : Fin 4) (k : Fin 4096) (h : Fin 8) (t : Fin 128), P (K (ix4 b (keyLo k) h t)))
    (hhi : ∀ (b : Fin 4) (k : Fin 4096) (h : Fin 8) (t : Fin 128), P (K (ix4 b (keyHi k) h t))) :
    ∀ i, P (K i) := by
  intro i
  rw [eq_ix4 i]
  have h8 : (i 1).val < 8192 := (i 1).isLt
  by_cases hk : (i 1).val < 4096
  · have e : i 1 = keyLo ⟨(i 1).val, hk⟩ := Fin.ext rfl
    rw [e]
    exact hlo _ _ _ _
  · have e : i 1 = keyHi ⟨(i 1).val - 4096, by omega⟩ :=
      Fin.ext (by show (i 1).val = 4096 + ((i 1).val - 4096); omega)
    rw [e]
    exact hhi _ _ _ _

/-- If the blocks of devices 0 and 8 of an array of the key array's shape have a property at every
    entry, the whole array has it at every entry. -/
theorem forall_of_blocks {α : Type} (P : α → Prop) (K : SKV.Idx → α)
    (h0 : ∀ i, P ((Layout.blockN ⟨4, ![4, 4096, 8, 128]⟩ ⟨4, ![4, 8192, 8, 128]⟩
        (Layout.meshBlock [2, 2, 4] ![[], [0], [], []] (0 : Fin 16)) K) i))
    (h8 : ∀ i, P ((Layout.blockN ⟨4, ![4, 4096, 8, 128]⟩ ⟨4, ![4, 8192, 8, 128]⟩
        (Layout.meshBlock [2, 2, 4] ![[], [0], [], []] (8 : Fin 16)) K) i)) :
    ∀ i, P (K i) :=
  forall_of_halves P K
    (fun b k h t => by
      rw [← block_apply_lo (0 : Fin 16) (by decide) K b k h t]
      exact h0 _)
    (fun b k h t => by
      rw [← block_apply_hi (8 : Fin 16) (by decide) K b k h t]
      exact h8 _)

/-- From the precondition on every device and the agreement of every device's buffers with the whole
    arrays (the query array whole on every device, the key and value arrays in two blocks), every entry
    of the whole query, key and value arrays is a real number. -/
theorem whole_real_of_blocks
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) :
    (∀ i, ∃ r : ℝ, m' (((0 : Dev Cert.ReferenceIdeal.nD).tc : Thread Cert.ReferenceIdeal.nD Cert.ReferenceIdeal.τ).loc Cert.ReferenceIdeal.main_arg0) i = (r : EReal))
    ∧ (∀ i, ∃ r : ℝ, m' (((0 : Dev Cert.ReferenceIdeal.nD).tc : Thread Cert.ReferenceIdeal.nD Cert.ReferenceIdeal.τ).loc Cert.ReferenceIdeal.main_arg1) i = (r : EReal))
    ∧ (∀ i, ∃ r : ℝ, m' (((0 : Dev Cert.ReferenceIdeal.nD).tc : Thread Cert.ReferenceIdeal.nD Cert.ReferenceIdeal.τ).loc Cert.ReferenceIdeal.main_arg2) i = (r : EReal)) := by
  have hdev : ∀ c : Dev Cert.KernelIdeal.nD,
      (∀ i, ∃ r : ℝ, m' (((0 : Dev Cert.ReferenceIdeal.nD).tc : Thread Cert.ReferenceIdeal.nD Cert.ReferenceIdeal.τ).loc Cert.ReferenceIdeal.main_arg0) i = (r : EReal))
      ∧ (∀ i, ∃ r : ℝ, (Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))) i = (r : EReal))
      ∧ (∀ i, ∃ r : ℝ, (Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) i = (r : EReal)) := by
    intro c
    obtain ⟨e0, e1, e2⟩ := hagree c
    have hf := finite_of_pre_kernel _ _ _ (hpre c)
    rw [e0, e1, e2] at hf
    exact hf
  refine ⟨(hdev 0).1, ?_, ?_⟩
  · exact forall_of_blocks (fun x : EReal => ∃ r : ℝ, x = (r : EReal)) _ (hdev 0).2.1 (hdev 8).2.1
  · exact forall_of_blocks (fun x : EReal => ∃ r : ℝ, x = (r : EReal)) _ (hdev 0).2.2 (hdev 8).2.2

/--
info: 'Cert.KernelIdeal.Flash.whole_real_of_blocks' depends on axioms: [propext, Classical.choice, Quot.sound]
-/
#guard_msgs in #print axioms whole_real_of_blocks

/--
info: 'Cert.KernelIdeal.Flash.block_apply_hi' depends on axioms: [propext, Quot.sound]
-/
#guard_msgs in #print axioms block_apply_hi

end Cert.KernelIdeal.Flash

end
-- ==== Proof.Final.lean ====
/-
  What every device's result buffer holds at the end is attention.

  Row (b, ·, h, ·) of device c's result buffer is the merged block of the device c' of c's half that works
  on head h. That device loads the query rows (b, ·, h, ·) of the query array (whole on every device), and
  the key and value rows (b, ·, h, ·) of ITS half of the key positions; its partner c' xor 8 works on the
  same head with the other half. A device of the first eight holds the first 4096 key positions, one of the
  last eight the last 4096; so of the two partial results merged, one is over the first half and one over
  the second, and the merge — symmetric in its two halves — is attention at (b, q, h, d): the sum over all
  8192 key positions splits into the two halves' sums, in the numerator and in the denominator.
-/
import proofs.«900786_g7700000000000787_dist_flashdec_v7x_xyz2x2x4_x_b4_sq32_skv4096_h8_d128_f32_1_alg».proof.Proof.Sched
import proofs.«900786_g7700000000000787_dist_flashdec_v7x_xyz2x2x4_x_b4_sq32_skv4096_h8_d128_f32_1_alg».proof.Proof.KValueJoin
import proofs.«900786_g7700000000000787_dist_flashdec_v7x_xyz2x2x4_x_b4_sq32_skv4096_h8_d128_f32_1_alg».proof.Proof.Blocks
import proofs.«900786_g7700000000000787_dist_flashdec_v7x_xyz2x2x4_x_b4_sq32_skv4096_h8_d128_f32_1_alg».proof.Proof.Spec

noncomputable section

namespace Cert.KernelIdeal.Flash

open Cert.KernelIdeal Cert.KernelIdeal.Gen
open Idealize.ShloMosaic Idealize.ShloMosaic.TcCoe Idealize.SL.Sem Idealize.ShloMosaic.ValueIdx
open Cert.Flash

/-! ## The loaded blocks at an index, for any float instance -/

section Blocks
variable {F : FTy → Type} [FloatOps F] (m : (ℓ : Loc nD τ sig) → Buf (Elt F) ℓ)

/-- The staged query array is the query array: its window is the whole array at block 0. -/
theorem Qst_at (c : Dev nD) (i : S4x32x8x128.Idx) : Qst m c i = m ((c : Thread nD τ).loc main_arg0) i := by
  unfold Qst
  show m ((c : Thread nD τ).loc main_arg0) _ = _
  refine congrArg (m _) (funext fun a => Fin.ext ?_)
  match a with
  | ⟨0, _⟩ => show 0 * 4 + 1 * (i 0).val = (i 0).val; omega
  | ⟨1, _⟩ => show 0 * 32 + 1 * (i 1).val = (i 1).val; omega
  | ⟨2, _⟩ => show 0 * 8 + 1 * (i 2).val = (i 2).val; omega
  | ⟨3, _⟩ => show 0 * 128 + 1 * (i 3).val = (i 3).val; omega

/-- The query block of batch b: the query array's rows (b, ·, head, ·). -/
theorem qB_at (c : Dev nD) (b : Fin 4) (q : Fin 32) (t : Fin 128) :
    qB m c b (ix4 (0 : Fin 1) q (0 : Fin 1) t) = m ((c : Thread nD τ).loc main_arg0) (ix4 b q (⟨hdN c, hdN_lt c⟩ : Fin 8) t) := by
  unfold qB
  show Qst m c ((rH b (hdN c) (hdN_lt c)).toLoadRect.idx (ix4 (0 : Fin 1) q (0 : Fin 1) t)) = _
  rw [Qst_at]
  refine congrArg (m _) (funext fun a => Fin.ext ?_)
  match a with
  | ⟨0, _⟩ => show b.val + 1 * 0 = b.val; omega
  | ⟨1, _⟩ => show 0 + 1 * q.val = q.val; omega
  | ⟨2, _⟩ => show hdN c + 1 * 0 = hdN c; omega
  | ⟨3, _⟩ => show 0 + 1 * t.val = t.val; omega

/-- The key block of batch b: the device's key block's rows (b, ·, head, ·). -/
theorem kB_at (c : Dev nD) (b : Fin 4) (k : Fin 4096) (t : Fin 128) :
    kB m c b (ix4 (0 : Fin 1) k (0 : Fin 1) t) = m ((c : Thread nD τ).loc main_arg1) (ix4 b k (⟨hdN c, hdN_lt c⟩ : Fin 8) t) := by
  unfold kB
  show kC m c ((rK b).toLoadRect.idx (ix4 (0 : Fin 1) k (0 : Fin 1) t)) = _
  unfold kC
  refine congrArg (m _) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

/-- The value block of batch b likewise. -/
theorem vB_at (c : Dev nD) (b : Fin 4) (k : Fin 4096) (t : Fin 128) :
    vB m c b (ix4 (0 : Fin 1) k (0 : Fin 1) t) = m ((c : Thread nD τ).loc main_arg2) (ix4 b k (⟨hdN c, hdN_lt c⟩ : Fin 8) t) := by
  unfold vB
  show vC m c ((rK b).toLoadRect.idx (ix4 (0 : Fin 1) k (0 : Fin 1) t)) = _
  unfold vC
  refine congrArg (m _) (funext fun a => Fin.ext ?_)
  match a with
  | ⟨0, _⟩ => show b.val + 1 * 0 = b.val; omega
  | ⟨1, _⟩ => show 0 + 1 * k.val = k.val; omega
  | ⟨2, _⟩ => rfl
  | ⟨3, _⟩ => show 0 + 1 * t.val = t.val; omega

end Blocks

/-! ## The mesh: halves and heads -/

/-- The partner of a device of the first eight is among the last eight, -/
theorem pr0_hi : ∀ c : Dev nD, c.val < 8 → 8 ≤ (pr 0 c).val := by decide
/-- and conversely. -/
theorem pr0_lo : ∀ c : Dev nD, 8 ≤ c.val → (pr 0 c).val < 8 := by decide
/-- The device of c's half that works on head h works on head h. -/
theorem hdN_hdDev : ∀ (c : Dev nD) (h : Fin 8), hdN (hdDev c h) = h.val := by decide

/-! ## At the extended reals -/

section Value
variable (m : (ℓ : Loc nD τ sig) → Buf (Elt Ideal) ℓ) (Q : SQ.Idx → EReal) (K V : SKV.Idx → EReal)
  (hQ : ∀ c : Dev nD, m ((c.tc : Thread nD τ).loc main_arg0) = Q)
  (hK : ∀ c : Dev nD, m ((c.tc : Thread nD τ).loc main_arg1)
    = Layout.blockN ⟨4, ![4, 4096, 8, 128]⟩ ⟨4, ![4, 8192, 8, 128]⟩ (Layout.meshBlock [2, 2, 4] ![[], [0], [], []] c) K)
  (hV : ∀ c : Dev nD, m ((c.tc : Thread nD τ).loc main_arg2)
    = Layout.blockN ⟨4, ![4, 4096, 8, 128]⟩ ⟨4, ![4, 8192, 8, 128]⟩ (Layout.meshBlock [2, 2, 4] ![[], [0], [], []] c) V)

include hQ in
/-- Every device's query block of batch b is the query array's rows of its head. -/
theorem qB_Q (c : Dev nD) (b : Fin 4) (q : Fin 32) (t : Fin 128) :
    qB m c b (ix4 (0 : Fin 1) q (0 : Fin 1) t) = Q (ix4 b q (⟨hdN c, hdN_lt c⟩ : Fin 8) t) := by
  rw [qB_at]; exact congrFun (hQ c) _

include hQ in
/-- The two halves of a head load the same query block. -/
theorem qB_partner (c : Dev nD) (b : Fin 4) : qB m (pr 0 c) b = qB m c b := by
  funext j
  obtain ⟨u, q, w, t, rfl⟩ : ∃ (u : Fin 1) (q : Fin 32) (w : Fin 1) (t : Fin 128), j = ix4 u q w t :=
    ⟨j 0, j 1, j 2, j 3, eq_ix4 j⟩
  obtain rfl : u = 0 := Subsingleton.elim _ _
  obtain rfl : w = 0 := Subsingleton.elim _ _
  rw [qB_Q m Q hQ, qB_Q m Q hQ]
  exact congrArg (fun h : Fin 8 => Q (ix4 b q h t)) (Fin.ext (hdN_pr0 c))

include hK in
theorem kB_lo (c : Dev nD) (hc : c.val < 8) (b : Fin 4) (k : Fin 4096) (t : Fin 128) :
    kB m c b (ix4 (0 : Fin 1) k (0 : Fin 1) t) = K (ix4 b (keyLo k) (⟨hdN c, hdN_lt c⟩ : Fin 8) t) := by
  rw [kB_at, hK c]; exact block_apply_lo c hc K b k _ t
include hK in
theorem kB_hi (c : Dev nD) (hc : 8 ≤ c.val) (b : Fin 4) (k : Fin 4096) (t : Fin 128) :
    kB m c b (ix4 (0 : Fin 1) k (0 : Fin 1) t) = K (ix4 b (keyHi k) (⟨hdN c, hdN_lt c⟩ : Fin 8) t) := by
  rw [kB_at, hK c]; exact block_apply_hi c hc K b k _ t
include hV in
theorem vB_lo (c : Dev nD) (hc : c.val < 8) (b : Fin 4) (k : Fin 4096) (t : Fin 128) :
    vB m c b (ix4 (0 : Fin 1) k (0 : Fin 1) t) = V (ix4 b (keyLo k) (⟨hdN c, hdN_lt c⟩ : Fin 8) t) := by
  rw [vB_at, hV c]; exact block_apply_lo c hc V b k _ t
include hV in
theorem vB_hi (c : Dev nD) (hc : 8 ≤ c.val) (b : Fin 4) (k : Fin 4096) (t : Fin 128) :
    vB m c b (ix4 (0 : Fin 1) k (0 : Fin 1) t) = V (ix4 b (keyHi k) (⟨hdN c, hdN_lt c⟩ : Fin 8) t) := by
  rw [vB_at, hV c]; exact block_apply_hi c hc V b k _ t

/-- The partner's head, as an index, is the device's. -/
theorem head_partner (c : Dev nD) : (⟨hdN (pr 0 c), hdN_lt (pr 0 c)⟩ : Fin 8) = ⟨hdN c, hdN_lt c⟩ := Fin.ext (hdN_pr0 c)

include hQ hK hV in
/-- The merged block of batch b on device c is attention's rows (b, ·, head of c, ·). -/
theorem mB_eq_attn (c : Dev nD) (b : Fin 4) (q : Fin 32) (d : Fin 128) :
    mB m c b (ix4 (0 : Fin 1) q (0 : Fin 1) d) = attn Q K V (ix4 b q (⟨hdN c, hdN_lt c⟩ : Fin 8) d) := by
  unfold mB oB lB
  rw [qB_partner m Q hQ c b]
  by_cases hc : c.val < 8
  · have hp : 8 ≤ (pr 0 c).val := pr0_hi c hc
    exact merge_eq_attn Q K V b ⟨hdN c, hdN_lt c⟩ (qB m c b) (kB m c b) (vB m c b) (kB m (pr 0 c) b) (vB m (pr 0 c) b)
      (qB_Q m Q hQ c b) (kB_lo m K hK c hc b)
      (fun k t => by rw [kB_hi m K hK (pr 0 c) hp b k t, head_partner])
      (vB_lo m V hV c hc b)
      (fun k t => by rw [vB_hi m V hV (pr 0 c) hp b k t, head_partner]) q d
  · have hc' : 8 ≤ c.val := Nat.le_of_not_lt hc
    have hp : (pr 0 c).val < 8 := pr0_lo c hc'
    rw [merge_comm]
    exact merge_eq_attn Q K V b ⟨hdN c, hdN_lt c⟩ (qB m c b) (kB m (pr 0 c) b) (vB m (pr 0 c) b) (kB m c b) (vB m c b)
      (qB_Q m Q hQ c b)
      (fun k t => by rw [kB_lo m K hK (pr 0 c) hp b k t, head_partner])
      (kB_hi m K hK c hc' b)
      (fun k t => by rw [vB_lo m V hV (pr 0 c) hp b k t, head_partner])
      (vB_hi m V hV c hc' b) q d

include hQ hK hV in
/-- Every device's result buffer at the end is attention of the whole arrays. -/
theorem outC_eq_attn (c : Dev nD) : outC (F := Ideal) m c = attn Q K V := by
  funext i
  obtain ⟨b, q, h, d, rfl⟩ : ∃ (b : Fin 4) (q : Fin 32) (h : Fin 8) (d : Fin 128), i = ix4 b q h d :=
    ⟨i 0, i 1, i 2, i 3, eq_ix4 i⟩
  show mB m (hdDev c h) b (ix4 (0 : Fin 1) q (0 : Fin 1) d) = _
  rw [mB_eq_attn m Q K V hQ hK hV (hdDev c h) b q d]
  exact congrArg (fun h' : Fin 8 => attn Q K V (ix4 b q h' d)) (Fin.ext (hdN_hdDev c h))

end Value

/-- info: 'Cert.KernelIdeal.Flash.outC_eq_attn' depends on axioms: [propext, Classical.choice, Quot.sound] -/
#guard_msgs in #print axioms outC_eq_attn

end Cert.KernelIdeal.Flash

end
-- ==== Proof.RefRun.lean ====
/- The reference's run and its stages read at an index, brought into the build for the modules that use them. -/
import proofs.«900786_g7700000000000787_dist_flashdec_v7x_xyz2x2x4_x_b4_sq32_skv4096_h8_d128_f32_1_alg».proof.Defs
import proofs.«900786_g7700000000000787_dist_flashdec_v7x_xyz2x2x4_x_b4_sq32_skv4096_h8_d128_f32_1_alg».proof.Proof.Gen.ReferenceIdeal
import proofs.«900786_g7700000000000787_dist_flashdec_v7x_xyz2x2x4_x_b4_sq32_skv4096_h8_d128_f32_1_alg».proof.Proof.Gen.ReferenceIdeal.Run
import proofs.«900786_g7700000000000787_dist_flashdec_v7x_xyz2x2x4_x_b4_sq32_skv4096_h8_d128_f32_1_alg».proof.Proof.Gen.ReferenceIdeal.Read
-- ==== Proof.RefValue.lean ====
/-
  The reference is attention. The reference computes, one whole-array stage after another,
    S[b,h,q,k] = (Σ_d Q[b,q,h,d] · K[b,k,h,d]) · c,   m[b,h,q] = max_k S[b,h,q,k]  (a fold of max from −∞),
    P = exp (S − m),   l[b,h,q] = 0 + Σ_k P[b,h,q,k],   O[b,q,h,d] = Σ_k V[b,k,h,d] · (P[b,h,q,k] / l[b,h,q]),
  the last through a contraction into [4, 8, 128, 32] and a transposition. Each stage is read at an
  index given by its coordinates; the contraction over the features and the two reductions over the key
  positions become sums (a fold, for the maximum) over one coordinate. With every input entry a real
  number the scores are reals, their maximum is a real (the fold of max from −∞ over a nonempty set of
  reals), and the softmax shifted by that real is the unshifted softmax of the specification; the scale
  passes between the two arrangements (Σ q·k)·c = Σ (q·c)·k by distributivity over the reals.
-/
import proofs.«900786_g7700000000000787_dist_flashdec_v7x_xyz2x2x4_x_b4_sq32_skv4096_h8_d128_f32_1_alg».proof.Proof.RefRun
import proofs.«900786_g7700000000000787_dist_flashdec_v7x_xyz2x2x4_x_b4_sq32_skv4096_h8_d128_f32_1_alg».proof.Proof.Spec

noncomputable section

open scoped BigOperators

namespace Cert.Flash.Ref

open Idealize.ShloMosaic Idealize.ShloMosaic.ValueIdx Cert.ReferenceIdeal Cert.ReferenceIdeal.Read Cert.Flash

/-! ## The stages at explicit coordinates -/

section Stages

variable (Q : SQ.Idx → EReal) (K V : SKV.Idx → EReal)

/-- The scaled scores: the contraction over the features, times the scale. -/
theorem v2_at (b : Fin 4) (h : Fin 8) (q : Fin 32) (k : Fin 8192) :
    val_main_v2 (F := Ideal) Q K (ix4 b h q k) = (∑ d : Fin 128, Q (ix4 b q h d) * K (ix4 b k h d)) * cS := by
  rw [val_main_v2_apply, val_main_v0_apply, val_main_v1_apply, val_main_cst_apply]
  have el : ∀ d : Fin 128, lidx_main_v0 (ix4 b h q k) d = ix4 b q h d := fun d => funext fun a => by
    match a with | ⟨0, _⟩ => rfl | ⟨1, _⟩ => rfl | ⟨2, _⟩ => rfl | ⟨3, _⟩ => rfl
  have er : ∀ d : Fin 128, ridx_main_v0 (ix4 b h q k) d = ix4 b k h d := fun d => funext fun a => by
    match a with | ⟨0, _⟩ => rfl | ⟨1, _⟩ => rfl | ⟨2, _⟩ => rfl | ⟨3, _⟩ => rfl
  simp only [el, er]
  rfl

/-- The row maximum: the fold of `max` from −∞ (the word 0xFF800000) over the key positions. -/
theorem v3_at (b : Fin 4) (h : Fin 8) (q : Fin 32) :
    val_main_v3 (F := Ideal) Q K (ix3 b h q)
      = (Finset.univ : Finset (Fin 8192)).fold max ⊥ (fun k => val_main_v2 (F := Ideal) Q K (ix4 b h q k)) := by
  unfold val_main_v3
  have hR : S4x8x32x8192.Reduces [3] S4x8x32 := by decide
  rw [Host.reduce_eq_fold_single FloatOps.maximumf _ _ Gen.reducesTo_S4x8x32x8192_S4x8x32_d3 hR Gen.h_S_]
  have hl : ∀ k : Fin 8192, hR.lift (ix3 b h q) k = ix4 b h q k := fun k => funext fun a => Fin.ext (by
    match a with | ⟨0, _⟩ => rfl | ⟨1, _⟩ => rfl | ⟨2, _⟩ => rfl | ⟨3, _⟩ => rfl)
  have hb : val_main_cst_0 (F := Ideal) (Shape.Idx.first Gen.h_S_) = ⊥ := by
    rw [val_main_cst_0_apply]; simp [Ideal.ofBits, Ideal.ieee]
  rw [hb]
  show (Finset.univ : Finset (Fin 8192)).fold max ⊥ (fun k => val_main_v2 (F := Ideal) Q K (hR.lift (ix3 b h q) k)) = _
  exact Finset.fold_congr fun k _ => congrArg (val_main_v2 (F := Ideal) Q K) (hl k)

/-- The maximum broadcast back along the key positions. -/
theorem v5_at (b : Fin 4) (h : Fin 8) (q : Fin 32) (k : Fin 8192) :
    val_main_v5 (F := Ideal) Q K (ix4 b h q k) = val_main_v3 (F := Ideal) Q K (ix3 b h q) := by
  rw [val_main_v5_apply, val_main_v4_apply]
  exact congrArg _ (funext fun a => by match a with | ⟨0, _⟩ => rfl | ⟨1, _⟩ => rfl | ⟨2, _⟩ => rfl)

/-- The shifted weights. -/
theorem v7_at (b : Fin 4) (h : Fin 8) (q : Fin 32) (k : Fin 8192) :
    val_main_v7 (F := Ideal) Q K (ix4 b h q k)
      = Ideal.exp (val_main_v2 (F := Ideal) Q K (ix4 b h q k) - val_main_v3 (F := Ideal) Q K (ix3 b h q)) := by
  rw [val_main_v7_apply, val_main_v6_apply, v5_at]
  rfl

/-- The normaliser broadcast back: the sum of the shifted weights over the key positions, started at the zero word. -/
theorem v10_at (b : Fin 4) (h : Fin 8) (q : Fin 32) (k : Fin 8192) :
    val_main_v10 (F := Ideal) Q K (ix4 b h q k)
      = (0 : EReal) + ∑ k' : Fin 8192, val_main_v7 (F := Ideal) Q K (ix4 b h q k') := by
  rw [val_main_v10_apply, val_main_v9_apply, val_main_v8_apply, val_main_cst_1_apply]
  have hz : FloatOps.ofBits (F := Ideal) .f32 0x00000000#32 = (0 : EReal) := Ideal.ofBits_zero_f32
  rw [hz]
  refine congrArg ((0 : EReal) + ·) (Finset.sum_congr rfl fun k' _ => congrArg _ (funext fun a => ?_))
  match a with | ⟨0, _⟩ => rfl | ⟨1, _⟩ => rfl | ⟨2, _⟩ => rfl | ⟨3, _⟩ => rfl

/-- The result: the values contracted against the normalised weights over the key positions, transposed to [b, q, h, d]. -/
theorem v13_at (b : Fin 4) (q : Fin 32) (h : Fin 8) (d : Fin 128) :
    val_main_v13 (F := Ideal) Q K V (ix4 b q h d)
      = ∑ k : Fin 8192, V (ix4 b k h d) * Ideal.div (val_main_v7 (F := Ideal) Q K (ix4 b h q k)) (val_main_v10 (F := Ideal) Q K (ix4 b h q k)) := by
  rw [val_main_v13_apply, val_main_v12_apply]
  refine Finset.sum_congr rfl fun k _ => ?_
  have el : lidx_main_v12 (idx_main_v13 (ix4 b q h d)) k = ix4 b k h d := funext fun a => by
    match a with | ⟨0, _⟩ => rfl | ⟨1, _⟩ => rfl | ⟨2, _⟩ => rfl | ⟨3, _⟩ => rfl
  have er : ridx_main_v12 (idx_main_v13 (ix4 b q h d)) k = ix4 b h q k := funext fun a => by
    match a with | ⟨0, _⟩ => rfl | ⟨1, _⟩ => rfl | ⟨2, _⟩ => rfl | ⟨3, _⟩ => rfl
  rw [el, er, val_main_v11_apply]
  rfl

end Stages

/-! ## Real witnesses -/

/-- A fold of `max` from −∞ over a nonempty finite set of reals is a real. -/
theorem fold_max_real {ι : Type*} (s : Finset ι) (hs : s.Nonempty) (f : ι → ℝ) :
    ∃ r : ℝ, s.fold max (⊥ : EReal) (fun k => (f k : EReal)) = (r : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_eq_left bot_le]⟩
    · obtain ⟨r, hr⟩ := ih hne
      exact ⟨max (f a) r, by rw [hr]; exact (EReal.coe_strictMono.monotone.map_max).symm⟩

/-- The reference's arrangement of a real score: the scale multiplies the finished contraction. -/
theorem score_ref_real (qf : SQ.Idx → ℝ) (kf : SKV.Idx → ℝ) (c : ℝ) (b : Fin 4) (q : Fin 32) (h : Fin 8) (k : Fin 8192) :
    (∑ d : Fin 128, ((qf (ix4 b q h d) : ℝ) : EReal) * ((kf (ix4 b k h d) : ℝ) : EReal)) * (c : EReal)
      = ((∑ d : Fin 128, (qf (ix4 b q h d) * c) * kf (ix4 b k h d) : ℝ) : EReal) := by
  simp only [← EReal.coe_mul, ← coe_sum]
  rw [EReal.coe_eq_coe_iff, Finset.sum_mul]
  exact Finset.sum_congr rfl fun _ _ => by ring

/-- The specification's arrangement of the same real score: the scale multiplies the query's feature. -/
theorem score_spec_real (qf : SQ.Idx → ℝ) (kf : SKV.Idx → ℝ) (c : ℝ) (b : Fin 4) (q : Fin 32) (h : Fin 8) (k : Fin 8192) :
    (∑ d : Fin 128, (((qf (ix4 b q h d) : ℝ) : EReal) * (c : EReal)) * ((kf (ix4 b k h d) : ℝ) : EReal))
      = ((∑ d : Fin 128, (qf (ix4 b q h d) * c) * kf (ix4 b k h d) : ℝ) : EReal) := by
  simp only [← EReal.coe_mul, ← coe_sum]

/-! ## The reference's result is the specification -/

/-- With every entry of the three inputs a real number, the reference's last stage (the term its run
    leaves in the result array) is `attn`. -/
theorem ref_eq_attn (Q : SQ.Idx → EReal) (K V : SKV.Idx → EReal)
    (hQ : ∀ i, ∃ r : ℝ, Q i = (r : EReal)) (hK : ∀ i, ∃ r : ℝ, K i = (r : EReal))
    (hV : ∀ i, ∃ r : ℝ, V i = (r : EReal)) :
    val_main_v13 (F := Ideal) Q K V = attn Q K V := by
  funext i
  obtain ⟨b, q, h, d, rfl⟩ : ∃ (b : Fin 4) (q : Fin 32) (h : Fin 8) (d : Fin 128), i = ix4 b q h d :=
    ⟨i 0, i 1, i 2, i 3, eq_ix4 i⟩
  rw [attn_ix4, v13_at]
  choose qf hqf using hQ
  choose kf hkf using hK
  choose vf hvf using hV
  obtain ⟨c, hc⟩ := cS_real
  have hs2 : ∀ k : Fin 8192, val_main_v2 (F := Ideal) Q K (ix4 b h q k)
      = ((∑ d' : Fin 128, (qf (ix4 b q h d') * c) * kf (ix4 b k h d') : ℝ) : EReal) := fun k => by
    rw [v2_at]; simp only [hqf, hkf, hc]; exact score_ref_real qf kf c b q h k
  have hsc : ∀ k : Fin 8192, score Q K b q h k
      = ((∑ d' : Fin 128, (qf (ix4 b q h d') * c) * kf (ix4 b k h d') : ℝ) : EReal) := fun k => by
    unfold score; simp only [hqf, hkf, hc]; exact score_spec_real qf kf c b q h k
  obtain ⟨m, hm⟩ : ∃ m : ℝ, val_main_v3 (F := Ideal) Q K (ix3 b h q) = (m : EReal) := by
    rw [v3_at]; simp only [hs2]
    exact fold_max_real _ Finset.univ_nonempty _
  unfold attnAt
  simp only [v10_at, v7_at, hs2, hm, hsc, hvf]
  exact softmax_shift (fun k : Fin 8192 => ∑ d' : Fin 128, (qf (ix4 b q h d') * c) * kf (ix4 b k h d'))
    (fun k => vf (ix4 b k h d)) m

/-- info: 'Cert.Flash.Ref.ref_eq_attn' depends on axioms: [propext, Classical.choice, Quot.sound] -/
#guard_msgs in #print axioms ref_eq_attn

end Cert.Flash.Ref

end
-- ==== Proof.RefFrame.lean ====
/-
  The reference's frame: it runs to the end without a fault and leaves its three argument arrays as
  it found them. This is the reference's run — every stage written to its own result buffer, the
  arguments never written — with the statement about the result array dropped.
-/
import proofs.«900786_g7700000000000787_dist_flashdec_v7x_xyz2x2x4_x_b4_sq32_skv4096_h8_d128_f32_1_alg».proof.Proof.RefRun
import proofs.«900786_g7700000000000787_dist_flashdec_v7x_xyz2x2x4_x_b4_sq32_skv4096_h8_d128_f32_1_alg».proof.Proof.Gen.Pre_finite_inputs_ReferenceIdeal

noncomputable section

namespace Cert.Flash.Ref

open Idealize.ShloMosaic Idealize.SL.Sem

/-- The reference terminates from every memory (the precondition is not used) with its arguments unchanged. -/
theorem frame_ri : Cert.frame_ReferenceIdeal :=
  fun m ρ _ => (θ_run Cert.ReferenceIdeal.defs _ _).mono (fun _ h c => (h c).2)
    (Cert.ReferenceIdeal.Value.run (F := Ideal) m ρ)

/-- info: 'Cert.Flash.Ref.frame_ri' depends on axioms: [propext, Classical.choice, Quot.sound] -/
#guard_msgs in #print axioms frame_ri

end Cert.Flash.Ref

end
-- ==== Proof.lean ====
/-
  The certificate of the distributed attention kernel: sixteen devices, each computing, for one head and its
  half of the 8192 key positions, the exponential weights exp(q·kᵀ·c) WITHOUT a subtracted maximum, their row
  sums and the weighted sums of the values; the two halves of a head exchange their partial results and merge
  them as (o + o′)/(l + l′); every merged block is then copied to the seven other heads of the half, so that
  every device ends with the whole result. The reference, on one device over the whole arrays, is attention
  with the softmax's maximum subtracted.

  The five claims:
  * the word-level kernel runs to the end from every memory, leaving its arguments as they were: its run, the
    statement about the result dropped;
  * the same for the kernel read over the extended reals;
  * the reference runs to the end leaving its arguments as they were: its generated run, the result dropped;
  * the idealized kernel is the word-level kernel's own text (no rewrite was made): nothing to prove;
  * over the extended reals, from finite inputs, both programs end with the same array. That array is
    attention written without the maximum, `Cert.Flash.attn` of the reference's whole arrays. On the kernel's
    side every device's result buffer ends as `outC`: row (b, ·, h, ·) the merged block of the device of its
    half working on head h, and the merge of the two halves' partial sums is the quotient of the sums over
    all 8192 key positions. On the reference's side every entry of the whole arrays is a real number (each
    lies in the block of device 0 or of device 8, and the precondition makes every block's entries finite),
    so the row maximum is a real m and exp(s − m)/Σ exp(s − m) = exp s/Σ exp s.
-/
import proofs.«900786_g7700000000000787_dist_flashdec_v7x_xyz2x2x4_x_b4_sq32_skv4096_h8_d128_f32_1_alg».proof.Defs
import proofs.«900786_g7700000000000787_dist_flashdec_v7x_xyz2x2x4_x_b4_sq32_skv4096_h8_d128_f32_1_alg».proof.Proof.Gen.Kernel
import proofs.«900786_g7700000000000787_dist_flashdec_v7x_xyz2x2x4_x_b4_sq32_skv4096_h8_d128_f32_1_alg».proof.Proof.Gen.KernelIdeal
import proofs.«900786_g7700000000000787_dist_flashdec_v7x_xyz2x2x4_x_b4_sq32_skv4096_h8_d128_f32_1_alg».proof.Proof.Gen.ReferenceIdeal
import proofs.«900786_g7700000000000787_dist_flashdec_v7x_xyz2x2x4_x_b4_sq32_skv4096_h8_d128_f32_1_alg».proof.Proof.Gen.Pre_finite_inputs_Kernel
import proofs.«900786_g7700000000000787_dist_flashdec_v7x_xyz2x2x4_x_b4_sq32_skv4096_h8_d128_f32_1_alg».proof.Proof.Gen.Pre_finite_inputs_ReferenceIdeal
import proofs.«900786_g7700000000000787_dist_flashdec_v7x_xyz2x2x4_x_b4_sq32_skv4096_h8_d128_f32_1_alg».proof.Proof.Launch
import proofs.«900786_g7700000000000787_dist_flashdec_v7x_xyz2x2x4_x_b4_sq32_skv4096_h8_d128_f32_1_alg».proof.Proof.Word.Launch
import proofs.«900786_g7700000000000787_dist_flashdec_v7x_xyz2x2x4_x_b4_sq32_skv4096_h8_d128_f32_1_alg».proof.Proof.Final
import proofs.«900786_g7700000000000787_dist_flashdec_v7x_xyz2x2x4_x_b4_sq32_skv4096_h8_d128_f32_1_alg».proof.Proof.Blocks
import proofs.«900786_g7700000000000787_dist_flashdec_v7x_xyz2x2x4_x_b4_sq32_skv4096_h8_d128_f32_1_alg».proof.Proof.RefValue
import proofs.«900786_g7700000000000787_dist_flashdec_v7x_xyz2x2x4_x_b4_sq32_skv4096_h8_d128_f32_1_alg».proof.Proof.RefFrame

noncomputable section

namespace Cert.Proof

open Idealize.ShloMosaic Idealize.SL.Sem

/-- The word-level kernel terminates from every memory with its arguments unchanged. -/
theorem frame_k : Cert.frame_Kernel :=
  fun m ρ _ => (θ_run Cert.Kernel.defs _ _).mono (fun _ h c => (h c).2) (Cert.Kernel.Flash.run_main (F := Bits) m ρ)

/-- The kernel over the extended reals likewise. -/
theorem frame_ki : Cert.frame_KernelIdeal :=
  fun m ρ _ => (θ_run Cert.KernelIdeal.defs _ _).mono (fun _ h c => (h c).2) (Cert.KernelIdeal.Flash.run_main (F := Ideal) m ρ)

/-- Over the extended reals, from finite inputs, every device of the kernel and the reference end with
    attention of the reference's whole arrays. -/
theorem algebraic : Cert.algebraic_KernelIdeal_ReferenceIdeal := by
  intro m ρ m' ρ' hpre hagree
  obtain ⟨hrQ, hrK, hrV⟩ := Cert.KernelIdeal.Flash.whole_real_of_blocks m m' hpre hagree
  refine ⟨Cert.Flash.attn
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono
      (fun _ h c => ⟨(h c).1.trans (Cert.KernelIdeal.Flash.outC_eq_attn m _ _ _
          (fun c => (hagree c).1) (fun c => (hagree c).2.1) (fun c => (hagree c).2.2) c), (h c).2⟩)
      (Cert.KernelIdeal.Flash.run_main (F := Ideal) m ρ)
  · exact (θ_run Cert.ReferenceIdeal.defs _ _).mono
      (fun _ h => ⟨by rw [(h 0).1, Cert.ReferenceIdeal.Read.val_main_v13_eq, Cert.Flash.Ref.ref_eq_attn _ _ _ hrQ hrK hrV], (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Flash.Ref.frame_ri, trivial, algebraic⟩

/-- info: 'Cert.Proof.claim' depends on axioms: [propext, Classical.choice, Quot.sound] -/
#guard_msgs in #print axioms claim

end Cert.Proof

end
